-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 512]⟩ ⟨2, ![512, 8192]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 512]⟩ ⟨2, ![8192, 512]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 512]⟩ ⟨2, ![512, 8192]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 512]⟩ ⟨2, ![512, 8192]⟩ 1 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2x128x512 : Shape := ⟨3, ![2, 128, 512]⟩
abbrev S512x512 : Shape := ⟨2, ![512, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_arg4 : FVec F S512x512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  main_v23

def fn {F : FTy → Type} [FloatOps F] (main_arg0 : FVec F S2x128x512 .f32) (main_arg1 : FVec F S512x512 .f32) (main_arg2 : FVec F S512x512 .f32) (main_arg3 : FVec F S512x512 .f32) (main_arg4 : FVec F S512x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_v13 main_v16
-- ==== Pre_finite_inputs_ReferenceIdeal.lean ====
abbrev S2x128x512 : Shape := ⟨3, ![2, 128, 512]⟩
abbrev S512x8192 : Shape := ⟨2, ![512, 8192]⟩
abbrev S8192x512 : Shape := ⟨2, ![8192, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x8192 : S_.BroadcastsInDim S512x8192 (![] : Fin 0 → Fin S512x8192.rank)
  reducesTo_S512x8192_S_d0_1 : S512x8192.ReducesTo [0, 1] S_
  bcast_S_S8192x512 : S_.BroadcastsInDim S8192x512 (![] : Fin 0 → Fin S8192x512.rank)
  reducesTo_S8192x512_S_d0_1 : S8192x512.ReducesTo [0, 1] S_

variable [Facts]

def fn_part1 {F : FTy → Type} [FloatOps F] (main_arg4 : FVec F S512x8192 .f32) (main_v13 : IVec S_ 1) (main_v16 : IVec S512x8192 1) : IVec S_ 1 :=
  let main_c_5 : IVec S_ 1 := constantI S_ 1 1#1
  let main_v17 : IVec S_ 1 := (fun x v => Host.reduce IntOp.andi x v reducesTo_S512x8192_S_d0_1 h_S_) main_v16 main_c_5
  let main_v18 : IVec S_ 1 := andi main_v13 main_v17
  let main_v19 : FVec F S512x8192 .f32 := Host.absf main_arg4
  let main_cst_6 : FVec F S_ .f32 := constant S_ .f32 0x7F800000#32
  let main_v20 : FVec F S512x8192 .f32 := broadcastInDim S512x8192 ![] bcast_S_S512x8192 main_cst_6
  let main_v21 : IVec S512x8192 1 := cmpf .olt main_v19 main_v20
  let main_c_7 : IVec S_ 1 := constantI S_ 1 1#1
  let main_v22 : IVec S_ 1 := (fun x v => Host.reduce IntOp.andi x v reducesTo_S512x8192_S_d0_1 h_S_) main_v21 main_c_7
  let main_v23 : IVec S_ 1 := andi main_v18 main_v22
  main_v23

def fn {F : FTy → Type} [FloatOps F] (main_arg0 : FVec F S2x128x512 .f32) (main_arg1 : FVec F S512x8192 .f32) (main_arg2 : FVec F S8192x512 .f32) (main_arg3 : FVec F S512x8192 .f32) (main_arg4 : FVec F S512x8192 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x8192 .f32 := Host.absf main_arg1
  let main_cst_0 : FVec F S_ .f32 := constant S_ .f32 0x7F800000#32
  let main_v5 : FVec F S512x8192 .f32 := broadcastInDim S512x8192 ![] bcast_S_S512x8192 main_cst_0
  let main_v6 : IVec S512x8192 1 := cmpf .olt main_v4 main_v5
  let main_c_1 : IVec S_ 1 := constantI S_ 1 1#1
  let main_v7 : IVec S_ 1 := (fun x v => Host.reduce IntOp.andi x v reducesTo_S512x8192_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S512x8192 .f32 := Host.absf main_arg3
  let main_cst_4 : FVec F S_ .f32 := constant S_ .f32 0x7F800000#32
  let main_v15 : FVec F S512x8192 .f32 := broadcastInDim S512x8192 ![] bcast_S_S512x8192 main_cst_4
  let main_v16 : IVec S512x8192 1 := cmpf .olt main_v14 main_v15
  fn_part1 (F := F) main_arg4 main_v13 main_v16
-- ==== Kernel.lean ====
abbrev S2x128x512 : Shape := ⟨3, ![2, 128, 512]⟩
abbrev S512x512 : Shape := ⟨2, ![512, 512]⟩
abbrev S4x256x128 : Shape := ⟨3, ![4, 256, 128]⟩
abbrev S3x4x3x256x128 : Shape := ⟨5, ![3, 4, 3, 256, 128]⟩
abbrev S3x4x3 : Shape := ⟨3, ![3, 4, 3]⟩
abbrev S_ : Shape := ⟨0, ![]⟩
abbrev S256x512 : Shape := ⟨2, ![256, 512]⟩
abbrev S256x8x64 : Shape := ⟨3, ![256, 8, 64]⟩
abbrev S8x256x64 : Shape := ⟨3, ![8, 256, 64]⟩
abbrev S8x256x256 : Shape := ⟨3, ![8, 256, 256]⟩
abbrev S256x256 : Shape := ⟨2, ![256, 256]⟩
abbrev S1x256x256 : Shape := ⟨3, ![1, 256, 256]⟩
abbrev S8x256 : Shape := ⟨2, ![8, 256]⟩
abbrev S8x256x1 : Shape := ⟨3, ![8, 256, 1]⟩
abbrev S512x128 : Shape := ⟨2, ![512, 128]⟩
abbrev S256x128 : Shape := ⟨2, ![256, 128]⟩
abbrev S1x256x128 : Shape := ⟨3, ![1, 256, 128]⟩
abbrev S1x1x1 : Shape := ⟨3, ![1, 1, 1]⟩
abbrev S1x1x1x256x128 : Shape := ⟨5, ![1, 1, 1, 256, 128]⟩
abbrev S2x128x128 : Shape := ⟨3, ![2, 128, 128]⟩

abbrev nBuf : Space → Nat
  | .hbm => 6
  | .vmem => 9
  | .smem => 0
  | _ => 0

abbrev bufTy : (tb : Table) → Fin (tcTables nBuf tb) → BufTy
  | .hbm, ⟨0, _⟩ => ⟨S2x128x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S2x128x512, .f32⟩
  | .local _ .vmem, ⟨0, _⟩ => ⟨S2x128x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S2x128x512, .f32⟩
  | .local _ .vmem, ⟨6, _⟩ => ⟨S4x256x128, .f32⟩
  | .local _ .vmem, ⟨7, _⟩ => ⟨S4x256x128, .bf16⟩
  | .local _ .vmem, ⟨8, _⟩ => ⟨S3x4x3x256x128, .bf16⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  (ofTc nBuf bufTy 1 78 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v10 : BitVec 32 := Scalar.xori v2 c3_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v13 : BitVec 32 := Scalar.xori v2 c4_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v16 : BitVec 32 := Scalar.xori v2 c8_i32
  let c1_i32_13 : BitVec 32 := 1#32
  let v17 : BitVec 32 := Scalar.muli v16 c1_i32_13
  let v18 : BitVec 32 := Scalar.addi c0_i32_14 v17
  v18.toNat
def k0_dev6 (d0 : Dev nD) : Nat :=
  let c0_i32_65 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_53 : BitVec 32 := 1#32
  let v126 : BitVec 32 := Scalar.xori v2 c1_i32_53
  let c1_i32_64 : BitVec 32 := 1#32
  let v127 : BitVec 32 := Scalar.muli v126 c1_i32_64
  let v128 : BitVec 32 := Scalar.addi c0_i32_65 v127
  v128.toNat
def k0_dev7 (d0 : Dev nD) : Nat :=
  let c0_i32_82 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_70 : BitVec 32 := 2#32
  let v137 : BitVec 32 := Scalar.xori v2 c2_i32_70
  let c1_i32_81 : BitVec 32 := 1#32
  let v138 : BitVec 32 := Scalar.muli v137 c1_i32_81
  let v139 : BitVec 32 := Scalar.addi c0_i32_82 v138
  v139.toNat
def k0_dev8 (d0 : Dev nD) : Nat :=
  let c0_i32_99 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_87 : BitVec 32 := 3#32
  let v148 : BitVec 32 := Scalar.xori v2 c3_i32_87
  let c1_i32_98 : BitVec 32 := 1#32
  let v149 : BitVec 32 := Scalar.muli v148 c1_i32_98
  let v150 : BitVec 32 := Scalar.addi c0_i32_99 v149
  v150.toNat
def k0_dev9 (d0 : Dev nD) : Nat :=
  let c0_i32_122 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_110 : BitVec 32 := 4#32
  let v168 : BitVec 32 := Scalar.xori v2 c4_i32_110
  let c1_i32_121 : BitVec 32 := 1#32
  let v169 : BitVec 32 := Scalar.muli v168 c1_i32_121
  let v170 : BitVec 32 := Scalar.addi c0_i32_122 v169
  v170.toNat
def k0_dev10 (d0 : Dev nD) : Nat :=
  let c0_i32_145 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_133 : BitVec 32 := 8#32
  let v188 : BitVec 32 := Scalar.xori v2 c8_i32_133
  let c1_i32_144 : BitVec 32 := 1#32
  let v189 : BitVec 32 := Scalar.muli v188 c1_i32_144
  let v190 : BitVec 32 := Scalar.addi c0_i32_145 v189
  v190.toNat
def k0_dev11 (d0 : Dev nD) : Nat :=
  let c0_i32_168 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_156 : BitVec 32 := 1#32
  let v208 : BitVec 32 := Scalar.xori v2 c1_i32_156
  let c1_i32_167 : BitVec 32 := 1#32
  let v209 : BitVec 32 := Scalar.muli v208 c1_i32_167
  let v210 : BitVec 32 := Scalar.addi c0_i32_168 v209
  v210.toNat
def k0_dev12 (d0 : Dev nD) : Nat :=
  let c0_i32_185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_173 : BitVec 32 := 2#32
  let v219 : BitVec 32 := Scalar.xori v2 c2_i32_173
  let c1_i32_184 : BitVec 32 := 1#32
  let v220 : BitVec 32 := Scalar.muli v219 c1_i32_184
  let v221 : BitVec 32 := Scalar.addi c0_i32_185 v220
  v221.toNat
def k0_dev13 (d0 : Dev nD) : Nat :=
  let c0_i32_202 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_190 : BitVec 32 := 3#32
  let v230 : BitVec 32 := Scalar.xori v2 c3_i32_190
  let c1_i32_201 : BitVec 32 := 1#32
  let v231 : BitVec 32 := Scalar.muli v230 c1_i32_201
  let v232 : BitVec 32 := Scalar.addi c0_i32_202 v231
  v232.toNat
def k0_dev14 (d0 : Dev nD) : Nat :=
  let c0_i32_336 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_324 : BitVec 32 := 4#32
  let v304 : BitVec 32 := Scalar.xori v2 c4_i32_324
  let c1_i32_335 : BitVec 32 := 1#32
  let v305 : BitVec 32 := Scalar.muli v304 c1_i32_335
  let v306 : BitVec 32 := Scalar.addi c0_i32_336 v305
  v306.toNat
def k0_dev15 (d0 : Dev nD) : Nat :=
  let c0_i32_398 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_386 : BitVec 32 := 8#32
  let v342 : BitVec 32 := Scalar.xori v2 c8_i32_386
  let c1_i32_397 : BitVec 32 := 1#32
  let v343 : BitVec 32 := Scalar.muli v342 c1_i32_397
  let v344 : BitVec 32 := Scalar.addi c0_i32_398 v343
  v344.toNat
def k0_dev16 (d0 : Dev nD) : Nat :=
  let c0_i32_460 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_448 : BitVec 32 := 1#32
  let v380 : BitVec 32 := Scalar.xori v2 c1_i32_448
  let c1_i32_459 : BitVec 32 := 1#32
  let v381 : BitVec 32 := Scalar.muli v380 c1_i32_459
  let v382 : BitVec 32 := Scalar.addi c0_i32_460 v381
  v382.toNat
def k0_dev17 (d0 : Dev nD) : Nat :=
  let c0_i32_477 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_465 : BitVec 32 := 2#32
  let v391 : BitVec 32 := Scalar.xori v2 c2_i32_465
  let c1_i32_476 : BitVec 32 := 1#32
  let v392 : BitVec 32 := Scalar.muli v391 c1_i32_476
  let v393 : BitVec 32 := Scalar.addi c0_i32_477 v392
  v393.toNat
def k0_dev18 (d0 : Dev nD) : Nat :=
  let c0_i32_494 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_482 : BitVec 32 := 3#32
  let v402 : BitVec 32 := Scalar.xori v2 c3_i32_482
  let c1_i32_493 : BitVec 32 := 1#32
  let v403 : BitVec 32 := Scalar.muli v402 c1_i32_493
  let v404 : BitVec 32 := Scalar.addi c0_i32_494 v403
  v404.toNat
def k0_dev19 (d0 : Dev nD) : Nat :=
  let c0_i32_628 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_616 : BitVec 32 := 8#32
  let v476 : BitVec 32 := Scalar.xori v2 c8_i32_616
  let c1_i32_627 : BitVec 32 := 1#32
  let v477 : BitVec 32 := Scalar.muli v476 c1_i32_627
  let v478 : BitVec 32 := Scalar.addi c0_i32_628 v477
  v478.toNat
def k0_dev20 (d0 : Dev nD) : Nat :=
  let c0_i32_690 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_678 : BitVec 32 := 8#32
  let v514 : BitVec 32 := Scalar.xori v2 c8_i32_678
  let c1_i32_689 : BitVec 32 := 1#32
  let v515 : BitVec 32 := Scalar.muli v514 c1_i32_689
  let v516 : BitVec 32 := Scalar.addi c0_i32_690 v515
  v516.toNat
def k0_dev21 (d0 : Dev nD) : Nat :=
  let c0_i32_752 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_740 : BitVec 32 := 1#32
  let v552 : BitVec 32 := Scalar.xori v2 c1_i32_740
  let c1_i32_751 : BitVec 32 := 1#32
  let v553 : BitVec 32 := Scalar.muli v552 c1_i32_751
  let v554 : BitVec 32 := Scalar.addi c0_i32_752 v553
  v554.toNat
def k0_dev22 (d0 : Dev nD) : Nat :=
  let c0_i32_769 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_757 : BitVec 32 := 2#32
  let v563 : BitVec 32 := Scalar.xori v2 c2_i32_757
  let c1_i32_768 : BitVec 32 := 1#32
  let v564 : BitVec 32 := Scalar.muli v563 c1_i32_768
  let v565 : BitVec 32 := Scalar.addi c0_i32_769 v564
  v565.toNat
def k0_dev23 (d0 : Dev nD) : Nat :=
  let c0_i32_786 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_774 : BitVec 32 := 3#32
  let v574 : BitVec 32 := Scalar.xori v2 c3_i32_774
  let c1_i32_785 : BitVec 32 := 1#32
  let v575 : BitVec 32 := Scalar.muli v574 c1_i32_785
  let v576 : BitVec 32 := Scalar.addi c0_i32_786 v575
  v576.toNat
def k0_dev24 (d0 : Dev nD) : Nat :=
  let c0_i32_920 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_908 : BitVec 32 := 4#32
  let v648 : BitVec 32 := Scalar.xori v2 c4_i32_908
  let c1_i32_919 : BitVec 32 := 1#32
  let v649 : BitVec 32 := Scalar.muli v648 c1_i32_919
  let v650 : BitVec 32 := Scalar.addi c0_i32_920 v649
  v650.toNat
def k0_dev25 (d0 : Dev nD) : Nat :=
  let c0_i32_982 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_970 : BitVec 32 := 4#32
  let v686 : BitVec 32 := Scalar.xori v2 c4_i32_970
  let c1_i32_981 : BitVec 32 := 1#32
  let v687 : BitVec 32 := Scalar.muli v686 c1_i32_981
  let v688 : BitVec 32 := Scalar.addi c0_i32_982 v687
  v688.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

class Facts₀ : Prop where
  hamt_1 : (1#32 : BitVec 32).msb = false
  hamt_5 : (5#32 : BitVec 32).msb = false
  inb_S2x128x512_S2x128x512_0_0_0 : ∀ a, (![0, 0, 0] : Fin 3 → Nat) a + S2x128x512.size a ≤ S2x128x512.size a
  h_S2x128x512 : 0 < S2x128x512.numel
  shapeCasts_S2x128x512_S2x128x512 : S2x128x512.ShapeCasts S2x128x512
  shapeCasts_S2x128x512_S256x512 : S2x128x512.ShapeCasts S256x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S256x512_S256x8x64 : S256x512.ShapeCasts S256x8x64
  transposes_S256x8x64_p1_0_2_S8x256x64 : S256x8x64.Transposes [1, 0, 2] S8x256x64
  iota_S256x256_d0_w32 : S256x256.Iotas .tc 32 [0]
  natLt_1_32 : 1 < 32
  iota_S256x256_d1_w32 : S256x256.Iotas .tc 32 [1]
  shapeCasts_S256x256_S1x256x256 : S256x256.ShapeCasts S1x256x256
  broadcasts_S1x256x256_S8x256x256 : S1x256x256.Broadcasts S8x256x256
  reduces_S8x256x256_S8x256 : S8x256x256.Reduces [2] S8x256
  shapeCasts_S8x256_S8x256x1 : S8x256.ShapeCasts S8x256x1
  broadcasts_S8x256x1_S8x256x64 : S8x256x1.Broadcasts S8x256x64
  transposes_S8x256x64_p1_0_2_S256x8x64 : S8x256x64.Transposes [1, 0, 2] S256x8x64
  shapeCasts_S256x8x64_S256x512 : S256x8x64.ShapeCasts S256x512
  slices_S512x512_o0_0_S512x128 : S512x512.Slices ![0, 0] S512x128
  inb_S4x256x128_S1x256x128_0_0_0 : ∀ a, (![0, 0, 0] : Fin 3 → Nat) a + S1x256x128.size a ≤ S4x256x128.size a
  h_S1x256x128 : 0 < S1x256x128.numel
  shapeCasts_S1x256x128_S256x128 : S1x256x128.ShapeCasts S256x128
  shapeCasts_S256x128_S1x256x128 : S256x128.ShapeCasts S1x256x128
  packedbf16_S4x256x128_S1x256x128_0_0_0 : (Rect.unit (s := S4x256x128) ![0, 0, 0] S1x256x128.size inb_S4x256x128_S1x256x128_0_0_0).PackedRows (EltTy.packing .bf16)
  inb_S3x4x3_S1x1x1_0_0_0 : ∀ a, (![0, 0, 0] : Fin 3 → Nat) a + S1x1x1.size a ≤ S3x4x3.size a
  squeezes_S1x1x1_S_ : S1x1x1.Squeezes S_
  inb_S3x4x3x256x128_S1x1x1x256x128_0_0_0_0_0 : ∀ a, (![0, 0, 0, 0, 0] : Fin 5 → Nat) a + S1x1x1x256x128.size a ≤ S3x4x3x256x128.size a
  squeezes_S1x1x1x256x128_S256x128 : S1x1x1x256x128.Squeezes S256x128
  squeezes_S1x256x128_S256x128 : S1x256x128.Squeezes S256x128
  wordsbf16_S4x256x128_S1x256x128_0_0_0 : (Rect.unit (s := S4x256x128) ![0, 0, 0] S1x256x128.size inb_S4x256x128_S1x256x128_0_0_0).WholeWords (EltTy.packing .bf16)
  wordsbf16_S3x4x3x256x128_S1x1x1x256x128_0_0_0_0_0 : (Rect.unit (s := S3x4x3x256x128) ![0, 0, 0, 0, 0] S1x1x1x256x128.size inb_S3x4x3x256x128_S1x1x1x256x128_0_0_0_0_0).WholeWords (EltTy.packing .bf16)
  inb_S3x4x3_S1x1x1_0_0_1 : ∀ a, (![0, 0, 1] : Fin 3 → Nat) a + S1x1x1.size a ≤ S3x4x3.size a
  inb_S3x4x3x256x128_S1x1x1x256x128_0_0_1_0_0 : ∀ a, (![0, 0, 1, 0, 0] : Fin 5 → Nat) a + S1x1x1x256x128.size a ≤ S3x4x3x256x128.size a
  wordsbf16_S3x4x3x256x128_S1x1x1x256x128_0_0_1_0_0 : (Rect.unit (s := S3x4x3x256x128) ![0, 0, 1, 0, 0] S1x1x1x256x128.size inb_S3x4x3x256x128_S1x1x1x256x128_0_0_1_0_0).WholeWords (EltTy.packing .bf16)
  inb_S3x4x3_S1x1x1_0_0_2 : ∀ a, (![0, 0, 2] : Fin 3 → Nat) a + S1x1x1.size a ≤ S3x4x3.size a
  inb_S3x4x3x256x128_S1x1x1x256x128_0_0_2_0_0 : ∀ a, (![0, 0, 2, 0, 0] : Fin 5 → Nat) a + S1x1x1x256x128.size a ≤ S3x4x3x256x128.size a
  wordsbf16_S3x4x3x256x128_S1x1x1x256x128_0_0_2_0_0 : (Rect.unit (s := S3x4x3x256x128) ![0, 0, 2, 0, 0] S1x1x1x256x128.size inb_S3x4x3x256x128_S1x1x1x256x128_0_0_2_0_0).WholeWords (EltTy.packing .bf16)
  slices_S512x512_o0_128_S512x128 : S512x512.Slices ![0, 128] S512x128
  inb_S4x256x128_S1x256x128_1_0_0 : ∀ a, (![1, 0, 0] : Fin 3 → Nat) a + S1x256x128.size a ≤ S4x256x128.size a
  packedbf16_S4x256x128_S1x256x128_1_0_0 : (Rect.unit (s := S4x256x128) ![1, 0, 0] S1x256x128.size inb_S4x256x128_S1x256x128_1_0_0).PackedRows (EltTy.packing .bf16)
  inb_S3x4x3_S1x1x1_0_1_0 : ∀ a, (![0, 1, 0] : Fin 3 → Nat) a + S1x1x1.size a ≤ S3x4x3.size a
  inb_S3x4x3x256x128_S1x1x1x256x128_0_1_0_0_0 : ∀ a, (![0, 1, 0, 0, 0] : Fin 5 → Nat) a + S1x1x1x256x128.size a ≤ S3x4x3x256x128.size a
  wordsbf16_S4x256x128_S1x256x128_1_0_0 : (Rect.unit (s := S4x256x128) ![1, 0, 0] S1x256x128.size inb_S4x256x128_S1x256x128_1_0_0).WholeWords (EltTy.packing .bf16)
  wordsbf16_S3x4x3x256x128_S1x1x1x256x128_0_1_0_0_0 : (Rect.unit (s := S3x4x3x256x128) ![0, 1, 0, 0, 0] S1x1x1x256x128.size inb_S3x4x3x256x128_S1x1x1x256x128_0_1_0_0_0).WholeWords (EltTy.packing .bf16)
  slices_S512x512_o0_256_S512x128 : S512x512.Slices ![0, 256] S512x128
  inb_S4x256x128_S1x256x128_2_0_0 : ∀ a, (![2, 0, 0] : Fin 3 → Nat) a + S1x256x128.size a ≤ S4x256x128.size a
  packedbf16_S4x256x128_S1x256x128_2_0_0 : (Rect.unit (s := S4x256x128) ![2, 0, 0] S1x256x128.size inb_S4x256x128_S1x256x128_2_0_0).PackedRows (EltTy.packing .bf16)
  inb_S3x4x3_S1x1x1_0_2_0 : ∀ a, (![0, 2, 0] : Fin 3 → Nat) a + S1x1x1.size a ≤ S3x4x3.size a
  inb_S3x4x3x256x128_S1x1x1x256x128_0_2_0_0_0 : ∀ a, (![0, 2, 0, 0, 0] : Fin 5 → Nat) a + S1x1x1x256x128.size a ≤ S3x4x3x256x128.size a
  wordsbf16_S4x256x128_S1x256x128_2_0_0 : (Rect.unit (s := S4x256x128) ![2, 0, 0] S1x256x128.size inb_S4x256x128_S1x256x128_2_0_0).WholeWords (EltTy.packing .bf16)
  wordsbf16_S3x4x3x256x128_S1x1x1x256x128_0_2_0_0_0 : (Rect.unit (s := S3x4x3x256x128) ![0, 2, 0, 0, 0] S1x1x1x256x128.size inb_S3x4x3x256x128_S1x1x1x256x128_0_2_0_0_0).WholeWords (EltTy.packing .bf16)
  slices_S512x512_o0_384_S512x128 : S512x512.Slices ![0, 384] S512x128
  inb_S4x256x128_S1x256x128_3_0_0 : ∀ a, (![3, 0, 0] : Fin 3 → Nat) a + S1x256x128.size a ≤ S4x256x128.size a
  packedbf16_S4x256x128_S1x256x128_3_0_0 : (Rect.unit (s := S4x256x128) ![3, 0, 0] S1x256x128.size inb_S4x256x128_S1x256x128_3_0_0).PackedRows (EltTy.packing .bf16)
  inb_S3x4x3_S1x1x1_0_3_0 : ∀ a, (![0, 3, 0] : Fin 3 → Nat) a + S1x1x1.size a ≤ S3x4x3.size a
  inb_S3x4x3x256x128_S1x1x1x256x128_0_3_0_0_0 : ∀ a, (![0, 3, 0, 0, 0] : Fin 5 → Nat) a + S1x1x1x256x128.size a ≤ S3x4x3x256x128.size a
  wordsbf16_S4x256x128_S1x256x128_3_0_0 : (Rect.unit (s := S4x256x128) ![3, 0, 0] S1x256x128.size inb_S4x256x128_S1x256x128_3_0_0).WholeWords (EltTy.packing .bf16)
  wordsbf16_S3x4x3x256x128_S1x1x1x256x128_0_3_0_0_0 : (Rect.unit (s := S3x4x3x256x128) ![0, 3, 0, 0, 0] S1x1x1x256x128.size inb_S3x4x3x256x128_S1x1x1x256x128_0_3_0_0_0).WholeWords (EltTy.packing .bf16)
  inb_S3x4x3_S1x1x1_0_3_1 : ∀ a, (![0, 3, 1] : Fin 3 → Nat) a + S1x1x1.size a ≤ S3x4x3.size a
  inb_S3x4x3x256x128_S1x1x1x256x128_0_3_1_0_0 : ∀ a, (![0, 3, 1, 0, 0] : Fin 5 → Nat) a + S1x1x1x256x128.size a ≤ S3x4x3x256x128.size a
  wordsbf16_S3x4x3x256x128_S1x1x1x256x128_0_3_1_0_0 : (Rect.unit (s := S3x4x3x256x128) ![0, 3, 1, 0, 0] S1x1x1x256x128.size inb_S3x4x3x256x128_S1x1x1x256x128_0_3_1_0_0).WholeWords (EltTy.packing .bf16)
  inb_S3x4x3_S1x1x1_0_3_2 : ∀ a, (![0, 3, 2] : Fin 3 → Nat) a + S1x1x1.size a ≤ S3x4x3.size a
  inb_S3x4x3x256x128_S1x1x1x256x128_0_3_2_0_0 : ∀ a, (![0, 3, 2, 0, 0] : Fin 5 → Nat) a + S1x1x1x256x128.size a ≤ S3x4x3x256x128.size a
  wordsbf16_S3x4x3x256x128_S1x1x1x256x128_0_3_2_0_0 : (Rect.unit (s := S3x4x3x256x128) ![0, 3, 2, 0, 0] S1x1x1x256x128.size inb_S3x4x3x256x128_S1x1x1x256x128_0_3_2_0_0).WholeWords (EltTy.packing .bf16)
  h_S1x1x1x256x128 : 0 < S1x1x1x256x128.numel
  shapeCasts_S1x1x1x256x128_S256x128 : S1x1x1x256x128.ShapeCasts S256x128
  inb_S3x4x3_S1x1x1_1_0_0 : ∀ a, (![1, 0, 0] : Fin 3 → Nat) a + S1x1x1.size a ≤ S3x4x3.size a
  inb_S3x4x3x256x128_S1x1x1x256x128_1_0_0_0_0 : ∀ a, (![1, 0, 0, 0, 0] : Fin 5 → Nat) a + S1x1x1x256x128.size a ≤ S3x4x3x256x128.size a
  wordsbf16_S3x4x3x256x128_S1x1x1x256x128_1_0_0_0_0 : (Rect.unit (s := S3x4x3x256x128) ![1, 0, 0, 0, 0] S1x1x1x256x128.size inb_S3x4x3x256x128_S1x1x1x256x128_1_0_0_0_0).WholeWords (EltTy.packing .bf16)
  inb_S3x4x3_S1x1x1_1_1_0 : ∀ a, (![1, 1, 0] : Fin 3 → Nat) a + S1x1x1.size a ≤ S3x4x3.size a
  inb_S3x4x3x256x128_S1x1x1x256x128_1_1_0_0_0 : ∀ a, (![1, 1, 0, 0, 0] : Fin 5 → Nat) a + S1x1x1x256x128.size a ≤ S3x4x3x256x128.size a
  wordsbf16_S3x4x3x256x128_S1x1x1x256x128_1_1_0_0_0 : (Rect.unit (s := S3x4x3x256x128) ![1, 1, 0, 0, 0] S1x1x1x256x128.size inb_S3x4x3x256x128_S1x1x1x256x128_1_1_0_0_0).WholeWords (EltTy.packing .bf16)
  inb_S3x4x3_S1x1x1_1_2_0 : ∀ a, (![1, 2, 0] : Fin 3 → Nat) a + S1x1x1.size a ≤ S3x4x3.size a
  inb_S3x4x3x256x128_S1x1x1x256x128_1_2_0_0_0 : ∀ a, (![1, 2, 0, 0, 0] : Fin 5 → Nat) a + S1x1x1x256x128.size a ≤ S3x4x3x256x128.size a
  wordsbf16_S3x4x3x256x128_S1x1x1x256x128_1_2_0_0_0 : (Rect.unit (s := S3x4x3x256x128) ![1, 2, 0, 0, 0] S1x1x1x256x128.size inb_S3x4x3x256x128_S1x1x1x256x128_1_2_0_0_0).WholeWords (EltTy.packing .bf16)
  inb_S3x4x3_S1x1x1_1_2_1 : ∀ a, (![1, 2, 1] : Fin 3 → Nat) a + S1x1x1.size a ≤ S3x4x3.size a
  inb_S3x4x3x256x128_S1x1x1x256x128_1_2_1_0_0 : ∀ a, (![1, 2, 1, 0, 0] : Fin 5 → Nat) a + S1x1x1x256x128.size a ≤ S3x4x3x256x128.size a
  wordsbf16_S3x4x3x256x128_S1x1x1x256x128_1_2_1_0_0 : (Rect.unit (s := S3x4x3x256x128) ![1, 2, 1, 0, 0] S1x1x1x256x128.size inb_S3x4x3x256x128_S1x1x1x256x128_1_2_1_0_0).WholeWords (EltTy.packing .bf16)
  inb_S3x4x3_S1x1x1_1_2_2 : ∀ a, (![1, 2, 2] : Fin 3 → Nat) a + S1x1x1.size a ≤ S3x4x3.size a
  inb_S3x4x3x256x128_S1x1x1x256x128_1_2_2_0_0 : ∀ a, (![1, 2, 2, 0, 0] : Fin 5 → Nat) a + S1x1x1x256x128.size a ≤ S3x4x3x256x128.size a
  wordsbf16_S3x4x3x256x128_S1x1x1x256x128_1_2_2_0_0 : (Rect.unit (s := S3x4x3x256x128) ![1, 2, 2, 0, 0] S1x1x1x256x128.size inb_S3x4x3x256x128_S1x1x1x256x128_1_2_2_0_0).WholeWords (EltTy.packing .bf16)
  inb_S3x4x3_S1x1x1_1_3_0 : ∀ a, (![1, 3, 0] : Fin 3 → Nat) a + S1x1x1.size a ≤ S3x4x3.size a
  inb_S3x4x3x256x128_S1x1x1x256x128_1_3_0_0_0 : ∀ a, (![1, 3, 0, 0, 0] : Fin 5 → Nat) a + S1x1x1x256x128.size a ≤ S3x4x3x256x128.size a
  wordsbf16_S3x4x3x256x128_S1x1x1x256x128_1_3_0_0_0 : (Rect.unit (s := S3x4x3x256x128) ![1, 3, 0, 0, 0] S1x1x1x256x128.size inb_S3x4x3x256x128_S1x1x1x256x128_1_3_0_0_0).WholeWords (EltTy.packing .bf16)
  inb_S3x4x3_S1x1x1_2_0_0 : ∀ a, (![2, 0, 0] : Fin 3 → Nat) a + S1x1x1.size a ≤ S3x4x3.size a
  inb_S3x4x3x256x128_S1x1x1x256x128_2_0_0_0_0 : ∀ a, (![2, 0, 0, 0, 0] : Fin 5 → Nat) a + S1x1x1x256x128.size a ≤ S3x4x3x256x128.size a
  wordsbf16_S3x4x3x256x128_S1x1x1x256x128_2_0_0_0_0 : (Rect.unit (s := S3x4x3x256x128) ![2, 0, 0, 0, 0] S1x1x1x256x128.size inb_S3x4x3x256x128_S1x1x1x256x128_2_0_0_0_0).WholeWords (EltTy.packing .bf16)
  inb_S3x4x3_S1x1x1_2_1_0 : ∀ a, (![2, 1, 0] : Fin 3 → Nat) a + S1x1x1.size a ≤ S3x4x3.size a
  inb_S3x4x3x256x128_S1x1x1x256x128_2_1_0_0_0 : ∀ a, (![2, 1, 0, 0, 0] : Fin 5 → Nat) a + S1x1x1x256x128.size a ≤ S3x4x3x256x128.size a
  wordsbf16_S3x4x3x256x128_S1x1x1x256x128_2_1_0_0_0 : (Rect.unit (s := S3x4x3x256x128) ![2, 1, 0, 0, 0] S1x1x1x256x128.size inb_S3x4x3x256x128_S1x1x1x256x128_2_1_0_0_0).WholeWords (EltTy.packing .bf16)
  inb_S3x4x3_S1x1x1_2_1_1 : ∀ a, (![2, 1, 1] : Fin 3 → Nat) a + S1x1x1.size a ≤ S3x4x3.size a
  inb_S3x4x3x256x128_S1x1x1x256x128_2_1_1_0_0 : ∀ a, (![2, 1, 1, 0, 0] : Fin 5 → Nat) a + S1x1x1x256x128.size a ≤ S3x4x3x256x128.size a
  wordsbf16_S3x4x3x256x128_S1x1x1x256x128_2_1_1_0_0 : (Rect.unit (s := S3x4x3x256x128) ![2, 1, 1, 0, 0] S1x1x1x256x128.size inb_S3x4x3x256x128_S1x1x1x256x128_2_1_1_0_0).WholeWords (EltTy.packing .bf16)
  inb_S3x4x3_S1x1x1_2_1_2 : ∀ a, (![2, 1, 2] : Fin 3 → Nat) a + S1x1x1.size a ≤ S3x4x3.size a
  inb_S3x4x3x256x128_S1x1x1x256x128_2_1_2_0_0 : ∀ a, (![2, 1, 2, 0, 0] : Fin 5 → Nat) a + S1x1x1x256x128.size a ≤ S3x4x3x256x128.size a
  wordsbf16_S3x4x3x256x128_S1x1x1x256x128_2_1_2_0_0 : (Rect.unit (s := S3x4x3x256x128) ![2, 1, 2, 0, 0] S1x1x1x256x128.size inb_S3x4x3x256x128_S1x1x1x256x128_2_1_2_0_0).WholeWords (EltTy.packing .bf16)
  inb_S3x4x3_S1x1x1_2_2_0 : ∀ a, (![2, 2, 0] : Fin 3 → Nat) a + S1x1x1.size a ≤ S3x4x3.size a
  inb_S3x4x3x256x128_S1x1x1x256x128_2_2_0_0_0 : ∀ a, (![2, 2, 0, 0, 0] : Fin 5 → Nat) a + S1x1x1x256x128.size a ≤ S3x4x3x256x128.size a
  wordsbf16_S3x4x3x256x128_S1x1x1x256x128_2_2_0_0_0 : (Rect.unit (s := S3x4x3x256x128) ![2, 2, 0, 0, 0] S1x1x1x256x128.size inb_S3x4x3x256x128_S1x1x1x256x128_2_2_0_0_0).WholeWords (EltTy.packing .bf16)
  inb_S3x4x3_S1x1x1_2_3_0 : ∀ a, (![2, 3, 0] : Fin 3 → Nat) a + S1x1x1.size a ≤ S3x4x3.size a
  inb_S3x4x3x256x128_S1x1x1x256x128_2_3_0_0_0 : ∀ a, (![2, 3, 0, 0, 0] : Fin 5 → Nat) a + S1x1x1x256x128.size a ≤ S3x4x3x256x128.size a
  wordsbf16_S3x4x3x256x128_S1x1x1x256x128_2_3_0_0_0 : (Rect.unit (s := S3x4x3x256x128) ![2, 3, 0, 0, 0] S1x1x1x256x128.size inb_S3x4x3x256x128_S1x1x1x256x128_2_3_0_0_0).WholeWords (EltTy.packing .bf16)
  shapeCasts_S256x128_S2x128x128 : S256x128.ShapeCasts S2x128x128
  inb_S2x128x512_S2x128x128_0_0_0 : ∀ a, (![0, 0, 0] : Fin 3 → Nat) a + S2x128x128.size a ≤ S2x128x512.size a
  h_S2x128x128 : 0 < S2x128x128.numel
  inb_S2x128x512_S2x128x128_0_0_128 : ∀ a, (![0, 0, 128] : Fin 3 → Nat) a + S2x128x128.size a ≤ S2x128x512.size a
  inb_S2x128x512_S2x128x128_0_0_256 : ∀ a, (![0, 0, 256] : Fin 3 → Nat) a + S2x128x128.size a ≤ S2x128x512.size a
  inb_S2x128x512_S2x128x128_0_0_384 : ∀ a, (![0, 0, 384] : Fin 3 → Nat) a + S2x128x128.size a ≤ S2x128x512.size a
  dot_S256x512_S512x512_S256x512_1_0_0_1_n_n_wf : DotDims.WF S256x512 S512x512 S256x512 [1] [0] [0] [1] [] []
  dot_S8x256x64_S8x256x64_S8x256x256_2_2_1_1_0_0_wf : DotDims.WF S8x256x64 S8x256x64 S8x256x256 [2] [2] [1] [1] [0] [0]
  dot_S8x256x256_S8x256x64_S8x256x64_2_1_1_2_0_0_wf : DotDims.WF S8x256x256 S8x256x64 S8x256x64 [2] [1] [1] [2] [0] [0]
  dot_S256x512_S512x128_S256x128_1_0_0_1_n_n_wf : DotDims.WF S256x512 S512x128 S256x128 [1] [0] [0] [1] [] []
  hcc0_scratch3 : 6 + S3x4x3.numel ≤ 78
  hcc0_scratch4 : 42 + S3x4x3.numel ≤ 78
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole

variable [Facts₀]

abbrev cc0_scratch3 : DmaSems sig S3x4x3 := SemArray.consecutive 6 S3x4x3 hcc0_scratch3
abbrev cc0_scratch4 : DmaSems sig S3x4x3 := SemArray.consecutive 42 S3x4x3 hcc0_scratch4
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S8x256x64_S8x256x64_S8x256x256_2_2_1_1_0_0 : DotDims S8x256x64 S8x256x64 S8x256x256 where
  lhsContracting := [2]
  rhsContracting := [2]
  lhsNonContracting := [1]
  rhsNonContracting := [1]
  lhsBatch := [0]
  rhsBatch := [0]
  wf := dot_S8x256x64_S8x256x64_S8x256x256_2_2_1_1_0_0_wf
def dot_S8x256x256_S8x256x64_S8x256x64_2_1_1_2_0_0 : DotDims S8x256x256 S8x256x64 S8x256x64 where
  lhsContracting := [2]
  rhsContracting := [1]
  lhsNonContracting := [1]
  rhsNonContracting := [2]
  lhsBatch := [0]
  rhsBatch := [0]
  wf := dot_S8x256x256_S8x256x64_S8x256x64_2_1_1_2_0_0_wf
def dot_S256x512_S512x128_S256x128_1_0_0_1_n_n : DotDims S256x512 S512x128 S256x128 where
  lhsContracting := [1]
  rhsContracting := [0]
  lhsNonContracting := [0]
  rhsNonContracting := [1]
  lhsBatch := []
  rhsBatch := []
  wf := dot_S256x512_S512x128_S256x128_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0_4 : Pipeline.Window sig grid0 :=
  Pipeline.Window.whole (Memref.whole main_arg4) false false (stage0_4 0) (sem0_4 0) (Memref.isWhole_whole _) (hstage0_4 0)

abbrev win0_5 : Pipeline.Window sig grid0 :=
  Pipeline.Window.whole (Memref.whole main_v1) true false (stage0_5 0) (sem0_5 0) (Memref.isWhole_whole _) (hstage0_5 0)

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x128x512 : Shape := ⟨3, ![2, 128, 512]⟩
abbrev S512x8192 : Shape := ⟨2, ![512, 8192]⟩
abbrev S8192x512 : Shape := ⟨2, ![8192, 512]⟩
abbrev S2x128x8192 : Shape := ⟨3, ![2, 128, 8192]⟩
abbrev S2x128x128x64 : Shape := ⟨4, ![2, 128, 128, 64]⟩
abbrev S_ : Shape := ⟨0, ![]⟩
abbrev S2x128x128x1 : Shape := ⟨4, ![2, 128, 128, 1]⟩
abbrev S2x128x128x128 : Shape := ⟨4, ![2, 128, 128, 128]⟩
abbrev S2x128x128 : Shape := ⟨3, ![2, 128, 128]⟩
abbrev S2x128x64x128 : Shape := ⟨4, ![2, 128, 64, 128]⟩

abbrev nBuf : Space → Nat
  | .hbm => 46
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S512x8192, .f32⟩
  | .hbm, ⟨2, _⟩ => ⟨S8192x512, .f32⟩
  | .hbm, ⟨3, _⟩ => ⟨S512x8192, .f32⟩
  | .hbm, ⟨4, _⟩ => ⟨S512x8192, .f32⟩
  | .hbm, ⟨5, _⟩ => ⟨S2x128x8192, .f32⟩
  | .hbm, ⟨6, _⟩ => ⟨S2x128x128x64, .f32⟩
  | .hbm, ⟨7, _⟩ => ⟨S2x128x8192, .f32⟩
  | .hbm, ⟨8, _⟩ => ⟨S2x128x128x64, .f32⟩
  | .hbm, ⟨9, _⟩ => ⟨S2x128x8192, .f32⟩
  | .hbm, ⟨10, _⟩ => ⟨S2x128x128x64, .f32⟩
  | .hbm, ⟨11, _⟩ => ⟨S_, .f32⟩
  | .hbm, ⟨12, _⟩ => ⟨S2x128x128x64, .f32⟩
  | .hbm, ⟨13, _⟩ => ⟨S_, .f32⟩
  | .hbm, ⟨14, _⟩ => ⟨S2x128x128x1, .f32⟩
  | .hbm, ⟨15, _⟩ => ⟨S_, .f32⟩
  | .hbm, ⟨16, _⟩ => ⟨S2x128x128x1, .f32⟩
  | .hbm, ⟨17, _⟩ => ⟨S2x128x128x128, .f32⟩
  | .hbm, ⟨18, _⟩ => ⟨S_, .f32⟩
  | .hbm, ⟨19, _⟩ => ⟨S2x128x128x128, .f32⟩
  | .hbm, ⟨20, _⟩ => ⟨S2x128x128x128, .f32⟩
  | .hbm, ⟨21, _⟩ => ⟨S_, .f32⟩
  | .hbm, ⟨22, _⟩ => ⟨S2x128x128, .f32⟩
  | .hbm, ⟨23, _⟩ => ⟨S2x128x128x1, .f32⟩
  | .hbm, ⟨24, _⟩ => ⟨S2x128x128x1, .f32⟩
  | .hbm, ⟨25, _⟩ => ⟨S2x128x128x1, .f32⟩
  | .hbm, ⟨26, _⟩ => ⟨S2x128x128x1, .f32⟩
  | .hbm, ⟨27, _⟩ => ⟨S2x128x128x128, .f32⟩
  | .hbm, ⟨28, _⟩ => ⟨S2x128x128x128, .f32⟩
  | .hbm, ⟨29, _⟩ => ⟨S2x128x128x128, .f32⟩
  | .hbm, ⟨30, _⟩ => ⟨S2x128x128x1, .f32⟩
  | .hbm, ⟨31, _⟩ => ⟨S_, .f32⟩
  | .hbm, ⟨32, _⟩ => ⟨S2x128x128, .f32⟩
  | .hbm, ⟨33, _⟩ => ⟨S2x128x128x1, .f32⟩
  | .hbm, ⟨34, _⟩ => ⟨S2x128x128x1, .f32⟩
  | .hbm, ⟨35, _⟩ => ⟨S2x128x128x1, .f32⟩
  | .hbm, ⟨36, _⟩ => ⟨S2x128x128x64, .f32⟩
  | .hbm, ⟨37, _⟩ => ⟨S2x128x128x64, .f32⟩
  | .hbm, ⟨38, _⟩ => ⟨S2x128x64x128, .f32⟩
  | .hbm, ⟨39, _⟩ => ⟨S2x128x128x64, .f32⟩
  | .hbm, ⟨40, _⟩ => ⟨S2x128x128x64, .f32⟩
  | .hbm, ⟨41, _⟩ => ⟨S2x128x128x1, .f32⟩
  | .hbm, ⟨42, _⟩ => ⟨S2x128x128x64, .f32⟩
  | .hbm, ⟨43, _⟩ => ⟨S2x128x128x64, .f32⟩
  | .hbm, ⟨44, _⟩ => ⟨S2x128x8192, .f32⟩
  | .hbm, ⟨45, _⟩ => ⟨S2x128x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]

class Facts₀ : Prop where
  shapeCasts_S2x128x8192_S2x128x128x64 : S2x128x8192.ShapeCasts S2x128x128x64
  bcast_S_S2x128x128x64 : S_.BroadcastsInDim S2x128x128x64 (![] : Fin 0 → Fin S2x128x128x64.rank)
  bcast_S_S2x128x128x1 : S_.BroadcastsInDim S2x128x128x1 (![] : Fin 0 → Fin S2x128x128x1.rank)
  bcast_S_S2x128x128x128 : S_.BroadcastsInDim S2x128x128x128 (![] : Fin 0 → Fin S2x128x128x128.rank)
  reducesTo_S2x128x128x128_S2x128x128_d3 : S2x128x128x128.ReducesTo [3] S2x128x128
  h_S_ : 0 < S_.numel
  bcast_S2x128x128_S2x128x128x1_0_1_2 : S2x128x128.BroadcastsInDim S2x128x128x1 (![0, 1, 2] : Fin 3 → Fin S2x128x128x1.rank)
  bcast_S2x128x128x1_S2x128x128x128_0_1_2_3 : S2x128x128x1.BroadcastsInDim S2x128x128x128 (![0, 1, 2, 3] : Fin 4 → Fin S2x128x128x128.rank)
  transposes_S2x128x128x1_S2x128x128x1_0_2_1_3 : S2x128x128x1.Transposes [0, 2, 1, 3] S2x128x128x1
  bcast_S2x128x128x1_S2x128x128x64_0_1_2_3 : S2x128x128x1.BroadcastsInDim S2x128x128x64 (![0, 1, 2, 3] : Fin 4 → Fin S2x128x128x64.rank)
  transposes_S2x128x64x128_S2x128x128x64_0_3_1_2 : S2x128x64x128.Transposes [0, 3, 1, 2] S2x128x128x64
  shapeCasts_S2x128x128x64_S2x128x8192 : S2x128x128x64.ShapeCasts S2x128x8192
  dot_S2x128x512_S512x8192_S2x128x8192_2_0_01_1_n_n_wf : DotDims.WF S2x128x512 S512x8192 S2x128x8192 [2] [0] [0, 1] [1] [] []
  dot_S2x128x128x64_S2x128x128x64_S2x128x128x128_3_3_1_1_02_02_wf : DotDims.WF S2x128x128x64 S2x128x128x64 S2x128x128x128 [3] [3] [1] [1] [0, 2] [0, 2]
  dot_S2x128x128x64_S2x128x128x128_S2x128x64x128_1_3_3_2_02_01_wf : DotDims.WF S2x128x128x64 S2x128x128x128 S2x128x64x128 [1] [3] [3] [2] [0, 2] [0, 1]
  dot_S2x128x8192_S8192x512_S2x128x512_2_0_01_1_n_n_wf : DotDims.WF S2x128x8192 S8192x512 S2x128x512 [2] [0] [0, 1] [1] [] []

variable [Facts₀]

def dot_S2x128x512_S512x8192_S2x128x8192_2_0_01_1_n_n : DotDims S2x128x512 S512x8192 S2x128x8192 where
  lhsContracting := [2]
  rhsContracting := [0]
  lhsNonContracting := [0, 1]
  rhsNonContracting := [1]
  lhsBatch := []
  rhsBatch := []
  wf := dot_S2x128x512_S512x8192_S2x128x8192_2_0_01_1_n_n_wf
def dot_S2x128x128x64_S2x128x128x64_S2x128x128x128_3_3_1_1_02_02 : DotDims S2x128x128x64 S2x128x128x64 S2x128x128x128 where
  lhsContracting := [3]
  rhsContracting := [3]
  lhsNonContracting := [1]
  rhsNonContracting := [1]
  lhsBatch := [0, 2]
  rhsBatch := [0, 2]
  wf := dot_S2x128x128x64_S2x128x128x64_S2x128x128x128_3_3_1_1_02_02_wf
def dot_S2x128x128x64_S2x128x128x128_S2x128x64x128_1_3_3_2_02_01 : DotDims S2x128x128x64 S2x128x128x128 S2x128x64x128 where
  lhsContracting := [1]
  rhsContracting := [3]
  lhsNonContracting := [3]
  rhsNonContracting := [2]
  lhsBatch := [0, 2]
  rhsBatch := [0, 1]
  wf := dot_S2x128x128x64_S2x128x128x128_S2x128x64x128_1_3_3_2_02_01_wf
def dot_S2x128x8192_S8192x512_S2x128x512_2_0_01_1_n_n : DotDims S2x128x8192 S8192x512 S2x128x512 where
  lhsContracting := [2]
  rhsContracting := [0]
  lhsNonContracting := [0, 1]
  rhsNonContracting := [1]
  lhsBatch := []
  rhsBatch := []
  wf := dot_S2x128x8192_S8192x512_S2x128x512_2_0_01_1_n_n_wf

class Facts : Prop extends Facts₀ where

variable [Facts]
-- ==== Proof.RefFrame.lean ====
/-
  The reference's frame. The one-device jnp reference is a straight-line host program; its run is read back
  operation by operation, and the frame is that run with the result's value dropped: every weakly fair execution
  terminates, nothing faults, and the five argument arrays end as they began.
-/
import proofs.«900514_g7700000000000515_dist_attn_self_mha_htp_b2_sq128_skv128_d512_hq8_dh64_v7x_i16_bf16_1_alg».proof.Defs
import proofs.«900514_g7700000000000515_dist_attn_self_mha_htp_b2_sq128_skv128_d512_hq8_dh64_v7x_i16_bf16_1_alg».proof.Proof.Gen.ReferenceIdeal
import proofs.«900514_g7700000000000515_dist_attn_self_mha_htp_b2_sq128_skv128_d512_hq8_dh64_v7x_i16_bf16_1_alg».proof.Proof.Gen.Pre_finite_inputs_ReferenceIdeal
import proofs.«900514_g7700000000000515_dist_attn_self_mha_htp_b2_sq128_skv128_d512_hq8_dh64_v7x_i16_bf16_1_alg».proof.Proof.Gen.ReferenceIdeal.Run
import proofs.«900514_g7700000000000515_dist_attn_self_mha_htp_b2_sq128_skv128_d512_hq8_dh64_v7x_i16_bf16_1_alg».proof.Proof.Gen.ReferenceIdeal.Read

noncomputable section

namespace Cert.Proof.RefSide

open Idealize.ShloMosaic Idealize.SL.Sem

/-- The reference terminates without a fault and leaves its argument arrays unchanged: its generated run, the result forgotten. -/
theorem frame_ri : Cert.frame_ReferenceIdeal := fun m ρ _ =>
  (θ_run Cert.ReferenceIdeal.defs _ _).mono (fun _ h c => (h c).2) (Cert.ReferenceIdeal.Value.run (F := Ideal) m ρ)

end Cert.Proof.RefSide

end
-- ==== Proof.KernelIdealTerms.lean ====
/-
  The kernel's arithmetic, named. From its five staged input blocks a device computes its attention output (the
  projections, the scaled scores, the batch mask, the exponentials, the row sums, the weighted values divided by the
  row sums, heads laid side by side) and, per chunk of 128 output columns, the product of that output with the matching
  columns of its rows of the output matrix: the partial result the all-reduce then sums over the devices.
-/
import proofs.«900514_g7700000000000515_dist_attn_self_mha_htp_b2_sq128_skv128_d512_hq8_dh64_v7x_i16_bf16_1_alg».proof.Proof.Gen.KernelIdeal.Skeleton

noncomputable section

namespace Cert.KernelIdeal.Terms

open Cert.KernelIdeal Cert.KernelIdeal.Gen Idealize.ShloMosaic

variable {F : FTy → Type} [FloatOps F]

/-- The attention output `[256, 512]` of a device: from the activations `X0` and its blocks of the query, key and value
    projections `X1`, `X3`, `X4`. -/
def attn (X0 : Vec F S2x128x512 .f32) (X1 X3 X4 : Vec F S512x512 .f32) : FVec F S256x512 .bf16 :=
  k0_pay7 (k0_pay3 (k0_pay2 X0) X4) (k0_pay4 (k0_pay2 X0) X1 X3) k0_pay5 k0_pay6

/-- Chunk 0 of the device's partial result: the attention output times columns 0–127 of its rows `X2` of the output matrix. -/
def pa0 (X0 : Vec F S2x128x512 .f32) (X1 X2 X3 X4 : Vec F S512x512 .f32) : FVec F S256x128 .f32 := k0_pay9 (attn X0 X1 X3 X4) X2
/-- Chunk 1: columns 128–255. -/
def pa1 (X0 : Vec F S2x128x512 .f32) (X1 X2 X3 X4 : Vec F S512x512 .f32) : FVec F S256x128 .f32 := k0_pay12 (attn X0 X1 X3 X4) (k0_pay8 X2)
/-- Chunk 2: columns 256–383. -/
def pa2 (X0 : Vec F S2x128x512 .f32) (X1 X2 X3 X4 : Vec F S512x512 .f32) : FVec F S256x128 .f32 := k0_pay16 (attn X0 X1 X3 X4) (k0_pay8 X2)
/-- Chunk 3: columns 384–511. -/
def pa3 (X0 : Vec F S2x128x512 .f32) (X1 X2 X3 X4 : Vec F S512x512 .f32) : FVec F S256x128 .f32 := k0_pay19 (attn X0 X1 X3 X4) (k0_pay8 X2)

/-! ## The peers -/

/-- The five exchange partners of a device differ from it in the low two bits (by 1, 2, 3: its plane) or in bit 2 or bit 3. -/
def xorOf : Fin 5 → ℕ
  | 0 => 1 | 1 => 2 | 2 => 3 | 3 => 4 | 4 => 8

theorem xorOf_lt (i : Fin 5) : xorOf i < 2 ^ 4 := by revert i; decide

/-- Peer `i` of device `c`: `c` with the bits of `xorOf i` flipped. -/
def px (i : Fin 5) (c : Dev nD) : Dev nD := ⟨c.val ^^^ xorOf i, Nat.xor_lt_two_pow (n := 4) c.isLt (xorOf_lt i)⟩

theorem px_val (i : Fin 5) (c : Dev nD) : (px i c).val = c.val ^^^ xorOf i := rfl

/-- Flipping the same bits twice is the identity: each exchange is symmetric. -/
theorem px_px (i : Fin 5) (c : Dev nD) : px i (px i c) = c := by revert i c; decide

theorem px_ne (i : Fin 5) (c : Dev nD) : px i c ≠ c := by revert i c; decide

theorem px_inj (i j : Fin 5) (c : Dev nD) (h : px i c = px j c) : i = j := by revert i j c; decide

/-! ## One exchange step -/

/-- What a device adds when a partner's partial sum has landed in one of its receive slots: the slot read as a
    `[256, 128]` matrix, widened, added to the running sum. -/
def rcv (a : FVec F S256x128 .f32) (v : Vec F S1x1x1x256x128 .bf16) : FVec F S256x128 .f32 :=
  addf a (extf .f32 (shapeCast S256x128 v shapeCasts_S1x1x1x256x128_S256x128) bitsLt_bf16_f32)

theorem shapeCasts_S256x128_S1x1x1x256x128 : S256x128.ShapeCasts S1x1x1x256x128 := by decide

/-- What a receive slot holds once a partner's running sum `a` has landed in it: `a` narrowed, as the slot's five-axis block. -/
def wire (a : FVec F S256x128 .f32) : Vec F S1x1x1x256x128 .bf16 :=
  shapeCast S1x1x1x256x128 (truncf .bf16 a bitsLt_bf16_f32) shapeCasts_S256x128_S1x1x1x256x128

/-- The plane step: the three plane partners' sums added in the order of the slots. -/
def stepP (p : Dev nD → FVec F S256x128 .f32) (d : Dev nD) : FVec F S256x128 .f32 :=
  rcv (rcv (rcv (p d) (wire (p (px 0 d)))) (wire (p (px 1 d)))) (wire (p (px 2 d)))
/-- The two column steps. -/
def stepZ1 (p : Dev nD → FVec F S256x128 .f32) (d : Dev nD) : FVec F S256x128 .f32 := rcv (p d) (wire (p (px 3 d)))
def stepZ2 (p : Dev nD → FVec F S256x128 .f32) (d : Dev nD) : FVec F S256x128 .f32 := rcv (p d) (wire (p (px 4 d)))

/-- The three exchange steps of each chunk, in the chunk's own order. -/
def red0 (p : Dev nD → FVec F S256x128 .f32) : Dev nD → FVec F S256x128 .f32 := stepZ2 (stepZ1 (stepP p))
def red1 (p : Dev nD → FVec F S256x128 .f32) : Dev nD → FVec F S256x128 .f32 := stepP (stepZ2 (stepZ1 p))
def red2 (p : Dev nD → FVec F S256x128 .f32) : Dev nD → FVec F S256x128 .f32 := stepZ1 (stepP (stepZ2 p))
def red3 (p : Dev nD → FVec F S256x128 .f32) : Dev nD → FVec F S256x128 .f32 := stepZ1 (stepZ2 (stepP p))

end Cert.KernelIdeal.Terms

end
-- ==== Proof.KernelIdealSlots.lean ====
/-
  The twenty copies a device starts, as tables. Copy `s` belongs to an exchange step `slotK s` and a chunk `slotCh s`, is the
  step's copy number `slotJ s` and goes to partner `px (slotX s)`; the partner the kernel computes for it is that partner; its
  receive slot is the `[256,128]` block at `(slotK s, slotCh s, slotJ s)` of the `[3,4,3,256,128]` receive buffer.
-/
import proofs.«900514_g7700000000000515_dist_attn_self_mha_htp_b2_sq128_skv128_d512_hq8_dh64_v7x_i16_bf16_1_alg».proof.Proof.KernelIdealTerms

noncomputable section

namespace Cert.KernelIdeal.Proto

open Cert.KernelIdeal Cert.KernelIdeal.Gen Cert.KernelIdeal.Terms

open Idealize.ShloMosaic

/-! ## The copies' `device_id` chains are the partners -/

theorem dev6_eq (c : Dev nD) : (⟨k0_dev6 c, k0_dev6_lt c⟩ : Dev nD) = px 0 c := Fin.ext (by revert c; decide +kernel)
theorem dev7_eq (c : Dev nD) : (⟨k0_dev7 c, k0_dev7_lt c⟩ : Dev nD) = px 1 c := Fin.ext (by revert c; decide +kernel)
theorem dev8_eq (c : Dev nD) : (⟨k0_dev8 c, k0_dev8_lt c⟩ : Dev nD) = px 2 c := Fin.ext (by revert c; decide +kernel)
theorem dev9_eq (c : Dev nD) : (⟨k0_dev9 c, k0_dev9_lt c⟩ : Dev nD) = px 3 c := Fin.ext (by revert c; decide +kernel)
theorem dev10_eq (c : Dev nD) : (⟨k0_dev10 c, k0_dev10_lt c⟩ : Dev nD) = px 4 c := Fin.ext (by revert c; decide +kernel)
theorem dev11_eq (c : Dev nD) : (⟨k0_dev11 c, k0_dev11_lt c⟩ : Dev nD) = px 0 c := Fin.ext (by revert c; decide +kernel)
theorem dev12_eq (c : Dev nD) : (⟨k0_dev12 c, k0_dev12_lt c⟩ : Dev nD) = px 1 c := Fin.ext (by revert c; decide +kernel)
theorem dev13_eq (c : Dev nD) : (⟨k0_dev13 c, k0_dev13_lt c⟩ : Dev nD) = px 2 c := Fin.ext (by revert c; decide +kernel)
theorem dev14_eq (c : Dev nD) : (⟨k0_dev14 c, k0_dev14_lt c⟩ : Dev nD) = px 3 c := Fin.ext (by revert c; decide +kernel)
theorem dev15_eq (c : Dev nD) : (⟨k0_dev15 c, k0_dev15_lt c⟩ : Dev nD) = px 4 c := Fin.ext (by revert c; decide +kernel)
theorem dev16_eq (c : Dev nD) : (⟨k0_dev16 c, k0_dev16_lt c⟩ : Dev nD) = px 0 c := Fin.ext (by revert c; decide +kernel)
theorem dev17_eq (c : Dev nD) : (⟨k0_dev17 c, k0_dev17_lt c⟩ : Dev nD) = px 1 c := Fin.ext (by revert c; decide +kernel)
theorem dev18_eq (c : Dev nD) : (⟨k0_dev18 c, k0_dev18_lt c⟩ : Dev nD) = px 2 c := Fin.ext (by revert c; decide +kernel)
theorem dev19_eq (c : Dev nD) : (⟨k0_dev19 c, k0_dev19_lt c⟩ : Dev nD) = px 4 c := Fin.ext (by revert c; decide +kernel)
theorem dev20_eq (c : Dev nD) : (⟨k0_dev20 c, k0_dev20_lt c⟩ : Dev nD) = px 4 c := Fin.ext (by revert c; decide +kernel)
theorem dev21_eq (c : Dev nD) : (⟨k0_dev21 c, k0_dev21_lt c⟩ : Dev nD) = px 0 c := Fin.ext (by revert c; decide +kernel)
theorem dev22_eq (c : Dev nD) : (⟨k0_dev22 c, k0_dev22_lt c⟩ : Dev nD) = px 1 c := Fin.ext (by revert c; decide +kernel)
theorem dev23_eq (c : Dev nD) : (⟨k0_dev23 c, k0_dev23_lt c⟩ : Dev nD) = px 2 c := Fin.ext (by revert c; decide +kernel)
theorem dev24_eq (c : Dev nD) : (⟨k0_dev24 c, k0_dev24_lt c⟩ : Dev nD) = px 3 c := Fin.ext (by revert c; decide +kernel)
theorem dev25_eq (c : Dev nD) : (⟨k0_dev25 c, k0_dev25_lt c⟩ : Dev nD) = px 3 c := Fin.ext (by revert c; decide +kernel)

/-! ## The twenty copies of a device, in the order it starts them -/

/-- The exchange step (0, 1, 2), the chunk, the partner's number within the step, and which of the five partners it is. -/
def slotK : Fin 20 → Fin 3 := ![0, 0, 0, 0, 0, 0, 0, 0, 1, 1, 1, 1, 1, 1, 2, 2, 2, 2, 2, 2]
def slotCh : Fin 20 → Fin 4 := ![0, 0, 0, 1, 2, 3, 3, 3, 0, 1, 2, 2, 2, 3, 0, 1, 1, 1, 2, 3]
def slotJ : Fin 20 → Fin 3 := ![0, 1, 2, 0, 0, 0, 1, 2, 0, 0, 0, 1, 2, 0, 0, 0, 1, 2, 0, 0]
def slotX : Fin 20 → Fin 5 := ![0, 1, 2, 3, 4, 0, 1, 2, 3, 4, 0, 1, 2, 4, 4, 0, 1, 2, 3, 3]

/-! ## The buffers and the receive slots -/

/-- The running sums (one `[256,128]` slice per chunk), the outgoing slices, the receive slots. -/
abbrev accM : Memref sig .tc .vmem S4x256x128 .f32 := Memref.whole cc0_scratch0
abbrev sndM : Memref sig .tc .vmem S4x256x128 .bf16 := Memref.whole cc0_scratch1
abbrev comM : Memref sig .tc .vmem S3x4x3x256x128 .bf16 := Memref.whole cc0_scratch2

/-- Copy `s`'s receive slot inside the `[3,4,3,256,128]` buffer. -/
def slotRect : Fin 20 → Rect S3x4x3x256x128
  | ⟨0, _⟩ => Rect.unit (s := S3x4x3x256x128) ![0, 0, 0, 0, 0] S1x1x1x256x128.size inb_S3x4x3x256x128_S1x1x1x256x128_0_0_0_0_0
  | ⟨1, _⟩ => Rect.unit (s := S3x4x3x256x128) ![0, 0, 1, 0, 0] S1x1x1x256x128.size inb_S3x4x3x256x128_S1x1x1x256x128_0_0_1_0_0
  | ⟨2, _⟩ => Rect.unit (s := S3x4x3x256x128) ![0, 0, 2, 0, 0] S1x1x1x256x128.size inb_S3x4x3x256x128_S1x1x1x256x128_0_0_2_0_0
  | ⟨3, _⟩ => Rect.unit (s := S3x4x3x256x128) ![0, 1, 0, 0, 0] S1x1x1x256x128.size inb_S3x4x3x256x128_S1x1x1x256x128_0_1_0_0_0
  | ⟨4, _⟩ => Rect.unit (s := S3x4x3x256x128) ![0, 2, 0, 0, 0] S1x1x1x256x128.size inb_S3x4x3x256x128_S1x1x1x256x128_0_2_0_0_0
  | ⟨5, _⟩ => Rect.unit (s := S3x4x3x256x128) ![0, 3, 0, 0, 0] S1x1x1x256x128.size inb_S3x4x3x256x128_S1x1x1x256x128_0_3_0_0_0
  | ⟨6, _⟩ => Rect.unit (s := S3x4x3x256x128) ![0, 3, 1, 0, 0] S1x1x1x256x128.size inb_S3x4x3x256x128_S1x1x1x256x128_0_3_1_0_0
  | ⟨7, _⟩ => Rect.unit (s := S3x4x3x256x128) ![0, 3, 2, 0, 0] S1x1x1x256x128.size inb_S3x4x3x256x128_S1x1x1x256x128_0_3_2_0_0
  | ⟨8, _⟩ => Rect.unit (s := S3x4x3x256x128) ![1, 0, 0, 0, 0] S1x1x1x256x128.size inb_S3x4x3x256x128_S1x1x1x256x128_1_0_0_0_0
  | ⟨9, _⟩ => Rect.unit (s := S3x4x3x256x128) ![1, 1, 0, 0, 0] S1x1x1x256x128.size inb_S3x4x3x256x128_S1x1x1x256x128_1_1_0_0_0
  | ⟨10, _⟩ => Rect.unit (s := S3x4x3x256x128) ![1, 2, 0, 0, 0] S1x1x1x256x128.size inb_S3x4x3x256x128_S1x1x1x256x128_1_2_0_0_0
  | ⟨11, _⟩ => Rect.unit (s := S3x4x3x256x128) ![1, 2, 1, 0, 0] S1x1x1x256x128.size inb_S3x4x3x256x128_S1x1x1x256x128_1_2_1_0_0
  | ⟨12, _⟩ => Rect.unit (s := S3x4x3x256x128) ![1, 2, 2, 0, 0] S1x1x1x256x128.size inb_S3x4x3x256x128_S1x1x1x256x128_1_2_2_0_0
  | ⟨13, _⟩ => Rect.unit (s := S3x4x3x256x128) ![1, 3, 0, 0, 0] S1x1x1x256x128.size inb_S3x4x3x256x128_S1x1x1x256x128_1_3_0_0_0
  | ⟨14, _⟩ => Rect.unit (s := S3x4x3x256x128) ![2, 0, 0, 0, 0] S1x1x1x256x128.size inb_S3x4x3x256x128_S1x1x1x256x128_2_0_0_0_0
  | ⟨15, _⟩ => Rect.unit (s := S3x4x3x256x128) ![2, 1, 0, 0, 0] S1x1x1x256x128.size inb_S3x4x3x256x128_S1x1x1x256x128_2_1_0_0_0
  | ⟨16, _⟩ => Rect.unit (s := S3x4x3x256x128) ![2, 1, 1, 0, 0] S1x1x1x256x128.size inb_S3x4x3x256x128_S1x1x1x256x128_2_1_1_0_0
  | ⟨17, _⟩ => Rect.unit (s := S3x4x3x256x128) ![2, 1, 2, 0, 0] S1x1x1x256x128.size inb_S3x4x3x256x128_S1x1x1x256x128_2_1_2_0_0
  | ⟨18, _⟩ => Rect.unit (s := S3x4x3x256x128) ![2, 2, 0, 0, 0] S1x1x1x256x128.size inb_S3x4x3x256x128_S1x1x1x256x128_2_2_0_0_0
  | ⟨19, _⟩ => Rect.unit (s := S3x4x3x256x128) ![2, 3, 0, 0, 0] S1x1x1x256x128.size inb_S3x4x3x256x128_S1x1x1x256x128_2_3_0_0_0
  | ⟨_ + 20, h⟩ => absurd h (Nat.not_lt.2 (Nat.le_add_left _ _))

/-- Copy `s`'s receive slot, as the `[256,128]` memref a copy writes. -/
def slotM : Fin 20 → Memref sig .tc .vmem S256x128 .bf16
  | ⟨0, _⟩ => (comM.slice (Rect.unit (s := S3x4x3x256x128) ![0, 0, 0, 0, 0] S1x1x1x256x128.size inb_S3x4x3x256x128_S1x1x1x256x128_0_0_0_0_0) (fun _ => rfl)).squeeze S256x128 squeezes_S1x1x1x256x128_S256x128
  | ⟨1, _⟩ => (comM.slice (Rect.unit (s := S3x4x3x256x128) ![0, 0, 1, 0, 0] S1x1x1x256x128.size inb_S3x4x3x256x128_S1x1x1x256x128_0_0_1_0_0) (fun _ => rfl)).squeeze S256x128 squeezes_S1x1x1x256x128_S256x128
  | ⟨2, _⟩ => (comM.slice (Rect.unit (s := S3x4x3x256x128) ![0, 0, 2, 0, 0] S1x1x1x256x128.size inb_S3x4x3x256x128_S1x1x1x256x128_0_0_2_0_0) (fun _ => rfl)).squeeze S256x128 squeezes_S1x1x1x256x128_S256x128
  | ⟨3, _⟩ => (comM.slice (Rect.unit (s := S3x4x3x256x128) ![0, 1, 0, 0, 0] S1x1x1x256x128.size inb_S3x4x3x256x128_S1x1x1x256x128_0_1_0_0_0) (fun _ => rfl)).squeeze S256x128 squeezes_S1x1x1x256x128_S256x128
  | ⟨4, _⟩ => (comM.slice (Rect.unit (s := S3x4x3x256x128) ![0, 2, 0, 0, 0] S1x1x1x256x128.size inb_S3x4x3x256x128_S1x1x1x256x128_0_2_0_0_0) (fun _ => rfl)).squeeze S256x128 squeezes_S1x1x1x256x128_S256x128
  | ⟨5, _⟩ => (comM.slice (Rect.unit (s := S3x4x3x256x128) ![0, 3, 0, 0, 0] S1x1x1x256x128.size inb_S3x4x3x256x128_S1x1x1x256x128_0_3_0_0_0) (fun _ => rfl)).squeeze S256x128 squeezes_S1x1x1x256x128_S256x128
  | ⟨6, _⟩ => (comM.slice (Rect.unit (s := S3x4x3x256x128) ![0, 3, 1, 0, 0] S1x1x1x256x128.size inb_S3x4x3x256x128_S1x1x1x256x128_0_3_1_0_0) (fun _ => rfl)).squeeze S256x128 squeezes_S1x1x1x256x128_S256x128
  | ⟨7, _⟩ => (comM.slice (Rect.unit (s := S3x4x3x256x128) ![0, 3, 2, 0, 0] S1x1x1x256x128.size inb_S3x4x3x256x128_S1x1x1x256x128_0_3_2_0_0) (fun _ => rfl)).squeeze S256x128 squeezes_S1x1x1x256x128_S256x128
  | ⟨8, _⟩ => (comM.slice (Rect.unit (s := S3x4x3x256x128) ![1, 0, 0, 0, 0] S1x1x1x256x128.size inb_S3x4x3x256x128_S1x1x1x256x128_1_0_0_0_0) (fun _ => rfl)).squeeze S256x128 squeezes_S1x1x1x256x128_S256x128
  | ⟨9, _⟩ => (comM.slice (Rect.unit (s := S3x4x3x256x128) ![1, 1, 0, 0, 0] S1x1x1x256x128.size inb_S3x4x3x256x128_S1x1x1x256x128_1_1_0_0_0) (fun _ => rfl)).squeeze S256x128 squeezes_S1x1x1x256x128_S256x128
  | ⟨10, _⟩ => (comM.slice (Rect.unit (s := S3x4x3x256x128) ![1, 2, 0, 0, 0] S1x1x1x256x128.size inb_S3x4x3x256x128_S1x1x1x256x128_1_2_0_0_0) (fun _ => rfl)).squeeze S256x128 squeezes_S1x1x1x256x128_S256x128
  | ⟨11, _⟩ => (comM.slice (Rect.unit (s := S3x4x3x256x128) ![1, 2, 1, 0, 0] S1x1x1x256x128.size inb_S3x4x3x256x128_S1x1x1x256x128_1_2_1_0_0) (fun _ => rfl)).squeeze S256x128 squeezes_S1x1x1x256x128_S256x128
  | ⟨12, _⟩ => (comM.slice (Rect.unit (s := S3x4x3x256x128) ![1, 2, 2, 0, 0] S1x1x1x256x128.size inb_S3x4x3x256x128_S1x1x1x256x128_1_2_2_0_0) (fun _ => rfl)).squeeze S256x128 squeezes_S1x1x1x256x128_S256x128
  | ⟨13, _⟩ => (comM.slice (Rect.unit (s := S3x4x3x256x128) ![1, 3, 0, 0, 0] S1x1x1x256x128.size inb_S3x4x3x256x128_S1x1x1x256x128_1_3_0_0_0) (fun _ => rfl)).squeeze S256x128 squeezes_S1x1x1x256x128_S256x128
  | ⟨14, _⟩ => (comM.slice (Rect.unit (s := S3x4x3x256x128) ![2, 0, 0, 0, 0] S1x1x1x256x128.size inb_S3x4x3x256x128_S1x1x1x256x128_2_0_0_0_0) (fun _ => rfl)).squeeze S256x128 squeezes_S1x1x1x256x128_S256x128
  | ⟨15, _⟩ => (comM.slice (Rect.unit (s := S3x4x3x256x128) ![2, 1, 0, 0, 0] S1x1x1x256x128.size inb_S3x4x3x256x128_S1x1x1x256x128_2_1_0_0_0) (fun _ => rfl)).squeeze S256x128 squeezes_S1x1x1x256x128_S256x128
  | ⟨16, _⟩ => (comM.slice (Rect.unit (s := S3x4x3x256x128) ![2, 1, 1, 0, 0] S1x1x1x256x128.size inb_S3x4x3x256x128_S1x1x1x256x128_2_1_1_0_0) (fun _ => rfl)).squeeze S256x128 squeezes_S1x1x1x256x128_S256x128
  | ⟨17, _⟩ => (comM.slice (Rect.unit (s := S3x4x3x256x128) ![2, 1, 2, 0, 0] S1x1x1x256x128.size inb_S3x4x3x256x128_S1x1x1x256x128_2_1_2_0_0) (fun _ => rfl)).squeeze S256x128 squeezes_S1x1x1x256x128_S256x128
  | ⟨18, _⟩ => (comM.slice (Rect.unit (s := S3x4x3x256x128) ![2, 2, 0, 0, 0] S1x1x1x256x128.size inb_S3x4x3x256x128_S1x1x1x256x128_2_2_0_0_0) (fun _ => rfl)).squeeze S256x128 squeezes_S1x1x1x256x128_S256x128
  | ⟨19, _⟩ => (comM.slice (Rect.unit (s := S3x4x3x256x128) ![2, 3, 0, 0, 0] S1x1x1x256x128.size inb_S3x4x3x256x128_S1x1x1x256x128_2_3_0_0_0) (fun _ => rfl)).squeeze S256x128 squeezes_S1x1x1x256x128_S256x128
  | ⟨_ + 20, h⟩ => absurd h (Nat.not_lt.2 (Nat.le_add_left _ _))

end Cert.KernelIdeal.Proto

end
-- ==== Proof.KernelIdealProto.lean ====
/-
  The exchange protocol of the kernel, as data: who the partners are, which semaphore and which receive slot serve
  which copy, and how much credit a copy carries.

  A device `c` has five partners `px i c` (its id with bits flipped: by 1, 2, 3 inside its plane of four, by 4 and by 8
  across planes). At entry it signals each partner's barrier semaphore once and waits for five units on its own: every
  partner that will ever write into it is then inside the kernel. Each of the four column chunks of the partial result is
  summed over the sixteen devices in three exchange steps (one over the plane, with three partners at once; two over a
  column pair), the order of the steps differing per chunk. A step's copy of chunk `ch` to partner number `j` uses its own
  pair of DMA semaphores and its own receive slot: twenty copies per device, the `slots`, listed in the order the kernel
  starts them.
-/
import proofs.«900514_g7700000000000515_dist_attn_self_mha_htp_b2_sq128_skv128_d512_hq8_dh64_v7x_i16_bf16_1_alg».proof.Proof.KernelIdealTerms
import proofs.«900514_g7700000000000515_dist_attn_self_mha_htp_b2_sq128_skv128_d512_hq8_dh64_v7x_i16_bf16_1_alg».proof.Proof.KernelIdealSlots
import proofs.«900514_g7700000000000515_dist_attn_self_mha_htp_b2_sq128_skv128_d512_hq8_dh64_v7x_i16_bf16_1_alg».proof.Proof.Gen.KernelIdeal.Launch
import proofs.«900514_g7700000000000515_dist_attn_self_mha_htp_b2_sq128_skv128_d512_hq8_dh64_v7x_i16_bf16_1_alg».proof.Proof.Gen.KernelIdeal.Points
import proofs.«900514_g7700000000000515_dist_attn_self_mha_htp_b2_sq128_skv128_d512_hq8_dh64_v7x_i16_bf16_1_alg».proof.Proof.Gen.KernelIdeal.Frame
import Idealize.ShloMosaic.Lib.Pipeline.Launch
import Idealize.ShloMosaic.Lib.Pipeline.Kit
import Idealize.ShloMosaic.Lib.Tactic

noncomputable section

namespace Cert.KernelIdeal.Proto

open Cert.KernelIdeal Cert.KernelIdeal.Gen Cert.KernelIdeal.Terms

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's (duties `Fin 5`) -/

abbrev UB : Type := URounds (GSem nD τ sig) (Fin 5)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The kernel's `device_id` chains are the partners -/

theorem dev1_eq (c : Dev nD) : (⟨k0_dev1 c, k0_dev1_lt c⟩ : Dev nD) = px 0 c := Fin.ext (by revert c; decide +kernel)
theorem dev2_eq (c : Dev nD) : (⟨k0_dev2 c, k0_dev2_lt c⟩ : Dev nD) = px 1 c := Fin.ext (by revert c; decide +kernel)
theorem dev3_eq (c : Dev nD) : (⟨k0_dev3 c, k0_dev3_lt c⟩ : Dev nD) = px 2 c := Fin.ext (by revert c; decide +kernel)
theorem dev4_eq (c : Dev nD) : (⟨k0_dev4 c, k0_dev4_lt c⟩ : Dev nD) = px 3 c := Fin.ext (by revert c; decide +kernel)
theorem dev5_eq (c : Dev nD) : (⟨k0_dev5 c, k0_dev5_lt c⟩ : Dev nD) = px 4 c := Fin.ext (by revert c; decide +kernel)

/-! ## The twenty copies of a device, in the order it starts them -/

/-- The position of a copy's semaphores in the two `3 × 4 × 3` semaphore arrays. -/
def semIx (s : Fin 20) : ℕ := (slotK s).val * 12 + (slotCh s).val * 3 + (slotJ s).val
theorem semIx_lt (s : Fin 20) : semIx s < 36 := by revert s; decide

/-- The semaphore a copy's source side completes on (the sender's own) and the one its landing completes on (the receiver's). -/
def sendSem (s : Fin 20) : DmaSem sig := ⟨6 + semIx s, by have := semIx_lt s; show 6 + semIx s < 78; omega⟩
def recvSem (s : Fin 20) : DmaSem sig := ⟨42 + semIx s, by have := semIx_lt s; show 42 + semIx s < 78; omega⟩

/-- The runtime's barrier semaphore of collective id 0. -/
abbrev barS : Sem sig := (SemArray.scalar (sig.barrier 0 rfl) : Sems sig S_).sem

abbrev barCell (c : Dev nD) : GSem nD τ sig := ((c : Thread nD τ), .reg barS)
abbrev sendCell (c : Dev nD) (s : Fin 20) : GSem nD τ sig := ((c : Thread nD τ), .dma (sendSem s))
abbrev recvCell (c : Dev nD) (s : Fin 20) : GSem nD τ sig := ((c : Thread nD τ), .dma (recvSem s))

theorem sendSem_inj : Function.Injective sendSem := by decide
theorem recvSem_inj : Function.Injective recvSem := by decide
theorem sendSem_ne_recvSem (s t : Fin 20) : sendSem s ≠ recvSem t := by revert s t; decide

/-! ## The buffers -/

/-- Chunk `ch`'s slice of a `[4,256,128]` buffer. -/
def chRect : Fin 4 → Rect S4x256x128
  | 0 => Rect.unit (s := S4x256x128) ![0, 0, 0] S1x256x128.size inb_S4x256x128_S1x256x128_0_0_0
  | 1 => Rect.unit (s := S4x256x128) ![1, 0, 0] S1x256x128.size inb_S4x256x128_S1x256x128_1_0_0
  | 2 => Rect.unit (s := S4x256x128) ![2, 0, 0] S1x256x128.size inb_S4x256x128_S1x256x128_2_0_0
  | 3 => Rect.unit (s := S4x256x128) ![3, 0, 0] S1x256x128.size inb_S4x256x128_S1x256x128_3_0_0

theorem chRect_stride (ch : Fin 4) : ∀ a, (chRect ch).stride a = 1 := by
  intro a; fin_cases ch <;> rfl
theorem chRect_shape (ch : Fin 4) : (chRect ch).shape = S1x256x128 := by fin_cases ch <;> rfl

theorem slotRect_stride (s : Fin 20) : ∀ a, (slotRect s).stride a = 1 := by
  intro a; fin_cases s <;> rfl
theorem slotRect_shape (s : Fin 20) : (slotRect s).shape = S1x1x1x256x128 := by fin_cases s <;> rfl

/-- Chunk `ch`'s outgoing slice, as the `[256,128]` memref a copy reads. -/
def srcM : Fin 4 → Memref sig .tc .vmem S256x128 .bf16
  | 0 => (sndM.slice (Rect.unit (s := S4x256x128) ![0, 0, 0] S1x256x128.size inb_S4x256x128_S1x256x128_0_0_0) (fun _ => rfl)).squeeze S256x128 squeezes_S1x256x128_S256x128
  | 1 => (sndM.slice (Rect.unit (s := S4x256x128) ![1, 0, 0] S1x256x128.size inb_S4x256x128_S1x256x128_1_0_0) (fun _ => rfl)).squeeze S256x128 squeezes_S1x256x128_S256x128
  | 2 => (sndM.slice (Rect.unit (s := S4x256x128) ![2, 0, 0] S1x256x128.size inb_S4x256x128_S1x256x128_2_0_0) (fun _ => rfl)).squeeze S256x128 squeezes_S1x256x128_S256x128
  | 3 => (sndM.slice (Rect.unit (s := S4x256x128) ![3, 0, 0] S1x256x128.size inb_S4x256x128_S1x256x128_3_0_0) (fun _ => rfl)).squeeze S256x128 squeezes_S1x256x128_S256x128

/-- The credit one copy of a `[256,128]` bf16 slice carries. -/
abbrev N : ℕ := (slotM 0).view.dmaCredit
theorem N_pos : 0 < N := View.dmaCredit_pos _ (by decide)
theorem amount_slot (s : Fin 20) (q : DmaSem sig) : (slotM s).view.amount (.dma q) = N := by fin_cases s <;> rfl

/-! ## What the buffers hold -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- Device `d`'s five staged inputs: the activations and its blocks of the query, output, key and value matrices. -/
def xs0 (d : Dev nD) : (cc0_stg0_0 : Ref sig .tc).ty.Contents (Elt F) := (win0_0.blk (0 : Fin 1)).view.read (Elt F) (m ((d : Thread nD τ).loc main_arg0))
def xs1 (d : Dev nD) : (cc0_stg1_0 : Ref sig .tc).ty.Contents (Elt F) := (win0_1.blk (0 : Fin 1)).view.read (Elt F) (m ((d : Thread nD τ).loc main_arg1))
def xs2 (d : Dev nD) : (cc0_stg2_0 : Ref sig .tc).ty.Contents (Elt F) := (win0_2.blk (0 : Fin 1)).view.read (Elt F) (m ((d : Thread nD τ).loc main_arg2))
def xs3 (d : Dev nD) : (cc0_stg3_0 : Ref sig .tc).ty.Contents (Elt F) := (win0_3.blk (0 : Fin 1)).view.read (Elt F) (m ((d : Thread nD τ).loc main_arg3))
def xs4 (d : Dev nD) : (cc0_stg4_0 : Ref sig .tc).ty.Contents (Elt F) := (win0_4.blk (0 : Fin 1)).view.read (Elt F) (m ((d : Thread nD τ).loc main_arg4))

/-- Device `d`'s own partial result for chunk `ch`. -/
def part0 (ch : Fin 4) (d : Dev nD) : FVec F S256x128 .f32 :=
  match ch with
  | 0 => pa0 (xs0 m d) (xs1 m d) (xs2 m d) (xs3 m d) (xs4 m d)
  | 1 => pa1 (xs0 m d) (xs1 m d) (xs2 m d) (xs3 m d) (xs4 m d)
  | 2 => pa2 (xs0 m d) (xs1 m d) (xs2 m d) (xs3 m d) (xs4 m d)
  | 3 => pa3 (xs0 m d) (xs1 m d) (xs2 m d) (xs3 m d) (xs4 m d)

/-- The running sum of chunk `ch` on device `d` after `k` exchange steps (the chunk's own order of steps). -/
def run : Fin 4 → ℕ → Dev nD → FVec F S256x128 .f32
  | 0, 0 => part0 m 0 | 0, 1 => stepP (part0 m 0) | 0, 2 => stepZ1 (stepP (part0 m 0)) | 0, _ + 3 => red0 (part0 m 0)
  | 1, 0 => part0 m 1 | 1, 1 => stepZ1 (part0 m 1) | 1, 2 => stepZ2 (stepZ1 (part0 m 1)) | 1, _ + 3 => red1 (part0 m 1)
  | 2, 0 => part0 m 2 | 2, 1 => stepZ2 (part0 m 2) | 2, 2 => stepP (stepZ2 (part0 m 2)) | 2, _ + 3 => red2 (part0 m 2)
  | 3, 0 => part0 m 3 | 3, 1 => stepP (part0 m 3) | 3, 2 => stepZ2 (stepP (part0 m 3)) | 3, _ + 3 => red3 (part0 m 3)

/-- What copy `s` carries from device `d`: its running sum of the copy's chunk before the copy's step, narrowed. -/
def sent (s : Fin 20) (d : Dev nD) : FVec F S256x128 .bf16 := truncf .bf16 (run m (slotCh s) (slotK s).val d) bitsLt_bf16_f32

/-! ## The schedule -/

/-- Device `p`'s receive slot of copy `s`, at contents `f`. -/
def slotPts (p : Dev nD) (s : Fin 20) (f : Buf (Elt F) ((slotM s).view.loc (p : Thread nD τ))) : sProp 𝕄 :=
  (slotM s).view.loc (p : Thread nD τ) ↦[(slotM s).view.set]{fullShare} f
/-- Device `p`'s outgoing slice of chunk `ch`, at share `q` and contents `f`. -/
def srcPts (p : Dev nD) (ch : Fin 4) (q : PosShare TreeShare) (f : Buf (Elt F) ((srcM ch).view.loc (p : Thread nD τ))) : sProp 𝕄 :=
  (srcM ch).view.loc (p : Thread nD τ) ↦[(srcM ch).view.set]{q} f

/-- The share of its source a copy borrows: all of it when the step has one partner, a third part when it has three. -/
def slotShare (s : Fin 20) : PosShare TreeShare :=
  if slotX s = 3 ∨ slotX s = 4 then fullShare
  else if slotJ s = 0 then fullShare.left else if slotJ s = 1 then fullShare.right.left else fullShare.right.right

/-- What a partner hands over with its entry signal: one of its receive slots, and that the slot's cell is open. -/
def give (p : Dev nD) (s : Fin 20) : sProp 𝕄 := iprop((∃ f, slotPts p s f) ∗ reached ER (recvCell p s) 0)

/-- The four copies that go to partner number `i`. -/
def slotsOf : Fin 5 → Fin 4 → Fin 20
  | 0 => ![0, 5, 10, 15] | 1 => ![1, 6, 11, 16] | 2 => ![2, 7, 12, 17] | 3 => ![3, 8, 18, 19] | 4 => ![4, 9, 13, 14]

theorem slotX_slotsOf (i : Fin 5) (t : Fin 4) : slotX (slotsOf i t) = i := by revert i t; decide

/-- The entry signal of partner `p` to the device it calls partner `i`: the four slots of `p` that device will write. -/
def barPay (i : Fin 5) (p : Dev nD) : sProp 𝕄 :=
  iprop(give p (slotsOf i 0) ∗ give p (slotsOf i 1) ∗ give p (slotsOf i 2) ∗ give p (slotsOf i 3))

/-- Some contents of a buffer (what lies outside a slot is of no account). -/
def junk (p : Dev nD) (s : Fin 20) : Buf (Elt F) ((slotM s).view.loc (p : Thread nD τ)) := fun _ => Classical.arbitrary _

/-- A slot holding what the sender's copy carried. -/
def landed (c : Dev nD) (s : Fin 20) : Buf (Elt F) ((slotM s).view.loc (c : Thread nD τ)) :=
  (slotM s).view.write (Elt F) (junk c s) (sent m s (px (slotX s) c)) Finset.univ

/-- A landing: the slot, holding what the sender's copy carried. -/
def recvPay (c : Dev nD) (s : Fin 20) : sProp 𝕄 := slotPts c s (landed m c s)
/-- A departure: the borrowed share of the outgoing slice, back. -/
def sendPay (c : Dev nD) (s : Fin 20) : sProp 𝕄 := iprop(∃ f, srcPts c (slotCh s) (slotShare s) f)

/-- Which copy a DMA semaphore serves, if any: as a sender's or as a receiver's. -/
def sendSlot? (q : DmaSem sig) : Option (Fin 20) := (List.finRange 20).find? (fun s => sendSem s = q)
def recvSlot? (q : DmaSem sig) : Option (Fin 20) := (List.finRange 20).find? (fun s => recvSem s = q)

theorem sendSlot?_sendSem (s : Fin 20) : sendSlot? (sendSem s) = some s := by revert s; decide
theorem recvSlot?_recvSem (s : Fin 20) : recvSlot? (recvSem s) = some s := by revert s; decide
theorem sendSlot?_recvSem (s : Fin 20) : sendSlot? (recvSem s) = none := by revert s; decide
theorem recvSlot?_sendSem (s : Fin 20) : recvSlot? (sendSem s) = none := by revert s; decide

/-- One round. A barrier cell: five duties of one unit, duty `i` paid by partner `i`'s entry signal. A copy's send cell
    and receive cell: one duty of the copy's credit each. -/
def sched : Rounds.Schedule (GSem nD τ sig) (Fin 5) 𝕄 where
  duties g r :=
    if r = 0 ∧ g.1.2 = .tc then
      match g.2 with
      | .reg b => if b = barS then Finset.univ else ∅
      | .dma q => if (sendSlot? q).isSome ∨ (recvSlot? q).isSome then {0} else ∅
    else ∅
  unitless _ := False
  amount g _ _ := match g.2 with | .reg _ => 1 | .dma _ => N
  payload g _ d :=
    match g.2 with
    | .reg _ => barPay d (px d g.1.1)
    | .dma q =>
      match sendSlot? q with
      | some s => sendPay g.1.1 s
      | none => match recvSlot? q with
        | some s => recvPay m g.1.1 s
        | none => iprop(emp)
  amount_pos g _ _ _ := by
    cases g.2 with
    | reg _ => exact Nat.one_pos
    | dma _ => exact N_pos

instance give_storable (p : Dev nD) (s : Fin 20) : BI.Storable (upEmb : UEmb _ 𝕄) (give (F := F) p s) := by
  unfold give slotPts; infer_instance
instance barPay_storable (i : Fin 5) (p : Dev nD) : BI.Storable (upEmb : UEmb _ 𝕄) (barPay (F := F) i p) := by
  unfold barPay; infer_instance
instance recvPay_storable (c : Dev nD) (s : Fin 20) : BI.Storable (upEmb : UEmb _ 𝕄) (recvPay m c s) := by
  unfold recvPay slotPts; infer_instance
instance sendPay_storable (c : Dev nD) (s : Fin 20) : BI.Storable (upEmb : UEmb _ 𝕄) (sendPay (F := F) c s) := by
  unfold sendPay srcPts; infer_instance

instance sched_payload_storable (g : GSem nD τ sig) (r : ℕ) (d : Fin 5) :
    BI.Storable (upEmb : UEmb _ 𝕄) ((sched m).payload g r d) := by
  show BI.Storable upEmb (match g.2 with
    | .reg _ => barPay d (px d g.1.1)
    | .dma q => match sendSlot? q with
      | some s => sendPay g.1.1 s
      | none => match recvSlot? q with
        | some s => recvPay m g.1.1 s
        | none => iprop(emp))
  (repeat' split) <;> infer_instance

/-! ### The tables, cell by cell -/

section Tables
variable (c : Dev nD) (s : Fin 20)

theorem duties_bar : (sched m).duties (barCell c) 0 = Finset.univ := by
  dsimp only [sched]; rw [if_pos ⟨rfl, rfl⟩]; exact if_pos rfl
theorem duties_send : (sched m).duties (sendCell c s) 0 = {0} := by
  dsimp only [sched]; rw [if_pos ⟨rfl, rfl⟩]; exact if_pos (Or.inl (by rw [sendSlot?_sendSem]; rfl))
theorem duties_recv : (sched m).duties (recvCell c s) 0 = {0} := by
  dsimp only [sched]; rw [if_pos ⟨rfl, rfl⟩]; exact if_pos (Or.inr (by rw [recvSlot?_recvSem]; rfl))
theorem duties_later (g : GSem nD τ sig) : ∀ r, 1 ≤ r → (sched m).duties g r = ∅ :=
  fun r hr => by dsimp only [sched]; rw [if_neg fun h => by omega]

theorem amount_bar (d : Fin 5) : (sched m).amount (barCell c) 0 d = 1 := rfl
theorem amount_send (d : Fin 5) : (sched m).amount (sendCell c s) 0 d = N := rfl
theorem amount_recv (d : Fin 5) : (sched m).amount (recvCell c s) 0 d = N := rfl

theorem expect_bar : (sched m).expect (barCell c) 0 = 5 := by
  unfold Schedule.expect Schedule.amountOf
  rw [duties_bar, Finset.sum_congr rfl fun d _ => amount_bar m c d, Finset.sum_const, Finset.card_univ, Fintype.card_fin, smul_eq_mul]
theorem expect_send : (sched m).expect (sendCell c s) 0 = N := by
  unfold Schedule.expect Schedule.amountOf; rw [duties_send, Finset.sum_singleton, amount_send]
theorem expect_recv : (sched m).expect (recvCell c s) 0 = N := by
  unfold Schedule.expect Schedule.amountOf; rw [duties_recv, Finset.sum_singleton, amount_recv]

theorem payload_bar (d : Fin 5) : (sched m).payload (barCell c) 0 d = barPay d (px d c) := rfl
theorem payload_send (d : Fin 5) : (sched m).payload (sendCell c s) 0 d = sendPay c s := by
  dsimp only [sched]; rw [sendSlot?_sendSem]
theorem payload_recv (d : Fin 5) : (sched m).payload (recvCell c s) 0 d = recvPay m c s := by
  dsimp only [sched]; rw [sendSlot?_recvSem, recvSlot?_recvSem]

/-- What device `c` hands partner `px i c` with its entry signal: its own four slots that partner writes. -/
theorem payload_bar_peer (i : Fin 5) : (sched m).payload (barCell (px i c)) 0 i = barPay i c := by
  rw [payload_bar, px_px]

theorem rest_send : bigSep ((sched m).duties (sendCell c s) 0 \ ∅) (fun d => (sched m).payload (sendCell c s) 0 d) = sendPay c s := by
  rw [Finset.sdiff_empty, duties_send, bigSep_singleton, payload_send]
theorem rest_recv : bigSep ((sched m).duties (recvCell c s) 0 \ ∅) (fun d => (sched m).payload (recvCell c s) 0 d) = recvPay m c s := by
  rw [Finset.sdiff_empty, duties_recv, bigSep_singleton, payload_recv]
theorem rest_bar : bigSep ((sched m).duties (barCell c) 0 \ ∅) (fun d => (sched m).payload (barCell c) 0 d)
    = iprop(barPay 0 (px 0 c) ∗ barPay 1 (px 1 c) ∗ barPay 2 (px 2 c) ∗ barPay 3 (px 3 c) ∗ barPay 4 (px 4 c)) := by
  rw [Finset.sdiff_empty, duties_bar, bigSep_univ_eq_bigSepL [0, 1, 2, 3, 4] (by decide) (by decide)]
  rfl

end Tables

/-! ## Levels: a wait's cell lies below everything the waiter still owes -/

def L (g : GSem nD τ sig) : Finset Unit := if g.1.2 = .tc then {()} else ∅
/-- Staging cells 0; barrier cells 1; send cells 2; the receive cell of step `k`, chunk `ch` at `10 + 4k + ch`: the order
    in which a device's receive waits come, so that what it still owes (copies of later steps and chunks) lies above. -/
def lv (g : GSem nD τ sig) (_ : Unit) : ℕ :=
  match g.2 with
  | .reg _ => 1
  | .dma q => match recvSlot? q with
    | some s => 10 + (slotK s).val * 4 + (slotCh s).val
    | none => if (sendSlot? q).isSome then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_send (c : Dev nD) (s : Fin 20) : lv (sendCell c s) () = 2 := by
  dsimp only [lv]; rw [recvSlot?_sendSem, sendSlot?_sendSem]; rfl
theorem lv_recv (c : Dev nD) (s : Fin 20) : lv (recvCell c s) () = 10 + (slotK s).val * 4 + (slotCh s).val := by
  dsimp only [lv]; rw [recvSlot?_recvSem]

/-! ## What a device owes, in the order it pays -/

/-- A chain of dues, the first to be paid last in the sum: each payment peels the outermost summand. -/
def owedL : List (CellTallies nD τ sig Unit) → CellTallies nD τ sig Unit
  | [] => 0
  | p :: ps => owedL ps + p

theorem owedL_cons (p : CellTallies nD τ sig Unit) (ps : List (CellTallies nD τ sig Unit)) : owedL (p :: ps) = owedL ps + p := rfl

/-- The entry signal to partner `i`, and copy `s`'s landing at its receiver. -/
def sigDue (c : Dev nD) (i : Fin 5) : CellTallies nD τ sig Unit := tallyAt (barCell (px i c)) () 1
def copyDue (c : Dev nD) (s : Fin 20) : CellTallies nD τ sig Unit := tallyAt (recvCell (px (slotX s) c) s) () N

/-- The copies from number `n` on, in the order they are started. -/
def copyDues (c : Dev nD) (n : ℕ) : List (CellTallies nD τ sig Unit) := ((List.finRange 20).drop n).map (copyDue c)
/-- Everything device `c` owes at launch: five entry signals, then twenty landings. -/
def O₀ (c : Dev nD) : CellTallies nD τ sig Unit := owedL ((List.finRange 5).map (sigDue c) ++ copyDues c 0)

/-- A positive entry of a chain of dues is a positive entry of one of them. -/
theorem owedL_pos {l : List (CellTallies nD τ sig Unit)} {g : GSem nD τ sig} {u : Unit} (h : 0 < owedL l g u) : ∃ p ∈ l, 0 < p g u := by
  induction l with
  | nil => exact absurd h (Nat.lt_irrefl 0)
  | cons p ps ih =>
    rcases Pipeline.add_pos_cases (D₁ := owedL ps) (D₂ := p) h with h1 | h2
    · obtain ⟨q, hq, hq'⟩ := ih h1; exact ⟨q, List.mem_cons_of_mem _ hq, hq'⟩
    · exact ⟨p, List.mem_cons_self, h2⟩

end Cert.KernelIdeal.Proto

end
-- ==== Proof.KernelIdealGhost.lean ====
/-
  The exchange protocol's ghost state: which invariants, positions, round marks and duty tokens a device's body starts
  from. Every cell's invariant and round-0 mark is persistent and shared by all devices; a device alone holds its position
  in each of its 41 cells and the tokens of the duties it pays (its entry signals, its copies' departures and landings).
-/
import proofs.«900514_g7700000000000515_dist_attn_self_mha_htp_b2_sq128_skv128_d512_hq8_dh64_v7x_i16_bf16_1_alg».proof.Proof.KernelIdealProto

noncomputable section

namespace Cert.KernelIdeal.Proto

open Cert.KernelIdeal Cert.KernelIdeal.Gen Cert.KernelIdeal.Terms

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A device's cells: its barrier cell, and per copy its send cell and its receive cell. -/
abbrev Cell : Type := Unit ⊕ (Fin 20 ⊕ Fin 20)
/-- The kernel's own (scoped) semaphores in use: per copy, the sender's and the receiver's. -/
abbrev osem : Fin 20 ⊕ Fin 20 → SemLoc sig := fun | .inl s => .dma (sendSem s) | .inr s => .dma (recvSem s)
abbrev csem : Cell → SemLoc sig | .inl _ => .reg barS | .inr k => osem k
abbrev kcell (ck : Dev nD × Cell) : GSem nD τ sig := ((ck.1 : Thread nD τ), csem ck.2)

theorem bigSep_cell (Φ : Cell → sProp 𝕄) : bigSep Finset.univ Φ
    = iprop(Φ (.inl ()) ∗ (bigSep Finset.univ fun s : Fin 20 => Φ (.inr (.inl s))) ∗ bigSep Finset.univ fun s : Fin 20 => Φ (.inr (.inr s))) := by
  rw [bigSep_univ_sum, bigSep_univ_of_subsingleton (), bigSep_univ_sum]; rfl

/-- Every cell's invariant, at the names the launch allocated, and that every cell is open at round 0: persistent, the
    same for all devices. -/
def records (K : Dev nD × Cell → ℕ) : sProp 𝕄 :=
  iprop((bigSep Finset.univ fun ck : Dev nD × Cell => cellInv ER (sched m) (K ck) (kcell ck))
    ∗ bigSep Finset.univ fun ck : Dev nD × Cell => reached ER (kcell ck) 0)

instance records_persistent (K : Dev nD × Cell → ℕ) : BI.Persistent (records m K) := by unfold records; infer_instance

theorem inv_at (K : Dev nD × Cell → ℕ) (ck : Dev nD × Cell) : records m K ⊢ cellInv ER (sched m) (K ck) (kcell ck) := by
  have h : (bigSep Finset.univ fun ck : Dev nD × Cell => (cellInv ER (sched m) (K ck) (kcell ck) : sProp 𝕄)) ⊢ cellInv ER (sched m) (K ck) (kcell ck) :=
    bigSep_elim (Finset.mem_univ ck)
  unfold records; iintro ⟨HI, -⟩; iapply h; iexact HI
theorem reached_at (K : Dev nD × Cell → ℕ) (ck : Dev nD × Cell) : records m K ⊢ reached ER (kcell ck) 0 := by
  have h : (bigSep Finset.univ fun ck : Dev nD × Cell => (reached ER (kcell ck) 0 : sProp 𝕄)) ⊢ reached ER (kcell ck) 0 :=
    bigSep_elim (Finset.mem_univ ck)
  unfold records; iintro ⟨-, HR⟩; iapply h; iexact HR

/-- The tokens device `c` pays with: its entry signals' (one per partner), its copies' landings' (at the receivers), its
    copies' departures' (its own send cells). -/
def payToks (c : Dev nD) : sProp 𝕄 :=
  iprop((bigSep Finset.univ fun i : Fin 5 => dutyTok ER (barCell (px i c)) 0 i)
    ∗ (bigSep Finset.univ fun s : Fin 20 => dutyTok ER (recvCell (px (slotX s) c) s) 0 0)
    ∗ (bigSep Finset.univ fun s : Fin 20 => dutyTok ER (sendCell c s) 0 0))
/-- What is device `c`'s alone: its position in each of its 41 cells, and those tokens. -/
def linear (c : Dev nD) : sProp 𝕄 := iprop((bigSep Finset.univ fun k : Cell => atPos ER (kcell (c, k)) 0 ∅ 0) ∗ payToks c)

def ghost (K : Dev nD × Cell → ℕ) (c : Dev nD) : sProp 𝕄 := iprop(records m K ∗ linear c)

/-- What device `c`'s body starts from: the ghost state at some names, the credit the launch dealt it (five units on its
    barrier cell, a copy's credit on each receive cell), and the levels. -/
def start (c : Dev nD) : sProp 𝕄 :=
  iprop((∃ K, ghost m K c) ∗ cred (tallyAt (barCell c) () 5) ∗ (bigSep Finset.univ fun s : Fin 20 => cred (tallyAt (recvCell c s) () N)) ∗ levAts L lv)

end Cert.KernelIdeal.Proto

end
-- ==== Proof.KernelIdealOut.lean ====
/-
  The result buffer after the kernel's four chunk stores, for any element values.

  The kernel stores four `[2, 128, 128]` payloads into its `[2, 128, 512]` result buffer, at columns 0, 128, 256 and 384, each
  through a unit-stride rectangle with a full mask. Entry `(b, i, n)` of the payload stored at column `off` lands at
  `(b, i, off + n)` and every entry outside those 128 columns is kept; the four column blocks tile the 512 columns, so
  after the four stores the buffer holds the four payloads side by side, whatever it held before.
-/
import proofs.«900514_g7700000000000515_dist_attn_self_mha_htp_b2_sq128_skv128_d512_hq8_dh64_v7x_i16_bf16_1_alg».proof.KernelIdeal
import Idealize.ShloMosaic.Lib.ValueIdx

noncomputable section

namespace Cert.KernelIdeal.Out

open Cert.KernelIdeal Idealize.ShloMosaic Idealize.ShloMosaic.ValueIdx

variable (Val : EltTy → Type)

/-- The result's staging buffer, whole. -/
abbrev oM : Memref sig .tc .vmem S2x128x512 .f32 := Memref.whole cc0_stg5_0

/-- The rectangle of 128 columns from column `off`, all rows of both batches. -/
abbrev chunkRect (off : Nat) (inb : ∀ a, (![0, 0, off] : Fin 3 → Nat) a + S2x128x128.size a ≤ S2x128x512.size a) : Rect S2x128x512 :=
  Rect.unit (s := S2x128x512) ![0, 0, off] S2x128x128.size inb

/-- Entry `(b, i, n)` of the chunk at column `off` is entry `(b, i, off + n)` of the buffer. -/
theorem emb_chunk (off : Nat) (inb : ∀ a, (![0, 0, off] : Fin 3 → Nat) a + S2x128x128.size a ≤ S2x128x512.size a)
    (b : Fin 2) (i : Fin 128) (n : Fin 128) (hq : off + n.val < 512) :
    (oM.access (chunkRect off inb)).emb (ix3 b i n) = ix3 b i (⟨off + n.val, hq⟩ : Fin 512) := by
  funext a
  apply Fin.ext
  match a with
  | ⟨0, _⟩ => show 0 + 1 * b.val = b.val; omega
  | ⟨1, _⟩ => show 0 + 1 * i.val = i.val; omega
  | ⟨2, _⟩ => show off + 1 * n.val = off + n.val; omega

/-- A store of the chunk at column `off` puts the payload's entry `(b, i, n)` at `(b, i, off + n)`, -/
theorem chunk_hit (off : Nat) (inb : ∀ a, (![0, 0, off] : Fin 3 → Nat) a + S2x128x128.size a ≤ S2x128x512.size a)
    (f : S2x128x512.Idx → Val .f32) (w : S2x128x128.Idx → Val .f32)
    (b : Fin 2) (i : Fin 128) (n : Fin 128) (hq : off + n.val < 512) :
    (oM.access (chunkRect off inb)).write Val f w Finset.univ (ix3 b i (⟨off + n.val, hq⟩ : Fin 512)) = w (ix3 b i n) := by
  rw [← emb_chunk off inb b i n hq, View.write_emb_of_mem _ _ (Finset.mem_univ _)]
  rfl

/-- and leaves every entry outside those 128 columns as it was. -/
theorem chunk_miss (off : Nat) (inb : ∀ a, (![0, 0, off] : Fin 3 → Nat) a + S2x128x128.size a ≤ S2x128x512.size a)
    (f : S2x128x512.Idx → Val .f32) (w : S2x128x128.Idx → Val .f32)
    (b : Fin 2) (i : Fin 128) (q : Fin 512) (h : q.val < off ∨ off + 128 ≤ q.val) :
    (oM.access (chunkRect off inb)).write Val f w Finset.univ (ix3 b i q) = f (ix3 b i q) := by
  unfold View.write
  rw [preimage?_eq_none]
  intro x hx
  have h2 : ((oM.access (chunkRect off inb)).emb x (2 : Fin 3)).val = ((ix3 b i q : S2x128x512.Idx) (2 : Fin 3)).val := by rw [hx]
  have hx2 : (x (2 : Fin 3)).val < 128 := (x (2 : Fin 3)).isLt
  have e2 : ((oM.access (chunkRect off inb)).emb x (2 : Fin 3)).val = off + 1 * (x (2 : Fin 3)).val := rfl
  have e3 : ((ix3 b i q : S2x128x512.Idx) (2 : Fin 3)).val = q.val := rfl
  rw [e2, e3] at h2
  omega

/-- The buffer after the four chunk stores, in the kernel's order (columns 0, 128, 256, 384), each with a full mask. -/
abbrev stored (inb0 : ∀ a, (![0, 0, 0] : Fin 3 → Nat) a + S2x128x128.size a ≤ S2x128x512.size a)
    (inb1 : ∀ a, (![0, 0, 128] : Fin 3 → Nat) a + S2x128x128.size a ≤ S2x128x512.size a)
    (inb2 : ∀ a, (![0, 0, 256] : Fin 3 → Nat) a + S2x128x128.size a ≤ S2x128x512.size a)
    (inb3 : ∀ a, (![0, 0, 384] : Fin 3 → Nat) a + S2x128x128.size a ≤ S2x128x512.size a)
    (f0 : S2x128x512.Idx → Val .f32) (v0 v1 v2 v3 : S2x128x128.Idx → Val .f32) : S2x128x512.Idx → Val .f32 :=
  (oM.access (Rect.unit (s := S2x128x512) ![0, 0, 384] S2x128x128.size inb3)).write Val
    ((oM.access (Rect.unit (s := S2x128x512) ![0, 0, 256] S2x128x128.size inb2)).write Val
      ((oM.access (Rect.unit (s := S2x128x512) ![0, 0, 128] S2x128x128.size inb1)).write Val
        ((oM.access (Rect.unit (s := S2x128x512) ![0, 0, 0] S2x128x128.size inb0)).write Val f0 v0 Finset.univ)
        v1 Finset.univ)
      v2 Finset.univ)
    v3 Finset.univ

section Stored
variable (inb0 : ∀ a, (![0, 0, 0] : Fin 3 → Nat) a + S2x128x128.size a ≤ S2x128x512.size a)
    (inb1 : ∀ a, (![0, 0, 128] : Fin 3 → Nat) a + S2x128x128.size a ≤ S2x128x512.size a)
    (inb2 : ∀ a, (![0, 0, 256] : Fin 3 → Nat) a + S2x128x128.size a ≤ S2x128x512.size a)
    (inb3 : ∀ a, (![0, 0, 384] : Fin 3 → Nat) a + S2x128x128.size a ≤ S2x128x512.size a)
    (f0 : S2x128x512.Idx → Val .f32) (v0 v1 v2 v3 : S2x128x128.Idx → Val .f32)
    (b : Fin 2) (i : Fin 128) (n : Fin 128)

/-- Columns 0–127 of the buffer hold the first payload, -/
theorem stored_chunk0 : stored Val inb0 inb1 inb2 inb3 f0 v0 v1 v2 v3 (ix3 b i (⟨n.val, by omega⟩ : Fin 512)) = v0 (ix3 b i n) := by
  unfold stored
  rw [chunk_miss Val 384 inb3 _ v3 b i _ (Or.inl (by show n.val < 384; omega)),
    chunk_miss Val 256 inb2 _ v2 b i _ (Or.inl (by show n.val < 256; omega)),
    chunk_miss Val 128 inb1 _ v1 b i _ (Or.inl (by show n.val < 128; omega))]
  exact (congrArg _ (congrArg (ix3 b i) (Fin.ext (Nat.zero_add n.val).symm))).trans (chunk_hit Val 0 inb0 f0 v0 b i n (by omega))

/-- columns 128–255 the second, -/
theorem stored_chunk1 : stored Val inb0 inb1 inb2 inb3 f0 v0 v1 v2 v3 (ix3 b i (⟨128 + n.val, by omega⟩ : Fin 512)) = v1 (ix3 b i n) := by
  unfold stored
  rw [chunk_miss Val 384 inb3 _ v3 b i _ (Or.inl (by show 128 + n.val < 384; omega)),
    chunk_miss Val 256 inb2 _ v2 b i _ (Or.inl (by show 128 + n.val < 256; omega))]
  exact chunk_hit Val 128 inb1 _ v1 b i n (by omega)

/-- columns 256–383 the third, -/
theorem stored_chunk2 : stored Val inb0 inb1 inb2 inb3 f0 v0 v1 v2 v3 (ix3 b i (⟨256 + n.val, by omega⟩ : Fin 512)) = v2 (ix3 b i n) := by
  unfold stored
  rw [chunk_miss Val 384 inb3 _ v3 b i _ (Or.inl (by show 256 + n.val < 384; omega))]
  exact chunk_hit Val 256 inb2 _ v2 b i n (by omega)

/-- columns 384–511 the fourth. -/
theorem stored_chunk3 : stored Val inb0 inb1 inb2 inb3 f0 v0 v1 v2 v3 (ix3 b i (⟨384 + n.val, by omega⟩ : Fin 512)) = v3 (ix3 b i n) := by
  unfold stored
  exact chunk_hit Val 384 inb3 _ v3 b i n (by omega)

end Stored

/-- Every column of the buffer lies in one of the four chunks. -/
theorem col_cases (q : Fin 512) :
    (∃ n : Fin 128, q = (⟨n.val, by omega⟩ : Fin 512)) ∨ (∃ n : Fin 128, q = (⟨128 + n.val, by omega⟩ : Fin 512))
      ∨ (∃ n : Fin 128, q = (⟨256 + n.val, by omega⟩ : Fin 512)) ∨ (∃ n : Fin 128, q = (⟨384 + n.val, by omega⟩ : Fin 512)) := by
  have hq := q.isLt
  rcases (by omega : q.val < 128 ∨ (128 ≤ q.val ∧ q.val < 256) ∨ (256 ≤ q.val ∧ q.val < 384) ∨ 384 ≤ q.val) with h | h | h | h
  · exact Or.inl ⟨⟨q.val, h⟩, rfl⟩
  · exact Or.inr (Or.inl ⟨⟨q.val - 128, by omega⟩, Fin.ext (by show q.val = 128 + (q.val - 128); omega)⟩)
  · exact Or.inr (Or.inr (Or.inl ⟨⟨q.val - 256, by omega⟩, Fin.ext (by show q.val = 256 + (q.val - 256); omega)⟩))
  · exact Or.inr (Or.inr (Or.inr ⟨⟨q.val - 384, by omega⟩, Fin.ext (by show q.val = 384 + (q.val - 384); omega)⟩))

/-- After the four stores the buffer does not depend on what it held before. -/
theorem stored_indep (inb0 : ∀ a, (![0, 0, 0] : Fin 3 → Nat) a + S2x128x128.size a ≤ S2x128x512.size a)
    (inb1 : ∀ a, (![0, 0, 128] : Fin 3 → Nat) a + S2x128x128.size a ≤ S2x128x512.size a)
    (inb2 : ∀ a, (![0, 0, 256] : Fin 3 → Nat) a + S2x128x128.size a ≤ S2x128x512.size a)
    (inb3 : ∀ a, (![0, 0, 384] : Fin 3 → Nat) a + S2x128x128.size a ≤ S2x128x512.size a)
    (f0 f0' : S2x128x512.Idx → Val .f32) (v0 v1 v2 v3 : S2x128x128.Idx → Val .f32) :
    stored Val inb0 inb1 inb2 inb3 f0 v0 v1 v2 v3 = stored Val inb0 inb1 inb2 inb3 f0' v0 v1 v2 v3 := by
  funext j
  obtain ⟨b, i, q, rfl⟩ : ∃ (b : Fin 2) (i : Fin 128) (q : Fin 512), j = ix3 b i q := ⟨j 0, j 1, j 2, eq_ix3 j⟩
  rcases col_cases q with ⟨n, rfl⟩ | ⟨n, rfl⟩ | ⟨n, rfl⟩ | ⟨n, rfl⟩
  · rw [stored_chunk0, stored_chunk0]
  · rw [stored_chunk1, stored_chunk1]
  · rw [stored_chunk2, stored_chunk2]
  · rw [stored_chunk3, stored_chunk3]

/-- info: 'Cert.KernelIdeal.Out.stored_indep' depends on axioms: [propext, Classical.choice, Quot.sound] -/
#guard_msgs in #print axioms stored_indep
/-- info: 'Cert.KernelIdeal.Out.stored_chunk0' depends on axioms: [propext, Classical.choice, Quot.sound] -/
#guard_msgs in #print axioms stored_chunk0

end Cert.KernelIdeal.Out

end
-- ==== Proof.KernelIdealData.lean ====
/-
  The pipeline's proof data for one device: what its staging buffers hold after the body (the inputs as they were; the
  result buffer the four chunks' sums over all devices, each in its block of 128 columns), the invariant before the body
  (the ghost state, the launch's credit, the three scratch buffers at whatever they hold) and after it (the scratch buffers
  again and the copies' semaphores back at zero), and what the device owes before (its entry signals and its copies'
  landings) and after (nothing).
-/
import proofs.«900514_g7700000000000515_dist_attn_self_mha_htp_b2_sq128_skv128_d512_hq8_dh64_v7x_i16_bf16_1_alg».proof.Proof.KernelIdealGhost
import proofs.«900514_g7700000000000515_dist_attn_self_mha_htp_b2_sq128_skv128_d512_hq8_dh64_v7x_i16_bf16_1_alg».proof.Proof.KernelIdealOut

noncomputable section

namespace Cert.KernelIdeal.Proto

open Cert.KernelIdeal Cert.KernelIdeal.Gen Cert.KernelIdeal.Terms

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The result buffer after the body: chunk `ch`'s sum over all sixteen devices, as a `[2,128,128]` block, in columns
    `128·ch …`; the four blocks cover the buffer, so what it held before does not matter. -/
def outAt (c : Dev nD) : (cc0_stg5_0 : Ref sig .tc).ty.Contents (Elt F) :=
  Out.stored (Elt F) inb_S2x128x512_S2x128x128_0_0_0 inb_S2x128x512_S2x128x128_0_0_128 inb_S2x128x512_S2x128x128_0_0_256 inb_S2x128x512_S2x128x128_0_0_384
    (constant S2x128x512 .f32 0x00000000#32 : FVec F S2x128x512 .f32)
    (shapeCast S2x128x128 (run m 0 3 c) shapeCasts_S256x128_S2x128x128) (shapeCast S2x128x128 (run m 1 3 c) shapeCasts_S256x128_S2x128x128)
    (shapeCast S2x128x128 (run m 2 3 c) shapeCasts_S256x128_S2x128x128) (shapeCast S2x128x128 (run m 3 3 c) shapeCasts_S256x128_S2x128x128)

/-- Before the body: the ghost state and the launch's credit, and the three scratch buffers at some contents. -/
def Φ₀ (c : Dev nD) : sProp 𝕄 :=
  iprop(start m c ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))
/-- After the body: the scratch buffers at some contents, and the copies' semaphores, closed, at zero. -/
def Φ₁ (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (bigSep Finset.univ fun s : Fin 20 => semVal (sendCell c s) 0) ∗ (bigSep Finset.univ fun s : Fin 20 => semVal (recvCell c s) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs0 m c
    | ⟨1, _⟩ => xs1 m c
    | ⟨2, _⟩ => xs2 m c
    | ⟨3, _⟩ => xs3 m c
    | ⟨4, _⟩ => xs4 m c
    | ⟨5, _⟩ => outAt m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

end Cert.KernelIdeal.Proto

end
-- ==== Proof.KernelIdealLaunch.lean ====
/-
  The launch of the kernel on its sixteen devices: from "each device's body is proved" to the run of @main.

  The exchange's ghost state is funded in one element beside the pipeline's: per device its 41 cells (the barrier cell and,
  per copy, a send and a receive cell) with their round state, positions and round-0 marks, and a token for every
  (cell, duty number) pair — those of duty numbers a cell does not have are never used. The global step turns every cell's
  counter at zero and round state into the cell's invariant, names the invariants, and deals each token to the device that
  pays the duty: the barrier cell's duty `i` of device `c` to its partner `px i c`, the landing of copy `s` at `c` to the
  sender `px (slotX s) c` (each partner map is an involution, so each dealing is a reindexing of one family), a copy's
  departure to the device itself. What all devices owe a cell at launch is its launch credit: five units on a barrier cell
  (one from each partner), one copy's credit on a receive cell (from the one sender). A device's staging waits sit at level 0,
  below the barrier cells (1) and the receive cells (10 and up) it owes.
-/
import proofs.«900514_g7700000000000515_dist_attn_self_mha_htp_b2_sq128_skv128_d512_hq8_dh64_v7x_i16_bf16_1_alg».proof.Proof.KernelIdealTerms
import proofs.«900514_g7700000000000515_dist_attn_self_mha_htp_b2_sq128_skv128_d512_hq8_dh64_v7x_i16_bf16_1_alg».proof.Proof.KernelIdealProto
import proofs.«900514_g7700000000000515_dist_attn_self_mha_htp_b2_sq128_skv128_d512_hq8_dh64_v7x_i16_bf16_1_alg».proof.Proof.KernelIdealGhost
import proofs.«900514_g7700000000000515_dist_attn_self_mha_htp_b2_sq128_skv128_d512_hq8_dh64_v7x_i16_bf16_1_alg».proof.Proof.KernelIdealData
import proofs.«900514_g7700000000000515_dist_attn_self_mha_htp_b2_sq128_skv128_d512_hq8_dh64_v7x_i16_bf16_1_alg».proof.Proof.Gen.KernelIdeal
import proofs.«900514_g7700000000000515_dist_attn_self_mha_htp_b2_sq128_skv128_d512_hq8_dh64_v7x_i16_bf16_1_alg».proof.Proof.Gen.KernelIdeal.Skeleton
import proofs.«900514_g7700000000000515_dist_attn_self_mha_htp_b2_sq128_skv128_d512_hq8_dh64_v7x_i16_bf16_1_alg».proof.Proof.Gen.KernelIdeal.Launch
import proofs.«900514_g7700000000000515_dist_attn_self_mha_htp_b2_sq128_skv128_d512_hq8_dh64_v7x_i16_bf16_1_alg».proof.Proof.Gen.KernelIdeal.Points
import proofs.«900514_g7700000000000515_dist_attn_self_mha_htp_b2_sq128_skv128_d512_hq8_dh64_v7x_i16_bf16_1_alg».proof.Proof.Gen.KernelIdeal.Frame
import Idealize.ShloMosaic.Lib.Pipeline.Launch
import Idealize.ShloMosaic.Lib.Pipeline.Kit
import Idealize.ShloMosaic.Lib.Tactic

noncomputable section

namespace Cert.KernelIdeal.Launch

open Cert.KernelIdeal Cert.KernelIdeal.Gen Cert.KernelIdeal.Terms

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.KernelIdeal.Proto

local notation "𝕄" => MT nD τ sig Unit (Elt F) ℕ UU ℕ

variable (m : (ℓ : Loc nD τ sig) → Buf (Elt F) ℓ) (ρ : Dev nD → PrngReg)

/-! ## The cells, enumerated -/

theorem csem_injective : Function.Injective csem := by decide

theorem kcell_injective : Function.Injective (kcell : Dev nD × Cell → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def ringCells : Finset (GSem nD τ sig) := Finset.univ.map ⟨kcell, kcell_injective⟩

abbrev tokOf (x : Dev nD × Cell × Fin 5) : GSem nD τ sig × ℕ × Fin 5 := (kcell (x.1, x.2.1), 0, x.2.2)
theorem tokOf_injective : Function.Injective tokOf := by
  rintro ⟨c, k, d⟩ ⟨c', k', d'⟩ h
  have h1 := kcell_injective (congrArg Prod.fst h)
  have h2 : d = d' := congrArg (fun x : GSem nD τ sig × ℕ × Fin 5 => x.2.2) h
  cases h1; cases h2; rfl
def ringToks : Finset (GSem nD τ sig × ℕ × Fin 5) := Finset.univ.map ⟨tokOf, tokOf_injective⟩

/-! ## The launch element and what it funds -/

def u₀ : UU :=
  (initOf (Pipeline.cells cfgs cellOf_inj) (Pipeline.launchToks cfgs cellOf_inj), initOf ringCells ringToks)

/-- The duty tokens of device `c`'s own cells, as minted: one per (cell, duty number), whether the cell has that duty or not. -/
def toks (c : Dev nD) : sProp 𝕄 :=
  bigSep Finset.univ fun kd : Cell × Fin 5 => dutyTok ER (kcell (c, kd.1)) 0 kd.2

/-- What the launch element deals device `c`. -/
def G (c : Dev nD) : sProp 𝕄 :=
  iprop((bigSep Finset.univ fun k : Cell => roundState ER (sched m) (kcell (c, k)) 0)
    ∗ (bigSep Finset.univ fun k : Cell => iprop(atPos ER (kcell (c, k)) 0 ∅ 0 ∗ reached ER (kcell (c, k)) 0)) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Cell => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero -/

theorem ownSemFacts : Pipeline.OwnSemFacts cfg0.spec osem := by decide

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Cell => semVal (kcell (c, k)) 0 : sProp 𝕄) := by
  have e : (bigSep Finset.univ fun k : Cell => semVal (kcell (c, k)) 0 : sProp 𝕄)
      = iprop(semVal (barCell c) 0 ∗ Pipeline.ownSems0 (Ix := Unit) (Name := ℕ) (U := UU) (Lvl := ℕ) (Val := Elt F) (τ := τ) osem c) := by
    rw [bigSep_univ_sum, bigSep_univ_of_subsingleton ()]; rfl
  rw [e, unscopedSems0_eq]
  iintro ⟨HS, HB⟩
  isplitl [HB] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Cell => iprop(∃ κ : ℕ, cellInv ER (sched m) κ (kcell (c, k))))
          ∗ (bigSep Finset.univ fun k : Cell => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Cell => semVal (kcell (c, k)) 0) ∗ bigSep Finset.univ fun k : Cell => roundState ER (sched m) (kcell (c, k)) 0)
      ⊢ (|={Set.univ}=> bigSep Finset.univ fun k : Cell => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The global step: every cell's invariant named, the tokens dealt to their payers -/

def pxE : Dev nD × Fin 5 ≃ Dev nD × Fin 5 :=
  ⟨fun x => (px x.2 x.1, x.2), fun x => (px x.2 x.1, x.2), fun x => Prod.ext (px_px _ _) rfl, fun x => Prod.ext (px_px _ _) rfl⟩
def sxE : Dev nD × Fin 20 ≃ Dev nD × Fin 20 :=
  ⟨fun x => (px (slotX x.2) x.1, x.2), fun x => (px (slotX x.2) x.1, x.2), fun x => Prod.ext (px_px _ _) rfl, fun x => Prod.ext (px_px _ _) rfl⟩

theorem tok0 (g : GSem nD τ sig) : (bigSep Finset.univ fun d : Fin 5 => (dutyTok ER g 0 d : sProp 𝕄)) ⊢ dutyTok ER g 0 0 :=
  bigSep_elim (Finset.mem_univ (0 : Fin 5))
theorem toks0 (Φ : Fin 20 → GSem nD τ sig) :
    (bigSep Finset.univ fun s : Fin 20 => bigSep Finset.univ fun d : Fin 5 => (dutyTok ER (Φ s) 0 d : sProp 𝕄))
      ⊢ bigSep Finset.univ fun s : Fin 20 => (dutyTok ER (Φ s) 0 0 : sProp 𝕄) :=
  bigSep_mono fun s _ => tok0 (Φ s)
theorem toks_split (c : Dev nD) : (toks c : sProp 𝕄)
    ⊢ iprop((bigSep Finset.univ fun i : Fin 5 => dutyTok ER (barCell c) 0 i)
        ∗ (bigSep Finset.univ fun s : Fin 20 => dutyTok ER (recvCell c s) 0 0)
        ∗ (bigSep Finset.univ fun s : Fin 20 => dutyTok ER (sendCell c s) 0 0)) := by
  unfold toks
  rw [bigSep_univ_prod, bigSep_cell]
  iintro ⟨HB, HS, HV⟩
  isplitl [HB]; · iexact HB
  isplitl [HV]
  · iapply (toks0 (F := F) fun s => recvCell c s); iexact HV
  · iapply (toks0 (F := F) fun s => sendCell c s); iexact HS

/-- Each token to its payer. -/
theorem toks_around : (bigSep Finset.univ fun c : Dev nD => (toks c : sProp 𝕄)) ⊢ bigSep Finset.univ fun c : Dev nD => payToks c := by
  refine (bigSep_mono fun c _ => toks_split c).trans ?_
  unfold payToks
  rw [bigSep_sep', bigSep_sep', bigSep_sep', bigSep_sep',
    ← bigSep_univ_prod (fun x : Dev nD × Fin 5 => (dutyTok ER (barCell x.1) 0 x.2 : sProp 𝕄)),
    ← bigSep_univ_prod (fun x : Dev nD × Fin 5 => (dutyTok ER (barCell (px x.2 x.1)) 0 x.2 : sProp 𝕄)),
    ← bigSep_univ_prod (fun x : Dev nD × Fin 20 => (dutyTok ER (recvCell x.1 x.2) 0 0 : sProp 𝕄)),
    ← bigSep_univ_prod (fun x : Dev nD × Fin 20 => (dutyTok ER (recvCell (px (slotX x.2) x.1) x.2) 0 0 : sProp 𝕄)),
    bigSep_univ_equiv pxE (fun x : Dev nD × Fin 5 => (dutyTok ER (barCell x.1) 0 x.2 : sProp 𝕄)),
    bigSep_univ_equiv sxE (fun x : Dev nD × Fin 20 => (dutyTok ER (recvCell x.1 x.2) 0 0 : sProp 𝕄))]
  exact BI.Entails.refl _

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup (G' : Dev nD → sProp 𝕄) (ghost_intro : ∀ (K : Dev nD × Cell → ℕ) (c : Dev nD), iprop(records m K ∗ linear c) ⊢ G' c) :
    (bigSep Finset.univ fun c : Dev nD => iprop((bigSep Finset.univ fun k : Cell => iprop(∃ κ : ℕ, cellInv ER (sched m) κ (kcell (c, k))))
          ∗ (bigSep Finset.univ fun k : Cell => iprop(atPos ER (kcell (c, k)) 0 ∅ 0 ∗ reached ER (kcell (c, k)) 0)) ∗ toks c) : sProp 𝕄)
      ⊢ bigSep Finset.univ G' := by
  rw [bigSep_sep', bigSep_sep', ← bigSep_univ_prod (fun ck : Dev nD × Cell => iprop(∃ κ : ℕ, cellInv ER (sched m) κ (kcell ck))),
    bigSep_congr (s := Finset.univ) (fun (c : Dev nD) _ => bigSep_sep' Finset.univ (fun k : Cell => (atPos ER (kcell (c, k)) 0 ∅ 0 : sProp 𝕄)) (fun k => reached ER (kcell (c, k)) 0)),
    bigSep_sep', ← bigSep_univ_prod (fun ck : Dev nD × Cell => (reached ER (kcell ck) 0 : sProp 𝕄))]
  iintro ⟨HI, ⟨Hat, #HR⟩, Htok⟩
  ihave HK := (BI.bigSep_exists_pi Finset.univ (fun (ck : Dev nD × Cell) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro K c)
  isplitr
  · unfold records; isplitl; · iexact HI
    iexact HR
  · iapply (Entails.of_eq (bigSep_sep' Finset.univ (fun c : Dev nD => bigSep Finset.univ fun k : Cell => (atPos ER (kcell (c, k)) 0 ∅ 0 : sProp 𝕄)) payToks).symm)
    isplitl [Hat]; · iexact Hat
    iexact Htk

/-! ### The launch credit -/

theorem owedL_apply (l : List (CellTallies nD τ sig Unit)) (g : GSem nD τ sig) (u : Unit) :
    owedL l g u = (l.map fun p => p g u).sum := by
  induction l with
  | nil => rfl
  | cons p ps ih => rw [owedL_cons, Pi.add_apply, Finsupp.add_apply, ih, List.map_cons, List.sum_cons, Nat.add_comm]

theorem O₀_apply (d : Dev nD) (g : GSem nD τ sig) :
    O₀ d g () = (∑ i : Fin 5, sigDue d i g ()) + ∑ s : Fin 20, copyDue d s g () := by
  unfold O₀ copyDues
  rw [owedL_apply, List.drop_zero, List.map_append, List.sum_append, List.map_map, List.map_map, Fin.sum_univ_def, Fin.sum_univ_def]
  rfl

theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} {s t : Fin 20} : Iff (recvCell a s = recvCell b t) (a = b ∧ s = t) :=
  ⟨fun h => ⟨Fin.ext (congrArg (fun g : GSem nD τ sig => g.1.1.val) h),
      recvSem_inj (by have := congrArg Prod.snd h; exact SemLoc.dma.inj this)⟩, fun h => by rw [h.1, h.2]⟩
theorem recv_ne_bar (a b : Dev nD) (s : Fin 20) : recvCell a s ≠ barCell b := fun h => by cases congrArg Prod.snd h

theorem px_eq_iff (i : Fin 5) (d c : Dev nD) : Iff (px i d = c) (d = px i c) :=
  ⟨fun h => by rw [← h, px_px], fun h => by rw [h, px_px]⟩

/-- What device `d` owes device `c`'s barrier cell: a unit for each partner number under which `c` is `d`'s partner. -/
theorem owed_bar (d c : Dev nD) : O₀ d (barCell c) () = ∑ i : Fin 5, if d = px i c then 1 else 0 := by
  rw [O₀_apply, Finset.sum_eq_zero (s := Finset.univ) (f := fun s : Fin 20 => copyDue d s (barCell c) ()) fun s _ => by
    unfold copyDue; rw [tallyAt_ne_cell (fun h => recv_ne_bar _ _ _ h.symm)]; rfl, Nat.add_zero]
  refine Finset.sum_congr rfl fun i _ => ?_
  unfold sigDue; rw [tallyAt_apply]
  by_cases h : d = px i c
  · rw [if_pos h, if_pos ⟨by rw [h, px_px], rfl⟩]
  · rw [if_neg h, if_neg fun h' => h ((px_eq_iff i d c).mp (bar_eq_iff.mp h'.1).symm)]

theorem owed_recv (d c : Dev nD) (s : Fin 20) : O₀ d (recvCell c s) () = if d = px (slotX s) c then N else 0 := by
  rw [O₀_apply, Finset.sum_eq_zero (s := Finset.univ) (f := fun i : Fin 5 => sigDue d i (recvCell c s) ()) fun i _ => by
    unfold sigDue; rw [tallyAt_ne_cell (recv_ne_bar _ _ _)]; rfl, Nat.zero_add,
    Finset.sum_eq_single s (fun t _ hts => by
      unfold copyDue; rw [tallyAt_ne_cell fun h => hts (recv_eq_iff.mp h).2.symm]; rfl) (fun h => absurd (Finset.mem_univ s) h)]
  unfold copyDue; rw [tallyAt_apply]
  by_cases h : d = px (slotX s) c
  · rw [if_pos h, if_pos ⟨by rw [h, px_px], rfl⟩]
  · rw [if_neg h, if_neg fun h' => h ((px_eq_iff _ d c).mp (recv_eq_iff.mp h'.1).1.symm)]

theorem launch_of (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

theorem launch_bar (c : Dev nD) :
    tallyOn (barCell c) (launchCredit (Pipeline.owing O₀) 0 (barCell c)) = (tallyAt (barCell c) () 5 : CellTallies nD τ sig Unit) :=
  launch_of _ 5 (by
    rw [Finset.sum_congr rfl fun d _ => owed_bar d c, Finset.sum_comm,
      Finset.sum_congr rfl fun i _ => Finset.sum_ite_eq' Finset.univ (px i c) fun _ => 1]
    simp only [Finset.mem_univ, if_true, Finset.sum_const, Finset.card_univ, Fintype.card_fin, smul_eq_mul])

theorem launch_recv (c : Dev nD) (s : Fin 20) :
    tallyOn (recvCell c s) (launchCredit (Pipeline.owing O₀) 0 (recvCell c s)) = (tallyAt (recvCell c s) () N : CellTallies nD τ sig Unit) :=
  launch_of _ N (by
    rw [Finset.sum_congr rfl fun d _ => owed_recv d c s, Finset.sum_ite_eq' Finset.univ (px (slotX s) c) fun _ => N, if_pos (Finset.mem_univ _)])

/-- The barrier semaphore and the receive semaphores among all semaphores. -/
def credSem : Unit ⊕ Fin 20 ↪ SemLoc sig :=
  ⟨fun | .inl _ => .reg barS | .inr s => .dma (recvSem s), fun a b h => by
    have := csem_injective (a₁ := Sum.map id Sum.inr a) (a₂ := Sum.map id Sum.inr b) (by cases a <;> cases b <;> exact h)
    cases a <;> cases b <;> simp_all⟩

/-- The launch credit of device `c`: five units on its barrier cell, a copy's credit on each of its receive cells. -/
theorem creds (c : Dev nD) :
    (Pipeline.launchCred O₀ c : sProp 𝕄) ⊢ iprop(cred (tallyAt (barCell c) () 5) ∗ bigSep Finset.univ fun s : Fin 20 => cred (tallyAt (recvCell c s) () N)) := by
  unfold Pipeline.launchCred
  have h := bigSep_subset (Φ := fun sm : SemLoc sig => (cred (tallyOn ((c : Thread nD τ), sm) (launchCredit (Pipeline.owing O₀) 0 ((c : Thread nD τ), sm))) : sProp 𝕄))
    (Finset.subset_univ (Finset.univ.map credSem))
  rw [bigSep_map, bigSep_univ_sum, bigSep_univ_of_subsingleton ()] at h
  refine h.trans ?_
  show iprop(cred (tallyOn (barCell c) (launchCredit (Pipeline.owing O₀) 0 (barCell c)))
    ∗ bigSep Finset.univ fun s : Fin 20 => cred (tallyOn (recvCell c s) (launchCredit (Pipeline.owing O₀) 0 (recvCell c s)))) ⊢ _
  rw [launch_bar, bigSep_congr (s := Finset.univ) fun (s : Fin 20) _ => by rw [launch_recv]]

/-! ## The levels: a staging wait lies below everything a device owes -/

theorem O₀_pos {c : Dev nD} {g : GSem nD τ sig} {u : Unit} (h : 0 < O₀ c g u) :
    (∃ i : Fin 5, g = barCell (px i c)) ∨ ∃ s : Fin 20, g = recvCell (px (slotX s) c) s := by
  obtain ⟨p, hp, hpos⟩ := owedL_pos h
  rcases List.mem_append.mp hp with hp | hp
  · obtain ⟨i, -, rfl⟩ := List.mem_map.mp hp
    refine Or.inl ⟨i, ?_⟩
    unfold sigDue at hpos; rw [tallyAt_apply] at hpos
    by_contra hn; rw [if_neg fun h' => hn h'.1] at hpos; exact Nat.lt_irrefl 0 hpos
  · unfold copyDues at hp
    obtain ⟨s, -, rfl⟩ := List.mem_map.mp hp
    refine Or.inr ⟨s, ?_⟩
    unfold copyDue at hpos; rw [tallyAt_apply] at hpos
    by_contra hn; rw [if_neg fun h' => hn h'.1] at hpos; exact Nat.lt_irrefl 0 hpos

theorem mayWait_stage (c : Dev nD) (q : DmaSem sig) (hq : lv ((c : Thread nD τ), .dma q) () = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨i, rfl⟩ | ⟨s, rfl⟩ <;> (rw [L_tc]; exact Finset.mem_singleton_self _))
      (fun p hp => by rw [Finset.mem_singleton.mp hp]; exact le_of_eq hq)
      (fun g u hg => by
        rcases O₀_pos hg with ⟨i, rfl⟩ | ⟨s, rfl⟩
        · rw [lv_bar]; decide
        · rw [lv_recv]; omega)
  · rw [MayWait_zero]; iintro -; iempintro

theorem lv_stage (c : Dev nD) (w : Fin cfg0.W) (s : Fin (cfg0.win w).nbuf) : lv ((c : Thread nD τ), .dma ((cfg0.win w).sem s)) () = 0 := by
  revert c w s; decide

theorem glob (G' : Dev nD → sProp 𝕄) (ghost_intro : ∀ (K : Dev nD × Cell → ℕ) (c : Dev nD), iprop(records m K ∗ linear c) ⊢ G' c) :
    (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ G' :=
  ((bigSep_mono fun c _ => core_alloc m c).trans (bigSep_fupd _ _)).trans (BI.fupd_mono (regroup m G' ghost_intro))

theorem hu₀ : (ownU (u₀ : UU) : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (fund_ring m) $$ HX with HG
  imodintro
  isplitl [HP] <;> iassumption

/-! ## What the global step makes: the ghost state at some names -/

def G' (c : Dev nD) : sProp 𝕄 := iprop(∃ K, ghost m K c)

theorem ghost_intro (K : Dev nD × Cell → ℕ) (c : Dev nD) : iprop(records m K ∗ linear c) ⊢ G' m c := by
  unfold G' ghost
  iintro H; iexists K; iexact H

theorem glob_main :
    (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) := glob m (G' m) (ghost_intro m)

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem share_eq (c : Dev nD) (w : Fin cfg0.W) : (dats m ρ 0 c).share w = fullShare := by unfold Dat.share; split <;> rfl

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  have e : (Pipeline.ownSems0 (Ix := Unit) (Name := ℕ) (U := UU) (Lvl := ℕ) (Val := Elt F) (τ := τ) osem c : sProp 𝕄)
      = iprop((bigSep Finset.univ fun s : Fin 20 => semVal (sendCell c s) 0) ∗ bigSep Finset.univ fun s : Fin 20 => semVal (recvCell c s) 0) := by
    unfold Pipeline.ownSems0; rw [bigSep_univ_sum]; rfl
  rw [scopedRest0_eq, e]
  show iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (bigSep Finset.univ fun s : Fin 20 => semVal (sendCell c s) 0) ∗ (bigSep Finset.univ fun s : Fin 20 => semVal (recvCell c s) 0)) ⊢ _
  iintro ⟨H0, H1, H2, HS, HR⟩
  isplitr; · iempintro
  isplitl [HS HR]
  · isplitl [HS] <;> iassumption
  isplitl [H0]; · iexact H0
  isplitl [H1] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (lv_stage c w s) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of sixteen devices, for any float values, from any memory with zero counters: every weakly fair
    execution of @main terminates, faults nowhere, and every final state has each device's windowed arrays at the contents
    the proof data computes. -/
theorem run_main (hbody : ∀ c, BodyObligation (dats m ρ 0 c) (defs₀ (F := F)) 𝒱₀ () Set.univ) :
    θ_run defs (onTc (τ := τ) (main (F := F))) ⟨m, fun _ => 0, ρ⟩ (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun c => (main_chain c).trans rfl)
    (hbody := fun c => (hbody c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := hu₀ m)
    (hglob := glob_main m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdeal.Launch.run_main' depends on axioms: [propext, Classical.choice, Quot.sound] -/
#guard_msgs in #print axioms run_main

end Cert.KernelIdeal.Launch
end
-- ==== Proof.KernelIdealClaims.lean ====
/-
  From the launch's run to the claim's posts. The run leaves every windowed array at what the pipeline's proof data
  computes for it after the last point: an input array is never written back, so it holds what it held; the result
  array's one block is the whole array, written back once, so it holds what the body left in the staging buffer.
-/
import proofs.«900514_g7700000000000515_dist_attn_self_mha_htp_b2_sq128_skv128_d512_hq8_dh64_v7x_i16_bf16_1_alg».proof.Proof.KernelIdealData
import proofs.«900514_g7700000000000515_dist_attn_self_mha_htp_b2_sq128_skv128_d512_hq8_dh64_v7x_i16_bf16_1_alg».proof.Proof.Gen.KernelIdeal.Points
import Idealize.ShloMosaic.Lib.Pipeline.Cells
import Idealize.ShloMosaic.Lib.Pipeline.Value

noncomputable section

namespace Cert.KernelIdeal.Claims

open Cert.KernelIdeal Cert.KernelIdeal.Gen Cert.KernelIdeal.Terms Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The five argument arrays end as they were -/

theorem final_in_0 (m : (ℓ : Loc nD τ sig) → Buf (Elt F) ℓ) (ρ : Dev nD → PrngReg) (c : Dev nD) :
    (dats m ρ 0 c).arrAt 0 cfg0.N = m ((c : Thread nD τ).loc main_arg0) :=
  (dats m ρ 0 c).arrAt_in 0 rfl _
theorem final_in_1 (m : (ℓ : Loc nD τ sig) → Buf (Elt F) ℓ) (ρ : Dev nD → PrngReg) (c : Dev nD) :
    (dats m ρ 0 c).arrAt 1 cfg0.N = m ((c : Thread nD τ).loc main_arg1) :=
  (dats m ρ 0 c).arrAt_in 1 rfl _
theorem final_in_2 (m : (ℓ : Loc nD τ sig) → Buf (Elt F) ℓ) (ρ : Dev nD → PrngReg) (c : Dev nD) :
    (dats m ρ 0 c).arrAt 2 cfg0.N = m ((c : Thread nD τ).loc main_arg2) :=
  (dats m ρ 0 c).arrAt_in 2 rfl _
theorem final_in_3 (m : (ℓ : Loc nD τ sig) → Buf (Elt F) ℓ) (ρ : Dev nD → PrngReg) (c : Dev nD) :
    (dats m ρ 0 c).arrAt 3 cfg0.N = m ((c : Thread nD τ).loc main_arg3) :=
  (dats m ρ 0 c).arrAt_in 3 rfl _
theorem final_in_4 (m : (ℓ : Loc nD τ sig) → Buf (Elt F) ℓ) (ρ : Dev nD → PrngReg) (c : Dev nD) :
    (dats m ρ 0 c).arrAt 4 cfg0.N = m ((c : Thread nD τ).loc main_arg4) :=
  (dats m ρ 0 c).arrAt_in 4 rfl _

/-! ## The result array ends as the staging buffer's after-contents -/

theorem final_out (m : (ℓ : Loc nD τ sig) → Buf (Elt F) ℓ) (ρ : Dev nD → PrngReg) (c : Dev nD) :
    (dats m ρ 0 c).arrAt 5 cfg0.N = outAt m c := by
  have h := (dats m ρ 0 c).arrAt_succ 5 (⟨0, by decide⟩ : Fin cfg0.N)
  rw [flush0_5, if_pos rfl] at h
  refine h.trans ?_
  exact Memref.write_access_unit_zero_univ (Elt F) main_v1 (funext fun a => Nat.zero_mul _) _ _ _

/-! ## The posts -/

/-- What the launch's run says of a final state: every windowed array at the proof data's contents after the last point. -/
abbrev RunPost (m : (ℓ : Loc nD τ sig) → Buf (Elt F) ℓ) (ρ : Dev nD → PrngReg) : PUnit × MemSt nD τ sig (Elt F) → Prop := fun r =>
  ∀ c : Dev nD, ∀ w : Fin cfg0.W, r.2.mem ((cfg0.win w).arr.view.loc (c : Thread nD τ)) = (dats m ρ 0 c).arrAt w cfg0.N

/-- THE VALUE POST: the result array at the four chunks' sums, the five argument arrays unchanged. -/
theorem value_post (m : (ℓ : Loc nD τ sig) → Buf (Elt F) ℓ) (ρ : Dev nD → PrngReg)
    (hrun : θ_run defs (onTc (τ := τ) (main (F := F))) ⟨m, fun _ => 0, ρ⟩ (RunPost m ρ)) :
    θ_run defs (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c 5).trans (final_out m ρ c), (h c 0).trans (final_in_0 m ρ c), (h c 1).trans (final_in_1 m ρ c),
    (h c 2).trans (final_in_2 m ρ c), (h c 3).trans (final_in_3 m ρ c), (h c 4).trans (final_in_4 m ρ c)⟩) hrun

/-- THE FRAME POST: the five argument arrays unchanged. -/
theorem frame_post (m : (ℓ : Loc nD τ sig) → Buf (Elt F) ℓ) (ρ : Dev nD → PrngReg)
    (hrun : θ_run defs (onTc (τ := τ) (main (F := F))) ⟨m, fun _ => 0, ρ⟩ (RunPost m ρ)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (value_post m ρ hrun)

end Cert.KernelIdeal.Claims

end

/-- info: 'Cert.KernelIdeal.Claims.final_out' depends on axioms: [propext, Classical.choice, Quot.sound] -/
#guard_msgs in #print axioms Cert.KernelIdeal.Claims.final_out
/-- info: 'Cert.KernelIdeal.Claims.value_post' depends on axioms: [propext, Classical.choice, Quot.sound] -/
#guard_msgs in #print axioms Cert.KernelIdeal.Claims.value_post
/-- info: 'Cert.KernelIdeal.Claims.frame_post' depends on axioms: [propext, Classical.choice, Quot.sound] -/
#guard_msgs in #print axioms Cert.KernelIdeal.Claims.frame_post
-- ==== Proof.KernelIdealCtx.lean ====
/-
  A device's ghost state laid out piece by piece, in the order the body's run names them: the invariants of the cells it
  touches (its own barrier, send and receive cells; its partners' barrier cells; the receive cells its copies land in), the
  round-0 marks of the cells it pays or hands over, the tokens of the duties it pays, and its positions in its own cells.
-/
import proofs.«900514_g7700000000000515_dist_attn_self_mha_htp_b2_sq128_skv128_d512_hq8_dh64_v7x_i16_bf16_1_alg».proof.Proof.KernelIdealGhost

noncomputable section

namespace Cert.KernelIdeal.Proto

open Cert.KernelIdeal Cert.KernelIdeal.Gen Cert.KernelIdeal.Terms

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

def ctxGhost (K : Dev nD × Cell → ℕ) (c : Dev nD) : sProp 𝕄 :=
  iprop(cellInv ER (sched m) (K (c, .inl ())) (barCell c)
    ∗ cellInv ER (sched m) (K (px 0 c, .inl ())) (barCell (px 0 c))
    ∗ cellInv ER (sched m) (K (px 1 c, .inl ())) (barCell (px 1 c))
    ∗ cellInv ER (sched m) (K (px 2 c, .inl ())) (barCell (px 2 c))
    ∗ cellInv ER (sched m) (K (px 3 c, .inl ())) (barCell (px 3 c))
    ∗ cellInv ER (sched m) (K (px 4 c, .inl ())) (barCell (px 4 c))
    ∗ cellInv ER (sched m) (K (c, .inr (.inl 0))) (sendCell c 0)
    ∗ cellInv ER (sched m) (K (c, .inr (.inl 1))) (sendCell c 1)
    ∗ cellInv ER (sched m) (K (c, .inr (.inl 2))) (sendCell c 2)
    ∗ cellInv ER (sched m) (K (c, .inr (.inl 3))) (sendCell c 3)
    ∗ cellInv ER (sched m) (K (c, .inr (.inl 4))) (sendCell c 4)
    ∗ cellInv ER (sched m) (K (c, .inr (.inl 5))) (sendCell c 5)
    ∗ cellInv ER (sched m) (K (c, .inr (.inl 6))) (sendCell c 6)
    ∗ cellInv ER (sched m) (K (c, .inr (.inl 7))) (sendCell c 7)
    ∗ cellInv ER (sched m) (K (c, .inr (.inl 8))) (sendCell c 8)
    ∗ cellInv ER (sched m) (K (c, .inr (.inl 9))) (sendCell c 9)
    ∗ cellInv ER (sched m) (K (c, .inr (.inl 10))) (sendCell c 10)
    ∗ cellInv ER (sched m) (K (c, .inr (.inl 11))) (sendCell c 11)
    ∗ cellInv ER (sched m) (K (c, .inr (.inl 12))) (sendCell c 12)
    ∗ cellInv ER (sched m) (K (c, .inr (.inl 13))) (sendCell c 13)
    ∗ cellInv ER (sched m) (K (c, .inr (.inl 14))) (sendCell c 14)
    ∗ cellInv ER (sched m) (K (c, .inr (.inl 15))) (sendCell c 15)
    ∗ cellInv ER (sched m) (K (c, .inr (.inl 16))) (sendCell c 16)
    ∗ cellInv ER (sched m) (K (c, .inr (.inl 17))) (sendCell c 17)
    ∗ cellInv ER (sched m) (K (c, .inr (.inl 18))) (sendCell c 18)
    ∗ cellInv ER (sched m) (K (c, .inr (.inl 19))) (sendCell c 19)
    ∗ cellInv ER (sched m) (K (c, .inr (.inr 0))) (recvCell c 0)
    ∗ cellInv ER (sched m) (K (c, .inr (.inr 1))) (recvCell c 1)
    ∗ cellInv ER (sched m) (K (c, .inr (.inr 2))) (recvCell c 2)
    ∗ cellInv ER (sched m) (K (c, .inr (.inr 3))) (recvCell c 3)
    ∗ cellInv ER (sched m) (K (c, .inr (.inr 4))) (recvCell c 4)
    ∗ cellInv ER (sched m) (K (c, .inr (.inr 5))) (recvCell c 5)
    ∗ cellInv ER (sched m) (K (c, .inr (.inr 6))) (recvCell c 6)
    ∗ cellInv ER (sched m) (K (c, .inr (.inr 7))) (recvCell c 7)
    ∗ cellInv ER (sched m) (K (c, .inr (.inr 8))) (recvCell c 8)
    ∗ cellInv ER (sched m) (K (c, .inr (.inr 9))) (recvCell c 9)
    ∗ cellInv ER (sched m) (K (c, .inr (.inr 10))) (recvCell c 10)
    ∗ cellInv ER (sched m) (K (c, .inr (.inr 11))) (recvCell c 11)
    ∗ cellInv ER (sched m) (K (c, .inr (.inr 12))) (recvCell c 12)
    ∗ cellInv ER (sched m) (K (c, .inr (.inr 13))) (recvCell c 13)
    ∗ cellInv ER (sched m) (K (c, .inr (.inr 14))) (recvCell c 14)
    ∗ cellInv ER (sched m) (K (c, .inr (.inr 15))) (recvCell c 15)
    ∗ cellInv ER (sched m) (K (c, .inr (.inr 16))) (recvCell c 16)
    ∗ cellInv ER (sched m) (K (c, .inr (.inr 17))) (recvCell c 17)
    ∗ cellInv ER (sched m) (K (c, .inr (.inr 18))) (recvCell c 18)
    ∗ cellInv ER (sched m) (K (c, .inr (.inr 19))) (recvCell c 19)
    ∗ cellInv ER (sched m) (K (px 0 c, .inr (.inr 0))) (recvCell (px 0 c) 0)
    ∗ cellInv ER (sched m) (K (px 1 c, .inr (.inr 1))) (recvCell (px 1 c) 1)
    ∗ cellInv ER (sched m) (K (px 2 c, .inr (.inr 2))) (recvCell (px 2 c) 2)
    ∗ cellInv ER (sched m) (K (px 3 c, .inr (.inr 3))) (recvCell (px 3 c) 3)
    ∗ cellInv ER (sched m) (K (px 4 c, .inr (.inr 4))) (recvCell (px 4 c) 4)
    ∗ cellInv ER (sched m) (K (px 0 c, .inr (.inr 5))) (recvCell (px 0 c) 5)
    ∗ cellInv ER (sched m) (K (px 1 c, .inr (.inr 6))) (recvCell (px 1 c) 6)
    ∗ cellInv ER (sched m) (K (px 2 c, .inr (.inr 7))) (recvCell (px 2 c) 7)
    ∗ cellInv ER (sched m) (K (px 3 c, .inr (.inr 8))) (recvCell (px 3 c) 8)
    ∗ cellInv ER (sched m) (K (px 4 c, .inr (.inr 9))) (recvCell (px 4 c) 9)
    ∗ cellInv ER (sched m) (K (px 0 c, .inr (.inr 10))) (recvCell (px 0 c) 10)
    ∗ cellInv ER (sched m) (K (px 1 c, .inr (.inr 11))) (recvCell (px 1 c) 11)
    ∗ cellInv ER (sched m) (K (px 2 c, .inr (.inr 12))) (recvCell (px 2 c) 12)
    ∗ cellInv ER (sched m) (K (px 4 c, .inr (.inr 13))) (recvCell (px 4 c) 13)
    ∗ cellInv ER (sched m) (K (px 4 c, .inr (.inr 14))) (recvCell (px 4 c) 14)
    ∗ cellInv ER (sched m) (K (px 0 c, .inr (.inr 15))) (recvCell (px 0 c) 15)
    ∗ cellInv ER (sched m) (K (px 1 c, .inr (.inr 16))) (recvCell (px 1 c) 16)
    ∗ cellInv ER (sched m) (K (px 2 c, .inr (.inr 17))) (recvCell (px 2 c) 17)
    ∗ cellInv ER (sched m) (K (px 3 c, .inr (.inr 18))) (recvCell (px 3 c) 18)
    ∗ cellInv ER (sched m) (K (px 3 c, .inr (.inr 19))) (recvCell (px 3 c) 19)
    ∗ reached ER (barCell (px 0 c)) 0
    ∗ reached ER (barCell (px 1 c)) 0
    ∗ reached ER (barCell (px 2 c)) 0
    ∗ reached ER (barCell (px 3 c)) 0
    ∗ reached ER (barCell (px 4 c)) 0
    ∗ reached ER (sendCell c 0) 0
    ∗ reached ER (sendCell c 1) 0
    ∗ reached ER (sendCell c 2) 0
    ∗ reached ER (sendCell c 3) 0
    ∗ reached ER (sendCell c 4) 0
    ∗ reached ER (sendCell c 5) 0
    ∗ reached ER (sendCell c 6) 0
    ∗ reached ER (sendCell c 7) 0
    ∗ reached ER (sendCell c 8) 0
    ∗ reached ER (sendCell c 9) 0
    ∗ reached ER (sendCell c 10) 0
    ∗ reached ER (sendCell c 11) 0
    ∗ reached ER (sendCell c 12) 0
    ∗ reached ER (sendCell c 13) 0
    ∗ reached ER (sendCell c 14) 0
    ∗ reached ER (sendCell c 15) 0
    ∗ reached ER (sendCell c 16) 0
    ∗ reached ER (sendCell c 17) 0
    ∗ reached ER (sendCell c 18) 0
    ∗ reached ER (sendCell c 19) 0
    ∗ reached ER (recvCell (px 0 c) 0) 0
    ∗ reached ER (recvCell (px 1 c) 1) 0
    ∗ reached ER (recvCell (px 2 c) 2) 0
    ∗ reached ER (recvCell (px 3 c) 3) 0
    ∗ reached ER (recvCell (px 4 c) 4) 0
    ∗ reached ER (recvCell (px 0 c) 5) 0
    ∗ reached ER (recvCell (px 1 c) 6) 0
    ∗ reached ER (recvCell (px 2 c) 7) 0
    ∗ reached ER (recvCell (px 3 c) 8) 0
    ∗ reached ER (recvCell (px 4 c) 9) 0
    ∗ reached ER (recvCell (px 0 c) 10) 0
    ∗ reached ER (recvCell (px 1 c) 11) 0
    ∗ reached ER (recvCell (px 2 c) 12) 0
    ∗ reached ER (recvCell (px 4 c) 13) 0
    ∗ reached ER (recvCell (px 4 c) 14) 0
    ∗ reached ER (recvCell (px 0 c) 15) 0
    ∗ reached ER (recvCell (px 1 c) 16) 0
    ∗ reached ER (recvCell (px 2 c) 17) 0
    ∗ reached ER (recvCell (px 3 c) 18) 0
    ∗ reached ER (recvCell (px 3 c) 19) 0
    ∗ reached ER (recvCell c 0) 0
    ∗ reached ER (recvCell c 1) 0
    ∗ reached ER (recvCell c 2) 0
    ∗ reached ER (recvCell c 3) 0
    ∗ reached ER (recvCell c 4) 0
    ∗ reached ER (recvCell c 5) 0
    ∗ reached ER (recvCell c 6) 0
    ∗ reached ER (recvCell c 7) 0
    ∗ reached ER (recvCell c 8) 0
    ∗ reached ER (recvCell c 9) 0
    ∗ reached ER (recvCell c 10) 0
    ∗ reached ER (recvCell c 11) 0
    ∗ reached ER (recvCell c 12) 0
    ∗ reached ER (recvCell c 13) 0
    ∗ reached ER (recvCell c 14) 0
    ∗ reached ER (recvCell c 15) 0
    ∗ reached ER (recvCell c 16) 0
    ∗ reached ER (recvCell c 17) 0
    ∗ reached ER (recvCell c 18) 0
    ∗ reached ER (recvCell c 19) 0
    ∗ dutyTok ER (barCell (px 0 c)) 0 0
    ∗ dutyTok ER (barCell (px 1 c)) 0 1
    ∗ dutyTok ER (barCell (px 2 c)) 0 2
    ∗ dutyTok ER (barCell (px 3 c)) 0 3
    ∗ dutyTok ER (barCell (px 4 c)) 0 4
    ∗ dutyTok ER (sendCell c 0) 0 0
    ∗ dutyTok ER (sendCell c 1) 0 0
    ∗ dutyTok ER (sendCell c 2) 0 0
    ∗ dutyTok ER (sendCell c 3) 0 0
    ∗ dutyTok ER (sendCell c 4) 0 0
    ∗ dutyTok ER (sendCell c 5) 0 0
    ∗ dutyTok ER (sendCell c 6) 0 0
    ∗ dutyTok ER (sendCell c 7) 0 0
    ∗ dutyTok ER (sendCell c 8) 0 0
    ∗ dutyTok ER (sendCell c 9) 0 0
    ∗ dutyTok ER (sendCell c 10) 0 0
    ∗ dutyTok ER (sendCell c 11) 0 0
    ∗ dutyTok ER (sendCell c 12) 0 0
    ∗ dutyTok ER (sendCell c 13) 0 0
    ∗ dutyTok ER (sendCell c 14) 0 0
    ∗ dutyTok ER (sendCell c 15) 0 0
    ∗ dutyTok ER (sendCell c 16) 0 0
    ∗ dutyTok ER (sendCell c 17) 0 0
    ∗ dutyTok ER (sendCell c 18) 0 0
    ∗ dutyTok ER (sendCell c 19) 0 0
    ∗ dutyTok ER (recvCell (px 0 c) 0) 0 0
    ∗ dutyTok ER (recvCell (px 1 c) 1) 0 0
    ∗ dutyTok ER (recvCell (px 2 c) 2) 0 0
    ∗ dutyTok ER (recvCell (px 3 c) 3) 0 0
    ∗ dutyTok ER (recvCell (px 4 c) 4) 0 0
    ∗ dutyTok ER (recvCell (px 0 c) 5) 0 0
    ∗ dutyTok ER (recvCell (px 1 c) 6) 0 0
    ∗ dutyTok ER (recvCell (px 2 c) 7) 0 0
    ∗ dutyTok ER (recvCell (px 3 c) 8) 0 0
    ∗ dutyTok ER (recvCell (px 4 c) 9) 0 0
    ∗ dutyTok ER (recvCell (px 0 c) 10) 0 0
    ∗ dutyTok ER (recvCell (px 1 c) 11) 0 0
    ∗ dutyTok ER (recvCell (px 2 c) 12) 0 0
    ∗ dutyTok ER (recvCell (px 4 c) 13) 0 0
    ∗ dutyTok ER (recvCell (px 4 c) 14) 0 0
    ∗ dutyTok ER (recvCell (px 0 c) 15) 0 0
    ∗ dutyTok ER (recvCell (px 1 c) 16) 0 0
    ∗ dutyTok ER (recvCell (px 2 c) 17) 0 0
    ∗ dutyTok ER (recvCell (px 3 c) 18) 0 0
    ∗ dutyTok ER (recvCell (px 3 c) 19) 0 0
    ∗ atPos ER (barCell c) 0 ∅ 0
    ∗ atPos ER (sendCell c 0) 0 ∅ 0
    ∗ atPos ER (sendCell c 1) 0 ∅ 0
    ∗ atPos ER (sendCell c 2) 0 ∅ 0
    ∗ atPos ER (sendCell c 3) 0 ∅ 0
    ∗ atPos ER (sendCell c 4) 0 ∅ 0
    ∗ atPos ER (sendCell c 5) 0 ∅ 0
    ∗ atPos ER (sendCell c 6) 0 ∅ 0
    ∗ atPos ER (sendCell c 7) 0 ∅ 0
    ∗ atPos ER (sendCell c 8) 0 ∅ 0
    ∗ atPos ER (sendCell c 9) 0 ∅ 0
    ∗ atPos ER (sendCell c 10) 0 ∅ 0
    ∗ atPos ER (sendCell c 11) 0 ∅ 0
    ∗ atPos ER (sendCell c 12) 0 ∅ 0
    ∗ atPos ER (sendCell c 13) 0 ∅ 0
    ∗ atPos ER (sendCell c 14) 0 ∅ 0
    ∗ atPos ER (sendCell c 15) 0 ∅ 0
    ∗ atPos ER (sendCell c 16) 0 ∅ 0
    ∗ atPos ER (sendCell c 17) 0 ∅ 0
    ∗ atPos ER (sendCell c 18) 0 ∅ 0
    ∗ atPos ER (sendCell c 19) 0 ∅ 0
    ∗ atPos ER (recvCell c 0) 0 ∅ 0
    ∗ atPos ER (recvCell c 1) 0 ∅ 0
    ∗ atPos ER (recvCell c 2) 0 ∅ 0
    ∗ atPos ER (recvCell c 3) 0 ∅ 0
    ∗ atPos ER (recvCell c 4) 0 ∅ 0
    ∗ atPos ER (recvCell c 5) 0 ∅ 0
    ∗ atPos ER (recvCell c 6) 0 ∅ 0
    ∗ atPos ER (recvCell c 7) 0 ∅ 0
    ∗ atPos ER (recvCell c 8) 0 ∅ 0
    ∗ atPos ER (recvCell c 9) 0 ∅ 0
    ∗ atPos ER (recvCell c 10) 0 ∅ 0
    ∗ atPos ER (recvCell c 11) 0 ∅ 0
    ∗ atPos ER (recvCell c 12) 0 ∅ 0
    ∗ atPos ER (recvCell c 13) 0 ∅ 0
    ∗ atPos ER (recvCell c 14) 0 ∅ 0
    ∗ atPos ER (recvCell c 15) 0 ∅ 0
    ∗ atPos ER (recvCell c 16) 0 ∅ 0
    ∗ atPos ER (recvCell c 17) 0 ∅ 0
    ∗ atPos ER (recvCell c 18) 0 ∅ 0
    ∗ atPos ER (recvCell c 19) 0 ∅ 0)

end Cert.KernelIdeal.Proto

end
-- ==== Proof.KernelIdealViews.lean ====
/-
  View algebra of the exchange buffers. A chunk's outgoing slice and a copy's receive slot are a unit-stride rectangle
  of a whole buffer, squeezed to a 256 × 128 matrix: the same elements of the buffer in the same order. Hence a read
  through the squeezed slice is the load through the rectangle, reshaped; a store through the rectangle is read back
  whole; the squeezed slice, the rectangle's access and the load through the rectangle lie over the same elements of
  the buffer; and all of them are views of the one buffer.
-/
import proofs.«900514_g7700000000000515_dist_attn_self_mha_htp_b2_sq128_skv128_d512_hq8_dh64_v7x_i16_bf16_1_alg».proof.Proof.KernelIdealProto
import Idealize.ShloMosaic.Lib.Pipeline.Value

noncomputable section

namespace Cert.KernelIdeal.Views

open Cert.KernelIdeal Cert.KernelIdeal.Gen Cert.KernelIdeal.Terms Cert.KernelIdeal.Proto
open Idealize.ShloMosaic
open Idealize.ShloMosaic.TcCoe

/-! ## Any memref, any unit-stride rectangle of it -/

section Generic
variable {σ : RefSig} {κ : Kind} {sp : Space} {s s' : Shape} {e : EltTy} {Val : EltTy → Type}

/-- A store through a rectangle, read through the squeezed slice at that rectangle: the payload, reshaped. -/
theorem read_squeeze_write (M : Memref σ κ sp s e) (r : Rect s) (hr : ∀ a, r.stride a = 1)
    (hq : r.shape.Squeezes s') (hc : r.shape.ShapeCasts s') (f : M.view.ty.Contents Val) (v : r.shape.Idx → Val e) :
    ((M.slice r hr).squeeze s' hq).view.read Val ((M.access r).write Val f v Finset.univ) = shapeCast s' v hc := by
  rw [Memref.read_squeeze_slice M r hr hq hc]
  exact congrArg (fun u => shapeCast s' u hc) (View.read_write_univ (v := M.view.slice r) f v)

/-- A store through a rectangle, loaded back through the same rectangle: the payload. -/
theorem readAt_write_access (M : Memref σ κ sp s e) (r : Rect s) (f : M.view.ty.Contents Val) (v : r.shape.Idx → Val e) :
    M.view.readAt Val r.toLoadRect ((M.access r).write Val f v Finset.univ) = v :=
  View.read_write_univ (v := M.view.slice r) f v

/-- A load through a rectangle is the read through the squeezed slice at it, reshaped back. -/
theorem readAt_eq_shapeCast_read (M : Memref σ κ sp s e) (r : Rect s) (hr : ∀ a, r.stride a = 1)
    (hq : r.shape.Squeezes s') (hc : r.shape.ShapeCasts s') (hc' : s'.ShapeCasts r.shape) (f : M.view.ty.Contents Val) :
    M.view.readAt Val r.toLoadRect f = shapeCast r.shape (((M.slice r hr).squeeze s' hq).view.read Val f) hc' := by
  rw [Memref.read_squeeze_slice M r hr hq hc, shapeCast_shapeCast]

/-- The squeezed slice lies over the elements a load through the rectangle reads, -/
theorem set_squeeze_slice (M : Memref σ κ sp s e) (r : Rect s) (hr : ∀ a, r.stride a = 1) (hq : r.shape.Squeezes s') :
    ((M.slice r hr).squeeze s' hq).view.set = M.view.setOn r.toLoadRect.set := by
  show ((M.view.slice r).reshape s' hq.numel_eq).set = _
  rw [View.set_reshape, View.set_slice]
  rfl

/-- and over those an unmasked store through the rectangle writes. -/
theorem setOn_access_univ (M : Memref σ κ sp s e) (r : Rect s) (hr : ∀ a, r.stride a = 1) (hq : r.shape.Squeezes s') :
    (M.access r).setOn Finset.univ = ((M.slice r hr).squeeze s' hq).view.set := by
  show (M.view.slice r).set = ((M.view.slice r).reshape s' hq.numel_eq).set
  rw [View.set_reshape]

end Generic

variable {F : FTy → Type} [FloatOps F]

/-! ## Reshapes there and back -/

theorem sq_unsq {α : Type} (a : S256x128.Idx → α) :
    shapeCast S256x128 (shapeCast S1x256x128 a shapeCasts_S256x128_S1x256x128) shapeCasts_S1x256x128_S256x128 = a :=
  shapeCast_shapeCast a _ _

theorem sq5_unsq5 {α : Type} (a : S256x128.Idx → α) :
    shapeCast S256x128 (shapeCast S1x1x1x256x128 a shapeCasts_S256x128_S1x1x1x256x128) shapeCasts_S1x1x1x256x128_S256x128 = a :=
  shapeCast_shapeCast a _ _

theorem unsq5_sq5 {α : Type} (a : S1x1x1x256x128.Idx → α) :
    shapeCast S1x1x1x256x128 (shapeCast S256x128 a shapeCasts_S1x1x1x256x128_S256x128) shapeCasts_S256x128_S1x1x1x256x128 = a :=
  shapeCast_shapeCast a _ _

theorem pay27_pay25 (a : FVec F S256x128 .f32) : k0_pay27 (k0_pay25 a) = a := sq_unsq a
theorem pay27_cast (a : FVec F S256x128 .f32) : k0_pay27 (shapeCast S1x256x128 a shapeCasts_S256x128_S1x256x128) = a := sq_unsq a
theorem pay31_cast (a : FVec F S256x128 .f32) : k0_pay31 (shapeCast S1x256x128 a shapeCasts_S256x128_S1x256x128) = a := sq_unsq a
theorem pay35_cast (a : FVec F S256x128 .f32) : k0_pay35 (shapeCast S1x256x128 a shapeCasts_S256x128_S1x256x128) = a := sq_unsq a
theorem pay25_eq (a : FVec F S256x128 .f32) : k0_pay25 a = shapeCast S1x256x128 a shapeCasts_S256x128_S1x256x128 := rfl
theorem pay26_eq (a : FVec F S256x128 .f32) :
    k0_pay26 a = shapeCast S1x256x128 (truncf .bf16 a bitsLt_bf16_f32) shapeCasts_S256x128_S1x256x128 := rfl

/-! ## The chunk rectangles of the two `[4,256,128]` buffers, at any offsets -/

/-- The outgoing slice at offsets `off`, as the `[256,128]` memref a copy reads. -/
abbrev srcAt (off : Fin 3 → ℕ) (inb : ∀ a, off a + S1x256x128.size a ≤ S4x256x128.size a) : Memref sig .tc .vmem S256x128 .bf16 :=
  (sndM.slice (Rect.unit (s := S4x256x128) off S1x256x128.size inb) (fun _ => rfl)).squeeze S256x128 squeezes_S1x256x128_S256x128

/-- The receive slot at offsets `off`, as the `[256,128]` memref a copy writes. -/
abbrev slotAt (off : Fin 5 → ℕ) (inb : ∀ a, off a + S1x1x1x256x128.size a ≤ S3x4x3x256x128.size a) : Memref sig .tc .vmem S256x128 .bf16 :=
  (comM.slice (Rect.unit (s := S3x4x3x256x128) off S1x1x1x256x128.size inb) (fun _ => rfl)).squeeze S256x128 squeezes_S1x1x1x256x128_S256x128

/-- (1) A chunk stored to the outgoing buffer, read through the copy's source memref: the payload as a matrix. -/
theorem read_src_store_at (off : Fin 3 → ℕ) (inb : ∀ a, off a + S1x256x128.size a ≤ S4x256x128.size a)
    (f : sndM.view.ty.Contents (Elt F)) (v : FVec F S1x256x128 .bf16) :
    (srcAt off inb).view.read (Elt F)
        ((sndM.access (Rect.unit (s := S4x256x128) off S1x256x128.size inb)).write (Elt F) f v Finset.univ)
      = shapeCast S256x128 v shapeCasts_S1x256x128_S256x128 :=
  read_squeeze_write (σ := sig) (κ := .tc) (sp := .vmem) (s := S4x256x128) (s' := S256x128) (e := .bf16) (Val := Elt F) sndM
    (Rect.unit (s := S4x256x128) off S1x256x128.size inb) (fun _ => rfl) squeezes_S1x256x128_S256x128 shapeCasts_S1x256x128_S256x128 f v

/-- The same for a payload that is a reshaped matrix: the matrix. -/
theorem read_src_store_cast_at (off : Fin 3 → ℕ) (inb : ∀ a, off a + S1x256x128.size a ≤ S4x256x128.size a)
    (f : sndM.view.ty.Contents (Elt F)) (b : FVec F S256x128 .bf16) :
    (srcAt off inb).view.read (Elt F)
        ((sndM.access (Rect.unit (s := S4x256x128) off S1x256x128.size inb)).write (Elt F) f
          (shapeCast S1x256x128 b shapeCasts_S256x128_S1x256x128) Finset.univ)
      = b :=
  (read_src_store_at off inb f _).trans (sq_unsq b)

/-- The narrowed running sum stored by the kernel is read back as the narrowed running sum. -/
theorem read_src_store_pay26_at (off : Fin 3 → ℕ) (inb : ∀ a, off a + S1x256x128.size a ≤ S4x256x128.size a)
    (f : sndM.view.ty.Contents (Elt F)) (a : FVec F S256x128 .f32) :
    (srcAt off inb).view.read (Elt F)
        ((sndM.access (Rect.unit (s := S4x256x128) off S1x256x128.size inb)).write (Elt F) f (k0_pay26 a) Finset.univ)
      = truncf .bf16 a bitsLt_bf16_f32 :=
  read_src_store_cast_at off inb f (truncf .bf16 a bitsLt_bf16_f32)

/-- Reading back the running sum: a chunk stored to the accumulator and loaded through the same rectangle. -/
theorem acc_readAt_write (r : Rect S4x256x128) (f : accM.view.ty.Contents (Elt F)) (v : r.shape.Idx → Elt F .f32) :
    accM.view.readAt (Elt F) r.toLoadRect ((accM.access r).write (Elt F) f v Finset.univ) = v :=
  readAt_write_access (σ := sig) (κ := .tc) (sp := .vmem) (s := S4x256x128) (e := .f32) (Val := Elt F) accM r f v

theorem snd_readAt_write (r : Rect S4x256x128) (f : sndM.view.ty.Contents (Elt F)) (v : r.shape.Idx → Elt F .bf16) :
    sndM.view.readAt (Elt F) r.toLoadRect ((sndM.access r).write (Elt F) f v Finset.univ) = v :=
  readAt_write_access (σ := sig) (κ := .tc) (sp := .vmem) (s := S4x256x128) (e := .bf16) (Val := Elt F) sndM r f v

/-- A load of the outgoing buffer through a chunk rectangle is the read through the copy's source memref, reshaped. -/
theorem load_src_at (off : Fin 3 → ℕ) (inb : ∀ a, off a + S1x256x128.size a ≤ S4x256x128.size a)
    (f : sndM.view.ty.Contents (Elt F)) :
    sndM.view.readAt (Elt F) (Rect.unit (s := S4x256x128) off S1x256x128.size inb).toLoadRect f
      = shapeCast S1x256x128 ((srcAt off inb).view.read (Elt F) f) shapeCasts_S256x128_S1x256x128 :=
  readAt_eq_shapeCast_read (σ := sig) (κ := .tc) (sp := .vmem) (s := S4x256x128) (s' := S256x128) (e := .bf16) (Val := Elt F) sndM
    (Rect.unit (s := S4x256x128) off S1x256x128.size inb) (fun _ => rfl) squeezes_S1x256x128_S256x128 shapeCasts_S1x256x128_S256x128
    shapeCasts_S256x128_S1x256x128 f

/-! ## The receive slots, at any offsets -/

/-- (2) What is written through a slot is read through it. -/
theorem read_slot_write (s : Fin 20) (fd : (slotM s).view.ty.Contents (Elt F)) (w : FVec F S256x128 .bf16) :
    (slotM s).view.read (Elt F) ((slotM s).view.write (Elt F) fd w Finset.univ) = w :=
  View.read_write_univ fd w

theorem read_src_write (ch : Fin 4) (fd : (srcM ch).view.ty.Contents (Elt F)) (w : FVec F S256x128 .bf16) :
    (srcM ch).view.read (Elt F) ((srcM ch).view.write (Elt F) fd w Finset.univ) = w :=
  View.read_write_univ fd w

/-- (3) A load of the receive buffer through a slot's rectangle is the read through the slot, as the five-axis block. -/
theorem load_slot_at (off : Fin 5 → ℕ) (inb : ∀ a, off a + S1x1x1x256x128.size a ≤ S3x4x3x256x128.size a)
    (f : comM.view.ty.Contents (Elt F)) :
    comM.view.readAt (Elt F) (Rect.unit (s := S3x4x3x256x128) off S1x1x1x256x128.size inb).toLoadRect f
      = shapeCast S1x1x1x256x128 ((slotAt off inb).view.read (Elt F) f) shapeCasts_S256x128_S1x1x1x256x128 :=
  readAt_eq_shapeCast_read (σ := sig) (κ := .tc) (sp := .vmem) (s := S3x4x3x256x128) (s' := S256x128) (e := .bf16) (Val := Elt F) comM
    (Rect.unit (s := S3x4x3x256x128) off S1x1x1x256x128.size inb) (fun _ => rfl) squeezes_S1x1x1x256x128_S256x128 shapeCasts_S1x1x1x256x128_S256x128
    shapeCasts_S256x128_S1x1x1x256x128 f

/-- When the slot holds a narrowed running sum, the load is what that sum puts on the wire. -/
theorem load_slot_wire_at (off : Fin 5 → ℕ) (inb : ∀ a, off a + S1x1x1x256x128.size a ≤ S3x4x3x256x128.size a)
    (f : comM.view.ty.Contents (Elt F)) (a : FVec F S256x128 .f32)
    (h : (slotAt off inb).view.read (Elt F) f = truncf .bf16 a bitsLt_bf16_f32) :
    comM.view.readAt (Elt F) (Rect.unit (s := S3x4x3x256x128) off S1x1x1x256x128.size inb).toLoadRect f = wire a := by
  rw [load_slot_at, h]
  rfl

/-! ## The named rectangles are rectangles at offsets -/

def chOff (ch : Fin 4) : Fin 3 → ℕ := ![ch.val, 0, 0]
theorem chOff_inb (ch : Fin 4) : ∀ a, chOff ch a + S1x256x128.size a ≤ S4x256x128.size a := by revert ch; decide

def slotOff (s : Fin 20) : Fin 5 → ℕ := ![(slotK s).val, (slotCh s).val, (slotJ s).val, 0, 0]
theorem slotOff_inb (s : Fin 20) : ∀ a, slotOff s a + S1x1x1x256x128.size a ≤ S3x4x3x256x128.size a := by revert s; decide

theorem chRect_eq (ch : Fin 4) : chRect ch = Rect.unit (s := S4x256x128) (chOff ch) S1x256x128.size (chOff_inb ch) := by
  fin_cases ch <;> rfl
theorem srcM_eq (ch : Fin 4) : srcM ch = srcAt (chOff ch) (chOff_inb ch) := by
  fin_cases ch <;> rfl
theorem slotRect_eq (s : Fin 20) :
    slotRect s = Rect.unit (s := S3x4x3x256x128) (slotOff s) S1x1x1x256x128.size (slotOff_inb s) := by
  fin_cases s <;> rfl
theorem slotM_eq (s : Fin 20) : slotM s = slotAt (slotOff s) (slotOff_inb s) := by
  fin_cases s <;> rfl

/-! ## (4) The elements under the views, and their buffers -/

theorem slot_set_at (off : Fin 5 → ℕ) (inb : ∀ a, off a + S1x1x1x256x128.size a ≤ S3x4x3x256x128.size a) :
    (slotAt off inb).view.set = comM.view.setOn (Rect.unit (s := S3x4x3x256x128) off S1x1x1x256x128.size inb).toLoadRect.set :=
  set_squeeze_slice (σ := sig) (κ := .tc) (sp := .vmem) (s := S3x4x3x256x128) (s' := S256x128) (e := .bf16) comM
    (Rect.unit (s := S3x4x3x256x128) off S1x1x1x256x128.size inb) (fun _ => rfl) squeezes_S1x1x1x256x128_S256x128

theorem src_set_at (off : Fin 3 → ℕ) (inb : ∀ a, off a + S1x256x128.size a ≤ S4x256x128.size a) :
    (srcAt off inb).view.set = sndM.view.setOn (Rect.unit (s := S4x256x128) off S1x256x128.size inb).toLoadRect.set :=
  set_squeeze_slice (σ := sig) (κ := .tc) (sp := .vmem) (s := S4x256x128) (s' := S256x128) (e := .bf16) sndM
    (Rect.unit (s := S4x256x128) off S1x256x128.size inb) (fun _ => rfl) squeezes_S1x256x128_S256x128

theorem src_setOn_at (off : Fin 3 → ℕ) (inb : ∀ a, off a + S1x256x128.size a ≤ S4x256x128.size a) :
    (sndM.access (Rect.unit (s := S4x256x128) off S1x256x128.size inb)).setOn Finset.univ = (srcAt off inb).view.set :=
  setOn_access_univ (σ := sig) (κ := .tc) (sp := .vmem) (s := S4x256x128) (s' := S256x128) (e := .bf16) sndM
    (Rect.unit (s := S4x256x128) off S1x256x128.size inb) (fun _ => rfl) squeezes_S1x256x128_S256x128

/-! The same at each of the four chunks and the twenty slots (a statement over a variable chunk or slot does not
    typecheck: the buffer of `srcM ch` / `slotM s` is known only at a literal). -/

theorem store_src_subset_0 : (sndM.access (chRect 0)).setOn Finset.univ ⊆ (srcM 0).view.set := subset_of_eq (src_setOn_at _ _)
theorem load_src_subset_0 : sndM.view.setOn (chRect 0).toLoadRect.set ⊆ (srcM 0).view.set := subset_of_eq (src_set_at _ _).symm
theorem read_src_store_0 (f : sndM.view.ty.Contents (Elt F)) (v : FVec F S1x256x128 .bf16) :
    (srcM 0).view.read (Elt F) ((sndM.access (chRect 0)).write (Elt F) f v Finset.univ) = shapeCast S256x128 v shapeCasts_S1x256x128_S256x128 :=
  read_src_store_at _ _ f v
theorem read_src_store_pay26_0 (f : sndM.view.ty.Contents (Elt F)) (a : FVec F S256x128 .f32) :
    (srcM 0).view.read (Elt F) ((sndM.access (chRect 0)).write (Elt F) f (k0_pay26 a) Finset.univ) = truncf .bf16 a bitsLt_bf16_f32 :=
  read_src_store_pay26_at _ _ f a
theorem store_src_subset_1 : (sndM.access (chRect 1)).setOn Finset.univ ⊆ (srcM 1).view.set := subset_of_eq (src_setOn_at _ _)
theorem load_src_subset_1 : sndM.view.setOn (chRect 1).toLoadRect.set ⊆ (srcM 1).view.set := subset_of_eq (src_set_at _ _).symm
theorem read_src_store_1 (f : sndM.view.ty.Contents (Elt F)) (v : FVec F S1x256x128 .bf16) :
    (srcM 1).view.read (Elt F) ((sndM.access (chRect 1)).write (Elt F) f v Finset.univ) = shapeCast S256x128 v shapeCasts_S1x256x128_S256x128 :=
  read_src_store_at _ _ f v
theorem read_src_store_pay26_1 (f : sndM.view.ty.Contents (Elt F)) (a : FVec F S256x128 .f32) :
    (srcM 1).view.read (Elt F) ((sndM.access (chRect 1)).write (Elt F) f (k0_pay26 a) Finset.univ) = truncf .bf16 a bitsLt_bf16_f32 :=
  read_src_store_pay26_at _ _ f a
theorem store_src_subset_2 : (sndM.access (chRect 2)).setOn Finset.univ ⊆ (srcM 2).view.set := subset_of_eq (src_setOn_at _ _)
theorem load_src_subset_2 : sndM.view.setOn (chRect 2).toLoadRect.set ⊆ (srcM 2).view.set := subset_of_eq (src_set_at _ _).symm
theorem read_src_store_2 (f : sndM.view.ty.Contents (Elt F)) (v : FVec F S1x256x128 .bf16) :
    (srcM 2).view.read (Elt F) ((sndM.access (chRect 2)).write (Elt F) f v Finset.univ) = shapeCast S256x128 v shapeCasts_S1x256x128_S256x128 :=
  read_src_store_at _ _ f v
theorem read_src_store_pay26_2 (f : sndM.view.ty.Contents (Elt F)) (a : FVec F S256x128 .f32) :
    (srcM 2).view.read (Elt F) ((sndM.access (chRect 2)).write (Elt F) f (k0_pay26 a) Finset.univ) = truncf .bf16 a bitsLt_bf16_f32 :=
  read_src_store_pay26_at _ _ f a
theorem store_src_subset_3 : (sndM.access (chRect 3)).setOn Finset.univ ⊆ (srcM 3).view.set := subset_of_eq (src_setOn_at _ _)
theorem load_src_subset_3 : sndM.view.setOn (chRect 3).toLoadRect.set ⊆ (srcM 3).view.set := subset_of_eq (src_set_at _ _).symm
theorem read_src_store_3 (f : sndM.view.ty.Contents (Elt F)) (v : FVec F S1x256x128 .bf16) :
    (srcM 3).view.read (Elt F) ((sndM.access (chRect 3)).write (Elt F) f v Finset.univ) = shapeCast S256x128 v shapeCasts_S1x256x128_S256x128 :=
  read_src_store_at _ _ f v
theorem read_src_store_pay26_3 (f : sndM.view.ty.Contents (Elt F)) (a : FVec F S256x128 .f32) :
    (srcM 3).view.read (Elt F) ((sndM.access (chRect 3)).write (Elt F) f (k0_pay26 a) Finset.univ) = truncf .bf16 a bitsLt_bf16_f32 :=
  read_src_store_pay26_at _ _ f a

theorem load_slot_subset_0 : comM.view.setOn (slotRect 0).toLoadRect.set ⊆ (slotM 0).view.set := subset_of_eq (slot_set_at _ _).symm
theorem load_slot_0 (f : comM.view.ty.Contents (Elt F)) :
    comM.view.readAt (Elt F) (slotRect 0).toLoadRect f = shapeCast S1x1x1x256x128 ((slotM 0).view.read (Elt F) f) shapeCasts_S256x128_S1x1x1x256x128 :=
  load_slot_at _ _ f
theorem load_slot_subset_1 : comM.view.setOn (slotRect 1).toLoadRect.set ⊆ (slotM 1).view.set := subset_of_eq (slot_set_at _ _).symm
theorem load_slot_1 (f : comM.view.ty.Contents (Elt F)) :
    comM.view.readAt (Elt F) (slotRect 1).toLoadRect f = shapeCast S1x1x1x256x128 ((slotM 1).view.read (Elt F) f) shapeCasts_S256x128_S1x1x1x256x128 :=
  load_slot_at _ _ f
theorem load_slot_subset_2 : comM.view.setOn (slotRect 2).toLoadRect.set ⊆ (slotM 2).view.set := subset_of_eq (slot_set_at _ _).symm
theorem load_slot_2 (f : comM.view.ty.Contents (Elt F)) :
    comM.view.readAt (Elt F) (slotRect 2).toLoadRect f = shapeCast S1x1x1x256x128 ((slotM 2).view.read (Elt F) f) shapeCasts_S256x128_S1x1x1x256x128 :=
  load_slot_at _ _ f
theorem load_slot_subset_3 : comM.view.setOn (slotRect 3).toLoadRect.set ⊆ (slotM 3).view.set := subset_of_eq (slot_set_at _ _).symm
theorem load_slot_3 (f : comM.view.ty.Contents (Elt F)) :
    comM.view.readAt (Elt F) (slotRect 3).toLoadRect f = shapeCast S1x1x1x256x128 ((slotM 3).view.read (Elt F) f) shapeCasts_S256x128_S1x1x1x256x128 :=
  load_slot_at _ _ f
theorem load_slot_subset_4 : comM.view.setOn (slotRect 4).toLoadRect.set ⊆ (slotM 4).view.set := subset_of_eq (slot_set_at _ _).symm
theorem load_slot_4 (f : comM.view.ty.Contents (Elt F)) :
    comM.view.readAt (Elt F) (slotRect 4).toLoadRect f = shapeCast S1x1x1x256x128 ((slotM 4).view.read (Elt F) f) shapeCasts_S256x128_S1x1x1x256x128 :=
  load_slot_at _ _ f
theorem load_slot_subset_5 : comM.view.setOn (slotRect 5).toLoadRect.set ⊆ (slotM 5).view.set := subset_of_eq (slot_set_at _ _).symm
theorem load_slot_5 (f : comM.view.ty.Contents (Elt F)) :
    comM.view.readAt (Elt F) (slotRect 5).toLoadRect f = shapeCast S1x1x1x256x128 ((slotM 5).view.read (Elt F) f) shapeCasts_S256x128_S1x1x1x256x128 :=
  load_slot_at _ _ f
theorem load_slot_subset_6 : comM.view.setOn (slotRect 6).toLoadRect.set ⊆ (slotM 6).view.set := subset_of_eq (slot_set_at _ _).symm
theorem load_slot_6 (f : comM.view.ty.Contents (Elt F)) :
    comM.view.readAt (Elt F) (slotRect 6).toLoadRect f = shapeCast S1x1x1x256x128 ((slotM 6).view.read (Elt F) f) shapeCasts_S256x128_S1x1x1x256x128 :=
  load_slot_at _ _ f
theorem load_slot_subset_7 : comM.view.setOn (slotRect 7).toLoadRect.set ⊆ (slotM 7).view.set := subset_of_eq (slot_set_at _ _).symm
theorem load_slot_7 (f : comM.view.ty.Contents (Elt F)) :
    comM.view.readAt (Elt F) (slotRect 7).toLoadRect f = shapeCast S1x1x1x256x128 ((slotM 7).view.read (Elt F) f) shapeCasts_S256x128_S1x1x1x256x128 :=
  load_slot_at _ _ f
theorem load_slot_subset_8 : comM.view.setOn (slotRect 8).toLoadRect.set ⊆ (slotM 8).view.set := subset_of_eq (slot_set_at _ _).symm
theorem load_slot_8 (f : comM.view.ty.Contents (Elt F)) :
    comM.view.readAt (Elt F) (slotRect 8).toLoadRect f = shapeCast S1x1x1x256x128 ((slotM 8).view.read (Elt F) f) shapeCasts_S256x128_S1x1x1x256x128 :=
  load_slot_at _ _ f
theorem load_slot_subset_9 : comM.view.setOn (slotRect 9).toLoadRect.set ⊆ (slotM 9).view.set := subset_of_eq (slot_set_at _ _).symm
theorem load_slot_9 (f : comM.view.ty.Contents (Elt F)) :
    comM.view.readAt (Elt F) (slotRect 9).toLoadRect f = shapeCast S1x1x1x256x128 ((slotM 9).view.read (Elt F) f) shapeCasts_S256x128_S1x1x1x256x128 :=
  load_slot_at _ _ f
theorem load_slot_subset_10 : comM.view.setOn (slotRect 10).toLoadRect.set ⊆ (slotM 10).view.set := subset_of_eq (slot_set_at _ _).symm
theorem load_slot_10 (f : comM.view.ty.Contents (Elt F)) :
    comM.view.readAt (Elt F) (slotRect 10).toLoadRect f = shapeCast S1x1x1x256x128 ((slotM 10).view.read (Elt F) f) shapeCasts_S256x128_S1x1x1x256x128 :=
  load_slot_at _ _ f
theorem load_slot_subset_11 : comM.view.setOn (slotRect 11).toLoadRect.set ⊆ (slotM 11).view.set := subset_of_eq (slot_set_at _ _).symm
theorem load_slot_11 (f : comM.view.ty.Contents (Elt F)) :
    comM.view.readAt (Elt F) (slotRect 11).toLoadRect f = shapeCast S1x1x1x256x128 ((slotM 11).view.read (Elt F) f) shapeCasts_S256x128_S1x1x1x256x128 :=
  load_slot_at _ _ f
theorem load_slot_subset_12 : comM.view.setOn (slotRect 12).toLoadRect.set ⊆ (slotM 12).view.set := subset_of_eq (slot_set_at _ _).symm
theorem load_slot_12 (f : comM.view.ty.Contents (Elt F)) :
    comM.view.readAt (Elt F) (slotRect 12).toLoadRect f = shapeCast S1x1x1x256x128 ((slotM 12).view.read (Elt F) f) shapeCasts_S256x128_S1x1x1x256x128 :=
  load_slot_at _ _ f
theorem load_slot_subset_13 : comM.view.setOn (slotRect 13).toLoadRect.set ⊆ (slotM 13).view.set := subset_of_eq (slot_set_at _ _).symm
theorem load_slot_13 (f : comM.view.ty.Contents (Elt F)) :
    comM.view.readAt (Elt F) (slotRect 13).toLoadRect f = shapeCast S1x1x1x256x128 ((slotM 13).view.read (Elt F) f) shapeCasts_S256x128_S1x1x1x256x128 :=
  load_slot_at _ _ f
theorem load_slot_subset_14 : comM.view.setOn (slotRect 14).toLoadRect.set ⊆ (slotM 14).view.set := subset_of_eq (slot_set_at _ _).symm
theorem load_slot_14 (f : comM.view.ty.Contents (Elt F)) :
    comM.view.readAt (Elt F) (slotRect 14).toLoadRect f = shapeCast S1x1x1x256x128 ((slotM 14).view.read (Elt F) f) shapeCasts_S256x128_S1x1x1x256x128 :=
  load_slot_at _ _ f
theorem load_slot_subset_15 : comM.view.setOn (slotRect 15).toLoadRect.set ⊆ (slotM 15).view.set := subset_of_eq (slot_set_at _ _).symm
theorem load_slot_15 (f : comM.view.ty.Contents (Elt F)) :
    comM.view.readAt (Elt F) (slotRect 15).toLoadRect f = shapeCast S1x1x1x256x128 ((slotM 15).view.read (Elt F) f) shapeCasts_S256x128_S1x1x1x256x128 :=
  load_slot_at _ _ f
theorem load_slot_subset_16 : comM.view.setOn (slotRect 16).toLoadRect.set ⊆ (slotM 16).view.set := subset_of_eq (slot_set_at _ _).symm
theorem load_slot_16 (f : comM.view.ty.Contents (Elt F)) :
    comM.view.readAt (Elt F) (slotRect 16).toLoadRect f = shapeCast S1x1x1x256x128 ((slotM 16).view.read (Elt F) f) shapeCasts_S256x128_S1x1x1x256x128 :=
  load_slot_at _ _ f
theorem load_slot_subset_17 : comM.view.setOn (slotRect 17).toLoadRect.set ⊆ (slotM 17).view.set := subset_of_eq (slot_set_at _ _).symm
theorem load_slot_17 (f : comM.view.ty.Contents (Elt F)) :
    comM.view.readAt (Elt F) (slotRect 17).toLoadRect f = shapeCast S1x1x1x256x128 ((slotM 17).view.read (Elt F) f) shapeCasts_S256x128_S1x1x1x256x128 :=
  load_slot_at _ _ f
theorem load_slot_subset_18 : comM.view.setOn (slotRect 18).toLoadRect.set ⊆ (slotM 18).view.set := subset_of_eq (slot_set_at _ _).symm
theorem load_slot_18 (f : comM.view.ty.Contents (Elt F)) :
    comM.view.readAt (Elt F) (slotRect 18).toLoadRect f = shapeCast S1x1x1x256x128 ((slotM 18).view.read (Elt F) f) shapeCasts_S256x128_S1x1x1x256x128 :=
  load_slot_at _ _ f
theorem load_slot_subset_19 : comM.view.setOn (slotRect 19).toLoadRect.set ⊆ (slotM 19).view.set := subset_of_eq (slot_set_at _ _).symm
theorem load_slot_19 (f : comM.view.ty.Contents (Elt F)) :
    comM.view.readAt (Elt F) (slotRect 19).toLoadRect f = shapeCast S1x1x1x256x128 ((slotM 19).view.read (Elt F) f) shapeCasts_S256x128_S1x1x1x256x128 :=
  load_slot_at _ _ f

/-- The views of one buffer have that buffer's location. -/
theorem slot_loc (s : Fin 20) (p : Dev nD) : (slotM s).view.loc (p : Thread nD τ) = comM.view.loc (p : Thread nD τ) := by
  fin_cases s <;> rfl
theorem slot_access_loc (s : Fin 20) (p : Dev nD) :
    (comM.access (slotRect s)).loc (p : Thread nD τ) = comM.view.loc (p : Thread nD τ) := rfl
theorem src_loc (ch : Fin 4) (p : Dev nD) : (srcM ch).view.loc (p : Thread nD τ) = sndM.view.loc (p : Thread nD τ) := by
  fin_cases ch <;> rfl
theorem src_access_loc (ch : Fin 4) (p : Dev nD) :
    (sndM.access (chRect ch)).loc (p : Thread nD τ) = sndM.view.loc (p : Thread nD τ) := rfl
theorem acc_access_loc (r : Rect S4x256x128) (p : Dev nD) :
    (accM.access r).loc (p : Thread nD τ) = accM.view.loc (p : Thread nD τ) := rfl

end Cert.KernelIdeal.Views

end

/-- info: 'Cert.KernelIdeal.Views.read_src_store_at' depends on axioms: [propext, Classical.choice, Quot.sound] -/
#guard_msgs in #print axioms Cert.KernelIdeal.Views.read_src_store_at
/-- info: 'Cert.KernelIdeal.Views.load_slot_at' depends on axioms: [propext, Classical.choice, Quot.sound] -/
#guard_msgs in #print axioms Cert.KernelIdeal.Views.load_slot_at
/-- info: 'Cert.KernelIdeal.Views.slot_set_at' depends on axioms: [propext, Classical.choice, Quot.sound] -/
#guard_msgs in #print axioms Cert.KernelIdeal.Views.slot_set_at
-- ==== Proof.KernelIdealRegions.lean ====
/-
  The region algebra of the exchange's buffers.

  A points-to assertion over a buffer splits along a partition of the buffer's index set and along a partition of the
  share. The outgoing buffer is the disjoint union of its four chunk slices; the receive buffer is the disjoint union of
  its twenty used slots and the unused rest; a slice held whole is the same as its three third parts held together,
  and three holders of the third parts agree on the slice's contents. Two contents that agree on a slice give the same
  assertion about it.
-/
import proofs.«900514_g7700000000000515_dist_attn_self_mha_htp_b2_sq128_skv128_d512_hq8_dh64_v7x_i16_bf16_1_alg».proof.Proof.KernelIdealProto

noncomputable section

namespace Cert.KernelIdeal.Regions

open Cert.KernelIdeal Cert.KernelIdeal.Gen Cert.KernelIdeal.Terms Cert.KernelIdeal.Proto

open Idealize.ShloMosaic
open Idealize.ShloMosaic.TcCoe
open Idealize.SL Idealize.SL.RA Idealize.SL.BI
open PCS
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Splitting a points-to along its index set -/

/-- Carving a subset out of a held index set. -/
theorem pts_split {ℓ : Loc nD τ sig} {S I : Finset (Idx ℓ)} (q : PosShare TreeShare) (f : Buf (Elt F) ℓ) (h : I ⊆ S) :
    ((ℓ ↦[S]{q} f) : sProp 𝕄) ⊣⊢ iprop((ℓ ↦[I]{q} f) ∗ (ℓ ↦[S \ I]{q} f)) :=
  Region.is_split_subset h

/-- The elements of a finite type whose key lies in a set of numbers. -/
def keySet {α : Type} [Fintype α] (key : α → ℕ) (K : Finset ℕ) : Finset α := Finset.univ.filter fun i => key i ∈ K

theorem mem_keySet {α : Type} [Fintype α] {key : α → ℕ} {K : Finset ℕ} {i : α} : i ∈ keySet key K ↔ key i ∈ K := by
  simp [keySet]

/-- Every element's key is below `n`: the keys below `n` are everything. -/
theorem keySet_range {α : Type} [Fintype α] (key : α → ℕ) (n : ℕ) (h : ∀ i, key i < n) :
    keySet key (Finset.range n) = Finset.univ := by
  ext i; simp [mem_keySet, h i]

theorem keySet_sdiff {α : Type} [Fintype α] [DecidableEq α] (key : α → ℕ) (K : Finset ℕ) (n : ℕ) :
    keySet key K \ keySet key {n} = keySet key (K.erase n) := by
  ext i
  simp only [Finset.mem_sdiff, mem_keySet, Finset.mem_singleton, Finset.mem_erase]
  tauto

theorem keySet_single_subset {α : Type} [Fintype α] (key : α → ℕ) {K : Finset ℕ} {n : ℕ} (h : n ∈ K) :
    keySet key {n} ⊆ keySet key K := fun i hi =>
  mem_keySet.2 (by rw [Finset.mem_singleton.1 (mem_keySet.1 hi)]; exact h)

/-- One step of a split by keys: the elements of key `n` come off, the rest splits further. -/
theorem key_step {ℓ : Loc nD τ sig} (key : Idx ℓ → ℕ) (q : PosShare TreeShare) (f : Buf (Elt F) ℓ) (K : Finset ℕ) (n : ℕ)
    (I : Finset (Idx ℓ)) (hI : I = keySet key {n}) (h : n ∈ K) {R : sProp 𝕄}
    (hR : ((ℓ ↦[keySet key (K.erase n)]{q} f) : sProp 𝕄) ⊣⊢ R) :
    ((ℓ ↦[keySet key K]{q} f) : sProp 𝕄) ⊣⊢ iprop((ℓ ↦[I]{q} f) ∗ R) := by
  subst hI
  refine (pts_split q f (keySet_single_subset key h)).trans (sep_congr_right ?_)
  rw [keySet_sdiff]; exact hR

/-! ## The outgoing buffer: four chunk slices -/

/-- The chunk an element of the outgoing buffer lies in. -/
def sndKey (i : S4x256x128.Idx) : ℕ := (i 0).val

theorem sndKey_lt (i : S4x256x128.Idx) : sndKey i < 4 := (i 0).isLt

/-- An element of a unit-stride slice of the outgoing buffer, squeezed: between the offsets and the offsets plus sizes. -/
theorem mem_snd_slice (off : Fin 3 → ℕ) (inb : ∀ a, off a + S1x256x128.size a ≤ S4x256x128.size a) (i : S4x256x128.Idx) :
    i ∈ ((sndM.slice (Rect.unit (s := S4x256x128) off S1x256x128.size inb) (fun _ => rfl)).squeeze S256x128 squeezes_S1x256x128_S256x128).view.set
      ↔ ∀ a, off a ≤ (i a : ℕ) ∧ (i a : ℕ) < off a + S1x256x128.size a := by
  have e : ((sndM.slice (Rect.unit (s := S4x256x128) off S1x256x128.size inb) (fun _ => rfl)).squeeze S256x128 squeezes_S1x256x128_S256x128).view.set
      = (Rect.unit (s := S4x256x128) off S1x256x128.size inb).set :=
    (View.set_reshape _ _).trans (View.set_slice_whole cc0_scratch1 _)
  rw [e]; exact Rect.mem_set_unit

theorem mem_src_0 (i : S4x256x128.Idx) : i ∈ (srcM 0).view.set ↔ sndKey i = 0 := by
  have h1 : (i 1).val < 256 := (i 1).isLt
  have h2 : (i 2).val < 128 := (i 2).isLt
  refine (mem_snd_slice ![0, 0, 0] _ i).trans ⟨fun h => ?_, fun h a => ?_⟩
  · have a0 : 0 ≤ (i 0).val ∧ (i 0).val < 0 + 1 := h 0
    show (i 0).val = 0; omega
  · have h' : (i 0).val = 0 := h
    match a with
    | ⟨0, _⟩ => show 0 ≤ (i 0).val ∧ (i 0).val < 0 + 1; omega
    | ⟨1, _⟩ => show 0 ≤ (i 1).val ∧ (i 1).val < 0 + 256; omega
    | ⟨2, _⟩ => show 0 ≤ (i 2).val ∧ (i 2).val < 0 + 128; omega

theorem src_set_0 : (srcM 0).view.set = keySet sndKey {0} :=
  Finset.ext fun i => (mem_src_0 i).trans (mem_keySet.trans Finset.mem_singleton).symm

theorem mem_src_1 (i : S4x256x128.Idx) : i ∈ (srcM 1).view.set ↔ sndKey i = 1 := by
  have h1 : (i 1).val < 256 := (i 1).isLt
  have h2 : (i 2).val < 128 := (i 2).isLt
  refine (mem_snd_slice ![1, 0, 0] _ i).trans ⟨fun h => ?_, fun h a => ?_⟩
  · have a0 : 1 ≤ (i 0).val ∧ (i 0).val < 1 + 1 := h 0
    show (i 0).val = 1; omega
  · have h' : (i 0).val = 1 := h
    match a with
    | ⟨0, _⟩ => show 1 ≤ (i 0).val ∧ (i 0).val < 1 + 1; omega
    | ⟨1, _⟩ => show 0 ≤ (i 1).val ∧ (i 1).val < 0 + 256; omega
    | ⟨2, _⟩ => show 0 ≤ (i 2).val ∧ (i 2).val < 0 + 128; omega

theorem src_set_1 : (srcM 1).view.set = keySet sndKey {1} :=
  Finset.ext fun i => (mem_src_1 i).trans (mem_keySet.trans Finset.mem_singleton).symm

theorem mem_src_2 (i : S4x256x128.Idx) : i ∈ (srcM 2).view.set ↔ sndKey i = 2 := by
  have h1 : (i 1).val < 256 := (i 1).isLt
  have h2 : (i 2).val < 128 := (i 2).isLt
  refine (mem_snd_slice ![2, 0, 0] _ i).trans ⟨fun h => ?_, fun h a => ?_⟩
  · have a0 : 2 ≤ (i 0).val ∧ (i 0).val < 2 + 1 := h 0
    show (i 0).val = 2; omega
  · have h' : (i 0).val = 2 := h
    match a with
    | ⟨0, _⟩ => show 2 ≤ (i 0).val ∧ (i 0).val < 2 + 1; omega
    | ⟨1, _⟩ => show 0 ≤ (i 1).val ∧ (i 1).val < 0 + 256; omega
    | ⟨2, _⟩ => show 0 ≤ (i 2).val ∧ (i 2).val < 0 + 128; omega

theorem src_set_2 : (srcM 2).view.set = keySet sndKey {2} :=
  Finset.ext fun i => (mem_src_2 i).trans (mem_keySet.trans Finset.mem_singleton).symm

theorem mem_src_3 (i : S4x256x128.Idx) : i ∈ (srcM 3).view.set ↔ sndKey i = 3 := by
  have h1 : (i 1).val < 256 := (i 1).isLt
  have h2 : (i 2).val < 128 := (i 2).isLt
  refine (mem_snd_slice ![3, 0, 0] _ i).trans ⟨fun h => ?_, fun h a => ?_⟩
  · have a0 : 3 ≤ (i 0).val ∧ (i 0).val < 3 + 1 := h 0
    show (i 0).val = 3; omega
  · have h' : (i 0).val = 3 := h
    match a with
    | ⟨0, _⟩ => show 3 ≤ (i 0).val ∧ (i 0).val < 3 + 1; omega
    | ⟨1, _⟩ => show 0 ≤ (i 1).val ∧ (i 1).val < 0 + 256; omega
    | ⟨2, _⟩ => show 0 ≤ (i 2).val ∧ (i 2).val < 0 + 128; omega

theorem src_set_3 : (srcM 3).view.set = keySet sndKey {3} :=
  Finset.ext fun i => (mem_src_3 i).trans (mem_keySet.trans Finset.mem_singleton).symm

/-- THE OUTGOING BUFFER, held whole, is its four chunk slices held together. -/
theorem split_snd (c : Dev nD) (f : Buf (Elt F) ((c : Thread nD τ).loc cc0_scratch1)) :
    ((((c : Thread nD τ).loc cc0_scratch1) ↦{fullShare} f) : sProp 𝕄)
      ⊣⊢ iprop(srcPts c 0 fullShare f ∗ srcPts c 1 fullShare f ∗ srcPts c 2 fullShare f ∗ srcPts c 3 fullShare f) := by
  have e : (Finset.univ : Finset (Idx ((c : Thread nD τ).loc cc0_scratch1))) = keySet sndKey (Finset.range 4) :=
    (keySet_range sndKey 4 sndKey_lt).symm
  have e3 : keySet sndKey ((((Finset.range 4).erase 0).erase 1).erase 2) = (srcM 3).view.set := by
    rw [src_set_3]; exact congrArg (keySet sndKey) (by decide)
  have chain :
      ((((c : Thread nD τ).loc cc0_scratch1) ↦[keySet sndKey (Finset.range 4)]{fullShare} f) : sProp 𝕄)
        ⊣⊢ iprop((((c : Thread nD τ).loc cc0_scratch1) ↦[(srcM 0).view.set]{fullShare} f)
            ∗ (((c : Thread nD τ).loc cc0_scratch1) ↦[(srcM 1).view.set]{fullShare} f)
            ∗ (((c : Thread nD τ).loc cc0_scratch1) ↦[(srcM 2).view.set]{fullShare} f)
            ∗ (((c : Thread nD τ).loc cc0_scratch1) ↦[(srcM 3).view.set]{fullShare} f)) :=
    key_step (ℓ := (c : Thread nD τ).loc cc0_scratch1) sndKey fullShare f _ 0 _ src_set_0 (by decide)
      (key_step (ℓ := (c : Thread nD τ).loc cc0_scratch1) sndKey fullShare f _ 1 _ src_set_1 (by decide)
        (key_step (ℓ := (c : Thread nD τ).loc cc0_scratch1) sndKey fullShare f _ 2 _ src_set_2 (by decide) (BiEntails.of_eq (by rw [e3]))))
  rw [e]
  exact chain

/-! ## The receive buffer: twenty slots and the rest -/

/-- The position of an element's slot among the `3 × 4 × 3` slots of the receive buffer. -/
def comKey (i : S3x4x3x256x128.Idx) : ℕ := (i 0).val * 12 + (i 1).val * 3 + (i 2).val

theorem comKey_lt (i : S3x4x3x256x128.Idx) : comKey i < 36 := by
  have h0 : (i 0).val < 3 := (i 0).isLt
  have h1 : (i 1).val < 4 := (i 1).isLt
  have h2 : (i 2).val < 3 := (i 2).isLt
  unfold comKey; omega

theorem mem_com_slice (off : Fin 5 → ℕ) (inb : ∀ a, off a + S1x1x1x256x128.size a ≤ S3x4x3x256x128.size a) (i : S3x4x3x256x128.Idx) :
    i ∈ ((comM.slice (Rect.unit (s := S3x4x3x256x128) off S1x1x1x256x128.size inb) (fun _ => rfl)).squeeze S256x128 squeezes_S1x1x1x256x128_S256x128).view.set
      ↔ ∀ a, off a ≤ (i a : ℕ) ∧ (i a : ℕ) < off a + S1x1x1x256x128.size a := by
  have e : ((comM.slice (Rect.unit (s := S3x4x3x256x128) off S1x1x1x256x128.size inb) (fun _ => rfl)).squeeze S256x128 squeezes_S1x1x1x256x128_S256x128).view.set
      = (Rect.unit (s := S3x4x3x256x128) off S1x1x1x256x128.size inb).set :=
    (View.set_reshape _ _).trans (View.set_slice_whole cc0_scratch2 _)
  rw [e]; exact Rect.mem_set_unit

theorem mem_slot_0 (i : S3x4x3x256x128.Idx) : i ∈ (slotM 0).view.set ↔ comKey i = 0 := by
  have h0 : (i 0).val < 3 := (i 0).isLt
  have h1 : (i 1).val < 4 := (i 1).isLt
  have h2 : (i 2).val < 3 := (i 2).isLt
  have h3 : (i 3).val < 256 := (i 3).isLt
  have h4 : (i 4).val < 128 := (i 4).isLt
  refine (mem_com_slice ![0, 0, 0, 0, 0] _ i).trans ⟨fun h => ?_, fun h a => ?_⟩
  · have a0 : 0 ≤ (i 0).val ∧ (i 0).val < 0 + 1 := h 0
    have a1 : 0 ≤ (i 1).val ∧ (i 1).val < 0 + 1 := h 1
    have a2 : 0 ≤ (i 2).val ∧ (i 2).val < 0 + 1 := h 2
    show (i 0).val * 12 + (i 1).val * 3 + (i 2).val = 0; omega
  · have h' : (i 0).val * 12 + (i 1).val * 3 + (i 2).val = 0 := h
    match a with
    | ⟨0, _⟩ => show 0 ≤ (i 0).val ∧ (i 0).val < 0 + 1; omega
    | ⟨1, _⟩ => show 0 ≤ (i 1).val ∧ (i 1).val < 0 + 1; omega
    | ⟨2, _⟩ => show 0 ≤ (i 2).val ∧ (i 2).val < 0 + 1; omega
    | ⟨3, _⟩ => show 0 ≤ (i 3).val ∧ (i 3).val < 0 + 256; omega
    | ⟨4, _⟩ => show 0 ≤ (i 4).val ∧ (i 4).val < 0 + 128; omega

theorem slot_set_0 : (slotM 0).view.set = keySet comKey {0} :=
  Finset.ext fun i => (mem_slot_0 i).trans (mem_keySet.trans Finset.mem_singleton).symm

theorem mem_slot_1 (i : S3x4x3x256x128.Idx) : i ∈ (slotM 1).view.set ↔ comKey i = 1 := by
  have h0 : (i 0).val < 3 := (i 0).isLt
  have h1 : (i 1).val < 4 := (i 1).isLt
  have h2 : (i 2).val < 3 := (i 2).isLt
  have h3 : (i 3).val < 256 := (i 3).isLt
  have h4 : (i 4).val < 128 := (i 4).isLt
  refine (mem_com_slice ![0, 0, 1, 0, 0] _ i).trans ⟨fun h => ?_, fun h a => ?_⟩
  · have a0 : 0 ≤ (i 0).val ∧ (i 0).val < 0 + 1 := h 0
    have a1 : 0 ≤ (i 1).val ∧ (i 1).val < 0 + 1 := h 1
    have a2 : 1 ≤ (i 2).val ∧ (i 2).val < 1 + 1 := h 2
    show (i 0).val * 12 + (i 1).val * 3 + (i 2).val = 1; omega
  · have h' : (i 0).val * 12 + (i 1).val * 3 + (i 2).val = 1 := h
    match a with
    | ⟨0, _⟩ => show 0 ≤ (i 0).val ∧ (i 0).val < 0 + 1; omega
    | ⟨1, _⟩ => show 0 ≤ (i 1).val ∧ (i 1).val < 0 + 1; omega
    | ⟨2, _⟩ => show 1 ≤ (i 2).val ∧ (i 2).val < 1 + 1; omega
    | ⟨3, _⟩ => show 0 ≤ (i 3).val ∧ (i 3).val < 0 + 256; omega
    | ⟨4, _⟩ => show 0 ≤ (i 4).val ∧ (i 4).val < 0 + 128; omega

theorem slot_set_1 : (slotM 1).view.set = keySet comKey {1} :=
  Finset.ext fun i => (mem_slot_1 i).trans (mem_keySet.trans Finset.mem_singleton).symm

theorem mem_slot_2 (i : S3x4x3x256x128.Idx) : i ∈ (slotM 2).view.set ↔ comKey i = 2 := by
  have h0 : (i 0).val < 3 := (i 0).isLt
  have h1 : (i 1).val < 4 := (i 1).isLt
  have h2 : (i 2).val < 3 := (i 2).isLt
  have h3 : (i 3).val < 256 := (i 3).isLt
  have h4 : (i 4).val < 128 := (i 4).isLt
  refine (mem_com_slice ![0, 0, 2, 0, 0] _ i).trans ⟨fun h => ?_, fun h a => ?_⟩
  · have a0 : 0 ≤ (i 0).val ∧ (i 0).val < 0 + 1 := h 0
    have a1 : 0 ≤ (i 1).val ∧ (i 1).val < 0 + 1 := h 1
    have a2 : 2 ≤ (i 2).val ∧ (i 2).val < 2 + 1 := h 2
    show (i 0).val * 12 + (i 1).val * 3 + (i 2).val = 2; omega
  · have h' : (i 0).val * 12 + (i 1).val * 3 + (i 2).val = 2 := h
    match a with
    | ⟨0, _⟩ => show 0 ≤ (i 0).val ∧ (i 0).val < 0 + 1; omega
    | ⟨1, _⟩ => show 0 ≤ (i 1).val ∧ (i 1).val < 0 + 1; omega
    | ⟨2, _⟩ => show 2 ≤ (i 2).val ∧ (i 2).val < 2 + 1; omega
    | ⟨3, _⟩ => show 0 ≤ (i 3).val ∧ (i 3).val < 0 + 256; omega
    | ⟨4, _⟩ => show 0 ≤ (i 4).val ∧ (i 4).val < 0 + 128; omega

theorem slot_set_2 : (slotM 2).view.set = keySet comKey {2} :=
  Finset.ext fun i => (mem_slot_2 i).trans (mem_keySet.trans Finset.mem_singleton).symm

theorem mem_slot_3 (i : S3x4x3x256x128.Idx) : i ∈ (slotM 3).view.set ↔ comKey i = 3 := by
  have h0 : (i 0).val < 3 := (i 0).isLt
  have h1 : (i 1).val < 4 := (i 1).isLt
  have h2 : (i 2).val < 3 := (i 2).isLt
  have h3 : (i 3).val < 256 := (i 3).isLt
  have h4 : (i 4).val < 128 := (i 4).isLt
  refine (mem_com_slice ![0, 1, 0, 0, 0] _ i).trans ⟨fun h => ?_, fun h a => ?_⟩
  · have a0 : 0 ≤ (i 0).val ∧ (i 0).val < 0 + 1 := h 0
    have a1 : 1 ≤ (i 1).val ∧ (i 1).val < 1 + 1 := h 1
    have a2 : 0 ≤ (i 2).val ∧ (i 2).val < 0 + 1 := h 2
    show (i 0).val * 12 + (i 1).val * 3 + (i 2).val = 3; omega
  · have h' : (i 0).val * 12 + (i 1).val * 3 + (i 2).val = 3 := h
    match a with
    | ⟨0, _⟩ => show 0 ≤ (i 0).val ∧ (i 0).val < 0 + 1; omega
    | ⟨1, _⟩ => show 1 ≤ (i 1).val ∧ (i 1).val < 1 + 1; omega
    | ⟨2, _⟩ => show 0 ≤ (i 2).val ∧ (i 2).val < 0 + 1; omega
    | ⟨3, _⟩ => show 0 ≤ (i 3).val ∧ (i 3).val < 0 + 256; omega
    | ⟨4, _⟩ => show 0 ≤ (i 4).val ∧ (i 4).val < 0 + 128; omega

theorem slot_set_3 : (slotM 3).view.set = keySet comKey {3} :=
  Finset.ext fun i => (mem_slot_3 i).trans (mem_keySet.trans Finset.mem_singleton).symm

theorem mem_slot_4 (i : S3x4x3x256x128.Idx) : i ∈ (slotM 4).view.set ↔ comKey i = 6 := by
  have h0 : (i 0).val < 3 := (i 0).isLt
  have h1 : (i 1).val < 4 := (i 1).isLt
  have h2 : (i 2).val < 3 := (i 2).isLt
  have h3 : (i 3).val < 256 := (i 3).isLt
  have h4 : (i 4).val < 128 := (i 4).isLt
  refine (mem_com_slice ![0, 2, 0, 0, 0] _ i).trans ⟨fun h => ?_, fun h a => ?_⟩
  · have a0 : 0 ≤ (i 0).val ∧ (i 0).val < 0 + 1 := h 0
    have a1 : 2 ≤ (i 1).val ∧ (i 1).val < 2 + 1 := h 1
    have a2 : 0 ≤ (i 2).val ∧ (i 2).val < 0 + 1 := h 2
    show (i 0).val * 12 + (i 1).val * 3 + (i 2).val = 6; omega
  · have h' : (i 0).val * 12 + (i 1).val * 3 + (i 2).val = 6 := h
    match a with
    | ⟨0, _⟩ => show 0 ≤ (i 0).val ∧ (i 0).val < 0 + 1; omega
    | ⟨1, _⟩ => show 2 ≤ (i 1).val ∧ (i 1).val < 2 + 1; omega
    | ⟨2, _⟩ => show 0 ≤ (i 2).val ∧ (i 2).val < 0 + 1; omega
    | ⟨3, _⟩ => show 0 ≤ (i 3).val ∧ (i 3).val < 0 + 256; omega
    | ⟨4, _⟩ => show 0 ≤ (i 4).val ∧ (i 4).val < 0 + 128; omega

theorem slot_set_4 : (slotM 4).view.set = keySet comKey {6} :=
  Finset.ext fun i => (mem_slot_4 i).trans (mem_keySet.trans Finset.mem_singleton).symm

theorem mem_slot_5 (i : S3x4x3x256x128.Idx) : i ∈ (slotM 5).view.set ↔ comKey i = 9 := by
  have h0 : (i 0).val < 3 := (i 0).isLt
  have h1 : (i 1).val < 4 := (i 1).isLt
  have h2 : (i 2).val < 3 := (i 2).isLt
  have h3 : (i 3).val < 256 := (i 3).isLt
  have h4 : (i 4).val < 128 := (i 4).isLt
  refine (mem_com_slice ![0, 3, 0, 0, 0] _ i).trans ⟨fun h => ?_, fun h a => ?_⟩
  · have a0 : 0 ≤ (i 0).val ∧ (i 0).val < 0 + 1 := h 0
    have a1 : 3 ≤ (i 1).val ∧ (i 1).val < 3 + 1 := h 1
    have a2 : 0 ≤ (i 2).val ∧ (i 2).val < 0 + 1 := h 2
    show (i 0).val * 12 + (i 1).val * 3 + (i 2).val = 9; omega
  · have h' : (i 0).val * 12 + (i 1).val * 3 + (i 2).val = 9 := h
    match a with
    | ⟨0, _⟩ => show 0 ≤ (i 0).val ∧ (i 0).val < 0 + 1; omega
    | ⟨1, _⟩ => show 3 ≤ (i 1).val ∧ (i 1).val < 3 + 1; omega
    | ⟨2, _⟩ => show 0 ≤ (i 2).val ∧ (i 2).val < 0 + 1; omega
    | ⟨3, _⟩ => show 0 ≤ (i 3).val ∧ (i 3).val < 0 + 256; omega
    | ⟨4, _⟩ => show 0 ≤ (i 4).val ∧ (i 4).val < 0 + 128; omega

theorem slot_set_5 : (slotM 5).view.set = keySet comKey {9} :=
  Finset.ext fun i => (mem_slot_5 i).trans (mem_keySet.trans Finset.mem_singleton).symm

theorem mem_slot_6 (i : S3x4x3x256x128.Idx) : i ∈ (slotM 6).view.set ↔ comKey i = 10 := by
  have h0 : (i 0).val < 3 := (i 0).isLt
  have h1 : (i 1).val < 4 := (i 1).isLt
  have h2 : (i 2).val < 3 := (i 2).isLt
  have h3 : (i 3).val < 256 := (i 3).isLt
  have h4 : (i 4).val < 128 := (i 4).isLt
  refine (mem_com_slice ![0, 3, 1, 0, 0] _ i).trans ⟨fun h => ?_, fun h a => ?_⟩
  · have a0 : 0 ≤ (i 0).val ∧ (i 0).val < 0 + 1 := h 0
    have a1 : 3 ≤ (i 1).val ∧ (i 1).val < 3 + 1 := h 1
    have a2 : 1 ≤ (i 2).val ∧ (i 2).val < 1 + 1 := h 2
    show (i 0).val * 12 + (i 1).val * 3 + (i 2).val = 10; omega
  · have h' : (i 0).val * 12 + (i 1).val * 3 + (i 2).val = 10 := h
    match a with
    | ⟨0, _⟩ => show 0 ≤ (i 0).val ∧ (i 0).val < 0 + 1; omega
    | ⟨1, _⟩ => show 3 ≤ (i 1).val ∧ (i 1).val < 3 + 1; omega
    | ⟨2, _⟩ => show 1 ≤ (i 2).val ∧ (i 2).val < 1 + 1; omega
    | ⟨3, _⟩ => show 0 ≤ (i 3).val ∧ (i 3).val < 0 + 256; omega
    | ⟨4, _⟩ => show 0 ≤ (i 4).val ∧ (i 4).val < 0 + 128; omega

theorem slot_set_6 : (slotM 6).view.set = keySet comKey {10} :=
  Finset.ext fun i => (mem_slot_6 i).trans (mem_keySet.trans Finset.mem_singleton).symm

theorem mem_slot_7 (i : S3x4x3x256x128.Idx) : i ∈ (slotM 7).view.set ↔ comKey i = 11 := by
  have h0 : (i 0).val < 3 := (i 0).isLt
  have h1 : (i 1).val < 4 := (i 1).isLt
  have h2 : (i 2).val < 3 := (i 2).isLt
  have h3 : (i 3).val < 256 := (i 3).isLt
  have h4 : (i 4).val < 128 := (i 4).isLt
  refine (mem_com_slice ![0, 3, 2, 0, 0] _ i).trans ⟨fun h => ?_, fun h a => ?_⟩
  · have a0 : 0 ≤ (i 0).val ∧ (i 0).val < 0 + 1 := h 0
    have a1 : 3 ≤ (i 1).val ∧ (i 1).val < 3 + 1 := h 1
    have a2 : 2 ≤ (i 2).val ∧ (i 2).val < 2 + 1 := h 2
    show (i 0).val * 12 + (i 1).val * 3 + (i 2).val = 11; omega
  · have h' : (i 0).val * 12 + (i 1).val * 3 + (i 2).val = 11 := h
    match a with
    | ⟨0, _⟩ => show 0 ≤ (i 0).val ∧ (i 0).val < 0 + 1; omega
    | ⟨1, _⟩ => show 3 ≤ (i 1).val ∧ (i 1).val < 3 + 1; omega
    | ⟨2, _⟩ => show 2 ≤ (i 2).val ∧ (i 2).val < 2 + 1; omega
    | ⟨3, _⟩ => show 0 ≤ (i 3).val ∧ (i 3).val < 0 + 256; omega
    | ⟨4, _⟩ => show 0 ≤ (i 4).val ∧ (i 4).val < 0 + 128; omega

theorem slot_set_7 : (slotM 7).view.set = keySet comKey {11} :=
  Finset.ext fun i => (mem_slot_7 i).trans (mem_keySet.trans Finset.mem_singleton).symm

theorem mem_slot_8 (i : S3x4x3x256x128.Idx) : i ∈ (slotM 8).view.set ↔ comKey i = 12 := by
  have h0 : (i 0).val < 3 := (i 0).isLt
  have h1 : (i 1).val < 4 := (i 1).isLt
  have h2 : (i 2).val < 3 := (i 2).isLt
  have h3 : (i 3).val < 256 := (i 3).isLt
  have h4 : (i 4).val < 128 := (i 4).isLt
  refine (mem_com_slice ![1, 0, 0, 0, 0] _ i).trans ⟨fun h => ?_, fun h a => ?_⟩
  · have a0 : 1 ≤ (i 0).val ∧ (i 0).val < 1 + 1 := h 0
    have a1 : 0 ≤ (i 1).val ∧ (i 1).val < 0 + 1 := h 1
    have a2 : 0 ≤ (i 2).val ∧ (i 2).val < 0 + 1 := h 2
    show (i 0).val * 12 + (i 1).val * 3 + (i 2).val = 12; omega
  · have h' : (i 0).val * 12 + (i 1).val * 3 + (i 2).val = 12 := h
    match a with
    | ⟨0, _⟩ => show 1 ≤ (i 0).val ∧ (i 0).val < 1 + 1; omega
    | ⟨1, _⟩ => show 0 ≤ (i 1).val ∧ (i 1).val < 0 + 1; omega
    | ⟨2, _⟩ => show 0 ≤ (i 2).val ∧ (i 2).val < 0 + 1; omega
    | ⟨3, _⟩ => show 0 ≤ (i 3).val ∧ (i 3).val < 0 + 256; omega
    | ⟨4, _⟩ => show 0 ≤ (i 4).val ∧ (i 4).val < 0 + 128; omega

theorem slot_set_8 : (slotM 8).view.set = keySet comKey {12} :=
  Finset.ext fun i => (mem_slot_8 i).trans (mem_keySet.trans Finset.mem_singleton).symm

theorem mem_slot_9 (i : S3x4x3x256x128.Idx) : i ∈ (slotM 9).view.set ↔ comKey i = 15 := by
  have h0 : (i 0).val < 3 := (i 0).isLt
  have h1 : (i 1).val < 4 := (i 1).isLt
  have h2 : (i 2).val < 3 := (i 2).isLt
  have h3 : (i 3).val < 256 := (i 3).isLt
  have h4 : (i 4).val < 128 := (i 4).isLt
  refine (mem_com_slice ![1, 1, 0, 0, 0] _ i).trans ⟨fun h => ?_, fun h a => ?_⟩
  · have a0 : 1 ≤ (i 0).val ∧ (i 0).val < 1 + 1 := h 0
    have a1 : 1 ≤ (i 1).val ∧ (i 1).val < 1 + 1 := h 1
    have a2 : 0 ≤ (i 2).val ∧ (i 2).val < 0 + 1 := h 2
    show (i 0).val * 12 + (i 1).val * 3 + (i 2).val = 15; omega
  · have h' : (i 0).val * 12 + (i 1).val * 3 + (i 2).val = 15 := h
    match a with
    | ⟨0, _⟩ => show 1 ≤ (i 0).val ∧ (i 0).val < 1 + 1; omega
    | ⟨1, _⟩ => show 1 ≤ (i 1).val ∧ (i 1).val < 1 + 1; omega
    | ⟨2, _⟩ => show 0 ≤ (i 2).val ∧ (i 2).val < 0 + 1; omega
    | ⟨3, _⟩ => show 0 ≤ (i 3).val ∧ (i 3).val < 0 + 256; omega
    | ⟨4, _⟩ => show 0 ≤ (i 4).val ∧ (i 4).val < 0 + 128; omega

theorem slot_set_9 : (slotM 9).view.set = keySet comKey {15} :=
  Finset.ext fun i => (mem_slot_9 i).trans (mem_keySet.trans Finset.mem_singleton).symm

theorem mem_slot_10 (i : S3x4x3x256x128.Idx) : i ∈ (slotM 10).view.set ↔ comKey i = 18 := by
  have h0 : (i 0).val < 3 := (i 0).isLt
  have h1 : (i 1).val < 4 := (i 1).isLt
  have h2 : (i 2).val < 3 := (i 2).isLt
  have h3 : (i 3).val < 256 := (i 3).isLt
  have h4 : (i 4).val < 128 := (i 4).isLt
  refine (mem_com_slice ![1, 2, 0, 0, 0] _ i).trans ⟨fun h => ?_, fun h a => ?_⟩
  · have a0 : 1 ≤ (i 0).val ∧ (i 0).val < 1 + 1 := h 0
    have a1 : 2 ≤ (i 1).val ∧ (i 1).val < 2 + 1 := h 1
    have a2 : 0 ≤ (i 2).val ∧ (i 2).val < 0 + 1 := h 2
    show (i 0).val * 12 + (i 1).val * 3 + (i 2).val = 18; omega
  · have h' : (i 0).val * 12 + (i 1).val * 3 + (i 2).val = 18 := h
    match a with
    | ⟨0, _⟩ => show 1 ≤ (i 0).val ∧ (i 0).val < 1 + 1; omega
    | ⟨1, _⟩ => show 2 ≤ (i 1).val ∧ (i 1).val < 2 + 1; omega
    | ⟨2, _⟩ => show 0 ≤ (i 2).val ∧ (i 2).val < 0 + 1; omega
    | ⟨3, _⟩ => show 0 ≤ (i 3).val ∧ (i 3).val < 0 + 256; omega
    | ⟨4, _⟩ => show 0 ≤ (i 4).val ∧ (i 4).val < 0 + 128; omega

theorem slot_set_10 : (slotM 10).view.set = keySet comKey {18} :=
  Finset.ext fun i => (mem_slot_10 i).trans (mem_keySet.trans Finset.mem_singleton).symm

theorem mem_slot_11 (i : S3x4x3x256x128.Idx) : i ∈ (slotM 11).view.set ↔ comKey i = 19 := by
  have h0 : (i 0).val < 3 := (i 0).isLt
  have h1 : (i 1).val < 4 := (i 1).isLt
  have h2 : (i 2).val < 3 := (i 2).isLt
  have h3 : (i 3).val < 256 := (i 3).isLt
  have h4 : (i 4).val < 128 := (i 4).isLt
  refine (mem_com_slice ![1, 2, 1, 0, 0] _ i).trans ⟨fun h => ?_, fun h a => ?_⟩
  · have a0 : 1 ≤ (i 0).val ∧ (i 0).val < 1 + 1 := h 0
    have a1 : 2 ≤ (i 1).val ∧ (i 1).val < 2 + 1 := h 1
    have a2 : 1 ≤ (i 2).val ∧ (i 2).val < 1 + 1 := h 2
    show (i 0).val * 12 + (i 1).val * 3 + (i 2).val = 19; omega
  · have h' : (i 0).val * 12 + (i 1).val * 3 + (i 2).val = 19 := h
    match a with
    | ⟨0, _⟩ => show 1 ≤ (i 0).val ∧ (i 0).val < 1 + 1; omega
    | ⟨1, _⟩ => show 2 ≤ (i 1).val ∧ (i 1).val < 2 + 1; omega
    | ⟨2, _⟩ => show 1 ≤ (i 2).val ∧ (i 2).val < 1 + 1; omega
    | ⟨3, _⟩ => show 0 ≤ (i 3).val ∧ (i 3).val < 0 + 256; omega
    | ⟨4, _⟩ => show 0 ≤ (i 4).val ∧ (i 4).val < 0 + 128; omega

theorem slot_set_11 : (slotM 11).view.set = keySet comKey {19} :=
  Finset.ext fun i => (mem_slot_11 i).trans (mem_keySet.trans Finset.mem_singleton).symm

theorem mem_slot_12 (i : S3x4x3x256x128.Idx) : i ∈ (slotM 12).view.set ↔ comKey i = 20 := by
  have h0 : (i 0).val < 3 := (i 0).isLt
  have h1 : (i 1).val < 4 := (i 1).isLt
  have h2 : (i 2).val < 3 := (i 2).isLt
  have h3 : (i 3).val < 256 := (i 3).isLt
  have h4 : (i 4).val < 128 := (i 4).isLt
  refine (mem_com_slice ![1, 2, 2, 0, 0] _ i).trans ⟨fun h => ?_, fun h a => ?_⟩
  · have a0 : 1 ≤ (i 0).val ∧ (i 0).val < 1 + 1 := h 0
    have a1 : 2 ≤ (i 1).val ∧ (i 1).val < 2 + 1 := h 1
    have a2 : 2 ≤ (i 2).val ∧ (i 2).val < 2 + 1 := h 2
    show (i 0).val * 12 + (i 1).val * 3 + (i 2).val = 20; omega
  · have h' : (i 0).val * 12 + (i 1).val * 3 + (i 2).val = 20 := h
    match a with
    | ⟨0, _⟩ => show 1 ≤ (i 0).val ∧ (i 0).val < 1 + 1; omega
    | ⟨1, _⟩ => show 2 ≤ (i 1).val ∧ (i 1).val < 2 + 1; omega
    | ⟨2, _⟩ => show 2 ≤ (i 2).val ∧ (i 2).val < 2 + 1; omega
    | ⟨3, _⟩ => show 0 ≤ (i 3).val ∧ (i 3).val < 0 + 256; omega
    | ⟨4, _⟩ => show 0 ≤ (i 4).val ∧ (i 4).val < 0 + 128; omega

theorem slot_set_12 : (slotM 12).view.set = keySet comKey {20} :=
  Finset.ext fun i => (mem_slot_12 i).trans (mem_keySet.trans Finset.mem_singleton).symm

theorem mem_slot_13 (i : S3x4x3x256x128.Idx) : i ∈ (slotM 13).view.set ↔ comKey i = 21 := by
  have h0 : (i 0).val < 3 := (i 0).isLt
  have h1 : (i 1).val < 4 := (i 1).isLt
  have h2 : (i 2).val < 3 := (i 2).isLt
  have h3 : (i 3).val < 256 := (i 3).isLt
  have h4 : (i 4).val < 128 := (i 4).isLt
  refine (mem_com_slice ![1, 3, 0, 0, 0] _ i).trans ⟨fun h => ?_, fun h a => ?_⟩
  · have a0 : 1 ≤ (i 0).val ∧ (i 0).val < 1 + 1 := h 0
    have a1 : 3 ≤ (i 1).val ∧ (i 1).val < 3 + 1 := h 1
    have a2 : 0 ≤ (i 2).val ∧ (i 2).val < 0 + 1 := h 2
    show (i 0).val * 12 + (i 1).val * 3 + (i 2).val = 21; omega
  · have h' : (i 0).val * 12 + (i 1).val * 3 + (i 2).val = 21 := h
    match a with
    | ⟨0, _⟩ => show 1 ≤ (i 0).val ∧ (i 0).val < 1 + 1; omega
    | ⟨1, _⟩ => show 3 ≤ (i 1).val ∧ (i 1).val < 3 + 1; omega
    | ⟨2, _⟩ => show 0 ≤ (i 2).val ∧ (i 2).val < 0 + 1; omega
    | ⟨3, _⟩ => show 0 ≤ (i 3).val ∧ (i 3).val < 0 + 256; omega
    | ⟨4, _⟩ => show 0 ≤ (i 4).val ∧ (i 4).val < 0 + 128; omega

theorem slot_set_13 : (slotM 13).view.set = keySet comKey {21} :=
  Finset.ext fun i => (mem_slot_13 i).trans (mem_keySet.trans Finset.mem_singleton).symm

theorem mem_slot_14 (i : S3x4x3x256x128.Idx) : i ∈ (slotM 14).view.set ↔ comKey i = 24 := by
  have h0 : (i 0).val < 3 := (i 0).isLt
  have h1 : (i 1).val < 4 := (i 1).isLt
  have h2 : (i 2).val < 3 := (i 2).isLt
  have h3 : (i 3).val < 256 := (i 3).isLt
  have h4 : (i 4).val < 128 := (i 4).isLt
  refine (mem_com_slice ![2, 0, 0, 0, 0] _ i).trans ⟨fun h => ?_, fun h a => ?_⟩
  · have a0 : 2 ≤ (i 0).val ∧ (i 0).val < 2 + 1 := h 0
    have a1 : 0 ≤ (i 1).val ∧ (i 1).val < 0 + 1 := h 1
    have a2 : 0 ≤ (i 2).val ∧ (i 2).val < 0 + 1 := h 2
    show (i 0).val * 12 + (i 1).val * 3 + (i 2).val = 24; omega
  · have h' : (i 0).val * 12 + (i 1).val * 3 + (i 2).val = 24 := h
    match a with
    | ⟨0, _⟩ => show 2 ≤ (i 0).val ∧ (i 0).val < 2 + 1; omega
    | ⟨1, _⟩ => show 0 ≤ (i 1).val ∧ (i 1).val < 0 + 1; omega
    | ⟨2, _⟩ => show 0 ≤ (i 2).val ∧ (i 2).val < 0 + 1; omega
    | ⟨3, _⟩ => show 0 ≤ (i 3).val ∧ (i 3).val < 0 + 256; omega
    | ⟨4, _⟩ => show 0 ≤ (i 4).val ∧ (i 4).val < 0 + 128; omega

theorem slot_set_14 : (slotM 14).view.set = keySet comKey {24} :=
  Finset.ext fun i => (mem_slot_14 i).trans (mem_keySet.trans Finset.mem_singleton).symm

theorem mem_slot_15 (i : S3x4x3x256x128.Idx) : i ∈ (slotM 15).view.set ↔ comKey i = 27 := by
  have h0 : (i 0).val < 3 := (i 0).isLt
  have h1 : (i 1).val < 4 := (i 1).isLt
  have h2 : (i 2).val < 3 := (i 2).isLt
  have h3 : (i 3).val < 256 := (i 3).isLt
  have h4 : (i 4).val < 128 := (i 4).isLt
  refine (mem_com_slice ![2, 1, 0, 0, 0] _ i).trans ⟨fun h => ?_, fun h a => ?_⟩
  · have a0 : 2 ≤ (i 0).val ∧ (i 0).val < 2 + 1 := h 0
    have a1 : 1 ≤ (i 1).val ∧ (i 1).val < 1 + 1 := h 1
    have a2 : 0 ≤ (i 2).val ∧ (i 2).val < 0 + 1 := h 2
    show (i 0).val * 12 + (i 1).val * 3 + (i 2).val = 27; omega
  · have h' : (i 0).val * 12 + (i 1).val * 3 + (i 2).val = 27 := h
    match a with
    | ⟨0, _⟩ => show 2 ≤ (i 0).val ∧ (i 0).val < 2 + 1; omega
    | ⟨1, _⟩ => show 1 ≤ (i 1).val ∧ (i 1).val < 1 + 1; omega
    | ⟨2, _⟩ => show 0 ≤ (i 2).val ∧ (i 2).val < 0 + 1; omega
    | ⟨3, _⟩ => show 0 ≤ (i 3).val ∧ (i 3).val < 0 + 256; omega
    | ⟨4, _⟩ => show 0 ≤ (i 4).val ∧ (i 4).val < 0 + 128; omega

theorem slot_set_15 : (slotM 15).view.set = keySet comKey {27} :=
  Finset.ext fun i => (mem_slot_15 i).trans (mem_keySet.trans Finset.mem_singleton).symm

theorem mem_slot_16 (i : S3x4x3x256x128.Idx) : i ∈ (slotM 16).view.set ↔ comKey i = 28 := by
  have h0 : (i 0).val < 3 := (i 0).isLt
  have h1 : (i 1).val < 4 := (i 1).isLt
  have h2 : (i 2).val < 3 := (i 2).isLt
  have h3 : (i 3).val < 256 := (i 3).isLt
  have h4 : (i 4).val < 128 := (i 4).isLt
  refine (mem_com_slice ![2, 1, 1, 0, 0] _ i).trans ⟨fun h => ?_, fun h a => ?_⟩
  · have a0 : 2 ≤ (i 0).val ∧ (i 0).val < 2 + 1 := h 0
    have a1 : 1 ≤ (i 1).val ∧ (i 1).val < 1 + 1 := h 1
    have a2 : 1 ≤ (i 2).val ∧ (i 2).val < 1 + 1 := h 2
    show (i 0).val * 12 + (i 1).val * 3 + (i 2).val = 28; omega
  · have h' : (i 0).val * 12 + (i 1).val * 3 + (i 2).val = 28 := h
    match a with
    | ⟨0, _⟩ => show 2 ≤ (i 0).val ∧ (i 0).val < 2 + 1; omega
    | ⟨1, _⟩ => show 1 ≤ (i 1).val ∧ (i 1).val < 1 + 1; omega
    | ⟨2, _⟩ => show 1 ≤ (i 2).val ∧ (i 2).val < 1 + 1; omega
    | ⟨3, _⟩ => show 0 ≤ (i 3).val ∧ (i 3).val < 0 + 256; omega
    | ⟨4, _⟩ => show 0 ≤ (i 4).val ∧ (i 4).val < 0 + 128; omega

theorem slot_set_16 : (slotM 16).view.set = keySet comKey {28} :=
  Finset.ext fun i => (mem_slot_16 i).trans (mem_keySet.trans Finset.mem_singleton).symm

theorem mem_slot_17 (i : S3x4x3x256x128.Idx) : i ∈ (slotM 17).view.set ↔ comKey i = 29 := by
  have h0 : (i 0).val < 3 := (i 0).isLt
  have h1 : (i 1).val < 4 := (i 1).isLt
  have h2 : (i 2).val < 3 := (i 2).isLt
  have h3 : (i 3).val < 256 := (i 3).isLt
  have h4 : (i 4).val < 128 := (i 4).isLt
  refine (mem_com_slice ![2, 1, 2, 0, 0] _ i).trans ⟨fun h => ?_, fun h a => ?_⟩
  · have a0 : 2 ≤ (i 0).val ∧ (i 0).val < 2 + 1 := h 0
    have a1 : 1 ≤ (i 1).val ∧ (i 1).val < 1 + 1 := h 1
    have a2 : 2 ≤ (i 2).val ∧ (i 2).val < 2 + 1 := h 2
    show (i 0).val * 12 + (i 1).val * 3 + (i 2).val = 29; omega
  · have h' : (i 0).val * 12 + (i 1).val * 3 + (i 2).val = 29 := h
    match a with
    | ⟨0, _⟩ => show 2 ≤ (i 0).val ∧ (i 0).val < 2 + 1; omega
    | ⟨1, _⟩ => show 1 ≤ (i 1).val ∧ (i 1).val < 1 + 1; omega
    | ⟨2, _⟩ => show 2 ≤ (i 2).val ∧ (i 2).val < 2 + 1; omega
    | ⟨3, _⟩ => show 0 ≤ (i 3).val ∧ (i 3).val < 0 + 256; omega
    | ⟨4, _⟩ => show 0 ≤ (i 4).val ∧ (i 4).val < 0 + 128; omega

theorem slot_set_17 : (slotM 17).view.set = keySet comKey {29} :=
  Finset.ext fun i => (mem_slot_17 i).trans (mem_keySet.trans Finset.mem_singleton).symm

theorem mem_slot_18 (i : S3x4x3x256x128.Idx) : i ∈ (slotM 18).view.set ↔ comKey i = 30 := by
  have h0 : (i 0).val < 3 := (i 0).isLt
  have h1 : (i 1).val < 4 := (i 1).isLt
  have h2 : (i 2).val < 3 := (i 2).isLt
  have h3 : (i 3).val < 256 := (i 3).isLt
  have h4 : (i 4).val < 128 := (i 4).isLt
  refine (mem_com_slice ![2, 2, 0, 0, 0] _ i).trans ⟨fun h => ?_, fun h a => ?_⟩
  · have a0 : 2 ≤ (i 0).val ∧ (i 0).val < 2 + 1 := h 0
    have a1 : 2 ≤ (i 1).val ∧ (i 1).val < 2 + 1 := h 1
    have a2 : 0 ≤ (i 2).val ∧ (i 2).val < 0 + 1 := h 2
    show (i 0).val * 12 + (i 1).val * 3 + (i 2).val = 30; omega
  · have h' : (i 0).val * 12 + (i 1).val * 3 + (i 2).val = 30 := h
    match a with
    | ⟨0, _⟩ => show 2 ≤ (i 0).val ∧ (i 0).val < 2 + 1; omega
    | ⟨1, _⟩ => show 2 ≤ (i 1).val ∧ (i 1).val < 2 + 1; omega
    | ⟨2, _⟩ => show 0 ≤ (i 2).val ∧ (i 2).val < 0 + 1; omega
    | ⟨3, _⟩ => show 0 ≤ (i 3).val ∧ (i 3).val < 0 + 256; omega
    | ⟨4, _⟩ => show 0 ≤ (i 4).val ∧ (i 4).val < 0 + 128; omega

theorem slot_set_18 : (slotM 18).view.set = keySet comKey {30} :=
  Finset.ext fun i => (mem_slot_18 i).trans (mem_keySet.trans Finset.mem_singleton).symm

theorem mem_slot_19 (i : S3x4x3x256x128.Idx) : i ∈ (slotM 19).view.set ↔ comKey i = 33 := by
  have h0 : (i 0).val < 3 := (i 0).isLt
  have h1 : (i 1).val < 4 := (i 1).isLt
  have h2 : (i 2).val < 3 := (i 2).isLt
  have h3 : (i 3).val < 256 := (i 3).isLt
  have h4 : (i 4).val < 128 := (i 4).isLt
  refine (mem_com_slice ![2, 3, 0, 0, 0] _ i).trans ⟨fun h => ?_, fun h a => ?_⟩
  · have a0 : 2 ≤ (i 0).val ∧ (i 0).val < 2 + 1 := h 0
    have a1 : 3 ≤ (i 1).val ∧ (i 1).val < 3 + 1 := h 1
    have a2 : 0 ≤ (i 2).val ∧ (i 2).val < 0 + 1 := h 2
    show (i 0).val * 12 + (i 1).val * 3 + (i 2).val = 33; omega
  · have h' : (i 0).val * 12 + (i 1).val * 3 + (i 2).val = 33 := h
    match a with
    | ⟨0, _⟩ => show 2 ≤ (i 0).val ∧ (i 0).val < 2 + 1; omega
    | ⟨1, _⟩ => show 3 ≤ (i 1).val ∧ (i 1).val < 3 + 1; omega
    | ⟨2, _⟩ => show 0 ≤ (i 2).val ∧ (i 2).val < 0 + 1; omega
    | ⟨3, _⟩ => show 0 ≤ (i 3).val ∧ (i 3).val < 0 + 256; omega
    | ⟨4, _⟩ => show 0 ≤ (i 4).val ∧ (i 4).val < 0 + 128; omega

theorem slot_set_19 : (slotM 19).view.set = keySet comKey {33} :=
  Finset.ext fun i => (mem_slot_19 i).trans (mem_keySet.trans Finset.mem_singleton).symm

/-- The keys of the sixteen slots no copy uses. -/
def restKeys : Finset ℕ := [0, 1, 2, 3, 6, 9, 10, 11, 12, 15, 18, 19, 20, 21, 24, 27, 28, 29, 30, 33].foldl Finset.erase (Finset.range 36)

/-- The part of the receive buffer outside the twenty used slots. -/
def comRest : Finset S3x4x3x256x128.Idx := keySet comKey restKeys

theorem mem_comRest (i : S3x4x3x256x128.Idx) : i ∈ comRest ↔ comKey i ∈ restKeys := mem_keySet

/-- THE RECEIVE BUFFER, held whole, is its twenty used slots and the rest held together. -/
theorem split_com (c : Dev nD) (f : Buf (Elt F) ((c : Thread nD τ).loc cc0_scratch2)) :
    ((((c : Thread nD τ).loc cc0_scratch2) ↦{fullShare} f) : sProp 𝕄)
      ⊣⊢ iprop(slotPts c 0 f ∗ slotPts c 1 f ∗ slotPts c 2 f ∗ slotPts c 3 f ∗ slotPts c 4 f ∗ slotPts c 5 f ∗ slotPts c 6 f ∗ slotPts c 7 f ∗ slotPts c 8 f ∗ slotPts c 9 f ∗ slotPts c 10 f ∗ slotPts c 11 f ∗ slotPts c 12 f ∗ slotPts c 13 f ∗ slotPts c 14 f ∗ slotPts c 15 f ∗ slotPts c 16 f ∗ slotPts c 17 f ∗ slotPts c 18 f ∗ slotPts c 19 f
          ∗ (((c : Thread nD τ).loc cc0_scratch2) ↦[comRest]{fullShare} f)) := by
  have e : (Finset.univ : Finset (Idx ((c : Thread nD τ).loc cc0_scratch2))) = keySet comKey (Finset.range 36) :=
    (keySet_range comKey 36 comKey_lt).symm
  have chain :
      ((((c : Thread nD τ).loc cc0_scratch2) ↦[keySet comKey (Finset.range 36)]{fullShare} f) : sProp 𝕄)
        ⊣⊢ iprop((((c : Thread nD τ).loc cc0_scratch2) ↦[(slotM 0).view.set]{fullShare} f)
            ∗ (((c : Thread nD τ).loc cc0_scratch2) ↦[(slotM 1).view.set]{fullShare} f)
            ∗ (((c : Thread nD τ).loc cc0_scratch2) ↦[(slotM 2).view.set]{fullShare} f)
            ∗ (((c : Thread nD τ).loc cc0_scratch2) ↦[(slotM 3).view.set]{fullShare} f)
            ∗ (((c : Thread nD τ).loc cc0_scratch2) ↦[(slotM 4).view.set]{fullShare} f)
            ∗ (((c : Thread nD τ).loc cc0_scratch2) ↦[(slotM 5).view.set]{fullShare} f)
            ∗ (((c : Thread nD τ).loc cc0_scratch2) ↦[(slotM 6).view.set]{fullShare} f)
            ∗ (((c : Thread nD τ).loc cc0_scratch2) ↦[(slotM 7).view.set]{fullShare} f)
            ∗ (((c : Thread nD τ).loc cc0_scratch2) ↦[(slotM 8).view.set]{fullShare} f)
            ∗ (((c : Thread nD τ).loc cc0_scratch2) ↦[(slotM 9).view.set]{fullShare} f)
            ∗ (((c : Thread nD τ).loc cc0_scratch2) ↦[(slotM 10).view.set]{fullShare} f)
            ∗ (((c : Thread nD τ).loc cc0_scratch2) ↦[(slotM 11).view.set]{fullShare} f)
            ∗ (((c : Thread nD τ).loc cc0_scratch2) ↦[(slotM 12).view.set]{fullShare} f)
            ∗ (((c : Thread nD τ).loc cc0_scratch2) ↦[(slotM 13).view.set]{fullShare} f)
            ∗ (((c : Thread nD τ).loc cc0_scratch2) ↦[(slotM 14).view.set]{fullShare} f)
            ∗ (((c : Thread nD τ).loc cc0_scratch2) ↦[(slotM 15).view.set]{fullShare} f)
            ∗ (((c : Thread nD τ).loc cc0_scratch2) ↦[(slotM 16).view.set]{fullShare} f)
            ∗ (((c : Thread nD τ).loc cc0_scratch2) ↦[(slotM 17).view.set]{fullShare} f)
            ∗ (((c : Thread nD τ).loc cc0_scratch2) ↦[(slotM 18).view.set]{fullShare} f)
            ∗ (((c : Thread nD τ).loc cc0_scratch2) ↦[(slotM 19).view.set]{fullShare} f)
            ∗ (((c : Thread nD τ).loc cc0_scratch2) ↦[comRest]{fullShare} f)) :=
    key_step (ℓ := (c : Thread nD τ).loc cc0_scratch2) comKey fullShare f _ 0 _ slot_set_0 (by decide)
      (key_step (ℓ := (c : Thread nD τ).loc cc0_scratch2) comKey fullShare f _ 1 _ slot_set_1 (by decide)
      (key_step (ℓ := (c : Thread nD τ).loc cc0_scratch2) comKey fullShare f _ 2 _ slot_set_2 (by decide)
      (key_step (ℓ := (c : Thread nD τ).loc cc0_scratch2) comKey fullShare f _ 3 _ slot_set_3 (by decide)
      (key_step (ℓ := (c : Thread nD τ).loc cc0_scratch2) comKey fullShare f _ 6 _ slot_set_4 (by decide)
      (key_step (ℓ := (c : Thread nD τ).loc cc0_scratch2) comKey fullShare f _ 9 _ slot_set_5 (by decide)
      (key_step (ℓ := (c : Thread nD τ).loc cc0_scratch2) comKey fullShare f _ 10 _ slot_set_6 (by decide)
      (key_step (ℓ := (c : Thread nD τ).loc cc0_scratch2) comKey fullShare f _ 11 _ slot_set_7 (by decide)
      (key_step (ℓ := (c : Thread nD τ).loc cc0_scratch2) comKey fullShare f _ 12 _ slot_set_8 (by decide)
      (key_step (ℓ := (c : Thread nD τ).loc cc0_scratch2) comKey fullShare f _ 15 _ slot_set_9 (by decide)
      (key_step (ℓ := (c : Thread nD τ).loc cc0_scratch2) comKey fullShare f _ 18 _ slot_set_10 (by decide)
      (key_step (ℓ := (c : Thread nD τ).loc cc0_scratch2) comKey fullShare f _ 19 _ slot_set_11 (by decide)
      (key_step (ℓ := (c : Thread nD τ).loc cc0_scratch2) comKey fullShare f _ 20 _ slot_set_12 (by decide)
      (key_step (ℓ := (c : Thread nD τ).loc cc0_scratch2) comKey fullShare f _ 21 _ slot_set_13 (by decide)
      (key_step (ℓ := (c : Thread nD τ).loc cc0_scratch2) comKey fullShare f _ 24 _ slot_set_14 (by decide)
      (key_step (ℓ := (c : Thread nD τ).loc cc0_scratch2) comKey fullShare f _ 27 _ slot_set_15 (by decide)
      (key_step (ℓ := (c : Thread nD τ).loc cc0_scratch2) comKey fullShare f _ 28 _ slot_set_16 (by decide)
      (key_step (ℓ := (c : Thread nD τ).loc cc0_scratch2) comKey fullShare f _ 29 _ slot_set_17 (by decide)
      (key_step (ℓ := (c : Thread nD τ).loc cc0_scratch2) comKey fullShare f _ 30 _ slot_set_18 (by decide)
      (key_step (ℓ := (c : Thread nD τ).loc cc0_scratch2) comKey fullShare f _ 33 _ slot_set_19 (by decide)
      ((BiEntails.rfl)))))))))))))))))))))
  rw [e]
  exact chain

/-! ## A slice along its share: three third parts -/

/-- A chunk slice held whole is its three third parts held together. -/
theorem third_split (c : Dev nD) (ch : Fin 4) (f : Buf (Elt F) ((srcM ch).view.loc (c : Thread nD τ))) :
    (srcPts c ch fullShare f : sProp 𝕄)
      ⊣⊢ iprop(srcPts c ch fullShare.left f ∗ srcPts c ch fullShare.right.left f ∗ srcPts c ch fullShare.right.right f) := by
  unfold srcPts
  exact (Region.is_share (PosShare.mem_left_op_right fullShare)).trans
    (sep_congr_right (Region.is_share (PosShare.mem_left_op_right fullShare.right)))

/-- Two holders of complementary shares of a slice agree on it, and together hold the composite share. -/
theorem src_join (c : Dev nD) (ch : Fin 4) {q q₁ q₂ : PosShare TreeShare} (hq : q ∈ q₁ ·? q₂)
    (f g : Buf (Elt F) ((srcM ch).view.loc (c : Thread nD τ))) :
    iprop(srcPts c ch q₁ f ∗ srcPts c ch q₂ g) ⊢ (srcPts c ch q f : sProp 𝕄) := by
  unfold srcPts
  refine Laws.pure_elim _ Region.is_agree fun h => ?_
  have e : (((srcM ch).view.loc (c : Thread nD τ) ↦[(srcM ch).view.set]{q₂} g) : sProp 𝕄)
      = ((srcM ch).view.loc (c : Thread nD τ) ↦[(srcM ch).view.set]{q₂} f) :=
    Region.is_congr fun i hi => ((h i (Finset.mem_inter.2 ⟨hi, hi⟩)).1).symm
  rw [e]
  exact (Region.is_share hq).2

/-- Three holders of the third parts, each at contents of its own, hold the slice whole at one contents. -/
theorem third_join_ex (c : Dev nD) (ch : Fin 4) :
    iprop((∃ f, srcPts (F := F) c ch fullShare.left f) ∗ (∃ f, srcPts (F := F) c ch fullShare.right.left f)
        ∗ (∃ f, srcPts (F := F) c ch fullShare.right.right f))
      ⊢ (iprop(∃ f, srcPts (F := F) c ch fullShare f) : sProp 𝕄) := by
  iintro ⟨⟨%f1, H1⟩, ⟨%f2, H2⟩, ⟨%f3, H3⟩⟩
  iexists f1
  ihave H23 := (src_join c ch (PosShare.mem_left_op_right fullShare.right) f2 f3) $$ [H2 H3]
  · isplitl [H2]; · iexact H2
    iexact H3
  iapply (src_join c ch (PosShare.mem_left_op_right fullShare) f1 f2)
  isplitl [H1]; · iexact H1
  iexact H23

/-! ## Contents that agree on a slice -/

theorem srcPts_congr (c : Dev nD) (ch : Fin 4) (q : PosShare TreeShare) (f g : Buf (Elt F) ((srcM ch).view.loc (c : Thread nD τ)))
    (h : ∀ i ∈ (srcM ch).view.set, f i = g i) : (srcPts c ch q f : sProp 𝕄) = srcPts c ch q g := by
  unfold srcPts; exact Region.is_congr h

theorem srcPts_equiv (c : Dev nD) (ch : Fin 4) (q : PosShare TreeShare) (f g : Buf (Elt F) ((srcM ch).view.loc (c : Thread nD τ)))
    (h : ∀ i ∈ (srcM ch).view.set, f i = g i) : (srcPts c ch q f : sProp 𝕄) ⊣⊢ srcPts c ch q g :=
  BiEntails.of_eq (srcPts_congr c ch q f g h)

theorem slotPts_congr (p : Dev nD) (s : Fin 20) (f g : Buf (Elt F) ((slotM s).view.loc (p : Thread nD τ)))
    (h : ∀ i ∈ (slotM s).view.set, f i = g i) : (slotPts p s f : sProp 𝕄) = slotPts p s g := by
  unfold slotPts; exact Region.is_congr h

theorem slotPts_equiv (p : Dev nD) (s : Fin 20) (f g : Buf (Elt F) ((slotM s).view.loc (p : Thread nD τ)))
    (h : ∀ i ∈ (slotM s).view.set, f i = g i) : (slotPts p s f : sProp 𝕄) ⊣⊢ slotPts p s g :=
  BiEntails.of_eq (slotPts_congr p s f g h)

end Cert.KernelIdeal.Regions

end

/-- info: 'Cert.KernelIdeal.Regions.split_snd' depends on axioms: [propext, Classical.choice, Quot.sound] -/
#guard_msgs in #print axioms Cert.KernelIdeal.Regions.split_snd

/-- info: 'Cert.KernelIdeal.Regions.split_com' depends on axioms: [propext, Classical.choice, Quot.sound] -/
#guard_msgs in #print axioms Cert.KernelIdeal.Regions.split_com

/-- info: 'Cert.KernelIdeal.Regions.third_split' depends on axioms: [propext, Classical.choice, Quot.sound] -/
#guard_msgs in #print axioms Cert.KernelIdeal.Regions.third_split

/-- info: 'Cert.KernelIdeal.Regions.third_join_ex' depends on axioms: [propext, Classical.choice, Quot.sound] -/
#guard_msgs in #print axioms Cert.KernelIdeal.Regions.third_join_ex
-- ==== Proof.KernelIdealSteps.lean ====
/-
  The exchange protocol's steps, one lemma each: an entry signal to a partner's barrier, the wait on one's own barrier,
  the start of a copy to a partner, and the two waits of a copy (the source given back; the landing received). Each is
  the rounds rule for that kind of step, read at this kernel's schedule, with the schedule's tables for the cell in
  question already consulted: which duty is paid, what it carries, how much credit it is worth.
-/
import proofs.«900514_g7700000000000515_dist_attn_self_mha_htp_b2_sq128_skv128_d512_hq8_dh64_v7x_i16_bf16_1_alg».proof.Proof.KernelIdealProto
import proofs.«900514_g7700000000000515_dist_attn_self_mha_htp_b2_sq128_skv128_d512_hq8_dh64_v7x_i16_bf16_1_alg».proof.Proof.KernelIdealRegions
import Idealize.ShloMosaic.Lib.Rounds
import Idealize.ShloMosaic.Lib.Pipeline.Value

noncomputable section

namespace Cert.KernelIdeal.Steps

open Cert.KernelIdeal Cert.KernelIdeal.Gen Cert.KernelIdeal.Terms Cert.KernelIdeal.Proto Cert.KernelIdeal.Regions

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Two buffers written whole through one view agree under the view -/

/-- Whatever two buffers held, after the same payload is written through a view on every index they agree on the
    elements under the view. -/
theorem write_congr_set {σ : RefSig} {κ : Kind} {sp : Space} {S : Shape} {e : EltTy} {Val : EltTy → Type}
    (v : View σ κ sp S e) (f g : v.ty.Contents Val) (w : S.Idx → Val e) :
    ∀ i ∈ v.set, v.write Val f w Finset.univ i = v.write Val g w Finset.univ i := by
  intro i hi
  obtain ⟨y, rfl⟩ := View.exists_emb_of_mem_set v hi
  rw [View.write_emb_of_mem f w (Finset.mem_univ y), View.write_emb_of_mem g w (Finset.mem_univ y)]

/-! ## The entry signal -/

/-- Device `c` signals partner `i`'s barrier once: duty `i` of that barrier's round, paid with `c`'s own four receive
    slots that this partner will write, and struck off what `c` owes. -/
theorem signal_step {α : Type} {Q : α → sProp 𝕄} {k : PUnit → Prog (TpuEff nD τ sig (Elt F) Λ₀ .tc) α}
    (c : Dev nD) (i : Fin 5) (κ : ℕ) (O : CellTallies nD τ sig Unit) (W : Waits sig Unit) (n : ℕ) (hn : n = 1) :
    iprop(cellInv ER (sched m) κ (barCell (px i c)) ∗ owes (c : Thread nD τ) (O + sigDue c i) W
        ∗ dutyTok ER (barCell (px i c)) 0 i ∗ barPay (F := F) i c ∗ reached ER (barCell (px i c)) 0)
      ⊢ iprop((owes (c : Thread nD τ) O W -∗ wp frame (wpE (defs₀ (F := F)) Variants.none (c : Thread nD τ) none) Set.univ (k ⟨⟩) Q)
          -∗ wp frame (wpE (defs₀ (F := F)) Variants.none (c : Thread nD τ) none) Set.univ (.op (.semSignal (px i c : Thread nD τ) barS n) k) Q) := by
  subst hn
  rw [← payload_bar_peer m c i]
  exact Rounds.wp_signal Variants.none ER (sched m) (c : Thread nD τ) none (defs := defs₀ (F := F))
    (dst := (px i c : Thread nD τ)) (sem := barS) (r := 0) (d := i) (k' := 1) (κ := κ)
    (by rw [duties_bar]; exact Finset.mem_univ _) (amount_bar m (px i c) i) () O rfl

/-! ## The wait on one's own barrier -/

/-- Device `c` waits for its five partners' signals: it comes back with what each handed over, the four of that
    partner's receive slots that `c` writes. -/
theorem bar_wait_step {α : Type} {Q : α → sProp 𝕄} {k : PUnit → Prog (TpuEff nD τ sig (Elt F) Λ₀ .tc) α}
    (c : Dev nD) (κ : ℕ) (O : CellTallies nD τ sig Unit) (W : Waits sig Unit) (n : ℕ) (hn : n = 5)
    (hmw : (levAts L lv : sProp 𝕄) ⊢ MayWait (c : Thread nD τ) (.reg barS) () O) :
    iprop(cellInv ER (sched m) κ (barCell c) ∗ cred (tallyAt (barCell c) () 5) ∗ owes (c : Thread nD τ) O W
        ∗ levAts L lv ∗ atPos ER (barCell c) 0 ∅ 0)
      ⊢ iprop(((owes (c : Thread nD τ) O (insert (SemLoc.reg barS, ()) W) ∗ atPos ER (barCell c) 1 ∅ 0 ∗ reached ER (barCell c) 1
              ∗ barPay (F := F) 0 (px 0 c) ∗ barPay (F := F) 1 (px 1 c) ∗ barPay (F := F) 2 (px 2 c) ∗ barPay (F := F) 3 (px 3 c) ∗ barPay (F := F) 4 (px 4 c))
            -∗ wp frame (wpE (defs₀ (F := F)) Variants.none (c : Thread nD τ) none) Set.univ (k ⟨⟩) Q)
          -∗ wp frame (wpE (defs₀ (F := F)) Variants.none (c : Thread nD τ) none) Set.univ (.op (.semWait barS n) k) Q) := by
  subst hn
  iintro ⟨Hg, Hc, HO, Hlev, Hat⟩ Hk
  iapply (Rounds.wp_wait_rest_token Variants.none ER (sched m) (c : Thread nD τ) none (defs := defs₀ (F := F)) (κ := κ)
      (wpE_semWait_eq Variants.none (c : Thread nD τ) none Set.univ (sem := barS) (k := 5)) (Set.mem_univ _) ()
      (O := O) (W := W) (R := 0) (m := 0) (T := ∅) (by rw [expect_bar])) $$ [Hg Hc HO Hlev Hat]
  · isplitl [Hg]; · iexact Hg
    isplitl [Hc]; · iexact Hc
    isplitl [HO]; · iexact HO
    isplitl [Hlev]; · iapply hmw; iexact Hlev
    iexact Hat
  iintro ⟨HO, Hat, Hr, Hpay⟩
  ihave Hp := (Entails.of_eq (rest_bar m c)) $$ Hpay
  iapply Hk
  isplitl [HO]; · iexact HO
  isplitl [Hat]; · iexact Hat
  isplitl [Hr]; · iexact Hr
  iexact Hp

/-! ## The start of a copy -/

/-- Device `c` starts copy `s`: from its outgoing slice of the copy's chunk, holding what the copy carries, into the
    partner's receive slot, which `c` owns. The borrowed share of the source comes back on `c`'s send cell; the slot,
    rewritten to hold exactly what the copy carries, goes to the partner on its receive cell; the landing is struck off what `c` owes. -/
theorem send_step {α : Type} {Q : α → sProp 𝕄} {k : PUnit → Prog (TpuEff nD τ sig (Elt F) Λ₀ .tc) α}
    (c : Dev nD) (s : Fin 20) (κs κr : ℕ)
    (fs : Buf (Elt F) ((srcM (slotCh s)).view.loc (c : Thread nD τ)))
    (fd : Buf (Elt F) ((slotM s).view.loc (px (slotX s) c : Thread nD τ)))
    (O : CellTallies nD τ sig Unit) (W : Waits sig Unit)
    (hfs : (srcM (slotCh s)).view.read (Elt F) fs = sent m s c)
    {hsc : (slotM s : Memref sig (Dev.tc (px (slotX s) c) : Thread nD τ).2.kind .vmem S256x128 .bf16).view.ref.isScScratch = false}
    {hsrc : (srcM (slotCh s)).view.WordExact} {hdst : (slotM s).view.WordExact}
    {hsem : DmaTarget.Typed .vmem (.dma (recvSem s)) (.remote (Dev.tc (px (slotX s) c) : Thread nD τ) (slotM s) (.dma (sendSem s)) hsc)} :
    iprop(cellInv ER (sched m) κs (sendCell c s) ∗ cellInv ER (sched m) κr (recvCell (px (slotX s) c) s)
        ∗ srcPts c (slotCh s) (slotShare s) fs ∗ slotPts (px (slotX s) c) s fd
        ∗ owes (c : Thread nD τ) (O + copyDue c s) W
        ∗ dutyTok ER (sendCell c s) 0 0 ∗ reached ER (sendCell c s) 0
        ∗ dutyTok ER (recvCell (px (slotX s) c) s) 0 0 ∗ reached ER (recvCell (px (slotX s) c) s) 0)
      ⊢ iprop(((cred (tallyAt (sendCell c s) () N) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ (.op (.enqueueDma (srcM (slotCh s)) (.remote (Dev.tc (px (slotX s) c) : Thread nD τ) (slotM s) (.dma (sendSem s)) hsc) (.dma (recvSem s)) hsrc hdst hsem) k) Q) := by
  unfold srcPts slotPts
  exact Rounds.wp_send_pointsTo Variants.none ER (sched m) (c : Thread nD τ) none (defs := defs₀ (F := F))
    (c' := (Dev.tc (px (slotX s) c) : Thread nD τ)) (src := srcM (slotCh s)) (dst := slotM s)
    (sS := .dma (sendSem s)) (sem := .dma (recvSem s)) (q := slotShare s) (fs := fs) (fd := fd)
    (κ₁ := κs) (κ₂ := κr) (r₁ := 0) (r₂ := 0) (d₁ := 0) (d₂ := 0)
    (by rw [duties_send]; exact Finset.mem_singleton_self _) (by rw [duties_recv]; exact Finset.mem_singleton_self _)
    () () N (amount_slot s _) (amount_send m c s 0) (amount_recv m (px (slotX s) c) s 0) O rfl (W := W)
    (by rw [payload_send]; unfold sendPay srcPts; iintro H; iexists fs; iexact H)
    (by
      rw [payload_recv]; unfold recvPay
      exact Entails.of_eq (slotPts_congr (px (slotX s) c) s _ _ (by
        intro i hi
        unfold landed
        rw [px_px, ← hfs]
        exact write_congr_set (slotM s).view fd (junk (px (slotX s) c) s) _ i hi)))

/-! ## The two waits of a copy -/

/-- Device `c` waits for copy `s` to have left: the borrowed share of its outgoing slice is back. The wait names any
    destination view whose credit is the copy's. -/
theorem wait_send_step {α : Type} {Q : α → sProp 𝕄} {k : PUnit → Prog (TpuEff nD τ sig (Elt F) Λ₀ .tc) α}
    (c : Dev nD) (s : Fin 20) (κ : ℕ) (O : CellTallies nD τ sig Unit) (W : Waits sig Unit)
    {sp sp' : Space} {sh sh' : Shape} {e e' : EltTy} {src : Memref sig (c : Thread nD τ).2.kind sp' sh' e'} {κ' : Kind}
    {dst : Memref sig κ' sp sh e} {hsrc : src.view.WordExact} {hdst : dst.view.WordExact} (hN : dst.view.dmaCredit = N) :
    iprop(cellInv ER (sched m) κ (sendCell c s) ∗ cred (tallyAt (sendCell c s) () N) ∗ owes (c : Thread nD τ) O W
        ∗ MayWait (c : Thread nD τ) (.dma (sendSem s)) () O ∗ atPos ER (sendCell c s) 0 ∅ 0)
      ⊢ iprop(((owes (c : Thread nD τ) O (insert (SemLoc.dma (sendSem s), ()) W) ∗ atPos ER (sendCell c s) 1 ∅ 0 ∗ reached ER (sendCell c s) 1
              ∗ sendPay (F := F) c s)
            -∗ wp frame (wpE (defs₀ (F := F)) Variants.none (c : Thread nD τ) none) Set.univ (k ⟨⟩) Q)
          -∗ wp frame (wpE (defs₀ (F := F)) Variants.none (c : Thread nD τ) none) Set.univ (.op (.waitDma2 (sendSem s) src dst hsrc hdst) k) Q) := by
  have h := Rounds.wp_wait_rest_token Variants.none ER (sched m) (c : Thread nD τ) none (defs := defs₀ (F := F)) (κ := κ) (α := α) (Q := Q) (k := k)
    (wpE_waitDma2_eq Variants.none (c : Thread nD τ) none Set.univ (sem := sendSem s) (src := src) (dst := dst) (hsrc := hsrc) (hdst := hdst))
    (Set.mem_univ _) () (O := O) (W := W) (R := 0) (m := 0) (T := ∅) (by rw [Nat.zero_add, expect_send, hN])
  rw [rest_send, hN] at h
  exact h

/-- Device `c` waits for the partner's copy `s` to have landed: it receives its slot holding what the partner's copy
    carried. -/
theorem wait_recv_step {α : Type} {Q : α → sProp 𝕄} {k : PUnit → Prog (TpuEff nD τ sig (Elt F) Λ₀ .tc) α}
    (c : Dev nD) (s : Fin 20) (κ : ℕ) (O : CellTallies nD τ sig Unit) (W : Waits sig Unit)
    {sp sp' : Space} {sh sh' : Shape} {e e' : EltTy} {src : Memref sig (c : Thread nD τ).2.kind sp' sh' e'} {κ' : Kind}
    {dst : Memref sig κ' sp sh e} {hsrc : src.view.WordExact} {hdst : dst.view.WordExact} (hN : dst.view.dmaCredit = N) :
    iprop(cellInv ER (sched m) κ (recvCell c s) ∗ cred (tallyAt (recvCell c s) () N) ∗ owes (c : Thread nD τ) O W
        ∗ MayWait (c : Thread nD τ) (.dma (recvSem s)) () O ∗ atPos ER (recvCell c s) 0 ∅ 0)
      ⊢ iprop(((owes (c : Thread nD τ) O (insert (SemLoc.dma (recvSem s), ()) W) ∗ atPos ER (recvCell c s) 1 ∅ 0 ∗ reached ER (recvCell c s) 1
              ∗ recvPay m c s)
            -∗ wp frame (wpE (defs₀ (F := F)) Variants.none (c : Thread nD τ) none) Set.univ (k ⟨⟩) Q)
          -∗ wp frame (wpE (defs₀ (F := F)) Variants.none (c : Thread nD τ) none) Set.univ (.op (.waitDma2 (recvSem s) src dst hsrc hdst) k) Q) := by
  have h := Rounds.wp_wait_rest_token Variants.none ER (sched m) (c : Thread nD τ) none (defs := defs₀ (F := F)) (κ := κ) (α := α) (Q := Q) (k := k)
    (wpE_waitDma2_eq Variants.none (c : Thread nD τ) none Set.univ (sem := recvSem s) (src := src) (dst := dst) (hsrc := hsrc) (hdst := hdst))
    (Set.mem_univ _) () (O := O) (W := W) (R := 0) (m := 0) (T := ∅) (by rw [Nat.zero_add, expect_recv, hN])
  rw [rest_recv, hN] at h
  exact h

/-- info: 'Cert.KernelIdeal.Steps.signal_step' depends on axioms: [propext, Classical.choice, Quot.sound] -/
#guard_msgs in #print axioms signal_step

/-- info: 'Cert.KernelIdeal.Steps.bar_wait_step' depends on axioms: [propext, Classical.choice, Quot.sound] -/
#guard_msgs in #print axioms bar_wait_step

/-- info: 'Cert.KernelIdeal.Steps.send_step' depends on axioms: [propext, Classical.choice, Quot.sound] -/
#guard_msgs in #print axioms send_step

/-- info: 'Cert.KernelIdeal.Steps.wait_send_step' depends on axioms: [propext, Classical.choice, Quot.sound] -/
#guard_msgs in #print axioms wait_send_step

/-- info: 'Cert.KernelIdeal.Steps.wait_recv_step' depends on axioms: [propext, Classical.choice, Quot.sound] -/
#guard_msgs in #print axioms wait_recv_step

end Cert.KernelIdeal.Steps

end
-- ==== Proof.KernelIdealWaits.lean ====
/-
  Deadlock freedom, as levels. A device waits on a cell only while everything it still owes lies strictly above that
  cell: its barrier cell (level 1) and its send cells (level 2) lie below every receive cell (level 10 and up), and the
  receive wait of a step and chunk comes when only copies of later steps, or of the same step and later chunks, are still
  to be started. What the device owes is the chain of the landings of the copies it has not yet started.
-/
import proofs.«900514_g7700000000000515_dist_attn_self_mha_htp_b2_sq128_skv128_d512_hq8_dh64_v7x_i16_bf16_1_alg».proof.Proof.KernelIdealProto
import Idealize.ShloMosaic.Lib.Pipeline.Launch

noncomputable section

namespace Cert.KernelIdeal.Waits

open Cert.KernelIdeal Cert.KernelIdeal.Gen Cert.KernelIdeal.Terms Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The copies from number `n` on are numbered at least `n`. -/
theorem le_of_mem_drop_finRange {n : ℕ} {s : Fin 20} (h : s ∈ (List.finRange 20).drop n) : n ≤ s.val := by
  obtain ⟨i, hi, rfl⟩ := List.mem_iff_getElem.mp h
  rw [List.getElem_drop, List.getElem_finRange]
  exact Nat.le_add_right n i

/-- A positive entry of what is owed from copy `n` on is the landing of one of those copies. -/
theorem copyDues_pos {c : Dev nD} {n : ℕ} {g : GSem nD τ sig} {u : Unit} (h : 0 < owedL (copyDues c n) g u) :
    ∃ s : Fin 20, n ≤ s.val ∧ g = recvCell (px (slotX s) c) s := by
  obtain ⟨p, hp, hpos⟩ := owedL_pos h
  unfold copyDues at hp
  obtain ⟨s, hs, rfl⟩ := List.mem_map.mp hp
  unfold copyDue at hpos
  exact ⟨s, le_of_mem_drop_finRange hs, (Pipeline.tallyAt_pos hpos).1⟩

/-- THE GENERAL WAIT: a device may wait on a cell of its own that lies strictly below the landing of every copy it has
    still to start. -/
theorem mayWait_dues (c : Dev nD) (sm : SemLoc sig) (n : ℕ)
    (h : ∀ s : Fin 20, n ≤ s.val → lv ((c : Thread nD τ), sm) () < lv (recvCell (px (slotX s) c) s) ()) :
    (levAts L lv : sProp 𝕄) ⊢ MayWait (c : Thread nD τ) sm () (owedL (copyDues c n)) :=
  Pipeline.mayWait_of_levAts (by rw [L_tc]; exact Finset.mem_singleton_self _) (fun g u hg => by
    obtain ⟨s, hs, rfl⟩ := copyDues_pos hg
    exact ⟨by rw [L_tc]; exact Finset.mem_singleton_self _, h s hs⟩)

/-! ## The chain of dues, written out -/

theorem dues_0 (c : Dev nD) :
    (0 + tallyAt (recvCell (px 3 c) 19) () N + tallyAt (recvCell (px 3 c) 18) () N + tallyAt (recvCell (px 2 c) 17) () N + tallyAt (recvCell (px 1 c) 16) () N + tallyAt (recvCell (px 0 c) 15) () N + tallyAt (recvCell (px 4 c) 14) () N + tallyAt (recvCell (px 4 c) 13) () N + tallyAt (recvCell (px 2 c) 12) () N + tallyAt (recvCell (px 1 c) 11) () N + tallyAt (recvCell (px 0 c) 10) () N + tallyAt (recvCell (px 4 c) 9) () N + tallyAt (recvCell (px 3 c) 8) () N + tallyAt (recvCell (px 2 c) 7) () N + tallyAt (recvCell (px 1 c) 6) () N + tallyAt (recvCell (px 0 c) 5) () N + tallyAt (recvCell (px 4 c) 4) () N + tallyAt (recvCell (px 3 c) 3) () N + tallyAt (recvCell (px 2 c) 2) () N + tallyAt (recvCell (px 1 c) 1) () N + tallyAt (recvCell (px 0 c) 0) () N : CellTallies nD τ sig Unit)
      = owedL (copyDues c 0) := rfl
theorem dues_8 (c : Dev nD) :
    (0 + tallyAt (recvCell (px 3 c) 19) () N + tallyAt (recvCell (px 3 c) 18) () N + tallyAt (recvCell (px 2 c) 17) () N + tallyAt (recvCell (px 1 c) 16) () N + tallyAt (recvCell (px 0 c) 15) () N + tallyAt (recvCell (px 4 c) 14) () N + tallyAt (recvCell (px 4 c) 13) () N + tallyAt (recvCell (px 2 c) 12) () N + tallyAt (recvCell (px 1 c) 11) () N + tallyAt (recvCell (px 0 c) 10) () N + tallyAt (recvCell (px 4 c) 9) () N + tallyAt (recvCell (px 3 c) 8) () N : CellTallies nD τ sig Unit)
      = owedL (copyDues c 8) := rfl
theorem dues_9 (c : Dev nD) :
    (0 + tallyAt (recvCell (px 3 c) 19) () N + tallyAt (recvCell (px 3 c) 18) () N + tallyAt (recvCell (px 2 c) 17) () N + tallyAt (recvCell (px 1 c) 16) () N + tallyAt (recvCell (px 0 c) 15) () N + tallyAt (recvCell (px 4 c) 14) () N + tallyAt (recvCell (px 4 c) 13) () N + tallyAt (recvCell (px 2 c) 12) () N + tallyAt (recvCell (px 1 c) 11) () N + tallyAt (recvCell (px 0 c) 10) () N + tallyAt (recvCell (px 4 c) 9) () N : CellTallies nD τ sig Unit)
      = owedL (copyDues c 9) := rfl
theorem dues_10 (c : Dev nD) :
    (0 + tallyAt (recvCell (px 3 c) 19) () N + tallyAt (recvCell (px 3 c) 18) () N + tallyAt (recvCell (px 2 c) 17) () N + tallyAt (recvCell (px 1 c) 16) () N + tallyAt (recvCell (px 0 c) 15) () N + tallyAt (recvCell (px 4 c) 14) () N + tallyAt (recvCell (px 4 c) 13) () N + tallyAt (recvCell (px 2 c) 12) () N + tallyAt (recvCell (px 1 c) 11) () N + tallyAt (recvCell (px 0 c) 10) () N : CellTallies nD τ sig Unit)
      = owedL (copyDues c 10) := rfl
theorem dues_13 (c : Dev nD) :
    (0 + tallyAt (recvCell (px 3 c) 19) () N + tallyAt (recvCell (px 3 c) 18) () N + tallyAt (recvCell (px 2 c) 17) () N + tallyAt (recvCell (px 1 c) 16) () N + tallyAt (recvCell (px 0 c) 15) () N + tallyAt (recvCell (px 4 c) 14) () N + tallyAt (recvCell (px 4 c) 13) () N : CellTallies nD τ sig Unit)
      = owedL (copyDues c 13) := rfl
theorem dues_14 (c : Dev nD) :
    (0 + tallyAt (recvCell (px 3 c) 19) () N + tallyAt (recvCell (px 3 c) 18) () N + tallyAt (recvCell (px 2 c) 17) () N + tallyAt (recvCell (px 1 c) 16) () N + tallyAt (recvCell (px 0 c) 15) () N + tallyAt (recvCell (px 4 c) 14) () N : CellTallies nD τ sig Unit)
      = owedL (copyDues c 14) := rfl
theorem dues_15 (c : Dev nD) :
    (0 + tallyAt (recvCell (px 3 c) 19) () N + tallyAt (recvCell (px 3 c) 18) () N + tallyAt (recvCell (px 2 c) 17) () N + tallyAt (recvCell (px 1 c) 16) () N + tallyAt (recvCell (px 0 c) 15) () N : CellTallies nD τ sig Unit)
      = owedL (copyDues c 15) := rfl
theorem dues_18 (c : Dev nD) :
    (0 + tallyAt (recvCell (px 3 c) 19) () N + tallyAt (recvCell (px 3 c) 18) () N : CellTallies nD τ sig Unit)
      = owedL (copyDues c 18) := rfl
theorem dues_19 (c : Dev nD) :
    (0 + tallyAt (recvCell (px 3 c) 19) () N : CellTallies nD τ sig Unit)
      = owedL (copyDues c 19) := rfl

/-! ## The side conditions: levels -/

theorem lt_recv_of_bar (c : Dev nD) (n : ℕ) :
    ∀ s : Fin 20, n ≤ s.val → lv ((c : Thread nD τ), .reg barS) () < lv (recvCell (px (slotX s) c) s) () := by
  intro s _
  rw [show ((c : Thread nD τ), SemLoc.reg barS) = barCell c from rfl, lv_bar, lv_recv]
  omega

theorem lt_recv_of_send (c : Dev nD) (t : Fin 20) (n : ℕ) :
    ∀ s : Fin 20, n ≤ s.val → lv ((c : Thread nD τ), .dma (sendSem t)) () < lv (recvCell (px (slotX s) c) s) () := by
  intro s _
  rw [show ((c : Thread nD τ), SemLoc.dma (sendSem t)) = sendCell c t from rfl, lv_send, lv_recv]
  omega

theorem lt_recv_of_recv (c : Dev nD) (t : Fin 20) (n : ℕ)
    (h : ∀ s : Fin 20, n ≤ s.val → (slotK t).val * 4 + (slotCh t).val < (slotK s).val * 4 + (slotCh s).val) :
    ∀ s : Fin 20, n ≤ s.val → lv ((c : Thread nD τ), .dma (recvSem t)) () < lv (recvCell (px (slotX s) c) s) () := by
  intro s hs
  rw [show ((c : Thread nD τ), SemLoc.dma (recvSem t)) = recvCell c t from rfl, lv_recv, lv_recv]
  have := h s hs
  omega

/-! ## The body's waits -/

/-- The entry barrier: all twenty copies owed. -/
theorem mayWait_bar (c : Dev nD) :
    (levAts L lv : sProp 𝕄) ⊢ MayWait (c : Thread nD τ) (.reg barS) ()
      (0 + tallyAt (recvCell (px 3 c) 19) () N + tallyAt (recvCell (px 3 c) 18) () N + tallyAt (recvCell (px 2 c) 17) () N + tallyAt (recvCell (px 1 c) 16) () N + tallyAt (recvCell (px 0 c) 15) () N + tallyAt (recvCell (px 4 c) 14) () N + tallyAt (recvCell (px 4 c) 13) () N + tallyAt (recvCell (px 2 c) 12) () N + tallyAt (recvCell (px 1 c) 11) () N + tallyAt (recvCell (px 0 c) 10) () N + tallyAt (recvCell (px 4 c) 9) () N + tallyAt (recvCell (px 3 c) 8) () N + tallyAt (recvCell (px 2 c) 7) () N + tallyAt (recvCell (px 1 c) 6) () N + tallyAt (recvCell (px 0 c) 5) () N + tallyAt (recvCell (px 4 c) 4) () N + tallyAt (recvCell (px 3 c) 3) () N + tallyAt (recvCell (px 2 c) 2) () N + tallyAt (recvCell (px 1 c) 1) () N + tallyAt (recvCell (px 0 c) 0) () N) := by
  rw [dues_0]
  exact mayWait_dues c _ 0 (lt_recv_of_bar c 0)

theorem mayWait_recv_0 (c : Dev nD) :
    (levAts L lv : sProp 𝕄) ⊢ MayWait (c : Thread nD τ) (.dma (recvSem 0)) ()
      (0 + tallyAt (recvCell (px 3 c) 19) () N + tallyAt (recvCell (px 3 c) 18) () N + tallyAt (recvCell (px 2 c) 17) () N + tallyAt (recvCell (px 1 c) 16) () N + tallyAt (recvCell (px 0 c) 15) () N + tallyAt (recvCell (px 4 c) 14) () N + tallyAt (recvCell (px 4 c) 13) () N + tallyAt (recvCell (px 2 c) 12) () N + tallyAt (recvCell (px 1 c) 11) () N + tallyAt (recvCell (px 0 c) 10) () N + tallyAt (recvCell (px 4 c) 9) () N + tallyAt (recvCell (px 3 c) 8) () N) := by
  rw [dues_8]
  exact mayWait_dues c _ 8 (lt_recv_of_recv c 0 8 (by decide))

theorem mayWait_send_0 (c : Dev nD) :
    (levAts L lv : sProp 𝕄) ⊢ MayWait (c : Thread nD τ) (.dma (sendSem 0)) ()
      (0 + tallyAt (recvCell (px 3 c) 19) () N + tallyAt (recvCell (px 3 c) 18) () N + tallyAt (recvCell (px 2 c) 17) () N + tallyAt (recvCell (px 1 c) 16) () N + tallyAt (recvCell (px 0 c) 15) () N + tallyAt (recvCell (px 4 c) 14) () N + tallyAt (recvCell (px 4 c) 13) () N + tallyAt (recvCell (px 2 c) 12) () N + tallyAt (recvCell (px 1 c) 11) () N + tallyAt (recvCell (px 0 c) 10) () N + tallyAt (recvCell (px 4 c) 9) () N + tallyAt (recvCell (px 3 c) 8) () N) := by
  rw [dues_8]
  exact mayWait_dues c _ 8 (lt_recv_of_send c 0 8)

theorem mayWait_recv_1 (c : Dev nD) :
    (levAts L lv : sProp 𝕄) ⊢ MayWait (c : Thread nD τ) (.dma (recvSem 1)) ()
      (0 + tallyAt (recvCell (px 3 c) 19) () N + tallyAt (recvCell (px 3 c) 18) () N + tallyAt (recvCell (px 2 c) 17) () N + tallyAt (recvCell (px 1 c) 16) () N + tallyAt (recvCell (px 0 c) 15) () N + tallyAt (recvCell (px 4 c) 14) () N + tallyAt (recvCell (px 4 c) 13) () N + tallyAt (recvCell (px 2 c) 12) () N + tallyAt (recvCell (px 1 c) 11) () N + tallyAt (recvCell (px 0 c) 10) () N + tallyAt (recvCell (px 4 c) 9) () N + tallyAt (recvCell (px 3 c) 8) () N) := by
  rw [dues_8]
  exact mayWait_dues c _ 8 (lt_recv_of_recv c 1 8 (by decide))

theorem mayWait_send_1 (c : Dev nD) :
    (levAts L lv : sProp 𝕄) ⊢ MayWait (c : Thread nD τ) (.dma (sendSem 1)) ()
      (0 + tallyAt (recvCell (px 3 c) 19) () N + tallyAt (recvCell (px 3 c) 18) () N + tallyAt (recvCell (px 2 c) 17) () N + tallyAt (recvCell (px 1 c) 16) () N + tallyAt (recvCell (px 0 c) 15) () N + tallyAt (recvCell (px 4 c) 14) () N + tallyAt (recvCell (px 4 c) 13) () N + tallyAt (recvCell (px 2 c) 12) () N + tallyAt (recvCell (px 1 c) 11) () N + tallyAt (recvCell (px 0 c) 10) () N + tallyAt (recvCell (px 4 c) 9) () N + tallyAt (recvCell (px 3 c) 8) () N) := by
  rw [dues_8]
  exact mayWait_dues c _ 8 (lt_recv_of_send c 1 8)

theorem mayWait_recv_2 (c : Dev nD) :
    (levAts L lv : sProp 𝕄) ⊢ MayWait (c : Thread nD τ) (.dma (recvSem 2)) ()
      (0 + tallyAt (recvCell (px 3 c) 19) () N + tallyAt (recvCell (px 3 c) 18) () N + tallyAt (recvCell (px 2 c) 17) () N + tallyAt (recvCell (px 1 c) 16) () N + tallyAt (recvCell (px 0 c) 15) () N + tallyAt (recvCell (px 4 c) 14) () N + tallyAt (recvCell (px 4 c) 13) () N + tallyAt (recvCell (px 2 c) 12) () N + tallyAt (recvCell (px 1 c) 11) () N + tallyAt (recvCell (px 0 c) 10) () N + tallyAt (recvCell (px 4 c) 9) () N + tallyAt (recvCell (px 3 c) 8) () N) := by
  rw [dues_8]
  exact mayWait_dues c _ 8 (lt_recv_of_recv c 2 8 (by decide))

theorem mayWait_send_2 (c : Dev nD) :
    (levAts L lv : sProp 𝕄) ⊢ MayWait (c : Thread nD τ) (.dma (sendSem 2)) ()
      (0 + tallyAt (recvCell (px 3 c) 19) () N + tallyAt (recvCell (px 3 c) 18) () N + tallyAt (recvCell (px 2 c) 17) () N + tallyAt (recvCell (px 1 c) 16) () N + tallyAt (recvCell (px 0 c) 15) () N + tallyAt (recvCell (px 4 c) 14) () N + tallyAt (recvCell (px 4 c) 13) () N + tallyAt (recvCell (px 2 c) 12) () N + tallyAt (recvCell (px 1 c) 11) () N + tallyAt (recvCell (px 0 c) 10) () N + tallyAt (recvCell (px 4 c) 9) () N + tallyAt (recvCell (px 3 c) 8) () N) := by
  rw [dues_8]
  exact mayWait_dues c _ 8 (lt_recv_of_send c 2 8)

theorem mayWait_recv_3 (c : Dev nD) :
    (levAts L lv : sProp 𝕄) ⊢ MayWait (c : Thread nD τ) (.dma (recvSem 3)) ()
      (0 + tallyAt (recvCell (px 3 c) 19) () N + tallyAt (recvCell (px 3 c) 18) () N + tallyAt (recvCell (px 2 c) 17) () N + tallyAt (recvCell (px 1 c) 16) () N + tallyAt (recvCell (px 0 c) 15) () N + tallyAt (recvCell (px 4 c) 14) () N + tallyAt (recvCell (px 4 c) 13) () N + tallyAt (recvCell (px 2 c) 12) () N + tallyAt (recvCell (px 1 c) 11) () N + tallyAt (recvCell (px 0 c) 10) () N + tallyAt (recvCell (px 4 c) 9) () N) := by
  rw [dues_9]
  exact mayWait_dues c _ 9 (lt_recv_of_recv c 3 9 (by decide))

theorem mayWait_send_3 (c : Dev nD) :
    (levAts L lv : sProp 𝕄) ⊢ MayWait (c : Thread nD τ) (.dma (sendSem 3)) ()
      (0 + tallyAt (recvCell (px 3 c) 19) () N + tallyAt (recvCell (px 3 c) 18) () N + tallyAt (recvCell (px 2 c) 17) () N + tallyAt (recvCell (px 1 c) 16) () N + tallyAt (recvCell (px 0 c) 15) () N + tallyAt (recvCell (px 4 c) 14) () N + tallyAt (recvCell (px 4 c) 13) () N + tallyAt (recvCell (px 2 c) 12) () N + tallyAt (recvCell (px 1 c) 11) () N + tallyAt (recvCell (px 0 c) 10) () N + tallyAt (recvCell (px 4 c) 9) () N) := by
  rw [dues_9]
  exact mayWait_dues c _ 9 (lt_recv_of_send c 3 9)

theorem mayWait_recv_4 (c : Dev nD) :
    (levAts L lv : sProp 𝕄) ⊢ MayWait (c : Thread nD τ) (.dma (recvSem 4)) ()
      (0 + tallyAt (recvCell (px 3 c) 19) () N + tallyAt (recvCell (px 3 c) 18) () N + tallyAt (recvCell (px 2 c) 17) () N + tallyAt (recvCell (px 1 c) 16) () N + tallyAt (recvCell (px 0 c) 15) () N + tallyAt (recvCell (px 4 c) 14) () N + tallyAt (recvCell (px 4 c) 13) () N + tallyAt (recvCell (px 2 c) 12) () N + tallyAt (recvCell (px 1 c) 11) () N + tallyAt (recvCell (px 0 c) 10) () N) := by
  rw [dues_10]
  exact mayWait_dues c _ 10 (lt_recv_of_recv c 4 10 (by decide))

theorem mayWait_send_4 (c : Dev nD) :
    (levAts L lv : sProp 𝕄) ⊢ MayWait (c : Thread nD τ) (.dma (sendSem 4)) ()
      (0 + tallyAt (recvCell (px 3 c) 19) () N + tallyAt (recvCell (px 3 c) 18) () N + tallyAt (recvCell (px 2 c) 17) () N + tallyAt (recvCell (px 1 c) 16) () N + tallyAt (recvCell (px 0 c) 15) () N + tallyAt (recvCell (px 4 c) 14) () N + tallyAt (recvCell (px 4 c) 13) () N + tallyAt (recvCell (px 2 c) 12) () N + tallyAt (recvCell (px 1 c) 11) () N + tallyAt (recvCell (px 0 c) 10) () N) := by
  rw [dues_10]
  exact mayWait_dues c _ 10 (lt_recv_of_send c 4 10)

theorem mayWait_recv_5 (c : Dev nD) :
    (levAts L lv : sProp 𝕄) ⊢ MayWait (c : Thread nD τ) (.dma (recvSem 5)) ()
      (0 + tallyAt (recvCell (px 3 c) 19) () N + tallyAt (recvCell (px 3 c) 18) () N + tallyAt (recvCell (px 2 c) 17) () N + tallyAt (recvCell (px 1 c) 16) () N + tallyAt (recvCell (px 0 c) 15) () N + tallyAt (recvCell (px 4 c) 14) () N + tallyAt (recvCell (px 4 c) 13) () N) := by
  rw [dues_13]
  exact mayWait_dues c _ 13 (lt_recv_of_recv c 5 13 (by decide))

theorem mayWait_send_5 (c : Dev nD) :
    (levAts L lv : sProp 𝕄) ⊢ MayWait (c : Thread nD τ) (.dma (sendSem 5)) ()
      (0 + tallyAt (recvCell (px 3 c) 19) () N + tallyAt (recvCell (px 3 c) 18) () N + tallyAt (recvCell (px 2 c) 17) () N + tallyAt (recvCell (px 1 c) 16) () N + tallyAt (recvCell (px 0 c) 15) () N + tallyAt (recvCell (px 4 c) 14) () N + tallyAt (recvCell (px 4 c) 13) () N) := by
  rw [dues_13]
  exact mayWait_dues c _ 13 (lt_recv_of_send c 5 13)

theorem mayWait_recv_6 (c : Dev nD) :
    (levAts L lv : sProp 𝕄) ⊢ MayWait (c : Thread nD τ) (.dma (recvSem 6)) ()
      (0 + tallyAt (recvCell (px 3 c) 19) () N + tallyAt (recvCell (px 3 c) 18) () N + tallyAt (recvCell (px 2 c) 17) () N + tallyAt (recvCell (px 1 c) 16) () N + tallyAt (recvCell (px 0 c) 15) () N + tallyAt (recvCell (px 4 c) 14) () N + tallyAt (recvCell (px 4 c) 13) () N) := by
  rw [dues_13]
  exact mayWait_dues c _ 13 (lt_recv_of_recv c 6 13 (by decide))

theorem mayWait_send_6 (c : Dev nD) :
    (levAts L lv : sProp 𝕄) ⊢ MayWait (c : Thread nD τ) (.dma (sendSem 6)) ()
      (0 + tallyAt (recvCell (px 3 c) 19) () N + tallyAt (recvCell (px 3 c) 18) () N + tallyAt (recvCell (px 2 c) 17) () N + tallyAt (recvCell (px 1 c) 16) () N + tallyAt (recvCell (px 0 c) 15) () N + tallyAt (recvCell (px 4 c) 14) () N + tallyAt (recvCell (px 4 c) 13) () N) := by
  rw [dues_13]
  exact mayWait_dues c _ 13 (lt_recv_of_send c 6 13)

theorem mayWait_recv_7 (c : Dev nD) :
    (levAts L lv : sProp 𝕄) ⊢ MayWait (c : Thread nD τ) (.dma (recvSem 7)) ()
      (0 + tallyAt (recvCell (px 3 c) 19) () N + tallyAt (recvCell (px 3 c) 18) () N + tallyAt (recvCell (px 2 c) 17) () N + tallyAt (recvCell (px 1 c) 16) () N + tallyAt (recvCell (px 0 c) 15) () N + tallyAt (recvCell (px 4 c) 14) () N + tallyAt (recvCell (px 4 c) 13) () N) := by
  rw [dues_13]
  exact mayWait_dues c _ 13 (lt_recv_of_recv c 7 13 (by decide))

theorem mayWait_send_7 (c : Dev nD) :
    (levAts L lv : sProp 𝕄) ⊢ MayWait (c : Thread nD τ) (.dma (sendSem 7)) ()
      (0 + tallyAt (recvCell (px 3 c) 19) () N + tallyAt (recvCell (px 3 c) 18) () N + tallyAt (recvCell (px 2 c) 17) () N + tallyAt (recvCell (px 1 c) 16) () N + tallyAt (recvCell (px 0 c) 15) () N + tallyAt (recvCell (px 4 c) 14) () N + tallyAt (recvCell (px 4 c) 13) () N) := by
  rw [dues_13]
  exact mayWait_dues c _ 13 (lt_recv_of_send c 7 13)

theorem mayWait_recv_8 (c : Dev nD) :
    (levAts L lv : sProp 𝕄) ⊢ MayWait (c : Thread nD τ) (.dma (recvSem 8)) ()
      (0 + tallyAt (recvCell (px 3 c) 19) () N + tallyAt (recvCell (px 3 c) 18) () N + tallyAt (recvCell (px 2 c) 17) () N + tallyAt (recvCell (px 1 c) 16) () N + tallyAt (recvCell (px 0 c) 15) () N + tallyAt (recvCell (px 4 c) 14) () N) := by
  rw [dues_14]
  exact mayWait_dues c _ 14 (lt_recv_of_recv c 8 14 (by decide))

theorem mayWait_send_8 (c : Dev nD) :
    (levAts L lv : sProp 𝕄) ⊢ MayWait (c : Thread nD τ) (.dma (sendSem 8)) ()
      (0 + tallyAt (recvCell (px 3 c) 19) () N + tallyAt (recvCell (px 3 c) 18) () N + tallyAt (recvCell (px 2 c) 17) () N + tallyAt (recvCell (px 1 c) 16) () N + tallyAt (recvCell (px 0 c) 15) () N + tallyAt (recvCell (px 4 c) 14) () N) := by
  rw [dues_14]
  exact mayWait_dues c _ 14 (lt_recv_of_send c 8 14)

theorem mayWait_recv_9 (c : Dev nD) :
    (levAts L lv : sProp 𝕄) ⊢ MayWait (c : Thread nD τ) (.dma (recvSem 9)) ()
      (0 + tallyAt (recvCell (px 3 c) 19) () N + tallyAt (recvCell (px 3 c) 18) () N + tallyAt (recvCell (px 2 c) 17) () N + tallyAt (recvCell (px 1 c) 16) () N + tallyAt (recvCell (px 0 c) 15) () N) := by
  rw [dues_15]
  exact mayWait_dues c _ 15 (lt_recv_of_recv c 9 15 (by decide))

theorem mayWait_send_9 (c : Dev nD) :
    (levAts L lv : sProp 𝕄) ⊢ MayWait (c : Thread nD τ) (.dma (sendSem 9)) ()
      (0 + tallyAt (recvCell (px 3 c) 19) () N + tallyAt (recvCell (px 3 c) 18) () N + tallyAt (recvCell (px 2 c) 17) () N + tallyAt (recvCell (px 1 c) 16) () N + tallyAt (recvCell (px 0 c) 15) () N) := by
  rw [dues_15]
  exact mayWait_dues c _ 15 (lt_recv_of_send c 9 15)

theorem mayWait_recv_10 (c : Dev nD) :
    (levAts L lv : sProp 𝕄) ⊢ MayWait (c : Thread nD τ) (.dma (recvSem 10)) ()
      (0 + tallyAt (recvCell (px 3 c) 19) () N + tallyAt (recvCell (px 3 c) 18) () N) := by
  rw [dues_18]
  exact mayWait_dues c _ 18 (lt_recv_of_recv c 10 18 (by decide))

theorem mayWait_send_10 (c : Dev nD) :
    (levAts L lv : sProp 𝕄) ⊢ MayWait (c : Thread nD τ) (.dma (sendSem 10)) ()
      (0 + tallyAt (recvCell (px 3 c) 19) () N + tallyAt (recvCell (px 3 c) 18) () N) := by
  rw [dues_18]
  exact mayWait_dues c _ 18 (lt_recv_of_send c 10 18)

theorem mayWait_recv_11 (c : Dev nD) :
    (levAts L lv : sProp 𝕄) ⊢ MayWait (c : Thread nD τ) (.dma (recvSem 11)) ()
      (0 + tallyAt (recvCell (px 3 c) 19) () N + tallyAt (recvCell (px 3 c) 18) () N) := by
  rw [dues_18]
  exact mayWait_dues c _ 18 (lt_recv_of_recv c 11 18 (by decide))

theorem mayWait_send_11 (c : Dev nD) :
    (levAts L lv : sProp 𝕄) ⊢ MayWait (c : Thread nD τ) (.dma (sendSem 11)) ()
      (0 + tallyAt (recvCell (px 3 c) 19) () N + tallyAt (recvCell (px 3 c) 18) () N) := by
  rw [dues_18]
  exact mayWait_dues c _ 18 (lt_recv_of_send c 11 18)

theorem mayWait_recv_12 (c : Dev nD) :
    (levAts L lv : sProp 𝕄) ⊢ MayWait (c : Thread nD τ) (.dma (recvSem 12)) ()
      (0 + tallyAt (recvCell (px 3 c) 19) () N + tallyAt (recvCell (px 3 c) 18) () N) := by
  rw [dues_18]
  exact mayWait_dues c _ 18 (lt_recv_of_recv c 12 18 (by decide))

theorem mayWait_send_12 (c : Dev nD) :
    (levAts L lv : sProp 𝕄) ⊢ MayWait (c : Thread nD τ) (.dma (sendSem 12)) ()
      (0 + tallyAt (recvCell (px 3 c) 19) () N + tallyAt (recvCell (px 3 c) 18) () N) := by
  rw [dues_18]
  exact mayWait_dues c _ 18 (lt_recv_of_send c 12 18)

theorem mayWait_recv_13 (c : Dev nD) :
    (levAts L lv : sProp 𝕄) ⊢ MayWait (c : Thread nD τ) (.dma (recvSem 13)) ()
      (0 + tallyAt (recvCell (px 3 c) 19) () N) := by
  rw [dues_19]
  exact mayWait_dues c _ 19 (lt_recv_of_recv c 13 19 (by decide))

theorem mayWait_send_13 (c : Dev nD) :
    (levAts L lv : sProp 𝕄) ⊢ MayWait (c : Thread nD τ) (.dma (sendSem 13)) ()
      (0 + tallyAt (recvCell (px 3 c) 19) () N) := by
  rw [dues_19]
  exact mayWait_dues c _ 19 (lt_recv_of_send c 13 19)

end Cert.KernelIdeal.Waits

end

/-- info: 'Cert.KernelIdeal.Waits.mayWait_dues' depends on axioms: [propext, Classical.choice, Quot.sound] -/
#guard_msgs in #print axioms Cert.KernelIdeal.Waits.mayWait_dues
/-- info: 'Cert.KernelIdeal.Waits.mayWait_bar' depends on axioms: [propext, Classical.choice, Quot.sound] -/
#guard_msgs in #print axioms Cert.KernelIdeal.Waits.mayWait_bar
/-- info: 'Cert.KernelIdeal.Waits.mayWait_recv_13' depends on axioms: [propext, Classical.choice, Quot.sound] -/
#guard_msgs in #print axioms Cert.KernelIdeal.Waits.mayWait_recv_13
-- ==== Proof.KernelIdealBodyTables.lean ====
/-
  The tables of one device's body: the printed semaphore words are the copies' semaphores, the schedule's payloads spelt over
  the printed memrefs, and what the body's run starts from and what it leaves, piece by piece.
-/
import proofs.«900514_g7700000000000515_dist_attn_self_mha_htp_b2_sq128_skv128_d512_hq8_dh64_v7x_i16_bf16_1_alg».proof.Proof.KernelIdealGhost
import proofs.«900514_g7700000000000515_dist_attn_self_mha_htp_b2_sq128_skv128_d512_hq8_dh64_v7x_i16_bf16_1_alg».proof.Proof.KernelIdealData
import proofs.«900514_g7700000000000515_dist_attn_self_mha_htp_b2_sq128_skv128_d512_hq8_dh64_v7x_i16_bf16_1_alg».proof.Proof.KernelIdealCtx
import proofs.«900514_g7700000000000515_dist_attn_self_mha_htp_b2_sq128_skv128_d512_hq8_dh64_v7x_i16_bf16_1_alg».proof.Proof.KernelIdealViews
import proofs.«900514_g7700000000000515_dist_attn_self_mha_htp_b2_sq128_skv128_d512_hq8_dh64_v7x_i16_bf16_1_alg».proof.Proof.KernelIdealSteps
import proofs.«900514_g7700000000000515_dist_attn_self_mha_htp_b2_sq128_skv128_d512_hq8_dh64_v7x_i16_bf16_1_alg».proof.Proof.KernelIdealRegions
import proofs.«900514_g7700000000000515_dist_attn_self_mha_htp_b2_sq128_skv128_d512_hq8_dh64_v7x_i16_bf16_1_alg».proof.Proof.KernelIdealWaits

set_option maxRecDepth 16384

noncomputable section

namespace Cert.KernelIdeal.Body

open Cert.KernelIdeal Cert.KernelIdeal.Gen Cert.KernelIdeal.Terms Cert.KernelIdeal.Proto
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## The printed semaphore words are the copies' semaphores -/

theorem sendSem_canon0 : ((cc0_scratch3.slice (Rect.unit (s := S3x4x3) ![0, 0, 0] S1x1x1.size inb_S3x4x3_S1x1x1_0_0_0)).squeeze S_ squeezes_S1x1x1_S_).sem = sendSem 0 := rfl
theorem recvSem_canon0 : ((cc0_scratch4.slice (Rect.unit (s := S3x4x3) ![0, 0, 0] S1x1x1.size inb_S3x4x3_S1x1x1_0_0_0)).squeeze S_ squeezes_S1x1x1_S_).sem = recvSem 0 := rfl
theorem sendSem_canon1 : ((cc0_scratch3.slice (Rect.unit (s := S3x4x3) ![0, 0, 1] S1x1x1.size inb_S3x4x3_S1x1x1_0_0_1)).squeeze S_ squeezes_S1x1x1_S_).sem = sendSem 1 := rfl
theorem recvSem_canon1 : ((cc0_scratch4.slice (Rect.unit (s := S3x4x3) ![0, 0, 1] S1x1x1.size inb_S3x4x3_S1x1x1_0_0_1)).squeeze S_ squeezes_S1x1x1_S_).sem = recvSem 1 := rfl
theorem sendSem_canon2 : ((cc0_scratch3.slice (Rect.unit (s := S3x4x3) ![0, 0, 2] S1x1x1.size inb_S3x4x3_S1x1x1_0_0_2)).squeeze S_ squeezes_S1x1x1_S_).sem = sendSem 2 := rfl
theorem recvSem_canon2 : ((cc0_scratch4.slice (Rect.unit (s := S3x4x3) ![0, 0, 2] S1x1x1.size inb_S3x4x3_S1x1x1_0_0_2)).squeeze S_ squeezes_S1x1x1_S_).sem = recvSem 2 := rfl
theorem sendSem_canon3 : ((cc0_scratch3.slice (Rect.unit (s := S3x4x3) ![0, 1, 0] S1x1x1.size inb_S3x4x3_S1x1x1_0_1_0)).squeeze S_ squeezes_S1x1x1_S_).sem = sendSem 3 := rfl
theorem recvSem_canon3 : ((cc0_scratch4.slice (Rect.unit (s := S3x4x3) ![0, 1, 0] S1x1x1.size inb_S3x4x3_S1x1x1_0_1_0)).squeeze S_ squeezes_S1x1x1_S_).sem = recvSem 3 := rfl
theorem sendSem_canon4 : ((cc0_scratch3.slice (Rect.unit (s := S3x4x3) ![0, 2, 0] S1x1x1.size inb_S3x4x3_S1x1x1_0_2_0)).squeeze S_ squeezes_S1x1x1_S_).sem = sendSem 4 := rfl
theorem recvSem_canon4 : ((cc0_scratch4.slice (Rect.unit (s := S3x4x3) ![0, 2, 0] S1x1x1.size inb_S3x4x3_S1x1x1_0_2_0)).squeeze S_ squeezes_S1x1x1_S_).sem = recvSem 4 := rfl
theorem sendSem_canon5 : ((cc0_scratch3.slice (Rect.unit (s := S3x4x3) ![0, 3, 0] S1x1x1.size inb_S3x4x3_S1x1x1_0_3_0)).squeeze S_ squeezes_S1x1x1_S_).sem = sendSem 5 := rfl
theorem recvSem_canon5 : ((cc0_scratch4.slice (Rect.unit (s := S3x4x3) ![0, 3, 0] S1x1x1.size inb_S3x4x3_S1x1x1_0_3_0)).squeeze S_ squeezes_S1x1x1_S_).sem = recvSem 5 := rfl
theorem sendSem_canon6 : ((cc0_scratch3.slice (Rect.unit (s := S3x4x3) ![0, 3, 1] S1x1x1.size inb_S3x4x3_S1x1x1_0_3_1)).squeeze S_ squeezes_S1x1x1_S_).sem = sendSem 6 := rfl
theorem recvSem_canon6 : ((cc0_scratch4.slice (Rect.unit (s := S3x4x3) ![0, 3, 1] S1x1x1.size inb_S3x4x3_S1x1x1_0_3_1)).squeeze S_ squeezes_S1x1x1_S_).sem = recvSem 6 := rfl
theorem sendSem_canon7 : ((cc0_scratch3.slice (Rect.unit (s := S3x4x3) ![0, 3, 2] S1x1x1.size inb_S3x4x3_S1x1x1_0_3_2)).squeeze S_ squeezes_S1x1x1_S_).sem = sendSem 7 := rfl
theorem recvSem_canon7 : ((cc0_scratch4.slice (Rect.unit (s := S3x4x3) ![0, 3, 2] S1x1x1.size inb_S3x4x3_S1x1x1_0_3_2)).squeeze S_ squeezes_S1x1x1_S_).sem = recvSem 7 := rfl
theorem sendSem_canon8 : ((cc0_scratch3.slice (Rect.unit (s := S3x4x3) ![1, 0, 0] S1x1x1.size inb_S3x4x3_S1x1x1_1_0_0)).squeeze S_ squeezes_S1x1x1_S_).sem = sendSem 8 := rfl
theorem recvSem_canon8 : ((cc0_scratch4.slice (Rect.unit (s := S3x4x3) ![1, 0, 0] S1x1x1.size inb_S3x4x3_S1x1x1_1_0_0)).squeeze S_ squeezes_S1x1x1_S_).sem = recvSem 8 := rfl
theorem sendSem_canon9 : ((cc0_scratch3.slice (Rect.unit (s := S3x4x3) ![1, 1, 0] S1x1x1.size inb_S3x4x3_S1x1x1_1_1_0)).squeeze S_ squeezes_S1x1x1_S_).sem = sendSem 9 := rfl
theorem recvSem_canon9 : ((cc0_scratch4.slice (Rect.unit (s := S3x4x3) ![1, 1, 0] S1x1x1.size inb_S3x4x3_S1x1x1_1_1_0)).squeeze S_ squeezes_S1x1x1_S_).sem = recvSem 9 := rfl
theorem sendSem_canon10 : ((cc0_scratch3.slice (Rect.unit (s := S3x4x3) ![1, 2, 0] S1x1x1.size inb_S3x4x3_S1x1x1_1_2_0)).squeeze S_ squeezes_S1x1x1_S_).sem = sendSem 10 := rfl
theorem recvSem_canon10 : ((cc0_scratch4.slice (Rect.unit (s := S3x4x3) ![1, 2, 0] S1x1x1.size inb_S3x4x3_S1x1x1_1_2_0)).squeeze S_ squeezes_S1x1x1_S_).sem = recvSem 10 := rfl
theorem sendSem_canon11 : ((cc0_scratch3.slice (Rect.unit (s := S3x4x3) ![1, 2, 1] S1x1x1.size inb_S3x4x3_S1x1x1_1_2_1)).squeeze S_ squeezes_S1x1x1_S_).sem = sendSem 11 := rfl
theorem recvSem_canon11 : ((cc0_scratch4.slice (Rect.unit (s := S3x4x3) ![1, 2, 1] S1x1x1.size inb_S3x4x3_S1x1x1_1_2_1)).squeeze S_ squeezes_S1x1x1_S_).sem = recvSem 11 := rfl
theorem sendSem_canon12 : ((cc0_scratch3.slice (Rect.unit (s := S3x4x3) ![1, 2, 2] S1x1x1.size inb_S3x4x3_S1x1x1_1_2_2)).squeeze S_ squeezes_S1x1x1_S_).sem = sendSem 12 := rfl
theorem recvSem_canon12 : ((cc0_scratch4.slice (Rect.unit (s := S3x4x3) ![1, 2, 2] S1x1x1.size inb_S3x4x3_S1x1x1_1_2_2)).squeeze S_ squeezes_S1x1x1_S_).sem = recvSem 12 := rfl
theorem sendSem_canon13 : ((cc0_scratch3.slice (Rect.unit (s := S3x4x3) ![1, 3, 0] S1x1x1.size inb_S3x4x3_S1x1x1_1_3_0)).squeeze S_ squeezes_S1x1x1_S_).sem = sendSem 13 := rfl
theorem recvSem_canon13 : ((cc0_scratch4.slice (Rect.unit (s := S3x4x3) ![1, 3, 0] S1x1x1.size inb_S3x4x3_S1x1x1_1_3_0)).squeeze S_ squeezes_S1x1x1_S_).sem = recvSem 13 := rfl
theorem sendSem_canon14 : ((cc0_scratch3.slice (Rect.unit (s := S3x4x3) ![2, 0, 0] S1x1x1.size inb_S3x4x3_S1x1x1_2_0_0)).squeeze S_ squeezes_S1x1x1_S_).sem = sendSem 14 := rfl
theorem recvSem_canon14 : ((cc0_scratch4.slice (Rect.unit (s := S3x4x3) ![2, 0, 0] S1x1x1.size inb_S3x4x3_S1x1x1_2_0_0)).squeeze S_ squeezes_S1x1x1_S_).sem = recvSem 14 := rfl
theorem sendSem_canon15 : ((cc0_scratch3.slice (Rect.unit (s := S3x4x3) ![2, 1, 0] S1x1x1.size inb_S3x4x3_S1x1x1_2_1_0)).squeeze S_ squeezes_S1x1x1_S_).sem = sendSem 15 := rfl
theorem recvSem_canon15 : ((cc0_scratch4.slice (Rect.unit (s := S3x4x3) ![2, 1, 0] S1x1x1.size inb_S3x4x3_S1x1x1_2_1_0)).squeeze S_ squeezes_S1x1x1_S_).sem = recvSem 15 := rfl
theorem sendSem_canon16 : ((cc0_scratch3.slice (Rect.unit (s := S3x4x3) ![2, 1, 1] S1x1x1.size inb_S3x4x3_S1x1x1_2_1_1)).squeeze S_ squeezes_S1x1x1_S_).sem = sendSem 16 := rfl
theorem recvSem_canon16 : ((cc0_scratch4.slice (Rect.unit (s := S3x4x3) ![2, 1, 1] S1x1x1.size inb_S3x4x3_S1x1x1_2_1_1)).squeeze S_ squeezes_S1x1x1_S_).sem = recvSem 16 := rfl
theorem sendSem_canon17 : ((cc0_scratch3.slice (Rect.unit (s := S3x4x3) ![2, 1, 2] S1x1x1.size inb_S3x4x3_S1x1x1_2_1_2)).squeeze S_ squeezes_S1x1x1_S_).sem = sendSem 17 := rfl
theorem recvSem_canon17 : ((cc0_scratch4.slice (Rect.unit (s := S3x4x3) ![2, 1, 2] S1x1x1.size inb_S3x4x3_S1x1x1_2_1_2)).squeeze S_ squeezes_S1x1x1_S_).sem = recvSem 17 := rfl
theorem sendSem_canon18 : ((cc0_scratch3.slice (Rect.unit (s := S3x4x3) ![2, 2, 0] S1x1x1.size inb_S3x4x3_S1x1x1_2_2_0)).squeeze S_ squeezes_S1x1x1_S_).sem = sendSem 18 := rfl
theorem recvSem_canon18 : ((cc0_scratch4.slice (Rect.unit (s := S3x4x3) ![2, 2, 0] S1x1x1.size inb_S3x4x3_S1x1x1_2_2_0)).squeeze S_ squeezes_S1x1x1_S_).sem = recvSem 18 := rfl
theorem sendSem_canon19 : ((cc0_scratch3.slice (Rect.unit (s := S3x4x3) ![2, 3, 0] S1x1x1.size inb_S3x4x3_S1x1x1_2_3_0)).squeeze S_ squeezes_S1x1x1_S_).sem = sendSem 19 := rfl
theorem recvSem_canon19 : ((cc0_scratch4.slice (Rect.unit (s := S3x4x3) ![2, 3, 0] S1x1x1.size inb_S3x4x3_S1x1x1_2_3_0)).squeeze S_ squeezes_S1x1x1_S_).sem = recvSem 19 := rfl

/-! ## The schedule's payloads, spelt over the printed memrefs -/

theorem pay_send_0 (c : Dev nD) : (sched m).payload (sendCell c 0) 0 0
    = iprop(∃ f, ((((Memref.whole cc0_scratch1 : Memref sig .tc .vmem S4x256x128 .bf16).slice (Rect.unit (s := S4x256x128) ![0, 0, 0] S1x256x128.size inb_S4x256x128_S1x256x128_0_0_0) (fun _ => rfl)).squeeze S256x128 squeezes_S1x256x128_S256x128).view.loc (c : Thread nD τ) ↦[(((Memref.whole cc0_scratch1 : Memref sig .tc .vmem S4x256x128 .bf16).slice (Rect.unit (s := S4x256x128) ![0, 0, 0] S1x256x128.size inb_S4x256x128_S1x256x128_0_0_0) (fun _ => rfl)).squeeze S256x128 squeezes_S1x256x128_S256x128).view.set]{fullShare.left} f)) := by
  rw [payload_send]; rfl
theorem pay_recv_0 (c : Dev nD) : (sched m).payload (recvCell c 0) 0 0
    = ((((Memref.whole cc0_scratch2 : Memref sig .tc .vmem S3x4x3x256x128 .bf16).slice (Rect.unit (s := S3x4x3x256x128) ![0, 0, 0, 0, 0] S1x1x1x256x128.size inb_S3x4x3x256x128_S1x1x1x256x128_0_0_0_0_0) (fun _ => rfl)).squeeze S256x128 squeezes_S1x1x1x256x128_S256x128).view.loc (c : Thread nD τ) ↦[(((Memref.whole cc0_scratch2 : Memref sig .tc .vmem S3x4x3x256x128 .bf16).slice (Rect.unit (s := S3x4x3x256x128) ![0, 0, 0, 0, 0] S1x1x1x256x128.size inb_S3x4x3x256x128_S1x1x1x256x128_0_0_0_0_0) (fun _ => rfl)).squeeze S256x128 squeezes_S1x1x1x256x128_S256x128).view.set]{fullShare} landed m c 0) := by
  rw [payload_recv]; rfl
theorem pay_send_1 (c : Dev nD) : (sched m).payload (sendCell c 1) 0 0
    = iprop(∃ f, ((((Memref.whole cc0_scratch1 : Memref sig .tc .vmem S4x256x128 .bf16).slice (Rect.unit (s := S4x256x128) ![0, 0, 0] S1x256x128.size inb_S4x256x128_S1x256x128_0_0_0) (fun _ => rfl)).squeeze S256x128 squeezes_S1x256x128_S256x128).view.loc (c : Thread nD τ) ↦[(((Memref.whole cc0_scratch1 : Memref sig .tc .vmem S4x256x128 .bf16).slice (Rect.unit (s := S4x256x128) ![0, 0, 0] S1x256x128.size inb_S4x256x128_S1x256x128_0_0_0) (fun _ => rfl)).squeeze S256x128 squeezes_S1x256x128_S256x128).view.set]{fullShare.right.left} f)) := by
  rw [payload_send]; rfl
theorem pay_recv_1 (c : Dev nD) : (sched m).payload (recvCell c 1) 0 0
    = ((((Memref.whole cc0_scratch2 : Memref sig .tc .vmem S3x4x3x256x128 .bf16).slice (Rect.unit (s := S3x4x3x256x128) ![0, 0, 1, 0, 0] S1x1x1x256x128.size inb_S3x4x3x256x128_S1x1x1x256x128_0_0_1_0_0) (fun _ => rfl)).squeeze S256x128 squeezes_S1x1x1x256x128_S256x128).view.loc (c : Thread nD τ) ↦[(((Memref.whole cc0_scratch2 : Memref sig .tc .vmem S3x4x3x256x128 .bf16).slice (Rect.unit (s := S3x4x3x256x128) ![0, 0, 1, 0, 0] S1x1x1x256x128.size inb_S3x4x3x256x128_S1x1x1x256x128_0_0_1_0_0) (fun _ => rfl)).squeeze S256x128 squeezes_S1x1x1x256x128_S256x128).view.set]{fullShare} landed m c 1) := by
  rw [payload_recv]; rfl
theorem pay_send_2 (c : Dev nD) : (sched m).payload (sendCell c 2) 0 0
    = iprop(∃ f, ((((Memref.whole cc0_scratch1 : Memref sig .tc .vmem S4x256x128 .bf16).slice (Rect.unit (s := S4x256x128) ![0, 0, 0] S1x256x128.size inb_S4x256x128_S1x256x128_0_0_0) (fun _ => rfl)).squeeze S256x128 squeezes_S1x256x128_S256x128).view.loc (c : Thread nD τ) ↦[(((Memref.whole cc0_scratch1 : Memref sig .tc .vmem S4x256x128 .bf16).slice (Rect.unit (s := S4x256x128) ![0, 0, 0] S1x256x128.size inb_S4x256x128_S1x256x128_0_0_0) (fun _ => rfl)).squeeze S256x128 squeezes_S1x256x128_S256x128).view.set]{fullShare.right.right} f)) := by
  rw [payload_send]; rfl
theorem pay_recv_2 (c : Dev nD) : (sched m).payload (recvCell c 2) 0 0
    = ((((Memref.whole cc0_scratch2 : Memref sig .tc .vmem S3x4x3x256x128 .bf16).slice (Rect.unit (s := S3x4x3x256x128) ![0, 0, 2, 0, 0] S1x1x1x256x128.size inb_S3x4x3x256x128_S1x1x1x256x128_0_0_2_0_0) (fun _ => rfl)).squeeze S256x128 squeezes_S1x1x1x256x128_S256x128).view.loc (c : Thread nD τ) ↦[(((Memref.whole cc0_scratch2 : Memref sig .tc .vmem S3x4x3x256x128 .bf16).slice (Rect.unit (s := S3x4x3x256x128) ![0, 0, 2, 0, 0] S1x1x1x256x128.size inb_S3x4x3x256x128_S1x1x1x256x128_0_0_2_0_0) (fun _ => rfl)).squeeze S256x128 squeezes_S1x1x1x256x128_S256x128).view.set]{fullShare} landed m c 2) := by
  rw [payload_recv]; rfl
theorem pay_send_3 (c : Dev nD) : (sched m).payload (sendCell c 3) 0 0
    = iprop(∃ f, ((((Memref.whole cc0_scratch1 : Memref sig .tc .vmem S4x256x128 .bf16).slice (Rect.unit (s := S4x256x128) ![1, 0, 0] S1x256x128.size inb_S4x256x128_S1x256x128_1_0_0) (fun _ => rfl)).squeeze S256x128 squeezes_S1x256x128_S256x128).view.loc (c : Thread nD τ) ↦[(((Memref.whole cc0_scratch1 : Memref sig .tc .vmem S4x256x128 .bf16).slice (Rect.unit (s := S4x256x128) ![1, 0, 0] S1x256x128.size inb_S4x256x128_S1x256x128_1_0_0) (fun _ => rfl)).squeeze S256x128 squeezes_S1x256x128_S256x128).view.set]{fullShare} f)) := by
  rw [payload_send]; rfl
theorem pay_recv_3 (c : Dev nD) : (sched m).payload (recvCell c 3) 0 0
    = ((((Memref.whole cc0_scratch2 : Memref sig .tc .vmem S3x4x3x256x128 .bf16).slice (Rect.unit (s := S3x4x3x256x128) ![0, 1, 0, 0, 0] S1x1x1x256x128.size inb_S3x4x3x256x128_S1x1x1x256x128_0_1_0_0_0) (fun _ => rfl)).squeeze S256x128 squeezes_S1x1x1x256x128_S256x128).view.loc (c : Thread nD τ) ↦[(((Memref.whole cc0_scratch2 : Memref sig .tc .vmem S3x4x3x256x128 .bf16).slice (Rect.unit (s := S3x4x3x256x128) ![0, 1, 0, 0, 0] S1x1x1x256x128.size inb_S3x4x3x256x128_S1x1x1x256x128_0_1_0_0_0) (fun _ => rfl)).squeeze S256x128 squeezes_S1x1x1x256x128_S256x128).view.set]{fullShare} landed m c 3) := by
  rw [payload_recv]; rfl
theorem pay_send_4 (c : Dev nD) : (sched m).payload (sendCell c 4) 0 0
    = iprop(∃ f, ((((Memref.whole cc0_scratch1 : Memref sig .tc .vmem S4x256x128 .bf16).slice (Rect.unit (s := S4x256x128) ![2, 0, 0] S1x256x128.size inb_S4x256x128_S1x256x128_2_0_0) (fun _ => rfl)).squeeze S256x128 squeezes_S1x256x128_S256x128).view.loc (c : Thread nD τ) ↦[(((Memref.whole cc0_scratch1 : Memref sig .tc .vmem S4x256x128 .bf16).slice (Rect.unit (s := S4x256x128) ![2, 0, 0] S1x256x128.size inb_S4x256x128_S1x256x128_2_0_0) (fun _ => rfl)).squeeze S256x128 squeezes_S1x256x128_S256x128).view.set]{fullShare} f)) := by
  rw [payload_send]; rfl
theorem pay_recv_4 (c : Dev nD) : (sched m).payload (recvCell c 4) 0 0
    = ((((Memref.whole cc0_scratch2 : Memref sig .tc .vmem S3x4x3x256x128 .bf16).slice (Rect.unit (s := S3x4x3x256x128) ![0, 2, 0, 0, 0] S1x1x1x256x128.size inb_S3x4x3x256x128_S1x1x1x256x128_0_2_0_0_0) (fun _ => rfl)).squeeze S256x128 squeezes_S1x1x1x256x128_S256x128).view.loc (c : Thread nD τ) ↦[(((Memref.whole cc0_scratch2 : Memref sig .tc .vmem S3x4x3x256x128 .bf16).slice (Rect.unit (s := S3x4x3x256x128) ![0, 2, 0, 0, 0] S1x1x1x256x128.size inb_S3x4x3x256x128_S1x1x1x256x128_0_2_0_0_0) (fun _ => rfl)).squeeze S256x128 squeezes_S1x1x1x256x128_S256x128).view.set]{fullShare} landed m c 4) := by
  rw [payload_recv]; rfl
theorem pay_send_5 (c : Dev nD) : (sched m).payload (sendCell c 5) 0 0
    = iprop(∃ f, ((((Memref.whole cc0_scratch1 : Memref sig .tc .vmem S4x256x128 .bf16).slice (Rect.unit (s := S4x256x128) ![3, 0, 0] S1x256x128.size inb_S4x256x128_S1x256x128_3_0_0) (fun _ => rfl)).squeeze S256x128 squeezes_S1x256x128_S256x128).view.loc (c : Thread nD τ) ↦[(((Memref.whole cc0_scratch1 : Memref sig .tc .vmem S4x256x128 .bf16).slice (Rect.unit (s := S4x256x128) ![3, 0, 0] S1x256x128.size inb_S4x256x128_S1x256x128_3_0_0) (fun _ => rfl)).squeeze S256x128 squeezes_S1x256x128_S256x128).view.set]{fullShare.left} f)) := by
  rw [payload_send]; rfl
theorem pay_recv_5 (c : Dev nD) : (sched m).payload (recvCell c 5) 0 0
    = ((((Memref.whole cc0_scratch2 : Memref sig .tc .vmem S3x4x3x256x128 .bf16).slice (Rect.unit (s := S3x4x3x256x128) ![0, 3, 0, 0, 0] S1x1x1x256x128.size inb_S3x4x3x256x128_S1x1x1x256x128_0_3_0_0_0) (fun _ => rfl)).squeeze S256x128 squeezes_S1x1x1x256x128_S256x128).view.loc (c : Thread nD τ) ↦[(((Memref.whole cc0_scratch2 : Memref sig .tc .vmem S3x4x3x256x128 .bf16).slice (Rect.unit (s := S3x4x3x256x128) ![0, 3, 0, 0, 0] S1x1x1x256x128.size inb_S3x4x3x256x128_S1x1x1x256x128_0_3_0_0_0) (fun _ => rfl)).squeeze S256x128 squeezes_S1x1x1x256x128_S256x128).view.set]{fullShare} landed m c 5) := by
  rw [payload_recv]; rfl
theorem pay_send_6 (c : Dev nD) : (sched m).payload (sendCell c 6) 0 0
    = iprop(∃ f, ((((Memref.whole cc0_scratch1 : Memref sig .tc .vmem S4x256x128 .bf16).slice (Rect.unit (s := S4x256x128) ![3, 0, 0] S1x256x128.size inb_S4x256x128_S1x256x128_3_0_0) (fun _ => rfl)).squeeze S256x128 squeezes_S1x256x128_S256x128).view.loc (c : Thread nD τ) ↦[(((Memref.whole cc0_scratch1 : Memref sig .tc .vmem S4x256x128 .bf16).slice (Rect.unit (s := S4x256x128) ![3, 0, 0] S1x256x128.size inb_S4x256x128_S1x256x128_3_0_0) (fun _ => rfl)).squeeze S256x128 squeezes_S1x256x128_S256x128).view.set]{fullShare.right.left} f)) := by
  rw [payload_send]; rfl
theorem pay_recv_6 (c : Dev nD) : (sched m).payload (recvCell c 6) 0 0
    = ((((Memref.whole cc0_scratch2 : Memref sig .tc .vmem S3x4x3x256x128 .bf16).slice (Rect.unit (s := S3x4x3x256x128) ![0, 3, 1, 0, 0] S1x1x1x256x128.size inb_S3x4x3x256x128_S1x1x1x256x128_0_3_1_0_0) (fun _ => rfl)).squeeze S256x128 squeezes_S1x1x1x256x128_S256x128).view.loc (c : Thread nD τ) ↦[(((Memref.whole cc0_scratch2 : Memref sig .tc .vmem S3x4x3x256x128 .bf16).slice (Rect.unit (s := S3x4x3x256x128) ![0, 3, 1, 0, 0] S1x1x1x256x128.size inb_S3x4x3x256x128_S1x1x1x256x128_0_3_1_0_0) (fun _ => rfl)).squeeze S256x128 squeezes_S1x1x1x256x128_S256x128).view.set]{fullShare} landed m c 6) := by
  rw [payload_recv]; rfl
theorem pay_send_7 (c : Dev nD) : (sched m).payload (sendCell c 7) 0 0
    = iprop(∃ f, ((((Memref.whole cc0_scratch1 : Memref sig .tc .vmem S4x256x128 .bf16).slice (Rect.unit (s := S4x256x128) ![3, 0, 0] S1x256x128.size inb_S4x256x128_S1x256x128_3_0_0) (fun _ => rfl)).squeeze S256x128 squeezes_S1x256x128_S256x128).view.loc (c : Thread nD τ) ↦[(((Memref.whole cc0_scratch1 : Memref sig .tc .vmem S4x256x128 .bf16).slice (Rect.unit (s := S4x256x128) ![3, 0, 0] S1x256x128.size inb_S4x256x128_S1x256x128_3_0_0) (fun _ => rfl)).squeeze S256x128 squeezes_S1x256x128_S256x128).view.set]{fullShare.right.right} f)) := by
  rw [payload_send]; rfl
theorem pay_recv_7 (c : Dev nD) : (sched m).payload (recvCell c 7) 0 0
    = ((((Memref.whole cc0_scratch2 : Memref sig .tc .vmem S3x4x3x256x128 .bf16).slice (Rect.unit (s := S3x4x3x256x128) ![0, 3, 2, 0, 0] S1x1x1x256x128.size inb_S3x4x3x256x128_S1x1x1x256x128_0_3_2_0_0) (fun _ => rfl)).squeeze S256x128 squeezes_S1x1x1x256x128_S256x128).view.loc (c : Thread nD τ) ↦[(((Memref.whole cc0_scratch2 : Memref sig .tc .vmem S3x4x3x256x128 .bf16).slice (Rect.unit (s := S3x4x3x256x128) ![0, 3, 2, 0, 0] S1x1x1x256x128.size inb_S3x4x3x256x128_S1x1x1x256x128_0_3_2_0_0) (fun _ => rfl)).squeeze S256x128 squeezes_S1x1x1x256x128_S256x128).view.set]{fullShare} landed m c 7) := by
  rw [payload_recv]; rfl
theorem pay_send_8 (c : Dev nD) : (sched m).payload (sendCell c 8) 0 0
    = iprop(∃ f, ((((Memref.whole cc0_scratch1 : Memref sig .tc .vmem S4x256x128 .bf16).slice (Rect.unit (s := S4x256x128) ![0, 0, 0] S1x256x128.size inb_S4x256x128_S1x256x128_0_0_0) (fun _ => rfl)).squeeze S256x128 squeezes_S1x256x128_S256x128).view.loc (c : Thread nD τ) ↦[(((Memref.whole cc0_scratch1 : Memref sig .tc .vmem S4x256x128 .bf16).slice (Rect.unit (s := S4x256x128) ![0, 0, 0] S1x256x128.size inb_S4x256x128_S1x256x128_0_0_0) (fun _ => rfl)).squeeze S256x128 squeezes_S1x256x128_S256x128).view.set]{fullShare} f)) := by
  rw [payload_send]; rfl
theorem pay_recv_8 (c : Dev nD) : (sched m).payload (recvCell c 8) 0 0
    = ((((Memref.whole cc0_scratch2 : Memref sig .tc .vmem S3x4x3x256x128 .bf16).slice (Rect.unit (s := S3x4x3x256x128) ![1, 0, 0, 0, 0] S1x1x1x256x128.size inb_S3x4x3x256x128_S1x1x1x256x128_1_0_0_0_0) (fun _ => rfl)).squeeze S256x128 squeezes_S1x1x1x256x128_S256x128).view.loc (c : Thread nD τ) ↦[(((Memref.whole cc0_scratch2 : Memref sig .tc .vmem S3x4x3x256x128 .bf16).slice (Rect.unit (s := S3x4x3x256x128) ![1, 0, 0, 0, 0] S1x1x1x256x128.size inb_S3x4x3x256x128_S1x1x1x256x128_1_0_0_0_0) (fun _ => rfl)).squeeze S256x128 squeezes_S1x1x1x256x128_S256x128).view.set]{fullShare} landed m c 8) := by
  rw [payload_recv]; rfl
theorem pay_send_9 (c : Dev nD) : (sched m).payload (sendCell c 9) 0 0
    = iprop(∃ f, ((((Memref.whole cc0_scratch1 : Memref sig .tc .vmem S4x256x128 .bf16).slice (Rect.unit (s := S4x256x128) ![1, 0, 0] S1x256x128.size inb_S4x256x128_S1x256x128_1_0_0) (fun _ => rfl)).squeeze S256x128 squeezes_S1x256x128_S256x128).view.loc (c : Thread nD τ) ↦[(((Memref.whole cc0_scratch1 : Memref sig .tc .vmem S4x256x128 .bf16).slice (Rect.unit (s := S4x256x128) ![1, 0, 0] S1x256x128.size inb_S4x256x128_S1x256x128_1_0_0) (fun _ => rfl)).squeeze S256x128 squeezes_S1x256x128_S256x128).view.set]{fullShare} f)) := by
  rw [payload_send]; rfl
theorem pay_recv_9 (c : Dev nD) : (sched m).payload (recvCell c 9) 0 0
    = ((((Memref.whole cc0_scratch2 : Memref sig .tc .vmem S3x4x3x256x128 .bf16).slice (Rect.unit (s := S3x4x3x256x128) ![1, 1, 0, 0, 0] S1x1x1x256x128.size inb_S3x4x3x256x128_S1x1x1x256x128_1_1_0_0_0) (fun _ => rfl)).squeeze S256x128 squeezes_S1x1x1x256x128_S256x128).view.loc (c : Thread nD τ) ↦[(((Memref.whole cc0_scratch2 : Memref sig .tc .vmem S3x4x3x256x128 .bf16).slice (Rect.unit (s := S3x4x3x256x128) ![1, 1, 0, 0, 0] S1x1x1x256x128.size inb_S3x4x3x256x128_S1x1x1x256x128_1_1_0_0_0) (fun _ => rfl)).squeeze S256x128 squeezes_S1x1x1x256x128_S256x128).view.set]{fullShare} landed m c 9) := by
  rw [payload_recv]; rfl
theorem pay_send_10 (c : Dev nD) : (sched m).payload (sendCell c 10) 0 0
    = iprop(∃ f, ((((Memref.whole cc0_scratch1 : Memref sig .tc .vmem S4x256x128 .bf16).slice (Rect.unit (s := S4x256x128) ![2, 0, 0] S1x256x128.size inb_S4x256x128_S1x256x128_2_0_0) (fun _ => rfl)).squeeze S256x128 squeezes_S1x256x128_S256x128).view.loc (c : Thread nD τ) ↦[(((Memref.whole cc0_scratch1 : Memref sig .tc .vmem S4x256x128 .bf16).slice (Rect.unit (s := S4x256x128) ![2, 0, 0] S1x256x128.size inb_S4x256x128_S1x256x128_2_0_0) (fun _ => rfl)).squeeze S256x128 squeezes_S1x256x128_S256x128).view.set]{fullShare.left} f)) := by
  rw [payload_send]; rfl
theorem pay_recv_10 (c : Dev nD) : (sched m).payload (recvCell c 10) 0 0
    = ((((Memref.whole cc0_scratch2 : Memref sig .tc .vmem S3x4x3x256x128 .bf16).slice (Rect.unit (s := S3x4x3x256x128) ![1, 2, 0, 0, 0] S1x1x1x256x128.size inb_S3x4x3x256x128_S1x1x1x256x128_1_2_0_0_0) (fun _ => rfl)).squeeze S256x128 squeezes_S1x1x1x256x128_S256x128).view.loc (c : Thread nD τ) ↦[(((Memref.whole cc0_scratch2 : Memref sig .tc .vmem S3x4x3x256x128 .bf16).slice (Rect.unit (s := S3x4x3x256x128) ![1, 2, 0, 0, 0] S1x1x1x256x128.size inb_S3x4x3x256x128_S1x1x1x256x128_1_2_0_0_0) (fun _ => rfl)).squeeze S256x128 squeezes_S1x1x1x256x128_S256x128).view.set]{fullShare} landed m c 10) := by
  rw [payload_recv]; rfl
theorem pay_send_11 (c : Dev nD) : (sched m).payload (sendCell c 11) 0 0
    = iprop(∃ f, ((((Memref.whole cc0_scratch1 : Memref sig .tc .vmem S4x256x128 .bf16).slice (Rect.unit (s := S4x256x128) ![2, 0, 0] S1x256x128.size inb_S4x256x128_S1x256x128_2_0_0) (fun _ => rfl)).squeeze S256x128 squeezes_S1x256x128_S256x128).view.loc (c : Thread nD τ) ↦[(((Memref.whole cc0_scratch1 : Memref sig .tc .vmem S4x256x128 .bf16).slice (Rect.unit (s := S4x256x128) ![2, 0, 0] S1x256x128.size inb_S4x256x128_S1x256x128_2_0_0) (fun _ => rfl)).squeeze S256x128 squeezes_S1x256x128_S256x128).view.set]{fullShare.right.left} f)) := by
  rw [payload_send]; rfl
theorem pay_recv_11 (c : Dev nD) : (sched m).payload (recvCell c 11) 0 0
    = ((((Memref.whole cc0_scratch2 : Memref sig .tc .vmem S3x4x3x256x128 .bf16).slice (Rect.unit (s := S3x4x3x256x128) ![1, 2, 1, 0, 0] S1x1x1x256x128.size inb_S3x4x3x256x128_S1x1x1x256x128_1_2_1_0_0) (fun _ => rfl)).squeeze S256x128 squeezes_S1x1x1x256x128_S256x128).view.loc (c : Thread nD τ) ↦[(((Memref.whole cc0_scratch2 : Memref sig .tc .vmem S3x4x3x256x128 .bf16).slice (Rect.unit (s := S3x4x3x256x128) ![1, 2, 1, 0, 0] S1x1x1x256x128.size inb_S3x4x3x256x128_S1x1x1x256x128_1_2_1_0_0) (fun _ => rfl)).squeeze S256x128 squeezes_S1x1x1x256x128_S256x128).view.set]{fullShare} landed m c 11) := by
  rw [payload_recv]; rfl
theorem pay_send_12 (c : Dev nD) : (sched m).payload (sendCell c 12) 0 0
    = iprop(∃ f, ((((Memref.whole cc0_scratch1 : Memref sig .tc .vmem S4x256x128 .bf16).slice (Rect.unit (s := S4x256x128) ![2, 0, 0] S1x256x128.size inb_S4x256x128_S1x256x128_2_0_0) (fun _ => rfl)).squeeze S256x128 squeezes_S1x256x128_S256x128).view.loc (c : Thread nD τ) ↦[(((Memref.whole cc0_scratch1 : Memref sig .tc .vmem S4x256x128 .bf16).slice (Rect.unit (s := S4x256x128) ![2, 0, 0] S1x256x128.size inb_S4x256x128_S1x256x128_2_0_0) (fun _ => rfl)).squeeze S256x128 squeezes_S1x256x128_S256x128).view.set]{fullShare.right.right} f)) := by
  rw [payload_send]; rfl
theorem pay_recv_12 (c : Dev nD) : (sched m).payload (recvCell c 12) 0 0
    = ((((Memref.whole cc0_scratch2 : Memref sig .tc .vmem S3x4x3x256x128 .bf16).slice (Rect.unit (s := S3x4x3x256x128) ![1, 2, 2, 0, 0] S1x1x1x256x128.size inb_S3x4x3x256x128_S1x1x1x256x128_1_2_2_0_0) (fun _ => rfl)).squeeze S256x128 squeezes_S1x1x1x256x128_S256x128).view.loc (c : Thread nD τ) ↦[(((Memref.whole cc0_scratch2 : Memref sig .tc .vmem S3x4x3x256x128 .bf16).slice (Rect.unit (s := S3x4x3x256x128) ![1, 2, 2, 0, 0] S1x1x1x256x128.size inb_S3x4x3x256x128_S1x1x1x256x128_1_2_2_0_0) (fun _ => rfl)).squeeze S256x128 squeezes_S1x1x1x256x128_S256x128).view.set]{fullShare} landed m c 12) := by
  rw [payload_recv]; rfl
theorem pay_send_13 (c : Dev nD) : (sched m).payload (sendCell c 13) 0 0
    = iprop(∃ f, ((((Memref.whole cc0_scratch1 : Memref sig .tc .vmem S4x256x128 .bf16).slice (Rect.unit (s := S4x256x128) ![3, 0, 0] S1x256x128.size inb_S4x256x128_S1x256x128_3_0_0) (fun _ => rfl)).squeeze S256x128 squeezes_S1x256x128_S256x128).view.loc (c : Thread nD τ) ↦[(((Memref.whole cc0_scratch1 : Memref sig .tc .vmem S4x256x128 .bf16).slice (Rect.unit (s := S4x256x128) ![3, 0, 0] S1x256x128.size inb_S4x256x128_S1x256x128_3_0_0) (fun _ => rfl)).squeeze S256x128 squeezes_S1x256x128_S256x128).view.set]{fullShare} f)) := by
  rw [payload_send]; rfl
theorem pay_recv_13 (c : Dev nD) : (sched m).payload (recvCell c 13) 0 0
    = ((((Memref.whole cc0_scratch2 : Memref sig .tc .vmem S3x4x3x256x128 .bf16).slice (Rect.unit (s := S3x4x3x256x128) ![1, 3, 0, 0, 0] S1x1x1x256x128.size inb_S3x4x3x256x128_S1x1x1x256x128_1_3_0_0_0) (fun _ => rfl)).squeeze S256x128 squeezes_S1x1x1x256x128_S256x128).view.loc (c : Thread nD τ) ↦[(((Memref.whole cc0_scratch2 : Memref sig .tc .vmem S3x4x3x256x128 .bf16).slice (Rect.unit (s := S3x4x3x256x128) ![1, 3, 0, 0, 0] S1x1x1x256x128.size inb_S3x4x3x256x128_S1x1x1x256x128_1_3_0_0_0) (fun _ => rfl)).squeeze S256x128 squeezes_S1x1x1x256x128_S256x128).view.set]{fullShare} landed m c 13) := by
  rw [payload_recv]; rfl
theorem pay_send_14 (c : Dev nD) : (sched m).payload (sendCell c 14) 0 0
    = iprop(∃ f, ((((Memref.whole cc0_scratch1 : Memref sig .tc .vmem S4x256x128 .bf16).slice (Rect.unit (s := S4x256x128) ![0, 0, 0] S1x256x128.size inb_S4x256x128_S1x256x128_0_0_0) (fun _ => rfl)).squeeze S256x128 squeezes_S1x256x128_S256x128).view.loc (c : Thread nD τ) ↦[(((Memref.whole cc0_scratch1 : Memref sig .tc .vmem S4x256x128 .bf16).slice (Rect.unit (s := S4x256x128) ![0, 0, 0] S1x256x128.size inb_S4x256x128_S1x256x128_0_0_0) (fun _ => rfl)).squeeze S256x128 squeezes_S1x256x128_S256x128).view.set]{fullShare} f)) := by
  rw [payload_send]; rfl
theorem pay_recv_14 (c : Dev nD) : (sched m).payload (recvCell c 14) 0 0
    = ((((Memref.whole cc0_scratch2 : Memref sig .tc .vmem S3x4x3x256x128 .bf16).slice (Rect.unit (s := S3x4x3x256x128) ![2, 0, 0, 0, 0] S1x1x1x256x128.size inb_S3x4x3x256x128_S1x1x1x256x128_2_0_0_0_0) (fun _ => rfl)).squeeze S256x128 squeezes_S1x1x1x256x128_S256x128).view.loc (c : Thread nD τ) ↦[(((Memref.whole cc0_scratch2 : Memref sig .tc .vmem S3x4x3x256x128 .bf16).slice (Rect.unit (s := S3x4x3x256x128) ![2, 0, 0, 0, 0] S1x1x1x256x128.size inb_S3x4x3x256x128_S1x1x1x256x128_2_0_0_0_0) (fun _ => rfl)).squeeze S256x128 squeezes_S1x1x1x256x128_S256x128).view.set]{fullShare} landed m c 14) := by
  rw [payload_recv]; rfl
theorem pay_send_15 (c : Dev nD) : (sched m).payload (sendCell c 15) 0 0
    = iprop(∃ f, ((((Memref.whole cc0_scratch1 : Memref sig .tc .vmem S4x256x128 .bf16).slice (Rect.unit (s := S4x256x128) ![1, 0, 0] S1x256x128.size inb_S4x256x128_S1x256x128_1_0_0) (fun _ => rfl)).squeeze S256x128 squeezes_S1x256x128_S256x128).view.loc (c : Thread nD τ) ↦[(((Memref.whole cc0_scratch1 : Memref sig .tc .vmem S4x256x128 .bf16).slice (Rect.unit (s := S4x256x128) ![1, 0, 0] S1x256x128.size inb_S4x256x128_S1x256x128_1_0_0) (fun _ => rfl)).squeeze S256x128 squeezes_S1x256x128_S256x128).view.set]{fullShare.left} f)) := by
  rw [payload_send]; rfl
theorem pay_recv_15 (c : Dev nD) : (sched m).payload (recvCell c 15) 0 0
    = ((((Memref.whole cc0_scratch2 : Memref sig .tc .vmem S3x4x3x256x128 .bf16).slice (Rect.unit (s := S3x4x3x256x128) ![2, 1, 0, 0, 0] S1x1x1x256x128.size inb_S3x4x3x256x128_S1x1x1x256x128_2_1_0_0_0) (fun _ => rfl)).squeeze S256x128 squeezes_S1x1x1x256x128_S256x128).view.loc (c : Thread nD τ) ↦[(((Memref.whole cc0_scratch2 : Memref sig .tc .vmem S3x4x3x256x128 .bf16).slice (Rect.unit (s := S3x4x3x256x128) ![2, 1, 0, 0, 0] S1x1x1x256x128.size inb_S3x4x3x256x128_S1x1x1x256x128_2_1_0_0_0) (fun _ => rfl)).squeeze S256x128 squeezes_S1x1x1x256x128_S256x128).view.set]{fullShare} landed m c 15) := by
  rw [payload_recv]; rfl
theorem pay_send_16 (c : Dev nD) : (sched m).payload (sendCell c 16) 0 0
    = iprop(∃ f, ((((Memref.whole cc0_scratch1 : Memref sig .tc .vmem S4x256x128 .bf16).slice (Rect.unit (s := S4x256x128) ![1, 0, 0] S1x256x128.size inb_S4x256x128_S1x256x128_1_0_0) (fun _ => rfl)).squeeze S256x128 squeezes_S1x256x128_S256x128).view.loc (c : Thread nD τ) ↦[(((Memref.whole cc0_scratch1 : Memref sig .tc .vmem S4x256x128 .bf16).slice (Rect.unit (s := S4x256x128) ![1, 0, 0] S1x256x128.size inb_S4x256x128_S1x256x128_1_0_0) (fun _ => rfl)).squeeze S256x128 squeezes_S1x256x128_S256x128).view.set]{fullShare.right.left} f)) := by
  rw [payload_send]; rfl
theorem pay_recv_16 (c : Dev nD) : (sched m).payload (recvCell c 16) 0 0
    = ((((Memref.whole cc0_scratch2 : Memref sig .tc .vmem S3x4x3x256x128 .bf16).slice (Rect.unit (s := S3x4x3x256x128) ![2, 1, 1, 0, 0] S1x1x1x256x128.size inb_S3x4x3x256x128_S1x1x1x256x128_2_1_1_0_0) (fun _ => rfl)).squeeze S256x128 squeezes_S1x1x1x256x128_S256x128).view.loc (c : Thread nD τ) ↦[(((Memref.whole cc0_scratch2 : Memref sig .tc .vmem S3x4x3x256x128 .bf16).slice (Rect.unit (s := S3x4x3x256x128) ![2, 1, 1, 0, 0] S1x1x1x256x128.size inb_S3x4x3x256x128_S1x1x1x256x128_2_1_1_0_0) (fun _ => rfl)).squeeze S256x128 squeezes_S1x1x1x256x128_S256x128).view.set]{fullShare} landed m c 16) := by
  rw [payload_recv]; rfl
theorem pay_send_17 (c : Dev nD) : (sched m).payload (sendCell c 17) 0 0
    = iprop(∃ f, ((((Memref.whole cc0_scratch1 : Memref sig .tc .vmem S4x256x128 .bf16).slice (Rect.unit (s := S4x256x128) ![1, 0, 0] S1x256x128.size inb_S4x256x128_S1x256x128_1_0_0) (fun _ => rfl)).squeeze S256x128 squeezes_S1x256x128_S256x128).view.loc (c : Thread nD τ) ↦[(((Memref.whole cc0_scratch1 : Memref sig .tc .vmem S4x256x128 .bf16).slice (Rect.unit (s := S4x256x128) ![1, 0, 0] S1x256x128.size inb_S4x256x128_S1x256x128_1_0_0) (fun _ => rfl)).squeeze S256x128 squeezes_S1x256x128_S256x128).view.set]{fullShare.right.right} f)) := by
  rw [payload_send]; rfl
theorem pay_recv_17 (c : Dev nD) : (sched m).payload (recvCell c 17) 0 0
    = ((((Memref.whole cc0_scratch2 : Memref sig .tc .vmem S3x4x3x256x128 .bf16).slice (Rect.unit (s := S3x4x3x256x128) ![2, 1, 2, 0, 0] S1x1x1x256x128.size inb_S3x4x3x256x128_S1x1x1x256x128_2_1_2_0_0) (fun _ => rfl)).squeeze S256x128 squeezes_S1x1x1x256x128_S256x128).view.loc (c : Thread nD τ) ↦[(((Memref.whole cc0_scratch2 : Memref sig .tc .vmem S3x4x3x256x128 .bf16).slice (Rect.unit (s := S3x4x3x256x128) ![2, 1, 2, 0, 0] S1x1x1x256x128.size inb_S3x4x3x256x128_S1x1x1x256x128_2_1_2_0_0) (fun _ => rfl)).squeeze S256x128 squeezes_S1x1x1x256x128_S256x128).view.set]{fullShare} landed m c 17) := by
  rw [payload_recv]; rfl
theorem pay_send_18 (c : Dev nD) : (sched m).payload (sendCell c 18) 0 0
    = iprop(∃ f, ((((Memref.whole cc0_scratch1 : Memref sig .tc .vmem S4x256x128 .bf16).slice (Rect.unit (s := S4x256x128) ![2, 0, 0] S1x256x128.size inb_S4x256x128_S1x256x128_2_0_0) (fun _ => rfl)).squeeze S256x128 squeezes_S1x256x128_S256x128).view.loc (c : Thread nD τ) ↦[(((Memref.whole cc0_scratch1 : Memref sig .tc .vmem S4x256x128 .bf16).slice (Rect.unit (s := S4x256x128) ![2, 0, 0] S1x256x128.size inb_S4x256x128_S1x256x128_2_0_0) (fun _ => rfl)).squeeze S256x128 squeezes_S1x256x128_S256x128).view.set]{fullShare} f)) := by
  rw [payload_send]; rfl
theorem pay_recv_18 (c : Dev nD) : (sched m).payload (recvCell c 18) 0 0
    = ((((Memref.whole cc0_scratch2 : Memref sig .tc .vmem S3x4x3x256x128 .bf16).slice (Rect.unit (s := S3x4x3x256x128) ![2, 2, 0, 0, 0] S1x1x1x256x128.size inb_S3x4x3x256x128_S1x1x1x256x128_2_2_0_0_0) (fun _ => rfl)).squeeze S256x128 squeezes_S1x1x1x256x128_S256x128).view.loc (c : Thread nD τ) ↦[(((Memref.whole cc0_scratch2 : Memref sig .tc .vmem S3x4x3x256x128 .bf16).slice (Rect.unit (s := S3x4x3x256x128) ![2, 2, 0, 0, 0] S1x1x1x256x128.size inb_S3x4x3x256x128_S1x1x1x256x128_2_2_0_0_0) (fun _ => rfl)).squeeze S256x128 squeezes_S1x1x1x256x128_S256x128).view.set]{fullShare} landed m c 18) := by
  rw [payload_recv]; rfl
theorem pay_send_19 (c : Dev nD) : (sched m).payload (sendCell c 19) 0 0
    = iprop(∃ f, ((((Memref.whole cc0_scratch1 : Memref sig .tc .vmem S4x256x128 .bf16).slice (Rect.unit (s := S4x256x128) ![3, 0, 0] S1x256x128.size inb_S4x256x128_S1x256x128_3_0_0) (fun _ => rfl)).squeeze S256x128 squeezes_S1x256x128_S256x128).view.loc (c : Thread nD τ) ↦[(((Memref.whole cc0_scratch1 : Memref sig .tc .vmem S4x256x128 .bf16).slice (Rect.unit (s := S4x256x128) ![3, 0, 0] S1x256x128.size inb_S4x256x128_S1x256x128_3_0_0) (fun _ => rfl)).squeeze S256x128 squeezes_S1x256x128_S256x128).view.set]{fullShare} f)) := by
  rw [payload_send]; rfl
theorem pay_recv_19 (c : Dev nD) : (sched m).payload (recvCell c 19) 0 0
    = ((((Memref.whole cc0_scratch2 : Memref sig .tc .vmem S3x4x3x256x128 .bf16).slice (Rect.unit (s := S3x4x3x256x128) ![2, 3, 0, 0, 0] S1x1x1x256x128.size inb_S3x4x3x256x128_S1x1x1x256x128_2_3_0_0_0) (fun _ => rfl)).squeeze S256x128 squeezes_S1x1x1x256x128_S256x128).view.loc (c : Thread nD τ) ↦[(((Memref.whole cc0_scratch2 : Memref sig .tc .vmem S3x4x3x256x128 .bf16).slice (Rect.unit (s := S3x4x3x256x128) ![2, 3, 0, 0, 0] S1x1x1x256x128.size inb_S3x4x3x256x128_S1x1x1x256x128_2_3_0_0_0) (fun _ => rfl)).squeeze S256x128 squeezes_S1x1x1x256x128_S256x128).view.set]{fullShare} landed m c 19) := by
  rw [payload_recv]; rfl

/-! ## What the body's run starts from and what it leaves -/

/-- What the body's run starts from, piece by piece. -/
def bodyCtx (K : Dev nD × Cell → ℕ) (c : Dev nD) (W : Waits sig Unit) (X5 : (cc0_stg5_0 : Ref sig .tc).ty.Contents (Elt F))
    (A0 : (cc0_scratch0 : Ref sig .tc).ty.Contents (Elt F)) (S0 : (cc0_scratch1 : Ref sig .tc).ty.Contents (Elt F))
    (C0 : (cc0_scratch2 : Ref sig .tc).ty.Contents (Elt F)) : sProp 𝕄 :=
  iprop(ctxGhost m K c
    ∗ levAts L lv
    ∗ cred (tallyAt (barCell c) () 5)
    ∗ cred (tallyAt (recvCell c 0) () N)
    ∗ cred (tallyAt (recvCell c 1) () N)
    ∗ cred (tallyAt (recvCell c 2) () N)
    ∗ cred (tallyAt (recvCell c 3) () N)
    ∗ cred (tallyAt (recvCell c 4) () N)
    ∗ cred (tallyAt (recvCell c 5) () N)
    ∗ cred (tallyAt (recvCell c 6) () N)
    ∗ cred (tallyAt (recvCell c 7) () N)
    ∗ cred (tallyAt (recvCell c 8) () N)
    ∗ cred (tallyAt (recvCell c 9) () N)
    ∗ cred (tallyAt (recvCell c 10) () N)
    ∗ cred (tallyAt (recvCell c 11) () N)
    ∗ cred (tallyAt (recvCell c 12) () N)
    ∗ cred (tallyAt (recvCell c 13) () N)
    ∗ cred (tallyAt (recvCell c 14) () N)
    ∗ cred (tallyAt (recvCell c 15) () N)
    ∗ cred (tallyAt (recvCell c 16) () N)
    ∗ cred (tallyAt (recvCell c 17) () N)
    ∗ cred (tallyAt (recvCell c 18) () N)
    ∗ cred (tallyAt (recvCell c 19) () N)
    ∗ barPay 0 c
    ∗ barPay 1 c
    ∗ barPay 2 c
    ∗ barPay 3 c
    ∗ barPay 4 c
    ∗ owes (c : Thread nD τ) (0 + tallyAt (recvCell (px 3 c) 19) () N + tallyAt (recvCell (px 3 c) 18) () N + tallyAt (recvCell (px 2 c) 17) () N + tallyAt (recvCell (px 1 c) 16) () N + tallyAt (recvCell (px 0 c) 15) () N + tallyAt (recvCell (px 4 c) 14) () N + tallyAt (recvCell (px 4 c) 13) () N + tallyAt (recvCell (px 2 c) 12) () N + tallyAt (recvCell (px 1 c) 11) () N + tallyAt (recvCell (px 0 c) 10) () N + tallyAt (recvCell (px 4 c) 9) () N + tallyAt (recvCell (px 3 c) 8) () N + tallyAt (recvCell (px 2 c) 7) () N + tallyAt (recvCell (px 1 c) 6) () N + tallyAt (recvCell (px 0 c) 5) () N + tallyAt (recvCell (px 4 c) 4) () N + tallyAt (recvCell (px 3 c) 3) () N + tallyAt (recvCell (px 2 c) 2) () N + tallyAt (recvCell (px 1 c) 1) () N + tallyAt (recvCell (px 0 c) 0) () N + tallyAt (barCell (px 4 c)) () 1 + tallyAt (barCell (px 3 c)) () 1 + tallyAt (barCell (px 2 c)) () 1 + tallyAt (barCell (px 1 c)) () 1 + tallyAt (barCell (px 0 c)) () 1) W
    ∗ ((Memref.whole cc0_stg0_0 : Memref sig .tc .vmem _ _).view.loc (c : Thread nD τ) ↦[(Memref.whole cc0_stg0_0 : Memref sig .tc .vmem _ _).view.set]{fullShare} xs0 m c)
    ∗ ((Memref.whole cc0_stg1_0 : Memref sig .tc .vmem _ _).view.loc (c : Thread nD τ) ↦[(Memref.whole cc0_stg1_0 : Memref sig .tc .vmem _ _).view.set]{fullShare} xs1 m c)
    ∗ ((Memref.whole cc0_stg2_0 : Memref sig .tc .vmem _ _).view.loc (c : Thread nD τ) ↦[(Memref.whole cc0_stg2_0 : Memref sig .tc .vmem _ _).view.set]{fullShare} xs2 m c)
    ∗ ((Memref.whole cc0_stg3_0 : Memref sig .tc .vmem _ _).view.loc (c : Thread nD τ) ↦[(Memref.whole cc0_stg3_0 : Memref sig .tc .vmem _ _).view.set]{fullShare} xs3 m c)
    ∗ ((Memref.whole cc0_stg4_0 : Memref sig .tc .vmem _ _).view.loc (c : Thread nD τ) ↦[(Memref.whole cc0_stg4_0 : Memref sig .tc .vmem _ _).view.set]{fullShare} xs4 m c)
    ∗ ((Memref.whole cc0_stg5_0 : Memref sig .tc .vmem _ _).view.loc (c : Thread nD τ) ↦[(Memref.whole cc0_stg5_0 : Memref sig .tc .vmem _ _).view.set]{fullShare} X5)
    ∗ ((Memref.whole cc0_scratch0 : Memref sig .tc .vmem _ _).view.loc (c : Thread nD τ) ↦[(Memref.whole cc0_scratch0 : Memref sig .tc .vmem _ _).view.set]{fullShare} A0)
    ∗ ((((Memref.whole cc0_scratch1 : Memref sig .tc .vmem S4x256x128 .bf16).slice (Rect.unit (s := S4x256x128) ![0, 0, 0] S1x256x128.size inb_S4x256x128_S1x256x128_0_0_0) (fun _ => rfl)).squeeze S256x128 squeezes_S1x256x128_S256x128).view.loc (c : Thread nD τ) ↦[(((Memref.whole cc0_scratch1 : Memref sig .tc .vmem S4x256x128 .bf16).slice (Rect.unit (s := S4x256x128) ![0, 0, 0] S1x256x128.size inb_S4x256x128_S1x256x128_0_0_0) (fun _ => rfl)).squeeze S256x128 squeezes_S1x256x128_S256x128).view.set]{fullShare} S0)
    ∗ ((((Memref.whole cc0_scratch1 : Memref sig .tc .vmem S4x256x128 .bf16).slice (Rect.unit (s := S4x256x128) ![1, 0, 0] S1x256x128.size inb_S4x256x128_S1x256x128_1_0_0) (fun _ => rfl)).squeeze S256x128 squeezes_S1x256x128_S256x128).view.loc (c : Thread nD τ) ↦[(((Memref.whole cc0_scratch1 : Memref sig .tc .vmem S4x256x128 .bf16).slice (Rect.unit (s := S4x256x128) ![1, 0, 0] S1x256x128.size inb_S4x256x128_S1x256x128_1_0_0) (fun _ => rfl)).squeeze S256x128 squeezes_S1x256x128_S256x128).view.set]{fullShare} S0)
    ∗ ((((Memref.whole cc0_scratch1 : Memref sig .tc .vmem S4x256x128 .bf16).slice (Rect.unit (s := S4x256x128) ![2, 0, 0] S1x256x128.size inb_S4x256x128_S1x256x128_2_0_0) (fun _ => rfl)).squeeze S256x128 squeezes_S1x256x128_S256x128).view.loc (c : Thread nD τ) ↦[(((Memref.whole cc0_scratch1 : Memref sig .tc .vmem S4x256x128 .bf16).slice (Rect.unit (s := S4x256x128) ![2, 0, 0] S1x256x128.size inb_S4x256x128_S1x256x128_2_0_0) (fun _ => rfl)).squeeze S256x128 squeezes_S1x256x128_S256x128).view.set]{fullShare} S0)
    ∗ ((((Memref.whole cc0_scratch1 : Memref sig .tc .vmem S4x256x128 .bf16).slice (Rect.unit (s := S4x256x128) ![3, 0, 0] S1x256x128.size inb_S4x256x128_S1x256x128_3_0_0) (fun _ => rfl)).squeeze S256x128 squeezes_S1x256x128_S256x128).view.loc (c : Thread nD τ) ↦[(((Memref.whole cc0_scratch1 : Memref sig .tc .vmem S4x256x128 .bf16).slice (Rect.unit (s := S4x256x128) ![3, 0, 0] S1x256x128.size inb_S4x256x128_S1x256x128_3_0_0) (fun _ => rfl)).squeeze S256x128 squeezes_S1x256x128_S256x128).view.set]{fullShare} S0)
    ∗ (((c : Thread nD τ).loc cc0_scratch2) ↦[Regions.comRest]{fullShare} C0))

/-- What the body's run leaves: nothing owed; the inputs' staging buffers as they were and the result's holding the four
    chunks' sums over all devices; the scratch buffers at whatever they hold, the outgoing buffer by its four slices and the
    receive buffer by its twenty slots and the rest; and every copy's send and receive cell with its one round consumed. -/
def bodyEnd (c : Dev nD) : sProp 𝕄 :=
  iprop((∃ W', owes (c : Thread nD τ) 0 W')
    ∗ ((Memref.whole cc0_stg0_0 : Memref sig .tc .vmem _ _).view.loc (c : Thread nD τ) ↦[(Memref.whole cc0_stg0_0 : Memref sig .tc .vmem _ _).view.set]{fullShare} xs0 m c)
    ∗ ((Memref.whole cc0_stg1_0 : Memref sig .tc .vmem _ _).view.loc (c : Thread nD τ) ↦[(Memref.whole cc0_stg1_0 : Memref sig .tc .vmem _ _).view.set]{fullShare} xs1 m c)
    ∗ ((Memref.whole cc0_stg2_0 : Memref sig .tc .vmem _ _).view.loc (c : Thread nD τ) ↦[(Memref.whole cc0_stg2_0 : Memref sig .tc .vmem _ _).view.set]{fullShare} xs2 m c)
    ∗ ((Memref.whole cc0_stg3_0 : Memref sig .tc .vmem _ _).view.loc (c : Thread nD τ) ↦[(Memref.whole cc0_stg3_0 : Memref sig .tc .vmem _ _).view.set]{fullShare} xs3 m c)
    ∗ ((Memref.whole cc0_stg4_0 : Memref sig .tc .vmem _ _).view.loc (c : Thread nD τ) ↦[(Memref.whole cc0_stg4_0 : Memref sig .tc .vmem _ _).view.set]{fullShare} xs4 m c)
    ∗ ((Memref.whole cc0_stg5_0 : Memref sig .tc .vmem _ _).view.loc (c : Thread nD τ) ↦[(Memref.whole cc0_stg5_0 : Memref sig .tc .vmem _ _).view.set]{fullShare} outAt m c)
    ∗ (∃ f, ((Memref.whole cc0_scratch0 : Memref sig .tc .vmem _ _).view.loc (c : Thread nD τ) ↦[(Memref.whole cc0_scratch0 : Memref sig .tc .vmem _ _).view.set]{fullShare} f))
    ∗ (∃ f, srcPts c 0 fullShare f) ∗ (∃ f, srcPts c 1 fullShare f) ∗ (∃ f, srcPts c 2 fullShare f) ∗ (∃ f, srcPts c 3 fullShare f)
    ∗ (∃ f, slotPts c 0 f) ∗ (∃ f, slotPts c 1 f) ∗ (∃ f, slotPts c 2 f) ∗ (∃ f, slotPts c 3 f) ∗ (∃ f, slotPts c 4 f) ∗ (∃ f, slotPts c 5 f) ∗ (∃ f, slotPts c 6 f) ∗ (∃ f, slotPts c 7 f) ∗ (∃ f, slotPts c 8 f) ∗ (∃ f, slotPts c 9 f) ∗ (∃ f, slotPts c 10 f) ∗ (∃ f, slotPts c 11 f) ∗ (∃ f, slotPts c 12 f) ∗ (∃ f, slotPts c 13 f) ∗ (∃ f, slotPts c 14 f) ∗ (∃ f, slotPts c 15 f) ∗ (∃ f, slotPts c 16 f) ∗ (∃ f, slotPts c 17 f) ∗ (∃ f, slotPts c 18 f) ∗ (∃ f, slotPts c 19 f)
    ∗ (∃ f, (((c : Thread nD τ).loc cc0_scratch2) ↦[Regions.comRest]{fullShare} f))
    ∗ (bigSep Finset.univ fun s : Fin 20 => atPos ER (sendCell c s) 1 ∅ 0)
    ∗ (bigSep Finset.univ fun s : Fin 20 => atPos ER (recvCell c s) 1 ∅ 0))

end Cert.KernelIdeal.Body

end
-- ==== Proof.KernelIdealBodyDefs.lean ====
/-
  The interface of one device's body: the printed semaphore words and memrefs named, the schedule's payloads spelt over the
  printed memrefs, what the body's run starts from and what it leaves.
-/
import proofs.«900514_g7700000000000515_dist_attn_self_mha_htp_b2_sq128_skv128_d512_hq8_dh64_v7x_i16_bf16_1_alg».proof.Proof.KernelIdealGhost
import proofs.«900514_g7700000000000515_dist_attn_self_mha_htp_b2_sq128_skv128_d512_hq8_dh64_v7x_i16_bf16_1_alg».proof.Proof.KernelIdealData
import proofs.«900514_g7700000000000515_dist_attn_self_mha_htp_b2_sq128_skv128_d512_hq8_dh64_v7x_i16_bf16_1_alg».proof.Proof.KernelIdealCtx
import proofs.«900514_g7700000000000515_dist_attn_self_mha_htp_b2_sq128_skv128_d512_hq8_dh64_v7x_i16_bf16_1_alg».proof.Proof.KernelIdealViews
import proofs.«900514_g7700000000000515_dist_attn_self_mha_htp_b2_sq128_skv128_d512_hq8_dh64_v7x_i16_bf16_1_alg».proof.Proof.KernelIdealSteps
import proofs.«900514_g7700000000000515_dist_attn_self_mha_htp_b2_sq128_skv128_d512_hq8_dh64_v7x_i16_bf16_1_alg».proof.Proof.KernelIdealRegions
import proofs.«900514_g7700000000000515_dist_attn_self_mha_htp_b2_sq128_skv128_d512_hq8_dh64_v7x_i16_bf16_1_alg».proof.Proof.KernelIdealWaits
import proofs.«900514_g7700000000000515_dist_attn_self_mha_htp_b2_sq128_skv128_d512_hq8_dh64_v7x_i16_bf16_1_alg».proof.Proof.KernelIdealBodyTables

set_option maxRecDepth 16384

noncomputable section

namespace Cert.KernelIdeal.Body

open Cert.KernelIdeal Cert.KernelIdeal.Gen Cert.KernelIdeal.Terms Cert.KernelIdeal.Proto
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## Small facts the run uses -/

omit [FloatOps F] in
theorem hz3 : (![0, 0, 0] : Fin 3 → Nat) = fun _ => 0 := funext fun a => by fin_cases a <;> rfl
omit [FloatOps F] in
theorem hz2 : (![0, 0] : Fin 2 → Nat) = fun _ => 0 := funext fun a => by fin_cases a <;> rfl

omit [FloatOps F] in
/-- A load of a whole staging buffer reads its contents. -/
theorem rd0 (f : (cc0_stg0_0 : Ref sig .tc).ty.Contents (Elt F)) :
    (Memref.whole cc0_stg0_0 : Memref sig .tc .vmem S2x128x512 .f32).view.readAt (Elt F) (Rect.unit (s := S2x128x512) ![0, 0, 0] S2x128x512.size inb_S2x128x512_S2x128x512_0_0_0).toLoadRect f = f :=
  Memref.readAt_unit_zero (Elt F) cc0_stg0_0 hz3 _ f
omit [FloatOps F] in
theorem rd1 (f : (cc0_stg1_0 : Ref sig .tc).ty.Contents (Elt F)) :
    (Memref.whole cc0_stg1_0 : Memref sig .tc .vmem S512x512 .f32).view.readAt (Elt F) (Rect.unit (s := S512x512) ![0, 0] S512x512.size inb_S512x512_S512x512_0_0).toLoadRect f = f :=
  Memref.readAt_unit_zero (Elt F) cc0_stg1_0 hz2 _ f
omit [FloatOps F] in
theorem rd2 (f : (cc0_stg2_0 : Ref sig .tc).ty.Contents (Elt F)) :
    (Memref.whole cc0_stg2_0 : Memref sig .tc .vmem S512x512 .f32).view.readAt (Elt F) (Rect.unit (s := S512x512) ![0, 0] S512x512.size inb_S512x512_S512x512_0_0).toLoadRect f = f :=
  Memref.readAt_unit_zero (Elt F) cc0_stg2_0 hz2 _ f
omit [FloatOps F] in
theorem rd3 (f : (cc0_stg3_0 : Ref sig .tc).ty.Contents (Elt F)) :
    (Memref.whole cc0_stg3_0 : Memref sig .tc .vmem S512x512 .f32).view.readAt (Elt F) (Rect.unit (s := S512x512) ![0, 0] S512x512.size inb_S512x512_S512x512_0_0).toLoadRect f = f :=
  Memref.readAt_unit_zero (Elt F) cc0_stg3_0 hz2 _ f
omit [FloatOps F] in
theorem rd4 (f : (cc0_stg4_0 : Ref sig .tc).ty.Contents (Elt F)) :
    (Memref.whole cc0_stg4_0 : Memref sig .tc .vmem S512x512 .f32).view.readAt (Elt F) (Rect.unit (s := S512x512) ![0, 0] S512x512.size inb_S512x512_S512x512_0_0).toLoadRect f = f :=
  Memref.readAt_unit_zero (Elt F) cc0_stg4_0 hz2 _ f

/-- What the entry wait hands a device: each partner's four slots. -/
theorem bar_payloads (c : Dev nD) : bigSep Finset.univ (fun d : Fin 5 => (sched m).payload (barCell c) 0 d)
    = iprop(barPay 0 (px 0 c) ∗ barPay 1 (px 1 c) ∗ barPay 2 (px 2 c) ∗ barPay 3 (px 3 c) ∗ barPay 4 (px 4 c)) := by
  rw [bigSep_univ_eq_bigSepL [0, 1, 2, 3, 4] (by decide) (by decide)]
  rfl

end Cert.KernelIdeal.Body

end
-- ==== Proof.KernelIdealBridge.lean ====
/-
  Opening the exchange's ghost state for the body's run, and closing it after.

  The ghost state of a device is a pair of big separating conjunctions; the body's run names its pieces one by one. A
  persistent fact yields any number of its consequences, in any order; a separating conjunction over a finite type is
  the chain of its members; chains nest. So the ghost state entails the flat chain of its pieces. Conversely the pieces
  of the receive buffer and of the outgoing buffer, each at contents of its own, join into the whole buffer at some
  contents, and each of a device's forty copy cells, its one round consumed, closes and gives its counter back at zero.
-/
import proofs.«900514_g7700000000000515_dist_attn_self_mha_htp_b2_sq128_skv128_d512_hq8_dh64_v7x_i16_bf16_1_alg».proof.Proof.KernelIdealRegions
import proofs.«900514_g7700000000000515_dist_attn_self_mha_htp_b2_sq128_skv128_d512_hq8_dh64_v7x_i16_bf16_1_alg».proof.Proof.KernelIdealGhost
import proofs.«900514_g7700000000000515_dist_attn_self_mha_htp_b2_sq128_skv128_d512_hq8_dh64_v7x_i16_bf16_1_alg».proof.Proof.KernelIdealCtx
import proofs.«900514_g7700000000000515_dist_attn_self_mha_htp_b2_sq128_skv128_d512_hq8_dh64_v7x_i16_bf16_1_alg».proof.Proof.KernelIdealData

set_option maxRecDepth 8192

noncomputable section

namespace Cert.KernelIdeal.Bridge

open Cert.KernelIdeal Cert.KernelIdeal.Gen Cert.KernelIdeal.Terms Cert.KernelIdeal.Proto Cert.KernelIdeal.Regions

open Idealize.ShloMosaic
open Idealize.ShloMosaic.TcCoe
open Idealize.SL Idealize.SL.RA Idealize.SL.BI
open PCS
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Chains -/

/-- The members of a list, one by one, before a tail. -/
def chainL {I : Type} (l : List I) (Φ : I → sProp 𝕄) (Z : sProp 𝕄) : sProp 𝕄 := l.foldr (fun i acc => iprop(Φ i ∗ acc)) Z

theorem chainL_nil {I : Type} (Φ : I → sProp 𝕄) (Z : sProp 𝕄) : chainL [] Φ Z = Z := rfl
theorem chainL_cons {I : Type} (i : I) (l : List I) (Φ : I → sProp 𝕄) (Z : sProp 𝕄) :
    chainL (i :: l) Φ Z = iprop(Φ i ∗ chainL l Φ Z) := rfl

/-- A chain is monotone in its tail. -/
theorem chainL_mono {I : Type} (l : List I) (Φ : I → sProp 𝕄) {Z Z' : sProp 𝕄} (h : Z ⊢ Z') : chainL l Φ Z ⊢ chainL l Φ Z' := by
  induction l with
  | nil => exact h
  | cons i l ih => rw [chainL_cons, chainL_cons]; exact sep_mono_right ih

/-- A nonempty list's separating conjunction beside a tail is the chain before the tail. -/
theorem bigSepL_sep_chain {I : Type} (l : List I) (hl : l ≠ []) (Φ : I → sProp 𝕄) (Z : sProp 𝕄) :
    iprop(bigSepL l Φ ∗ Z) ⊣⊢ chainL l Φ Z := by
  induction l with
  | nil => exact absurd rfl hl
  | cons i l ih =>
    cases l with
    | nil => exact BiEntails.rfl
    | cons j l =>
      rw [bigSepL_cons_cons, chainL_cons]
      exact sep_assoc.trans (sep_congr_right (ih (List.cons_ne_nil j l)))

/-- A persistent fact and something beside it: a consequence of the fact may be put in front of what the two entail. -/
theorem pers_cons {R A X Y : sProp 𝕄} [BI.Persistent R] (hA : R ⊢ A) (h : iprop(R ∗ X) ⊢ Y) : iprop(R ∗ X) ⊢ iprop(A ∗ Y) := by
  iintro ⟨#HR, HX⟩
  isplitr
  · iapply hA; iexact HR
  · iapply h; isplitr; · iexact HR
    iexact HX

/-- The same for a list of consequences. -/
theorem pers_chain {I : Type} {R X Y : sProp 𝕄} [BI.Persistent R] (l : List I) (Φ : I → sProp 𝕄) (hΦ : ∀ i, R ⊢ Φ i)
    (h : iprop(R ∗ X) ⊢ Y) : iprop(R ∗ X) ⊢ chainL l Φ Y := by
  induction l with
  | nil => exact h
  | cons i l ih => rw [chainL_cons]; exact pers_cons (hΦ i) ih

/-- A persistent fact beside a family serves every member's passage. -/
theorem bigSep_pers_mono {I : Type} (s : Finset I) (P : sProp 𝕄) [BI.Persistent P] (Φ Ψ : I → sProp 𝕄)
    (h : ∀ i, iprop(P ∗ Φ i) ⊢ Ψ i) : iprop(P ∗ bigSep s Φ) ⊢ bigSep s Ψ := by
  classical
  induction s using Finset.induction_on with
  | empty => rw [BI.bigSep_empty, BI.bigSep_empty]; iintro ⟨-, -⟩; iempintro
  | insert i s hi ih =>
    have e1 : bigSep (insert i s) Φ = iprop(Φ i ∗ bigSep s Φ) := BI.bigSep_insert hi
    have e2 : bigSep (insert i s) Ψ = iprop(Ψ i ∗ bigSep s Ψ) := BI.bigSep_insert hi
    rw [e1, e2]
    iintro ⟨#HP, HΦ, Hs⟩
    isplitl [HΦ]
    · iapply (h i); isplitr; · iexact HP
      iexact HΦ
    · iapply ih; isplitr; · iexact HP
      iexact Hs

/-- The five partners and the twenty copies, listed. -/
abbrev l5 : List (Fin 5) := [(0 : Fin 5), (1 : Fin 5), (2 : Fin 5), (3 : Fin 5), (4 : Fin 5)]
abbrev l20 : List (Fin 20) := [(0 : Fin 20), (1 : Fin 20), (2 : Fin 20), (3 : Fin 20), (4 : Fin 20), (5 : Fin 20), (6 : Fin 20), (7 : Fin 20), (8 : Fin 20), (9 : Fin 20), (10 : Fin 20), (11 : Fin 20), (12 : Fin 20), (13 : Fin 20), (14 : Fin 20), (15 : Fin 20), (16 : Fin 20), (17 : Fin 20), (18 : Fin 20), (19 : Fin 20)]

theorem bigSep_fin5 (Φ : Fin 5 → sProp 𝕄) : bigSep Finset.univ Φ = bigSepL l5 Φ :=
  bigSep_univ_eq_bigSepL l5 (by decide) (by decide) Φ
theorem bigSep_fin20 (Φ : Fin 20 → sProp 𝕄) : bigSep Finset.univ Φ = bigSepL l20 Φ :=
  bigSep_univ_eq_bigSepL l20 (by decide) (by decide) Φ

theorem fin5_chain (Φ : Fin 5 → sProp 𝕄) (Z : sProp 𝕄) : iprop(bigSep Finset.univ Φ ∗ Z) ⊣⊢ chainL l5 Φ Z := by
  rw [bigSep_fin5]; exact bigSepL_sep_chain l5 (List.cons_ne_nil _ _) Φ Z
theorem fin20_chain (Φ : Fin 20 → sProp 𝕄) (Z : sProp 𝕄) : iprop(bigSep Finset.univ Φ ∗ Z) ⊣⊢ chainL l20 Φ Z := by
  rw [bigSep_fin20]; exact bigSepL_sep_chain l20 (List.cons_ne_nil _ _) Φ Z

/-! ## Opening the ghost state -/

/-- What is a device's alone, piece by piece: the tokens of its entry signals, of its copies' departures, of their
    landings; its positions in its barrier cell, its send cells, its receive cells. -/
theorem open_linear (c : Dev nD) :
    (linear (F := F) c : sProp 𝕄) ⊢
      chainL l5 (fun i => dutyTok ER (barCell (px i c)) 0 i)
        (chainL l20 (fun s => dutyTok ER (sendCell c s) 0 0)
          (chainL l20 (fun s => dutyTok ER (recvCell (px (slotX s) c) s) 0 0)
            iprop(atPos ER (barCell c) 0 ∅ 0
              ∗ chainL l20 (fun s => atPos ER (sendCell c s) 0 ∅ 0)
                  (bigSepL l20 fun s => atPos ER (recvCell c s) 0 ∅ 0)))) := by
  have step1 : (linear (F := F) c : sProp 𝕄) ⊢
      iprop((bigSep Finset.univ fun i : Fin 5 => dutyTok ER (barCell (px i c)) 0 i)
        ∗ (bigSep Finset.univ fun s : Fin 20 => dutyTok ER (sendCell c s) 0 0)
        ∗ (bigSep Finset.univ fun s : Fin 20 => dutyTok ER (recvCell (px (slotX s) c) s) 0 0)
        ∗ atPos ER (barCell c) 0 ∅ 0
        ∗ (bigSep Finset.univ fun s : Fin 20 => atPos ER (sendCell c s) 0 ∅ 0)
        ∗ (bigSep Finset.univ fun s : Fin 20 => atPos ER (recvCell c s) 0 ∅ 0)) := by
    unfold linear payToks
    rw [bigSep_cell]
    iintro ⟨⟨Hpb, Hps, Hpr⟩, Hb, Hr, Hs⟩
    isplitl [Hb]; · iexact Hb
    isplitl [Hs]; · iexact Hs
    isplitl [Hr]; · iexact Hr
    isplitl [Hpb]; · iexact Hpb
    isplitl [Hps]; · iexact Hps
    iexact Hpr
  refine step1.trans ?_
  refine (fin5_chain _ _).1.trans (chainL_mono _ _ ?_)
  refine (fin20_chain _ _).1.trans (chainL_mono _ _ ?_)
  refine (fin20_chain _ _).1.trans (chainL_mono _ _ ?_)
  refine sep_mono_right ?_
  refine (fin20_chain _ _).1.trans (chainL_mono _ _ ?_)
  exact Entails.of_eq (bigSep_fin20 _)

/-- THE GHOST STATE, OPENED: every piece the body's run names, in its order. -/
theorem open_ghost (K : Dev nD × Cell → ℕ) (c : Dev nD) : ghost m K c ⊢ ctxGhost m K c := by
  have h : ghost m K c ⊢
      iprop(cellInv ER (sched m) (K (c, .inl ())) (barCell c)
        ∗ chainL l5 (fun i => cellInv ER (sched m) (K (px i c, .inl ())) (barCell (px i c)))
          (chainL l20 (fun s => cellInv ER (sched m) (K (c, .inr (.inl s))) (sendCell c s))
            (chainL l20 (fun s => cellInv ER (sched m) (K (c, .inr (.inr s))) (recvCell c s))
              (chainL l20 (fun s => cellInv ER (sched m) (K (px (slotX s) c, .inr (.inr s))) (recvCell (px (slotX s) c) s))
                (chainL l5 (fun i => reached ER (barCell (px i c)) 0)
                  (chainL l20 (fun s => reached ER (sendCell c s) 0)
                    (chainL l20 (fun s => reached ER (recvCell (px (slotX s) c) s) 0)
                      (chainL l20 (fun s => reached ER (recvCell c s) 0)
                        (chainL l5 (fun i => dutyTok ER (barCell (px i c)) 0 i)
                          (chainL l20 (fun s => dutyTok ER (sendCell c s) 0 0)
                            (chainL l20 (fun s => dutyTok ER (recvCell (px (slotX s) c) s) 0 0)
                              iprop(atPos ER (barCell c) 0 ∅ 0
                                ∗ chainL l20 (fun s => atPos ER (sendCell c s) 0 ∅ 0)
                                    (bigSepL l20 fun s => atPos ER (recvCell c s) 0 ∅ 0))))))))))))) := by
    unfold ghost
    refine pers_cons (inv_at m K (c, .inl ())) ?_
    refine pers_chain l5 _ (fun i => inv_at m K (px i c, .inl ())) ?_
    refine pers_chain l20 _ (fun s => inv_at m K (c, .inr (.inl s))) ?_
    refine pers_chain l20 _ (fun s => inv_at m K (c, .inr (.inr s))) ?_
    refine pers_chain l20 _ (fun s => inv_at m K (px (slotX s) c, .inr (.inr s))) ?_
    refine pers_chain l5 _ (fun i => reached_at m K (px i c, .inl ())) ?_
    refine pers_chain l20 _ (fun s => reached_at m K (c, .inr (.inl s))) ?_
    refine pers_chain l20 _ (fun s => reached_at m K (px (slotX s) c, .inr (.inr s))) ?_
    refine pers_chain l20 _ (fun s => reached_at m K (c, .inr (.inr s))) ?_
    iintro ⟨-, HL⟩
    iapply (open_linear c); iexact HL
  exact h

/-! ## Closing the copy cells -/

/-- After round 0 no cell has a duty. -/
theorem duties_later (g : GSem nD τ sig) : ∀ r, 1 ≤ r → (sched (F := F) m).duties g r = ∅ :=
  fun r hr => by dsimp only [sched]; exact if_neg fun h => absurd h.1 (by omega)

theorem close_send (K : Dev nD × Cell → ℕ) (c : Dev nD) (s : Fin 20) :
    iprop(records m K ∗ atPos ER (sendCell c s) 1 ∅ 0) ⊢ iprop(|={Set.univ}=> semVal (sendCell c s) 0) := by
  iintro ⟨#HR, Hat⟩
  iapply (Rounds.cell_close ER (sched m) (Set.mem_univ (K (c, .inr (.inl s)))) (fun h => h) (R := 1) (duties_later m (sendCell c s)))
  isplitr
  · iapply (inv_at m K (c, .inr (.inl s))); iexact HR
  · iexact Hat

theorem close_recv (K : Dev nD × Cell → ℕ) (c : Dev nD) (s : Fin 20) :
    iprop(records m K ∗ atPos ER (recvCell c s) 1 ∅ 0) ⊢ iprop(|={Set.univ}=> semVal (recvCell c s) 0) := by
  iintro ⟨#HR, Hat⟩
  iapply (Rounds.cell_close ER (sched m) (Set.mem_univ (K (c, .inr (.inr s)))) (fun h => h) (R := 1) (duties_later m (recvCell c s)))
  isplitr
  · iapply (inv_at m K (c, .inr (.inr s))); iexact HR
  · iexact Hat

/-- THE FORTY COPY CELLS, each with its one round consumed, close: their counters come back at zero. -/
theorem close_cells (K : Dev nD × Cell → ℕ) (c : Dev nD) :
    iprop(records m K ∗ (bigSep Finset.univ fun s : Fin 20 => atPos ER (sendCell c s) 1 ∅ 0)
        ∗ (bigSep Finset.univ fun s : Fin 20 => atPos ER (recvCell c s) 1 ∅ 0))
      ⊢ iprop(|={Set.univ}=> ((bigSep Finset.univ fun s : Fin 20 => semVal (sendCell c s) 0)
          ∗ (bigSep Finset.univ fun s : Fin 20 => semVal (recvCell c s) 0))) := by
  have hs := (bigSep_pers_mono Finset.univ (records m K) _ _ (fun s => close_send m K c s)).trans (bigSep_fupd Finset.univ _)
  have hr := (bigSep_pers_mono Finset.univ (records m K) _ _ (fun s => close_recv m K c s)).trans (bigSep_fupd Finset.univ _)
  iintro ⟨#HR, Hs, Hr⟩
  iapply fupd_sep
  isplitl [Hs]
  · iapply hs; isplitr; · iexact HR
    iexact Hs
  · iapply hr; isplitr; · iexact HR
    iexact Hr

/-! ## Handing over the receive slots -/

theorem barPay_0 (p : Dev nD) : barPay (F := F) 0 p = iprop(give p 0 ∗ give p 5 ∗ give p 10 ∗ give p 15) := rfl
theorem barPay_1 (p : Dev nD) : barPay (F := F) 1 p = iprop(give p 1 ∗ give p 6 ∗ give p 11 ∗ give p 16) := rfl
theorem barPay_2 (p : Dev nD) : barPay (F := F) 2 p = iprop(give p 2 ∗ give p 7 ∗ give p 12 ∗ give p 17) := rfl
theorem barPay_3 (p : Dev nD) : barPay (F := F) 3 p = iprop(give p 3 ∗ give p 8 ∗ give p 18 ∗ give p 19) := rfl
theorem barPay_4 (p : Dev nD) : barPay (F := F) 4 p = iprop(give p 4 ∗ give p 9 ∗ give p 13 ∗ give p 14) := rfl

/-- One slot, handed over: the slot at some contents, and that its cell is open. -/
theorem give_one (K : Dev nD × Cell → ℕ) (c : Dev nD) (s : Fin 20) (f : Buf (Elt F) ((slotM s).view.loc (c : Thread nD τ))) :
    iprop(records m K ∗ slotPts c s f) ⊢ give c s := by
  unfold give
  iintro ⟨#HR, Hs⟩
  isplitl [Hs]
  · iexists f; iexact Hs
  · iapply (reached_at m K (c, .inr (.inr s))); iexact HR

/-- THE RECEIVE BUFFER, HANDED OVER: to each partner the four slots it will write; the unused rest stays. -/
theorem give_slots (K : Dev nD × Cell → ℕ) (c : Dev nD) (f : Buf (Elt F) ((c : Thread nD τ).loc cc0_scratch2)) :
    iprop(records m K ∗ (((c : Thread nD τ).loc cc0_scratch2) ↦{fullShare} f))
      ⊢ iprop(barPay 0 c ∗ barPay 1 c ∗ barPay 2 c ∗ barPay 3 c ∗ barPay 4 c ∗ (((c : Thread nD τ).loc cc0_scratch2) ↦[comRest]{fullShare} f)) := by
  rw [barPay_0, barPay_1, barPay_2, barPay_3, barPay_4]
  iintro ⟨#HR, Hf⟩
  ihave H := ((split_com c f).1) $$ [Hf]
  · iexact Hf
  icases H with ⟨H0, H1, H2, H3, H4, H5, H6, H7, H8, H9, H10, H11, H12, H13, H14, H15, H16, H17, H18, H19, Hrest⟩
  isplitl [H0 H5 H10 H15]
  · isplitl [H0]
    · iapply (give_one m K c 0 f); isplitr; · iexact HR
      iexact H0
    isplitl [H5]
    · iapply (give_one m K c 5 f); isplitr; · iexact HR
      iexact H5
    isplitl [H10]
    · iapply (give_one m K c 10 f); isplitr; · iexact HR
      iexact H10
    iapply (give_one m K c 15 f); isplitr; · iexact HR
    iexact H15
  isplitl [H1 H6 H11 H16]
  · isplitl [H1]
    · iapply (give_one m K c 1 f); isplitr; · iexact HR
      iexact H1
    isplitl [H6]
    · iapply (give_one m K c 6 f); isplitr; · iexact HR
      iexact H6
    isplitl [H11]
    · iapply (give_one m K c 11 f); isplitr; · iexact HR
      iexact H11
    iapply (give_one m K c 16 f); isplitr; · iexact HR
    iexact H16
  isplitl [H2 H7 H12 H17]
  · isplitl [H2]
    · iapply (give_one m K c 2 f); isplitr; · iexact HR
      iexact H2
    isplitl [H7]
    · iapply (give_one m K c 7 f); isplitr; · iexact HR
      iexact H7
    isplitl [H12]
    · iapply (give_one m K c 12 f); isplitr; · iexact HR
      iexact H12
    iapply (give_one m K c 17 f); isplitr; · iexact HR
    iexact H17
  isplitl [H3 H8 H18 H19]
  · isplitl [H3]
    · iapply (give_one m K c 3 f); isplitr; · iexact HR
      iexact H3
    isplitl [H8]
    · iapply (give_one m K c 8 f); isplitr; · iexact HR
      iexact H8
    isplitl [H18]
    · iapply (give_one m K c 18 f); isplitr; · iexact HR
      iexact H18
    iapply (give_one m K c 19 f); isplitr; · iexact HR
    iexact H19
  isplitl [H4 H9 H13 H14]
  · isplitl [H4]
    · iapply (give_one m K c 4 f); isplitr; · iexact HR
      iexact H4
    isplitl [H9]
    · iapply (give_one m K c 9 f); isplitr; · iexact HR
      iexact H9
    isplitl [H13]
    · iapply (give_one m K c 13 f); isplitr; · iexact HR
      iexact H13
    iapply (give_one m K c 14 f); isplitr; · iexact HR
    iexact H14
  iexact Hrest

/-! ## Joining pieces at contents of their own -/

/-- One step of a join by keys: the elements of key `n` at some contents, and the rest at some contents, are the whole
    at some contents. -/
theorem key_join_then {ℓ : Loc nD τ sig} (key : Idx ℓ → ℕ) (q : PosShare TreeShare) (K : Finset ℕ) (n : ℕ)
    (I : Finset (Idx ℓ)) (hI : I = keySet key {n}) (h : n ∈ K) {R : sProp 𝕄}
    (hR : R ⊢ iprop(∃ f : Buf (Elt F) ℓ, ℓ ↦[keySet key (K.erase n)]{q} f)) :
    iprop((∃ f : Buf (Elt F) ℓ, ℓ ↦[I]{q} f) ∗ R) ⊢ iprop(∃ f : Buf (Elt F) ℓ, ℓ ↦[keySet key K]{q} f) := by
  subst hI
  have hd : Disjoint (keySet key {n}) (keySet key (K.erase n)) := Finset.disjoint_left.2 fun i hi hj =>
    (Finset.mem_erase.1 (mem_keySet.1 hj)).1 (Finset.mem_singleton.1 (mem_keySet.1 hi))
  have hu : keySet key {n} ∪ keySet key (K.erase n) = keySet key K := by
    ext i
    simp only [Finset.mem_union, mem_keySet, Finset.mem_singleton, Finset.mem_erase]
    constructor
    · rintro (h1 | h2)
      · rw [h1]; exact h
      · exact h2.2
    · intro hk
      by_cases e : key i = n
      · exact .inl e
      · exact .inr ⟨e, hk⟩
  have hj : ∀ f g : Buf (Elt F) ℓ, iprop((ℓ ↦[keySet key {n}]{q} f) ∗ (ℓ ↦[keySet key (K.erase n)]{q} g))
      ⊢ (iprop(∃ h : Buf (Elt F) ℓ, ℓ ↦[keySet key K]{q} h) : sProp 𝕄) := fun f g => by
    refine (Region.is_join hd).trans ?_
    rw [hu]
    iintro H; iexists _; iexact H
  iintro ⟨⟨%f, Hf⟩, HR⟩
  ihave HR' := (hR) $$ [HR]
  · iexact HR
  icases HR' with ⟨%g, Hg⟩
  iapply (hj f g)
  isplitl [Hf]; · iexact Hf
  iexact Hg

/-- THE RECEIVE BUFFER, JOINED: its twenty slots and the rest, each at contents of its own, are the buffer at some contents. -/
theorem join_com_ex (c : Dev nD) :
    iprop((∃ f, slotPts (F := F) c 0 f) ∗ (∃ f, slotPts (F := F) c 1 f) ∗ (∃ f, slotPts (F := F) c 2 f) ∗ (∃ f, slotPts (F := F) c 3 f) ∗ (∃ f, slotPts (F := F) c 4 f) ∗ (∃ f, slotPts (F := F) c 5 f) ∗ (∃ f, slotPts (F := F) c 6 f) ∗ (∃ f, slotPts (F := F) c 7 f) ∗ (∃ f, slotPts (F := F) c 8 f) ∗ (∃ f, slotPts (F := F) c 9 f) ∗ (∃ f, slotPts (F := F) c 10 f) ∗ (∃ f, slotPts (F := F) c 11 f) ∗ (∃ f, slotPts (F := F) c 12 f) ∗ (∃ f, slotPts (F := F) c 13 f) ∗ (∃ f, slotPts (F := F) c 14 f) ∗ (∃ f, slotPts (F := F) c 15 f) ∗ (∃ f, slotPts (F := F) c 16 f) ∗ (∃ f, slotPts (F := F) c 17 f) ∗ (∃ f, slotPts (F := F) c 18 f) ∗ (∃ f, slotPts (F := F) c 19 f)
        ∗ (∃ f : Buf (Elt F) ((c : Thread nD τ).loc cc0_scratch2), ((c : Thread nD τ).loc cc0_scratch2) ↦[comRest]{fullShare} f))
      ⊢ (iprop(∃ f : Buf (Elt F) ((c : Thread nD τ).loc cc0_scratch2), ((c : Thread nD τ).loc cc0_scratch2) ↦{fullShare} f) : sProp 𝕄) := by
  have e : (Finset.univ : Finset (Idx ((c : Thread nD τ).loc cc0_scratch2))) = keySet comKey (Finset.range 36) :=
    (keySet_range comKey 36 comKey_lt).symm
  have chain :
      iprop((∃ f : Buf (Elt F) ((c : Thread nD τ).loc cc0_scratch2), ((c : Thread nD τ).loc cc0_scratch2) ↦[(slotM 0).view.set]{fullShare} f)
          ∗ (∃ f : Buf (Elt F) ((c : Thread nD τ).loc cc0_scratch2), ((c : Thread nD τ).loc cc0_scratch2) ↦[(slotM 1).view.set]{fullShare} f)
          ∗ (∃ f : Buf (Elt F) ((c : Thread nD τ).loc cc0_scratch2), ((c : Thread nD τ).loc cc0_scratch2) ↦[(slotM 2).view.set]{fullShare} f)
          ∗ (∃ f : Buf (Elt F) ((c : Thread nD τ).loc cc0_scratch2), ((c : Thread nD τ).loc cc0_scratch2) ↦[(slotM 3).view.set]{fullShare} f)
          ∗ (∃ f : Buf (Elt F) ((c : Thread nD τ).loc cc0_scratch2), ((c : Thread nD τ).loc cc0_scratch2) ↦[(slotM 4).view.set]{fullShare} f)
          ∗ (∃ f : Buf (Elt F) ((c : Thread nD τ).loc cc0_scratch2), ((c : Thread nD τ).loc cc0_scratch2) ↦[(slotM 5).view.set]{fullShare} f)
          ∗ (∃ f : Buf (Elt F) ((c : Thread nD τ).loc cc0_scratch2), ((c : Thread nD τ).loc cc0_scratch2) ↦[(slotM 6).view.set]{fullShare} f)
          ∗ (∃ f : Buf (Elt F) ((c : Thread nD τ).loc cc0_scratch2), ((c : Thread nD τ).loc cc0_scratch2) ↦[(slotM 7).view.set]{fullShare} f)
          ∗ (∃ f : Buf (Elt F) ((c : Thread nD τ).loc cc0_scratch2), ((c : Thread nD τ).loc cc0_scratch2) ↦[(slotM 8).view.set]{fullShare} f)
          ∗ (∃ f : Buf (Elt F) ((c : Thread nD τ).loc cc0_scratch2), ((c : Thread nD τ).loc cc0_scratch2) ↦[(slotM 9).view.set]{fullShare} f)
          ∗ (∃ f : Buf (Elt F) ((c : Thread nD τ).loc cc0_scratch2), ((c : Thread nD τ).loc cc0_scratch2) ↦[(slotM 10).view.set]{fullShare} f)
          ∗ (∃ f : Buf (Elt F) ((c : Thread nD τ).loc cc0_scratch2), ((c : Thread nD τ).loc cc0_scratch2) ↦[(slotM 11).view.set]{fullShare} f)
          ∗ (∃ f : Buf (Elt F) ((c : Thread nD τ).loc cc0_scratch2), ((c : Thread nD τ).loc cc0_scratch2) ↦[(slotM 12).view.set]{fullShare} f)
          ∗ (∃ f : Buf (Elt F) ((c : Thread nD τ).loc cc0_scratch2), ((c : Thread nD τ).loc cc0_scratch2) ↦[(slotM 13).view.set]{fullShare} f)
          ∗ (∃ f : Buf (Elt F) ((c : Thread nD τ).loc cc0_scratch2), ((c : Thread nD τ).loc cc0_scratch2) ↦[(slotM 14).view.set]{fullShare} f)
          ∗ (∃ f : Buf (Elt F) ((c : Thread nD τ).loc cc0_scratch2), ((c : Thread nD τ).loc cc0_scratch2) ↦[(slotM 15).view.set]{fullShare} f)
          ∗ (∃ f : Buf (Elt F) ((c : Thread nD τ).loc cc0_scratch2), ((c : Thread nD τ).loc cc0_scratch2) ↦[(slotM 16).view.set]{fullShare} f)
          ∗ (∃ f : Buf (Elt F) ((c : Thread nD τ).loc cc0_scratch2), ((c : Thread nD τ).loc cc0_scratch2) ↦[(slotM 17).view.set]{fullShare} f)
          ∗ (∃ f : Buf (Elt F) ((c : Thread nD τ).loc cc0_scratch2), ((c : Thread nD τ).loc cc0_scratch2) ↦[(slotM 18).view.set]{fullShare} f)
          ∗ (∃ f : Buf (Elt F) ((c : Thread nD τ).loc cc0_scratch2), ((c : Thread nD τ).loc cc0_scratch2) ↦[(slotM 19).view.set]{fullShare} f)
          ∗ (∃ f : Buf (Elt F) ((c : Thread nD τ).loc cc0_scratch2), ((c : Thread nD τ).loc cc0_scratch2) ↦[comRest]{fullShare} f))
        ⊢ (iprop(∃ f : Buf (Elt F) ((c : Thread nD τ).loc cc0_scratch2), ((c : Thread nD τ).loc cc0_scratch2) ↦[keySet comKey (Finset.range 36)]{fullShare} f) : sProp 𝕄) :=
    key_join_then (ℓ := ((c : Thread nD τ).loc cc0_scratch2)) comKey fullShare _ 0 _ slot_set_0 (by decide)
      (key_join_then (ℓ := ((c : Thread nD τ).loc cc0_scratch2)) comKey fullShare _ 1 _ slot_set_1 (by decide)
      (key_join_then (ℓ := ((c : Thread nD τ).loc cc0_scratch2)) comKey fullShare _ 2 _ slot_set_2 (by decide)
      (key_join_then (ℓ := ((c : Thread nD τ).loc cc0_scratch2)) comKey fullShare _ 3 _ slot_set_3 (by decide)
      (key_join_then (ℓ := ((c : Thread nD τ).loc cc0_scratch2)) comKey fullShare _ 6 _ slot_set_4 (by decide)
      (key_join_then (ℓ := ((c : Thread nD τ).loc cc0_scratch2)) comKey fullShare _ 9 _ slot_set_5 (by decide)
      (key_join_then (ℓ := ((c : Thread nD τ).loc cc0_scratch2)) comKey fullShare _ 10 _ slot_set_6 (by decide)
      (key_join_then (ℓ := ((c : Thread nD τ).loc cc0_scratch2)) comKey fullShare _ 11 _ slot_set_7 (by decide)
      (key_join_then (ℓ := ((c : Thread nD τ).loc cc0_scratch2)) comKey fullShare _ 12 _ slot_set_8 (by decide)
      (key_join_then (ℓ := ((c : Thread nD τ).loc cc0_scratch2)) comKey fullShare _ 15 _ slot_set_9 (by decide)
      (key_join_then (ℓ := ((c : Thread nD τ).loc cc0_scratch2)) comKey fullShare _ 18 _ slot_set_10 (by decide)
      (key_join_then (ℓ := ((c : Thread nD τ).loc cc0_scratch2)) comKey fullShare _ 19 _ slot_set_11 (by decide)
      (key_join_then (ℓ := ((c : Thread nD τ).loc cc0_scratch2)) comKey fullShare _ 20 _ slot_set_12 (by decide)
      (key_join_then (ℓ := ((c : Thread nD τ).loc cc0_scratch2)) comKey fullShare _ 21 _ slot_set_13 (by decide)
      (key_join_then (ℓ := ((c : Thread nD τ).loc cc0_scratch2)) comKey fullShare _ 24 _ slot_set_14 (by decide)
      (key_join_then (ℓ := ((c : Thread nD τ).loc cc0_scratch2)) comKey fullShare _ 27 _ slot_set_15 (by decide)
      (key_join_then (ℓ := ((c : Thread nD τ).loc cc0_scratch2)) comKey fullShare _ 28 _ slot_set_16 (by decide)
      (key_join_then (ℓ := ((c : Thread nD τ).loc cc0_scratch2)) comKey fullShare _ 29 _ slot_set_17 (by decide)
      (key_join_then (ℓ := ((c : Thread nD τ).loc cc0_scratch2)) comKey fullShare _ 30 _ slot_set_18 (by decide)
      (key_join_then (ℓ := ((c : Thread nD τ).loc cc0_scratch2)) comKey fullShare _ 33 _ slot_set_19 (by decide)
      ((Entails.rfl)))))))))))))))))))))
  rw [e]
  exact chain

/-- THE OUTGOING BUFFER, JOINED: its four chunk slices, each at contents of its own, are the buffer at some contents. -/
theorem join_snd_ex (c : Dev nD) :
    iprop((∃ f, srcPts (F := F) c 0 fullShare f) ∗ (∃ f, srcPts (F := F) c 1 fullShare f) ∗ (∃ f, srcPts (F := F) c 2 fullShare f)
        ∗ (∃ f, srcPts (F := F) c 3 fullShare f))
      ⊢ (iprop(∃ f : Buf (Elt F) ((c : Thread nD τ).loc cc0_scratch1), ((c : Thread nD τ).loc cc0_scratch1) ↦{fullShare} f) : sProp 𝕄) := by
  have e : (Finset.univ : Finset (Idx ((c : Thread nD τ).loc cc0_scratch1))) = keySet sndKey (Finset.range 4) :=
    (keySet_range sndKey 4 sndKey_lt).symm
  have e3 : keySet sndKey ((((Finset.range 4).erase 0).erase 1).erase 2) = (srcM 3).view.set := by
    rw [src_set_3]; exact congrArg (keySet sndKey) (by decide)
  have chain :
      iprop((∃ f : Buf (Elt F) ((c : Thread nD τ).loc cc0_scratch1), ((c : Thread nD τ).loc cc0_scratch1) ↦[(srcM 0).view.set]{fullShare} f)
          ∗ (∃ f : Buf (Elt F) ((c : Thread nD τ).loc cc0_scratch1), ((c : Thread nD τ).loc cc0_scratch1) ↦[(srcM 1).view.set]{fullShare} f)
          ∗ (∃ f : Buf (Elt F) ((c : Thread nD τ).loc cc0_scratch1), ((c : Thread nD τ).loc cc0_scratch1) ↦[(srcM 2).view.set]{fullShare} f)
          ∗ (∃ f : Buf (Elt F) ((c : Thread nD τ).loc cc0_scratch1), ((c : Thread nD τ).loc cc0_scratch1) ↦[(srcM 3).view.set]{fullShare} f))
        ⊢ (iprop(∃ f : Buf (Elt F) ((c : Thread nD τ).loc cc0_scratch1), ((c : Thread nD τ).loc cc0_scratch1) ↦[keySet sndKey (Finset.range 4)]{fullShare} f) : sProp 𝕄) :=
    key_join_then (ℓ := ((c : Thread nD τ).loc cc0_scratch1)) sndKey fullShare _ 0 _ src_set_0 (by decide)
      (key_join_then (ℓ := ((c : Thread nD τ).loc cc0_scratch1)) sndKey fullShare _ 1 _ src_set_1 (by decide)
        (key_join_then (ℓ := ((c : Thread nD τ).loc cc0_scratch1)) sndKey fullShare _ 2 _ src_set_2 (by decide) (Entails.of_eq (by rw [e3]))))
  rw [e]
  exact chain

/-! ## Twenty hypotheses as one separating conjunction -/

/-- Twenty members, one by one, are the conjunction over the twenty. -/
theorem chain20_intro (Φ : Fin 20 → sProp 𝕄) :
    iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19) ⊢ bigSep Finset.univ Φ :=
  Entails.of_eq (bigSep_fin20 Φ).symm

/-- And back. -/
theorem chain20_elim (Φ : Fin 20 → sProp 𝕄) :
    bigSep Finset.univ Φ ⊢ iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19) :=
  Entails.of_eq (bigSep_fin20 Φ)

end Cert.KernelIdeal.Bridge

end

/-- info: 'Cert.KernelIdeal.Bridge.open_ghost' depends on axioms: [propext, Classical.choice, Quot.sound] -/
#guard_msgs in #print axioms Cert.KernelIdeal.Bridge.open_ghost

/-- info: 'Cert.KernelIdeal.Bridge.close_cells' depends on axioms: [propext, Classical.choice, Quot.sound] -/
#guard_msgs in #print axioms Cert.KernelIdeal.Bridge.close_cells

/-- info: 'Cert.KernelIdeal.Bridge.give_slots' depends on axioms: [propext, Classical.choice, Quot.sound] -/
#guard_msgs in #print axioms Cert.KernelIdeal.Bridge.give_slots

/-- info: 'Cert.KernelIdeal.Bridge.join_com_ex' depends on axioms: [propext, Classical.choice, Quot.sound] -/
#guard_msgs in #print axioms Cert.KernelIdeal.Bridge.join_com_ex

/-- info: 'Cert.KernelIdeal.Bridge.join_snd_ex' depends on axioms: [propext, Classical.choice, Quot.sound] -/
#guard_msgs in #print axioms Cert.KernelIdeal.Bridge.join_snd_ex

/-- info: 'Cert.KernelIdeal.Bridge.chain20_intro' depends on axioms: [propext, Classical.choice, Quot.sound] -/
#guard_msgs in #print axioms Cert.KernelIdeal.Bridge.chain20_intro
-- ==== Proof.KernelIdealValues.lean ====
/-
  The payloads of the exchange, named. After its own partial result a device's every further value is one of a few
  shapes: a running sum with a landed slot added (`rcv`), a running sum stored to or loaded from the accumulator (a
  reshape there and back), a running sum narrowed and stored for sending, and a finished chunk reshaped into the result
  block. Here each printed payload is identified with that shape, each load of the accumulator after a store with the
  running sum stored, and each group of receive slots of one exchange step, once they hold what the partners sent, with
  the next running sum.
-/
import proofs.«900514_g7700000000000515_dist_attn_self_mha_htp_b2_sq128_skv128_d512_hq8_dh64_v7x_i16_bf16_1_alg».proof.Proof.KernelIdealViews
import proofs.«900514_g7700000000000515_dist_attn_self_mha_htp_b2_sq128_skv128_d512_hq8_dh64_v7x_i16_bf16_1_alg».proof.Proof.KernelIdealTerms

noncomputable section

namespace Cert.KernelIdeal.Values

open Cert.KernelIdeal Cert.KernelIdeal.Gen Cert.KernelIdeal.Terms Cert.KernelIdeal.Proto Cert.KernelIdeal.Views
open Idealize.ShloMosaic
open Idealize.ShloMosaic.TcCoe

variable {F : FTy → Type} [FloatOps F]

/-! ## A landed slot added to the running sum -/

theorem pay23_eq (a : FVec F S256x128 .f32) (v : Vec F S1x1x1x256x128 .bf16) : k0_pay23 a v = rcv a v := rfl
theorem pay28_eq (a : FVec F S256x128 .f32) (v : Vec F S1x1x1x256x128 .bf16) : k0_pay28 a v = rcv a v := rfl
theorem pay32_eq (a : FVec F S256x128 .f32) (v : Vec F S1x1x1x256x128 .bf16) : k0_pay32 a v = rcv a v := rfl
theorem pay36_eq (a : FVec F S256x128 .f32) (v : Vec F S1x1x1x256x128 .bf16) : k0_pay36 a v = rcv a v := rfl
theorem pay37_eq (a : FVec F S256x128 .f32) (v : Vec F S1x1x1x256x128 .bf16) : k0_pay37 a v = rcv a v := rfl
theorem pay38_eq (a : FVec F S256x128 .f32) (v : Vec F S1x1x1x256x128 .bf16) : k0_pay38 a v = rcv a v := rfl
theorem pay42_eq (a : FVec F S256x128 .f32) (v : Vec F S1x1x1x256x128 .bf16) : k0_pay42 a v = rcv a v := rfl
theorem pay47_eq (a : FVec F S256x128 .f32) (v : Vec F S1x1x1x256x128 .bf16) : k0_pay47 a v = rcv a v := rfl
theorem pay51_eq (a : FVec F S256x128 .f32) (v : Vec F S1x1x1x256x128 .bf16) : k0_pay51 a v = rcv a v := rfl
theorem pay52_eq (a : FVec F S256x128 .f32) (v : Vec F S1x1x1x256x128 .bf16) : k0_pay52 a v = rcv a v := rfl
theorem pay53_eq (a : FVec F S256x128 .f32) (v : Vec F S1x1x1x256x128 .bf16) : k0_pay53 a v = rcv a v := rfl
theorem pay57_eq (a : FVec F S256x128 .f32) (v : Vec F S1x1x1x256x128 .bf16) : k0_pay57 a v = rcv a v := rfl
theorem pay63_eq (a : FVec F S256x128 .f32) (v : Vec F S1x1x1x256x128 .bf16) : k0_pay63 a v = rcv a v := rfl
theorem pay64_eq (a : FVec F S256x128 .f32) (v : Vec F S1x1x1x256x128 .bf16) : k0_pay64 a v = rcv a v := rfl
/-- Two slots in one payload. -/
theorem pay24_eq (a : FVec F S256x128 .f32) (v w : Vec F S1x1x1x256x128 .bf16) : k0_pay24 a v w = rcv (rcv a v) w := rfl

/-! ## A finished chunk, as its block of the result -/

theorem pay61_eq (a : FVec F S256x128 .f32) (v : Vec F S1x1x1x256x128 .bf16) :
    k0_pay61 a v = shapeCast S2x128x128 (rcv a v) shapeCasts_S256x128_S2x128x128 := rfl
theorem pay65_eq (a : FVec F S256x128 .f32) (v : Vec F S1x1x1x256x128 .bf16) :
    k0_pay65 a v = shapeCast S2x128x128 (rcv a v) shapeCasts_S256x128_S2x128x128 := rfl
theorem pay67_eq (a : FVec F S256x128 .f32) (v : Vec F S1x1x1x256x128 .bf16) :
    k0_pay67 a v = shapeCast S2x128x128 (rcv a v) shapeCasts_S256x128_S2x128x128 := rfl
theorem pay1_eq (a : FVec F S256x128 .f32) (v : Vec F S1x1x1x256x128 .bf16) :
    k0_pay1 a v = shapeCast S2x128x128 (rcv a v) shapeCasts_S256x128_S2x128x128 := rfl

/-! ## Stores to the accumulator: the running sum as a `[1, 256, 128]` block -/

theorem pay10_eq (v : FVec F S256x512 .bf16) (w : Vec F S512x512 .f32) :
    k0_pay10 v w = shapeCast S1x256x128 (k0_pay9 v w) shapeCasts_S256x128_S1x256x128 := rfl
theorem pay13_eq (v : FVec F S256x512 .bf16) (w : FVec F S512x512 .bf16) :
    k0_pay13 v w = shapeCast S1x256x128 (k0_pay12 v w) shapeCasts_S256x128_S1x256x128 := rfl
theorem pay17_eq (v : FVec F S256x512 .bf16) (w : FVec F S512x512 .bf16) :
    k0_pay17 v w = shapeCast S1x256x128 (k0_pay16 v w) shapeCasts_S256x128_S1x256x128 := rfl
theorem pay20_eq (v : FVec F S256x512 .bf16) (w : FVec F S512x512 .bf16) :
    k0_pay20 v w = shapeCast S1x256x128 (k0_pay19 v w) shapeCasts_S256x128_S1x256x128 := rfl
theorem pay29_eq (a : FVec F S256x128 .f32) (v : Vec F S1x1x1x256x128 .bf16) :
    k0_pay29 a v = shapeCast S1x256x128 (k0_pay28 a v) shapeCasts_S256x128_S1x256x128 := rfl
theorem pay33_eq (a : FVec F S256x128 .f32) (v : Vec F S1x1x1x256x128 .bf16) :
    k0_pay33 a v = shapeCast S1x256x128 (k0_pay32 a v) shapeCasts_S256x128_S1x256x128 := rfl
theorem pay39_eq (a : FVec F S256x128 .f32) (v : Vec F S1x1x1x256x128 .bf16) :
    k0_pay39 a v = shapeCast S1x256x128 (k0_pay38 a v) shapeCasts_S256x128_S1x256x128 := rfl
theorem pay43_eq (a : FVec F S256x128 .f32) (v : Vec F S1x1x1x256x128 .bf16) :
    k0_pay43 a v = shapeCast S1x256x128 (k0_pay42 a v) shapeCasts_S256x128_S1x256x128 := rfl
theorem pay48_eq (a : FVec F S256x128 .f32) (v : Vec F S1x1x1x256x128 .bf16) :
    k0_pay48 a v = shapeCast S1x256x128 (k0_pay47 a v) shapeCasts_S256x128_S1x256x128 := rfl
theorem pay54_eq (a : FVec F S256x128 .f32) (v : Vec F S1x1x1x256x128 .bf16) :
    k0_pay54 a v = shapeCast S1x256x128 (k0_pay53 a v) shapeCasts_S256x128_S1x256x128 := rfl
theorem pay58_eq (a : FVec F S256x128 .f32) (v : Vec F S1x1x1x256x128 .bf16) :
    k0_pay58 a v = shapeCast S1x256x128 (k0_pay57 a v) shapeCasts_S256x128_S1x256x128 := rfl

/-! ## Loads from the accumulator: the block as a `[256, 128]` matrix -/

theorem pay22_eq (x : Vec F S1x256x128 .f32) : k0_pay22 x = shapeCast S256x128 x shapeCasts_S1x256x128_S256x128 := rfl
theorem pay27_eq (x : Vec F S1x256x128 .f32) : k0_pay27 x = shapeCast S256x128 x shapeCasts_S1x256x128_S256x128 := rfl
theorem pay31_eq (x : Vec F S1x256x128 .f32) : k0_pay31 x = shapeCast S256x128 x shapeCasts_S1x256x128_S256x128 := rfl
theorem pay35_eq (x : Vec F S1x256x128 .f32) : k0_pay35 x = shapeCast S256x128 x shapeCasts_S1x256x128_S256x128 := rfl
theorem pay41_eq (x : Vec F S1x256x128 .f32) : k0_pay41 x = shapeCast S256x128 x shapeCasts_S1x256x128_S256x128 := rfl
theorem pay46_eq (x : Vec F S1x256x128 .f32) : k0_pay46 x = shapeCast S256x128 x shapeCasts_S1x256x128_S256x128 := rfl
theorem pay50_eq (x : Vec F S1x256x128 .f32) : k0_pay50 x = shapeCast S256x128 x shapeCasts_S1x256x128_S256x128 := rfl
theorem pay56_eq (x : Vec F S1x256x128 .f32) : k0_pay56 x = shapeCast S256x128 x shapeCasts_S1x256x128_S256x128 := rfl
theorem pay60_eq (x : Vec F S1x256x128 .f32) : k0_pay60 x = shapeCast S256x128 x shapeCasts_S1x256x128_S256x128 := rfl
theorem pay62_eq (x : Vec F S1x256x128 .f32) : k0_pay62 x = shapeCast S256x128 x shapeCasts_S1x256x128_S256x128 := rfl
theorem pay66_eq (x : Vec F S1x256x128 .f32) : k0_pay66 x = shapeCast S256x128 x shapeCasts_S1x256x128_S256x128 := rfl
theorem pay68_eq (x : Vec F S1x256x128 .f32) : k0_pay68 x = shapeCast S256x128 x shapeCasts_S1x256x128_S256x128 := rfl

/-! ## A load after a store gives back the running sum -/

theorem pay22_pay10 (v : FVec F S256x512 .bf16) (w : Vec F S512x512 .f32) : k0_pay22 (k0_pay10 v w) = k0_pay9 v w := by
  rw [pay10_eq, pay22_eq]; generalize k0_pay9 v w = a; exact sq_unsq a
theorem pay27_pay13 (v : FVec F S256x512 .bf16) (w : FVec F S512x512 .bf16) : k0_pay27 (k0_pay13 v w) = k0_pay12 v w := by
  rw [pay13_eq, pay27_eq]; generalize k0_pay12 v w = a; exact sq_unsq a
theorem pay31_pay17 (v : FVec F S256x512 .bf16) (w : FVec F S512x512 .bf16) : k0_pay31 (k0_pay17 v w) = k0_pay16 v w := by
  rw [pay17_eq, pay31_eq]; generalize k0_pay16 v w = a; exact sq_unsq a
theorem pay35_pay20 (v : FVec F S256x512 .bf16) (w : FVec F S512x512 .bf16) : k0_pay35 (k0_pay20 v w) = k0_pay19 v w := by
  rw [pay20_eq, pay35_eq]; generalize k0_pay19 v w = a; exact sq_unsq a
theorem pay41_pay25 (a : FVec F S256x128 .f32) : k0_pay41 (k0_pay25 a) = a := sq_unsq a
theorem pay46_pay29 (a : FVec F S256x128 .f32) (v : Vec F S1x1x1x256x128 .bf16) : k0_pay46 (k0_pay29 a v) = k0_pay28 a v := by
  rw [pay29_eq, pay46_eq]; generalize k0_pay28 a v = b; exact sq_unsq b
theorem pay50_pay33 (a : FVec F S256x128 .f32) (v : Vec F S1x1x1x256x128 .bf16) : k0_pay50 (k0_pay33 a v) = k0_pay32 a v := by
  rw [pay33_eq, pay50_eq]; generalize k0_pay32 a v = b; exact sq_unsq b
theorem pay56_pay39 (a : FVec F S256x128 .f32) (v : Vec F S1x1x1x256x128 .bf16) : k0_pay56 (k0_pay39 a v) = k0_pay38 a v := by
  rw [pay39_eq, pay56_eq]; generalize k0_pay38 a v = b; exact sq_unsq b
theorem pay60_pay43 (a : FVec F S256x128 .f32) (v : Vec F S1x1x1x256x128 .bf16) : k0_pay60 (k0_pay43 a v) = k0_pay42 a v := by
  rw [pay43_eq, pay60_eq]; generalize k0_pay42 a v = b; exact sq_unsq b
theorem pay62_pay48 (a : FVec F S256x128 .f32) (v : Vec F S1x1x1x256x128 .bf16) : k0_pay62 (k0_pay48 a v) = k0_pay47 a v := by
  rw [pay48_eq, pay62_eq]; generalize k0_pay47 a v = b; exact sq_unsq b
theorem pay66_pay54 (a : FVec F S256x128 .f32) (v : Vec F S1x1x1x256x128 .bf16) : k0_pay66 (k0_pay54 a v) = k0_pay53 a v := by
  rw [pay54_eq, pay66_eq]; generalize k0_pay53 a v = b; exact sq_unsq b
theorem pay68_pay58 (a : FVec F S256x128 .f32) (v : Vec F S1x1x1x256x128 .bf16) : k0_pay68 (k0_pay58 a v) = k0_pay57 a v := by
  rw [pay58_eq, pay68_eq]; generalize k0_pay57 a v = b; exact sq_unsq b

/-! ## Stores to the outgoing buffer: the running sum narrowed, as a `[1, 256, 128]` block -/

theorem pay11_eq (v : FVec F S256x512 .bf16) (w : Vec F S512x512 .f32) :
    k0_pay11 v w = shapeCast S1x256x128 (truncf .bf16 (k0_pay9 v w) bitsLt_bf16_f32) shapeCasts_S256x128_S1x256x128 := rfl
theorem pay14_eq (v : FVec F S256x512 .bf16) (w : FVec F S512x512 .bf16) :
    k0_pay14 v w = truncf .bf16 (k0_pay12 v w) bitsLt_bf16_f32 := rfl
theorem pay15_eq (b : FVec F S256x128 .bf16) : k0_pay15 b = shapeCast S1x256x128 b shapeCasts_S256x128_S1x256x128 := rfl
theorem pay18_eq (v : FVec F S256x512 .bf16) (w : FVec F S512x512 .bf16) :
    k0_pay18 v w = shapeCast S1x256x128 (truncf .bf16 (k0_pay16 v w) bitsLt_bf16_f32) shapeCasts_S256x128_S1x256x128 := rfl
theorem pay21_eq (v : FVec F S256x512 .bf16) (w : FVec F S512x512 .bf16) :
    k0_pay21 v w = shapeCast S1x256x128 (truncf .bf16 (k0_pay19 v w) bitsLt_bf16_f32) shapeCasts_S256x128_S1x256x128 := rfl
theorem pay30_eq (a : FVec F S256x128 .f32) (v : Vec F S1x1x1x256x128 .bf16) :
    k0_pay30 a v = shapeCast S1x256x128 (truncf .bf16 (k0_pay28 a v) bitsLt_bf16_f32) shapeCasts_S256x128_S1x256x128 := rfl
theorem pay34_eq (a : FVec F S256x128 .f32) (v : Vec F S1x1x1x256x128 .bf16) :
    k0_pay34 a v = shapeCast S1x256x128 (truncf .bf16 (k0_pay32 a v) bitsLt_bf16_f32) shapeCasts_S256x128_S1x256x128 := rfl
theorem pay40_eq (a : FVec F S256x128 .f32) (v : Vec F S1x1x1x256x128 .bf16) :
    k0_pay40 a v = shapeCast S1x256x128 (truncf .bf16 (k0_pay38 a v) bitsLt_bf16_f32) shapeCasts_S256x128_S1x256x128 := rfl
theorem pay44_eq (a : FVec F S256x128 .f32) (v : Vec F S1x1x1x256x128 .bf16) :
    k0_pay44 a v = truncf .bf16 (k0_pay42 a v) bitsLt_bf16_f32 := rfl
theorem pay45_eq (b : FVec F S256x128 .bf16) : k0_pay45 b = shapeCast S1x256x128 b shapeCasts_S256x128_S1x256x128 := rfl
theorem pay49_eq (a : FVec F S256x128 .f32) (v : Vec F S1x1x1x256x128 .bf16) :
    k0_pay49 a v = shapeCast S1x256x128 (truncf .bf16 (k0_pay47 a v) bitsLt_bf16_f32) shapeCasts_S256x128_S1x256x128 := rfl
theorem pay55_eq (a : FVec F S256x128 .f32) (v : Vec F S1x1x1x256x128 .bf16) :
    k0_pay55 a v = shapeCast S1x256x128 (truncf .bf16 (k0_pay53 a v) bitsLt_bf16_f32) shapeCasts_S256x128_S1x256x128 := rfl
theorem pay59_eq (a : FVec F S256x128 .f32) :
    k0_pay59 a = shapeCast S1x256x128 (truncf .bf16 a bitsLt_bf16_f32) shapeCasts_S256x128_S1x256x128 := rfl

/-! ## The receive slots of one exchange step make the next running sum

A slot that holds what the partner's copy carried is loaded as what the partner's running sum puts on the wire; the
slots of one step and chunk, added in the order of the slots, make the step. -/

variable (m : (ℓ : Loc nD τ sig) → Buf (Elt F) ℓ)

theorem load_wire_0 (c : Dev nD) :
    comM.view.readAt (Elt F) (Rect.unit (s := S3x4x3x256x128) ![0, 0, 0, 0, 0] S1x1x1x256x128.size inb_S3x4x3x256x128_S1x1x1x256x128_0_0_0_0_0).toLoadRect (landed m c 0) = wire (run m 0 0 (px 0 c)) :=
  load_slot_wire_at ![0, 0, 0, 0, 0] inb_S3x4x3x256x128_S1x1x1x256x128_0_0_0_0_0 (landed m c 0) (run m 0 0 (px 0 c))
    (read_slot_write 0 (junk c 0) (sent m 0 (px (slotX 0) c)))
theorem load_wire_1 (c : Dev nD) :
    comM.view.readAt (Elt F) (Rect.unit (s := S3x4x3x256x128) ![0, 0, 1, 0, 0] S1x1x1x256x128.size inb_S3x4x3x256x128_S1x1x1x256x128_0_0_1_0_0).toLoadRect (landed m c 1) = wire (run m 0 0 (px 1 c)) :=
  load_slot_wire_at ![0, 0, 1, 0, 0] inb_S3x4x3x256x128_S1x1x1x256x128_0_0_1_0_0 (landed m c 1) (run m 0 0 (px 1 c))
    (read_slot_write 1 (junk c 1) (sent m 1 (px (slotX 1) c)))
theorem load_wire_2 (c : Dev nD) :
    comM.view.readAt (Elt F) (Rect.unit (s := S3x4x3x256x128) ![0, 0, 2, 0, 0] S1x1x1x256x128.size inb_S3x4x3x256x128_S1x1x1x256x128_0_0_2_0_0).toLoadRect (landed m c 2) = wire (run m 0 0 (px 2 c)) :=
  load_slot_wire_at ![0, 0, 2, 0, 0] inb_S3x4x3x256x128_S1x1x1x256x128_0_0_2_0_0 (landed m c 2) (run m 0 0 (px 2 c))
    (read_slot_write 2 (junk c 2) (sent m 2 (px (slotX 2) c)))
theorem load_wire_3 (c : Dev nD) :
    comM.view.readAt (Elt F) (Rect.unit (s := S3x4x3x256x128) ![0, 1, 0, 0, 0] S1x1x1x256x128.size inb_S3x4x3x256x128_S1x1x1x256x128_0_1_0_0_0).toLoadRect (landed m c 3) = wire (run m 1 0 (px 3 c)) :=
  load_slot_wire_at ![0, 1, 0, 0, 0] inb_S3x4x3x256x128_S1x1x1x256x128_0_1_0_0_0 (landed m c 3) (run m 1 0 (px 3 c))
    (read_slot_write 3 (junk c 3) (sent m 3 (px (slotX 3) c)))
theorem load_wire_4 (c : Dev nD) :
    comM.view.readAt (Elt F) (Rect.unit (s := S3x4x3x256x128) ![0, 2, 0, 0, 0] S1x1x1x256x128.size inb_S3x4x3x256x128_S1x1x1x256x128_0_2_0_0_0).toLoadRect (landed m c 4) = wire (run m 2 0 (px 4 c)) :=
  load_slot_wire_at ![0, 2, 0, 0, 0] inb_S3x4x3x256x128_S1x1x1x256x128_0_2_0_0_0 (landed m c 4) (run m 2 0 (px 4 c))
    (read_slot_write 4 (junk c 4) (sent m 4 (px (slotX 4) c)))
theorem load_wire_5 (c : Dev nD) :
    comM.view.readAt (Elt F) (Rect.unit (s := S3x4x3x256x128) ![0, 3, 0, 0, 0] S1x1x1x256x128.size inb_S3x4x3x256x128_S1x1x1x256x128_0_3_0_0_0).toLoadRect (landed m c 5) = wire (run m 3 0 (px 0 c)) :=
  load_slot_wire_at ![0, 3, 0, 0, 0] inb_S3x4x3x256x128_S1x1x1x256x128_0_3_0_0_0 (landed m c 5) (run m 3 0 (px 0 c))
    (read_slot_write 5 (junk c 5) (sent m 5 (px (slotX 5) c)))
theorem load_wire_6 (c : Dev nD) :
    comM.view.readAt (Elt F) (Rect.unit (s := S3x4x3x256x128) ![0, 3, 1, 0, 0] S1x1x1x256x128.size inb_S3x4x3x256x128_S1x1x1x256x128_0_3_1_0_0).toLoadRect (landed m c 6) = wire (run m 3 0 (px 1 c)) :=
  load_slot_wire_at ![0, 3, 1, 0, 0] inb_S3x4x3x256x128_S1x1x1x256x128_0_3_1_0_0 (landed m c 6) (run m 3 0 (px 1 c))
    (read_slot_write 6 (junk c 6) (sent m 6 (px (slotX 6) c)))
theorem load_wire_7 (c : Dev nD) :
    comM.view.readAt (Elt F) (Rect.unit (s := S3x4x3x256x128) ![0, 3, 2, 0, 0] S1x1x1x256x128.size inb_S3x4x3x256x128_S1x1x1x256x128_0_3_2_0_0).toLoadRect (landed m c 7) = wire (run m 3 0 (px 2 c)) :=
  load_slot_wire_at ![0, 3, 2, 0, 0] inb_S3x4x3x256x128_S1x1x1x256x128_0_3_2_0_0 (landed m c 7) (run m 3 0 (px 2 c))
    (read_slot_write 7 (junk c 7) (sent m 7 (px (slotX 7) c)))
theorem load_wire_8 (c : Dev nD) :
    comM.view.readAt (Elt F) (Rect.unit (s := S3x4x3x256x128) ![1, 0, 0, 0, 0] S1x1x1x256x128.size inb_S3x4x3x256x128_S1x1x1x256x128_1_0_0_0_0).toLoadRect (landed m c 8) = wire (run m 0 1 (px 3 c)) :=
  load_slot_wire_at ![1, 0, 0, 0, 0] inb_S3x4x3x256x128_S1x1x1x256x128_1_0_0_0_0 (landed m c 8) (run m 0 1 (px 3 c))
    (read_slot_write 8 (junk c 8) (sent m 8 (px (slotX 8) c)))
theorem load_wire_9 (c : Dev nD) :
    comM.view.readAt (Elt F) (Rect.unit (s := S3x4x3x256x128) ![1, 1, 0, 0, 0] S1x1x1x256x128.size inb_S3x4x3x256x128_S1x1x1x256x128_1_1_0_0_0).toLoadRect (landed m c 9) = wire (run m 1 1 (px 4 c)) :=
  load_slot_wire_at ![1, 1, 0, 0, 0] inb_S3x4x3x256x128_S1x1x1x256x128_1_1_0_0_0 (landed m c 9) (run m 1 1 (px 4 c))
    (read_slot_write 9 (junk c 9) (sent m 9 (px (slotX 9) c)))
theorem load_wire_10 (c : Dev nD) :
    comM.view.readAt (Elt F) (Rect.unit (s := S3x4x3x256x128) ![1, 2, 0, 0, 0] S1x1x1x256x128.size inb_S3x4x3x256x128_S1x1x1x256x128_1_2_0_0_0).toLoadRect (landed m c 10) = wire (run m 2 1 (px 0 c)) :=
  load_slot_wire_at ![1, 2, 0, 0, 0] inb_S3x4x3x256x128_S1x1x1x256x128_1_2_0_0_0 (landed m c 10) (run m 2 1 (px 0 c))
    (read_slot_write 10 (junk c 10) (sent m 10 (px (slotX 10) c)))
theorem load_wire_11 (c : Dev nD) :
    comM.view.readAt (Elt F) (Rect.unit (s := S3x4x3x256x128) ![1, 2, 1, 0, 0] S1x1x1x256x128.size inb_S3x4x3x256x128_S1x1x1x256x128_1_2_1_0_0).toLoadRect (landed m c 11) = wire (run m 2 1 (px 1 c)) :=
  load_slot_wire_at ![1, 2, 1, 0, 0] inb_S3x4x3x256x128_S1x1x1x256x128_1_2_1_0_0 (landed m c 11) (run m 2 1 (px 1 c))
    (read_slot_write 11 (junk c 11) (sent m 11 (px (slotX 11) c)))
theorem load_wire_12 (c : Dev nD) :
    comM.view.readAt (Elt F) (Rect.unit (s := S3x4x3x256x128) ![1, 2, 2, 0, 0] S1x1x1x256x128.size inb_S3x4x3x256x128_S1x1x1x256x128_1_2_2_0_0).toLoadRect (landed m c 12) = wire (run m 2 1 (px 2 c)) :=
  load_slot_wire_at ![1, 2, 2, 0, 0] inb_S3x4x3x256x128_S1x1x1x256x128_1_2_2_0_0 (landed m c 12) (run m 2 1 (px 2 c))
    (read_slot_write 12 (junk c 12) (sent m 12 (px (slotX 12) c)))
theorem load_wire_13 (c : Dev nD) :
    comM.view.readAt (Elt F) (Rect.unit (s := S3x4x3x256x128) ![1, 3, 0, 0, 0] S1x1x1x256x128.size inb_S3x4x3x256x128_S1x1x1x256x128_1_3_0_0_0).toLoadRect (landed m c 13) = wire (run m 3 1 (px 4 c)) :=
  load_slot_wire_at ![1, 3, 0, 0, 0] inb_S3x4x3x256x128_S1x1x1x256x128_1_3_0_0_0 (landed m c 13) (run m 3 1 (px 4 c))
    (read_slot_write 13 (junk c 13) (sent m 13 (px (slotX 13) c)))
theorem load_wire_14 (c : Dev nD) :
    comM.view.readAt (Elt F) (Rect.unit (s := S3x4x3x256x128) ![2, 0, 0, 0, 0] S1x1x1x256x128.size inb_S3x4x3x256x128_S1x1x1x256x128_2_0_0_0_0).toLoadRect (landed m c 14) = wire (run m 0 2 (px 4 c)) :=
  load_slot_wire_at ![2, 0, 0, 0, 0] inb_S3x4x3x256x128_S1x1x1x256x128_2_0_0_0_0 (landed m c 14) (run m 0 2 (px 4 c))
    (read_slot_write 14 (junk c 14) (sent m 14 (px (slotX 14) c)))
theorem load_wire_15 (c : Dev nD) :
    comM.view.readAt (Elt F) (Rect.unit (s := S3x4x3x256x128) ![2, 1, 0, 0, 0] S1x1x1x256x128.size inb_S3x4x3x256x128_S1x1x1x256x128_2_1_0_0_0).toLoadRect (landed m c 15) = wire (run m 1 2 (px 0 c)) :=
  load_slot_wire_at ![2, 1, 0, 0, 0] inb_S3x4x3x256x128_S1x1x1x256x128_2_1_0_0_0 (landed m c 15) (run m 1 2 (px 0 c))
    (read_slot_write 15 (junk c 15) (sent m 15 (px (slotX 15) c)))
theorem load_wire_16 (c : Dev nD) :
    comM.view.readAt (Elt F) (Rect.unit (s := S3x4x3x256x128) ![2, 1, 1, 0, 0] S1x1x1x256x128.size inb_S3x4x3x256x128_S1x1x1x256x128_2_1_1_0_0).toLoadRect (landed m c 16) = wire (run m 1 2 (px 1 c)) :=
  load_slot_wire_at ![2, 1, 1, 0, 0] inb_S3x4x3x256x128_S1x1x1x256x128_2_1_1_0_0 (landed m c 16) (run m 1 2 (px 1 c))
    (read_slot_write 16 (junk c 16) (sent m 16 (px (slotX 16) c)))
theorem load_wire_17 (c : Dev nD) :
    comM.view.readAt (Elt F) (Rect.unit (s := S3x4x3x256x128) ![2, 1, 2, 0, 0] S1x1x1x256x128.size inb_S3x4x3x256x128_S1x1x1x256x128_2_1_2_0_0).toLoadRect (landed m c 17) = wire (run m 1 2 (px 2 c)) :=
  load_slot_wire_at ![2, 1, 2, 0, 0] inb_S3x4x3x256x128_S1x1x1x256x128_2_1_2_0_0 (landed m c 17) (run m 1 2 (px 2 c))
    (read_slot_write 17 (junk c 17) (sent m 17 (px (slotX 17) c)))
theorem load_wire_18 (c : Dev nD) :
    comM.view.readAt (Elt F) (Rect.unit (s := S3x4x3x256x128) ![2, 2, 0, 0, 0] S1x1x1x256x128.size inb_S3x4x3x256x128_S1x1x1x256x128_2_2_0_0_0).toLoadRect (landed m c 18) = wire (run m 2 2 (px 3 c)) :=
  load_slot_wire_at ![2, 2, 0, 0, 0] inb_S3x4x3x256x128_S1x1x1x256x128_2_2_0_0_0 (landed m c 18) (run m 2 2 (px 3 c))
    (read_slot_write 18 (junk c 18) (sent m 18 (px (slotX 18) c)))
theorem load_wire_19 (c : Dev nD) :
    comM.view.readAt (Elt F) (Rect.unit (s := S3x4x3x256x128) ![2, 3, 0, 0, 0] S1x1x1x256x128.size inb_S3x4x3x256x128_S1x1x1x256x128_2_3_0_0_0).toLoadRect (landed m c 19) = wire (run m 3 2 (px 3 c)) :=
  load_slot_wire_at ![2, 3, 0, 0, 0] inb_S3x4x3x256x128_S1x1x1x256x128_2_3_0_0_0 (landed m c 19) (run m 3 2 (px 3 c))
    (read_slot_write 19 (junk c 19) (sent m 19 (px (slotX 19) c)))

/-- Step 0 of chunk 0: its three slots. -/
theorem step_0_0 (c : Dev nD) :
    rcv (rcv (rcv (run m 0 0 c)
        (comM.view.readAt (Elt F) (Rect.unit (s := S3x4x3x256x128) ![0, 0, 0, 0, 0] S1x1x1x256x128.size inb_S3x4x3x256x128_S1x1x1x256x128_0_0_0_0_0).toLoadRect (landed m c 0)))
        (comM.view.readAt (Elt F) (Rect.unit (s := S3x4x3x256x128) ![0, 0, 1, 0, 0] S1x1x1x256x128.size inb_S3x4x3x256x128_S1x1x1x256x128_0_0_1_0_0).toLoadRect (landed m c 1)))
        (comM.view.readAt (Elt F) (Rect.unit (s := S3x4x3x256x128) ![0, 0, 2, 0, 0] S1x1x1x256x128.size inb_S3x4x3x256x128_S1x1x1x256x128_0_0_2_0_0).toLoadRect (landed m c 2))
      = run m 0 1 c := by
  rw [load_wire_0 m c, load_wire_1 m c, load_wire_2 m c]
  rfl
/-- Step 0 of chunk 1: its one slot. -/
theorem step_0_1 (c : Dev nD) :
    rcv (run m 1 0 c)
        (comM.view.readAt (Elt F) (Rect.unit (s := S3x4x3x256x128) ![0, 1, 0, 0, 0] S1x1x1x256x128.size inb_S3x4x3x256x128_S1x1x1x256x128_0_1_0_0_0).toLoadRect (landed m c 3))
      = run m 1 1 c := by
  rw [load_wire_3 m c]
  rfl
/-- Step 0 of chunk 2: its one slot. -/
theorem step_0_2 (c : Dev nD) :
    rcv (run m 2 0 c)
        (comM.view.readAt (Elt F) (Rect.unit (s := S3x4x3x256x128) ![0, 2, 0, 0, 0] S1x1x1x256x128.size inb_S3x4x3x256x128_S1x1x1x256x128_0_2_0_0_0).toLoadRect (landed m c 4))
      = run m 2 1 c := by
  rw [load_wire_4 m c]
  rfl
/-- Step 0 of chunk 3: its three slots. -/
theorem step_0_3 (c : Dev nD) :
    rcv (rcv (rcv (run m 3 0 c)
        (comM.view.readAt (Elt F) (Rect.unit (s := S3x4x3x256x128) ![0, 3, 0, 0, 0] S1x1x1x256x128.size inb_S3x4x3x256x128_S1x1x1x256x128_0_3_0_0_0).toLoadRect (landed m c 5)))
        (comM.view.readAt (Elt F) (Rect.unit (s := S3x4x3x256x128) ![0, 3, 1, 0, 0] S1x1x1x256x128.size inb_S3x4x3x256x128_S1x1x1x256x128_0_3_1_0_0).toLoadRect (landed m c 6)))
        (comM.view.readAt (Elt F) (Rect.unit (s := S3x4x3x256x128) ![0, 3, 2, 0, 0] S1x1x1x256x128.size inb_S3x4x3x256x128_S1x1x1x256x128_0_3_2_0_0).toLoadRect (landed m c 7))
      = run m 3 1 c := by
  rw [load_wire_5 m c, load_wire_6 m c, load_wire_7 m c]
  rfl
/-- Step 1 of chunk 0: its one slot. -/
theorem step_1_0 (c : Dev nD) :
    rcv (run m 0 1 c)
        (comM.view.readAt (Elt F) (Rect.unit (s := S3x4x3x256x128) ![1, 0, 0, 0, 0] S1x1x1x256x128.size inb_S3x4x3x256x128_S1x1x1x256x128_1_0_0_0_0).toLoadRect (landed m c 8))
      = run m 0 2 c := by
  rw [load_wire_8 m c]
  rfl
/-- Step 1 of chunk 1: its one slot. -/
theorem step_1_1 (c : Dev nD) :
    rcv (run m 1 1 c)
        (comM.view.readAt (Elt F) (Rect.unit (s := S3x4x3x256x128) ![1, 1, 0, 0, 0] S1x1x1x256x128.size inb_S3x4x3x256x128_S1x1x1x256x128_1_1_0_0_0).toLoadRect (landed m c 9))
      = run m 1 2 c := by
  rw [load_wire_9 m c]
  rfl
/-- Step 1 of chunk 2: its three slots. -/
theorem step_1_2 (c : Dev nD) :
    rcv (rcv (rcv (run m 2 1 c)
        (comM.view.readAt (Elt F) (Rect.unit (s := S3x4x3x256x128) ![1, 2, 0, 0, 0] S1x1x1x256x128.size inb_S3x4x3x256x128_S1x1x1x256x128_1_2_0_0_0).toLoadRect (landed m c 10)))
        (comM.view.readAt (Elt F) (Rect.unit (s := S3x4x3x256x128) ![1, 2, 1, 0, 0] S1x1x1x256x128.size inb_S3x4x3x256x128_S1x1x1x256x128_1_2_1_0_0).toLoadRect (landed m c 11)))
        (comM.view.readAt (Elt F) (Rect.unit (s := S3x4x3x256x128) ![1, 2, 2, 0, 0] S1x1x1x256x128.size inb_S3x4x3x256x128_S1x1x1x256x128_1_2_2_0_0).toLoadRect (landed m c 12))
      = run m 2 2 c := by
  rw [load_wire_10 m c, load_wire_11 m c, load_wire_12 m c]
  rfl
/-- Step 1 of chunk 3: its one slot. -/
theorem step_1_3 (c : Dev nD) :
    rcv (run m 3 1 c)
        (comM.view.readAt (Elt F) (Rect.unit (s := S3x4x3x256x128) ![1, 3, 0, 0, 0] S1x1x1x256x128.size inb_S3x4x3x256x128_S1x1x1x256x128_1_3_0_0_0).toLoadRect (landed m c 13))
      = run m 3 2 c := by
  rw [load_wire_13 m c]
  rfl
/-- Step 2 of chunk 0: its one slot. -/
theorem step_2_0 (c : Dev nD) :
    rcv (run m 0 2 c)
        (comM.view.readAt (Elt F) (Rect.unit (s := S3x4x3x256x128) ![2, 0, 0, 0, 0] S1x1x1x256x128.size inb_S3x4x3x256x128_S1x1x1x256x128_2_0_0_0_0).toLoadRect (landed m c 14))
      = run m 0 3 c := by
  rw [load_wire_14 m c]
  rfl
/-- Step 2 of chunk 1: its three slots. -/
theorem step_2_1 (c : Dev nD) :
    rcv (rcv (rcv (run m 1 2 c)
        (comM.view.readAt (Elt F) (Rect.unit (s := S3x4x3x256x128) ![2, 1, 0, 0, 0] S1x1x1x256x128.size inb_S3x4x3x256x128_S1x1x1x256x128_2_1_0_0_0).toLoadRect (landed m c 15)))
        (comM.view.readAt (Elt F) (Rect.unit (s := S3x4x3x256x128) ![2, 1, 1, 0, 0] S1x1x1x256x128.size inb_S3x4x3x256x128_S1x1x1x256x128_2_1_1_0_0).toLoadRect (landed m c 16)))
        (comM.view.readAt (Elt F) (Rect.unit (s := S3x4x3x256x128) ![2, 1, 2, 0, 0] S1x1x1x256x128.size inb_S3x4x3x256x128_S1x1x1x256x128_2_1_2_0_0).toLoadRect (landed m c 17))
      = run m 1 3 c := by
  rw [load_wire_15 m c, load_wire_16 m c, load_wire_17 m c]
  rfl
/-- Step 2 of chunk 2: its one slot. -/
theorem step_2_2 (c : Dev nD) :
    rcv (run m 2 2 c)
        (comM.view.readAt (Elt F) (Rect.unit (s := S3x4x3x256x128) ![2, 2, 0, 0, 0] S1x1x1x256x128.size inb_S3x4x3x256x128_S1x1x1x256x128_2_2_0_0_0).toLoadRect (landed m c 18))
      = run m 2 3 c := by
  rw [load_wire_18 m c]
  rfl
/-- Step 2 of chunk 3: its one slot. -/
theorem step_2_3 (c : Dev nD) :
    rcv (run m 3 2 c)
        (comM.view.readAt (Elt F) (Rect.unit (s := S3x4x3x256x128) ![2, 3, 0, 0, 0] S1x1x1x256x128.size inb_S3x4x3x256x128_S1x1x1x256x128_2_3_0_0_0).toLoadRect (landed m c 19))
      = run m 3 3 c := by
  rw [load_wire_19 m c]
  rfl

end Cert.KernelIdeal.Values

end

/-- info: 'Cert.KernelIdeal.Values.pay22_pay10' depends on axioms: [propext, Classical.choice, Quot.sound] -/
#guard_msgs in #print axioms Cert.KernelIdeal.Values.pay22_pay10
/-- info: 'Cert.KernelIdeal.Values.step_0_0' depends on axioms: [propext, Classical.choice, Quot.sound] -/
#guard_msgs in #print axioms Cert.KernelIdeal.Values.step_0_0
/-- info: 'Cert.KernelIdeal.Values.step_2_3' depends on axioms: [propext, Classical.choice, Quot.sound] -/
#guard_msgs in #print axioms Cert.KernelIdeal.Values.step_2_3
-- ==== Proof.KernelIdealAcc.lean ====
/-
  Loads of the running-sum buffer after stores of its chunk slices.

  The running-sum buffer holds four chunk slices, one per value of its first coordinate. A load of one slice after a
  list of stores whose last store went to ANOTHER slice reads what the earlier stores left: the two slices differ in their
  first coordinate, so they share no element. A load of the slice the last store went to reads that store's payload.
-/
import proofs.«900514_g7700000000000515_dist_attn_self_mha_htp_b2_sq128_skv128_d512_hq8_dh64_v7x_i16_bf16_1_alg».proof.Proof.KernelIdealProto
import Idealize.ShloMosaic.Lib.Pipeline.FrameBody

noncomputable section

namespace Cert.KernelIdeal.Acc

open Cert.KernelIdeal Cert.KernelIdeal.Gen Cert.KernelIdeal.Terms Cert.KernelIdeal.Proto

open Idealize.ShloMosaic
open Idealize.ShloMosaic.TcCoe

variable {F : FTy → Type} [FloatOps F]

/-- The chunk slices at first coordinates `a ≠ b` share no element. -/
theorem chunk_disjoint (a b : ℕ) (hab : a ≠ b)
    (inba : ∀ x, (![a, 0, 0] : Fin 3 → ℕ) x + S1x256x128.size x ≤ S4x256x128.size x)
    (inbb : ∀ x, (![b, 0, 0] : Fin 3 → ℕ) x + S1x256x128.size x ≤ S4x256x128.size x) :
    Disjoint (Rect.unit (s := S4x256x128) ![a, 0, 0] S1x256x128.size inba).set
      (Rect.unit (s := S4x256x128) ![b, 0, 0] S1x256x128.size inbb).toLoadRect.set :=
  Rect.unit_disjoint (s := S4x256x128) (0 : Fin 3) (by show a + 1 ≤ b ∨ b + 1 ≤ a; omega)

/-- A load of chunk `b`'s slice skips a last store to chunk `a ≠ b`'s slice. -/
theorem acc_skip (a b : ℕ) (hab : a ≠ b)
    (inba : ∀ x, (![a, 0, 0] : Fin 3 → ℕ) x + S1x256x128.size x ≤ S4x256x128.size x)
    (inbb : ∀ x, (![b, 0, 0] : Fin 3 → ℕ) x + S1x256x128.size x ≤ S4x256x128.size x)
    (w : (Rect.unit (s := S4x256x128) ![a, 0, 0] S1x256x128.size inba).shape.Idx → Elt F .f32)
    (L : List (View.Piece (Elt F) S4x256x128 .f32)) :
    (Memref.whole cc0_scratch0 : Memref sig .tc .vmem S4x256x128 .f32).view.readCov
        (⟨Rect.unit (s := S4x256x128) ![a, 0, 0] S1x256x128.size inba, w⟩ :: L)
        (Rect.unit (s := S4x256x128) ![b, 0, 0] S1x256x128.size inbb).toLoadRect
      = (Memref.whole cc0_scratch0 : Memref sig .tc .vmem S4x256x128 .f32).view.readCov L
          (Rect.unit (s := S4x256x128) ![b, 0, 0] S1x256x128.size inbb).toLoadRect :=
  View.readCov_cons_of_disjoint _ _ L _ (chunk_disjoint a b hab inba inbb)

/-- A load of the slice the last store went to reads that store's payload. -/
theorem acc_hit (a : ℕ)
    (inba : ∀ x, (![a, 0, 0] : Fin 3 → ℕ) x + S1x256x128.size x ≤ S4x256x128.size x)
    (w : (Rect.unit (s := S4x256x128) ![a, 0, 0] S1x256x128.size inba).shape.Idx → Elt F .f32)
    (L : List (View.Piece (Elt F) S4x256x128 .f32)) :
    (Memref.whole cc0_scratch0 : Memref sig .tc .vmem S4x256x128 .f32).view.readCov
        (⟨Rect.unit (s := S4x256x128) ![a, 0, 0] S1x256x128.size inba, w⟩ :: L)
        (Rect.unit (s := S4x256x128) ![a, 0, 0] S1x256x128.size inba).toLoadRect
      = w :=
  View.readCov_cons_toLoadRect _ _ w L

end Cert.KernelIdeal.Acc

end

/-- info: 'Cert.KernelIdeal.Acc.acc_skip' depends on axioms: [propext, Classical.choice, Quot.sound] -/
#guard_msgs in #print axioms Cert.KernelIdeal.Acc.acc_skip

/-- info: 'Cert.KernelIdeal.Acc.acc_hit' depends on axioms: [propext, Classical.choice, Quot.sound] -/
#guard_msgs in #print axioms Cert.KernelIdeal.Acc.acc_hit
-- ==== Proof.KernelIdealBody.lean ====
/-
  One device's body, run from its ghost state: the entry handshake, the attention block, the four partial products, and
  the three exchange steps per chunk, each copy started once the chunk's running sum is stored and narrowed, each landing
  waited for before it is read. What the run leaves in the result buffer is the four chunks' sums over all devices.
-/
import proofs.«900514_g7700000000000515_dist_attn_self_mha_htp_b2_sq128_skv128_d512_hq8_dh64_v7x_i16_bf16_1_alg».proof.Proof.KernelIdealBodyDefs
import proofs.«900514_g7700000000000515_dist_attn_self_mha_htp_b2_sq128_skv128_d512_hq8_dh64_v7x_i16_bf16_1_alg».proof.Proof.KernelIdealRegions
import proofs.«900514_g7700000000000515_dist_attn_self_mha_htp_b2_sq128_skv128_d512_hq8_dh64_v7x_i16_bf16_1_alg».proof.Proof.KernelIdealWaits
import proofs.«900514_g7700000000000515_dist_attn_self_mha_htp_b2_sq128_skv128_d512_hq8_dh64_v7x_i16_bf16_1_alg».proof.Proof.KernelIdealBridge
import proofs.«900514_g7700000000000515_dist_attn_self_mha_htp_b2_sq128_skv128_d512_hq8_dh64_v7x_i16_bf16_1_alg».proof.Proof.KernelIdealValues
import proofs.«900514_g7700000000000515_dist_attn_self_mha_htp_b2_sq128_skv128_d512_hq8_dh64_v7x_i16_bf16_1_alg».proof.Proof.KernelIdealAcc

set_option maxRecDepth 16384

noncomputable section

namespace Cert.KernelIdeal.Body

open Cert.KernelIdeal Cert.KernelIdeal.Gen Cert.KernelIdeal.Terms Cert.KernelIdeal.Proto
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## The running sums, as the run presents them -/

theorem base0 (c : Dev nD) : k0_pay9 (k0_pay7 (k0_pay3 (k0_pay2 (xs0 m c)) (xs4 m c)) (k0_pay4 (k0_pay2 (xs0 m c)) (xs1 m c) (xs3 m c)) k0_pay5 k0_pay6) (xs2 m c) = run m 0 0 c := rfl
theorem base1 (c : Dev nD) : k0_pay12 (k0_pay7 (k0_pay3 (k0_pay2 (xs0 m c)) (xs4 m c)) (k0_pay4 (k0_pay2 (xs0 m c)) (xs1 m c) (xs3 m c)) k0_pay5 k0_pay6) (k0_pay8 (xs2 m c)) = run m 1 0 c := rfl
theorem base2 (c : Dev nD) : k0_pay16 (k0_pay7 (k0_pay3 (k0_pay2 (xs0 m c)) (xs4 m c)) (k0_pay4 (k0_pay2 (xs0 m c)) (xs1 m c) (xs3 m c)) k0_pay5 k0_pay6) (k0_pay8 (xs2 m c)) = run m 2 0 c := rfl
theorem base3 (c : Dev nD) : k0_pay19 (k0_pay7 (k0_pay3 (k0_pay2 (xs0 m c)) (xs4 m c)) (k0_pay4 (k0_pay2 (xs0 m c)) (xs1 m c) (xs3 m c)) k0_pay5 k0_pay6) (k0_pay8 (xs2 m c)) = run m 3 0 c := rfl

theorem st00 (c : Dev nD) : rcv (rcv (rcv (run m 0 0 c) (wire (run m 0 0 (px 0 c)))) (wire (run m 0 0 (px 1 c)))) (wire (run m 0 0 (px 2 c))) = run m 0 1 c := rfl
theorem st01 (c : Dev nD) : rcv (run m 1 0 c) (wire (run m 1 0 (px 3 c))) = run m 1 1 c := rfl
theorem st02 (c : Dev nD) : rcv (run m 2 0 c) (wire (run m 2 0 (px 4 c))) = run m 2 1 c := rfl
theorem st03 (c : Dev nD) : rcv (rcv (rcv (run m 3 0 c) (wire (run m 3 0 (px 0 c)))) (wire (run m 3 0 (px 1 c)))) (wire (run m 3 0 (px 2 c))) = run m 3 1 c := rfl
theorem st10 (c : Dev nD) : rcv (run m 0 1 c) (wire (run m 0 1 (px 3 c))) = run m 0 2 c := rfl
theorem st11 (c : Dev nD) : rcv (run m 1 1 c) (wire (run m 1 1 (px 4 c))) = run m 1 2 c := rfl
theorem st12 (c : Dev nD) : rcv (rcv (rcv (run m 2 1 c) (wire (run m 2 1 (px 0 c)))) (wire (run m 2 1 (px 1 c)))) (wire (run m 2 1 (px 2 c))) = run m 2 2 c := rfl
theorem st13 (c : Dev nD) : rcv (run m 3 1 c) (wire (run m 3 1 (px 4 c))) = run m 3 2 c := rfl
theorem st20 (c : Dev nD) : rcv (run m 0 2 c) (wire (run m 0 2 (px 4 c))) = run m 0 3 c := rfl
theorem st21 (c : Dev nD) : rcv (rcv (rcv (run m 1 2 c) (wire (run m 1 2 (px 0 c)))) (wire (run m 1 2 (px 1 c)))) (wire (run m 1 2 (px 2 c))) = run m 1 3 c := rfl
theorem st22 (c : Dev nD) : rcv (run m 2 2 c) (wire (run m 2 2 (px 3 c))) = run m 2 3 c := rfl
theorem st23 (c : Dev nD) : rcv (run m 3 2 c) (wire (run m 3 2 (px 3 c))) = run m 3 3 c := rfl

omit [FloatOps F] in
theorem rd0' (f : (cc0_stg0_0 : Ref sig .tc).ty.Contents (Elt F)) :
    View.readAt (Elt F) (View.whole cc0_stg0_0) (Rect.unit (s := S2x128x512) ![0, 0, 0] ![2, 128, 512] inb_S2x128x512_S2x128x512_0_0_0).toLoadRect f = f := rd0 f
omit [FloatOps F] in
theorem rd1' (f : (cc0_stg1_0 : Ref sig .tc).ty.Contents (Elt F)) :
    View.readAt (Elt F) (View.whole cc0_stg1_0) (Rect.unit (s := S512x512) ![0, 0] ![512, 512] inb_S512x512_S512x512_0_0).toLoadRect f = f := rd1 f
omit [FloatOps F] in
theorem rd2' (f : (cc0_stg2_0 : Ref sig .tc).ty.Contents (Elt F)) :
    View.readAt (Elt F) (View.whole cc0_stg2_0) (Rect.unit (s := S512x512) ![0, 0] ![512, 512] inb_S512x512_S512x512_0_0).toLoadRect f = f := rd2 f
omit [FloatOps F] in
theorem rd3' (f : (cc0_stg3_0 : Ref sig .tc).ty.Contents (Elt F)) :
    View.readAt (Elt F) (View.whole cc0_stg3_0) (Rect.unit (s := S512x512) ![0, 0] ![512, 512] inb_S512x512_S512x512_0_0).toLoadRect f = f := rd3 f
omit [FloatOps F] in
theorem rd4' (f : (cc0_stg4_0 : Ref sig .tc).ty.Contents (Elt F)) :
    View.readAt (Elt F) (View.whole cc0_stg4_0) (Rect.unit (s := S512x512) ![0, 0] ![512, 512] inb_S512x512_S512x512_0_0).toLoadRect f = f := rd4 f

theorem acc_hit' (a : ℕ) (inba : ∀ x, (![a, 0, 0] : Fin 3 → ℕ) x + S1x256x128.size x ≤ S4x256x128.size x)
    (w : (Rect.unit (s := S4x256x128) ![a, 0, 0] S1x256x128.size inba).shape.Idx → Elt F .f32) (L : List (View.Piece (Elt F) S4x256x128 .f32)) :
    (View.whole cc0_scratch0).readCov (⟨Rect.unit (s := S4x256x128) ![a, 0, 0] ![1, 256, 128] inba, w⟩ :: L) (Rect.unit (s := S4x256x128) ![a, 0, 0] ![1, 256, 128] inba).toLoadRect = w :=
  Acc.acc_hit a inba w L
theorem acc_skip' (a b : ℕ) (hab : a ≠ b) (inba : ∀ x, (![a, 0, 0] : Fin 3 → ℕ) x + S1x256x128.size x ≤ S4x256x128.size x)
    (inbb : ∀ x, (![b, 0, 0] : Fin 3 → ℕ) x + S1x256x128.size x ≤ S4x256x128.size x)
    (w : (Rect.unit (s := S4x256x128) ![a, 0, 0] S1x256x128.size inba).shape.Idx → Elt F .f32) (L : List (View.Piece (Elt F) S4x256x128 .f32)) :
    (View.whole cc0_scratch0).readCov (⟨Rect.unit (s := S4x256x128) ![a, 0, 0] ![1, 256, 128] inba, w⟩ :: L) (Rect.unit (s := S4x256x128) ![b, 0, 0] ![1, 256, 128] inbb).toLoadRect
      = (View.whole cc0_scratch0).readCov L (Rect.unit (s := S4x256x128) ![b, 0, 0] ![1, 256, 128] inbb).toLoadRect :=
  Acc.acc_skip a b hab inba inbb w L

set_option allowUnsafeReducibility true in
attribute [local reducible] srcPts slotPts srcM slotM sendPay recvPay

attribute [local sl_canon] dev1_eq dev2_eq dev3_eq dev4_eq dev5_eq dev6_eq dev7_eq dev8_eq dev9_eq dev10_eq dev11_eq dev12_eq dev13_eq dev14_eq dev15_eq dev16_eq dev17_eq dev18_eq dev19_eq dev20_eq dev21_eq dev22_eq dev23_eq dev24_eq dev25_eq sendSem_canon0 recvSem_canon0 sendSem_canon1 recvSem_canon1 sendSem_canon2 recvSem_canon2 sendSem_canon3 recvSem_canon3 sendSem_canon4 recvSem_canon4 sendSem_canon5 recvSem_canon5 sendSem_canon6 recvSem_canon6 sendSem_canon7 recvSem_canon7 sendSem_canon8 recvSem_canon8 sendSem_canon9 recvSem_canon9 sendSem_canon10 recvSem_canon10 sendSem_canon11 recvSem_canon11 sendSem_canon12 recvSem_canon12 sendSem_canon13 recvSem_canon13 sendSem_canon14 recvSem_canon14 sendSem_canon15 recvSem_canon15 sendSem_canon16 recvSem_canon16 sendSem_canon17 recvSem_canon17 sendSem_canon18 recvSem_canon18 sendSem_canon19 recvSem_canon19
attribute [local sl_rounds] duties_bar duties_send duties_recv amount_bar amount_send amount_recv expect_bar expect_send expect_recv
  payload_bar_peer pay_send_0 pay_recv_0 pay_send_1 pay_recv_1 pay_send_2 pay_recv_2 pay_send_3 pay_recv_3 pay_send_4 pay_recv_4 pay_send_5 pay_recv_5 pay_send_6 pay_recv_6 pay_send_7 pay_recv_7 pay_send_8 pay_recv_8 pay_send_9 pay_recv_9 pay_send_10 pay_recv_10 pay_send_11 pay_recv_11 pay_send_12 pay_recv_12 pay_send_13 pay_recv_13 pay_send_14 pay_recv_14 pay_send_15 pay_recv_15 pay_send_16 pay_recv_16 pay_send_17 pay_recv_17 pay_send_18 pay_recv_18 pay_send_19 pay_recv_19

set_option maxHeartbeats 8000000 in
theorem sound_body (K : Dev nD × Cell → ℕ) (c : Dev nD) (W : Waits sig Unit) (X5 : (cc0_stg5_0 : Ref sig .tc).ty.Contents (Elt F))
    (A0 : (cc0_scratch0 : Ref sig .tc).ty.Contents (Elt F)) (S0 : (cc0_scratch1 : Ref sig .tc).ty.Contents (Elt F))
    (C0 : (cc0_scratch2 : Ref sig .tc).ty.Contents (Elt F)) (Kt : PUnit → sProp 𝕄) :
    iprop(bodyCtx m K c W X5 A0 S0 C0 ∗ (bodyEnd m c -∗ Kt ⟨⟩))
      ⊢ wp frame (wpE (defs₀ (F := F)) 𝒱₀ c none) Set.univ (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4) Kt := by
  unfold bodyCtx ctxGhost
  iintro ⟨⟨⟨#HIb, #HIp0, #HIp1, #HIp2, #HIp3, #HIp4, #HIs0, #HIs1, #HIs2, #HIs3, #HIs4, #HIs5, #HIs6, #HIs7, #HIs8, #HIs9, #HIs10, #HIs11, #HIs12, #HIs13, #HIs14, #HIs15, #HIs16, #HIs17, #HIs18, #HIs19, #HIr0, #HIr1, #HIr2, #HIr3, #HIr4, #HIr5, #HIr6, #HIr7, #HIr8, #HIr9, #HIr10, #HIr11, #HIr12, #HIr13, #HIr14, #HIr15, #HIr16, #HIr17, #HIr18, #HIr19, #HIq0, #HIq1, #HIq2, #HIq3, #HIq4, #HIq5, #HIq6, #HIq7, #HIq8, #HIq9, #HIq10, #HIq11, #HIq12, #HIq13, #HIq14, #HIq15, #HIq16, #HIq17, #HIq18, #HIq19, #Hrp0, #Hrp1, #Hrp2, #Hrp3, #Hrp4, #Hrs0, #Hrs1, #Hrs2, #Hrs3, #Hrs4, #Hrs5, #Hrs6, #Hrs7, #Hrs8, #Hrs9, #Hrs10, #Hrs11, #Hrs12, #Hrs13, #Hrs14, #Hrs15, #Hrs16, #Hrs17, #Hrs18, #Hrs19, #Hrq0, #Hrq1, #Hrq2, #Hrq3, #Hrq4, #Hrq5, #Hrq6, #Hrq7, #Hrq8, #Hrq9, #Hrq10, #Hrq11, #Hrq12, #Hrq13, #Hrq14, #Hrq15, #Hrq16, #Hrq17, #Hrq18, #Hrq19, #Hrr0, #Hrr1, #Hrr2, #Hrr3, #Hrr4, #Hrr5, #Hrr6, #Hrr7, #Hrr8, #Hrr9, #Hrr10, #Hrr11, #Hrr12, #Hrr13, #Hrr14, #Hrr15, #Hrr16, #Hrr17, #Hrr18, #Hrr19, Htp0, Htp1, Htp2, Htp3, Htp4, Hts0, Hts1, Hts2, Hts3, Hts4, Hts5, Hts6, Hts7, Hts8, Hts9, Hts10, Hts11, Hts12, Hts13, Hts14, Hts15, Hts16, Hts17, Hts18, Hts19, Htq0, Htq1, Htq2, Htq3, Htq4, Htq5, Htq6, Htq7, Htq8, Htq9, Htq10, Htq11, Htq12, Htq13, Htq14, Htq15, Htq16, Htq17, Htq18, Htq19, Hab, Has0, Has1, Has2, Has3, Has4, Has5, Has6, Has7, Has8, Has9, Has10, Has11, Has12, Has13, Has14, Has15, Has16, Has17, Has18, Has19, Har0, Har1, Har2, Har3, Har4, Har5, Har6, Har7, Har8, Har9, Har10, Har11, Har12, Har13, Har14, Har15, Har16, Har17, Har18, Har19⟩, #Hlev, Hcb, Hcr0, Hcr1, Hcr2, Hcr3, Hcr4, Hcr5, Hcr6, Hcr7, Hcr8, Hcr9, Hcr10, Hcr11, Hcr12, Hcr13, Hcr14, Hcr15, Hcr16, Hcr17, Hcr18, Hcr19, Hgv0, Hgv1, Hgv2, Hgv3, Hgv4, HO, Hx0, Hx1, Hx2, Hx3, Hx4, Hx5, Hacc, Hsn0, Hsn1, Hsn2, Hsn3, Hrest⟩, Hk⟩
  have hmw0 := Waits.mayWait_bar (F := F) c
  have hmw1 := Waits.mayWait_recv_0 (F := F) c
  have hmw2 := Waits.mayWait_send_0 (F := F) c
  have hmw3 := Waits.mayWait_recv_1 (F := F) c
  have hmw4 := Waits.mayWait_send_1 (F := F) c
  have hmw5 := Waits.mayWait_recv_2 (F := F) c
  have hmw6 := Waits.mayWait_send_2 (F := F) c
  have hmw7 := Waits.mayWait_recv_3 (F := F) c
  have hmw8 := Waits.mayWait_send_3 (F := F) c
  have hmw9 := Waits.mayWait_recv_4 (F := F) c
  have hmw10 := Waits.mayWait_send_4 (F := F) c
  have hmw11 := Waits.mayWait_recv_5 (F := F) c
  have hmw12 := Waits.mayWait_send_5 (F := F) c
  have hmw13 := Waits.mayWait_recv_6 (F := F) c
  have hmw14 := Waits.mayWait_send_6 (F := F) c
  have hmw15 := Waits.mayWait_recv_7 (F := F) c
  have hmw16 := Waits.mayWait_send_7 (F := F) c
  have hmw17 := Waits.mayWait_recv_8 (F := F) c
  have hmw18 := Waits.mayWait_send_8 (F := F) c
  have hmw19 := Waits.mayWait_recv_9 (F := F) c
  have hmw20 := Waits.mayWait_send_9 (F := F) c
  have hmw21 := Waits.mayWait_recv_10 (F := F) c
  have hmw22 := Waits.mayWait_send_10 (F := F) c
  have hmw23 := Waits.mayWait_recv_11 (F := F) c
  have hmw24 := Waits.mayWait_send_11 (F := F) c
  have hmw25 := Waits.mayWait_recv_12 (F := F) c
  have hmw26 := Waits.mayWait_send_12 (F := F) c
  have hmw27 := Waits.mayWait_recv_13 (F := F) c
  have hmw28 := Waits.mayWait_send_13 (F := F) c
  sl_unfold [cc0_body]
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq])

  -- the partners' receive slots, handed over with their entry signals
  ihave Hp := (Entails.of_eq (bar_payloads m c)) $$ Hab_pay1
  unfold barPay give
  icases Hp with ⟨⟨⟨⟨%g0, Hq0⟩, -⟩, ⟨⟨%g5, Hq5⟩, -⟩, ⟨⟨%g10, Hq10⟩, -⟩, ⟨⟨%g15, Hq15⟩, -⟩⟩, ⟨⟨⟨%g1, Hq1⟩, -⟩, ⟨⟨%g6, Hq6⟩, -⟩, ⟨⟨%g11, Hq11⟩, -⟩, ⟨⟨%g16, Hq16⟩, -⟩⟩, ⟨⟨⟨%g2, Hq2⟩, -⟩, ⟨⟨%g7, Hq7⟩, -⟩, ⟨⟨%g12, Hq12⟩, -⟩, ⟨⟨%g17, Hq17⟩, -⟩⟩, ⟨⟨⟨%g3, Hq3⟩, -⟩, ⟨⟨%g8, Hq8⟩, -⟩, ⟨⟨%g18, Hq18⟩, -⟩, ⟨⟨%g19, Hq19⟩, -⟩⟩, ⟨⟨⟨%g4, Hq4⟩, -⟩, ⟨⟨%g9, Hq9⟩, -⟩, ⟨⟨%g13, Hq13⟩, -⟩, ⟨⟨%g14, Hq14⟩, -⟩⟩⟩
  -- ── first step of every chunk ────────────────────────────────────────────────────────────────────────────────────
  -- chunk 0 goes to the three plane partners at once: each copy borrows a third of the outgoing slice
  ihave Hs := (Regions.third_split c 0 _).1 $$ Hsn0
  icases Hs with ⟨Hs0a, Hs0b, Hs0c⟩
  iapply (Steps.send_step m c 0 (K (c, .inr (.inl 0))) (K (px 0 c, .inr (.inr 0))) _ g0 _ _ ?hfs0) $$ [Hs0a Hq0 HO Hts0 Htq0]
  rotate_left
  · isplitr; · iexact HIs0
    isplitr; · iexact HIq0
    isplitl [Hs0a]; · iexact Hs0a
    isplitl [Hq0]; · iexact Hq0
    isplitl [HO]; · iexact HO
    isplitl [Hts0]; · iexact Hts0
    isplitr; · iexact Hrs0
    isplitl [Htq0]; · iexact Htq0
    iexact Hrq0
  case hfs0 =>
    unfold sound_body.sl.Hsn0_w1
    unfold sound_body.sl.r_4 sound_body.sl.r_5 sound_body.sl.r_2 sound_body.sl.r_3 sound_body.sl.r sound_body.sl.r_1
    simp only [rd0, rd1, rd2, rd3, rd4, rd0', rd1', rd2', rd3', rd4', Values.pay23_eq, Values.pay28_eq, Values.pay32_eq, Values.pay36_eq, Values.pay37_eq, Values.pay38_eq, Values.pay42_eq, Values.pay47_eq, Values.pay51_eq, Values.pay52_eq, Values.pay53_eq, Values.pay57_eq, Values.pay63_eq, Values.pay64_eq, Values.pay24_eq, Values.pay61_eq, Values.pay65_eq, Values.pay67_eq, Values.pay1_eq, Values.pay10_eq, Values.pay13_eq, Values.pay17_eq, Values.pay20_eq, Values.pay29_eq, Values.pay33_eq, Values.pay39_eq, Values.pay43_eq, Values.pay48_eq, Values.pay54_eq, Values.pay58_eq, Values.pay22_eq, Values.pay27_eq, Values.pay31_eq, Values.pay35_eq, Values.pay41_eq, Values.pay46_eq, Values.pay50_eq, Values.pay56_eq, Values.pay60_eq, Values.pay62_eq, Values.pay66_eq, Values.pay68_eq, Values.pay11_eq, Values.pay14_eq, Values.pay15_eq, Values.pay18_eq, Values.pay21_eq, Values.pay30_eq, Values.pay34_eq, Values.pay40_eq, Values.pay44_eq, Values.pay45_eq, Values.pay49_eq, Values.pay55_eq, Values.pay59_eq, Views.pay25_eq, Views.pay26_eq, Views.sq_unsq, Values.load_wire_0 m c, Values.load_wire_1 m c, Values.load_wire_2 m c, Values.load_wire_3 m c, Values.load_wire_4 m c, Values.load_wire_5 m c, Values.load_wire_6 m c, Values.load_wire_7 m c, Values.load_wire_8 m c, Values.load_wire_9 m c, Values.load_wire_10 m c, Values.load_wire_11 m c, Values.load_wire_12 m c, Values.load_wire_13 m c, Values.load_wire_14 m c, Values.load_wire_15 m c, Values.load_wire_16 m c, Values.load_wire_17 m c, Values.load_wire_18 m c, Values.load_wire_19 m c, base0 m c, base1 m c, base2 m c, base3 m c, st00 m c, st01 m c, st02 m c, st03 m c, st10 m c, st11 m c, st12 m c, st13 m c, st20 m c, st21 m c, st22 m c, st23 m c]
    exact (Views.read_src_store_cast_at _ _ _ _).trans (by rfl)
  iintro ⟨Hcs0, HO⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq])
  iapply (Steps.send_step m c 1 (K (c, .inr (.inl 1))) (K (px 1 c, .inr (.inr 1))) _ g1 _ _ ?hfs1) $$ [Hs0b Hq1 HO Hts1 Htq1]
  rotate_left
  · isplitr; · iexact HIs1
    isplitr; · iexact HIq1
    isplitl [Hs0b]; · iexact Hs0b
    isplitl [Hq1]; · iexact Hq1
    isplitl [HO]; · iexact HO
    isplitl [Hts1]; · iexact Hts1
    isplitr; · iexact Hrs1
    isplitl [Htq1]; · iexact Htq1
    iexact Hrq1
  case hfs1 =>
    unfold sound_body.sl.Hsn0_w1
    unfold sound_body.sl.r_4 sound_body.sl.r_5 sound_body.sl.r_2 sound_body.sl.r_3 sound_body.sl.r sound_body.sl.r_1
    simp only [rd0, rd1, rd2, rd3, rd4, rd0', rd1', rd2', rd3', rd4', Values.pay23_eq, Values.pay28_eq, Values.pay32_eq, Values.pay36_eq, Values.pay37_eq, Values.pay38_eq, Values.pay42_eq, Values.pay47_eq, Values.pay51_eq, Values.pay52_eq, Values.pay53_eq, Values.pay57_eq, Values.pay63_eq, Values.pay64_eq, Values.pay24_eq, Values.pay61_eq, Values.pay65_eq, Values.pay67_eq, Values.pay1_eq, Values.pay10_eq, Values.pay13_eq, Values.pay17_eq, Values.pay20_eq, Values.pay29_eq, Values.pay33_eq, Values.pay39_eq, Values.pay43_eq, Values.pay48_eq, Values.pay54_eq, Values.pay58_eq, Values.pay22_eq, Values.pay27_eq, Values.pay31_eq, Values.pay35_eq, Values.pay41_eq, Values.pay46_eq, Values.pay50_eq, Values.pay56_eq, Values.pay60_eq, Values.pay62_eq, Values.pay66_eq, Values.pay68_eq, Values.pay11_eq, Values.pay14_eq, Values.pay15_eq, Values.pay18_eq, Values.pay21_eq, Values.pay30_eq, Values.pay34_eq, Values.pay40_eq, Values.pay44_eq, Values.pay45_eq, Values.pay49_eq, Values.pay55_eq, Values.pay59_eq, Views.pay25_eq, Views.pay26_eq, Views.sq_unsq, Values.load_wire_0 m c, Values.load_wire_1 m c, Values.load_wire_2 m c, Values.load_wire_3 m c, Values.load_wire_4 m c, Values.load_wire_5 m c, Values.load_wire_6 m c, Values.load_wire_7 m c, Values.load_wire_8 m c, Values.load_wire_9 m c, Values.load_wire_10 m c, Values.load_wire_11 m c, Values.load_wire_12 m c, Values.load_wire_13 m c, Values.load_wire_14 m c, Values.load_wire_15 m c, Values.load_wire_16 m c, Values.load_wire_17 m c, Values.load_wire_18 m c, Values.load_wire_19 m c, base0 m c, base1 m c, base2 m c, base3 m c, st00 m c, st01 m c, st02 m c, st03 m c, st10 m c, st11 m c, st12 m c, st13 m c, st20 m c, st21 m c, st22 m c, st23 m c]
    exact (Views.read_src_store_cast_at _ _ _ _).trans (by rfl)
  iintro ⟨Hcs1, HO⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq])
  iapply (Steps.send_step m c 2 (K (c, .inr (.inl 2))) (K (px 2 c, .inr (.inr 2))) _ g2 _ _ ?hfs2) $$ [Hs0c Hq2 HO Hts2 Htq2]
  rotate_left
  · isplitr; · iexact HIs2
    isplitr; · iexact HIq2
    isplitl [Hs0c]; · iexact Hs0c
    isplitl [Hq2]; · iexact Hq2
    isplitl [HO]; · iexact HO
    isplitl [Hts2]; · iexact Hts2
    isplitr; · iexact Hrs2
    isplitl [Htq2]; · iexact Htq2
    iexact Hrq2
  case hfs2 =>
    unfold sound_body.sl.Hsn0_w1
    unfold sound_body.sl.r_4 sound_body.sl.r_5 sound_body.sl.r_2 sound_body.sl.r_3 sound_body.sl.r sound_body.sl.r_1
    simp only [rd0, rd1, rd2, rd3, rd4, rd0', rd1', rd2', rd3', rd4', Values.pay23_eq, Values.pay28_eq, Values.pay32_eq, Values.pay36_eq, Values.pay37_eq, Values.pay38_eq, Values.pay42_eq, Values.pay47_eq, Values.pay51_eq, Values.pay52_eq, Values.pay53_eq, Values.pay57_eq, Values.pay63_eq, Values.pay64_eq, Values.pay24_eq, Values.pay61_eq, Values.pay65_eq, Values.pay67_eq, Values.pay1_eq, Values.pay10_eq, Values.pay13_eq, Values.pay17_eq, Values.pay20_eq, Values.pay29_eq, Values.pay33_eq, Values.pay39_eq, Values.pay43_eq, Values.pay48_eq, Values.pay54_eq, Values.pay58_eq, Values.pay22_eq, Values.pay27_eq, Values.pay31_eq, Values.pay35_eq, Values.pay41_eq, Values.pay46_eq, Values.pay50_eq, Values.pay56_eq, Values.pay60_eq, Values.pay62_eq, Values.pay66_eq, Values.pay68_eq, Values.pay11_eq, Values.pay14_eq, Values.pay15_eq, Values.pay18_eq, Values.pay21_eq, Values.pay30_eq, Values.pay34_eq, Values.pay40_eq, Values.pay44_eq, Values.pay45_eq, Values.pay49_eq, Values.pay55_eq, Values.pay59_eq, Views.pay25_eq, Views.pay26_eq, Views.sq_unsq, Values.load_wire_0 m c, Values.load_wire_1 m c, Values.load_wire_2 m c, Values.load_wire_3 m c, Values.load_wire_4 m c, Values.load_wire_5 m c, Values.load_wire_6 m c, Values.load_wire_7 m c, Values.load_wire_8 m c, Values.load_wire_9 m c, Values.load_wire_10 m c, Values.load_wire_11 m c, Values.load_wire_12 m c, Values.load_wire_13 m c, Values.load_wire_14 m c, Values.load_wire_15 m c, Values.load_wire_16 m c, Values.load_wire_17 m c, Values.load_wire_18 m c, Values.load_wire_19 m c, base0 m c, base1 m c, base2 m c, base3 m c, st00 m c, st01 m c, st02 m c, st03 m c, st10 m c, st11 m c, st12 m c, st13 m c, st20 m c, st21 m c, st22 m c, st23 m c]
    exact (Views.read_src_store_cast_at _ _ _ _).trans (by rfl)
  iintro ⟨Hcs2, HO⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq])
  -- chunk 1: one partner across planes, the whole slice lent
  iapply (Steps.send_step m c 3 (K (c, .inr (.inl 3))) (K (px 3 c, .inr (.inr 3))) _ g3 _ _ ?hfs3) $$ [Hsn1 Hq3 HO Hts3 Htq3]
  rotate_left
  · isplitr; · iexact HIs3
    isplitr; · iexact HIq3
    isplitl [Hsn1]; · iexact Hsn1
    isplitl [Hq3]; · iexact Hq3
    isplitl [HO]; · iexact HO
    isplitl [Hts3]; · iexact Hts3
    isplitr; · iexact Hrs3
    isplitl [Htq3]; · iexact Htq3
    iexact Hrq3
  case hfs3 =>
    unfold sound_body.sl.Hsn1_w1
    unfold sound_body.sl.r_7 sound_body.sl.r_4 sound_body.sl.r_6 sound_body.sl.r_5 sound_body.sl.r_2 sound_body.sl.r_3 sound_body.sl.r sound_body.sl.r_1
    simp only [rd0, rd1, rd2, rd3, rd4, rd0', rd1', rd2', rd3', rd4', Values.pay23_eq, Values.pay28_eq, Values.pay32_eq, Values.pay36_eq, Values.pay37_eq, Values.pay38_eq, Values.pay42_eq, Values.pay47_eq, Values.pay51_eq, Values.pay52_eq, Values.pay53_eq, Values.pay57_eq, Values.pay63_eq, Values.pay64_eq, Values.pay24_eq, Values.pay61_eq, Values.pay65_eq, Values.pay67_eq, Values.pay1_eq, Values.pay10_eq, Values.pay13_eq, Values.pay17_eq, Values.pay20_eq, Values.pay29_eq, Values.pay33_eq, Values.pay39_eq, Values.pay43_eq, Values.pay48_eq, Values.pay54_eq, Values.pay58_eq, Values.pay22_eq, Values.pay27_eq, Values.pay31_eq, Values.pay35_eq, Values.pay41_eq, Values.pay46_eq, Values.pay50_eq, Values.pay56_eq, Values.pay60_eq, Values.pay62_eq, Values.pay66_eq, Values.pay68_eq, Values.pay11_eq, Values.pay14_eq, Values.pay15_eq, Values.pay18_eq, Values.pay21_eq, Values.pay30_eq, Values.pay34_eq, Values.pay40_eq, Values.pay44_eq, Values.pay45_eq, Values.pay49_eq, Values.pay55_eq, Values.pay59_eq, Views.pay25_eq, Views.pay26_eq, Views.sq_unsq, Values.load_wire_0 m c, Values.load_wire_1 m c, Values.load_wire_2 m c, Values.load_wire_3 m c, Values.load_wire_4 m c, Values.load_wire_5 m c, Values.load_wire_6 m c, Values.load_wire_7 m c, Values.load_wire_8 m c, Values.load_wire_9 m c, Values.load_wire_10 m c, Values.load_wire_11 m c, Values.load_wire_12 m c, Values.load_wire_13 m c, Values.load_wire_14 m c, Values.load_wire_15 m c, Values.load_wire_16 m c, Values.load_wire_17 m c, Values.load_wire_18 m c, Values.load_wire_19 m c, base0 m c, base1 m c, base2 m c, base3 m c, st00 m c, st01 m c, st02 m c, st03 m c, st10 m c, st11 m c, st12 m c, st13 m c, st20 m c, st21 m c, st22 m c, st23 m c]
    exact (Views.read_src_store_cast_at _ _ _ _).trans (by rfl)
  iintro ⟨Hcs3, HO⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq])
  -- chunk 2
  iapply (Steps.send_step m c 4 (K (c, .inr (.inl 4))) (K (px 4 c, .inr (.inr 4))) _ g4 _ _ ?hfs4) $$ [Hsn2 Hq4 HO Hts4 Htq4]
  rotate_left
  · isplitr; · iexact HIs4
    isplitr; · iexact HIq4
    isplitl [Hsn2]; · iexact Hsn2
    isplitl [Hq4]; · iexact Hq4
    isplitl [HO]; · iexact HO
    isplitl [Hts4]; · iexact Hts4
    isplitr; · iexact Hrs4
    isplitl [Htq4]; · iexact Htq4
    iexact Hrq4
  case hfs4 =>
    unfold sound_body.sl.Hsn2_w1
    unfold sound_body.sl.r_4 sound_body.sl.r_6 sound_body.sl.r_5 sound_body.sl.r_2 sound_body.sl.r_3 sound_body.sl.r sound_body.sl.r_1
    simp only [rd0, rd1, rd2, rd3, rd4, rd0', rd1', rd2', rd3', rd4', Values.pay23_eq, Values.pay28_eq, Values.pay32_eq, Values.pay36_eq, Values.pay37_eq, Values.pay38_eq, Values.pay42_eq, Values.pay47_eq, Values.pay51_eq, Values.pay52_eq, Values.pay53_eq, Values.pay57_eq, Values.pay63_eq, Values.pay64_eq, Values.pay24_eq, Values.pay61_eq, Values.pay65_eq, Values.pay67_eq, Values.pay1_eq, Values.pay10_eq, Values.pay13_eq, Values.pay17_eq, Values.pay20_eq, Values.pay29_eq, Values.pay33_eq, Values.pay39_eq, Values.pay43_eq, Values.pay48_eq, Values.pay54_eq, Values.pay58_eq, Values.pay22_eq, Values.pay27_eq, Values.pay31_eq, Values.pay35_eq, Values.pay41_eq, Values.pay46_eq, Values.pay50_eq, Values.pay56_eq, Values.pay60_eq, Values.pay62_eq, Values.pay66_eq, Values.pay68_eq, Values.pay11_eq, Values.pay14_eq, Values.pay15_eq, Values.pay18_eq, Values.pay21_eq, Values.pay30_eq, Values.pay34_eq, Values.pay40_eq, Values.pay44_eq, Values.pay45_eq, Values.pay49_eq, Values.pay55_eq, Values.pay59_eq, Views.pay25_eq, Views.pay26_eq, Views.sq_unsq, Values.load_wire_0 m c, Values.load_wire_1 m c, Values.load_wire_2 m c, Values.load_wire_3 m c, Values.load_wire_4 m c, Values.load_wire_5 m c, Values.load_wire_6 m c, Values.load_wire_7 m c, Values.load_wire_8 m c, Values.load_wire_9 m c, Values.load_wire_10 m c, Values.load_wire_11 m c, Values.load_wire_12 m c, Values.load_wire_13 m c, Values.load_wire_14 m c, Values.load_wire_15 m c, Values.load_wire_16 m c, Values.load_wire_17 m c, Values.load_wire_18 m c, Values.load_wire_19 m c, base0 m c, base1 m c, base2 m c, base3 m c, st00 m c, st01 m c, st02 m c, st03 m c, st10 m c, st11 m c, st12 m c, st13 m c, st20 m c, st21 m c, st22 m c, st23 m c]
    exact (Views.read_src_store_cast_at _ _ _ _).trans (by rfl)
  iintro ⟨Hcs4, HO⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq])
  -- chunk 3: the plane again
  ihave Hs := (Regions.third_split c 3 _).1 $$ Hsn3
  icases Hs with ⟨Hs3a, Hs3b, Hs3c⟩
  iapply (Steps.send_step m c 5 (K (c, .inr (.inl 5))) (K (px 0 c, .inr (.inr 5))) _ g5 _ _ ?hfs5) $$ [Hs3a Hq5 HO Hts5 Htq5]
  rotate_left
  · isplitr; · iexact HIs5
    isplitr; · iexact HIq5
    isplitl [Hs3a]; · iexact Hs3a
    isplitl [Hq5]; · iexact Hq5
    isplitl [HO]; · iexact HO
    isplitl [Hts5]; · iexact Hts5
    isplitr; · iexact Hrs5
    isplitl [Htq5]; · iexact Htq5
    iexact Hrq5
  case hfs5 =>
    unfold sound_body.sl.Hsn3_w1
    unfold sound_body.sl.r_4 sound_body.sl.r_6 sound_body.sl.r_5 sound_body.sl.r_2 sound_body.sl.r_3 sound_body.sl.r sound_body.sl.r_1
    simp only [rd0, rd1, rd2, rd3, rd4, rd0', rd1', rd2', rd3', rd4', Values.pay23_eq, Values.pay28_eq, Values.pay32_eq, Values.pay36_eq, Values.pay37_eq, Values.pay38_eq, Values.pay42_eq, Values.pay47_eq, Values.pay51_eq, Values.pay52_eq, Values.pay53_eq, Values.pay57_eq, Values.pay63_eq, Values.pay64_eq, Values.pay24_eq, Values.pay61_eq, Values.pay65_eq, Values.pay67_eq, Values.pay1_eq, Values.pay10_eq, Values.pay13_eq, Values.pay17_eq, Values.pay20_eq, Values.pay29_eq, Values.pay33_eq, Values.pay39_eq, Values.pay43_eq, Values.pay48_eq, Values.pay54_eq, Values.pay58_eq, Values.pay22_eq, Values.pay27_eq, Values.pay31_eq, Values.pay35_eq, Values.pay41_eq, Values.pay46_eq, Values.pay50_eq, Values.pay56_eq, Values.pay60_eq, Values.pay62_eq, Values.pay66_eq, Values.pay68_eq, Values.pay11_eq, Values.pay14_eq, Values.pay15_eq, Values.pay18_eq, Values.pay21_eq, Values.pay30_eq, Values.pay34_eq, Values.pay40_eq, Values.pay44_eq, Values.pay45_eq, Values.pay49_eq, Values.pay55_eq, Values.pay59_eq, Views.pay25_eq, Views.pay26_eq, Views.sq_unsq, Values.load_wire_0 m c, Values.load_wire_1 m c, Values.load_wire_2 m c, Values.load_wire_3 m c, Values.load_wire_4 m c, Values.load_wire_5 m c, Values.load_wire_6 m c, Values.load_wire_7 m c, Values.load_wire_8 m c, Values.load_wire_9 m c, Values.load_wire_10 m c, Values.load_wire_11 m c, Values.load_wire_12 m c, Values.load_wire_13 m c, Values.load_wire_14 m c, Values.load_wire_15 m c, Values.load_wire_16 m c, Values.load_wire_17 m c, Values.load_wire_18 m c, Values.load_wire_19 m c, base0 m c, base1 m c, base2 m c, base3 m c, st00 m c, st01 m c, st02 m c, st03 m c, st10 m c, st11 m c, st12 m c, st13 m c, st20 m c, st21 m c, st22 m c, st23 m c]
    exact (Views.read_src_store_cast_at _ _ _ _).trans (by rfl)
  iintro ⟨Hcs5, HO⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq])
  iapply (Steps.send_step m c 6 (K (c, .inr (.inl 6))) (K (px 1 c, .inr (.inr 6))) _ g6 _ _ ?hfs6) $$ [Hs3b Hq6 HO Hts6 Htq6]
  rotate_left
  · isplitr; · iexact HIs6
    isplitr; · iexact HIq6
    isplitl [Hs3b]; · iexact Hs3b
    isplitl [Hq6]; · iexact Hq6
    isplitl [HO]; · iexact HO
    isplitl [Hts6]; · iexact Hts6
    isplitr; · iexact Hrs6
    isplitl [Htq6]; · iexact Htq6
    iexact Hrq6
  case hfs6 =>
    unfold sound_body.sl.Hsn3_w1
    unfold sound_body.sl.r_4 sound_body.sl.r_6 sound_body.sl.r_5 sound_body.sl.r_2 sound_body.sl.r_3 sound_body.sl.r sound_body.sl.r_1
    simp only [rd0, rd1, rd2, rd3, rd4, rd0', rd1', rd2', rd3', rd4', Values.pay23_eq, Values.pay28_eq, Values.pay32_eq, Values.pay36_eq, Values.pay37_eq, Values.pay38_eq, Values.pay42_eq, Values.pay47_eq, Values.pay51_eq, Values.pay52_eq, Values.pay53_eq, Values.pay57_eq, Values.pay63_eq, Values.pay64_eq, Values.pay24_eq, Values.pay61_eq, Values.pay65_eq, Values.pay67_eq, Values.pay1_eq, Values.pay10_eq, Values.pay13_eq, Values.pay17_eq, Values.pay20_eq, Values.pay29_eq, Values.pay33_eq, Values.pay39_eq, Values.pay43_eq, Values.pay48_eq, Values.pay54_eq, Values.pay58_eq, Values.pay22_eq, Values.pay27_eq, Values.pay31_eq, Values.pay35_eq, Values.pay41_eq, Values.pay46_eq, Values.pay50_eq, Values.pay56_eq, Values.pay60_eq, Values.pay62_eq, Values.pay66_eq, Values.pay68_eq, Values.pay11_eq, Values.pay14_eq, Values.pay15_eq, Values.pay18_eq, Values.pay21_eq, Values.pay30_eq, Values.pay34_eq, Values.pay40_eq, Values.pay44_eq, Values.pay45_eq, Values.pay49_eq, Values.pay55_eq, Values.pay59_eq, Views.pay25_eq, Views.pay26_eq, Views.sq_unsq, Values.load_wire_0 m c, Values.load_wire_1 m c, Values.load_wire_2 m c, Values.load_wire_3 m c, Values.load_wire_4 m c, Values.load_wire_5 m c, Values.load_wire_6 m c, Values.load_wire_7 m c, Values.load_wire_8 m c, Values.load_wire_9 m c, Values.load_wire_10 m c, Values.load_wire_11 m c, Values.load_wire_12 m c, Values.load_wire_13 m c, Values.load_wire_14 m c, Values.load_wire_15 m c, Values.load_wire_16 m c, Values.load_wire_17 m c, Values.load_wire_18 m c, Values.load_wire_19 m c, base0 m c, base1 m c, base2 m c, base3 m c, st00 m c, st01 m c, st02 m c, st03 m c, st10 m c, st11 m c, st12 m c, st13 m c, st20 m c, st21 m c, st22 m c, st23 m c]
    exact (Views.read_src_store_cast_at _ _ _ _).trans (by rfl)
  iintro ⟨Hcs6, HO⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq])
  iapply (Steps.send_step m c 7 (K (c, .inr (.inl 7))) (K (px 2 c, .inr (.inr 7))) _ g7 _ _ ?hfs7) $$ [Hs3c Hq7 HO Hts7 Htq7]
  rotate_left
  · isplitr; · iexact HIs7
    isplitr; · iexact HIq7
    isplitl [Hs3c]; · iexact Hs3c
    isplitl [Hq7]; · iexact Hq7
    isplitl [HO]; · iexact HO
    isplitl [Hts7]; · iexact Hts7
    isplitr; · iexact Hrs7
    isplitl [Htq7]; · iexact Htq7
    iexact Hrq7
  case hfs7 =>
    unfold sound_body.sl.Hsn3_w1
    unfold sound_body.sl.r_4 sound_body.sl.r_6 sound_body.sl.r_5 sound_body.sl.r_2 sound_body.sl.r_3 sound_body.sl.r sound_body.sl.r_1
    simp only [rd0, rd1, rd2, rd3, rd4, rd0', rd1', rd2', rd3', rd4', Values.pay23_eq, Values.pay28_eq, Values.pay32_eq, Values.pay36_eq, Values.pay37_eq, Values.pay38_eq, Values.pay42_eq, Values.pay47_eq, Values.pay51_eq, Values.pay52_eq, Values.pay53_eq, Values.pay57_eq, Values.pay63_eq, Values.pay64_eq, Values.pay24_eq, Values.pay61_eq, Values.pay65_eq, Values.pay67_eq, Values.pay1_eq, Values.pay10_eq, Values.pay13_eq, Values.pay17_eq, Values.pay20_eq, Values.pay29_eq, Values.pay33_eq, Values.pay39_eq, Values.pay43_eq, Values.pay48_eq, Values.pay54_eq, Values.pay58_eq, Values.pay22_eq, Values.pay27_eq, Values.pay31_eq, Values.pay35_eq, Values.pay41_eq, Values.pay46_eq, Values.pay50_eq, Values.pay56_eq, Values.pay60_eq, Values.pay62_eq, Values.pay66_eq, Values.pay68_eq, Values.pay11_eq, Values.pay14_eq, Values.pay15_eq, Values.pay18_eq, Values.pay21_eq, Values.pay30_eq, Values.pay34_eq, Values.pay40_eq, Values.pay44_eq, Values.pay45_eq, Values.pay49_eq, Values.pay55_eq, Values.pay59_eq, Views.pay25_eq, Views.pay26_eq, Views.sq_unsq, Values.load_wire_0 m c, Values.load_wire_1 m c, Values.load_wire_2 m c, Values.load_wire_3 m c, Values.load_wire_4 m c, Values.load_wire_5 m c, Values.load_wire_6 m c, Values.load_wire_7 m c, Values.load_wire_8 m c, Values.load_wire_9 m c, Values.load_wire_10 m c, Values.load_wire_11 m c, Values.load_wire_12 m c, Values.load_wire_13 m c, Values.load_wire_14 m c, Values.load_wire_15 m c, Values.load_wire_16 m c, Values.load_wire_17 m c, Values.load_wire_18 m c, Values.load_wire_19 m c, base0 m c, base1 m c, base2 m c, base3 m c, st00 m c, st01 m c, st02 m c, st03 m c, st10 m c, st11 m c, st12 m c, st13 m c, st20 m c, st21 m c, st22 m c, st23 m c]
    exact (Views.read_src_store_cast_at _ _ _ _).trans (by rfl)
  iintro ⟨Hcs7, HO⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq])
  -- ── the first step's landings, chunk by chunk; each chunk's second step started as soon as its sum is stored ─────
  -- chunk 0: three landings
  -- the three thirds of the outgoing slice are back: one slice again, to be overwritten
  ihave Hj := (Regions.third_join_ex c 0) $$ [Has0_pay1 Has1_pay1 Has2_pay1]
  · isplitl [Has0_pay1]; · iexists _; iexact Has0_pay1
    isplitl [Has1_pay1]; · iexists _; iexact Has1_pay1
    iexists _; iexact Has2_pay1
  icases Hj with ⟨%sj0, Hsn0⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq])
  iapply (Steps.send_step m c 8 (K (c, .inr (.inl 8))) (K (px 3 c, .inr (.inr 8))) _ g8 _ _ ?hfs8) $$ [Hsn0 Hq8 HO Hts8 Htq8]
  rotate_left
  · isplitr; · iexact HIs8
    isplitr; · iexact HIq8
    isplitl [Hsn0]; · iexact Hsn0
    isplitl [Hq8]; · iexact Hq8
    isplitl [HO]; · iexact HO
    isplitl [Hts8]; · iexact Hts8
    isplitr; · iexact Hrs8
    isplitl [Htq8]; · iexact Htq8
    iexact Hrq8
  case hfs8 =>
    unfold sound_body.sl.Hsn0_w1_1
    unfold sound_body.sl.r_10 sound_body.sl.r_8 sound_body.sl.r_9 sound_body.sl.v242 sound_body.sl.v241
    simp (disch := decide) only [Acc.acc_hit, Acc.acc_skip, acc_hit', acc_skip']
    unfold sound_body.sl.r_4 sound_body.sl.r_5 sound_body.sl.r_2 sound_body.sl.r_3 sound_body.sl.r sound_body.sl.r_1
    simp only [rd0, rd1, rd2, rd3, rd4, rd0', rd1', rd2', rd3', rd4', Values.pay23_eq, Values.pay28_eq, Values.pay32_eq, Values.pay36_eq, Values.pay37_eq, Values.pay38_eq, Values.pay42_eq, Values.pay47_eq, Values.pay51_eq, Values.pay52_eq, Values.pay53_eq, Values.pay57_eq, Values.pay63_eq, Values.pay64_eq, Values.pay24_eq, Values.pay61_eq, Values.pay65_eq, Values.pay67_eq, Values.pay1_eq, Values.pay10_eq, Values.pay13_eq, Values.pay17_eq, Values.pay20_eq, Values.pay29_eq, Values.pay33_eq, Values.pay39_eq, Values.pay43_eq, Values.pay48_eq, Values.pay54_eq, Values.pay58_eq, Values.pay22_eq, Values.pay27_eq, Values.pay31_eq, Values.pay35_eq, Values.pay41_eq, Values.pay46_eq, Values.pay50_eq, Values.pay56_eq, Values.pay60_eq, Values.pay62_eq, Values.pay66_eq, Values.pay68_eq, Values.pay11_eq, Values.pay14_eq, Values.pay15_eq, Values.pay18_eq, Values.pay21_eq, Values.pay30_eq, Values.pay34_eq, Values.pay40_eq, Values.pay44_eq, Values.pay45_eq, Values.pay49_eq, Values.pay55_eq, Values.pay59_eq, Views.pay25_eq, Views.pay26_eq, Views.sq_unsq, Values.load_wire_0 m c, Values.load_wire_1 m c, Values.load_wire_2 m c, Values.load_wire_3 m c, Values.load_wire_4 m c, Values.load_wire_5 m c, Values.load_wire_6 m c, Values.load_wire_7 m c, Values.load_wire_8 m c, Values.load_wire_9 m c, Values.load_wire_10 m c, Values.load_wire_11 m c, Values.load_wire_12 m c, Values.load_wire_13 m c, Values.load_wire_14 m c, Values.load_wire_15 m c, Values.load_wire_16 m c, Values.load_wire_17 m c, Values.load_wire_18 m c, Values.load_wire_19 m c, base0 m c, base1 m c, base2 m c, base3 m c, st00 m c, st01 m c, st02 m c, st03 m c, st10 m c, st11 m c, st12 m c, st13 m c, st20 m c, st21 m c, st22 m c, st23 m c]
    exact (Views.read_src_store_cast_at _ _ _ _).trans (by rfl)
  iintro ⟨Hcs8, HO⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq])
  -- chunk 1: one landing
  iapply (Steps.send_step m c 9 (K (c, .inr (.inl 9))) (K (px 4 c, .inr (.inr 9))) _ g9 _ _ ?hfs9) $$ [Has3_pay1 Hq9 HO Hts9 Htq9]
  rotate_left
  · isplitr; · iexact HIs9
    isplitr; · iexact HIq9
    isplitl [Has3_pay1]; · iexact Has3_pay1
    isplitl [Hq9]; · iexact Hq9
    isplitl [HO]; · iexact HO
    isplitl [Hts9]; · iexact Hts9
    isplitr; · iexact Hrs9
    isplitl [Htq9]; · iexact Htq9
    iexact Hrq9
  case hfs9 =>
    unfold sound_body.sl.Has3_pay1_w1
    unfold sound_body.sl.r_11 sound_body.sl.v315
    simp (disch := decide) only [Acc.acc_hit, Acc.acc_skip, acc_hit', acc_skip']
    unfold sound_body.sl.r_4 sound_body.sl.r_6 sound_body.sl.r_5 sound_body.sl.r_2 sound_body.sl.r_3 sound_body.sl.r sound_body.sl.r_1
    simp only [rd0, rd1, rd2, rd3, rd4, rd0', rd1', rd2', rd3', rd4', Values.pay23_eq, Values.pay28_eq, Values.pay32_eq, Values.pay36_eq, Values.pay37_eq, Values.pay38_eq, Values.pay42_eq, Values.pay47_eq, Values.pay51_eq, Values.pay52_eq, Values.pay53_eq, Values.pay57_eq, Values.pay63_eq, Values.pay64_eq, Values.pay24_eq, Values.pay61_eq, Values.pay65_eq, Values.pay67_eq, Values.pay1_eq, Values.pay10_eq, Values.pay13_eq, Values.pay17_eq, Values.pay20_eq, Values.pay29_eq, Values.pay33_eq, Values.pay39_eq, Values.pay43_eq, Values.pay48_eq, Values.pay54_eq, Values.pay58_eq, Values.pay22_eq, Values.pay27_eq, Values.pay31_eq, Values.pay35_eq, Values.pay41_eq, Values.pay46_eq, Values.pay50_eq, Values.pay56_eq, Values.pay60_eq, Values.pay62_eq, Values.pay66_eq, Values.pay68_eq, Values.pay11_eq, Values.pay14_eq, Values.pay15_eq, Values.pay18_eq, Values.pay21_eq, Values.pay30_eq, Values.pay34_eq, Values.pay40_eq, Values.pay44_eq, Values.pay45_eq, Values.pay49_eq, Values.pay55_eq, Values.pay59_eq, Views.pay25_eq, Views.pay26_eq, Views.sq_unsq, Values.load_wire_0 m c, Values.load_wire_1 m c, Values.load_wire_2 m c, Values.load_wire_3 m c, Values.load_wire_4 m c, Values.load_wire_5 m c, Values.load_wire_6 m c, Values.load_wire_7 m c, Values.load_wire_8 m c, Values.load_wire_9 m c, Values.load_wire_10 m c, Values.load_wire_11 m c, Values.load_wire_12 m c, Values.load_wire_13 m c, Values.load_wire_14 m c, Values.load_wire_15 m c, Values.load_wire_16 m c, Values.load_wire_17 m c, Values.load_wire_18 m c, Values.load_wire_19 m c, base0 m c, base1 m c, base2 m c, base3 m c, st00 m c, st01 m c, st02 m c, st03 m c, st10 m c, st11 m c, st12 m c, st13 m c, st20 m c, st21 m c, st22 m c, st23 m c]
    exact (Views.read_src_store_cast_at _ _ _ _).trans (by rfl)
  iintro ⟨Hcs9, HO⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq])
  -- chunk 2: one landing, then the plane step
  ihave Hs := (Regions.third_split c 2 _).1 $$ Has4_pay1
  icases Hs with ⟨Hs2a, Hs2b, Hs2c⟩
  iapply (Steps.send_step m c 10 (K (c, .inr (.inl 10))) (K (px 0 c, .inr (.inr 10))) _ g10 _ _ ?hfs10) $$ [Hs2a Hq10 HO Hts10 Htq10]
  rotate_left
  · isplitr; · iexact HIs10
    isplitr; · iexact HIq10
    isplitl [Hs2a]; · iexact Hs2a
    isplitl [Hq10]; · iexact Hq10
    isplitl [HO]; · iexact HO
    isplitl [Hts10]; · iexact Hts10
    isplitr; · iexact Hrs10
    isplitl [Htq10]; · iexact Htq10
    iexact Hrq10
  case hfs10 =>
    unfold sound_body.sl.Has4_pay1_w1
    unfold sound_body.sl.v354 sound_body.sl.v353
    simp (disch := decide) only [Acc.acc_hit, Acc.acc_skip, acc_hit', acc_skip']
    unfold sound_body.sl.r_4 sound_body.sl.r_6 sound_body.sl.r_5 sound_body.sl.r_2 sound_body.sl.r_3 sound_body.sl.r sound_body.sl.r_1
    simp only [rd0, rd1, rd2, rd3, rd4, rd0', rd1', rd2', rd3', rd4', Values.pay23_eq, Values.pay28_eq, Values.pay32_eq, Values.pay36_eq, Values.pay37_eq, Values.pay38_eq, Values.pay42_eq, Values.pay47_eq, Values.pay51_eq, Values.pay52_eq, Values.pay53_eq, Values.pay57_eq, Values.pay63_eq, Values.pay64_eq, Values.pay24_eq, Values.pay61_eq, Values.pay65_eq, Values.pay67_eq, Values.pay1_eq, Values.pay10_eq, Values.pay13_eq, Values.pay17_eq, Values.pay20_eq, Values.pay29_eq, Values.pay33_eq, Values.pay39_eq, Values.pay43_eq, Values.pay48_eq, Values.pay54_eq, Values.pay58_eq, Values.pay22_eq, Values.pay27_eq, Values.pay31_eq, Values.pay35_eq, Values.pay41_eq, Values.pay46_eq, Values.pay50_eq, Values.pay56_eq, Values.pay60_eq, Values.pay62_eq, Values.pay66_eq, Values.pay68_eq, Values.pay11_eq, Values.pay14_eq, Values.pay15_eq, Values.pay18_eq, Values.pay21_eq, Values.pay30_eq, Values.pay34_eq, Values.pay40_eq, Values.pay44_eq, Values.pay45_eq, Values.pay49_eq, Values.pay55_eq, Values.pay59_eq, Views.pay25_eq, Views.pay26_eq, Views.sq_unsq, Values.load_wire_0 m c, Values.load_wire_1 m c, Values.load_wire_2 m c, Values.load_wire_3 m c, Values.load_wire_4 m c, Values.load_wire_5 m c, Values.load_wire_6 m c, Values.load_wire_7 m c, Values.load_wire_8 m c, Values.load_wire_9 m c, Values.load_wire_10 m c, Values.load_wire_11 m c, Values.load_wire_12 m c, Values.load_wire_13 m c, Values.load_wire_14 m c, Values.load_wire_15 m c, Values.load_wire_16 m c, Values.load_wire_17 m c, Values.load_wire_18 m c, Values.load_wire_19 m c, base0 m c, base1 m c, base2 m c, base3 m c, st00 m c, st01 m c, st02 m c, st03 m c, st10 m c, st11 m c, st12 m c, st13 m c, st20 m c, st21 m c, st22 m c, st23 m c]
    exact (Views.read_src_store_cast_at _ _ _ _).trans (by rfl)
  iintro ⟨Hcs10, HO⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq])
  iapply (Steps.send_step m c 11 (K (c, .inr (.inl 11))) (K (px 1 c, .inr (.inr 11))) _ g11 _ _ ?hfs11) $$ [Hs2b Hq11 HO Hts11 Htq11]
  rotate_left
  · isplitr; · iexact HIs11
    isplitr; · iexact HIq11
    isplitl [Hs2b]; · iexact Hs2b
    isplitl [Hq11]; · iexact Hq11
    isplitl [HO]; · iexact HO
    isplitl [Hts11]; · iexact Hts11
    isplitr; · iexact Hrs11
    isplitl [Htq11]; · iexact Htq11
    iexact Hrq11
  case hfs11 =>
    unfold sound_body.sl.Has4_pay1_w1
    unfold sound_body.sl.v354 sound_body.sl.v353
    simp (disch := decide) only [Acc.acc_hit, Acc.acc_skip, acc_hit', acc_skip']
    unfold sound_body.sl.r_4 sound_body.sl.r_6 sound_body.sl.r_5 sound_body.sl.r_2 sound_body.sl.r_3 sound_body.sl.r sound_body.sl.r_1
    simp only [rd0, rd1, rd2, rd3, rd4, rd0', rd1', rd2', rd3', rd4', Values.pay23_eq, Values.pay28_eq, Values.pay32_eq, Values.pay36_eq, Values.pay37_eq, Values.pay38_eq, Values.pay42_eq, Values.pay47_eq, Values.pay51_eq, Values.pay52_eq, Values.pay53_eq, Values.pay57_eq, Values.pay63_eq, Values.pay64_eq, Values.pay24_eq, Values.pay61_eq, Values.pay65_eq, Values.pay67_eq, Values.pay1_eq, Values.pay10_eq, Values.pay13_eq, Values.pay17_eq, Values.pay20_eq, Values.pay29_eq, Values.pay33_eq, Values.pay39_eq, Values.pay43_eq, Values.pay48_eq, Values.pay54_eq, Values.pay58_eq, Values.pay22_eq, Values.pay27_eq, Values.pay31_eq, Values.pay35_eq, Values.pay41_eq, Values.pay46_eq, Values.pay50_eq, Values.pay56_eq, Values.pay60_eq, Values.pay62_eq, Values.pay66_eq, Values.pay68_eq, Values.pay11_eq, Values.pay14_eq, Values.pay15_eq, Values.pay18_eq, Values.pay21_eq, Values.pay30_eq, Values.pay34_eq, Values.pay40_eq, Values.pay44_eq, Values.pay45_eq, Values.pay49_eq, Values.pay55_eq, Values.pay59_eq, Views.pay25_eq, Views.pay26_eq, Views.sq_unsq, Values.load_wire_0 m c, Values.load_wire_1 m c, Values.load_wire_2 m c, Values.load_wire_3 m c, Values.load_wire_4 m c, Values.load_wire_5 m c, Values.load_wire_6 m c, Values.load_wire_7 m c, Values.load_wire_8 m c, Values.load_wire_9 m c, Values.load_wire_10 m c, Values.load_wire_11 m c, Values.load_wire_12 m c, Values.load_wire_13 m c, Values.load_wire_14 m c, Values.load_wire_15 m c, Values.load_wire_16 m c, Values.load_wire_17 m c, Values.load_wire_18 m c, Values.load_wire_19 m c, base0 m c, base1 m c, base2 m c, base3 m c, st00 m c, st01 m c, st02 m c, st03 m c, st10 m c, st11 m c, st12 m c, st13 m c, st20 m c, st21 m c, st22 m c, st23 m c]
    exact (Views.read_src_store_cast_at _ _ _ _).trans (by rfl)
  iintro ⟨Hcs11, HO⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq])
  iapply (Steps.send_step m c 12 (K (c, .inr (.inl 12))) (K (px 2 c, .inr (.inr 12))) _ g12 _ _ ?hfs12) $$ [Hs2c Hq12 HO Hts12 Htq12]
  rotate_left
  · isplitr; · iexact HIs12
    isplitr; · iexact HIq12
    isplitl [Hs2c]; · iexact Hs2c
    isplitl [Hq12]; · iexact Hq12
    isplitl [HO]; · iexact HO
    isplitl [Hts12]; · iexact Hts12
    isplitr; · iexact Hrs12
    isplitl [Htq12]; · iexact Htq12
    iexact Hrq12
  case hfs12 =>
    unfold sound_body.sl.Has4_pay1_w1
    unfold sound_body.sl.v354 sound_body.sl.v353
    simp (disch := decide) only [Acc.acc_hit, Acc.acc_skip, acc_hit', acc_skip']
    unfold sound_body.sl.r_4 sound_body.sl.r_6 sound_body.sl.r_5 sound_body.sl.r_2 sound_body.sl.r_3 sound_body.sl.r sound_body.sl.r_1
    simp only [rd0, rd1, rd2, rd3, rd4, rd0', rd1', rd2', rd3', rd4', Values.pay23_eq, Values.pay28_eq, Values.pay32_eq, Values.pay36_eq, Values.pay37_eq, Values.pay38_eq, Values.pay42_eq, Values.pay47_eq, Values.pay51_eq, Values.pay52_eq, Values.pay53_eq, Values.pay57_eq, Values.pay63_eq, Values.pay64_eq, Values.pay24_eq, Values.pay61_eq, Values.pay65_eq, Values.pay67_eq, Values.pay1_eq, Values.pay10_eq, Values.pay13_eq, Values.pay17_eq, Values.pay20_eq, Values.pay29_eq, Values.pay33_eq, Values.pay39_eq, Values.pay43_eq, Values.pay48_eq, Values.pay54_eq, Values.pay58_eq, Values.pay22_eq, Values.pay27_eq, Values.pay31_eq, Values.pay35_eq, Values.pay41_eq, Values.pay46_eq, Values.pay50_eq, Values.pay56_eq, Values.pay60_eq, Values.pay62_eq, Values.pay66_eq, Values.pay68_eq, Values.pay11_eq, Values.pay14_eq, Values.pay15_eq, Values.pay18_eq, Values.pay21_eq, Values.pay30_eq, Values.pay34_eq, Values.pay40_eq, Values.pay44_eq, Values.pay45_eq, Values.pay49_eq, Values.pay55_eq, Values.pay59_eq, Views.pay25_eq, Views.pay26_eq, Views.sq_unsq, Values.load_wire_0 m c, Values.load_wire_1 m c, Values.load_wire_2 m c, Values.load_wire_3 m c, Values.load_wire_4 m c, Values.load_wire_5 m c, Values.load_wire_6 m c, Values.load_wire_7 m c, Values.load_wire_8 m c, Values.load_wire_9 m c, Values.load_wire_10 m c, Values.load_wire_11 m c, Values.load_wire_12 m c, Values.load_wire_13 m c, Values.load_wire_14 m c, Values.load_wire_15 m c, Values.load_wire_16 m c, Values.load_wire_17 m c, Values.load_wire_18 m c, Values.load_wire_19 m c, base0 m c, base1 m c, base2 m c, base3 m c, st00 m c, st01 m c, st02 m c, st03 m c, st10 m c, st11 m c, st12 m c, st13 m c, st20 m c, st21 m c, st22 m c, st23 m c]
    exact (Views.read_src_store_cast_at _ _ _ _).trans (by rfl)
  iintro ⟨Hcs12, HO⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq])
  -- chunk 3: three landings
  ihave Hj := (Regions.third_join_ex c 3) $$ [Has5_pay1 Has6_pay1 Has7_pay1]
  · isplitl [Has5_pay1]; · iexists _; iexact Has5_pay1
    isplitl [Has6_pay1]; · iexists _; iexact Has6_pay1
    iexists _; iexact Has7_pay1
  icases Hj with ⟨%sj3, Hsn3⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq])
  iapply (Steps.send_step m c 13 (K (c, .inr (.inl 13))) (K (px 4 c, .inr (.inr 13))) _ g13 _ _ ?hfs13) $$ [Hsn3 Hq13 HO Hts13 Htq13]
  rotate_left
  · isplitr; · iexact HIs13
    isplitr; · iexact HIq13
    isplitl [Hsn3]; · iexact Hsn3
    isplitl [Hq13]; · iexact Hq13
    isplitl [HO]; · iexact HO
    isplitl [Hts13]; · iexact Hts13
    isplitr; · iexact Hrs13
    isplitl [Htq13]; · iexact Htq13
    iexact Hrq13
  case hfs13 =>
    unfold sound_body.sl.Hsn3_w1_1
    unfold sound_body.sl.r_13 sound_body.sl.r_12 sound_body.sl.v414 sound_body.sl.v413
    simp (disch := decide) only [Acc.acc_hit, Acc.acc_skip, acc_hit', acc_skip']
    unfold sound_body.sl.r_4 sound_body.sl.r_6 sound_body.sl.r_5 sound_body.sl.r_2 sound_body.sl.r_3 sound_body.sl.r sound_body.sl.r_1
    simp only [rd0, rd1, rd2, rd3, rd4, rd0', rd1', rd2', rd3', rd4', Values.pay23_eq, Values.pay28_eq, Values.pay32_eq, Values.pay36_eq, Values.pay37_eq, Values.pay38_eq, Values.pay42_eq, Values.pay47_eq, Values.pay51_eq, Values.pay52_eq, Values.pay53_eq, Values.pay57_eq, Values.pay63_eq, Values.pay64_eq, Values.pay24_eq, Values.pay61_eq, Values.pay65_eq, Values.pay67_eq, Values.pay1_eq, Values.pay10_eq, Values.pay13_eq, Values.pay17_eq, Values.pay20_eq, Values.pay29_eq, Values.pay33_eq, Values.pay39_eq, Values.pay43_eq, Values.pay48_eq, Values.pay54_eq, Values.pay58_eq, Values.pay22_eq, Values.pay27_eq, Values.pay31_eq, Values.pay35_eq, Values.pay41_eq, Values.pay46_eq, Values.pay50_eq, Values.pay56_eq, Values.pay60_eq, Values.pay62_eq, Values.pay66_eq, Values.pay68_eq, Values.pay11_eq, Values.pay14_eq, Values.pay15_eq, Values.pay18_eq, Values.pay21_eq, Values.pay30_eq, Values.pay34_eq, Values.pay40_eq, Values.pay44_eq, Values.pay45_eq, Values.pay49_eq, Values.pay55_eq, Values.pay59_eq, Views.pay25_eq, Views.pay26_eq, Views.sq_unsq, Values.load_wire_0 m c, Values.load_wire_1 m c, Values.load_wire_2 m c, Values.load_wire_3 m c, Values.load_wire_4 m c, Values.load_wire_5 m c, Values.load_wire_6 m c, Values.load_wire_7 m c, Values.load_wire_8 m c, Values.load_wire_9 m c, Values.load_wire_10 m c, Values.load_wire_11 m c, Values.load_wire_12 m c, Values.load_wire_13 m c, Values.load_wire_14 m c, Values.load_wire_15 m c, Values.load_wire_16 m c, Values.load_wire_17 m c, Values.load_wire_18 m c, Values.load_wire_19 m c, base0 m c, base1 m c, base2 m c, base3 m c, st00 m c, st01 m c, st02 m c, st03 m c, st10 m c, st11 m c, st12 m c, st13 m c, st20 m c, st21 m c, st22 m c, st23 m c]
    exact (Views.read_src_store_cast_at _ _ _ _).trans (by rfl)
  iintro ⟨Hcs13, HO⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq])
  -- ── the second step's landings ────────────────────────────────────────────────────────────────────────────────────
  -- chunk 0
  iapply (Steps.send_step m c 14 (K (c, .inr (.inl 14))) (K (px 4 c, .inr (.inr 14))) _ g14 _ _ ?hfs14) $$ [Has8_pay1 Hq14 HO Hts14 Htq14]
  rotate_left
  · isplitr; · iexact HIs14
    isplitr; · iexact HIq14
    isplitl [Has8_pay1]; · iexact Has8_pay1
    isplitl [Hq14]; · iexact Hq14
    isplitl [HO]; · iexact HO
    isplitl [Hts14]; · iexact Hts14
    isplitr; · iexact Hrs14
    isplitl [Htq14]; · iexact Htq14
    iexact Hrq14
  case hfs14 =>
    unfold sound_body.sl.Has8_pay1_w1
    unfold sound_body.sl.v513 sound_body.sl.r_15 sound_body.sl.r_14 sound_body.sl.v487
    simp (disch := decide) only [Acc.acc_hit, Acc.acc_skip, acc_hit', acc_skip']
    unfold sound_body.sl.r_10 sound_body.sl.r_8 sound_body.sl.r_9 sound_body.sl.v242 sound_body.sl.v241
    simp (disch := decide) only [Acc.acc_hit, Acc.acc_skip, acc_hit', acc_skip']
    unfold sound_body.sl.r_4 sound_body.sl.r_5 sound_body.sl.r_2 sound_body.sl.r_3 sound_body.sl.r sound_body.sl.r_1
    simp only [rd0, rd1, rd2, rd3, rd4, rd0', rd1', rd2', rd3', rd4', Values.pay23_eq, Values.pay28_eq, Values.pay32_eq, Values.pay36_eq, Values.pay37_eq, Values.pay38_eq, Values.pay42_eq, Values.pay47_eq, Values.pay51_eq, Values.pay52_eq, Values.pay53_eq, Values.pay57_eq, Values.pay63_eq, Values.pay64_eq, Values.pay24_eq, Values.pay61_eq, Values.pay65_eq, Values.pay67_eq, Values.pay1_eq, Values.pay10_eq, Values.pay13_eq, Values.pay17_eq, Values.pay20_eq, Values.pay29_eq, Values.pay33_eq, Values.pay39_eq, Values.pay43_eq, Values.pay48_eq, Values.pay54_eq, Values.pay58_eq, Values.pay22_eq, Values.pay27_eq, Values.pay31_eq, Values.pay35_eq, Values.pay41_eq, Values.pay46_eq, Values.pay50_eq, Values.pay56_eq, Values.pay60_eq, Values.pay62_eq, Values.pay66_eq, Values.pay68_eq, Values.pay11_eq, Values.pay14_eq, Values.pay15_eq, Values.pay18_eq, Values.pay21_eq, Values.pay30_eq, Values.pay34_eq, Values.pay40_eq, Values.pay44_eq, Values.pay45_eq, Values.pay49_eq, Values.pay55_eq, Values.pay59_eq, Views.pay25_eq, Views.pay26_eq, Views.sq_unsq, Values.load_wire_0 m c, Values.load_wire_1 m c, Values.load_wire_2 m c, Values.load_wire_3 m c, Values.load_wire_4 m c, Values.load_wire_5 m c, Values.load_wire_6 m c, Values.load_wire_7 m c, Values.load_wire_8 m c, Values.load_wire_9 m c, Values.load_wire_10 m c, Values.load_wire_11 m c, Values.load_wire_12 m c, Values.load_wire_13 m c, Values.load_wire_14 m c, Values.load_wire_15 m c, Values.load_wire_16 m c, Values.load_wire_17 m c, Values.load_wire_18 m c, Values.load_wire_19 m c, base0 m c, base1 m c, base2 m c, base3 m c, st00 m c, st01 m c, st02 m c, st03 m c, st10 m c, st11 m c, st12 m c, st13 m c, st20 m c, st21 m c, st22 m c, st23 m c]
    exact (Views.read_src_store_cast_at _ _ _ _).trans (by rfl)
  iintro ⟨Hcs14, HO⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq])
  -- chunk 1: one landing, then the plane step
  ihave Hs := (Regions.third_split c 1 _).1 $$ Has9_pay1
  icases Hs with ⟨Hs1a, Hs1b, Hs1c⟩
  iapply (Steps.send_step m c 15 (K (c, .inr (.inl 15))) (K (px 0 c, .inr (.inr 15))) _ g15 _ _ ?hfs15) $$ [Hs1a Hq15 HO Hts15 Htq15]
  rotate_left
  · isplitr; · iexact HIs15
    isplitr; · iexact HIq15
    isplitl [Hs1a]; · iexact Hs1a
    isplitl [Hq15]; · iexact Hq15
    isplitl [HO]; · iexact HO
    isplitl [Hts15]; · iexact Hts15
    isplitr; · iexact Hrs15
    isplitl [Htq15]; · iexact Htq15
    iexact Hrq15
  case hfs15 =>
    unfold sound_body.sl.Has9_pay1_w1
    unfold sound_body.sl.v526 sound_body.sl.v525
    simp (disch := decide) only [Acc.acc_hit, Acc.acc_skip, acc_hit', acc_skip']
    unfold sound_body.sl.r_11 sound_body.sl.v315
    simp (disch := decide) only [Acc.acc_hit, Acc.acc_skip, acc_hit', acc_skip']
    unfold sound_body.sl.r_4 sound_body.sl.r_6 sound_body.sl.r_5 sound_body.sl.r_2 sound_body.sl.r_3 sound_body.sl.r sound_body.sl.r_1
    simp only [rd0, rd1, rd2, rd3, rd4, rd0', rd1', rd2', rd3', rd4', Values.pay23_eq, Values.pay28_eq, Values.pay32_eq, Values.pay36_eq, Values.pay37_eq, Values.pay38_eq, Values.pay42_eq, Values.pay47_eq, Values.pay51_eq, Values.pay52_eq, Values.pay53_eq, Values.pay57_eq, Values.pay63_eq, Values.pay64_eq, Values.pay24_eq, Values.pay61_eq, Values.pay65_eq, Values.pay67_eq, Values.pay1_eq, Values.pay10_eq, Values.pay13_eq, Values.pay17_eq, Values.pay20_eq, Values.pay29_eq, Values.pay33_eq, Values.pay39_eq, Values.pay43_eq, Values.pay48_eq, Values.pay54_eq, Values.pay58_eq, Values.pay22_eq, Values.pay27_eq, Values.pay31_eq, Values.pay35_eq, Values.pay41_eq, Values.pay46_eq, Values.pay50_eq, Values.pay56_eq, Values.pay60_eq, Values.pay62_eq, Values.pay66_eq, Values.pay68_eq, Values.pay11_eq, Values.pay14_eq, Values.pay15_eq, Values.pay18_eq, Values.pay21_eq, Values.pay30_eq, Values.pay34_eq, Values.pay40_eq, Values.pay44_eq, Values.pay45_eq, Values.pay49_eq, Values.pay55_eq, Values.pay59_eq, Views.pay25_eq, Views.pay26_eq, Views.sq_unsq, Values.load_wire_0 m c, Values.load_wire_1 m c, Values.load_wire_2 m c, Values.load_wire_3 m c, Values.load_wire_4 m c, Values.load_wire_5 m c, Values.load_wire_6 m c, Values.load_wire_7 m c, Values.load_wire_8 m c, Values.load_wire_9 m c, Values.load_wire_10 m c, Values.load_wire_11 m c, Values.load_wire_12 m c, Values.load_wire_13 m c, Values.load_wire_14 m c, Values.load_wire_15 m c, Values.load_wire_16 m c, Values.load_wire_17 m c, Values.load_wire_18 m c, Values.load_wire_19 m c, base0 m c, base1 m c, base2 m c, base3 m c, st00 m c, st01 m c, st02 m c, st03 m c, st10 m c, st11 m c, st12 m c, st13 m c, st20 m c, st21 m c, st22 m c, st23 m c]
    exact (Views.read_src_store_cast_at _ _ _ _).trans (by rfl)
  iintro ⟨Hcs15, HO⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq])
  iapply (Steps.send_step m c 16 (K (c, .inr (.inl 16))) (K (px 1 c, .inr (.inr 16))) _ g16 _ _ ?hfs16) $$ [Hs1b Hq16 HO Hts16 Htq16]
  rotate_left
  · isplitr; · iexact HIs16
    isplitr; · iexact HIq16
    isplitl [Hs1b]; · iexact Hs1b
    isplitl [Hq16]; · iexact Hq16
    isplitl [HO]; · iexact HO
    isplitl [Hts16]; · iexact Hts16
    isplitr; · iexact Hrs16
    isplitl [Htq16]; · iexact Htq16
    iexact Hrq16
  case hfs16 =>
    unfold sound_body.sl.Has9_pay1_w1
    unfold sound_body.sl.v526 sound_body.sl.v525
    simp (disch := decide) only [Acc.acc_hit, Acc.acc_skip, acc_hit', acc_skip']
    unfold sound_body.sl.r_11 sound_body.sl.v315
    simp (disch := decide) only [Acc.acc_hit, Acc.acc_skip, acc_hit', acc_skip']
    unfold sound_body.sl.r_4 sound_body.sl.r_6 sound_body.sl.r_5 sound_body.sl.r_2 sound_body.sl.r_3 sound_body.sl.r sound_body.sl.r_1
    simp only [rd0, rd1, rd2, rd3, rd4, rd0', rd1', rd2', rd3', rd4', Values.pay23_eq, Values.pay28_eq, Values.pay32_eq, Values.pay36_eq, Values.pay37_eq, Values.pay38_eq, Values.pay42_eq, Values.pay47_eq, Values.pay51_eq, Values.pay52_eq, Values.pay53_eq, Values.pay57_eq, Values.pay63_eq, Values.pay64_eq, Values.pay24_eq, Values.pay61_eq, Values.pay65_eq, Values.pay67_eq, Values.pay1_eq, Values.pay10_eq, Values.pay13_eq, Values.pay17_eq, Values.pay20_eq, Values.pay29_eq, Values.pay33_eq, Values.pay39_eq, Values.pay43_eq, Values.pay48_eq, Values.pay54_eq, Values.pay58_eq, Values.pay22_eq, Values.pay27_eq, Values.pay31_eq, Values.pay35_eq, Values.pay41_eq, Values.pay46_eq, Values.pay50_eq, Values.pay56_eq, Values.pay60_eq, Values.pay62_eq, Values.pay66_eq, Values.pay68_eq, Values.pay11_eq, Values.pay14_eq, Values.pay15_eq, Values.pay18_eq, Values.pay21_eq, Values.pay30_eq, Values.pay34_eq, Values.pay40_eq, Values.pay44_eq, Values.pay45_eq, Values.pay49_eq, Values.pay55_eq, Values.pay59_eq, Views.pay25_eq, Views.pay26_eq, Views.sq_unsq, Values.load_wire_0 m c, Values.load_wire_1 m c, Values.load_wire_2 m c, Values.load_wire_3 m c, Values.load_wire_4 m c, Values.load_wire_5 m c, Values.load_wire_6 m c, Values.load_wire_7 m c, Values.load_wire_8 m c, Values.load_wire_9 m c, Values.load_wire_10 m c, Values.load_wire_11 m c, Values.load_wire_12 m c, Values.load_wire_13 m c, Values.load_wire_14 m c, Values.load_wire_15 m c, Values.load_wire_16 m c, Values.load_wire_17 m c, Values.load_wire_18 m c, Values.load_wire_19 m c, base0 m c, base1 m c, base2 m c, base3 m c, st00 m c, st01 m c, st02 m c, st03 m c, st10 m c, st11 m c, st12 m c, st13 m c, st20 m c, st21 m c, st22 m c, st23 m c]
    exact (Views.read_src_store_cast_at _ _ _ _).trans (by rfl)
  iintro ⟨Hcs16, HO⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq])
  iapply (Steps.send_step m c 17 (K (c, .inr (.inl 17))) (K (px 2 c, .inr (.inr 17))) _ g17 _ _ ?hfs17) $$ [Hs1c Hq17 HO Hts17 Htq17]
  rotate_left
  · isplitr; · iexact HIs17
    isplitr; · iexact HIq17
    isplitl [Hs1c]; · iexact Hs1c
    isplitl [Hq17]; · iexact Hq17
    isplitl [HO]; · iexact HO
    isplitl [Hts17]; · iexact Hts17
    isplitr; · iexact Hrs17
    isplitl [Htq17]; · iexact Htq17
    iexact Hrq17
  case hfs17 =>
    unfold sound_body.sl.Has9_pay1_w1
    unfold sound_body.sl.v526 sound_body.sl.v525
    simp (disch := decide) only [Acc.acc_hit, Acc.acc_skip, acc_hit', acc_skip']
    unfold sound_body.sl.r_11 sound_body.sl.v315
    simp (disch := decide) only [Acc.acc_hit, Acc.acc_skip, acc_hit', acc_skip']
    unfold sound_body.sl.r_4 sound_body.sl.r_6 sound_body.sl.r_5 sound_body.sl.r_2 sound_body.sl.r_3 sound_body.sl.r sound_body.sl.r_1
    simp only [rd0, rd1, rd2, rd3, rd4, rd0', rd1', rd2', rd3', rd4', Values.pay23_eq, Values.pay28_eq, Values.pay32_eq, Values.pay36_eq, Values.pay37_eq, Values.pay38_eq, Values.pay42_eq, Values.pay47_eq, Values.pay51_eq, Values.pay52_eq, Values.pay53_eq, Values.pay57_eq, Values.pay63_eq, Values.pay64_eq, Values.pay24_eq, Values.pay61_eq, Values.pay65_eq, Values.pay67_eq, Values.pay1_eq, Values.pay10_eq, Values.pay13_eq, Values.pay17_eq, Values.pay20_eq, Values.pay29_eq, Values.pay33_eq, Values.pay39_eq, Values.pay43_eq, Values.pay48_eq, Values.pay54_eq, Values.pay58_eq, Values.pay22_eq, Values.pay27_eq, Values.pay31_eq, Values.pay35_eq, Values.pay41_eq, Values.pay46_eq, Values.pay50_eq, Values.pay56_eq, Values.pay60_eq, Values.pay62_eq, Values.pay66_eq, Values.pay68_eq, Values.pay11_eq, Values.pay14_eq, Values.pay15_eq, Values.pay18_eq, Values.pay21_eq, Values.pay30_eq, Values.pay34_eq, Values.pay40_eq, Values.pay44_eq, Values.pay45_eq, Values.pay49_eq, Values.pay55_eq, Values.pay59_eq, Views.pay25_eq, Views.pay26_eq, Views.sq_unsq, Values.load_wire_0 m c, Values.load_wire_1 m c, Values.load_wire_2 m c, Values.load_wire_3 m c, Values.load_wire_4 m c, Values.load_wire_5 m c, Values.load_wire_6 m c, Values.load_wire_7 m c, Values.load_wire_8 m c, Values.load_wire_9 m c, Values.load_wire_10 m c, Values.load_wire_11 m c, Values.load_wire_12 m c, Values.load_wire_13 m c, Values.load_wire_14 m c, Values.load_wire_15 m c, Values.load_wire_16 m c, Values.load_wire_17 m c, Values.load_wire_18 m c, Values.load_wire_19 m c, base0 m c, base1 m c, base2 m c, base3 m c, st00 m c, st01 m c, st02 m c, st03 m c, st10 m c, st11 m c, st12 m c, st13 m c, st20 m c, st21 m c, st22 m c, st23 m c]
    exact (Views.read_src_store_cast_at _ _ _ _).trans (by rfl)
  iintro ⟨Hcs17, HO⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq])
  -- chunk 2: three landings
  ihave Hj := (Regions.third_join_ex c 2) $$ [Has10_pay1 Has11_pay1 Has12_pay1]
  · isplitl [Has10_pay1]; · iexists _; iexact Has10_pay1
    isplitl [Has11_pay1]; · iexists _; iexact Has11_pay1
    iexists _; iexact Has12_pay1
  icases Hj with ⟨%sj2, Hsn2⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq])
  iapply (Steps.send_step m c 18 (K (c, .inr (.inl 18))) (K (px 3 c, .inr (.inr 18))) _ g18 _ _ ?hfs18) $$ [Hsn2 Hq18 HO Hts18 Htq18]
  rotate_left
  · isplitr; · iexact HIs18
    isplitr; · iexact HIq18
    isplitl [Hsn2]; · iexact Hsn2
    isplitl [Hq18]; · iexact Hq18
    isplitl [HO]; · iexact HO
    isplitl [Hts18]; · iexact Hts18
    isplitr; · iexact Hrs18
    isplitl [Htq18]; · iexact Htq18
    iexact Hrq18
  case hfs18 =>
    unfold sound_body.sl.Hsn2_w1_1
    unfold sound_body.sl.r_17 sound_body.sl.r_16 sound_body.sl.v586 sound_body.sl.v585
    simp (disch := decide) only [Acc.acc_hit, Acc.acc_skip, acc_hit', acc_skip']
    unfold sound_body.sl.v354 sound_body.sl.v353
    simp (disch := decide) only [Acc.acc_hit, Acc.acc_skip, acc_hit', acc_skip']
    unfold sound_body.sl.r_4 sound_body.sl.r_6 sound_body.sl.r_5 sound_body.sl.r_2 sound_body.sl.r_3 sound_body.sl.r sound_body.sl.r_1
    simp only [rd0, rd1, rd2, rd3, rd4, rd0', rd1', rd2', rd3', rd4', Values.pay23_eq, Values.pay28_eq, Values.pay32_eq, Values.pay36_eq, Values.pay37_eq, Values.pay38_eq, Values.pay42_eq, Values.pay47_eq, Values.pay51_eq, Values.pay52_eq, Values.pay53_eq, Values.pay57_eq, Values.pay63_eq, Values.pay64_eq, Values.pay24_eq, Values.pay61_eq, Values.pay65_eq, Values.pay67_eq, Values.pay1_eq, Values.pay10_eq, Values.pay13_eq, Values.pay17_eq, Values.pay20_eq, Values.pay29_eq, Values.pay33_eq, Values.pay39_eq, Values.pay43_eq, Values.pay48_eq, Values.pay54_eq, Values.pay58_eq, Values.pay22_eq, Values.pay27_eq, Values.pay31_eq, Values.pay35_eq, Values.pay41_eq, Values.pay46_eq, Values.pay50_eq, Values.pay56_eq, Values.pay60_eq, Values.pay62_eq, Values.pay66_eq, Values.pay68_eq, Values.pay11_eq, Values.pay14_eq, Values.pay15_eq, Values.pay18_eq, Values.pay21_eq, Values.pay30_eq, Values.pay34_eq, Values.pay40_eq, Values.pay44_eq, Values.pay45_eq, Values.pay49_eq, Values.pay55_eq, Values.pay59_eq, Views.pay25_eq, Views.pay26_eq, Views.sq_unsq, Values.load_wire_0 m c, Values.load_wire_1 m c, Values.load_wire_2 m c, Values.load_wire_3 m c, Values.load_wire_4 m c, Values.load_wire_5 m c, Values.load_wire_6 m c, Values.load_wire_7 m c, Values.load_wire_8 m c, Values.load_wire_9 m c, Values.load_wire_10 m c, Values.load_wire_11 m c, Values.load_wire_12 m c, Values.load_wire_13 m c, Values.load_wire_14 m c, Values.load_wire_15 m c, Values.load_wire_16 m c, Values.load_wire_17 m c, Values.load_wire_18 m c, Values.load_wire_19 m c, base0 m c, base1 m c, base2 m c, base3 m c, st00 m c, st01 m c, st02 m c, st03 m c, st10 m c, st11 m c, st12 m c, st13 m c, st20 m c, st21 m c, st22 m c, st23 m c]
    exact (Views.read_src_store_cast_at _ _ _ _).trans (by rfl)
  iintro ⟨Hcs18, HO⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq])
  -- chunk 3
  iapply (Steps.send_step m c 19 (K (c, .inr (.inl 19))) (K (px 3 c, .inr (.inr 19))) _ g19 _ _ ?hfs19) $$ [Has13_pay1 Hq19 HO Hts19 Htq19]
  rotate_left
  · isplitr; · iexact HIs19
    isplitr; · iexact HIq19
    isplitl [Has13_pay1]; · iexact Has13_pay1
    isplitl [Hq19]; · iexact Hq19
    isplitl [HO]; · iexact HO
    isplitl [Hts19]; · iexact Hts19
    isplitr; · iexact Hrs19
    isplitl [Htq19]; · iexact Htq19
    iexact Hrq19
  case hfs19 =>
    unfold sound_body.sl.Has13_pay1_w1
    unfold sound_body.sl.r_19 sound_body.sl.r_18 sound_body.sl.v659
    simp (disch := decide) only [Acc.acc_hit, Acc.acc_skip, acc_hit', acc_skip']
    unfold sound_body.sl.r_13 sound_body.sl.r_12 sound_body.sl.v414 sound_body.sl.v413
    simp (disch := decide) only [Acc.acc_hit, Acc.acc_skip, acc_hit', acc_skip']
    unfold sound_body.sl.r_4 sound_body.sl.r_6 sound_body.sl.r_5 sound_body.sl.r_2 sound_body.sl.r_3 sound_body.sl.r sound_body.sl.r_1
    simp only [rd0, rd1, rd2, rd3, rd4, rd0', rd1', rd2', rd3', rd4', Values.pay23_eq, Values.pay28_eq, Values.pay32_eq, Values.pay36_eq, Values.pay37_eq, Values.pay38_eq, Values.pay42_eq, Values.pay47_eq, Values.pay51_eq, Values.pay52_eq, Values.pay53_eq, Values.pay57_eq, Values.pay63_eq, Values.pay64_eq, Values.pay24_eq, Values.pay61_eq, Values.pay65_eq, Values.pay67_eq, Values.pay1_eq, Values.pay10_eq, Values.pay13_eq, Values.pay17_eq, Values.pay20_eq, Values.pay29_eq, Values.pay33_eq, Values.pay39_eq, Values.pay43_eq, Values.pay48_eq, Values.pay54_eq, Values.pay58_eq, Values.pay22_eq, Values.pay27_eq, Values.pay31_eq, Values.pay35_eq, Values.pay41_eq, Values.pay46_eq, Values.pay50_eq, Values.pay56_eq, Values.pay60_eq, Values.pay62_eq, Values.pay66_eq, Values.pay68_eq, Values.pay11_eq, Values.pay14_eq, Values.pay15_eq, Values.pay18_eq, Values.pay21_eq, Values.pay30_eq, Values.pay34_eq, Values.pay40_eq, Values.pay44_eq, Values.pay45_eq, Values.pay49_eq, Values.pay55_eq, Values.pay59_eq, Views.pay25_eq, Views.pay26_eq, Views.sq_unsq, Values.load_wire_0 m c, Values.load_wire_1 m c, Values.load_wire_2 m c, Values.load_wire_3 m c, Values.load_wire_4 m c, Values.load_wire_5 m c, Values.load_wire_6 m c, Values.load_wire_7 m c, Values.load_wire_8 m c, Values.load_wire_9 m c, Values.load_wire_10 m c, Values.load_wire_11 m c, Values.load_wire_12 m c, Values.load_wire_13 m c, Values.load_wire_14 m c, Values.load_wire_15 m c, Values.load_wire_16 m c, Values.load_wire_17 m c, Values.load_wire_18 m c, Values.load_wire_19 m c, base0 m c, base1 m c, base2 m c, base3 m c, st00 m c, st01 m c, st02 m c, st03 m c, st10 m c, st11 m c, st12 m c, st13 m c, st20 m c, st21 m c, st22 m c, st23 m c]
    exact (Views.read_src_store_cast_at _ _ _ _).trans (by rfl)
  iintro ⟨Hcs19, HO⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq])
  -- ── the third step's landings: each chunk's sum over all sixteen devices goes to its block of the result ────────

  -- ── the return: everything the body was lent goes back ───────────────────────────────────────────────────────────
  sl_step
  -- the plane step of chunk 1 was the last: its three thirds make the slice again
  ihave Hj := (Regions.third_join_ex c 1) $$ [Has15_pay1 Has16_pay1 Has17_pay1]
  · isplitl [Has15_pay1]; · iexists _; iexact Has15_pay1
    isplitl [Has16_pay1]; · iexists _; iexact Has16_pay1
    iexists _; iexact Has17_pay1
  iapply Hk
  unfold bodyEnd
  isplitl [HO]; · iexists _; iexact HO
  isplitl [Hx0]; · iexact Hx0
  isplitl [Hx1]; · iexact Hx1
  isplitl [Hx2]; · iexact Hx2
  isplitl [Hx3]; · iexact Hx3
  isplitl [Hx4]; · iexact Hx4
  isplitl [Hx5]
  · have hv0 : k0_pay61 (sound_body.sl.r_21 m c) (View.readAt (Elt F) (Memref.whole cc0_scratch2 : Memref sig .tc .vmem S3x4x3x256x128 .bf16).view (Rect.unit (s := S3x4x3x256x128) ![2, 0, 0, 0, 0] S1x1x1x256x128.size inb_S3x4x3x256x128_S1x1x1x256x128_2_0_0_0_0).toLoadRect (landed m c 14)) = shapeCast S2x128x128 (run m 0 3 c) shapeCasts_S256x128_S2x128x128 := by
      unfold sound_body.sl.r_21 sound_body.sl.v697
      simp (disch := decide) only [Acc.acc_hit, Acc.acc_skip, acc_hit', acc_skip']
      unfold sound_body.sl.r_14 sound_body.sl.v487
      simp (disch := decide) only [Acc.acc_hit, Acc.acc_skip, acc_hit', acc_skip']
      unfold sound_body.sl.r_10 sound_body.sl.r_8 sound_body.sl.r_9 sound_body.sl.v242 sound_body.sl.v241
      simp (disch := decide) only [Acc.acc_hit, Acc.acc_skip, acc_hit', acc_skip']
      unfold sound_body.sl.r_4 sound_body.sl.r_5 sound_body.sl.r_2 sound_body.sl.r_3 sound_body.sl.r sound_body.sl.r_1
      simp only [rd0, rd1, rd2, rd3, rd4, rd0', rd1', rd2', rd3', rd4', Values.pay23_eq, Values.pay28_eq, Values.pay32_eq, Values.pay36_eq, Values.pay37_eq, Values.pay38_eq, Values.pay42_eq, Values.pay47_eq, Values.pay51_eq, Values.pay52_eq, Values.pay53_eq, Values.pay57_eq, Values.pay63_eq, Values.pay64_eq, Values.pay24_eq, Values.pay61_eq, Values.pay65_eq, Values.pay67_eq, Values.pay1_eq, Values.pay10_eq, Values.pay13_eq, Values.pay17_eq, Values.pay20_eq, Values.pay29_eq, Values.pay33_eq, Values.pay39_eq, Values.pay43_eq, Values.pay48_eq, Values.pay54_eq, Values.pay58_eq, Values.pay22_eq, Values.pay27_eq, Values.pay31_eq, Values.pay35_eq, Values.pay41_eq, Values.pay46_eq, Values.pay50_eq, Values.pay56_eq, Values.pay60_eq, Values.pay62_eq, Values.pay66_eq, Values.pay68_eq, Values.pay11_eq, Values.pay14_eq, Values.pay15_eq, Values.pay18_eq, Values.pay21_eq, Values.pay30_eq, Values.pay34_eq, Values.pay40_eq, Values.pay44_eq, Values.pay45_eq, Values.pay49_eq, Values.pay55_eq, Values.pay59_eq, Views.pay25_eq, Views.pay26_eq, Views.sq_unsq, Values.load_wire_0 m c, Values.load_wire_1 m c, Values.load_wire_2 m c, Values.load_wire_3 m c, Values.load_wire_4 m c, Values.load_wire_5 m c, Values.load_wire_6 m c, Values.load_wire_7 m c, Values.load_wire_8 m c, Values.load_wire_9 m c, Values.load_wire_10 m c, Values.load_wire_11 m c, Values.load_wire_12 m c, Values.load_wire_13 m c, Values.load_wire_14 m c, Values.load_wire_15 m c, Values.load_wire_16 m c, Values.load_wire_17 m c, Values.load_wire_18 m c, Values.load_wire_19 m c, base0 m c, base1 m c, base2 m c, base3 m c, st00 m c, st01 m c, st02 m c, st03 m c, st10 m c, st11 m c, st12 m c, st13 m c, st20 m c, st21 m c, st22 m c, st23 m c]

    have hv1 : k0_pay65 (sound_body.sl.r_24 m c) (View.readAt (Elt F) (Memref.whole cc0_scratch2 : Memref sig .tc .vmem S3x4x3x256x128 .bf16).view (Rect.unit (s := S3x4x3x256x128) ![2, 1, 2, 0, 0] S1x1x1x256x128.size inb_S3x4x3x256x128_S1x1x1x256x128_2_1_2_0_0).toLoadRect (landed m c 17)) = shapeCast S2x128x128 (run m 1 3 c) shapeCasts_S256x128_S2x128x128 := by
      unfold sound_body.sl.r_24 sound_body.sl.r_23 sound_body.sl.r_22 sound_body.sl.v719
      simp (disch := decide) only [Acc.acc_hit, Acc.acc_skip, acc_hit', acc_skip']
      unfold sound_body.sl.v526 sound_body.sl.v525
      simp (disch := decide) only [Acc.acc_hit, Acc.acc_skip, acc_hit', acc_skip']
      unfold sound_body.sl.r_11 sound_body.sl.v315
      simp (disch := decide) only [Acc.acc_hit, Acc.acc_skip, acc_hit', acc_skip']
      unfold sound_body.sl.r_4 sound_body.sl.r_6 sound_body.sl.r_5 sound_body.sl.r_2 sound_body.sl.r_3 sound_body.sl.r sound_body.sl.r_1
      simp only [rd0, rd1, rd2, rd3, rd4, rd0', rd1', rd2', rd3', rd4', Values.pay23_eq, Values.pay28_eq, Values.pay32_eq, Values.pay36_eq, Values.pay37_eq, Values.pay38_eq, Values.pay42_eq, Values.pay47_eq, Values.pay51_eq, Values.pay52_eq, Values.pay53_eq, Values.pay57_eq, Values.pay63_eq, Values.pay64_eq, Values.pay24_eq, Values.pay61_eq, Values.pay65_eq, Values.pay67_eq, Values.pay1_eq, Values.pay10_eq, Values.pay13_eq, Values.pay17_eq, Values.pay20_eq, Values.pay29_eq, Values.pay33_eq, Values.pay39_eq, Values.pay43_eq, Values.pay48_eq, Values.pay54_eq, Values.pay58_eq, Values.pay22_eq, Values.pay27_eq, Values.pay31_eq, Values.pay35_eq, Values.pay41_eq, Values.pay46_eq, Values.pay50_eq, Values.pay56_eq, Values.pay60_eq, Values.pay62_eq, Values.pay66_eq, Values.pay68_eq, Values.pay11_eq, Values.pay14_eq, Values.pay15_eq, Values.pay18_eq, Values.pay21_eq, Values.pay30_eq, Values.pay34_eq, Values.pay40_eq, Values.pay44_eq, Values.pay45_eq, Values.pay49_eq, Values.pay55_eq, Values.pay59_eq, Views.pay25_eq, Views.pay26_eq, Views.sq_unsq, Values.load_wire_0 m c, Values.load_wire_1 m c, Values.load_wire_2 m c, Values.load_wire_3 m c, Values.load_wire_4 m c, Values.load_wire_5 m c, Values.load_wire_6 m c, Values.load_wire_7 m c, Values.load_wire_8 m c, Values.load_wire_9 m c, Values.load_wire_10 m c, Values.load_wire_11 m c, Values.load_wire_12 m c, Values.load_wire_13 m c, Values.load_wire_14 m c, Values.load_wire_15 m c, Values.load_wire_16 m c, Values.load_wire_17 m c, Values.load_wire_18 m c, Values.load_wire_19 m c, base0 m c, base1 m c, base2 m c, base3 m c, st00 m c, st01 m c, st02 m c, st03 m c, st10 m c, st11 m c, st12 m c, st13 m c, st20 m c, st21 m c, st22 m c, st23 m c]

    have hv2 : k0_pay67 (sound_body.sl.r_25 m c) (View.readAt (Elt F) (Memref.whole cc0_scratch2 : Memref sig .tc .vmem S3x4x3x256x128 .bf16).view (Rect.unit (s := S3x4x3x256x128) ![2, 2, 0, 0, 0] S1x1x1x256x128.size inb_S3x4x3x256x128_S1x1x1x256x128_2_2_0_0_0).toLoadRect (landed m c 18)) = shapeCast S2x128x128 (run m 2 3 c) shapeCasts_S256x128_S2x128x128 := by
      unfold sound_body.sl.r_25 sound_body.sl.v777
      simp (disch := decide) only [Acc.acc_hit, Acc.acc_skip, acc_hit', acc_skip']
      unfold sound_body.sl.r_17 sound_body.sl.r_16 sound_body.sl.v586 sound_body.sl.v585
      simp (disch := decide) only [Acc.acc_hit, Acc.acc_skip, acc_hit', acc_skip']
      unfold sound_body.sl.v354 sound_body.sl.v353
      simp (disch := decide) only [Acc.acc_hit, Acc.acc_skip, acc_hit', acc_skip']
      unfold sound_body.sl.r_4 sound_body.sl.r_6 sound_body.sl.r_5 sound_body.sl.r_2 sound_body.sl.r_3 sound_body.sl.r sound_body.sl.r_1
      simp only [rd0, rd1, rd2, rd3, rd4, rd0', rd1', rd2', rd3', rd4', Values.pay23_eq, Values.pay28_eq, Values.pay32_eq, Values.pay36_eq, Values.pay37_eq, Values.pay38_eq, Values.pay42_eq, Values.pay47_eq, Values.pay51_eq, Values.pay52_eq, Values.pay53_eq, Values.pay57_eq, Values.pay63_eq, Values.pay64_eq, Values.pay24_eq, Values.pay61_eq, Values.pay65_eq, Values.pay67_eq, Values.pay1_eq, Values.pay10_eq, Values.pay13_eq, Values.pay17_eq, Values.pay20_eq, Values.pay29_eq, Values.pay33_eq, Values.pay39_eq, Values.pay43_eq, Values.pay48_eq, Values.pay54_eq, Values.pay58_eq, Values.pay22_eq, Values.pay27_eq, Values.pay31_eq, Values.pay35_eq, Values.pay41_eq, Values.pay46_eq, Values.pay50_eq, Values.pay56_eq, Values.pay60_eq, Values.pay62_eq, Values.pay66_eq, Values.pay68_eq, Values.pay11_eq, Values.pay14_eq, Values.pay15_eq, Values.pay18_eq, Values.pay21_eq, Values.pay30_eq, Values.pay34_eq, Values.pay40_eq, Values.pay44_eq, Values.pay45_eq, Values.pay49_eq, Values.pay55_eq, Values.pay59_eq, Views.pay25_eq, Views.pay26_eq, Views.sq_unsq, Values.load_wire_0 m c, Values.load_wire_1 m c, Values.load_wire_2 m c, Values.load_wire_3 m c, Values.load_wire_4 m c, Values.load_wire_5 m c, Values.load_wire_6 m c, Values.load_wire_7 m c, Values.load_wire_8 m c, Values.load_wire_9 m c, Values.load_wire_10 m c, Values.load_wire_11 m c, Values.load_wire_12 m c, Values.load_wire_13 m c, Values.load_wire_14 m c, Values.load_wire_15 m c, Values.load_wire_16 m c, Values.load_wire_17 m c, Values.load_wire_18 m c, Values.load_wire_19 m c, base0 m c, base1 m c, base2 m c, base3 m c, st00 m c, st01 m c, st02 m c, st03 m c, st10 m c, st11 m c, st12 m c, st13 m c, st20 m c, st21 m c, st22 m c, st23 m c]

    have hv3 : k0_pay1 (sound_body.sl.r_26 m c) (View.readAt (Elt F) (Memref.whole cc0_scratch2 : Memref sig .tc .vmem S3x4x3x256x128 .bf16).view (Rect.unit (s := S3x4x3x256x128) ![2, 3, 0, 0, 0] S1x1x1x256x128.size inb_S3x4x3x256x128_S1x1x1x256x128_2_3_0_0_0).toLoadRect (landed m c 19)) = shapeCast S2x128x128 (run m 3 3 c) shapeCasts_S256x128_S2x128x128 := by
      unfold sound_body.sl.r_26 sound_body.sl.v799
      simp (disch := decide) only [Acc.acc_hit, Acc.acc_skip, acc_hit', acc_skip']
      unfold sound_body.sl.r_20 sound_body.sl.r_18 sound_body.sl.v659
      simp (disch := decide) only [Acc.acc_hit, Acc.acc_skip, acc_hit', acc_skip']
      unfold sound_body.sl.r_13 sound_body.sl.r_12 sound_body.sl.v414 sound_body.sl.v413
      simp (disch := decide) only [Acc.acc_hit, Acc.acc_skip, acc_hit', acc_skip']
      unfold sound_body.sl.r_4 sound_body.sl.r_6 sound_body.sl.r_5 sound_body.sl.r_2 sound_body.sl.r_3 sound_body.sl.r sound_body.sl.r_1
      simp only [rd0, rd1, rd2, rd3, rd4, rd0', rd1', rd2', rd3', rd4', Values.pay23_eq, Values.pay28_eq, Values.pay32_eq, Values.pay36_eq, Values.pay37_eq, Values.pay38_eq, Values.pay42_eq, Values.pay47_eq, Values.pay51_eq, Values.pay52_eq, Values.pay53_eq, Values.pay57_eq, Values.pay63_eq, Values.pay64_eq, Values.pay24_eq, Values.pay61_eq, Values.pay65_eq, Values.pay67_eq, Values.pay1_eq, Values.pay10_eq, Values.pay13_eq, Values.pay17_eq, Values.pay20_eq, Values.pay29_eq, Values.pay33_eq, Values.pay39_eq, Values.pay43_eq, Values.pay48_eq, Values.pay54_eq, Values.pay58_eq, Values.pay22_eq, Values.pay27_eq, Values.pay31_eq, Values.pay35_eq, Values.pay41_eq, Values.pay46_eq, Values.pay50_eq, Values.pay56_eq, Values.pay60_eq, Values.pay62_eq, Values.pay66_eq, Values.pay68_eq, Values.pay11_eq, Values.pay14_eq, Values.pay15_eq, Values.pay18_eq, Values.pay21_eq, Values.pay30_eq, Values.pay34_eq, Values.pay40_eq, Values.pay44_eq, Values.pay45_eq, Values.pay49_eq, Values.pay55_eq, Values.pay59_eq, Views.pay25_eq, Views.pay26_eq, Views.sq_unsq, Values.load_wire_0 m c, Values.load_wire_1 m c, Values.load_wire_2 m c, Values.load_wire_3 m c, Values.load_wire_4 m c, Values.load_wire_5 m c, Values.load_wire_6 m c, Values.load_wire_7 m c, Values.load_wire_8 m c, Values.load_wire_9 m c, Values.load_wire_10 m c, Values.load_wire_11 m c, Values.load_wire_12 m c, Values.load_wire_13 m c, Values.load_wire_14 m c, Values.load_wire_15 m c, Values.load_wire_16 m c, Values.load_wire_17 m c, Values.load_wire_18 m c, Values.load_wire_19 m c, base0 m c, base1 m c, base2 m c, base3 m c, st00 m c, st01 m c, st02 m c, st03 m c, st10 m c, st11 m c, st12 m c, st13 m c, st20 m c, st21 m c, st22 m c, st23 m c]

    rw [hv0, hv1, hv2, hv3]
    have hout : (Memref.whole cc0_stg5_0 : Memref sig .tc .vmem S2x128x512 .f32).view.writes (Elt F) X5
        [⟨Rect.unit (s := S2x128x512) ![0, 0, 384] S2x128x128.size inb_S2x128x512_S2x128x128_0_0_384, shapeCast S2x128x128 (run m 3 3 c) shapeCasts_S256x128_S2x128x128⟩,
         ⟨Rect.unit (s := S2x128x512) ![0, 0, 256] S2x128x128.size inb_S2x128x512_S2x128x128_0_0_256, shapeCast S2x128x128 (run m 2 3 c) shapeCasts_S256x128_S2x128x128⟩,
         ⟨Rect.unit (s := S2x128x512) ![0, 0, 128] S2x128x128.size inb_S2x128x512_S2x128x128_0_0_128, shapeCast S2x128x128 (run m 1 3 c) shapeCasts_S256x128_S2x128x128⟩,
         ⟨Rect.unit (s := S2x128x512) ![0, 0, 0] S2x128x128.size inb_S2x128x512_S2x128x128_0_0_0, shapeCast S2x128x128 (run m 0 3 c) shapeCasts_S256x128_S2x128x128⟩] = outAt m c := by
      unfold outAt
      exact Out.stored_indep (Elt F) _ _ _ _ X5 _ _ _ _ _
    rw [hout]
    iexact Hx5
  isplitl [Hacc]; · iexists _; iexact Hacc
  isplitl [Has14_pay1]; · iexists _; iexact Has14_pay1
  isplitl [Hj]; · iexact Hj
  isplitl [Has18_pay1]; · iexists _; iexact Has18_pay1
  isplitl [Has19_pay1]; · iexists _; iexact Has19_pay1
  isplitl [Har0_pay1]; · iexists _; iexact Har0_pay1
  isplitl [Har1_pay1]; · iexists _; iexact Har1_pay1
  isplitl [Har2_pay1]; · iexists _; iexact Har2_pay1
  isplitl [Har3_pay1]; · iexists _; iexact Har3_pay1
  isplitl [Har4_pay1]; · iexists _; iexact Har4_pay1
  isplitl [Har5_pay1]; · iexists _; iexact Har5_pay1
  isplitl [Har6_pay1]; · iexists _; iexact Har6_pay1
  isplitl [Har7_pay1]; · iexists _; iexact Har7_pay1
  isplitl [Har8_pay1]; · iexists _; iexact Har8_pay1
  isplitl [Har9_pay1]; · iexists _; iexact Har9_pay1
  isplitl [Har10_pay1]; · iexists _; iexact Har10_pay1
  isplitl [Har11_pay1]; · iexists _; iexact Har11_pay1
  isplitl [Har12_pay1]; · iexists _; iexact Har12_pay1
  isplitl [Har13_pay1]; · iexists _; iexact Har13_pay1
  isplitl [Har14_pay1]; · iexists _; iexact Har14_pay1
  isplitl [Har15_pay1]; · iexists _; iexact Har15_pay1
  isplitl [Har16_pay1]; · iexists _; iexact Har16_pay1
  isplitl [Har17_pay1]; · iexists _; iexact Har17_pay1
  isplitl [Har18_pay1]; · iexists _; iexact Har18_pay1
  isplitl [Har19_pay1]; · iexists _; iexact Har19_pay1
  isplitl [Hrest]; · iexists _; iexact Hrest
  isplitl [Has0 Has1 Has2 Has3 Has4 Has5 Has6 Has7 Has8 Has9 Has10 Has11 Has12 Has13 Has14 Has15 Has16 Has17 Has18 Has19]
  · iapply (Bridge.chain20_intro _)
    sl_close
  iapply (Bridge.chain20_intro _)
  sl_close

/-- info: 'Cert.KernelIdeal.Body.sound_body' depends on axioms: [propext, Classical.choice, Quot.sound] -/
#guard_msgs in #print axioms sound_body

end Cert.KernelIdeal.Body

end
-- ==== Proof.KernelIdealObligation.lean ====
/-
  The body obligation of one device, from the body's run: the pipeline hands the body its invariant before the point (the
  ghost state at some names, the launch's credit, the levels, the three scratch buffers), what the device owes, and the six
  staging buffers; the run wants them piece by piece — the ghost state laid out, the receive buffer cut into the slots its
  partners will write (handed over with the entry signals) and the rest, the outgoing buffer cut into its four slices — and
  leaves pieces from which the invariant after the point is put back together: the buffers rejoined, every copy's cells
  closed at zero.
-/
import proofs.«900514_g7700000000000515_dist_attn_self_mha_htp_b2_sq128_skv128_d512_hq8_dh64_v7x_i16_bf16_1_alg».proof.Proof.KernelIdealBodyDefs
import proofs.«900514_g7700000000000515_dist_attn_self_mha_htp_b2_sq128_skv128_d512_hq8_dh64_v7x_i16_bf16_1_alg».proof.Proof.KernelIdealBridge

noncomputable section

namespace Cert.KernelIdeal.Body

open Cert.KernelIdeal Cert.KernelIdeal.Gen Cert.KernelIdeal.Terms Cert.KernelIdeal.Proto
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The staging buffers at the one point -/

/-- The five inputs are fetched at the point: their staging buffers hold the device's blocks. -/
theorem before_0 (c : Dev nD) (d) : (dats m ρ 0 c).before (0 : Fin 6) t0_0 d = xs0 m c := ((dats m ρ 0 c).before_fetched 0 t0_0 (fetch0_0 _) d).trans rfl
theorem before_1 (c : Dev nD) (d) : (dats m ρ 0 c).before (1 : Fin 6) t0_0 d = xs1 m c := ((dats m ρ 0 c).before_fetched 1 t0_0 (fetch0_1 _) d).trans rfl
theorem before_2 (c : Dev nD) (d) : (dats m ρ 0 c).before (2 : Fin 6) t0_0 d = xs2 m c := ((dats m ρ 0 c).before_fetched 2 t0_0 (fetch0_2 _) d).trans rfl
theorem before_3 (c : Dev nD) (d) : (dats m ρ 0 c).before (3 : Fin 6) t0_0 d = xs3 m c := ((dats m ρ 0 c).before_fetched 3 t0_0 (fetch0_3 _) d).trans rfl
theorem before_4 (c : Dev nD) (d) : (dats m ρ 0 c).before (4 : Fin 6) t0_0 d = xs4 m c := ((dats m ρ 0 c).before_fetched 4 t0_0 (fetch0_4 _) d).trans rfl

/-- A whole staging or scratch buffer at contents `X`, as the pipeline holds it. -/
abbrev stg (c : Dev nD) (b : Ref sig .tc) (X : b.ty.Contents (Elt F)) : sProp 𝕄 := (((c : Thread nD τ).loc b) ↦{fullShare} X)

theorem whole_eq (c : Dev nD) (b : Ref sig .tc) (X : b.ty.Contents (Elt F)) :
    ((Memref.whole b : Memref sig .tc _ _ _).view.loc (c : Thread nD τ) ↦[(Memref.whole b : Memref sig .tc _ _ _).view.set]{fullShare} X : sProp 𝕄) = stg c b X := by
  simp only [Memref.view_whole, View.set_whole]

/-- The same buffer as the run names it, through the whole-buffer view: both ways. -/
theorem of_stg (c : Dev nD) (b : Ref sig .tc) (X : b.ty.Contents (Elt F)) :
    stg c b X ⊢ ((Memref.whole b : Memref sig .tc _ _ _).view.loc (c : Thread nD τ) ↦[(Memref.whole b : Memref sig .tc _ _ _).view.set]{fullShare} X : sProp 𝕄) := by
  rw [whole_eq]
theorem to_stg (c : Dev nD) (b : Ref sig .tc) (X : b.ty.Contents (Elt F)) :
    ((Memref.whole b : Memref sig .tc _ _ _).view.loc (c : Thread nD τ) ↦[(Memref.whole b : Memref sig .tc _ _ _).view.set]{fullShare} X : sProp 𝕄) ⊢ stg c b X := by
  rw [whole_eq]

/-- An outgoing slice as the run's first copy of it names it. -/
theorem src_out0 (c : Dev nD) (S0 : (cc0_scratch1 : Ref sig .tc).ty.Contents (Elt F)) : (srcPts c 0 fullShare S0 : sProp 𝕄) ⊢ ((((Memref.whole cc0_scratch1 : Memref sig .tc .vmem S4x256x128 .bf16).slice (Rect.unit (s := S4x256x128) ![0, 0, 0] S1x256x128.size inb_S4x256x128_S1x256x128_0_0_0) (fun _ => rfl)).squeeze S256x128 squeezes_S1x256x128_S256x128).view.loc (c : Thread nD τ) ↦[(((Memref.whole cc0_scratch1 : Memref sig .tc .vmem S4x256x128 .bf16).slice (Rect.unit (s := S4x256x128) ![0, 0, 0] S1x256x128.size inb_S4x256x128_S1x256x128_0_0_0) (fun _ => rfl)).squeeze S256x128 squeezes_S1x256x128_S256x128).view.set]{fullShare} S0) :=
  (show (srcPts c 0 fullShare S0 : sProp 𝕄) = ((((Memref.whole cc0_scratch1 : Memref sig .tc .vmem S4x256x128 .bf16).slice (Rect.unit (s := S4x256x128) ![0, 0, 0] S1x256x128.size inb_S4x256x128_S1x256x128_0_0_0) (fun _ => rfl)).squeeze S256x128 squeezes_S1x256x128_S256x128).view.loc (c : Thread nD τ) ↦[(((Memref.whole cc0_scratch1 : Memref sig .tc .vmem S4x256x128 .bf16).slice (Rect.unit (s := S4x256x128) ![0, 0, 0] S1x256x128.size inb_S4x256x128_S1x256x128_0_0_0) (fun _ => rfl)).squeeze S256x128 squeezes_S1x256x128_S256x128).view.set]{fullShare} S0) from rfl) ▸ BI.Entails.refl _
theorem src_out1 (c : Dev nD) (S0 : (cc0_scratch1 : Ref sig .tc).ty.Contents (Elt F)) : (srcPts c 1 fullShare S0 : sProp 𝕄) ⊢ ((((Memref.whole cc0_scratch1 : Memref sig .tc .vmem S4x256x128 .bf16).slice (Rect.unit (s := S4x256x128) ![1, 0, 0] S1x256x128.size inb_S4x256x128_S1x256x128_1_0_0) (fun _ => rfl)).squeeze S256x128 squeezes_S1x256x128_S256x128).view.loc (c : Thread nD τ) ↦[(((Memref.whole cc0_scratch1 : Memref sig .tc .vmem S4x256x128 .bf16).slice (Rect.unit (s := S4x256x128) ![1, 0, 0] S1x256x128.size inb_S4x256x128_S1x256x128_1_0_0) (fun _ => rfl)).squeeze S256x128 squeezes_S1x256x128_S256x128).view.set]{fullShare} S0) :=
  (show (srcPts c 1 fullShare S0 : sProp 𝕄) = ((((Memref.whole cc0_scratch1 : Memref sig .tc .vmem S4x256x128 .bf16).slice (Rect.unit (s := S4x256x128) ![1, 0, 0] S1x256x128.size inb_S4x256x128_S1x256x128_1_0_0) (fun _ => rfl)).squeeze S256x128 squeezes_S1x256x128_S256x128).view.loc (c : Thread nD τ) ↦[(((Memref.whole cc0_scratch1 : Memref sig .tc .vmem S4x256x128 .bf16).slice (Rect.unit (s := S4x256x128) ![1, 0, 0] S1x256x128.size inb_S4x256x128_S1x256x128_1_0_0) (fun _ => rfl)).squeeze S256x128 squeezes_S1x256x128_S256x128).view.set]{fullShare} S0) from rfl) ▸ BI.Entails.refl _
theorem src_out2 (c : Dev nD) (S0 : (cc0_scratch1 : Ref sig .tc).ty.Contents (Elt F)) : (srcPts c 2 fullShare S0 : sProp 𝕄) ⊢ ((((Memref.whole cc0_scratch1 : Memref sig .tc .vmem S4x256x128 .bf16).slice (Rect.unit (s := S4x256x128) ![2, 0, 0] S1x256x128.size inb_S4x256x128_S1x256x128_2_0_0) (fun _ => rfl)).squeeze S256x128 squeezes_S1x256x128_S256x128).view.loc (c : Thread nD τ) ↦[(((Memref.whole cc0_scratch1 : Memref sig .tc .vmem S4x256x128 .bf16).slice (Rect.unit (s := S4x256x128) ![2, 0, 0] S1x256x128.size inb_S4x256x128_S1x256x128_2_0_0) (fun _ => rfl)).squeeze S256x128 squeezes_S1x256x128_S256x128).view.set]{fullShare} S0) :=
  (show (srcPts c 2 fullShare S0 : sProp 𝕄) = ((((Memref.whole cc0_scratch1 : Memref sig .tc .vmem S4x256x128 .bf16).slice (Rect.unit (s := S4x256x128) ![2, 0, 0] S1x256x128.size inb_S4x256x128_S1x256x128_2_0_0) (fun _ => rfl)).squeeze S256x128 squeezes_S1x256x128_S256x128).view.loc (c : Thread nD τ) ↦[(((Memref.whole cc0_scratch1 : Memref sig .tc .vmem S4x256x128 .bf16).slice (Rect.unit (s := S4x256x128) ![2, 0, 0] S1x256x128.size inb_S4x256x128_S1x256x128_2_0_0) (fun _ => rfl)).squeeze S256x128 squeezes_S1x256x128_S256x128).view.set]{fullShare} S0) from rfl) ▸ BI.Entails.refl _
theorem src_out3 (c : Dev nD) (S0 : (cc0_scratch1 : Ref sig .tc).ty.Contents (Elt F)) : (srcPts c 3 fullShare S0 : sProp 𝕄) ⊢ ((((Memref.whole cc0_scratch1 : Memref sig .tc .vmem S4x256x128 .bf16).slice (Rect.unit (s := S4x256x128) ![3, 0, 0] S1x256x128.size inb_S4x256x128_S1x256x128_3_0_0) (fun _ => rfl)).squeeze S256x128 squeezes_S1x256x128_S256x128).view.loc (c : Thread nD τ) ↦[(((Memref.whole cc0_scratch1 : Memref sig .tc .vmem S4x256x128 .bf16).slice (Rect.unit (s := S4x256x128) ![3, 0, 0] S1x256x128.size inb_S4x256x128_S1x256x128_3_0_0) (fun _ => rfl)).squeeze S256x128 squeezes_S1x256x128_S256x128).view.set]{fullShare} S0) :=
  (show (srcPts c 3 fullShare S0 : sProp 𝕄) = ((((Memref.whole cc0_scratch1 : Memref sig .tc .vmem S4x256x128 .bf16).slice (Rect.unit (s := S4x256x128) ![3, 0, 0] S1x256x128.size inb_S4x256x128_S1x256x128_3_0_0) (fun _ => rfl)).squeeze S256x128 squeezes_S1x256x128_S256x128).view.loc (c : Thread nD τ) ↦[(((Memref.whole cc0_scratch1 : Memref sig .tc .vmem S4x256x128 .bf16).slice (Rect.unit (s := S4x256x128) ![3, 0, 0] S1x256x128.size inb_S4x256x128_S1x256x128_3_0_0) (fun _ => rfl)).squeeze S256x128 squeezes_S1x256x128_S256x128).view.set]{fullShare} S0) from rfl) ▸ BI.Entails.refl _

/-- The twenty receive credits, one by one. -/
theorem creds20 (c : Dev nD) : (bigSep Finset.univ fun s : Fin 20 => (cred (tallyAt (recvCell c s) () N) : sProp 𝕄))
    = iprop(cred (tallyAt (recvCell c 0) () N) ∗ cred (tallyAt (recvCell c 1) () N) ∗ cred (tallyAt (recvCell c 2) () N) ∗ cred (tallyAt (recvCell c 3) () N) ∗ cred (tallyAt (recvCell c 4) () N) ∗ cred (tallyAt (recvCell c 5) () N) ∗ cred (tallyAt (recvCell c 6) () N) ∗ cred (tallyAt (recvCell c 7) () N) ∗ cred (tallyAt (recvCell c 8) () N) ∗ cred (tallyAt (recvCell c 9) () N) ∗ cred (tallyAt (recvCell c 10) () N) ∗ cred (tallyAt (recvCell c 11) () N) ∗ cred (tallyAt (recvCell c 12) () N) ∗ cred (tallyAt (recvCell c 13) () N) ∗ cred (tallyAt (recvCell c 14) () N) ∗ cred (tallyAt (recvCell c 15) () N) ∗ cred (tallyAt (recvCell c 16) () N) ∗ cred (tallyAt (recvCell c 17) () N) ∗ cred (tallyAt (recvCell c 18) () N) ∗ cred (tallyAt (recvCell c 19) () N)) := by
  rw [Bridge.bigSep_fin20]; rfl

/-- What the device owes at the point, as the chain the run peels. -/
theorem owed_chain (c : Dev nD) : (dats m ρ 0 c).owed t0_0.castSucc
    = (0 + tallyAt (recvCell (px 3 c) 19) () N + tallyAt (recvCell (px 3 c) 18) () N + tallyAt (recvCell (px 2 c) 17) () N + tallyAt (recvCell (px 1 c) 16) () N + tallyAt (recvCell (px 0 c) 15) () N + tallyAt (recvCell (px 4 c) 14) () N + tallyAt (recvCell (px 4 c) 13) () N + tallyAt (recvCell (px 2 c) 12) () N + tallyAt (recvCell (px 1 c) 11) () N + tallyAt (recvCell (px 0 c) 10) () N + tallyAt (recvCell (px 4 c) 9) () N + tallyAt (recvCell (px 3 c) 8) () N + tallyAt (recvCell (px 2 c) 7) () N + tallyAt (recvCell (px 1 c) 6) () N + tallyAt (recvCell (px 0 c) 5) () N + tallyAt (recvCell (px 4 c) 4) () N + tallyAt (recvCell (px 3 c) 3) () N + tallyAt (recvCell (px 2 c) 2) () N + tallyAt (recvCell (px 1 c) 1) () N + tallyAt (recvCell (px 0 c) 0) () N + tallyAt (barCell (px 4 c)) () 1 + tallyAt (barCell (px 3 c)) () 1 + tallyAt (barCell (px 2 c)) () 1 + tallyAt (barCell (px 1 c)) () 1 + tallyAt (barCell (px 0 c)) () 1) := rfl

/-- The obligation's precondition, the staging buffers named. -/
def bodyPre' (c : Dev nD) : sProp 𝕄 :=
  iprop(Φ₀ m c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

/-- The obligation's postcondition. -/
def bodyPost' (c : Dev nD) : sProp 𝕄 :=
  iprop(Φ₁ (F := F) c ∗ (dats m ρ 0 c).owesAt () t0_0.succ
    ∗ stg c cc0_stg0_0 (xs0 m c) ∗ stg c cc0_stg1_0 (xs1 m c) ∗ stg c cc0_stg2_0 (xs2 m c) ∗ stg c cc0_stg3_0 (xs3 m c) ∗ stg c cc0_stg4_0 (xs4 m c)
    ∗ stg c cc0_stg5_0 (outAt m c))

/-! ## The wrapper -/

set_option maxHeartbeats 1000000 in
set_option maxRecDepth 8000 in
/-- The pieces the run starts from, out of what the pipeline and the launch hand over. -/
theorem ctx_intro (K : Dev nD × Cell → ℕ) (c : Dev nD) (W : Waits sig Unit) (X5 : (cc0_stg5_0 : Ref sig .tc).ty.Contents (Elt F))
    (A0 : (cc0_scratch0 : Ref sig .tc).ty.Contents (Elt F)) (S0 : (cc0_scratch1 : Ref sig .tc).ty.Contents (Elt F))
    (C0 : (cc0_scratch2 : Ref sig .tc).ty.Contents (Elt F)) :
    iprop(records m K ∗ linear c ∗ levAts L lv ∗ cred (tallyAt (barCell c) () 5) ∗ (cred (tallyAt (recvCell c 0) () N) ∗ cred (tallyAt (recvCell c 1) () N) ∗ cred (tallyAt (recvCell c 2) () N) ∗ cred (tallyAt (recvCell c 3) () N) ∗ cred (tallyAt (recvCell c 4) () N) ∗ cred (tallyAt (recvCell c 5) () N) ∗ cred (tallyAt (recvCell c 6) () N) ∗ cred (tallyAt (recvCell c 7) () N) ∗ cred (tallyAt (recvCell c 8) () N) ∗ cred (tallyAt (recvCell c 9) () N) ∗ cred (tallyAt (recvCell c 10) () N) ∗ cred (tallyAt (recvCell c 11) () N) ∗ cred (tallyAt (recvCell c 12) () N) ∗ cred (tallyAt (recvCell c 13) () N) ∗ cred (tallyAt (recvCell c 14) () N) ∗ cred (tallyAt (recvCell c 15) () N) ∗ cred (tallyAt (recvCell c 16) () N) ∗ cred (tallyAt (recvCell c 17) () N) ∗ cred (tallyAt (recvCell c 18) () N) ∗ cred (tallyAt (recvCell c 19) () N))
        ∗ stg c cc0_scratch0 A0 ∗ stg c cc0_scratch1 S0 ∗ stg c cc0_scratch2 C0
        ∗ owes (c : Thread nD τ) ((dats m ρ 0 c).owed t0_0.castSucc) W
        ∗ stg c cc0_stg0_0 (xs0 m c) ∗ stg c cc0_stg1_0 (xs1 m c) ∗ stg c cc0_stg2_0 (xs2 m c) ∗ stg c cc0_stg3_0 (xs3 m c) ∗ stg c cc0_stg4_0 (xs4 m c)
        ∗ stg c cc0_stg5_0 X5)
      ⊢ bodyCtx m K c W X5 A0 S0 C0 := by
  rw [owed_chain]
  unfold bodyCtx
  iintro ⟨#Hrec, Hlin, #Hlev, Hc5, ⟨Hr0, Hr1, Hr2, Hr3, Hr4, Hr5, Hr6, Hr7, Hr8, Hr9, Hr10, Hr11, Hr12, Hr13, Hr14, Hr15, Hr16, Hr17, Hr18, Hr19⟩, Hs0, Hs1, Hs2, Ho, Hx0, Hx1, Hx2, Hx3, Hx4, Hx5⟩
  ihave Hctx := (Bridge.open_ghost m K c) $$ [Hlin]
  · unfold ghost; isplitr; · iexact Hrec
    iexact Hlin
  ihave Hgive := (Bridge.give_slots m K c C0) $$ [Hs2]
  · isplitr; · iexact Hrec
    iexact Hs2
  icases Hgive with ⟨Hb0, Hb1, Hb2, Hb3, Hb4, Hrest⟩
  ihave Hsnd := ((Regions.split_snd c S0).1) $$ Hs1
  icases Hsnd with ⟨Hq0, Hq1, Hq2, Hq3⟩
  isplitl [Hctx]; · iexact Hctx
  isplitr; · iexact Hlev
  isplitl [Hc5]; · iexact Hc5
  isplitl [Hr0]; · iexact Hr0
  isplitl [Hr1]; · iexact Hr1
  isplitl [Hr2]; · iexact Hr2
  isplitl [Hr3]; · iexact Hr3
  isplitl [Hr4]; · iexact Hr4
  isplitl [Hr5]; · iexact Hr5
  isplitl [Hr6]; · iexact Hr6
  isplitl [Hr7]; · iexact Hr7
  isplitl [Hr8]; · iexact Hr8
  isplitl [Hr9]; · iexact Hr9
  isplitl [Hr10]; · iexact Hr10
  isplitl [Hr11]; · iexact Hr11
  isplitl [Hr12]; · iexact Hr12
  isplitl [Hr13]; · iexact Hr13
  isplitl [Hr14]; · iexact Hr14
  isplitl [Hr15]; · iexact Hr15
  isplitl [Hr16]; · iexact Hr16
  isplitl [Hr17]; · iexact Hr17
  isplitl [Hr18]; · iexact Hr18
  isplitl [Hr19]; · iexact Hr19
  isplitl [Hb0]; · iexact Hb0
  isplitl [Hb1]; · iexact Hb1
  isplitl [Hb2]; · iexact Hb2
  isplitl [Hb3]; · iexact Hb3
  isplitl [Hb4]; · iexact Hb4
  isplitl [Ho]; · iexact Ho
  isplitl [Hx0]; · iapply (of_stg c cc0_stg0_0 (xs0 m c)); iexact Hx0
  isplitl [Hx1]; · iapply (of_stg c cc0_stg1_0 (xs1 m c)); iexact Hx1
  isplitl [Hx2]; · iapply (of_stg c cc0_stg2_0 (xs2 m c)); iexact Hx2
  isplitl [Hx3]; · iapply (of_stg c cc0_stg3_0 (xs3 m c)); iexact Hx3
  isplitl [Hx4]; · iapply (of_stg c cc0_stg4_0 (xs4 m c)); iexact Hx4
  isplitl [Hx5]; · iapply (of_stg c cc0_stg5_0 X5); iexact Hx5
  isplitl [Hs0]; · iapply (of_stg c cc0_scratch0 A0); iexact Hs0
  isplitl [Hq0]; · iapply (src_out0 c S0); iexact Hq0
  isplitl [Hq1]; · iapply (src_out1 c S0); iexact Hq1
  isplitl [Hq2]; · iapply (src_out2 c S0); iexact Hq2
  isplitl [Hq3]; · iapply (src_out3 c S0); iexact Hq3
  iexact Hrest

set_option maxHeartbeats 1000000 in
set_option maxRecDepth 8000 in
/-- What the run leaves, put back together: the buffers rejoined, the copies' cells closed at zero. -/
theorem end_elim (K : Dev nD × Cell → ℕ) (c : Dev nD) :
    iprop(records m K ∗ bodyEnd m c) ⊢ |={Set.univ}=> bodyPost' m ρ c := by
  unfold bodyEnd
  iintro ⟨#Hrec, ⟨%W', Ho'⟩, Hy0, Hy1, Hy2, Hy3, Hy4, Hy5, ⟨%a, Ha⟩, Hu0, Hu1, Hu2, Hu3, Hv0, Hv1, Hv2, Hv3, Hv4, Hv5, Hv6, Hv7, Hv8, Hv9, Hv10, Hv11, Hv12, Hv13, Hv14, Hv15, Hv16, Hv17, Hv18, Hv19, Hrest', HpS, HpR⟩
  ihave Hs1' := (Bridge.join_snd_ex (F := F) c) $$ [Hu0 Hu1 Hu2 Hu3]
  · isplitl [Hu0]; · iexact Hu0
    isplitl [Hu1]; · iexact Hu1
    isplitl [Hu2] <;> iassumption
  ihave Hs2' := (Bridge.join_com_ex (F := F) c) $$ [Hv0 Hv1 Hv2 Hv3 Hv4 Hv5 Hv6 Hv7 Hv8 Hv9 Hv10 Hv11 Hv12 Hv13 Hv14 Hv15 Hv16 Hv17 Hv18 Hv19 Hrest']
  · isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    isplitl [Hv6]; · iexact Hv6
    isplitl [Hv7]; · iexact Hv7
    isplitl [Hv8]; · iexact Hv8
    isplitl [Hv9]; · iexact Hv9
    isplitl [Hv10]; · iexact Hv10
    isplitl [Hv11]; · iexact Hv11
    isplitl [Hv12]; · iexact Hv12
    isplitl [Hv13]; · iexact Hv13
    isplitl [Hv14]; · iexact Hv14
    isplitl [Hv15]; · iexact Hv15
    isplitl [Hv16]; · iexact Hv16
    isplitl [Hv17]; · iexact Hv17
    isplitl [Hv18]; · iexact Hv18
    isplitl [Hv19]; · iexact Hv19
    iexact Hrest'
  imod (Bridge.close_cells m K c) $$ [HpS HpR] with ⟨HzS, HzR⟩
  · isplitr; · iexact Hrec
    isplitl [HpS] <;> iassumption
  imodintro
  unfold bodyPost' Φ₁
  isplitl [Ha Hs1' Hs2' HzS HzR]
  · isplitl [Ha]
    · iexists a; iapply (to_stg c cc0_scratch0 a); iexact Ha
    isplitl [Hs1']; · iexact Hs1'
    isplitl [Hs2']; · iexact Hs2'
    isplitl [HzS] <;> iassumption
  isplitl [Ho']
  · iexists W'; isplitr; · ipureintro; exact fun _ _ => Or.inl trivial
    iexact Ho'
  isplitl [Hy0]; · iapply (to_stg c cc0_stg0_0 (xs0 m c)); iexact Hy0
  isplitl [Hy1]; · iapply (to_stg c cc0_stg1_0 (xs1 m c)); iexact Hy1
  isplitl [Hy2]; · iapply (to_stg c cc0_stg2_0 (xs2 m c)); iexact Hy2
  isplitl [Hy3]; · iapply (to_stg c cc0_stg3_0 (xs3 m c)); iexact Hy3
  isplitl [Hy4]; · iapply (to_stg c cc0_stg4_0 (xs4 m c)); iexact Hy4
  iapply (to_stg c cc0_stg5_0 (outAt m c)); iexact Hy5

set_option maxHeartbeats 1000000 in
set_option maxRecDepth 8000 in
/-- The obligation's precondition, at some names, waits and contents, is what the run starts from (and every cell's
    invariant and round-0 mark, kept for the end). -/
theorem pre_split (c : Dev nD) :
    bodyPre' m ρ c ⊢ iprop(∃ K : Dev nD × Cell → ℕ, ∃ W : Waits sig Unit, ∃ X5 : (cc0_stg5_0 : Ref sig .tc).ty.Contents (Elt F),
      ∃ A0 : (cc0_scratch0 : Ref sig .tc).ty.Contents (Elt F), ∃ S0 : (cc0_scratch1 : Ref sig .tc).ty.Contents (Elt F),
      ∃ C0 : (cc0_scratch2 : Ref sig .tc).ty.Contents (Elt F), bodyCtx m K c W X5 A0 S0 C0 ∗ records m K) := by
  unfold bodyPre' Φ₀ start ghost
  rw [creds20]
  simp only [before_0, before_1, before_2, before_3, before_4]
  iintro ⟨⟨⟨⟨%K, #Hrec, Hlin⟩, Hc5, HcN, #Hlev⟩, ⟨%A0, Hs0⟩, ⟨%S0, Hs1⟩, ⟨%C0, Hs2⟩⟩, ⟨%W, %hW, Ho⟩, ⟨%d0, Hx0⟩, ⟨%d1, Hx1⟩, ⟨%d2, Hx2⟩, ⟨%d3, Hx3⟩, ⟨%d4, Hx4⟩, ⟨%d5, Hx5⟩⟩
  iexists K, W, ((dats m ρ 0 c).before (5 : Fin 6) t0_0 d5), A0, S0, C0
  isplitl
  · iapply (ctx_intro m ρ K c W ((dats m ρ 0 c).before (5 : Fin 6) t0_0 d5) A0 S0 C0)
    isplitr; · iexact Hrec
    isplitl [Hlin]; · iexact Hlin
    isplitr; · iexact Hlev
    isplitl [Hc5]; · iexact Hc5
    isplitl [HcN]; · iexact HcN
    isplitl [Hs0]; · iexact Hs0
    isplitl [Hs1]; · iexact Hs1
    isplitl [Hs2]; · iexact Hs2
    isplitl [Ho]; · iexact Ho
    isplitl [Hx0]; · iexact Hx0
    isplitl [Hx1]; · iexact Hx1
    isplitl [Hx2]; · iexact Hx2
    isplitl [Hx3]; · iexact Hx3
    isplitl [Hx4]; · iexact Hx4
    iexact Hx5
  · iexact Hrec

/-- The body's run, as the statement the wrapper takes it by. -/
def SoundBody : Prop :=
  ∀ (K : Dev nD × Cell → ℕ) (c : Dev nD) (W : Waits sig Unit) (X5 : (cc0_stg5_0 : Ref sig .tc).ty.Contents (Elt F))
    (A0 : (cc0_scratch0 : Ref sig .tc).ty.Contents (Elt F)) (S0 : (cc0_scratch1 : Ref sig .tc).ty.Contents (Elt F))
    (C0 : (cc0_scratch2 : Ref sig .tc).ty.Contents (Elt F)) (Kt : PUnit → sProp 𝕄),
    iprop(bodyCtx m K c W X5 A0 S0 C0 ∗ (bodyEnd m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _) (Memref.whole cc0_stg2_0) (Memref.isWhole_whole _)
        (Memref.whole cc0_stg3_0) (Memref.isWhole_whole _) (Memref.whole cc0_stg4_0) (Memref.isWhole_whole _) (Memref.whole cc0_stg5_0) (Memref.isWhole_whole _)
        (Memref.whole cc0_scratch0) (Memref.isWhole_whole _) (Memref.whole cc0_scratch1) (Memref.isWhole_whole _) (Memref.whole cc0_scratch2) (Memref.isWhole_whole _) cc0_scratch3 cc0_scratch4) Kt

/-- The body from the obligation's precondition to its postcondition: the pieces, the run, the pieces put back (under an
    update, which the run's end absorbs). -/
theorem body_pre_post (hsb : SoundBody m) (c : Dev nD) :
    bodyPre' m ρ c ⊢ wp frame (wpE (defs₀ (F := F)) 𝒱₀ c none) Set.univ
      (cc0_body (Memref.whole cc0_stg0_0) (Memref.isWhole_whole _) (Memref.whole cc0_stg1_0) (Memref.isWhole_whole _) (Memref.whole cc0_stg2_0) (Memref.isWhole_whole _)
        (Memref.whole cc0_stg3_0) (Memref.isWhole_whole _) (Memref.whole cc0_stg4_0) (Memref.isWhole_whole _) (Memref.whole cc0_stg5_0) (Memref.isWhole_whole _)
        (Memref.whole cc0_scratch0) (Memref.isWhole_whole _) (Memref.whole cc0_scratch1) (Memref.isWhole_whole _) (Memref.whole cc0_scratch2) (Memref.isWhole_whole _) cc0_scratch3 cc0_scratch4) (fun _ => bodyPost' m ρ c) :=
  ((pre_split m ρ c).trans (exists_elim fun K => exists_elim fun W => exists_elim fun X5 => exists_elim fun A0 => exists_elim fun S0 => exists_elim fun C0 =>
    (sep_mono_right (wand_intro (end_elim m ρ K c))).trans
      (hsb K c W X5 A0 S0 C0 (fun _ => iprop(|={Set.univ}=> bodyPost' m ρ c))))).trans
    (wp_fupd frame (wpE (defs₀ (F := F)) 𝒱₀ c none) Set.univ _ (fun _ => bodyPost' m ρ c))

set_option maxHeartbeats 1000000 in
set_option maxRecDepth 8000 in
/-- The library's body obligation on device `c`. -/
theorem body_obligation (hsb : SoundBody m) (c : Dev nD) : BodyObligation (dats (F := F) m ρ 0 c) (defs₀ (F := F)) 𝒱₀ () Set.univ := fun t => by
  rw [fin_N0 t]
  rw [bigSep_W0, bigSep_W0]
  simp only [owns_whole]
  exact body_pre_post m ρ hsb c

/-- info: 'Cert.KernelIdeal.Body.body_obligation' depends on axioms: [propext, Classical.choice, Quot.sound] -/
#guard_msgs in #print axioms body_obligation

end Cert.KernelIdeal.Body

end
-- ==== Proof.KernelTerms.lean ====
/-
  The kernel's arithmetic, named. From its five staged input blocks a device computes its attention output (the
  projections, the scaled scores, the batch mask, the exponentials, the row sums, the weighted values divided by the
  row sums, heads laid side by side) and, per chunk of 128 output columns, the product of that output with the matching
  columns of its rows of the output matrix: the partial result the all-reduce then sums over the devices.
-/
import proofs.«900514_g7700000000000515_dist_attn_self_mha_htp_b2_sq128_skv128_d512_hq8_dh64_v7x_i16_bf16_1_alg».proof.Proof.Gen.Kernel.Skeleton

noncomputable section

namespace Cert.Kernel.Terms

open Cert.Kernel Cert.Kernel.Gen Idealize.ShloMosaic

variable {F : FTy → Type} [FloatOps F]

/-- The attention output `[256, 512]` of a device: from the activations `X0` and its blocks of the query, key and value
    projections `X1`, `X3`, `X4`. -/
def attn (X0 : Vec F S2x128x512 .f32) (X1 X3 X4 : Vec F S512x512 .f32) : FVec F S256x512 .bf16 :=
  k0_pay7 (k0_pay3 (k0_pay2 X0) X4) (k0_pay4 (k0_pay2 X0) X1 X3) k0_pay5 k0_pay6

/-- Chunk 0 of the device's partial result: the attention output times columns 0–127 of its rows `X2` of the output matrix. -/
def pa0 (X0 : Vec F S2x128x512 .f32) (X1 X2 X3 X4 : Vec F S512x512 .f32) : FVec F S256x128 .f32 := k0_pay9 (attn X0 X1 X3 X4) X2
/-- Chunk 1: columns 128–255. -/
def pa1 (X0 : Vec F S2x128x512 .f32) (X1 X2 X3 X4 : Vec F S512x512 .f32) : FVec F S256x128 .f32 := k0_pay12 (attn X0 X1 X3 X4) (k0_pay8 X2)
/-- Chunk 2: columns 256–383. -/
def pa2 (X0 : Vec F S2x128x512 .f32) (X1 X2 X3 X4 : Vec F S512x512 .f32) : FVec F S256x128 .f32 := k0_pay16 (attn X0 X1 X3 X4) (k0_pay8 X2)
/-- Chunk 3: columns 384–511. -/
def pa3 (X0 : Vec F S2x128x512 .f32) (X1 X2 X3 X4 : Vec F S512x512 .f32) : FVec F S256x128 .f32 := k0_pay19 (attn X0 X1 X3 X4) (k0_pay8 X2)

/-! ## The peers -/

/-- The five exchange partners of a device differ from it in the low two bits (by 1, 2, 3: its plane) or in bit 2 or bit 3. -/
def xorOf : Fin 5 → ℕ
  | 0 => 1 | 1 => 2 | 2 => 3 | 3 => 4 | 4 => 8

theorem xorOf_lt (i : Fin 5) : xorOf i < 2 ^ 4 := by revert i; decide

/-- Peer `i` of device `c`: `c` with the bits of `xorOf i` flipped. -/
def px (i : Fin 5) (c : Dev nD) : Dev nD := ⟨c.val ^^^ xorOf i, Nat.xor_lt_two_pow (n := 4) c.isLt (xorOf_lt i)⟩

theorem px_val (i : Fin 5) (c : Dev nD) : (px i c).val = c.val ^^^ xorOf i := rfl

/-- Flipping the same bits twice is the identity: each exchange is symmetric. -/
theorem px_px (i : Fin 5) (c : Dev nD) : px i (px i c) = c := by revert i c; decide

theorem px_ne (i : Fin 5) (c : Dev nD) : px i c ≠ c := by revert i c; decide

theorem px_inj (i j : Fin 5) (c : Dev nD) (h : px i c = px j c) : i = j := by revert i j c; decide

/-! ## One exchange step -/

/-- What a device adds when a partner's partial sum has landed in one of its receive slots: the slot read as a
    `[256, 128]` matrix, widened, added to the running sum. -/
def rcv (a : FVec F S256x128 .f32) (v : Vec F S1x1x1x256x128 .bf16) : FVec F S256x128 .f32 :=
  addf a (extf .f32 (shapeCast S256x128 v shapeCasts_S1x1x1x256x128_S256x128) bitsLt_bf16_f32)

theorem shapeCasts_S256x128_S1x1x1x256x128 : S256x128.ShapeCasts S1x1x1x256x128 := by decide

/-- What a receive slot holds once a partner's running sum `a` has landed in it: `a` narrowed, as the slot's five-axis block. -/
def wire (a : FVec F S256x128 .f32) : Vec F S1x1x1x256x128 .bf16 :=
  shapeCast S1x1x1x256x128 (truncf .bf16 a bitsLt_bf16_f32) shapeCasts_S256x128_S1x1x1x256x128

/-- The plane step: the three plane partners' sums added in the order of the slots. -/
def stepP (p : Dev nD → FVec F S256x128 .f32) (d : Dev nD) : FVec F S256x128 .f32 :=
  rcv (rcv (rcv (p d) (wire (p (px 0 d)))) (wire (p (px 1 d)))) (wire (p (px 2 d)))
/-- The two column steps. -/
def stepZ1 (p : Dev nD → FVec F S256x128 .f32) (d : Dev nD) : FVec F S256x128 .f32 := rcv (p d) (wire (p (px 3 d)))
def stepZ2 (p : Dev nD → FVec F S256x128 .f32) (d : Dev nD) : FVec F S256x128 .f32 := rcv (p d) (wire (p (px 4 d)))

/-- The three exchange steps of each chunk, in the chunk's own order. -/
def red0 (p : Dev nD → FVec F S256x128 .f32) : Dev nD → FVec F S256x128 .f32 := stepZ2 (stepZ1 (stepP p))
def red1 (p : Dev nD → FVec F S256x128 .f32) : Dev nD → FVec F S256x128 .f32 := stepP (stepZ2 (stepZ1 p))
def red2 (p : Dev nD → FVec F S256x128 .f32) : Dev nD → FVec F S256x128 .f32 := stepZ1 (stepP (stepZ2 p))
def red3 (p : Dev nD → FVec F S256x128 .f32) : Dev nD → FVec F S256x128 .f32 := stepZ1 (stepZ2 (stepP p))

end Cert.Kernel.Terms

end
-- ==== Proof.KernelSlots.lean ====
/-
  The twenty copies a device starts, as tables. Copy `s` belongs to an exchange step `slotK s` and a chunk `slotCh s`, is the
  step's copy number `slotJ s` and goes to partner `px (slotX s)`; the partner the kernel computes for it is that partner; its
  receive slot is the `[256,128]` block at `(slotK s, slotCh s, slotJ s)` of the `[3,4,3,256,128]` receive buffer.
-/
import proofs.«900514_g7700000000000515_dist_attn_self_mha_htp_b2_sq128_skv128_d512_hq8_dh64_v7x_i16_bf16_1_alg».proof.Proof.KernelTerms

noncomputable section

namespace Cert.Kernel.Proto

open Cert.Kernel Cert.Kernel.Gen Cert.Kernel.Terms

open Idealize.ShloMosaic

/-! ## The copies' `device_id` chains are the partners -/

theorem dev6_eq (c : Dev nD) : (⟨k0_dev6 c, k0_dev6_lt c⟩ : Dev nD) = px 0 c := Fin.ext (by revert c; decide +kernel)
theorem dev7_eq (c : Dev nD) : (⟨k0_dev7 c, k0_dev7_lt c⟩ : Dev nD) = px 1 c := Fin.ext (by revert c; decide +kernel)
theorem dev8_eq (c : Dev nD) : (⟨k0_dev8 c, k0_dev8_lt c⟩ : Dev nD) = px 2 c := Fin.ext (by revert c; decide +kernel)
theorem dev9_eq (c : Dev nD) : (⟨k0_dev9 c, k0_dev9_lt c⟩ : Dev nD) = px 3 c := Fin.ext (by revert c; decide +kernel)
theorem dev10_eq (c : Dev nD) : (⟨k0_dev10 c, k0_dev10_lt c⟩ : Dev nD) = px 4 c := Fin.ext (by revert c; decide +kernel)
theorem dev11_eq (c : Dev nD) : (⟨k0_dev11 c, k0_dev11_lt c⟩ : Dev nD) = px 0 c := Fin.ext (by revert c; decide +kernel)
theorem dev12_eq (c : Dev nD) : (⟨k0_dev12 c, k0_dev12_lt c⟩ : Dev nD) = px 1 c := Fin.ext (by revert c; decide +kernel)
theorem dev13_eq (c : Dev nD) : (⟨k0_dev13 c, k0_dev13_lt c⟩ : Dev nD) = px 2 c := Fin.ext (by revert c; decide +kernel)
theorem dev14_eq (c : Dev nD) : (⟨k0_dev14 c, k0_dev14_lt c⟩ : Dev nD) = px 3 c := Fin.ext (by revert c; decide +kernel)
theorem dev15_eq (c : Dev nD) : (⟨k0_dev15 c, k0_dev15_lt c⟩ : Dev nD) = px 4 c := Fin.ext (by revert c; decide +kernel)
theorem dev16_eq (c : Dev nD) : (⟨k0_dev16 c, k0_dev16_lt c⟩ : Dev nD) = px 0 c := Fin.ext (by revert c; decide +kernel)
theorem dev17_eq (c : Dev nD) : (⟨k0_dev17 c, k0_dev17_lt c⟩ : Dev nD) = px 1 c := Fin.ext (by revert c; decide +kernel)
theorem dev18_eq (c : Dev nD) : (⟨k0_dev18 c, k0_dev18_lt c⟩ : Dev nD) = px 2 c := Fin.ext (by revert c; decide +kernel)
theorem dev19_eq (c : Dev nD) : (⟨k0_dev19 c, k0_dev19_lt c⟩ : Dev nD) = px 4 c := Fin.ext (by revert c; decide +kernel)
theorem dev20_eq (c : Dev nD) : (⟨k0_dev20 c, k0_dev20_lt c⟩ : Dev nD) = px 4 c := Fin.ext (by revert c; decide +kernel)
theorem dev21_eq (c : Dev nD) : (⟨k0_dev21 c, k0_dev21_lt c⟩ : Dev nD) = px 0 c := Fin.ext (by revert c; decide +kernel)
theorem dev22_eq (c : Dev nD) : (⟨k0_dev22 c, k0_dev22_lt c⟩ : Dev nD) = px 1 c := Fin.ext (by revert c; decide +kernel)
theorem dev23_eq (c : Dev nD) : (⟨k0_dev23 c, k0_dev23_lt c⟩ : Dev nD) = px 2 c := Fin.ext (by revert c; decide +kernel)
theorem dev24_eq (c : Dev nD) : (⟨k0_dev24 c, k0_dev24_lt c⟩ : Dev nD) = px 3 c := Fin.ext (by revert c; decide +kernel)
theorem dev25_eq (c : Dev nD) : (⟨k0_dev25 c, k0_dev25_lt c⟩ : Dev nD) = px 3 c := Fin.ext (by revert c; decide +kernel)

/-! ## The twenty copies of a device, in the order it starts them -/

/-- The exchange step (0, 1, 2), the chunk, the partner's number within the step, and which of the five partners it is. -/
def slotK : Fin 20 → Fin 3 := ![0, 0, 0, 0, 0, 0, 0, 0, 1, 1, 1, 1, 1, 1, 2, 2, 2, 2, 2, 2]
def slotCh : Fin 20 → Fin 4 := ![0, 0, 0, 1, 2, 3, 3, 3, 0, 1, 2, 2, 2, 3, 0, 1, 1, 1, 2, 3]
def slotJ : Fin 20 → Fin 3 := ![0, 1, 2, 0, 0, 0, 1, 2, 0, 0, 0, 1, 2, 0, 0, 0, 1, 2, 0, 0]
def slotX : Fin 20 → Fin 5 := ![0, 1, 2, 3, 4, 0, 1, 2, 3, 4, 0, 1, 2, 4, 4, 0, 1, 2, 3, 3]

/-! ## The buffers and the receive slots -/

/-- The running sums (one `[256,128]` slice per chunk), the outgoing slices, the receive slots. -/
abbrev accM : Memref sig .tc .vmem S4x256x128 .f32 := Memref.whole cc0_scratch0
abbrev sndM : Memref sig .tc .vmem S4x256x128 .bf16 := Memref.whole cc0_scratch1
abbrev comM : Memref sig .tc .vmem S3x4x3x256x128 .bf16 := Memref.whole cc0_scratch2

/-- Copy `s`'s receive slot inside the `[3,4,3,256,128]` buffer. -/
def slotRect : Fin 20 → Rect S3x4x3x256x128
  | ⟨0, _⟩ => Rect.unit (s := S3x4x3x256x128) ![0, 0, 0, 0, 0] S1x1x1x256x128.size inb_S3x4x3x256x128_S1x1x1x256x128_0_0_0_0_0
  | ⟨1, _⟩ => Rect.unit (s := S3x4x3x256x128) ![0, 0, 1, 0, 0] S1x1x1x256x128.size inb_S3x4x3x256x128_S1x1x1x256x128_0_0_1_0_0
  | ⟨2, _⟩ => Rect.unit (s := S3x4x3x256x128) ![0, 0, 2, 0, 0] S1x1x1x256x128.size inb_S3x4x3x256x128_S1x1x1x256x128_0_0_2_0_0
  | ⟨3, _⟩ => Rect.unit (s := S3x4x3x256x128) ![0, 1, 0, 0, 0] S1x1x1x256x128.size inb_S3x4x3x256x128_S1x1x1x256x128_0_1_0_0_0
  | ⟨4, _⟩ => Rect.unit (s := S3x4x3x256x128) ![0, 2, 0, 0, 0] S1x1x1x256x128.size inb_S3x4x3x256x128_S1x1x1x256x128_0_2_0_0_0
  | ⟨5, _⟩ => Rect.unit (s := S3x4x3x256x128) ![0, 3, 0, 0, 0] S1x1x1x256x128.size inb_S3x4x3x256x128_S1x1x1x256x128_0_3_0_0_0
  | ⟨6, _⟩ => Rect.unit (s := S3x4x3x256x128) ![0, 3, 1, 0, 0] S1x1x1x256x128.size inb_S3x4x3x256x128_S1x1x1x256x128_0_3_1_0_0
  | ⟨7, _⟩ => Rect.unit (s := S3x4x3x256x128) ![0, 3, 2, 0, 0] S1x1x1x256x128.size inb_S3x4x3x256x128_S1x1x1x256x128_0_3_2_0_0
  | ⟨8, _⟩ => Rect.unit (s := S3x4x3x256x128) ![1, 0, 0, 0, 0] S1x1x1x256x128.size inb_S3x4x3x256x128_S1x1x1x256x128_1_0_0_0_0
  | ⟨9, _⟩ => Rect.unit (s := S3x4x3x256x128) ![1, 1, 0, 0, 0] S1x1x1x256x128.size inb_S3x4x3x256x128_S1x1x1x256x128_1_1_0_0_0
  | ⟨10, _⟩ => Rect.unit (s := S3x4x3x256x128) ![1, 2, 0, 0, 0] S1x1x1x256x128.size inb_S3x4x3x256x128_S1x1x1x256x128_1_2_0_0_0
  | ⟨11, _⟩ => Rect.unit (s := S3x4x3x256x128) ![1, 2, 1, 0, 0] S1x1x1x256x128.size inb_S3x4x3x256x128_S1x1x1x256x128_1_2_1_0_0
  | ⟨12, _⟩ => Rect.unit (s := S3x4x3x256x128) ![1, 2, 2, 0, 0] S1x1x1x256x128.size inb_S3x4x3x256x128_S1x1x1x256x128_1_2_2_0_0
  | ⟨13, _⟩ => Rect.unit (s := S3x4x3x256x128) ![1, 3, 0, 0, 0] S1x1x1x256x128.size inb_S3x4x3x256x128_S1x1x1x256x128_1_3_0_0_0
  | ⟨14, _⟩ => Rect.unit (s := S3x4x3x256x128) ![2, 0, 0, 0, 0] S1x1x1x256x128.size inb_S3x4x3x256x128_S1x1x1x256x128_2_0_0_0_0
  | ⟨15, _⟩ => Rect.unit (s := S3x4x3x256x128) ![2, 1, 0, 0, 0] S1x1x1x256x128.size inb_S3x4x3x256x128_S1x1x1x256x128_2_1_0_0_0
  | ⟨16, _⟩ => Rect.unit (s := S3x4x3x256x128) ![2, 1, 1, 0, 0] S1x1x1x256x128.size inb_S3x4x3x256x128_S1x1x1x256x128_2_1_1_0_0
  | ⟨17, _⟩ => Rect.unit (s := S3x4x3x256x128) ![2, 1, 2, 0, 0] S1x1x1x256x128.size inb_S3x4x3x256x128_S1x1x1x256x128_2_1_2_0_0
  | ⟨18, _⟩ => Rect.unit (s := S3x4x3x256x128) ![2, 2, 0, 0, 0] S1x1x1x256x128.size inb_S3x4x3x256x128_S1x1x1x256x128_2_2_0_0_0
  | ⟨19, _⟩ => Rect.unit (s := S3x4x3x256x128) ![2, 3, 0, 0, 0] S1x1x1x256x128.size inb_S3x4x3x256x128_S1x1x1x256x128_2_3_0_0_0
  | ⟨_ + 20, h⟩ => absurd h (Nat.not_lt.2 (Nat.le_add_left _ _))

/-- Copy `s`'s receive slot, as the `[256,128]` memref a copy writes. -/
def slotM : Fin 20 → Memref sig .tc .vmem S256x128 .bf16
  | ⟨0, _⟩ => (comM.slice (Rect.unit (s := S3x4x3x256x128) ![0, 0, 0, 0, 0] S1x1x1x256x128.size inb_S3x4x3x256x128_S1x1x1x256x128_0_0_0_0_0) (fun _ => rfl)).squeeze S256x128 squeezes_S1x1x1x256x128_S256x128
  | ⟨1, _⟩ => (comM.slice (Rect.unit (s := S3x4x3x256x128) ![0, 0, 1, 0, 0] S1x1x1x256x128.size inb_S3x4x3x256x128_S1x1x1x256x128_0_0_1_0_0) (fun _ => rfl)).squeeze S256x128 squeezes_S1x1x1x256x128_S256x128
  | ⟨2, _⟩ => (comM.slice (Rect.unit (s := S3x4x3x256x128) ![0, 0, 2, 0, 0] S1x1x1x256x128.size inb_S3x4x3x256x128_S1x1x1x256x128_0_0_2_0_0) (fun _ => rfl)).squeeze S256x128 squeezes_S1x1x1x256x128_S256x128
  | ⟨3, _⟩ => (comM.slice (Rect.unit (s := S3x4x3x256x128) ![0, 1, 0, 0, 0] S1x1x1x256x128.size inb_S3x4x3x256x128_S1x1x1x256x128_0_1_0_0_0) (fun _ => rfl)).squeeze S256x128 squeezes_S1x1x1x256x128_S256x128
  | ⟨4, _⟩ => (comM.slice (Rect.unit (s := S3x4x3x256x128) ![0, 2, 0, 0, 0] S1x1x1x256x128.size inb_S3x4x3x256x128_S1x1x1x256x128_0_2_0_0_0) (fun _ => rfl)).squeeze S256x128 squeezes_S1x1x1x256x128_S256x128
  | ⟨5, _⟩ => (comM.slice (Rect.unit (s := S3x4x3x256x128) ![0, 3, 0, 0, 0] S1x1x1x256x128.size inb_S3x4x3x256x128_S1x1x1x256x128_0_3_0_0_0) (fun _ => rfl)).squeeze S256x128 squeezes_S1x1x1x256x128_S256x128
  | ⟨6, _⟩ => (comM.slice (Rect.unit (s := S3x4x3x256x128) ![0, 3, 1, 0, 0] S1x1x1x256x128.size inb_S3x4x3x256x128_S1x1x1x256x128_0_3_1_0_0) (fun _ => rfl)).squeeze S256x128 squeezes_S1x1x1x256x128_S256x128
  | ⟨7, _⟩ => (comM.slice (Rect.unit (s := S3x4x3x256x128) ![0, 3, 2, 0, 0] S1x1x1x256x128.size inb_S3x4x3x256x128_S1x1x1x256x128_0_3_2_0_0) (fun _ => rfl)).squeeze S256x128 squeezes_S1x1x1x256x128_S256x128
  | ⟨8, _⟩ => (comM.slice (Rect.unit (s := S3x4x3x256x128) ![1, 0, 0, 0, 0] S1x1x1x256x128.size inb_S3x4x3x256x128_S1x1x1x256x128_1_0_0_0_0) (fun _ => rfl)).squeeze S256x128 squeezes_S1x1x1x256x128_S256x128
  | ⟨9, _⟩ => (comM.slice (Rect.unit (s := S3x4x3x256x128) ![1, 1, 0, 0, 0] S1x1x1x256x128.size inb_S3x4x3x256x128_S1x1x1x256x128_1_1_0_0_0) (fun _ => rfl)).squeeze S256x128 squeezes_S1x1x1x256x128_S256x128
  | ⟨10, _⟩ => (comM.slice (Rect.unit (s := S3x4x3x256x128) ![1, 2, 0, 0, 0] S1x1x1x256x128.size inb_S3x4x3x256x128_S1x1x1x256x128_1_2_0_0_0) (fun _ => rfl)).squeeze S256x128 squeezes_S1x1x1x256x128_S256x128
  | ⟨11, _⟩ => (comM.slice (Rect.unit (s := S3x4x3x256x128) ![1, 2, 1, 0, 0] S1x1x1x256x128.size inb_S3x4x3x256x128_S1x1x1x256x128_1_2_1_0_0) (fun _ => rfl)).squeeze S256x128 squeezes_S1x1x1x256x128_S256x128
  | ⟨12, _⟩ => (comM.slice (Rect.unit (s := S3x4x3x256x128) ![1, 2, 2, 0, 0] S1x1x1x256x128.size inb_S3x4x3x256x128_S1x1x1x256x128_1_2_2_0_0) (fun _ => rfl)).squeeze S256x128 squeezes_S1x1x1x256x128_S256x128
  | ⟨13, _⟩ => (comM.slice (Rect.unit (s := S3x4x3x256x128) ![1, 3, 0, 0, 0] S1x1x1x256x128.size inb_S3x4x3x256x128_S1x1x1x256x128_1_3_0_0_0) (fun _ => rfl)).squeeze S256x128 squeezes_S1x1x1x256x128_S256x128
  | ⟨14, _⟩ => (comM.slice (Rect.unit (s := S3x4x3x256x128) ![2, 0, 0, 0, 0] S1x1x1x256x128.size inb_S3x4x3x256x128_S1x1x1x256x128_2_0_0_0_0) (fun _ => rfl)).squeeze S256x128 squeezes_S1x1x1x256x128_S256x128
  | ⟨15, _⟩ => (comM.slice (Rect.unit (s := S3x4x3x256x128) ![2, 1, 0, 0, 0] S1x1x1x256x128.size inb_S3x4x3x256x128_S1x1x1x256x128_2_1_0_0_0) (fun _ => rfl)).squeeze S256x128 squeezes_S1x1x1x256x128_S256x128
  | ⟨16, _⟩ => (comM.slice (Rect.unit (s := S3x4x3x256x128) ![2, 1, 1, 0, 0] S1x1x1x256x128.size inb_S3x4x3x256x128_S1x1x1x256x128_2_1_1_0_0) (fun _ => rfl)).squeeze S256x128 squeezes_S1x1x1x256x128_S256x128
  | ⟨17, _⟩ => (comM.slice (Rect.unit (s := S3x4x3x256x128) ![2, 1, 2, 0, 0] S1x1x1x256x128.size inb_S3x4x3x256x128_S1x1x1x256x128_2_1_2_0_0) (fun _ => rfl)).squeeze S256x128 squeezes_S1x1x1x256x128_S256x128
  | ⟨18, _⟩ => (comM.slice (Rect.unit (s := S3x4x3x256x128) ![2, 2, 0, 0, 0] S1x1x1x256x128.size inb_S3x4x3x256x128_S1x1x1x256x128_2_2_0_0_0) (fun _ => rfl)).squeeze S256x128 squeezes_S1x1x1x256x128_S256x128
  | ⟨19, _⟩ => (comM.slice (Rect.unit (s := S3x4x3x256x128) ![2, 3, 0, 0, 0] S1x1x1x256x128.size inb_S3x4x3x256x128_S1x1x1x256x128_2_3_0_0_0) (fun _ => rfl)).squeeze S256x128 squeezes_S1x1x1x256x128_S256x128
  | ⟨_ + 20, h⟩ => absurd h (Nat.not_lt.2 (Nat.le_add_left _ _))

end Cert.Kernel.Proto

end
-- ==== Proof.KernelProto.lean ====
/-
  The exchange protocol of the kernel, as data: who the partners are, which semaphore and which receive slot serve
  which copy, and how much credit a copy carries.

  A device `c` has five partners `px i c` (its id with bits flipped: by 1, 2, 3 inside its plane of four, by 4 and by 8
  across planes). At entry it signals each partner's barrier semaphore once and waits for five units on its own: every
  partner that will ever write into it is then inside the kernel. Each of the four column chunks of the partial result is
  summed over the sixteen devices in three exchange steps (one over the plane, with three partners at once; two over a
  column pair), the order of the steps differing per chunk. A step's copy of chunk `ch` to partner number `j` uses its own
  pair of DMA semaphores and its own receive slot: twenty copies per device, the `slots`, listed in the order the kernel
  starts them.
-/
import proofs.«900514_g7700000000000515_dist_attn_self_mha_htp_b2_sq128_skv128_d512_hq8_dh64_v7x_i16_bf16_1_alg».proof.Proof.KernelTerms
import proofs.«900514_g7700000000000515_dist_attn_self_mha_htp_b2_sq128_skv128_d512_hq8_dh64_v7x_i16_bf16_1_alg».proof.Proof.KernelSlots
import proofs.«900514_g7700000000000515_dist_attn_self_mha_htp_b2_sq128_skv128_d512_hq8_dh64_v7x_i16_bf16_1_alg».proof.Proof.Gen.Kernel.Launch
import proofs.«900514_g7700000000000515_dist_attn_self_mha_htp_b2_sq128_skv128_d512_hq8_dh64_v7x_i16_bf16_1_alg».proof.Proof.Gen.Kernel.Points
import proofs.«900514_g7700000000000515_dist_attn_self_mha_htp_b2_sq128_skv128_d512_hq8_dh64_v7x_i16_bf16_1_alg».proof.Proof.Gen.Kernel.Frame
import Idealize.ShloMosaic.Lib.Pipeline.Launch
import Idealize.ShloMosaic.Lib.Pipeline.Kit
import Idealize.ShloMosaic.Lib.Tactic

noncomputable section

namespace Cert.Kernel.Proto

open Cert.Kernel Cert.Kernel.Gen Cert.Kernel.Terms

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's (duties `Fin 5`) -/

abbrev UB : Type := URounds (GSem nD τ sig) (Fin 5)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The kernel's `device_id` chains are the partners -/

theorem dev1_eq (c : Dev nD) : (⟨k0_dev1 c, k0_dev1_lt c⟩ : Dev nD) = px 0 c := Fin.ext (by revert c; decide +kernel)
theorem dev2_eq (c : Dev nD) : (⟨k0_dev2 c, k0_dev2_lt c⟩ : Dev nD) = px 1 c := Fin.ext (by revert c; decide +kernel)
theorem dev3_eq (c : Dev nD) : (⟨k0_dev3 c, k0_dev3_lt c⟩ : Dev nD) = px 2 c := Fin.ext (by revert c; decide +kernel)
theorem dev4_eq (c : Dev nD) : (⟨k0_dev4 c, k0_dev4_lt c⟩ : Dev nD) = px 3 c := Fin.ext (by revert c; decide +kernel)
theorem dev5_eq (c : Dev nD) : (⟨k0_dev5 c, k0_dev5_lt c⟩ : Dev nD) = px 4 c := Fin.ext (by revert c; decide +kernel)

/-! ## The twenty copies of a device, in the order it starts them -/

/-- The position of a copy's semaphores in the two `3 × 4 × 3` semaphore arrays. -/
def semIx (s : Fin 20) : ℕ := (slotK s).val * 12 + (slotCh s).val * 3 + (slotJ s).val
theorem semIx_lt (s : Fin 20) : semIx s < 36 := by revert s; decide

/-- The semaphore a copy's source side completes on (the sender's own) and the one its landing completes on (the receiver's). -/
def sendSem (s : Fin 20) : DmaSem sig := ⟨6 + semIx s, by have := semIx_lt s; show 6 + semIx s < 78; omega⟩
def recvSem (s : Fin 20) : DmaSem sig := ⟨42 + semIx s, by have := semIx_lt s; show 42 + semIx s < 78; omega⟩

/-- The runtime's barrier semaphore of collective id 0. -/
abbrev barS : Sem sig := (SemArray.scalar (sig.barrier 0 rfl) : Sems sig S_).sem

abbrev barCell (c : Dev nD) : GSem nD τ sig := ((c : Thread nD τ), .reg barS)
abbrev sendCell (c : Dev nD) (s : Fin 20) : GSem nD τ sig := ((c : Thread nD τ), .dma (sendSem s))
abbrev recvCell (c : Dev nD) (s : Fin 20) : GSem nD τ sig := ((c : Thread nD τ), .dma (recvSem s))

theorem sendSem_inj : Function.Injective sendSem := by decide
theorem recvSem_inj : Function.Injective recvSem := by decide
theorem sendSem_ne_recvSem (s t : Fin 20) : sendSem s ≠ recvSem t := by revert s t; decide

/-! ## The buffers -/

/-- Chunk `ch`'s slice of a `[4,256,128]` buffer. -/
def chRect : Fin 4 → Rect S4x256x128
  | 0 => Rect.unit (s := S4x256x128) ![0, 0, 0] S1x256x128.size inb_S4x256x128_S1x256x128_0_0_0
  | 1 => Rect.unit (s := S4x256x128) ![1, 0, 0] S1x256x128.size inb_S4x256x128_S1x256x128_1_0_0
  | 2 => Rect.unit (s := S4x256x128) ![2, 0, 0] S1x256x128.size inb_S4x256x128_S1x256x128_2_0_0
  | 3 => Rect.unit (s := S4x256x128) ![3, 0, 0] S1x256x128.size inb_S4x256x128_S1x256x128_3_0_0

theorem chRect_stride (ch : Fin 4) : ∀ a, (chRect ch).stride a = 1 := by
  intro a; fin_cases ch <;> rfl
theorem chRect_shape (ch : Fin 4) : (chRect ch).shape = S1x256x128 := by fin_cases ch <;> rfl

theorem slotRect_stride (s : Fin 20) : ∀ a, (slotRect s).stride a = 1 := by
  intro a; fin_cases s <;> rfl
theorem slotRect_shape (s : Fin 20) : (slotRect s).shape = S1x1x1x256x128 := by fin_cases s <;> rfl

/-- Chunk `ch`'s outgoing slice, as the `[256,128]` memref a copy reads. -/
def srcM : Fin 4 → Memref sig .tc .vmem S256x128 .bf16
  | 0 => (sndM.slice (Rect.unit (s := S4x256x128) ![0, 0, 0] S1x256x128.size inb_S4x256x128_S1x256x128_0_0_0) (fun _ => rfl)).squeeze S256x128 squeezes_S1x256x128_S256x128
  | 1 => (sndM.slice (Rect.unit (s := S4x256x128) ![1, 0, 0] S1x256x128.size inb_S4x256x128_S1x256x128_1_0_0) (fun _ => rfl)).squeeze S256x128 squeezes_S1x256x128_S256x128
  | 2 => (sndM.slice (Rect.unit (s := S4x256x128) ![2, 0, 0] S1x256x128.size inb_S4x256x128_S1x256x128_2_0_0) (fun _ => rfl)).squeeze S256x128 squeezes_S1x256x128_S256x128
  | 3 => (sndM.slice (Rect.unit (s := S4x256x128) ![3, 0, 0] S1x256x128.size inb_S4x256x128_S1x256x128_3_0_0) (fun _ => rfl)).squeeze S256x128 squeezes_S1x256x128_S256x128

/-- The credit one copy of a `[256,128]` bf16 slice carries. -/
abbrev N : ℕ := (slotM 0).view.dmaCredit
theorem N_pos : 0 < N := View.dmaCredit_pos _ (by decide)
theorem amount_slot (s : Fin 20) (q : DmaSem sig) : (slotM s).view.amount (.dma q) = N := by fin_cases s <;> rfl

/-! ## What the buffers hold -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- Device `d`'s five staged inputs: the activations and its blocks of the query, output, key and value matrices. -/
def xs0 (d : Dev nD) : (cc0_stg0_0 : Ref sig .tc).ty.Contents (Elt F) := (win0_0.blk (0 : Fin 1)).view.read (Elt F) (m ((d : Thread nD τ).loc main_arg0))
def xs1 (d : Dev nD) : (cc0_stg1_0 : Ref sig .tc).ty.Contents (Elt F) := (win0_1.blk (0 : Fin 1)).view.read (Elt F) (m ((d : Thread nD τ).loc main_arg1))
def xs2 (d : Dev nD) : (cc0_stg2_0 : Ref sig .tc).ty.Contents (Elt F) := (win0_2.blk (0 : Fin 1)).view.read (Elt F) (m ((d : Thread nD τ).loc main_arg2))
def xs3 (d : Dev nD) : (cc0_stg3_0 : Ref sig .tc).ty.Contents (Elt F) := (win0_3.blk (0 : Fin 1)).view.read (Elt F) (m ((d : Thread nD τ).loc main_arg3))
def xs4 (d : Dev nD) : (cc0_stg4_0 : Ref sig .tc).ty.Contents (Elt F) := (win0_4.blk (0 : Fin 1)).view.read (Elt F) (m ((d : Thread nD τ).loc main_arg4))

/-- Device `d`'s own partial result for chunk `ch`. -/
def part0 (ch : Fin 4) (d : Dev nD) : FVec F S256x128 .f32 :=
  match ch with
  | 0 => pa0 (xs0 m d) (xs1 m d) (xs2 m d) (xs3 m d) (xs4 m d)
  | 1 => pa1 (xs0 m d) (xs1 m d) (xs2 m d) (xs3 m d) (xs4 m d)
  | 2 => pa2 (xs0 m d) (xs1 m d) (xs2 m d) (xs3 m d) (xs4 m d)
  | 3 => pa3 (xs0 m d) (xs1 m d) (xs2 m d) (xs3 m d) (xs4 m d)

/-- The running sum of chunk `ch` on device `d` after `k` exchange steps (the chunk's own order of steps). -/
def run : Fin 4 → ℕ → Dev nD → FVec F S256x128 .f32
  | 0, 0 => part0 m 0 | 0, 1 => stepP (part0 m 0) | 0, 2 => stepZ1 (stepP (part0 m 0)) | 0, _ + 3 => red0 (part0 m 0)
  | 1, 0 => part0 m 1 | 1, 1 => stepZ1 (part0 m 1) | 1, 2 => stepZ2 (stepZ1 (part0 m 1)) | 1, _ + 3 => red1 (part0 m 1)
  | 2, 0 => part0 m 2 | 2, 1 => stepZ2 (part0 m 2) | 2, 2 => stepP (stepZ2 (part0 m 2)) | 2, _ + 3 => red2 (part0 m 2)
  | 3, 0 => part0 m 3 | 3, 1 => stepP (part0 m 3) | 3, 2 => stepZ2 (stepP (part0 m 3)) | 3, _ + 3 => red3 (part0 m 3)

/-- What copy `s` carries from device `d`: its running sum of the copy's chunk before the copy's step, narrowed. -/
def sent (s : Fin 20) (d : Dev nD) : FVec F S256x128 .bf16 := truncf .bf16 (run m (slotCh s) (slotK s).val d) bitsLt_bf16_f32

/-! ## The schedule -/

/-- Device `p`'s receive slot of copy `s`, at contents `f`. -/
def slotPts (p : Dev nD) (s : Fin 20) (f : Buf (Elt F) ((slotM s).view.loc (p : Thread nD τ))) : sProp 𝕄 :=
  (slotM s).view.loc (p : Thread nD τ) ↦[(slotM s).view.set]{fullShare} f
/-- Device `p`'s outgoing slice of chunk `ch`, at share `q` and contents `f`. -/
def srcPts (p : Dev nD) (ch : Fin 4) (q : PosShare TreeShare) (f : Buf (Elt F) ((srcM ch).view.loc (p : Thread nD τ))) : sProp 𝕄 :=
  (srcM ch).view.loc (p : Thread nD τ) ↦[(srcM ch).view.set]{q} f

/-- The share of its source a copy borrows: all of it when the step has one partner, a third part when it has three. -/
def slotShare (s : Fin 20) : PosShare TreeShare :=
  if slotX s = 3 ∨ slotX s = 4 then fullShare
  else if slotJ s = 0 then fullShare.left else if slotJ s = 1 then fullShare.right.left else fullShare.right.right

/-- What a partner hands over with its entry signal: one of its receive slots, and that the slot's cell is open. -/
def give (p : Dev nD) (s : Fin 20) : sProp 𝕄 := iprop((∃ f, slotPts p s f) ∗ reached ER (recvCell p s) 0)

/-- The four copies that go to partner number `i`. -/
def slotsOf : Fin 5 → Fin 4 → Fin 20
  | 0 => ![0, 5, 10, 15] | 1 => ![1, 6, 11, 16] | 2 => ![2, 7, 12, 17] | 3 => ![3, 8, 18, 19] | 4 => ![4, 9, 13, 14]

theorem slotX_slotsOf (i : Fin 5) (t : Fin 4) : slotX (slotsOf i t) = i := by revert i t; decide

/-- The entry signal of partner `p` to the device it calls partner `i`: the four slots of `p` that device will write. -/
def barPay (i : Fin 5) (p : Dev nD) : sProp 𝕄 :=
  iprop(give p (slotsOf i 0) ∗ give p (slotsOf i 1) ∗ give p (slotsOf i 2) ∗ give p (slotsOf i 3))

/-- Some contents of a buffer (what lies outside a slot is of no account). -/
def junk (p : Dev nD) (s : Fin 20) : Buf (Elt F) ((slotM s).view.loc (p : Thread nD τ)) := fun _ => Classical.arbitrary _

/-- A slot holding what the sender's copy carried. -/
def landed (c : Dev nD) (s : Fin 20) : Buf (Elt F) ((slotM s).view.loc (c : Thread nD τ)) :=
  (slotM s).view.write (Elt F) (junk c s) (sent m s (px (slotX s) c)) Finset.univ

/-- A landing: the slot, holding what the sender's copy carried. -/
def recvPay (c : Dev nD) (s : Fin 20) : sProp 𝕄 := slotPts c s (landed m c s)
/-- A departure: the borrowed share of the outgoing slice, back. -/
def sendPay (c : Dev nD) (s : Fin 20) : sProp 𝕄 := iprop(∃ f, srcPts c (slotCh s) (slotShare s) f)

/-- Which copy a DMA semaphore serves, if any: as a sender's or as a receiver's. -/
def sendSlot? (q : DmaSem sig) : Option (Fin 20) := (List.finRange 20).find? (fun s => sendSem s = q)
def recvSlot? (q : DmaSem sig) : Option (Fin 20) := (List.finRange 20).find? (fun s => recvSem s = q)

theorem sendSlot?_sendSem (s : Fin 20) : sendSlot? (sendSem s) = some s := by revert s; decide
theorem recvSlot?_recvSem (s : Fin 20) : recvSlot? (recvSem s) = some s := by revert s; decide
theorem sendSlot?_recvSem (s : Fin 20) : sendSlot? (recvSem s) = none := by revert s; decide
theorem recvSlot?_sendSem (s : Fin 20) : recvSlot? (sendSem s) = none := by revert s; decide

/-- One round. A barrier cell: five duties of one unit, duty `i` paid by partner `i`'s entry signal. A copy's send cell
    and receive cell: one duty of the copy's credit each. -/
def sched : Rounds.Schedule (GSem nD τ sig) (Fin 5) 𝕄 where
  duties g r :=
    if r = 0 ∧ g.1.2 = .tc then
      match g.2 with
      | .reg b => if b = barS then Finset.univ else ∅
      | .dma q => if (sendSlot? q).isSome ∨ (recvSlot? q).isSome then {0} else ∅
    else ∅
  unitless _ := False
  amount g _ _ := match g.2 with | .reg _ => 1 | .dma _ => N
  payload g _ d :=
    match g.2 with
    | .reg _ => barPay d (px d g.1.1)
    | .dma q =>
      match sendSlot? q with
      | some s => sendPay g.1.1 s
      | none => match recvSlot? q with
        | some s => recvPay m g.1.1 s
        | none => iprop(emp)
  amount_pos g _ _ _ := by
    cases g.2 with
    | reg _ => exact Nat.one_pos
    | dma _ => exact N_pos

instance give_storable (p : Dev nD) (s : Fin 20) : BI.Storable (upEmb : UEmb _ 𝕄) (give (F := F) p s) := by
  unfold give slotPts; infer_instance
instance barPay_storable (i : Fin 5) (p : Dev nD) : BI.Storable (upEmb : UEmb _ 𝕄) (barPay (F := F) i p) := by
  unfold barPay; infer_instance
instance recvPay_storable (c : Dev nD) (s : Fin 20) : BI.Storable (upEmb : UEmb _ 𝕄) (recvPay m c s) := by
  unfold recvPay slotPts; infer_instance
instance sendPay_storable (c : Dev nD) (s : Fin 20) : BI.Storable (upEmb : UEmb _ 𝕄) (sendPay (F := F) c s) := by
  unfold sendPay srcPts; infer_instance

instance sched_payload_storable (g : GSem nD τ sig) (r : ℕ) (d : Fin 5) :
    BI.Storable (upEmb : UEmb _ 𝕄) ((sched m).payload g r d) := by
  show BI.Storable upEmb (match g.2 with
    | .reg _ => barPay d (px d g.1.1)
    | .dma q => match sendSlot? q with
      | some s => sendPay g.1.1 s
      | none => match recvSlot? q with
        | some s => recvPay m g.1.1 s
        | none => iprop(emp))
  (repeat' split) <;> infer_instance

/-! ### The tables, cell by cell -/

section Tables
variable (c : Dev nD) (s : Fin 20)

theorem duties_bar : (sched m).duties (barCell c) 0 = Finset.univ := by
  dsimp only [sched]; rw [if_pos ⟨rfl, rfl⟩]; exact if_pos rfl
theorem duties_send : (sched m).duties (sendCell c s) 0 = {0} := by
  dsimp only [sched]; rw [if_pos ⟨rfl, rfl⟩]; exact if_pos (Or.inl (by rw [sendSlot?_sendSem]; rfl))
theorem duties_recv : (sched m).duties (recvCell c s) 0 = {0} := by
  dsimp only [sched]; rw [if_pos ⟨rfl, rfl⟩]; exact if_pos (Or.inr (by rw [recvSlot?_recvSem]; rfl))
theorem duties_later (g : GSem nD τ sig) : ∀ r, 1 ≤ r → (sched m).duties g r = ∅ :=
  fun r hr => by dsimp only [sched]; rw [if_neg fun h => by omega]

theorem amount_bar (d : Fin 5) : (sched m).amount (barCell c) 0 d = 1 := rfl
theorem amount_send (d : Fin 5) : (sched m).amount (sendCell c s) 0 d = N := rfl
theorem amount_recv (d : Fin 5) : (sched m).amount (recvCell c s) 0 d = N := rfl

theorem expect_bar : (sched m).expect (barCell c) 0 = 5 := by
  unfold Schedule.expect Schedule.amountOf
  rw [duties_bar, Finset.sum_congr rfl fun d _ => amount_bar m c d, Finset.sum_const, Finset.card_univ, Fintype.card_fin, smul_eq_mul]
theorem expect_send : (sched m).expect (sendCell c s) 0 = N := by
  unfold Schedule.expect Schedule.amountOf; rw [duties_send, Finset.sum_singleton, amount_send]
theorem expect_recv : (sched m).expect (recvCell c s) 0 = N := by
  unfold Schedule.expect Schedule.amountOf; rw [duties_recv, Finset.sum_singleton, amount_recv]

theorem payload_bar (d : Fin 5) : (sched m).payload (barCell c) 0 d = barPay d (px d c) := rfl
theorem payload_send (d : Fin 5) : (sched m).payload (sendCell c s) 0 d = sendPay c s := by
  dsimp only [sched]; rw [sendSlot?_sendSem]
theorem payload_recv (d : Fin 5) : (sched m).payload (recvCell c s) 0 d = recvPay m c s := by
  dsimp only [sched]; rw [sendSlot?_recvSem, recvSlot?_recvSem]

/-- What device `c` hands partner `px i c` with its entry signal: its own four slots that partner writes. -/
theorem payload_bar_peer (i : Fin 5) : (sched m).payload (barCell (px i c)) 0 i = barPay i c := by
  rw [payload_bar, px_px]

theorem rest_send : bigSep ((sched m).duties (sendCell c s) 0 \ ∅) (fun d => (sched m).payload (sendCell c s) 0 d) = sendPay c s := by
  rw [Finset.sdiff_empty, duties_send, bigSep_singleton, payload_send]
theorem rest_recv : bigSep ((sched m).duties (recvCell c s) 0 \ ∅) (fun d => (sched m).payload (recvCell c s) 0 d) = recvPay m c s := by
  rw [Finset.sdiff_empty, duties_recv, bigSep_singleton, payload_recv]
theorem rest_bar : bigSep ((sched m).duties (barCell c) 0 \ ∅) (fun d => (sched m).payload (barCell c) 0 d)
    = iprop(barPay 0 (px 0 c) ∗ barPay 1 (px 1 c) ∗ barPay 2 (px 2 c) ∗ barPay 3 (px 3 c) ∗ barPay 4 (px 4 c)) := by
  rw [Finset.sdiff_empty, duties_bar, bigSep_univ_eq_bigSepL [0, 1, 2, 3, 4] (by decide) (by decide)]
  rfl

end Tables

/-! ## Levels: a wait's cell lies below everything the waiter still owes -/

def L (g : GSem nD τ sig) : Finset Unit := if g.1.2 = .tc then {()} else ∅
/-- Staging cells 0; barrier cells 1; send cells 2; the receive cell of step `k`, chunk `ch` at `10 + 4k + ch`: the order
    in which a device's receive waits come, so that what it still owes (copies of later steps and chunks) lies above. -/
def lv (g : GSem nD τ sig) (_ : Unit) : ℕ :=
  match g.2 with
  | .reg _ => 1
  | .dma q => match recvSlot? q with
    | some s => 10 + (slotK s).val * 4 + (slotCh s).val
    | none => if (sendSlot? q).isSome then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_send (c : Dev nD) (s : Fin 20) : lv (sendCell c s) () = 2 := by
  dsimp only [lv]; rw [recvSlot?_sendSem, sendSlot?_sendSem]; rfl
theorem lv_recv (c : Dev nD) (s : Fin 20) : lv (recvCell c s) () = 10 + (slotK s).val * 4 + (slotCh s).val := by
  dsimp only [lv]; rw [recvSlot?_recvSem]

/-! ## What a device owes, in the order it pays -/

/-- A chain of dues, the first to be paid last in the sum: each payment peels the outermost summand. -/
def owedL : List (CellTallies nD τ sig Unit) → CellTallies nD τ sig Unit
  | [] => 0
  | p :: ps => owedL ps + p

theorem owedL_cons (p : CellTallies nD τ sig Unit) (ps : List (CellTallies nD τ sig Unit)) : owedL (p :: ps) = owedL ps + p := rfl

/-- The entry signal to partner `i`, and copy `s`'s landing at its receiver. -/
def sigDue (c : Dev nD) (i : Fin 5) : CellTallies nD τ sig Unit := tallyAt (barCell (px i c)) () 1
def copyDue (c : Dev nD) (s : Fin 20) : CellTallies nD τ sig Unit := tallyAt (recvCell (px (slotX s) c) s) () N

/-- The copies from number `n` on, in the order they are started. -/
def copyDues (c : Dev nD) (n : ℕ) : List (CellTallies nD τ sig Unit) := ((List.finRange 20).drop n).map (copyDue c)
/-- Everything device `c` owes at launch: five entry signals, then twenty landings. -/
def O₀ (c : Dev nD) : CellTallies nD τ sig Unit := owedL ((List.finRange 5).map (sigDue c) ++ copyDues c 0)

/-- A positive entry of a chain of dues is a positive entry of one of them. -/
theorem owedL_pos {l : List (CellTallies nD τ sig Unit)} {g : GSem nD τ sig} {u : Unit} (h : 0 < owedL l g u) : ∃ p ∈ l, 0 < p g u := by
  induction l with
  | nil => exact absurd h (Nat.lt_irrefl 0)
  | cons p ps ih =>
    rcases Pipeline.add_pos_cases (D₁ := owedL ps) (D₂ := p) h with h1 | h2
    · obtain ⟨q, hq, hq'⟩ := ih h1; exact ⟨q, List.mem_cons_of_mem _ hq, hq'⟩
    · exact ⟨p, List.mem_cons_self, h2⟩

end Cert.Kernel.Proto

end
-- ==== Proof.KernelGhost.lean ====
/-
  The exchange protocol's ghost state: which invariants, positions, round marks and duty tokens a device's body starts
  from. Every cell's invariant and round-0 mark is persistent and shared by all devices; a device alone holds its position
  in each of its 41 cells and the tokens of the duties it pays (its entry signals, its copies' departures and landings).
-/
import proofs.«900514_g7700000000000515_dist_attn_self_mha_htp_b2_sq128_skv128_d512_hq8_dh64_v7x_i16_bf16_1_alg».proof.Proof.KernelProto

noncomputable section

namespace Cert.Kernel.Proto

open Cert.Kernel Cert.Kernel.Gen Cert.Kernel.Terms

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A device's cells: its barrier cell, and per copy its send cell and its receive cell. -/
abbrev Cell : Type := Unit ⊕ (Fin 20 ⊕ Fin 20)
/-- The kernel's own (scoped) semaphores in use: per copy, the sender's and the receiver's. -/
abbrev osem : Fin 20 ⊕ Fin 20 → SemLoc sig := fun | .inl s => .dma (sendSem s) | .inr s => .dma (recvSem s)
abbrev csem : Cell → SemLoc sig | .inl _ => .reg barS | .inr k => osem k
abbrev kcell (ck : Dev nD × Cell) : GSem nD τ sig := ((ck.1 : Thread nD τ), csem ck.2)

theorem bigSep_cell (Φ : Cell → sProp 𝕄) : bigSep Finset.univ Φ
    = iprop(Φ (.inl ()) ∗ (bigSep Finset.univ fun s : Fin 20 => Φ (.inr (.inl s))) ∗ bigSep Finset.univ fun s : Fin 20 => Φ (.inr (.inr s))) := by
  rw [bigSep_univ_sum, bigSep_univ_of_subsingleton (), bigSep_univ_sum]; rfl

/-- Every cell's invariant, at the names the launch allocated, and that every cell is open at round 0: persistent, the
    same for all devices. -/
def records (K : Dev nD × Cell → ℕ) : sProp 𝕄 :=
  iprop((bigSep Finset.univ fun ck : Dev nD × Cell => cellInv ER (sched m) (K ck) (kcell ck))
    ∗ bigSep Finset.univ fun ck : Dev nD × Cell => reached ER (kcell ck) 0)

instance records_persistent (K : Dev nD × Cell → ℕ) : BI.Persistent (records m K) := by unfold records; infer_instance

theorem inv_at (K : Dev nD × Cell → ℕ) (ck : Dev nD × Cell) : records m K ⊢ cellInv ER (sched m) (K ck) (kcell ck) := by
  have h : (bigSep Finset.univ fun ck : Dev nD × Cell => (cellInv ER (sched m) (K ck) (kcell ck) : sProp 𝕄)) ⊢ cellInv ER (sched m) (K ck) (kcell ck) :=
    bigSep_elim (Finset.mem_univ ck)
  unfold records; iintro ⟨HI, -⟩; iapply h; iexact HI
theorem reached_at (K : Dev nD × Cell → ℕ) (ck : Dev nD × Cell) : records m K ⊢ reached ER (kcell ck) 0 := by
  have h : (bigSep Finset.univ fun ck : Dev nD × Cell => (reached ER (kcell ck) 0 : sProp 𝕄)) ⊢ reached ER (kcell ck) 0 :=
    bigSep_elim (Finset.mem_univ ck)
  unfold records; iintro ⟨-, HR⟩; iapply h; iexact HR

/-- The tokens device `c` pays with: its entry signals' (one per partner), its copies' landings' (at the receivers), its
    copies' departures' (its own send cells). -/
def payToks (c : Dev nD) : sProp 𝕄 :=
  iprop((bigSep Finset.univ fun i : Fin 5 => dutyTok ER (barCell (px i c)) 0 i)
    ∗ (bigSep Finset.univ fun s : Fin 20 => dutyTok ER (recvCell (px (slotX s) c) s) 0 0)
    ∗ (bigSep Finset.univ fun s : Fin 20 => dutyTok ER (sendCell c s) 0 0))
/-- What is device `c`'s alone: its position in each of its 41 cells, and those tokens. -/
def linear (c : Dev nD) : sProp 𝕄 := iprop((bigSep Finset.univ fun k : Cell => atPos ER (kcell (c, k)) 0 ∅ 0) ∗ payToks c)

def ghost (K : Dev nD × Cell → ℕ) (c : Dev nD) : sProp 𝕄 := iprop(records m K ∗ linear c)

/-- What device `c`'s body starts from: the ghost state at some names, the credit the launch dealt it (five units on its
    barrier cell, a copy's credit on each receive cell), and the levels. -/
def start (c : Dev nD) : sProp 𝕄 :=
  iprop((∃ K, ghost m K c) ∗ cred (tallyAt (barCell c) () 5) ∗ (bigSep Finset.univ fun s : Fin 20 => cred (tallyAt (recvCell c s) () N)) ∗ levAts L lv)

end Cert.Kernel.Proto

end
-- ==== Proof.KernelOut.lean ====
/-
  The result buffer after the kernel's four chunk stores, for any element values.

  The kernel stores four `[2, 128, 128]` payloads into its `[2, 128, 512]` result buffer, at columns 0, 128, 256 and 384, each
  through a unit-stride rectangle with a full mask. Entry `(b, i, n)` of the payload stored at column `off` lands at
  `(b, i, off + n)` and every entry outside those 128 columns is kept; the four column blocks tile the 512 columns, so
  after the four stores the buffer holds the four payloads side by side, whatever it held before.
-/
import proofs.«900514_g7700000000000515_dist_attn_self_mha_htp_b2_sq128_skv128_d512_hq8_dh64_v7x_i16_bf16_1_alg».proof.Kernel
import Idealize.ShloMosaic.Lib.ValueIdx

noncomputable section

namespace Cert.Kernel.Out

open Cert.Kernel Idealize.ShloMosaic Idealize.ShloMosaic.ValueIdx

variable (Val : EltTy → Type)

/-- The result's staging buffer, whole. -/
abbrev oM : Memref sig .tc .vmem S2x128x512 .f32 := Memref.whole cc0_stg5_0

/-- The rectangle of 128 columns from column `off`, all rows of both batches. -/
abbrev chunkRect (off : Nat) (inb : ∀ a, (![0, 0, off] : Fin 3 → Nat) a + S2x128x128.size a ≤ S2x128x512.size a) : Rect S2x128x512 :=
  Rect.unit (s := S2x128x512) ![0, 0, off] S2x128x128.size inb

/-- Entry `(b, i, n)` of the chunk at column `off` is entry `(b, i, off + n)` of the buffer. -/
theorem emb_chunk (off : Nat) (inb : ∀ a, (![0, 0, off] : Fin 3 → Nat) a + S2x128x128.size a ≤ S2x128x512.size a)
    (b : Fin 2) (i : Fin 128) (n : Fin 128) (hq : off + n.val < 512) :
    (oM.access (chunkRect off inb)).emb (ix3 b i n) = ix3 b i (⟨off + n.val, hq⟩ : Fin 512) := by
  funext a
  apply Fin.ext
  match a with
  | ⟨0, _⟩ => show 0 + 1 * b.val = b.val; omega
  | ⟨1, _⟩ => show 0 + 1 * i.val = i.val; omega
  | ⟨2, _⟩ => show off + 1 * n.val = off + n.val; omega

/-- A store of the chunk at column `off` puts the payload's entry `(b, i, n)` at `(b, i, off + n)`, -/
theorem chunk_hit (off : Nat) (inb : ∀ a, (![0, 0, off] : Fin 3 → Nat) a + S2x128x128.size a ≤ S2x128x512.size a)
    (f : S2x128x512.Idx → Val .f32) (w : S2x128x128.Idx → Val .f32)
    (b : Fin 2) (i : Fin 128) (n : Fin 128) (hq : off + n.val < 512) :
    (oM.access (chunkRect off inb)).write Val f w Finset.univ (ix3 b i (⟨off + n.val, hq⟩ : Fin 512)) = w (ix3 b i n) := by
  rw [← emb_chunk off inb b i n hq, View.write_emb_of_mem _ _ (Finset.mem_univ _)]
  rfl

/-- and leaves every entry outside those 128 columns as it was. -/
theorem chunk_miss (off : Nat) (inb : ∀ a, (![0, 0, off] : Fin 3 → Nat) a + S2x128x128.size a ≤ S2x128x512.size a)
    (f : S2x128x512.Idx → Val .f32) (w : S2x128x128.Idx → Val .f32)
    (b : Fin 2) (i : Fin 128) (q : Fin 512) (h : q.val < off ∨ off + 128 ≤ q.val) :
    (oM.access (chunkRect off inb)).write Val f w Finset.univ (ix3 b i q) = f (ix3 b i q) := by
  unfold View.write
  rw [preimage?_eq_none]
  intro x hx
  have h2 : ((oM.access (chunkRect off inb)).emb x (2 : Fin 3)).val = ((ix3 b i q : S2x128x512.Idx) (2 : Fin 3)).val := by rw [hx]
  have hx2 : (x (2 : Fin 3)).val < 128 := (x (2 : Fin 3)).isLt
  have e2 : ((oM.access (chunkRect off inb)).emb x (2 : Fin 3)).val = off + 1 * (x (2 : Fin 3)).val := rfl
  have e3 : ((ix3 b i q : S2x128x512.Idx) (2 : Fin 3)).val = q.val := rfl
  rw [e2, e3] at h2
  omega

/-- The buffer after the four chunk stores, in the kernel's order (columns 0, 128, 256, 384), each with a full mask. -/
abbrev stored (inb0 : ∀ a, (![0, 0, 0] : Fin 3 → Nat) a + S2x128x128.size a ≤ S2x128x512.size a)
    (inb1 : ∀ a, (![0, 0, 128] : Fin 3 → Nat) a + S2x128x128.size a ≤ S2x128x512.size a)
    (inb2 : ∀ a, (![0, 0, 256] : Fin 3 → Nat) a + S2x128x128.size a ≤ S2x128x512.size a)
    (inb3 : ∀ a, (![0, 0, 384] : Fin 3 → Nat) a + S2x128x128.size a ≤ S2x128x512.size a)
    (f0 : S2x128x512.Idx → Val .f32) (v0 v1 v2 v3 : S2x128x128.Idx → Val .f32) : S2x128x512.Idx → Val .f32 :=
  (oM.access (Rect.unit (s := S2x128x512) ![0, 0, 384] S2x128x128.size inb3)).write Val
    ((oM.access (Rect.unit (s := S2x128x512) ![0, 0, 256] S2x128x128.size inb2)).write Val
      ((oM.access (Rect.unit (s := S2x128x512) ![0, 0, 128] S2x128x128.size inb1)).write Val
        ((oM.access (Rect.unit (s := S2x128x512) ![0, 0, 0] S2x128x128.size inb0)).write Val f0 v0 Finset.univ)
        v1 Finset.univ)
      v2 Finset.univ)
    v3 Finset.univ

section Stored
variable (inb0 : ∀ a, (![0, 0, 0] : Fin 3 → Nat) a + S2x128x128.size a ≤ S2x128x512.size a)
    (inb1 : ∀ a, (![0, 0, 128] : Fin 3 → Nat) a + S2x128x128.size a ≤ S2x128x512.size a)
    (inb2 : ∀ a, (![0, 0, 256] : Fin 3 → Nat) a + S2x128x128.size a ≤ S2x128x512.size a)
    (inb3 : ∀ a, (![0, 0, 384] : Fin 3 → Nat) a + S2x128x128.size a ≤ S2x128x512.size a)
    (f0 : S2x128x512.Idx → Val .f32) (v0 v1 v2 v3 : S2x128x128.Idx → Val .f32)
    (b : Fin 2) (i : Fin 128) (n : Fin 128)

/-- Columns 0–127 of the buffer hold the first payload, -/
theorem stored_chunk0 : stored Val inb0 inb1 inb2 inb3 f0 v0 v1 v2 v3 (ix3 b i (⟨n.val, by omega⟩ : Fin 512)) = v0 (ix3 b i n) := by
  unfold stored
  rw [chunk_miss Val 384 inb3 _ v3 b i _ (Or.inl (by show n.val < 384; omega)),
    chunk_miss Val 256 inb2 _ v2 b i _ (Or.inl (by show n.val < 256; omega)),
    chunk_miss Val 128 inb1 _ v1 b i _ (Or.inl (by show n.val < 128; omega))]
  exact (congrArg _ (congrArg (ix3 b i) (Fin.ext (Nat.zero_add n.val).symm))).trans (chunk_hit Val 0 inb0 f0 v0 b i n (by omega))

/-- columns 128–255 the second, -/
theorem stored_chunk1 : stored Val inb0 inb1 inb2 inb3 f0 v0 v1 v2 v3 (ix3 b i (⟨128 + n.val, by omega⟩ : Fin 512)) = v1 (ix3 b i n) := by
  unfold stored
  rw [chunk_miss Val 384 inb3 _ v3 b i _ (Or.inl (by show 128 + n.val < 384; omega)),
    chunk_miss Val 256 inb2 _ v2 b i _ (Or.inl (by show 128 + n.val < 256; omega))]
  exact chunk_hit Val 128 inb1 _ v1 b i n (by omega)

/-- columns 256–383 the third, -/
theorem stored_chunk2 : stored Val inb0 inb1 inb2 inb3 f0 v0 v1 v2 v3 (ix3 b i (⟨256 + n.val, by omega⟩ : Fin 512)) = v2 (ix3 b i n) := by
  unfold stored
  rw [chunk_miss Val 384 inb3 _ v3 b i _ (Or.inl (by show 256 + n.val < 384; omega))]
  exact chunk_hit Val 256 inb2 _ v2 b i n (by omega)

/-- columns 384–511 the fourth. -/
theorem stored_chunk3 : stored Val inb0 inb1 inb2 inb3 f0 v0 v1 v2 v3 (ix3 b i (⟨384 + n.val, by omega⟩ : Fin 512)) = v3 (ix3 b i n) := by
  unfold stored
  exact chunk_hit Val 384 inb3 _ v3 b i n (by omega)

end Stored

/-- Every column of the buffer lies in one of the four chunks. -/
theorem col_cases (q : Fin 512) :
    (∃ n : Fin 128, q = (⟨n.val, by omega⟩ : Fin 512)) ∨ (∃ n : Fin 128, q = (⟨128 + n.val, by omega⟩ : Fin 512))
      ∨ (∃ n : Fin 128, q = (⟨256 + n.val, by omega⟩ : Fin 512)) ∨ (∃ n : Fin 128, q = (⟨384 + n.val, by omega⟩ : Fin 512)) := by
  have hq := q.isLt
  rcases (by omega : q.val < 128 ∨ (128 ≤ q.val ∧ q.val < 256) ∨ (256 ≤ q.val ∧ q.val < 384) ∨ 384 ≤ q.val) with h | h | h | h
  · exact Or.inl ⟨⟨q.val, h⟩, rfl⟩
  · exact Or.inr (Or.inl ⟨⟨q.val - 128, by omega⟩, Fin.ext (by show q.val = 128 + (q.val - 128); omega)⟩)
  · exact Or.inr (Or.inr (Or.inl ⟨⟨q.val - 256, by omega⟩, Fin.ext (by show q.val = 256 + (q.val - 256); omega)⟩))
  · exact Or.inr (Or.inr (Or.inr ⟨⟨q.val - 384, by omega⟩, Fin.ext (by show q.val = 384 + (q.val - 384); omega)⟩))

/-- After the four stores the buffer does not depend on what it held before. -/
theorem stored_indep (inb0 : ∀ a, (![0, 0, 0] : Fin 3 → Nat) a + S2x128x128.size a ≤ S2x128x512.size a)
    (inb1 : ∀ a, (![0, 0, 128] : Fin 3 → Nat) a + S2x128x128.size a ≤ S2x128x512.size a)
    (inb2 : ∀ a, (![0, 0, 256] : Fin 3 → Nat) a + S2x128x128.size a ≤ S2x128x512.size a)
    (inb3 : ∀ a, (![0, 0, 384] : Fin 3 → Nat) a + S2x128x128.size a ≤ S2x128x512.size a)
    (f0 f0' : S2x128x512.Idx → Val .f32) (v0 v1 v2 v3 : S2x128x128.Idx → Val .f32) :
    stored Val inb0 inb1 inb2 inb3 f0 v0 v1 v2 v3 = stored Val inb0 inb1 inb2 inb3 f0' v0 v1 v2 v3 := by
  funext j
  obtain ⟨b, i, q, rfl⟩ : ∃ (b : Fin 2) (i : Fin 128) (q : Fin 512), j = ix3 b i q := ⟨j 0, j 1, j 2, eq_ix3 j⟩
  rcases col_cases q with ⟨n, rfl⟩ | ⟨n, rfl⟩ | ⟨n, rfl⟩ | ⟨n, rfl⟩
  · rw [stored_chunk0, stored_chunk0]
  · rw [stored_chunk1, stored_chunk1]
  · rw [stored_chunk2, stored_chunk2]
  · rw [stored_chunk3, stored_chunk3]

/-- info: 'Cert.Kernel.Out.stored_indep' depends on axioms: [propext, Classical.choice, Quot.sound] -/
#guard_msgs in #print axioms stored_indep
/-- info: 'Cert.Kernel.Out.stored_chunk0' depends on axioms: [propext, Classical.choice, Quot.sound] -/
#guard_msgs in #print axioms stored_chunk0

end Cert.Kernel.Out

end
-- ==== Proof.KernelData.lean ====
/-
  The pipeline's proof data for one device: what its staging buffers hold after the body (the inputs as they were; the
  result buffer the four chunks' sums over all devices, each in its block of 128 columns), the invariant before the body
  (the ghost state, the launch's credit, the three scratch buffers at whatever they hold) and after it (the scratch buffers
  again and the copies' semaphores back at zero), and what the device owes before (its entry signals and its copies'
  landings) and after (nothing).
-/
import proofs.«900514_g7700000000000515_dist_attn_self_mha_htp_b2_sq128_skv128_d512_hq8_dh64_v7x_i16_bf16_1_alg».proof.Proof.KernelGhost
import proofs.«900514_g7700000000000515_dist_attn_self_mha_htp_b2_sq128_skv128_d512_hq8_dh64_v7x_i16_bf16_1_alg».proof.Proof.KernelOut

noncomputable section

namespace Cert.Kernel.Proto

open Cert.Kernel Cert.Kernel.Gen Cert.Kernel.Terms

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The result buffer after the body: chunk `ch`'s sum over all sixteen devices, as a `[2,128,128]` block, in columns
    `128·ch …`; the four blocks cover the buffer, so what it held before does not matter. -/
def outAt (c : Dev nD) : (cc0_stg5_0 : Ref sig .tc).ty.Contents (Elt F) :=
  Out.stored (Elt F) inb_S2x128x512_S2x128x128_0_0_0 inb_S2x128x512_S2x128x128_0_0_128 inb_S2x128x512_S2x128x128_0_0_256 inb_S2x128x512_S2x128x128_0_0_384
    (constant S2x128x512 .f32 0x00000000#32 : FVec F S2x128x512 .f32)
    (shapeCast S2x128x128 (run m 0 3 c) shapeCasts_S256x128_S2x128x128) (shapeCast S2x128x128 (run m 1 3 c) shapeCasts_S256x128_S2x128x128)
    (shapeCast S2x128x128 (run m 2 3 c) shapeCasts_S256x128_S2x128x128) (shapeCast S2x128x128 (run m 3 3 c) shapeCasts_S256x128_S2x128x128)

/-- Before the body: the ghost state and the launch's credit, and the three scratch buffers at some contents. -/
def Φ₀ (c : Dev nD) : sProp 𝕄 :=
  iprop(start m c ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))
/-- After the body: the scratch buffers at some contents, and the copies' semaphores, closed, at zero. -/
def Φ₁ (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (bigSep Finset.univ fun s : Fin 20 => semVal (sendCell c s) 0) ∗ (bigSep Finset.univ fun s : Fin 20 => semVal (recvCell c s) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs0 m c
    | ⟨1, _⟩ => xs1 m c
    | ⟨2, _⟩ => xs2 m c
    | ⟨3, _⟩ => xs3 m c
    | ⟨4, _⟩ => xs4 m c
    | ⟨5, _⟩ => outAt m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

end Cert.Kernel.Proto

end
-- ==== Proof.KernelLaunch.lean ====
/-
  The launch of the kernel on its sixteen devices: from "each device's body is proved" to the run of @main.

  The exchange's ghost state is funded in one element beside the pipeline's: per device its 41 cells (the barrier cell and,
  per copy, a send and a receive cell) with their round state, positions and round-0 marks, and a token for every
  (cell, duty number) pair — those of duty numbers a cell does not have are never used. The global step turns every cell's
  counter at zero and round state into the cell's invariant, names the invariants, and deals each token to the device that
  pays the duty: the barrier cell's duty `i` of device `c` to its partner `px i c`, the landing of copy `s` at `c` to the
  sender `px (slotX s) c` (each partner map is an involution, so each dealing is a reindexing of one family), a copy's
  departure to the device itself. What all devices owe a cell at launch is its launch credit: five units on a barrier cell
  (one from each partner), one copy's credit on a receive cell (from the one sender). A device's staging waits sit at level 0,
  below the barrier cells (1) and the receive cells (10 and up) it owes.
-/
import proofs.«900514_g7700000000000515_dist_attn_self_mha_htp_b2_sq128_skv128_d512_hq8_dh64_v7x_i16_bf16_1_alg».proof.Proof.KernelTerms
import proofs.«900514_g7700000000000515_dist_attn_self_mha_htp_b2_sq128_skv128_d512_hq8_dh64_v7x_i16_bf16_1_alg».proof.Proof.KernelProto
import proofs.«900514_g7700000000000515_dist_attn_self_mha_htp_b2_sq128_skv128_d512_hq8_dh64_v7x_i16_bf16_1_alg».proof.Proof.KernelGhost
import proofs.«900514_g7700000000000515_dist_attn_self_mha_htp_b2_sq128_skv128_d512_hq8_dh64_v7x_i16_bf16_1_alg».proof.Proof.KernelData
import proofs.«900514_g7700000000000515_dist_attn_self_mha_htp_b2_sq128_skv128_d512_hq8_dh64_v7x_i16_bf16_1_alg».proof.Proof.Gen.Kernel
import proofs.«900514_g7700000000000515_dist_attn_self_mha_htp_b2_sq128_skv128_d512_hq8_dh64_v7x_i16_bf16_1_alg».proof.Proof.Gen.Kernel.Skeleton
import proofs.«900514_g7700000000000515_dist_attn_self_mha_htp_b2_sq128_skv128_d512_hq8_dh64_v7x_i16_bf16_1_alg».proof.Proof.Gen.Kernel.Launch
import proofs.«900514_g7700000000000515_dist_attn_self_mha_htp_b2_sq128_skv128_d512_hq8_dh64_v7x_i16_bf16_1_alg».proof.Proof.Gen.Kernel.Points
import proofs.«900514_g7700000000000515_dist_attn_self_mha_htp_b2_sq128_skv128_d512_hq8_dh64_v7x_i16_bf16_1_alg».proof.Proof.Gen.Kernel.Frame
import Idealize.ShloMosaic.Lib.Pipeline.Launch
import Idealize.ShloMosaic.Lib.Pipeline.Kit
import Idealize.ShloMosaic.Lib.Tactic

noncomputable section

namespace Cert.Kernel.Launch

open Cert.Kernel Cert.Kernel.Gen Cert.Kernel.Terms

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.Kernel.Proto

local notation "𝕄" => MT nD τ sig Unit (Elt F) ℕ UU ℕ

variable (m : (ℓ : Loc nD τ sig) → Buf (Elt F) ℓ) (ρ : Dev nD → PrngReg)

/-! ## The cells, enumerated -/

theorem csem_injective : Function.Injective csem := by decide

theorem kcell_injective : Function.Injective (kcell : Dev nD × Cell → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def ringCells : Finset (GSem nD τ sig) := Finset.univ.map ⟨kcell, kcell_injective⟩

abbrev tokOf (x : Dev nD × Cell × Fin 5) : GSem nD τ sig × ℕ × Fin 5 := (kcell (x.1, x.2.1), 0, x.2.2)
theorem tokOf_injective : Function.Injective tokOf := by
  rintro ⟨c, k, d⟩ ⟨c', k', d'⟩ h
  have h1 := kcell_injective (congrArg Prod.fst h)
  have h2 : d = d' := congrArg (fun x : GSem nD τ sig × ℕ × Fin 5 => x.2.2) h
  cases h1; cases h2; rfl
def ringToks : Finset (GSem nD τ sig × ℕ × Fin 5) := Finset.univ.map ⟨tokOf, tokOf_injective⟩

/-! ## The launch element and what it funds -/

def u₀ : UU :=
  (initOf (Pipeline.cells cfgs cellOf_inj) (Pipeline.launchToks cfgs cellOf_inj), initOf ringCells ringToks)

/-- The duty tokens of device `c`'s own cells, as minted: one per (cell, duty number), whether the cell has that duty or not. -/
def toks (c : Dev nD) : sProp 𝕄 :=
  bigSep Finset.univ fun kd : Cell × Fin 5 => dutyTok ER (kcell (c, kd.1)) 0 kd.2

/-- What the launch element deals device `c`. -/
def G (c : Dev nD) : sProp 𝕄 :=
  iprop((bigSep Finset.univ fun k : Cell => roundState ER (sched m) (kcell (c, k)) 0)
    ∗ (bigSep Finset.univ fun k : Cell => iprop(atPos ER (kcell (c, k)) 0 ∅ 0 ∗ reached ER (kcell (c, k)) 0)) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Cell => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero -/

theorem ownSemFacts : Pipeline.OwnSemFacts cfg0.spec osem := by decide

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Cell => semVal (kcell (c, k)) 0 : sProp 𝕄) := by
  have e : (bigSep Finset.univ fun k : Cell => semVal (kcell (c, k)) 0 : sProp 𝕄)
      = iprop(semVal (barCell c) 0 ∗ Pipeline.ownSems0 (Ix := Unit) (Name := ℕ) (U := UU) (Lvl := ℕ) (Val := Elt F) (τ := τ) osem c) := by
    rw [bigSep_univ_sum, bigSep_univ_of_subsingleton ()]; rfl
  rw [e, unscopedSems0_eq]
  iintro ⟨HS, HB⟩
  isplitl [HB] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Cell => iprop(∃ κ : ℕ, cellInv ER (sched m) κ (kcell (c, k))))
          ∗ (bigSep Finset.univ fun k : Cell => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Cell => semVal (kcell (c, k)) 0) ∗ bigSep Finset.univ fun k : Cell => roundState ER (sched m) (kcell (c, k)) 0)
      ⊢ (|={Set.univ}=> bigSep Finset.univ fun k : Cell => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The global step: every cell's invariant named, the tokens dealt to their payers -/

def pxE : Dev nD × Fin 5 ≃ Dev nD × Fin 5 :=
  ⟨fun x => (px x.2 x.1, x.2), fun x => (px x.2 x.1, x.2), fun x => Prod.ext (px_px _ _) rfl, fun x => Prod.ext (px_px _ _) rfl⟩
def sxE : Dev nD × Fin 20 ≃ Dev nD × Fin 20 :=
  ⟨fun x => (px (slotX x.2) x.1, x.2), fun x => (px (slotX x.2) x.1, x.2), fun x => Prod.ext (px_px _ _) rfl, fun x => Prod.ext (px_px _ _) rfl⟩

theorem tok0 (g : GSem nD τ sig) : (bigSep Finset.univ fun d : Fin 5 => (dutyTok ER g 0 d : sProp 𝕄)) ⊢ dutyTok ER g 0 0 :=
  bigSep_elim (Finset.mem_univ (0 : Fin 5))
theorem toks0 (Φ : Fin 20 → GSem nD τ sig) :
    (bigSep Finset.univ fun s : Fin 20 => bigSep Finset.univ fun d : Fin 5 => (dutyTok ER (Φ s) 0 d : sProp 𝕄))
      ⊢ bigSep Finset.univ fun s : Fin 20 => (dutyTok ER (Φ s) 0 0 : sProp 𝕄) :=
  bigSep_mono fun s _ => tok0 (Φ s)
theorem toks_split (c : Dev nD) : (toks c : sProp 𝕄)
    ⊢ iprop((bigSep Finset.univ fun i : Fin 5 => dutyTok ER (barCell c) 0 i)
        ∗ (bigSep Finset.univ fun s : Fin 20 => dutyTok ER (recvCell c s) 0 0)
        ∗ (bigSep Finset.univ fun s : Fin 20 => dutyTok ER (sendCell c s) 0 0)) := by
  unfold toks
  rw [bigSep_univ_prod, bigSep_cell]
  iintro ⟨HB, HS, HV⟩
  isplitl [HB]; · iexact HB
  isplitl [HV]
  · iapply (toks0 (F := F) fun s => recvCell c s); iexact HV
  · iapply (toks0 (F := F) fun s => sendCell c s); iexact HS

/-- Each token to its payer. -/
theorem toks_around : (bigSep Finset.univ fun c : Dev nD => (toks c : sProp 𝕄)) ⊢ bigSep Finset.univ fun c : Dev nD => payToks c := by
  refine (bigSep_mono fun c _ => toks_split c).trans ?_
  unfold payToks
  rw [bigSep_sep', bigSep_sep', bigSep_sep', bigSep_sep',
    ← bigSep_univ_prod (fun x : Dev nD × Fin 5 => (dutyTok ER (barCell x.1) 0 x.2 : sProp 𝕄)),
    ← bigSep_univ_prod (fun x : Dev nD × Fin 5 => (dutyTok ER (barCell (px x.2 x.1)) 0 x.2 : sProp 𝕄)),
    ← bigSep_univ_prod (fun x : Dev nD × Fin 20 => (dutyTok ER (recvCell x.1 x.2) 0 0 : sProp 𝕄)),
    ← bigSep_univ_prod (fun x : Dev nD × Fin 20 => (dutyTok ER (recvCell (px (slotX x.2) x.1) x.2) 0 0 : sProp 𝕄)),
    bigSep_univ_equiv pxE (fun x : Dev nD × Fin 5 => (dutyTok ER (barCell x.1) 0 x.2 : sProp 𝕄)),
    bigSep_univ_equiv sxE (fun x : Dev nD × Fin 20 => (dutyTok ER (recvCell x.1 x.2) 0 0 : sProp 𝕄))]
  exact BI.Entails.refl _

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup (G' : Dev nD → sProp 𝕄) (ghost_intro : ∀ (K : Dev nD × Cell → ℕ) (c : Dev nD), iprop(records m K ∗ linear c) ⊢ G' c) :
    (bigSep Finset.univ fun c : Dev nD => iprop((bigSep Finset.univ fun k : Cell => iprop(∃ κ : ℕ, cellInv ER (sched m) κ (kcell (c, k))))
          ∗ (bigSep Finset.univ fun k : Cell => iprop(atPos ER (kcell (c, k)) 0 ∅ 0 ∗ reached ER (kcell (c, k)) 0)) ∗ toks c) : sProp 𝕄)
      ⊢ bigSep Finset.univ G' := by
  rw [bigSep_sep', bigSep_sep', ← bigSep_univ_prod (fun ck : Dev nD × Cell => iprop(∃ κ : ℕ, cellInv ER (sched m) κ (kcell ck))),
    bigSep_congr (s := Finset.univ) (fun (c : Dev nD) _ => bigSep_sep' Finset.univ (fun k : Cell => (atPos ER (kcell (c, k)) 0 ∅ 0 : sProp 𝕄)) (fun k => reached ER (kcell (c, k)) 0)),
    bigSep_sep', ← bigSep_univ_prod (fun ck : Dev nD × Cell => (reached ER (kcell ck) 0 : sProp 𝕄))]
  iintro ⟨HI, ⟨Hat, #HR⟩, Htok⟩
  ihave HK := (BI.bigSep_exists_pi Finset.univ (fun (ck : Dev nD × Cell) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro K c)
  isplitr
  · unfold records; isplitl; · iexact HI
    iexact HR
  · iapply (Entails.of_eq (bigSep_sep' Finset.univ (fun c : Dev nD => bigSep Finset.univ fun k : Cell => (atPos ER (kcell (c, k)) 0 ∅ 0 : sProp 𝕄)) payToks).symm)
    isplitl [Hat]; · iexact Hat
    iexact Htk

/-! ### The launch credit -/

theorem owedL_apply (l : List (CellTallies nD τ sig Unit)) (g : GSem nD τ sig) (u : Unit) :
    owedL l g u = (l.map fun p => p g u).sum := by
  induction l with
  | nil => rfl
  | cons p ps ih => rw [owedL_cons, Pi.add_apply, Finsupp.add_apply, ih, List.map_cons, List.sum_cons, Nat.add_comm]

theorem O₀_apply (d : Dev nD) (g : GSem nD τ sig) :
    O₀ d g () = (∑ i : Fin 5, sigDue d i g ()) + ∑ s : Fin 20, copyDue d s g () := by
  unfold O₀ copyDues
  rw [owedL_apply, List.drop_zero, List.map_append, List.sum_append, List.map_map, List.map_map, Fin.sum_univ_def, Fin.sum_univ_def]
  rfl

theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} {s t : Fin 20} : Iff (recvCell a s = recvCell b t) (a = b ∧ s = t) :=
  ⟨fun h => ⟨Fin.ext (congrArg (fun g : GSem nD τ sig => g.1.1.val) h),
      recvSem_inj (by have := congrArg Prod.snd h; exact SemLoc.dma.inj this)⟩, fun h => by rw [h.1, h.2]⟩
theorem recv_ne_bar (a b : Dev nD) (s : Fin 20) : recvCell a s ≠ barCell b := fun h => by cases congrArg Prod.snd h

theorem px_eq_iff (i : Fin 5) (d c : Dev nD) : Iff (px i d = c) (d = px i c) :=
  ⟨fun h => by rw [← h, px_px], fun h => by rw [h, px_px]⟩

/-- What device `d` owes device `c`'s barrier cell: a unit for each partner number under which `c` is `d`'s partner. -/
theorem owed_bar (d c : Dev nD) : O₀ d (barCell c) () = ∑ i : Fin 5, if d = px i c then 1 else 0 := by
  rw [O₀_apply, Finset.sum_eq_zero (s := Finset.univ) (f := fun s : Fin 20 => copyDue d s (barCell c) ()) fun s _ => by
    unfold copyDue; rw [tallyAt_ne_cell (fun h => recv_ne_bar _ _ _ h.symm)]; rfl, Nat.add_zero]
  refine Finset.sum_congr rfl fun i _ => ?_
  unfold sigDue; rw [tallyAt_apply]
  by_cases h : d = px i c
  · rw [if_pos h, if_pos ⟨by rw [h, px_px], rfl⟩]
  · rw [if_neg h, if_neg fun h' => h ((px_eq_iff i d c).mp (bar_eq_iff.mp h'.1).symm)]

theorem owed_recv (d c : Dev nD) (s : Fin 20) : O₀ d (recvCell c s) () = if d = px (slotX s) c then N else 0 := by
  rw [O₀_apply, Finset.sum_eq_zero (s := Finset.univ) (f := fun i : Fin 5 => sigDue d i (recvCell c s) ()) fun i _ => by
    unfold sigDue; rw [tallyAt_ne_cell (recv_ne_bar _ _ _)]; rfl, Nat.zero_add,
    Finset.sum_eq_single s (fun t _ hts => by
      unfold copyDue; rw [tallyAt_ne_cell fun h => hts (recv_eq_iff.mp h).2.symm]; rfl) (fun h => absurd (Finset.mem_univ s) h)]
  unfold copyDue; rw [tallyAt_apply]
  by_cases h : d = px (slotX s) c
  · rw [if_pos h, if_pos ⟨by rw [h, px_px], rfl⟩]
  · rw [if_neg h, if_neg fun h' => h ((px_eq_iff _ d c).mp (recv_eq_iff.mp h'.1).1.symm)]

theorem launch_of (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

theorem launch_bar (c : Dev nD) :
    tallyOn (barCell c) (launchCredit (Pipeline.owing O₀) 0 (barCell c)) = (tallyAt (barCell c) () 5 : CellTallies nD τ sig Unit) :=
  launch_of _ 5 (by
    rw [Finset.sum_congr rfl fun d _ => owed_bar d c, Finset.sum_comm,
      Finset.sum_congr rfl fun i _ => Finset.sum_ite_eq' Finset.univ (px i c) fun _ => 1]
    simp only [Finset.mem_univ, if_true, Finset.sum_const, Finset.card_univ, Fintype.card_fin, smul_eq_mul])

theorem launch_recv (c : Dev nD) (s : Fin 20) :
    tallyOn (recvCell c s) (launchCredit (Pipeline.owing O₀) 0 (recvCell c s)) = (tallyAt (recvCell c s) () N : CellTallies nD τ sig Unit) :=
  launch_of _ N (by
    rw [Finset.sum_congr rfl fun d _ => owed_recv d c s, Finset.sum_ite_eq' Finset.univ (px (slotX s) c) fun _ => N, if_pos (Finset.mem_univ _)])

/-- The barrier semaphore and the receive semaphores among all semaphores. -/
def credSem : Unit ⊕ Fin 20 ↪ SemLoc sig :=
  ⟨fun | .inl _ => .reg barS | .inr s => .dma (recvSem s), fun a b h => by
    have := csem_injective (a₁ := Sum.map id Sum.inr a) (a₂ := Sum.map id Sum.inr b) (by cases a <;> cases b <;> exact h)
    cases a <;> cases b <;> simp_all⟩

/-- The launch credit of device `c`: five units on its barrier cell, a copy's credit on each of its receive cells. -/
theorem creds (c : Dev nD) :
    (Pipeline.launchCred O₀ c : sProp 𝕄) ⊢ iprop(cred (tallyAt (barCell c) () 5) ∗ bigSep Finset.univ fun s : Fin 20 => cred (tallyAt (recvCell c s) () N)) := by
  unfold Pipeline.launchCred
  have h := bigSep_subset (Φ := fun sm : SemLoc sig => (cred (tallyOn ((c : Thread nD τ), sm) (launchCredit (Pipeline.owing O₀) 0 ((c : Thread nD τ), sm))) : sProp 𝕄))
    (Finset.subset_univ (Finset.univ.map credSem))
  rw [bigSep_map, bigSep_univ_sum, bigSep_univ_of_subsingleton ()] at h
  refine h.trans ?_
  show iprop(cred (tallyOn (barCell c) (launchCredit (Pipeline.owing O₀) 0 (barCell c)))
    ∗ bigSep Finset.univ fun s : Fin 20 => cred (tallyOn (recvCell c s) (launchCredit (Pipeline.owing O₀) 0 (recvCell c s)))) ⊢ _
  rw [launch_bar, bigSep_congr (s := Finset.univ) fun (s : Fin 20) _ => by rw [launch_recv]]

/-! ## The levels: a staging wait lies below everything a device owes -/

theorem O₀_pos {c : Dev nD} {g : GSem nD τ sig} {u : Unit} (h : 0 < O₀ c g u) :
    (∃ i : Fin 5, g = barCell (px i c)) ∨ ∃ s : Fin 20, g = recvCell (px (slotX s) c) s := by
  obtain ⟨p, hp, hpos⟩ := owedL_pos h
  rcases List.mem_append.mp hp with hp | hp
  · obtain ⟨i, -, rfl⟩ := List.mem_map.mp hp
    refine Or.inl ⟨i, ?_⟩
    unfold sigDue at hpos; rw [tallyAt_apply] at hpos
    by_contra hn; rw [if_neg fun h' => hn h'.1] at hpos; exact Nat.lt_irrefl 0 hpos
  · unfold copyDues at hp
    obtain ⟨s, -, rfl⟩ := List.mem_map.mp hp
    refine Or.inr ⟨s, ?_⟩
    unfold copyDue at hpos; rw [tallyAt_apply] at hpos
    by_contra hn; rw [if_neg fun h' => hn h'.1] at hpos; exact Nat.lt_irrefl 0 hpos

theorem mayWait_stage (c : Dev nD) (q : DmaSem sig) (hq : lv ((c : Thread nD τ), .dma q) () = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨i, rfl⟩ | ⟨s, rfl⟩ <;> (rw [L_tc]; exact Finset.mem_singleton_self _))
      (fun p hp => by rw [Finset.mem_singleton.mp hp]; exact le_of_eq hq)
      (fun g u hg => by
        rcases O₀_pos hg with ⟨i, rfl⟩ | ⟨s, rfl⟩
        · rw [lv_bar]; decide
        · rw [lv_recv]; omega)
  · rw [MayWait_zero]; iintro -; iempintro

theorem lv_stage (c : Dev nD) (w : Fin cfg0.W) (s : Fin (cfg0.win w).nbuf) : lv ((c : Thread nD τ), .dma ((cfg0.win w).sem s)) () = 0 := by
  revert c w s; decide

theorem glob (G' : Dev nD → sProp 𝕄) (ghost_intro : ∀ (K : Dev nD × Cell → ℕ) (c : Dev nD), iprop(records m K ∗ linear c) ⊢ G' c) :
    (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ G' :=
  ((bigSep_mono fun c _ => core_alloc m c).trans (bigSep_fupd _ _)).trans (BI.fupd_mono (regroup m G' ghost_intro))

theorem hu₀ : (ownU (u₀ : UU) : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (fund_ring m) $$ HX with HG
  imodintro
  isplitl [HP] <;> iassumption

/-! ## What the global step makes: the ghost state at some names -/

def G' (c : Dev nD) : sProp 𝕄 := iprop(∃ K, ghost m K c)

theorem ghost_intro (K : Dev nD × Cell → ℕ) (c : Dev nD) : iprop(records m K ∗ linear c) ⊢ G' m c := by
  unfold G' ghost
  iintro H; iexists K; iexact H

theorem glob_main :
    (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) := glob m (G' m) (ghost_intro m)

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem share_eq (c : Dev nD) (w : Fin cfg0.W) : (dats m ρ 0 c).share w = fullShare := by unfold Dat.share; split <;> rfl

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  have e : (Pipeline.ownSems0 (Ix := Unit) (Name := ℕ) (U := UU) (Lvl := ℕ) (Val := Elt F) (τ := τ) osem c : sProp 𝕄)
      = iprop((bigSep Finset.univ fun s : Fin 20 => semVal (sendCell c s) 0) ∗ bigSep Finset.univ fun s : Fin 20 => semVal (recvCell c s) 0) := by
    unfold Pipeline.ownSems0; rw [bigSep_univ_sum]; rfl
  rw [scopedRest0_eq, e]
  show iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (bigSep Finset.univ fun s : Fin 20 => semVal (sendCell c s) 0) ∗ (bigSep Finset.univ fun s : Fin 20 => semVal (recvCell c s) 0)) ⊢ _
  iintro ⟨H0, H1, H2, HS, HR⟩
  isplitr; · iempintro
  isplitl [HS HR]
  · isplitl [HS] <;> iassumption
  isplitl [H0]; · iexact H0
  isplitl [H1] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (lv_stage c w s) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of sixteen devices, for any float values, from any memory with zero counters: every weakly fair
    execution of @main terminates, faults nowhere, and every final state has each device's windowed arrays at the contents
    the proof data computes. -/
theorem run_main (hbody : ∀ c, BodyObligation (dats m ρ 0 c) (defs₀ (F := F)) 𝒱₀ () Set.univ) :
    θ_run defs (onTc (τ := τ) (main (F := F))) ⟨m, fun _ => 0, ρ⟩ (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun c => (main_chain c).trans rfl)
    (hbody := fun c => (hbody c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := hu₀ m)
    (hglob := glob_main m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.Kernel.Launch.run_main' depends on axioms: [propext, Classical.choice, Quot.sound] -/
#guard_msgs in #print axioms run_main

end Cert.Kernel.Launch
end
-- ==== Proof.KernelClaims.lean ====
/-
  From the launch's run to the claim's posts. The run leaves every windowed array at what the pipeline's proof data
  computes for it after the last point: an input array is never written back, so it holds what it held; the result
  array's one block is the whole array, written back once, so it holds what the body left in the staging buffer.
-/
import proofs.«900514_g7700000000000515_dist_attn_self_mha_htp_b2_sq128_skv128_d512_hq8_dh64_v7x_i16_bf16_1_alg».proof.Proof.KernelData
import proofs.«900514_g7700000000000515_dist_attn_self_mha_htp_b2_sq128_skv128_d512_hq8_dh64_v7x_i16_bf16_1_alg».proof.Proof.Gen.Kernel.Points
import Idealize.ShloMosaic.Lib.Pipeline.Cells
import Idealize.ShloMosaic.Lib.Pipeline.Value

noncomputable section

namespace Cert.Kernel.Claims

open Cert.Kernel Cert.Kernel.Gen Cert.Kernel.Terms Cert.Kernel.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The five argument arrays end as they were -/

theorem final_in_0 (m : (ℓ : Loc nD τ sig) → Buf (Elt F) ℓ) (ρ : Dev nD → PrngReg) (c : Dev nD) :
    (dats m ρ 0 c).arrAt 0 cfg0.N = m ((c : Thread nD τ).loc main_arg0) :=
  (dats m ρ 0 c).arrAt_in 0 rfl _
theorem final_in_1 (m : (ℓ : Loc nD τ sig) → Buf (Elt F) ℓ) (ρ : Dev nD → PrngReg) (c : Dev nD) :
    (dats m ρ 0 c).arrAt 1 cfg0.N = m ((c : Thread nD τ).loc main_arg1) :=
  (dats m ρ 0 c).arrAt_in 1 rfl _
theorem final_in_2 (m : (ℓ : Loc nD τ sig) → Buf (Elt F) ℓ) (ρ : Dev nD → PrngReg) (c : Dev nD) :
    (dats m ρ 0 c).arrAt 2 cfg0.N = m ((c : Thread nD τ).loc main_arg2) :=
  (dats m ρ 0 c).arrAt_in 2 rfl _
theorem final_in_3 (m : (ℓ : Loc nD τ sig) → Buf (Elt F) ℓ) (ρ : Dev nD → PrngReg) (c : Dev nD) :
    (dats m ρ 0 c).arrAt 3 cfg0.N = m ((c : Thread nD τ).loc main_arg3) :=
  (dats m ρ 0 c).arrAt_in 3 rfl _
theorem final_in_4 (m : (ℓ : Loc nD τ sig) → Buf (Elt F) ℓ) (ρ : Dev nD → PrngReg) (c : Dev nD) :
    (dats m ρ 0 c).arrAt 4 cfg0.N = m ((c : Thread nD τ).loc main_arg4) :=
  (dats m ρ 0 c).arrAt_in 4 rfl _

/-! ## The result array ends as the staging buffer's after-contents -/

theorem final_out (m : (ℓ : Loc nD τ sig) → Buf (Elt F) ℓ) (ρ : Dev nD → PrngReg) (c : Dev nD) :
    (dats m ρ 0 c).arrAt 5 cfg0.N = outAt m c := by
  have h := (dats m ρ 0 c).arrAt_succ 5 (⟨0, by decide⟩ : Fin cfg0.N)
  rw [flush0_5, if_pos rfl] at h
  refine h.trans ?_
  exact Memref.write_access_unit_zero_univ (Elt F) main_v1 (funext fun a => Nat.zero_mul _) _ _ _

/-! ## The posts -/

/-- What the launch's run says of a final state: every windowed array at the proof data's contents after the last point. -/
abbrev RunPost (m : (ℓ : Loc nD τ sig) → Buf (Elt F) ℓ) (ρ : Dev nD → PrngReg) : PUnit × MemSt nD τ sig (Elt F) → Prop := fun r =>
  ∀ c : Dev nD, ∀ w : Fin cfg0.W, r.2.mem ((cfg0.win w).arr.view.loc (c : Thread nD τ)) = (dats m ρ 0 c).arrAt w cfg0.N

/-- THE VALUE POST: the result array at the four chunks' sums, the five argument arrays unchanged. -/
theorem value_post (m : (ℓ : Loc nD τ sig) → Buf (Elt F) ℓ) (ρ : Dev nD → PrngReg)
    (hrun : θ_run defs (onTc (τ := τ) (main (F := F))) ⟨m, fun _ => 0, ρ⟩ (RunPost m ρ)) :
    θ_run defs (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c 5).trans (final_out m ρ c), (h c 0).trans (final_in_0 m ρ c), (h c 1).trans (final_in_1 m ρ c),
    (h c 2).trans (final_in_2 m ρ c), (h c 3).trans (final_in_3 m ρ c), (h c 4).trans (final_in_4 m ρ c)⟩) hrun

/-- THE FRAME POST: the five argument arrays unchanged. -/
theorem frame_post (m : (ℓ : Loc nD τ sig) → Buf (Elt F) ℓ) (ρ : Dev nD → PrngReg)
    (hrun : θ_run defs (onTc (τ := τ) (main (F := F))) ⟨m, fun _ => 0, ρ⟩ (RunPost m ρ)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (value_post m ρ hrun)

end Cert.Kernel.Claims

end

/-- info: 'Cert.Kernel.Claims.final_out' depends on axioms: [propext, Classical.choice, Quot.sound] -/
#guard_msgs in #print axioms Cert.Kernel.Claims.final_out
/-- info: 'Cert.Kernel.Claims.value_post' depends on axioms: [propext, Classical.choice, Quot.sound] -/
#guard_msgs in #print axioms Cert.Kernel.Claims.value_post
/-- info: 'Cert.Kernel.Claims.frame_post' depends on axioms: [propext, Classical.choice, Quot.sound] -/
#guard_msgs in #print axioms Cert.Kernel.Claims.frame_post
-- ==== Proof.KernelCtx.lean ====
/-
  A device's ghost state laid out piece by piece, in the order the body's run names them: the invariants of the cells it
  touches (its own barrier, send and receive cells; its partners' barrier cells; the receive cells its copies land in), the
  round-0 marks of the cells it pays or hands over, the tokens of the duties it pays, and its positions in its own cells.
-/
import proofs.«900514_g7700000000000515_dist_attn_self_mha_htp_b2_sq128_skv128_d512_hq8_dh64_v7x_i16_bf16_1_alg».proof.Proof.KernelGhost

noncomputable section

namespace Cert.Kernel.Proto

open Cert.Kernel Cert.Kernel.Gen Cert.Kernel.Terms

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

def ctxGhost (K : Dev nD × Cell → ℕ) (c : Dev nD) : sProp 𝕄 :=
  iprop(cellInv ER (sched m) (K (c, .inl ())) (barCell c)
    ∗ cellInv ER (sched m) (K (px 0 c, .inl ())) (barCell (px 0 c))
    ∗ cellInv ER (sched m) (K (px 1 c, .inl ())) (barCell (px 1 c))
    ∗ cellInv ER (sched m) (K (px 2 c, .inl ())) (barCell (px 2 c))
    ∗ cellInv ER (sched m) (K (px 3 c, .inl ())) (barCell (px 3 c))
    ∗ cellInv ER (sched m) (K (px 4 c, .inl ())) (barCell (px 4 c))
    ∗ cellInv ER (sched m) (K (c, .inr (.inl 0))) (sendCell c 0)
    ∗ cellInv ER (sched m) (K (c, .inr (.inl 1))) (sendCell c 1)
    ∗ cellInv ER (sched m) (K (c, .inr (.inl 2))) (sendCell c 2)
    ∗ cellInv ER (sched m) (K (c, .inr (.inl 3))) (sendCell c 3)
    ∗ cellInv ER (sched m) (K (c, .inr (.inl 4))) (sendCell c 4)
    ∗ cellInv ER (sched m) (K (c, .inr (.inl 5))) (sendCell c 5)
    ∗ cellInv ER (sched m) (K (c, .inr (.inl 6))) (sendCell c 6)
    ∗ cellInv ER (sched m) (K (c, .inr (.inl 7))) (sendCell c 7)
    ∗ cellInv ER (sched m) (K (c, .inr (.inl 8))) (sendCell c 8)
    ∗ cellInv ER (sched m) (K (c, .inr (.inl 9))) (sendCell c 9)
    ∗ cellInv ER (sched m) (K (c, .inr (.inl 10))) (sendCell c 10)
    ∗ cellInv ER (sched m) (K (c, .inr (.inl 11))) (sendCell c 11)
    ∗ cellInv ER (sched m) (K (c, .inr (.inl 12))) (sendCell c 12)
    ∗ cellInv ER (sched m) (K (c, .inr (.inl 13))) (sendCell c 13)
    ∗ cellInv ER (sched m) (K (c, .inr (.inl 14))) (sendCell c 14)
    ∗ cellInv ER (sched m) (K (c, .inr (.inl 15))) (sendCell c 15)
    ∗ cellInv ER (sched m) (K (c, .inr (.inl 16))) (sendCell c 16)
    ∗ cellInv ER (sched m) (K (c, .inr (.inl 17))) (sendCell c 17)
    ∗ cellInv ER (sched m) (K (c, .inr (.inl 18))) (sendCell c 18)
    ∗ cellInv ER (sched m) (K (c, .inr (.inl 19))) (sendCell c 19)
    ∗ cellInv ER (sched m) (K (c, .inr (.inr 0))) (recvCell c 0)
    ∗ cellInv ER (sched m) (K (c, .inr (.inr 1))) (recvCell c 1)
    ∗ cellInv ER (sched m) (K (c, .inr (.inr 2))) (recvCell c 2)
    ∗ cellInv ER (sched m) (K (c, .inr (.inr 3))) (recvCell c 3)
    ∗ cellInv ER (sched m) (K (c, .inr (.inr 4))) (recvCell c 4)
    ∗ cellInv ER (sched m) (K (c, .inr (.inr 5))) (recvCell c 5)
    ∗ cellInv ER (sched m) (K (c, .inr (.inr 6))) (recvCell c 6)
    ∗ cellInv ER (sched m) (K (c, .inr (.inr 7))) (recvCell c 7)
    ∗ cellInv ER (sched m) (K (c, .inr (.inr 8))) (recvCell c 8)
    ∗ cellInv ER (sched m) (K (c, .inr (.inr 9))) (recvCell c 9)
    ∗ cellInv ER (sched m) (K (c, .inr (.inr 10))) (recvCell c 10)
    ∗ cellInv ER (sched m) (K (c, .inr (.inr 11))) (recvCell c 11)
    ∗ cellInv ER (sched m) (K (c, .inr (.inr 12))) (recvCell c 12)
    ∗ cellInv ER (sched m) (K (c, .inr (.inr 13))) (recvCell c 13)
    ∗ cellInv ER (sched m) (K (c, .inr (.inr 14))) (recvCell c 14)
    ∗ cellInv ER (sched m) (K (c, .inr (.inr 15))) (recvCell c 15)
    ∗ cellInv ER (sched m) (K (c, .inr (.inr 16))) (recvCell c 16)
    ∗ cellInv ER (sched m) (K (c, .inr (.inr 17))) (recvCell c 17)
    ∗ cellInv ER (sched m) (K (c, .inr (.inr 18))) (recvCell c 18)
    ∗ cellInv ER (sched m) (K (c, .inr (.inr 19))) (recvCell c 19)
    ∗ cellInv ER (sched m) (K (px 0 c, .inr (.inr 0))) (recvCell (px 0 c) 0)
    ∗ cellInv ER (sched m) (K (px 1 c, .inr (.inr 1))) (recvCell (px 1 c) 1)
    ∗ cellInv ER (sched m) (K (px 2 c, .inr (.inr 2))) (recvCell (px 2 c) 2)
    ∗ cellInv ER (sched m) (K (px 3 c, .inr (.inr 3))) (recvCell (px 3 c) 3)
    ∗ cellInv ER (sched m) (K (px 4 c, .inr (.inr 4))) (recvCell (px 4 c) 4)
    ∗ cellInv ER (sched m) (K (px 0 c, .inr (.inr 5))) (recvCell (px 0 c) 5)
    ∗ cellInv ER (sched m) (K (px 1 c, .inr (.inr 6))) (recvCell (px 1 c) 6)
    ∗ cellInv ER (sched m) (K (px 2 c, .inr (.inr 7))) (recvCell (px 2 c) 7)
    ∗ cellInv ER (sched m) (K (px 3 c, .inr (.inr 8))) (recvCell (px 3 c) 8)
    ∗ cellInv ER (sched m) (K (px 4 c, .inr (.inr 9))) (recvCell (px 4 c) 9)
    ∗ cellInv ER (sched m) (K (px 0 c, .inr (.inr 10))) (recvCell (px 0 c) 10)
    ∗ cellInv ER (sched m) (K (px 1 c, .inr (.inr 11))) (recvCell (px 1 c) 11)
    ∗ cellInv ER (sched m) (K (px 2 c, .inr (.inr 12))) (recvCell (px 2 c) 12)
    ∗ cellInv ER (sched m) (K (px 4 c, .inr (.inr 13))) (recvCell (px 4 c) 13)
    ∗ cellInv ER (sched m) (K (px 4 c, .inr (.inr 14))) (recvCell (px 4 c) 14)
    ∗ cellInv ER (sched m) (K (px 0 c, .inr (.inr 15))) (recvCell (px 0 c) 15)
    ∗ cellInv ER (sched m) (K (px 1 c, .inr (.inr 16))) (recvCell (px 1 c) 16)
    ∗ cellInv ER (sched m) (K (px 2 c, .inr (.inr 17))) (recvCell (px 2 c) 17)
    ∗ cellInv ER (sched m) (K (px 3 c, .inr (.inr 18))) (recvCell (px 3 c) 18)
    ∗ cellInv ER (sched m) (K (px 3 c, .inr (.inr 19))) (recvCell (px 3 c) 19)
    ∗ reached ER (barCell (px 0 c)) 0
    ∗ reached ER (barCell (px 1 c)) 0
    ∗ reached ER (barCell (px 2 c)) 0
    ∗ reached ER (barCell (px 3 c)) 0
    ∗ reached ER (barCell (px 4 c)) 0
    ∗ reached ER (sendCell c 0) 0
    ∗ reached ER (sendCell c 1) 0
    ∗ reached ER (sendCell c 2) 0
    ∗ reached ER (sendCell c 3) 0
    ∗ reached ER (sendCell c 4) 0
    ∗ reached ER (sendCell c 5) 0
    ∗ reached ER (sendCell c 6) 0
    ∗ reached ER (sendCell c 7) 0
    ∗ reached ER (sendCell c 8) 0
    ∗ reached ER (sendCell c 9) 0
    ∗ reached ER (sendCell c 10) 0
    ∗ reached ER (sendCell c 11) 0
    ∗ reached ER (sendCell c 12) 0
    ∗ reached ER (sendCell c 13) 0
    ∗ reached ER (sendCell c 14) 0
    ∗ reached ER (sendCell c 15) 0
    ∗ reached ER (sendCell c 16) 0
    ∗ reached ER (sendCell c 17) 0
    ∗ reached ER (sendCell c 18) 0
    ∗ reached ER (sendCell c 19) 0
    ∗ reached ER (recvCell (px 0 c) 0) 0
    ∗ reached ER (recvCell (px 1 c) 1) 0
    ∗ reached ER (recvCell (px 2 c) 2) 0
    ∗ reached ER (recvCell (px 3 c) 3) 0
    ∗ reached ER (recvCell (px 4 c) 4) 0
    ∗ reached ER (recvCell (px 0 c) 5) 0
    ∗ reached ER (recvCell (px 1 c) 6) 0
    ∗ reached ER (recvCell (px 2 c) 7) 0
    ∗ reached ER (recvCell (px 3 c) 8) 0
    ∗ reached ER (recvCell (px 4 c) 9) 0
    ∗ reached ER (recvCell (px 0 c) 10) 0
    ∗ reached ER (recvCell (px 1 c) 11) 0
    ∗ reached ER (recvCell (px 2 c) 12) 0
    ∗ reached ER (recvCell (px 4 c) 13) 0
    ∗ reached ER (recvCell (px 4 c) 14) 0
    ∗ reached ER (recvCell (px 0 c) 15) 0
    ∗ reached ER (recvCell (px 1 c) 16) 0
    ∗ reached ER (recvCell (px 2 c) 17) 0
    ∗ reached ER (recvCell (px 3 c) 18) 0
    ∗ reached ER (recvCell (px 3 c) 19) 0
    ∗ reached ER (recvCell c 0) 0
    ∗ reached ER (recvCell c 1) 0
    ∗ reached ER (recvCell c 2) 0
    ∗ reached ER (recvCell c 3) 0
    ∗ reached ER (recvCell c 4) 0
    ∗ reached ER (recvCell c 5) 0
    ∗ reached ER (recvCell c 6) 0
    ∗ reached ER (recvCell c 7) 0
    ∗ reached ER (recvCell c 8) 0
    ∗ reached ER (recvCell c 9) 0
    ∗ reached ER (recvCell c 10) 0
    ∗ reached ER (recvCell c 11) 0
    ∗ reached ER (recvCell c 12) 0
    ∗ reached ER (recvCell c 13) 0
    ∗ reached ER (recvCell c 14) 0
    ∗ reached ER (recvCell c 15) 0
    ∗ reached ER (recvCell c 16) 0
    ∗ reached ER (recvCell c 17) 0
    ∗ reached ER (recvCell c 18) 0
    ∗ reached ER (recvCell c 19) 0
    ∗ dutyTok ER (barCell (px 0 c)) 0 0
    ∗ dutyTok ER (barCell (px 1 c)) 0 1
    ∗ dutyTok ER (barCell (px 2 c)) 0 2
    ∗ dutyTok ER (barCell (px 3 c)) 0 3
    ∗ dutyTok ER (barCell (px 4 c)) 0 4
    ∗ dutyTok ER (sendCell c 0) 0 0
    ∗ dutyTok ER (sendCell c 1) 0 0
    ∗ dutyTok ER (sendCell c 2) 0 0
    ∗ dutyTok ER (sendCell c 3) 0 0
    ∗ dutyTok ER (sendCell c 4) 0 0
    ∗ dutyTok ER (sendCell c 5) 0 0
    ∗ dutyTok ER (sendCell c 6) 0 0
    ∗ dutyTok ER (sendCell c 7) 0 0
    ∗ dutyTok ER (sendCell c 8) 0 0
    ∗ dutyTok ER (sendCell c 9) 0 0
    ∗ dutyTok ER (sendCell c 10) 0 0
    ∗ dutyTok ER (sendCell c 11) 0 0
    ∗ dutyTok ER (sendCell c 12) 0 0
    ∗ dutyTok ER (sendCell c 13) 0 0
    ∗ dutyTok ER (sendCell c 14) 0 0
    ∗ dutyTok ER (sendCell c 15) 0 0
    ∗ dutyTok ER (sendCell c 16) 0 0
    ∗ dutyTok ER (sendCell c 17) 0 0
    ∗ dutyTok ER (sendCell c 18) 0 0
    ∗ dutyTok ER (sendCell c 19) 0 0
    ∗ dutyTok ER (recvCell (px 0 c) 0) 0 0
    ∗ dutyTok ER (recvCell (px 1 c) 1) 0 0
    ∗ dutyTok ER (recvCell (px 2 c) 2) 0 0
    ∗ dutyTok ER (recvCell (px 3 c) 3) 0 0
    ∗ dutyTok ER (recvCell (px 4 c) 4) 0 0
    ∗ dutyTok ER (recvCell (px 0 c) 5) 0 0
    ∗ dutyTok ER (recvCell (px 1 c) 6) 0 0
    ∗ dutyTok ER (recvCell (px 2 c) 7) 0 0
    ∗ dutyTok ER (recvCell (px 3 c) 8) 0 0
    ∗ dutyTok ER (recvCell (px 4 c) 9) 0 0
    ∗ dutyTok ER (recvCell (px 0 c) 10) 0 0
    ∗ dutyTok ER (recvCell (px 1 c) 11) 0 0
    ∗ dutyTok ER (recvCell (px 2 c) 12) 0 0
    ∗ dutyTok ER (recvCell (px 4 c) 13) 0 0
    ∗ dutyTok ER (recvCell (px 4 c) 14) 0 0
    ∗ dutyTok ER (recvCell (px 0 c) 15) 0 0
    ∗ dutyTok ER (recvCell (px 1 c) 16) 0 0
    ∗ dutyTok ER (recvCell (px 2 c) 17) 0 0
    ∗ dutyTok ER (recvCell (px 3 c) 18) 0 0
    ∗ dutyTok ER (recvCell (px 3 c) 19) 0 0
    ∗ atPos ER (barCell c) 0 ∅ 0
    ∗ atPos ER (sendCell c 0) 0 ∅ 0
    ∗ atPos ER (sendCell c 1) 0 ∅ 0
    ∗ atPos ER (sendCell c 2) 0 ∅ 0
    ∗ atPos ER (sendCell c 3) 0 ∅ 0
    ∗ atPos ER (sendCell c 4) 0 ∅ 0
    ∗ atPos ER (sendCell c 5) 0 ∅ 0
    ∗ atPos ER (sendCell c 6) 0 ∅ 0
    ∗ atPos ER (sendCell c 7) 0 ∅ 0
    ∗ atPos ER (sendCell c 8) 0 ∅ 0
    ∗ atPos ER (sendCell c 9) 0 ∅ 0
    ∗ atPos ER (sendCell c 10) 0 ∅ 0
    ∗ atPos ER (sendCell c 11) 0 ∅ 0
    ∗ atPos ER (sendCell c 12) 0 ∅ 0
    ∗ atPos ER (sendCell c 13) 0 ∅ 0
    ∗ atPos ER (sendCell c 14) 0 ∅ 0
    ∗ atPos ER (sendCell c 15) 0 ∅ 0
    ∗ atPos ER (sendCell c 16) 0 ∅ 0
    ∗ atPos ER (sendCell c 17) 0 ∅ 0
    ∗ atPos ER (sendCell c 18) 0 ∅ 0
    ∗ atPos ER (sendCell c 19) 0 ∅ 0
    ∗ atPos ER (recvCell c 0) 0 ∅ 0
    ∗ atPos ER (recvCell c 1) 0 ∅ 0
    ∗ atPos ER (recvCell c 2) 0 ∅ 0
    ∗ atPos ER (recvCell c 3) 0 ∅ 0
    ∗ atPos ER (recvCell c 4) 0 ∅ 0
    ∗ atPos ER (recvCell c 5) 0 ∅ 0
    ∗ atPos ER (recvCell c 6) 0 ∅ 0
    ∗ atPos ER (recvCell c 7) 0 ∅ 0
    ∗ atPos ER (recvCell c 8) 0 ∅ 0
    ∗ atPos ER (recvCell c 9) 0 ∅ 0
    ∗ atPos ER (recvCell c 10) 0 ∅ 0
    ∗ atPos ER (recvCell c 11) 0 ∅ 0
    ∗ atPos ER (recvCell c 12) 0 ∅ 0
    ∗ atPos ER (recvCell c 13) 0 ∅ 0
    ∗ atPos ER (recvCell c 14) 0 ∅ 0
    ∗ atPos ER (recvCell c 15) 0 ∅ 0
    ∗ atPos ER (recvCell c 16) 0 ∅ 0
    ∗ atPos ER (recvCell c 17) 0 ∅ 0
    ∗ atPos ER (recvCell c 18) 0 ∅ 0
    ∗ atPos ER (recvCell c 19) 0 ∅ 0)

end Cert.Kernel.Proto

end
-- ==== Proof.KernelViews.lean ====
/-
  View algebra of the exchange buffers. A chunk's outgoing slice and a copy's receive slot are a unit-stride rectangle
  of a whole buffer, squeezed to a 256 × 128 matrix: the same elements of the buffer in the same order. Hence a read
  through the squeezed slice is the load through the rectangle, reshaped; a store through the rectangle is read back
  whole; the squeezed slice, the rectangle's access and the load through the rectangle lie over the same elements of
  the buffer; and all of them are views of the one buffer.
-/
import proofs.«900514_g7700000000000515_dist_attn_self_mha_htp_b2_sq128_skv128_d512_hq8_dh64_v7x_i16_bf16_1_alg».proof.Proof.KernelProto
import Idealize.ShloMosaic.Lib.Pipeline.Value

noncomputable section

namespace Cert.Kernel.Views

open Cert.Kernel Cert.Kernel.Gen Cert.Kernel.Terms Cert.Kernel.Proto
open Idealize.ShloMosaic
open Idealize.ShloMosaic.TcCoe

/-! ## Any memref, any unit-stride rectangle of it -/

section Generic
variable {σ : RefSig} {κ : Kind} {sp : Space} {s s' : Shape} {e : EltTy} {Val : EltTy → Type}

/-- A store through a rectangle, read through the squeezed slice at that rectangle: the payload, reshaped. -/
theorem read_squeeze_write (M : Memref σ κ sp s e) (r : Rect s) (hr : ∀ a, r.stride a = 1)
    (hq : r.shape.Squeezes s') (hc : r.shape.ShapeCasts s') (f : M.view.ty.Contents Val) (v : r.shape.Idx → Val e) :
    ((M.slice r hr).squeeze s' hq).view.read Val ((M.access r).write Val f v Finset.univ) = shapeCast s' v hc := by
  rw [Memref.read_squeeze_slice M r hr hq hc]
  exact congrArg (fun u => shapeCast s' u hc) (View.read_write_univ (v := M.view.slice r) f v)

/-- A store through a rectangle, loaded back through the same rectangle: the payload. -/
theorem readAt_write_access (M : Memref σ κ sp s e) (r : Rect s) (f : M.view.ty.Contents Val) (v : r.shape.Idx → Val e) :
    M.view.readAt Val r.toLoadRect ((M.access r).write Val f v Finset.univ) = v :=
  View.read_write_univ (v := M.view.slice r) f v

/-- A load through a rectangle is the read through the squeezed slice at it, reshaped back. -/
theorem readAt_eq_shapeCast_read (M : Memref σ κ sp s e) (r : Rect s) (hr : ∀ a, r.stride a = 1)
    (hq : r.shape.Squeezes s') (hc : r.shape.ShapeCasts s') (hc' : s'.ShapeCasts r.shape) (f : M.view.ty.Contents Val) :
    M.view.readAt Val r.toLoadRect f = shapeCast r.shape (((M.slice r hr).squeeze s' hq).view.read Val f) hc' := by
  rw [Memref.read_squeeze_slice M r hr hq hc, shapeCast_shapeCast]

/-- The squeezed slice lies over the elements a load through the rectangle reads, -/
theorem set_squeeze_slice (M : Memref σ κ sp s e) (r : Rect s) (hr : ∀ a, r.stride a = 1) (hq : r.shape.Squeezes s') :
    ((M.slice r hr).squeeze s' hq).view.set = M.view.setOn r.toLoadRect.set := by
  show ((M.view.slice r).reshape s' hq.numel_eq).set = _
  rw [View.set_reshape, View.set_slice]
  rfl

/-- and over those an unmasked store through the rectangle writes. -/
theorem setOn_access_univ (M : Memref σ κ sp s e) (r : Rect s) (hr : ∀ a, r.stride a = 1) (hq : r.shape.Squeezes s') :
    (M.access r).setOn Finset.univ = ((M.slice r hr).squeeze s' hq).view.set := by
  show (M.view.slice r).set = ((M.view.slice r).reshape s' hq.numel_eq).set
  rw [View.set_reshape]

end Generic

variable {F : FTy → Type} [FloatOps F]

/-! ## Reshapes there and back -/

theorem sq_unsq {α : Type} (a : S256x128.Idx → α) :
    shapeCast S256x128 (shapeCast S1x256x128 a shapeCasts_S256x128_S1x256x128) shapeCasts_S1x256x128_S256x128 = a :=
  shapeCast_shapeCast a _ _

theorem sq5_unsq5 {α : Type} (a : S256x128.Idx → α) :
    shapeCast S256x128 (shapeCast S1x1x1x256x128 a shapeCasts_S256x128_S1x1x1x256x128) shapeCasts_S1x1x1x256x128_S256x128 = a :=
  shapeCast_shapeCast a _ _

theorem unsq5_sq5 {α : Type} (a : S1x1x1x256x128.Idx → α) :
    shapeCast S1x1x1x256x128 (shapeCast S256x128 a shapeCasts_S1x1x1x256x128_S256x128) shapeCasts_S256x128_S1x1x1x256x128 = a :=
  shapeCast_shapeCast a _ _

theorem pay27_pay25 (a : FVec F S256x128 .f32) : k0_pay27 (k0_pay25 a) = a := sq_unsq a
theorem pay27_cast (a : FVec F S256x128 .f32) : k0_pay27 (shapeCast S1x256x128 a shapeCasts_S256x128_S1x256x128) = a := sq_unsq a
theorem pay31_cast (a : FVec F S256x128 .f32) : k0_pay31 (shapeCast S1x256x128 a shapeCasts_S256x128_S1x256x128) = a := sq_unsq a
theorem pay35_cast (a : FVec F S256x128 .f32) : k0_pay35 (shapeCast S1x256x128 a shapeCasts_S256x128_S1x256x128) = a := sq_unsq a
theorem pay25_eq (a : FVec F S256x128 .f32) : k0_pay25 a = shapeCast S1x256x128 a shapeCasts_S256x128_S1x256x128 := rfl
theorem pay26_eq (a : FVec F S256x128 .f32) :
    k0_pay26 a = shapeCast S1x256x128 (truncf .bf16 a bitsLt_bf16_f32) shapeCasts_S256x128_S1x256x128 := rfl

/-! ## The chunk rectangles of the two `[4,256,128]` buffers, at any offsets -/

/-- The outgoing slice at offsets `off`, as the `[256,128]` memref a copy reads. -/
abbrev srcAt (off : Fin 3 → ℕ) (inb : ∀ a, off a + S1x256x128.size a ≤ S4x256x128.size a) : Memref sig .tc .vmem S256x128 .bf16 :=
  (sndM.slice (Rect.unit (s := S4x256x128) off S1x256x128.size inb) (fun _ => rfl)).squeeze S256x128 squeezes_S1x256x128_S256x128

/-- The receive slot at offsets `off`, as the `[256,128]` memref a copy writes. -/
abbrev slotAt (off : Fin 5 → ℕ) (inb : ∀ a, off a + S1x1x1x256x128.size a ≤ S3x4x3x256x128.size a) : Memref sig .tc .vmem S256x128 .bf16 :=
  (comM.slice (Rect.unit (s := S3x4x3x256x128) off S1x1x1x256x128.size inb) (fun _ => rfl)).squeeze S256x128 squeezes_S1x1x1x256x128_S256x128

/-- (1) A chunk stored to the outgoing buffer, read through the copy's source memref: the payload as a matrix. -/
theorem read_src_store_at (off : Fin 3 → ℕ) (inb : ∀ a, off a + S1x256x128.size a ≤ S4x256x128.size a)
    (f : sndM.view.ty.Contents (Elt F)) (v : FVec F S1x256x128 .bf16) :
    (srcAt off inb).view.read (Elt F)
        ((sndM.access (Rect.unit (s := S4x256x128) off S1x256x128.size inb)).write (Elt F) f v Finset.univ)
      = shapeCast S256x128 v shapeCasts_S1x256x128_S256x128 :=
  read_squeeze_write (σ := sig) (κ := .tc) (sp := .vmem) (s := S4x256x128) (s' := S256x128) (e := .bf16) (Val := Elt F) sndM
    (Rect.unit (s := S4x256x128) off S1x256x128.size inb) (fun _ => rfl) squeezes_S1x256x128_S256x128 shapeCasts_S1x256x128_S256x128 f v

/-- The same for a payload that is a reshaped matrix: the matrix. -/
theorem read_src_store_cast_at (off : Fin 3 → ℕ) (inb : ∀ a, off a + S1x256x128.size a ≤ S4x256x128.size a)
    (f : sndM.view.ty.Contents (Elt F)) (b : FVec F S256x128 .bf16) :
    (srcAt off inb).view.read (Elt F)
        ((sndM.access (Rect.unit (s := S4x256x128) off S1x256x128.size inb)).write (Elt F) f
          (shapeCast S1x256x128 b shapeCasts_S256x128_S1x256x128) Finset.univ)
      = b :=
  (read_src_store_at off inb f _).trans (sq_unsq b)

/-- The narrowed running sum stored by the kernel is read back as the narrowed running sum. -/
theorem read_src_store_pay26_at (off : Fin 3 → ℕ) (inb : ∀ a, off a + S1x256x128.size a ≤ S4x256x128.size a)
    (f : sndM.view.ty.Contents (Elt F)) (a : FVec F S256x128 .f32) :
    (srcAt off inb).view.read (Elt F)
        ((sndM.access (Rect.unit (s := S4x256x128) off S1x256x128.size inb)).write (Elt F) f (k0_pay26 a) Finset.univ)
      = truncf .bf16 a bitsLt_bf16_f32 :=
  read_src_store_cast_at off inb f (truncf .bf16 a bitsLt_bf16_f32)

/-- Reading back the running sum: a chunk stored to the accumulator and loaded through the same rectangle. -/
theorem acc_readAt_write (r : Rect S4x256x128) (f : accM.view.ty.Contents (Elt F)) (v : r.shape.Idx → Elt F .f32) :
    accM.view.readAt (Elt F) r.toLoadRect ((accM.access r).write (Elt F) f v Finset.univ) = v :=
  readAt_write_access (σ := sig) (κ := .tc) (sp := .vmem) (s := S4x256x128) (e := .f32) (Val := Elt F) accM r f v

theorem snd_readAt_write (r : Rect S4x256x128) (f : sndM.view.ty.Contents (Elt F)) (v : r.shape.Idx → Elt F .bf16) :
    sndM.view.readAt (Elt F) r.toLoadRect ((sndM.access r).write (Elt F) f v Finset.univ) = v :=
  readAt_write_access (σ := sig) (κ := .tc) (sp := .vmem) (s := S4x256x128) (e := .bf16) (Val := Elt F) sndM r f v

/-- A load of the outgoing buffer through a chunk rectangle is the read through the copy's source memref, reshaped. -/
theorem load_src_at (off : Fin 3 → ℕ) (inb : ∀ a, off a + S1x256x128.size a ≤ S4x256x128.size a)
    (f : sndM.view.ty.Contents (Elt F)) :
    sndM.view.readAt (Elt F) (Rect.unit (s := S4x256x128) off S1x256x128.size inb).toLoadRect f
      = shapeCast S1x256x128 ((srcAt off inb).view.read (Elt F) f) shapeCasts_S256x128_S1x256x128 :=
  readAt_eq_shapeCast_read (σ := sig) (κ := .tc) (sp := .vmem) (s := S4x256x128) (s' := S256x128) (e := .bf16) (Val := Elt F) sndM
    (Rect.unit (s := S4x256x128) off S1x256x128.size inb) (fun _ => rfl) squeezes_S1x256x128_S256x128 shapeCasts_S1x256x128_S256x128
    shapeCasts_S256x128_S1x256x128 f

/-! ## The receive slots, at any offsets -/

/-- (2) What is written through a slot is read through it. -/
theorem read_slot_write (s : Fin 20) (fd : (slotM s).view.ty.Contents (Elt F)) (w : FVec F S256x128 .bf16) :
    (slotM s).view.read (Elt F) ((slotM s).view.write (Elt F) fd w Finset.univ) = w :=
  View.read_write_univ fd w

theorem read_src_write (ch : Fin 4) (fd : (srcM ch).view.ty.Contents (Elt F)) (w : FVec F S256x128 .bf16) :
    (srcM ch).view.read (Elt F) ((srcM ch).view.write (Elt F) fd w Finset.univ) = w :=
  View.read_write_univ fd w

/-- (3) A load of the receive buffer through a slot's rectangle is the read through the slot, as the five-axis block. -/
theorem load_slot_at (off : Fin 5 → ℕ) (inb : ∀ a, off a + S1x1x1x256x128.size a ≤ S3x4x3x256x128.size a)
    (f : comM.view.ty.Contents (Elt F)) :
    comM.view.readAt (Elt F) (Rect.unit (s := S3x4x3x256x128) off S1x1x1x256x128.size inb).toLoadRect f
      = shapeCast S1x1x1x256x128 ((slotAt off inb).view.read (Elt F) f) shapeCasts_S256x128_S1x1x1x256x128 :=
  readAt_eq_shapeCast_read (σ := sig) (κ := .tc) (sp := .vmem) (s := S3x4x3x256x128) (s' := S256x128) (e := .bf16) (Val := Elt F) comM
    (Rect.unit (s := S3x4x3x256x128) off S1x1x1x256x128.size inb) (fun _ => rfl) squeezes_S1x1x1x256x128_S256x128 shapeCasts_S1x1x1x256x128_S256x128
    shapeCasts_S256x128_S1x1x1x256x128 f

/-- When the slot holds a narrowed running sum, the load is what that sum puts on the wire. -/
theorem load_slot_wire_at (off : Fin 5 → ℕ) (inb : ∀ a, off a + S1x1x1x256x128.size a ≤ S3x4x3x256x128.size a)
    (f : comM.view.ty.Contents (Elt F)) (a : FVec F S256x128 .f32)
    (h : (slotAt off inb).view.read (Elt F) f = truncf .bf16 a bitsLt_bf16_f32) :
    comM.view.readAt (Elt F) (Rect.unit (s := S3x4x3x256x128) off S1x1x1x256x128.size inb).toLoadRect f = wire a := by
  rw [load_slot_at, h]
  rfl

/-! ## The named rectangles are rectangles at offsets -/

def chOff (ch : Fin 4) : Fin 3 → ℕ := ![ch.val, 0, 0]
theorem chOff_inb (ch : Fin 4) : ∀ a, chOff ch a + S1x256x128.size a ≤ S4x256x128.size a := by revert ch; decide

def slotOff (s : Fin 20) : Fin 5 → ℕ := ![(slotK s).val, (slotCh s).val, (slotJ s).val, 0, 0]
theorem slotOff_inb (s : Fin 20) : ∀ a, slotOff s a + S1x1x1x256x128.size a ≤ S3x4x3x256x128.size a := by revert s; decide

theorem chRect_eq (ch : Fin 4) : chRect ch = Rect.unit (s := S4x256x128) (chOff ch) S1x256x128.size (chOff_inb ch) := by
  fin_cases ch <;> rfl
theorem srcM_eq (ch : Fin 4) : srcM ch = srcAt (chOff ch) (chOff_inb ch) := by
  fin_cases ch <;> rfl
theorem slotRect_eq (s : Fin 20) :
    slotRect s = Rect.unit (s := S3x4x3x256x128) (slotOff s) S1x1x1x256x128.size (slotOff_inb s) := by
  fin_cases s <;> rfl
theorem slotM_eq (s : Fin 20) : slotM s = slotAt (slotOff s) (slotOff_inb s) := by
  fin_cases s <;> rfl

/-! ## (4) The elements under the views, and their buffers -/

theorem slot_set_at (off : Fin 5 → ℕ) (inb : ∀ a, off a + S1x1x1x256x128.size a ≤ S3x4x3x256x128.size a) :
    (slotAt off inb).view.set = comM.view.setOn (Rect.unit (s := S3x4x3x256x128) off S1x1x1x256x128.size inb).toLoadRect.set :=
  set_squeeze_slice (σ := sig) (κ := .tc) (sp := .vmem) (s := S3x4x3x256x128) (s' := S256x128) (e := .bf16) comM
    (Rect.unit (s := S3x4x3x256x128) off S1x1x1x256x128.size inb) (fun _ => rfl) squeezes_S1x1x1x256x128_S256x128

theorem src_set_at (off : Fin 3 → ℕ) (inb : ∀ a, off a + S1x256x128.size a ≤ S4x256x128.size a) :
    (srcAt off inb).view.set = sndM.view.setOn (Rect.unit (s := S4x256x128) off S1x256x128.size inb).toLoadRect.set :=
  set_squeeze_slice (σ := sig) (κ := .tc) (sp := .vmem) (s := S4x256x128) (s' := S256x128) (e := .bf16) sndM
    (Rect.unit (s := S4x256x128) off S1x256x128.size inb) (fun _ => rfl) squeezes_S1x256x128_S256x128

theorem src_setOn_at (off : Fin 3 → ℕ) (inb : ∀ a, off a + S1x256x128.size a ≤ S4x256x128.size a) :
    (sndM.access (Rect.unit (s := S4x256x128) off S1x256x128.size inb)).setOn Finset.univ = (srcAt off inb).view.set :=
  setOn_access_univ (σ := sig) (κ := .tc) (sp := .vmem) (s := S4x256x128) (s' := S256x128) (e := .bf16) sndM
    (Rect.unit (s := S4x256x128) off S1x256x128.size inb) (fun _ => rfl) squeezes_S1x256x128_S256x128

/-! The same at each of the four chunks and the twenty slots (a statement over a variable chunk or slot does not
    typecheck: the buffer of `srcM ch` / `slotM s` is known only at a literal). -/

theorem store_src_subset_0 : (sndM.access (chRect 0)).setOn Finset.univ ⊆ (srcM 0).view.set := subset_of_eq (src_setOn_at _ _)
theorem load_src_subset_0 : sndM.view.setOn (chRect 0).toLoadRect.set ⊆ (srcM 0).view.set := subset_of_eq (src_set_at _ _).symm
theorem read_src_store_0 (f : sndM.view.ty.Contents (Elt F)) (v : FVec F S1x256x128 .bf16) :
    (srcM 0).view.read (Elt F) ((sndM.access (chRect 0)).write (Elt F) f v Finset.univ) = shapeCast S256x128 v shapeCasts_S1x256x128_S256x128 :=
  read_src_store_at _ _ f v
theorem read_src_store_pay26_0 (f : sndM.view.ty.Contents (Elt F)) (a : FVec F S256x128 .f32) :
    (srcM 0).view.read (Elt F) ((sndM.access (chRect 0)).write (Elt F) f (k0_pay26 a) Finset.univ) = truncf .bf16 a bitsLt_bf16_f32 :=
  read_src_store_pay26_at _ _ f a
theorem store_src_subset_1 : (sndM.access (chRect 1)).setOn Finset.univ ⊆ (srcM 1).view.set := subset_of_eq (src_setOn_at _ _)
theorem load_src_subset_1 : sndM.view.setOn (chRect 1).toLoadRect.set ⊆ (srcM 1).view.set := subset_of_eq (src_set_at _ _).symm
theorem read_src_store_1 (f : sndM.view.ty.Contents (Elt F)) (v : FVec F S1x256x128 .bf16) :
    (srcM 1).view.read (Elt F) ((sndM.access (chRect 1)).write (Elt F) f v Finset.univ) = shapeCast S256x128 v shapeCasts_S1x256x128_S256x128 :=
  read_src_store_at _ _ f v
theorem read_src_store_pay26_1 (f : sndM.view.ty.Contents (Elt F)) (a : FVec F S256x128 .f32) :
    (srcM 1).view.read (Elt F) ((sndM.access (chRect 1)).write (Elt F) f (k0_pay26 a) Finset.univ) = truncf .bf16 a bitsLt_bf16_f32 :=
  read_src_store_pay26_at _ _ f a
theorem store_src_subset_2 : (sndM.access (chRect 2)).setOn Finset.univ ⊆ (srcM 2).view.set := subset_of_eq (src_setOn_at _ _)
theorem load_src_subset_2 : sndM.view.setOn (chRect 2).toLoadRect.set ⊆ (srcM 2).view.set := subset_of_eq (src_set_at _ _).symm
theorem read_src_store_2 (f : sndM.view.ty.Contents (Elt F)) (v : FVec F S1x256x128 .bf16) :
    (srcM 2).view.read (Elt F) ((sndM.access (chRect 2)).write (Elt F) f v Finset.univ) = shapeCast S256x128 v shapeCasts_S1x256x128_S256x128 :=
  read_src_store_at _ _ f v
theorem read_src_store_pay26_2 (f : sndM.view.ty.Contents (Elt F)) (a : FVec F S256x128 .f32) :
    (srcM 2).view.read (Elt F) ((sndM.access (chRect 2)).write (Elt F) f (k0_pay26 a) Finset.univ) = truncf .bf16 a bitsLt_bf16_f32 :=
  read_src_store_pay26_at _ _ f a
theorem store_src_subset_3 : (sndM.access (chRect 3)).setOn Finset.univ ⊆ (srcM 3).view.set := subset_of_eq (src_setOn_at _ _)
theorem load_src_subset_3 : sndM.view.setOn (chRect 3).toLoadRect.set ⊆ (srcM 3).view.set := subset_of_eq (src_set_at _ _).symm
theorem read_src_store_3 (f : sndM.view.ty.Contents (Elt F)) (v : FVec F S1x256x128 .bf16) :
    (srcM 3).view.read (Elt F) ((sndM.access (chRect 3)).write (Elt F) f v Finset.univ) = shapeCast S256x128 v shapeCasts_S1x256x128_S256x128 :=
  read_src_store_at _ _ f v
theorem read_src_store_pay26_3 (f : sndM.view.ty.Contents (Elt F)) (a : FVec F S256x128 .f32) :
    (srcM 3).view.read (Elt F) ((sndM.access (chRect 3)).write (Elt F) f (k0_pay26 a) Finset.univ) = truncf .bf16 a bitsLt_bf16_f32 :=
  read_src_store_pay26_at _ _ f a

theorem load_slot_subset_0 : comM.view.setOn (slotRect 0).toLoadRect.set ⊆ (slotM 0).view.set := subset_of_eq (slot_set_at _ _).symm
theorem load_slot_0 (f : comM.view.ty.Contents (Elt F)) :
    comM.view.readAt (Elt F) (slotRect 0).toLoadRect f = shapeCast S1x1x1x256x128 ((slotM 0).view.read (Elt F) f) shapeCasts_S256x128_S1x1x1x256x128 :=
  load_slot_at _ _ f
theorem load_slot_subset_1 : comM.view.setOn (slotRect 1).toLoadRect.set ⊆ (slotM 1).view.set := subset_of_eq (slot_set_at _ _).symm
theorem load_slot_1 (f : comM.view.ty.Contents (Elt F)) :
    comM.view.readAt (Elt F) (slotRect 1).toLoadRect f = shapeCast S1x1x1x256x128 ((slotM 1).view.read (Elt F) f) shapeCasts_S256x128_S1x1x1x256x128 :=
  load_slot_at _ _ f
theorem load_slot_subset_2 : comM.view.setOn (slotRect 2).toLoadRect.set ⊆ (slotM 2).view.set := subset_of_eq (slot_set_at _ _).symm
theorem load_slot_2 (f : comM.view.ty.Contents (Elt F)) :
    comM.view.readAt (Elt F) (slotRect 2).toLoadRect f = shapeCast S1x1x1x256x128 ((slotM 2).view.read (Elt F) f) shapeCasts_S256x128_S1x1x1x256x128 :=
  load_slot_at _ _ f
theorem load_slot_subset_3 : comM.view.setOn (slotRect 3).toLoadRect.set ⊆ (slotM 3).view.set := subset_of_eq (slot_set_at _ _).symm
theorem load_slot_3 (f : comM.view.ty.Contents (Elt F)) :
    comM.view.readAt (Elt F) (slotRect 3).toLoadRect f = shapeCast S1x1x1x256x128 ((slotM 3).view.read (Elt F) f) shapeCasts_S256x128_S1x1x1x256x128 :=
  load_slot_at _ _ f
theorem load_slot_subset_4 : comM.view.setOn (slotRect 4).toLoadRect.set ⊆ (slotM 4).view.set := subset_of_eq (slot_set_at _ _).symm
theorem load_slot_4 (f : comM.view.ty.Contents (Elt F)) :
    comM.view.readAt (Elt F) (slotRect 4).toLoadRect f = shapeCast S1x1x1x256x128 ((slotM 4).view.read (Elt F) f) shapeCasts_S256x128_S1x1x1x256x128 :=
  load_slot_at _ _ f
theorem load_slot_subset_5 : comM.view.setOn (slotRect 5).toLoadRect.set ⊆ (slotM 5).view.set := subset_of_eq (slot_set_at _ _).symm
theorem load_slot_5 (f : comM.view.ty.Contents (Elt F)) :
    comM.view.readAt (Elt F) (slotRect 5).toLoadRect f = shapeCast S1x1x1x256x128 ((slotM 5).view.read (Elt F) f) shapeCasts_S256x128_S1x1x1x256x128 :=
  load_slot_at _ _ f
theorem load_slot_subset_6 : comM.view.setOn (slotRect 6).toLoadRect.set ⊆ (slotM 6).view.set := subset_of_eq (slot_set_at _ _).symm
theorem load_slot_6 (f : comM.view.ty.Contents (Elt F)) :
    comM.view.readAt (Elt F) (slotRect 6).toLoadRect f = shapeCast S1x1x1x256x128 ((slotM 6).view.read (Elt F) f) shapeCasts_S256x128_S1x1x1x256x128 :=
  load_slot_at _ _ f
theorem load_slot_subset_7 : comM.view.setOn (slotRect 7).toLoadRect.set ⊆ (slotM 7).view.set := subset_of_eq (slot_set_at _ _).symm
theorem load_slot_7 (f : comM.view.ty.Contents (Elt F)) :
    comM.view.readAt (Elt F) (slotRect 7).toLoadRect f = shapeCast S1x1x1x256x128 ((slotM 7).view.read (Elt F) f) shapeCasts_S256x128_S1x1x1x256x128 :=
  load_slot_at _ _ f
theorem load_slot_subset_8 : comM.view.setOn (slotRect 8).toLoadRect.set ⊆ (slotM 8).view.set := subset_of_eq (slot_set_at _ _).symm
theorem load_slot_8 (f : comM.view.ty.Contents (Elt F)) :
    comM.view.readAt (Elt F) (slotRect 8).toLoadRect f = shapeCast S1x1x1x256x128 ((slotM 8).view.read (Elt F) f) shapeCasts_S256x128_S1x1x1x256x128 :=
  load_slot_at _ _ f
theorem load_slot_subset_9 : comM.view.setOn (slotRect 9).toLoadRect.set ⊆ (slotM 9).view.set := subset_of_eq (slot_set_at _ _).symm
theorem load_slot_9 (f : comM.view.ty.Contents (Elt F)) :
    comM.view.readAt (Elt F) (slotRect 9).toLoadRect f = shapeCast S1x1x1x256x128 ((slotM 9).view.read (Elt F) f) shapeCasts_S256x128_S1x1x1x256x128 :=
  load_slot_at _ _ f
theorem load_slot_subset_10 : comM.view.setOn (slotRect 10).toLoadRect.set ⊆ (slotM 10).view.set := subset_of_eq (slot_set_at _ _).symm
theorem load_slot_10 (f : comM.view.ty.Contents (Elt F)) :
    comM.view.readAt (Elt F) (slotRect 10).toLoadRect f = shapeCast S1x1x1x256x128 ((slotM 10).view.read (Elt F) f) shapeCasts_S256x128_S1x1x1x256x128 :=
  load_slot_at _ _ f
theorem load_slot_subset_11 : comM.view.setOn (slotRect 11).toLoadRect.set ⊆ (slotM 11).view.set := subset_of_eq (slot_set_at _ _).symm
theorem load_slot_11 (f : comM.view.ty.Contents (Elt F)) :
    comM.view.readAt (Elt F) (slotRect 11).toLoadRect f = shapeCast S1x1x1x256x128 ((slotM 11).view.read (Elt F) f) shapeCasts_S256x128_S1x1x1x256x128 :=
  load_slot_at _ _ f
theorem load_slot_subset_12 : comM.view.setOn (slotRect 12).toLoadRect.set ⊆ (slotM 12).view.set := subset_of_eq (slot_set_at _ _).symm
theorem load_slot_12 (f : comM.view.ty.Contents (Elt F)) :
    comM.view.readAt (Elt F) (slotRect 12).toLoadRect f = shapeCast S1x1x1x256x128 ((slotM 12).view.read (Elt F) f) shapeCasts_S256x128_S1x1x1x256x128 :=
  load_slot_at _ _ f
theorem load_slot_subset_13 : comM.view.setOn (slotRect 13).toLoadRect.set ⊆ (slotM 13).view.set := subset_of_eq (slot_set_at _ _).symm
theorem load_slot_13 (f : comM.view.ty.Contents (Elt F)) :
    comM.view.readAt (Elt F) (slotRect 13).toLoadRect f = shapeCast S1x1x1x256x128 ((slotM 13).view.read (Elt F) f) shapeCasts_S256x128_S1x1x1x256x128 :=
  load_slot_at _ _ f
theorem load_slot_subset_14 : comM.view.setOn (slotRect 14).toLoadRect.set ⊆ (slotM 14).view.set := subset_of_eq (slot_set_at _ _).symm
theorem load_slot_14 (f : comM.view.ty.Contents (Elt F)) :
    comM.view.readAt (Elt F) (slotRect 14).toLoadRect f = shapeCast S1x1x1x256x128 ((slotM 14).view.read (Elt F) f) shapeCasts_S256x128_S1x1x1x256x128 :=
  load_slot_at _ _ f
theorem load_slot_subset_15 : comM.view.setOn (slotRect 15).toLoadRect.set ⊆ (slotM 15).view.set := subset_of_eq (slot_set_at _ _).symm
theorem load_slot_15 (f : comM.view.ty.Contents (Elt F)) :
    comM.view.readAt (Elt F) (slotRect 15).toLoadRect f = shapeCast S1x1x1x256x128 ((slotM 15).view.read (Elt F) f) shapeCasts_S256x128_S1x1x1x256x128 :=
  load_slot_at _ _ f
theorem load_slot_subset_16 : comM.view.setOn (slotRect 16).toLoadRect.set ⊆ (slotM 16).view.set := subset_of_eq (slot_set_at _ _).symm
theorem load_slot_16 (f : comM.view.ty.Contents (Elt F)) :
    comM.view.readAt (Elt F) (slotRect 16).toLoadRect f = shapeCast S1x1x1x256x128 ((slotM 16).view.read (Elt F) f) shapeCasts_S256x128_S1x1x1x256x128 :=
  load_slot_at _ _ f
theorem load_slot_subset_17 : comM.view.setOn (slotRect 17).toLoadRect.set ⊆ (slotM 17).view.set := subset_of_eq (slot_set_at _ _).symm
theorem load_slot_17 (f : comM.view.ty.Contents (Elt F)) :
    comM.view.readAt (Elt F) (slotRect 17).toLoadRect f = shapeCast S1x1x1x256x128 ((slotM 17).view.read (Elt F) f) shapeCasts_S256x128_S1x1x1x256x128 :=
  load_slot_at _ _ f
theorem load_slot_subset_18 : comM.view.setOn (slotRect 18).toLoadRect.set ⊆ (slotM 18).view.set := subset_of_eq (slot_set_at _ _).symm
theorem load_slot_18 (f : comM.view.ty.Contents (Elt F)) :
    comM.view.readAt (Elt F) (slotRect 18).toLoadRect f = shapeCast S1x1x1x256x128 ((slotM 18).view.read (Elt F) f) shapeCasts_S256x128_S1x1x1x256x128 :=
  load_slot_at _ _ f
theorem load_slot_subset_19 : comM.view.setOn (slotRect 19).toLoadRect.set ⊆ (slotM 19).view.set := subset_of_eq (slot_set_at _ _).symm
theorem load_slot_19 (f : comM.view.ty.Contents (Elt F)) :
    comM.view.readAt (Elt F) (slotRect 19).toLoadRect f = shapeCast S1x1x1x256x128 ((slotM 19).view.read (Elt F) f) shapeCasts_S256x128_S1x1x1x256x128 :=
  load_slot_at _ _ f

/-- The views of one buffer have that buffer's location. -/
theorem slot_loc (s : Fin 20) (p : Dev nD) : (slotM s).view.loc (p : Thread nD τ) = comM.view.loc (p : Thread nD τ) := by
  fin_cases s <;> rfl
theorem slot_access_loc (s : Fin 20) (p : Dev nD) :
    (comM.access (slotRect s)).loc (p : Thread nD τ) = comM.view.loc (p : Thread nD τ) := rfl
theorem src_loc (ch : Fin 4) (p : Dev nD) : (srcM ch).view.loc (p : Thread nD τ) = sndM.view.loc (p : Thread nD τ) := by
  fin_cases ch <;> rfl
theorem src_access_loc (ch : Fin 4) (p : Dev nD) :
    (sndM.access (chRect ch)).loc (p : Thread nD τ) = sndM.view.loc (p : Thread nD τ) := rfl
theorem acc_access_loc (r : Rect S4x256x128) (p : Dev nD) :
    (accM.access r).loc (p : Thread nD τ) = accM.view.loc (p : Thread nD τ) := rfl

end Cert.Kernel.Views

end

/-- info: 'Cert.Kernel.Views.read_src_store_at' depends on axioms: [propext, Classical.choice, Quot.sound] -/
#guard_msgs in #print axioms Cert.Kernel.Views.read_src_store_at
/-- info: 'Cert.Kernel.Views.load_slot_at' depends on axioms: [propext, Classical.choice, Quot.sound] -/
#guard_msgs in #print axioms Cert.Kernel.Views.load_slot_at
/-- info: 'Cert.Kernel.Views.slot_set_at' depends on axioms: [propext, Classical.choice, Quot.sound] -/
#guard_msgs in #print axioms Cert.Kernel.Views.slot_set_at
-- ==== Proof.KernelRegions.lean ====
/-
  The region algebra of the exchange's buffers.

  A points-to assertion over a buffer splits along a partition of the buffer's index set and along a partition of the
  share. The outgoing buffer is the disjoint union of its four chunk slices; the receive buffer is the disjoint union of
  its twenty used slots and the unused rest; a slice held whole is the same as its three third parts held together,
  and three holders of the third parts agree on the slice's contents. Two contents that agree on a slice give the same
  assertion about it.
-/
import proofs.«900514_g7700000000000515_dist_attn_self_mha_htp_b2_sq128_skv128_d512_hq8_dh64_v7x_i16_bf16_1_alg».proof.Proof.KernelProto

noncomputable section

namespace Cert.Kernel.Regions

open Cert.Kernel Cert.Kernel.Gen Cert.Kernel.Terms Cert.Kernel.Proto

open Idealize.ShloMosaic
open Idealize.ShloMosaic.TcCoe
open Idealize.SL Idealize.SL.RA Idealize.SL.BI
open PCS
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Splitting a points-to along its index set -/

/-- Carving a subset out of a held index set. -/
theorem pts_split {ℓ : Loc nD τ sig} {S I : Finset (Idx ℓ)} (q : PosShare TreeShare) (f : Buf (Elt F) ℓ) (h : I ⊆ S) :
    ((ℓ ↦[S]{q} f) : sProp 𝕄) ⊣⊢ iprop((ℓ ↦[I]{q} f) ∗ (ℓ ↦[S \ I]{q} f)) :=
  Region.is_split_subset h

/-- The elements of a finite type whose key lies in a set of numbers. -/
def keySet {α : Type} [Fintype α] (key : α → ℕ) (K : Finset ℕ) : Finset α := Finset.univ.filter fun i => key i ∈ K

theorem mem_keySet {α : Type} [Fintype α] {key : α → ℕ} {K : Finset ℕ} {i : α} : i ∈ keySet key K ↔ key i ∈ K := by
  simp [keySet]

/-- Every element's key is below `n`: the keys below `n` are everything. -/
theorem keySet_range {α : Type} [Fintype α] (key : α → ℕ) (n : ℕ) (h : ∀ i, key i < n) :
    keySet key (Finset.range n) = Finset.univ := by
  ext i; simp [mem_keySet, h i]

theorem keySet_sdiff {α : Type} [Fintype α] [DecidableEq α] (key : α → ℕ) (K : Finset ℕ) (n : ℕ) :
    keySet key K \ keySet key {n} = keySet key (K.erase n) := by
  ext i
  simp only [Finset.mem_sdiff, mem_keySet, Finset.mem_singleton, Finset.mem_erase]
  tauto

theorem keySet_single_subset {α : Type} [Fintype α] (key : α → ℕ) {K : Finset ℕ} {n : ℕ} (h : n ∈ K) :
    keySet key {n} ⊆ keySet key K := fun i hi =>
  mem_keySet.2 (by rw [Finset.mem_singleton.1 (mem_keySet.1 hi)]; exact h)

/-- One step of a split by keys: the elements of key `n` come off, the rest splits further. -/
theorem key_step {ℓ : Loc nD τ sig} (key : Idx ℓ → ℕ) (q : PosShare TreeShare) (f : Buf (Elt F) ℓ) (K : Finset ℕ) (n : ℕ)
    (I : Finset (Idx ℓ)) (hI : I = keySet key {n}) (h : n ∈ K) {R : sProp 𝕄}
    (hR : ((ℓ ↦[keySet key (K.erase n)]{q} f) : sProp 𝕄) ⊣⊢ R) :
    ((ℓ ↦[keySet key K]{q} f) : sProp 𝕄) ⊣⊢ iprop((ℓ ↦[I]{q} f) ∗ R) := by
  subst hI
  refine (pts_split q f (keySet_single_subset key h)).trans (sep_congr_right ?_)
  rw [keySet_sdiff]; exact hR

/-! ## The outgoing buffer: four chunk slices -/

/-- The chunk an element of the outgoing buffer lies in. -/
def sndKey (i : S4x256x128.Idx) : ℕ := (i 0).val

theorem sndKey_lt (i : S4x256x128.Idx) : sndKey i < 4 := (i 0).isLt

/-- An element of a unit-stride slice of the outgoing buffer, squeezed: between the offsets and the offsets plus sizes. -/
theorem mem_snd_slice (off : Fin 3 → ℕ) (inb : ∀ a, off a + S1x256x128.size a ≤ S4x256x128.size a) (i : S4x256x128.Idx) :
    i ∈ ((sndM.slice (Rect.unit (s := S4x256x128) off S1x256x128.size inb) (fun _ => rfl)).squeeze S256x128 squeezes_S1x256x128_S256x128).view.set
      ↔ ∀ a, off a ≤ (i a : ℕ) ∧ (i a : ℕ) < off a + S1x256x128.size a := by
  have e : ((sndM.slice (Rect.unit (s := S4x256x128) off S1x256x128.size inb) (fun _ => rfl)).squeeze S256x128 squeezes_S1x256x128_S256x128).view.set
      = (Rect.unit (s := S4x256x128) off S1x256x128.size inb).set :=
    (View.set_reshape _ _).trans (View.set_slice_whole cc0_scratch1 _)
  rw [e]; exact Rect.mem_set_unit

theorem mem_src_0 (i : S4x256x128.Idx) : i ∈ (srcM 0).view.set ↔ sndKey i = 0 := by
  have h1 : (i 1).val < 256 := (i 1).isLt
  have h2 : (i 2).val < 128 := (i 2).isLt
  refine (mem_snd_slice ![0, 0, 0] _ i).trans ⟨fun h => ?_, fun h a => ?_⟩
  · have a0 : 0 ≤ (i 0).val ∧ (i 0).val < 0 + 1 := h 0
    show (i 0).val = 0; omega
  · have h' : (i 0).val = 0 := h
    match a with
    | ⟨0, _⟩ => show 0 ≤ (i 0).val ∧ (i 0).val < 0 + 1; omega
    | ⟨1, _⟩ => show 0 ≤ (i 1).val ∧ (i 1).val < 0 + 256; omega
    | ⟨2, _⟩ => show 0 ≤ (i 2).val ∧ (i 2).val < 0 + 128; omega

theorem src_set_0 : (srcM 0).view.set = keySet sndKey {0} :=
  Finset.ext fun i => (mem_src_0 i).trans (mem_keySet.trans Finset.mem_singleton).symm

theorem mem_src_1 (i : S4x256x128.Idx) : i ∈ (srcM 1).view.set ↔ sndKey i = 1 := by
  have h1 : (i 1).val < 256 := (i 1).isLt
  have h2 : (i 2).val < 128 := (i 2).isLt
  refine (mem_snd_slice ![1, 0, 0] _ i).trans ⟨fun h => ?_, fun h a => ?_⟩
  · have a0 : 1 ≤ (i 0).val ∧ (i 0).val < 1 + 1 := h 0
    show (i 0).val = 1; omega
  · have h' : (i 0).val = 1 := h
    match a with
    | ⟨0, _⟩ => show 1 ≤ (i 0).val ∧ (i 0).val < 1 + 1; omega
    | ⟨1, _⟩ => show 0 ≤ (i 1).val ∧ (i 1).val < 0 + 256; omega
    | ⟨2, _⟩ => show 0 ≤ (i 2).val ∧ (i 2).val < 0 + 128; omega

theorem src_set_1 : (srcM 1).view.set = keySet sndKey {1} :=
  Finset.ext fun i => (mem_src_1 i).trans (mem_keySet.trans Finset.mem_singleton).symm

theorem mem_src_2 (i : S4x256x128.Idx) : i ∈ (srcM 2).view.set ↔ sndKey i = 2 := by
  have h1 : (i 1).val < 256 := (i 1).isLt
  have h2 : (i 2).val < 128 := (i 2).isLt
  refine (mem_snd_slice ![2, 0, 0] _ i).trans ⟨fun h => ?_, fun h a => ?_⟩
  · have a0 : 2 ≤ (i 0).val ∧ (i 0).val < 2 + 1 := h 0
    show (i 0).val = 2; omega
  · have h' : (i 0).val = 2 := h
    match a with
    | ⟨0, _⟩ => show 2 ≤ (i 0).val ∧ (i 0).val < 2 + 1; omega
    | ⟨1, _⟩ => show 0 ≤ (i 1).val ∧ (i 1).val < 0 + 256; omega
    | ⟨2, _⟩ => show 0 ≤ (i 2).val ∧ (i 2).val < 0 + 128; omega

theorem src_set_2 : (srcM 2).view.set = keySet sndKey {2} :=
  Finset.ext fun i => (mem_src_2 i).trans (mem_keySet.trans Finset.mem_singleton).symm

theorem mem_src_3 (i : S4x256x128.Idx) : i ∈ (srcM 3).view.set ↔ sndKey i = 3 := by
  have h1 : (i 1).val < 256 := (i 1).isLt
  have h2 : (i 2).val < 128 := (i 2).isLt
  refine (mem_snd_slice ![3, 0, 0] _ i).trans ⟨fun h => ?_, fun h a => ?_⟩
  · have a0 : 3 ≤ (i 0).val ∧ (i 0).val < 3 + 1 := h 0
    show (i 0).val = 3; omega
  · have h' : (i 0).val = 3 := h
    match a with
    | ⟨0, _⟩ => show 3 ≤ (i 0).val ∧ (i 0).val < 3 + 1; omega
    | ⟨1, _⟩ => show 0 ≤ (i 1).val ∧ (i 1).val < 0 + 256; omega
    | ⟨2, _⟩ => show 0 ≤ (i 2).val ∧ (i 2).val < 0 + 128; omega

theorem src_set_3 : (srcM 3).view.set = keySet sndKey {3} :=
  Finset.ext fun i => (mem_src_3 i).trans (mem_keySet.trans Finset.mem_singleton).symm

/-- THE OUTGOING BUFFER, held whole, is its four chunk slices held together. -/
theorem split_snd (c : Dev nD) (f : Buf (Elt F) ((c : Thread nD τ).loc cc0_scratch1)) :
    ((((c : Thread nD τ).loc cc0_scratch1) ↦{fullShare} f) : sProp 𝕄)
      ⊣⊢ iprop(srcPts c 0 fullShare f ∗ srcPts c 1 fullShare f ∗ srcPts c 2 fullShare f ∗ srcPts c 3 fullShare f) := by
  have e : (Finset.univ : Finset (Idx ((c : Thread nD τ).loc cc0_scratch1))) = keySet sndKey (Finset.range 4) :=
    (keySet_range sndKey 4 sndKey_lt).symm
  have e3 : keySet sndKey ((((Finset.range 4).erase 0).erase 1).erase 2) = (srcM 3).view.set := by
    rw [src_set_3]; exact congrArg (keySet sndKey) (by decide)
  have chain :
      ((((c : Thread nD τ).loc cc0_scratch1) ↦[keySet sndKey (Finset.range 4)]{fullShare} f) : sProp 𝕄)
        ⊣⊢ iprop((((c : Thread nD τ).loc cc0_scratch1) ↦[(srcM 0).view.set]{fullShare} f)
            ∗ (((c : Thread nD τ).loc cc0_scratch1) ↦[(srcM 1).view.set]{fullShare} f)
            ∗ (((c : Thread nD τ).loc cc0_scratch1) ↦[(srcM 2).view.set]{fullShare} f)
            ∗ (((c : Thread nD τ).loc cc0_scratch1) ↦[(srcM 3).view.set]{fullShare} f)) :=
    key_step (ℓ := (c : Thread nD τ).loc cc0_scratch1) sndKey fullShare f _ 0 _ src_set_0 (by decide)
      (key_step (ℓ := (c : Thread nD τ).loc cc0_scratch1) sndKey fullShare f _ 1 _ src_set_1 (by decide)
        (key_step (ℓ := (c : Thread nD τ).loc cc0_scratch1) sndKey fullShare f _ 2 _ src_set_2 (by decide) (BiEntails.of_eq (by rw [e3]))))
  rw [e]
  exact chain

/-! ## The receive buffer: twenty slots and the rest -/

/-- The position of an element's slot among the `3 × 4 × 3` slots of the receive buffer. -/
def comKey (i : S3x4x3x256x128.Idx) : ℕ := (i 0).val * 12 + (i 1).val * 3 + (i 2).val

theorem comKey_lt (i : S3x4x3x256x128.Idx) : comKey i < 36 := by
  have h0 : (i 0).val < 3 := (i 0).isLt
  have h1 : (i 1).val < 4 := (i 1).isLt
  have h2 : (i 2).val < 3 := (i 2).isLt
  unfold comKey; omega

theorem mem_com_slice (off : Fin 5 → ℕ) (inb : ∀ a, off a + S1x1x1x256x128.size a ≤ S3x4x3x256x128.size a) (i : S3x4x3x256x128.Idx) :
    i ∈ ((comM.slice (Rect.unit (s := S3x4x3x256x128) off S1x1x1x256x128.size inb) (fun _ => rfl)).squeeze S256x128 squeezes_S1x1x1x256x128_S256x128).view.set
      ↔ ∀ a, off a ≤ (i a : ℕ) ∧ (i a : ℕ) < off a + S1x1x1x256x128.size a := by
  have e : ((comM.slice (Rect.unit (s := S3x4x3x256x128) off S1x1x1x256x128.size inb) (fun _ => rfl)).squeeze S256x128 squeezes_S1x1x1x256x128_S256x128).view.set
      = (Rect.unit (s := S3x4x3x256x128) off S1x1x1x256x128.size inb).set :=
    (View.set_reshape _ _).trans (View.set_slice_whole cc0_scratch2 _)
  rw [e]; exact Rect.mem_set_unit

theorem mem_slot_0 (i : S3x4x3x256x128.Idx) : i ∈ (slotM 0).view.set ↔ comKey i = 0 := by
  have h0 : (i 0).val < 3 := (i 0).isLt
  have h1 : (i 1).val < 4 := (i 1).isLt
  have h2 : (i 2).val < 3 := (i 2).isLt
  have h3 : (i 3).val < 256 := (i 3).isLt
  have h4 : (i 4).val < 128 := (i 4).isLt
  refine (mem_com_slice ![0, 0, 0, 0, 0] _ i).trans ⟨fun h => ?_, fun h a => ?_⟩
  · have a0 : 0 ≤ (i 0).val ∧ (i 0).val < 0 + 1 := h 0
    have a1 : 0 ≤ (i 1).val ∧ (i 1).val < 0 + 1 := h 1
    have a2 : 0 ≤ (i 2).val ∧ (i 2).val < 0 + 1 := h 2
    show (i 0).val * 12 + (i 1).val * 3 + (i 2).val = 0; omega
  · have h' : (i 0).val * 12 + (i 1).val * 3 + (i 2).val = 0 := h
    match a with
    | ⟨0, _⟩ => show 0 ≤ (i 0).val ∧ (i 0).val < 0 + 1; omega
    | ⟨1, _⟩ => show 0 ≤ (i 1).val ∧ (i 1).val < 0 + 1; omega
    | ⟨2, _⟩ => show 0 ≤ (i 2).val ∧ (i 2).val < 0 + 1; omega
    | ⟨3, _⟩ => show 0 ≤ (i 3).val ∧ (i 3).val < 0 + 256; omega
    | ⟨4, _⟩ => show 0 ≤ (i 4).val ∧ (i 4).val < 0 + 128; omega

theorem slot_set_0 : (slotM 0).view.set = keySet comKey {0} :=
  Finset.ext fun i => (mem_slot_0 i).trans (mem_keySet.trans Finset.mem_singleton).symm

theorem mem_slot_1 (i : S3x4x3x256x128.Idx) : i ∈ (slotM 1).view.set ↔ comKey i = 1 := by
  have h0 : (i 0).val < 3 := (i 0).isLt
  have h1 : (i 1).val < 4 := (i 1).isLt
  have h2 : (i 2).val < 3 := (i 2).isLt
  have h3 : (i 3).val < 256 := (i 3).isLt
  have h4 : (i 4).val < 128 := (i 4).isLt
  refine (mem_com_slice ![0, 0, 1, 0, 0] _ i).trans ⟨fun h => ?_, fun h a => ?_⟩
  · have a0 : 0 ≤ (i 0).val ∧ (i 0).val < 0 + 1 := h 0
    have a1 : 0 ≤ (i 1).val ∧ (i 1).val < 0 + 1 := h 1
    have a2 : 1 ≤ (i 2).val ∧ (i 2).val < 1 + 1 := h 2
    show (i 0).val * 12 + (i 1).val * 3 + (i 2).val = 1; omega
  · have h' : (i 0).val * 12 + (i 1).val * 3 + (i 2).val = 1 := h
    match a with
    | ⟨0, _⟩ => show 0 ≤ (i 0).val ∧ (i 0).val < 0 + 1; omega
    | ⟨1, _⟩ => show 0 ≤ (i 1).val ∧ (i 1).val < 0 + 1; omega
    | ⟨2, _⟩ => show 1 ≤ (i 2).val ∧ (i 2).val < 1 + 1; omega
    | ⟨3, _⟩ => show 0 ≤ (i 3).val ∧ (i 3).val < 0 + 256; omega
    | ⟨4, _⟩ => show 0 ≤ (i 4).val ∧ (i 4).val < 0 + 128; omega

theorem slot_set_1 : (slotM 1).view.set = keySet comKey {1} :=
  Finset.ext fun i => (mem_slot_1 i).trans (mem_keySet.trans Finset.mem_singleton).symm

theorem mem_slot_2 (i : S3x4x3x256x128.Idx) : i ∈ (slotM 2).view.set ↔ comKey i = 2 := by
  have h0 : (i 0).val < 3 := (i 0).isLt
  have h1 : (i 1).val < 4 := (i 1).isLt
  have h2 : (i 2).val < 3 := (i 2).isLt
  have h3 : (i 3).val < 256 := (i 3).isLt
  have h4 : (i 4).val < 128 := (i 4).isLt
  refine (mem_com_slice ![0, 0, 2, 0, 0] _ i).trans ⟨fun h => ?_, fun h a => ?_⟩
  · have a0 : 0 ≤ (i 0).val ∧ (i 0).val < 0 + 1 := h 0
    have a1 : 0 ≤ (i 1).val ∧ (i 1).val < 0 + 1 := h 1
    have a2 : 2 ≤ (i 2).val ∧ (i 2).val < 2 + 1 := h 2
    show (i 0).val * 12 + (i 1).val * 3 + (i 2).val = 2; omega
  · have h' : (i 0).val * 12 + (i 1).val * 3 + (i 2).val = 2 := h
    match a with
    | ⟨0, _⟩ => show 0 ≤ (i 0).val ∧ (i 0).val < 0 + 1; omega
    | ⟨1, _⟩ => show 0 ≤ (i 1).val ∧ (i 1).val < 0 + 1; omega
    | ⟨2, _⟩ => show 2 ≤ (i 2).val ∧ (i 2).val < 2 + 1; omega
    | ⟨3, _⟩ => show 0 ≤ (i 3).val ∧ (i 3).val < 0 + 256; omega
    | ⟨4, _⟩ => show 0 ≤ (i 4).val ∧ (i 4).val < 0 + 128; omega

theorem slot_set_2 : (slotM 2).view.set = keySet comKey {2} :=
  Finset.ext fun i => (mem_slot_2 i).trans (mem_keySet.trans Finset.mem_singleton).symm

theorem mem_slot_3 (i : S3x4x3x256x128.Idx) : i ∈ (slotM 3).view.set ↔ comKey i = 3 := by
  have h0 : (i 0).val < 3 := (i 0).isLt
  have h1 : (i 1).val < 4 := (i 1).isLt
  have h2 : (i 2).val < 3 := (i 2).isLt
  have h3 : (i 3).val < 256 := (i 3).isLt
  have h4 : (i 4).val < 128 := (i 4).isLt
  refine (mem_com_slice ![0, 1, 0, 0, 0] _ i).trans ⟨fun h => ?_, fun h a => ?_⟩
  · have a0 : 0 ≤ (i 0).val ∧ (i 0).val < 0 + 1 := h 0
    have a1 : 1 ≤ (i 1).val ∧ (i 1).val < 1 + 1 := h 1
    have a2 : 0 ≤ (i 2).val ∧ (i 2).val < 0 + 1 := h 2
    show (i 0).val * 12 + (i 1).val * 3 + (i 2).val = 3; omega
  · have h' : (i 0).val * 12 + (i 1).val * 3 + (i 2).val = 3 := h
    match a with
    | ⟨0, _⟩ => show 0 ≤ (i 0).val ∧ (i 0).val < 0 + 1; omega
    | ⟨1, _⟩ => show 1 ≤ (i 1).val ∧ (i 1).val < 1 + 1; omega
    | ⟨2, _⟩ => show 0 ≤ (i 2).val ∧ (i 2).val < 0 + 1; omega
    | ⟨3, _⟩ => show 0 ≤ (i 3).val ∧ (i 3).val < 0 + 256; omega
    | ⟨4, _⟩ => show 0 ≤ (i 4).val ∧ (i 4).val < 0 + 128; omega

theorem slot_set_3 : (slotM 3).view.set = keySet comKey {3} :=
  Finset.ext fun i => (mem_slot_3 i).trans (mem_keySet.trans Finset.mem_singleton).symm

theorem mem_slot_4 (i : S3x4x3x256x128.Idx) : i ∈ (slotM 4).view.set ↔ comKey i = 6 := by
  have h0 : (i 0).val < 3 := (i 0).isLt
  have h1 : (i 1).val < 4 := (i 1).isLt
  have h2 : (i 2).val < 3 := (i 2).isLt
  have h3 : (i 3).val < 256 := (i 3).isLt
  have h4 : (i 4).val < 128 := (i 4).isLt
  refine (mem_com_slice ![0, 2, 0, 0, 0] _ i).trans ⟨fun h => ?_, fun h a => ?_⟩
  · have a0 : 0 ≤ (i 0).val ∧ (i 0).val < 0 + 1 := h 0
    have a1 : 2 ≤ (i 1).val ∧ (i 1).val < 2 + 1 := h 1
    have a2 : 0 ≤ (i 2).val ∧ (i 2).val < 0 + 1 := h 2
    show (i 0).val * 12 + (i 1).val * 3 + (i 2).val = 6; omega
  · have h' : (i 0).val * 12 + (i 1).val * 3 + (i 2).val = 6 := h
    match a with
    | ⟨0, _⟩ => show 0 ≤ (i 0).val ∧ (i 0).val < 0 + 1; omega
    | ⟨1, _⟩ => show 2 ≤ (i 1).val ∧ (i 1).val < 2 + 1; omega
    | ⟨2, _⟩ => show 0 ≤ (i 2).val ∧ (i 2).val < 0 + 1; omega
    | ⟨3, _⟩ => show 0 ≤ (i 3).val ∧ (i 3).val < 0 + 256; omega
    | ⟨4, _⟩ => show 0 ≤ (i 4).val ∧ (i 4).val < 0 + 128; omega

theorem slot_set_4 : (slotM 4).view.set = keySet comKey {6} :=
  Finset.ext fun i => (mem_slot_4 i).trans (mem_keySet.trans Finset.mem_singleton).symm

theorem mem_slot_5 (i : S3x4x3x256x128.Idx) : i ∈ (slotM 5).view.set ↔ comKey i = 9 := by
  have h0 : (i 0).val < 3 := (i 0).isLt
  have h1 : (i 1).val < 4 := (i 1).isLt
  have h2 : (i 2).val < 3 := (i 2).isLt
  have h3 : (i 3).val < 256 := (i 3).isLt
  have h4 : (i 4).val < 128 := (i 4).isLt
  refine (mem_com_slice ![0, 3, 0, 0, 0] _ i).trans ⟨fun h => ?_, fun h a => ?_⟩
  · have a0 : 0 ≤ (i 0).val ∧ (i 0).val < 0 + 1 := h 0
    have a1 : 3 ≤ (i 1).val ∧ (i 1).val < 3 + 1 := h 1
    have a2 : 0 ≤ (i 2).val ∧ (i 2).val < 0 + 1 := h 2
    show (i 0).val * 12 + (i 1).val * 3 + (i 2).val = 9; omega
  · have h' : (i 0).val * 12 + (i 1).val * 3 + (i 2).val = 9 := h
    match a with
    | ⟨0, _⟩ => show 0 ≤ (i 0).val ∧ (i 0).val < 0 + 1; omega
    | ⟨1, _⟩ => show 3 ≤ (i 1).val ∧ (i 1).val < 3 + 1; omega
    | ⟨2, _⟩ => show 0 ≤ (i 2).val ∧ (i 2).val < 0 + 1; omega
    | ⟨3, _⟩ => show 0 ≤ (i 3).val ∧ (i 3).val < 0 + 256; omega
    | ⟨4, _⟩ => show 0 ≤ (i 4).val ∧ (i 4).val < 0 + 128; omega

theorem slot_set_5 : (slotM 5).view.set = keySet comKey {9} :=
  Finset.ext fun i => (mem_slot_5 i).trans (mem_keySet.trans Finset.mem_singleton).symm

theorem mem_slot_6 (i : S3x4x3x256x128.Idx) : i ∈ (slotM 6).view.set ↔ comKey i = 10 := by
  have h0 : (i 0).val < 3 := (i 0).isLt
  have h1 : (i 1).val < 4 := (i 1).isLt
  have h2 : (i 2).val < 3 := (i 2).isLt
  have h3 : (i 3).val < 256 := (i 3).isLt
  have h4 : (i 4).val < 128 := (i 4).isLt
  refine (mem_com_slice ![0, 3, 1, 0, 0] _ i).trans ⟨fun h => ?_, fun h a => ?_⟩
  · have a0 : 0 ≤ (i 0).val ∧ (i 0).val < 0 + 1 := h 0
    have a1 : 3 ≤ (i 1).val ∧ (i 1).val < 3 + 1 := h 1
    have a2 : 1 ≤ (i 2).val ∧ (i 2).val < 1 + 1 := h 2
    show (i 0).val * 12 + (i 1).val * 3 + (i 2).val = 10; omega
  · have h' : (i 0).val * 12 + (i 1).val * 3 + (i 2).val = 10 := h
    match a with
    | ⟨0, _⟩ => show 0 ≤ (i 0).val ∧ (i 0).val < 0 + 1; omega
    | ⟨1, _⟩ => show 3 ≤ (i 1).val ∧ (i 1).val < 3 + 1; omega
    | ⟨2, _⟩ => show 1 ≤ (i 2).val ∧ (i 2).val < 1 + 1; omega
    | ⟨3, _⟩ => show 0 ≤ (i 3).val ∧ (i 3).val < 0 + 256; omega
    | ⟨4, _⟩ => show 0 ≤ (i 4).val ∧ (i 4).val < 0 + 128; omega

theorem slot_set_6 : (slotM 6).view.set = keySet comKey {10} :=
  Finset.ext fun i => (mem_slot_6 i).trans (mem_keySet.trans Finset.mem_singleton).symm

theorem mem_slot_7 (i : S3x4x3x256x128.Idx) : i ∈ (slotM 7).view.set ↔ comKey i = 11 := by
  have h0 : (i 0).val < 3 := (i 0).isLt
  have h1 : (i 1).val < 4 := (i 1).isLt
  have h2 : (i 2).val < 3 := (i 2).isLt
  have h3 : (i 3).val < 256 := (i 3).isLt
  have h4 : (i 4).val < 128 := (i 4).isLt
  refine (mem_com_slice ![0, 3, 2, 0, 0] _ i).trans ⟨fun h => ?_, fun h a => ?_⟩
  · have a0 : 0 ≤ (i 0).val ∧ (i 0).val < 0 + 1 := h 0
    have a1 : 3 ≤ (i 1).val ∧ (i 1).val < 3 + 1 := h 1
    have a2 : 2 ≤ (i 2).val ∧ (i 2).val < 2 + 1 := h 2
    show (i 0).val * 12 + (i 1).val * 3 + (i 2).val = 11; omega
  · have h' : (i 0).val * 12 + (i 1).val * 3 + (i 2).val = 11 := h
    match a with
    | ⟨0, _⟩ => show 0 ≤ (i 0).val ∧ (i 0).val < 0 + 1; omega
    | ⟨1, _⟩ => show 3 ≤ (i 1).val ∧ (i 1).val < 3 + 1; omega
    | ⟨2, _⟩ => show 2 ≤ (i 2).val ∧ (i 2).val < 2 + 1; omega
    | ⟨3, _⟩ => show 0 ≤ (i 3).val ∧ (i 3).val < 0 + 256; omega
    | ⟨4, _⟩ => show 0 ≤ (i 4).val ∧ (i 4).val < 0 + 128; omega

theorem slot_set_7 : (slotM 7).view.set = keySet comKey {11} :=
  Finset.ext fun i => (mem_slot_7 i).trans (mem_keySet.trans Finset.mem_singleton).symm

theorem mem_slot_8 (i : S3x4x3x256x128.Idx) : i ∈ (slotM 8).view.set ↔ comKey i = 12 := by
  have h0 : (i 0).val < 3 := (i 0).isLt
  have h1 : (i 1).val < 4 := (i 1).isLt
  have h2 : (i 2).val < 3 := (i 2).isLt
  have h3 : (i 3).val < 256 := (i 3).isLt
  have h4 : (i 4).val < 128 := (i 4).isLt
  refine (mem_com_slice ![1, 0, 0, 0, 0] _ i).trans ⟨fun h => ?_, fun h a => ?_⟩
  · have a0 : 1 ≤ (i 0).val ∧ (i 0).val < 1 + 1 := h 0
    have a1 : 0 ≤ (i 1).val ∧ (i 1).val < 0 + 1 := h 1
    have a2 : 0 ≤ (i 2).val ∧ (i 2).val < 0 + 1 := h 2
    show (i 0).val * 12 + (i 1).val * 3 + (i 2).val = 12; omega
  · have h' : (i 0).val * 12 + (i 1).val * 3 + (i 2).val = 12 := h
    match a with
    | ⟨0, _⟩ => show 1 ≤ (i 0).val ∧ (i 0).val < 1 + 1; omega
    | ⟨1, _⟩ => show 0 ≤ (i 1).val ∧ (i 1).val < 0 + 1; omega
    | ⟨2, _⟩ => show 0 ≤ (i 2).val ∧ (i 2).val < 0 + 1; omega
    | ⟨3, _⟩ => show 0 ≤ (i 3).val ∧ (i 3).val < 0 + 256; omega
    | ⟨4, _⟩ => show 0 ≤ (i 4).val ∧ (i 4).val < 0 + 128; omega

theorem slot_set_8 : (slotM 8).view.set = keySet comKey {12} :=
  Finset.ext fun i => (mem_slot_8 i).trans (mem_keySet.trans Finset.mem_singleton).symm

theorem mem_slot_9 (i : S3x4x3x256x128.Idx) : i ∈ (slotM 9).view.set ↔ comKey i = 15 := by
  have h0 : (i 0).val < 3 := (i 0).isLt
  have h1 : (i 1).val < 4 := (i 1).isLt
  have h2 : (i 2).val < 3 := (i 2).isLt
  have h3 : (i 3).val < 256 := (i 3).isLt
  have h4 : (i 4).val < 128 := (i 4).isLt
  refine (mem_com_slice ![1, 1, 0, 0, 0] _ i).trans ⟨fun h => ?_, fun h a => ?_⟩
  · have a0 : 1 ≤ (i 0).val ∧ (i 0).val < 1 + 1 := h 0
    have a1 : 1 ≤ (i 1).val ∧ (i 1).val < 1 + 1 := h 1
    have a2 : 0 ≤ (i 2).val ∧ (i 2).val < 0 + 1 := h 2
    show (i 0).val * 12 + (i 1).val * 3 + (i 2).val = 15; omega
  · have h' : (i 0).val * 12 + (i 1).val * 3 + (i 2).val = 15 := h
    match a with
    | ⟨0, _⟩ => show 1 ≤ (i 0).val ∧ (i 0).val < 1 + 1; omega
    | ⟨1, _⟩ => show 1 ≤ (i 1).val ∧ (i 1).val < 1 + 1; omega
    | ⟨2, _⟩ => show 0 ≤ (i 2).val ∧ (i 2).val < 0 + 1; omega
    | ⟨3, _⟩ => show 0 ≤ (i 3).val ∧ (i 3).val < 0 + 256; omega
    | ⟨4, _⟩ => show 0 ≤ (i 4).val ∧ (i 4).val < 0 + 128; omega

theorem slot_set_9 : (slotM 9).view.set = keySet comKey {15} :=
  Finset.ext fun i => (mem_slot_9 i).trans (mem_keySet.trans Finset.mem_singleton).symm

theorem mem_slot_10 (i : S3x4x3x256x128.Idx) : i ∈ (slotM 10).view.set ↔ comKey i = 18 := by
  have h0 : (i 0).val < 3 := (i 0).isLt
  have h1 : (i 1).val < 4 := (i 1).isLt
  have h2 : (i 2).val < 3 := (i 2).isLt
  have h3 : (i 3).val < 256 := (i 3).isLt
  have h4 : (i 4).val < 128 := (i 4).isLt
  refine (mem_com_slice ![1, 2, 0, 0, 0] _ i).trans ⟨fun h => ?_, fun h a => ?_⟩
  · have a0 : 1 ≤ (i 0).val ∧ (i 0).val < 1 + 1 := h 0
    have a1 : 2 ≤ (i 1).val ∧ (i 1).val < 2 + 1 := h 1
    have a2 : 0 ≤ (i 2).val ∧ (i 2).val < 0 + 1 := h 2
    show (i 0).val * 12 + (i 1).val * 3 + (i 2).val = 18; omega
  · have h' : (i 0).val * 12 + (i 1).val * 3 + (i 2).val = 18 := h
    match a with
    | ⟨0, _⟩ => show 1 ≤ (i 0).val ∧ (i 0).val < 1 + 1; omega
    | ⟨1, _⟩ => show 2 ≤ (i 1).val ∧ (i 1).val < 2 + 1; omega
    | ⟨2, _⟩ => show 0 ≤ (i 2).val ∧ (i 2).val < 0 + 1; omega
    | ⟨3, _⟩ => show 0 ≤ (i 3).val ∧ (i 3).val < 0 + 256; omega
    | ⟨4, _⟩ => show 0 ≤ (i 4).val ∧ (i 4).val < 0 + 128; omega

theorem slot_set_10 : (slotM 10).view.set = keySet comKey {18} :=
  Finset.ext fun i => (mem_slot_10 i).trans (mem_keySet.trans Finset.mem_singleton).symm

theorem mem_slot_11 (i : S3x4x3x256x128.Idx) : i ∈ (slotM 11).view.set ↔ comKey i = 19 := by
  have h0 : (i 0).val < 3 := (i 0).isLt
  have h1 : (i 1).val < 4 := (i 1).isLt
  have h2 : (i 2).val < 3 := (i 2).isLt
  have h3 : (i 3).val < 256 := (i 3).isLt
  have h4 : (i 4).val < 128 := (i 4).isLt
  refine (mem_com_slice ![1, 2, 1, 0, 0] _ i).trans ⟨fun h => ?_, fun h a => ?_⟩
  · have a0 : 1 ≤ (i 0).val ∧ (i 0).val < 1 + 1 := h 0
    have a1 : 2 ≤ (i 1).val ∧ (i 1).val < 2 + 1 := h 1
    have a2 : 1 ≤ (i 2).val ∧ (i 2).val < 1 + 1 := h 2
    show (i 0).val * 12 + (i 1).val * 3 + (i 2).val = 19; omega
  · have h' : (i 0).val * 12 + (i 1).val * 3 + (i 2).val = 19 := h
    match a with
    | ⟨0, _⟩ => show 1 ≤ (i 0).val ∧ (i 0).val < 1 + 1; omega
    | ⟨1, _⟩ => show 2 ≤ (i 1).val ∧ (i 1).val < 2 + 1; omega
    | ⟨2, _⟩ => show 1 ≤ (i 2).val ∧ (i 2).val < 1 + 1; omega
    | ⟨3, _⟩ => show 0 ≤ (i 3).val ∧ (i 3).val < 0 + 256; omega
    | ⟨4, _⟩ => show 0 ≤ (i 4).val ∧ (i 4).val < 0 + 128; omega

theorem slot_set_11 : (slotM 11).view.set = keySet comKey {19} :=
  Finset.ext fun i => (mem_slot_11 i).trans (mem_keySet.trans Finset.mem_singleton).symm

theorem mem_slot_12 (i : S3x4x3x256x128.Idx) : i ∈ (slotM 12).view.set ↔ comKey i = 20 := by
  have h0 : (i 0).val < 3 := (i 0).isLt
  have h1 : (i 1).val < 4 := (i 1).isLt
  have h2 : (i 2).val < 3 := (i 2).isLt
  have h3 : (i 3).val < 256 := (i 3).isLt
  have h4 : (i 4).val < 128 := (i 4).isLt
  refine (mem_com_slice ![1, 2, 2, 0, 0] _ i).trans ⟨fun h => ?_, fun h a => ?_⟩
  · have a0 : 1 ≤ (i 0).val ∧ (i 0).val < 1 + 1 := h 0
    have a1 : 2 ≤ (i 1).val ∧ (i 1).val < 2 + 1 := h 1
    have a2 : 2 ≤ (i 2).val ∧ (i 2).val < 2 + 1 := h 2
    show (i 0).val * 12 + (i 1).val * 3 + (i 2).val = 20; omega
  · have h' : (i 0).val * 12 + (i 1).val * 3 + (i 2).val = 20 := h
    match a with
    | ⟨0, _⟩ => show 1 ≤ (i 0).val ∧ (i 0).val < 1 + 1; omega
    | ⟨1, _⟩ => show 2 ≤ (i 1).val ∧ (i 1).val < 2 + 1; omega
    | ⟨2, _⟩ => show 2 ≤ (i 2).val ∧ (i 2).val < 2 + 1; omega
    | ⟨3, _⟩ => show 0 ≤ (i 3).val ∧ (i 3).val < 0 + 256; omega
    | ⟨4, _⟩ => show 0 ≤ (i 4).val ∧ (i 4).val < 0 + 128; omega

theorem slot_set_12 : (slotM 12).view.set = keySet comKey {20} :=
  Finset.ext fun i => (mem_slot_12 i).trans (mem_keySet.trans Finset.mem_singleton).symm

theorem mem_slot_13 (i : S3x4x3x256x128.Idx) : i ∈ (slotM 13).view.set ↔ comKey i = 21 := by
  have h0 : (i 0).val < 3 := (i 0).isLt
  have h1 : (i 1).val < 4 := (i 1).isLt
  have h2 : (i 2).val < 3 := (i 2).isLt
  have h3 : (i 3).val < 256 := (i 3).isLt
  have h4 : (i 4).val < 128 := (i 4).isLt
  refine (mem_com_slice ![1, 3, 0, 0, 0] _ i).trans ⟨fun h => ?_, fun h a => ?_⟩
  · have a0 : 1 ≤ (i 0).val ∧ (i 0).val < 1 + 1 := h 0
    have a1 : 3 ≤ (i 1).val ∧ (i 1).val < 3 + 1 := h 1
    have a2 : 0 ≤ (i 2).val ∧ (i 2).val < 0 + 1 := h 2
    show (i 0).val * 12 + (i 1).val * 3 + (i 2).val = 21; omega
  · have h' : (i 0).val * 12 + (i 1).val * 3 + (i 2).val = 21 := h
    match a with
    | ⟨0, _⟩ => show 1 ≤ (i 0).val ∧ (i 0).val < 1 + 1; omega
    | ⟨1, _⟩ => show 3 ≤ (i 1).val ∧ (i 1).val < 3 + 1; omega
    | ⟨2, _⟩ => show 0 ≤ (i 2).val ∧ (i 2).val < 0 + 1; omega
    | ⟨3, _⟩ => show 0 ≤ (i 3).val ∧ (i 3).val < 0 + 256; omega
    | ⟨4, _⟩ => show 0 ≤ (i 4).val ∧ (i 4).val < 0 + 128; omega

theorem slot_set_13 : (slotM 13).view.set = keySet comKey {21} :=
  Finset.ext fun i => (mem_slot_13 i).trans (mem_keySet.trans Finset.mem_singleton).symm

theorem mem_slot_14 (i : S3x4x3x256x128.Idx) : i ∈ (slotM 14).view.set ↔ comKey i = 24 := by
  have h0 : (i 0).val < 3 := (i 0).isLt
  have h1 : (i 1).val < 4 := (i 1).isLt
  have h2 : (i 2).val < 3 := (i 2).isLt
  have h3 : (i 3).val < 256 := (i 3).isLt
  have h4 : (i 4).val < 128 := (i 4).isLt
  refine (mem_com_slice ![2, 0, 0, 0, 0] _ i).trans ⟨fun h => ?_, fun h a => ?_⟩
  · have a0 : 2 ≤ (i 0).val ∧ (i 0).val < 2 + 1 := h 0
    have a1 : 0 ≤ (i 1).val ∧ (i 1).val < 0 + 1 := h 1
    have a2 : 0 ≤ (i 2).val ∧ (i 2).val < 0 + 1 := h 2
    show (i 0).val * 12 + (i 1).val * 3 + (i 2).val = 24; omega
  · have h' : (i 0).val * 12 + (i 1).val * 3 + (i 2).val = 24 := h
    match a with
    | ⟨0, _⟩ => show 2 ≤ (i 0).val ∧ (i 0).val < 2 + 1; omega
    | ⟨1, _⟩ => show 0 ≤ (i 1).val ∧ (i 1).val < 0 + 1; omega
    | ⟨2, _⟩ => show 0 ≤ (i 2).val ∧ (i 2).val < 0 + 1; omega
    | ⟨3, _⟩ => show 0 ≤ (i 3).val ∧ (i 3).val < 0 + 256; omega
    | ⟨4, _⟩ => show 0 ≤ (i 4).val ∧ (i 4).val < 0 + 128; omega

theorem slot_set_14 : (slotM 14).view.set = keySet comKey {24} :=
  Finset.ext fun i => (mem_slot_14 i).trans (mem_keySet.trans Finset.mem_singleton).symm

theorem mem_slot_15 (i : S3x4x3x256x128.Idx) : i ∈ (slotM 15).view.set ↔ comKey i = 27 := by
  have h0 : (i 0).val < 3 := (i 0).isLt
  have h1 : (i 1).val < 4 := (i 1).isLt
  have h2 : (i 2).val < 3 := (i 2).isLt
  have h3 : (i 3).val < 256 := (i 3).isLt
  have h4 : (i 4).val < 128 := (i 4).isLt
  refine (mem_com_slice ![2, 1, 0, 0, 0] _ i).trans ⟨fun h => ?_, fun h a => ?_⟩
  · have a0 : 2 ≤ (i 0).val ∧ (i 0).val < 2 + 1 := h 0
    have a1 : 1 ≤ (i 1).val ∧ (i 1).val < 1 + 1 := h 1
    have a2 : 0 ≤ (i 2).val ∧ (i 2).val < 0 + 1 := h 2
    show (i 0).val * 12 + (i 1).val * 3 + (i 2).val = 27; omega
  · have h' : (i 0).val * 12 + (i 1).val * 3 + (i 2).val = 27 := h
    match a with
    | ⟨0, _⟩ => show 2 ≤ (i 0).val ∧ (i 0).val < 2 + 1; omega
    | ⟨1, _⟩ => show 1 ≤ (i 1).val ∧ (i 1).val < 1 + 1; omega
    | ⟨2, _⟩ => show 0 ≤ (i 2).val ∧ (i 2).val < 0 + 1; omega
    | ⟨3, _⟩ => show 0 ≤ (i 3).val ∧ (i 3).val < 0 + 256; omega
    | ⟨4, _⟩ => show 0 ≤ (i 4).val ∧ (i 4).val < 0 + 128; omega

theorem slot_set_15 : (slotM 15).view.set = keySet comKey {27} :=
  Finset.ext fun i => (mem_slot_15 i).trans (mem_keySet.trans Finset.mem_singleton).symm

theorem mem_slot_16 (i : S3x4x3x256x128.Idx) : i ∈ (slotM 16).view.set ↔ comKey i = 28 := by
  have h0 : (i 0).val < 3 := (i 0).isLt
  have h1 : (i 1).val < 4 := (i 1).isLt
  have h2 : (i 2).val < 3 := (i 2).isLt
  have h3 : (i 3).val < 256 := (i 3).isLt
  have h4 : (i 4).val < 128 := (i 4).isLt
  refine (mem_com_slice ![2, 1, 1, 0, 0] _ i).trans ⟨fun h => ?_, fun h a => ?_⟩
  · have a0 : 2 ≤ (i 0).val ∧ (i 0).val < 2 + 1 := h 0
    have a1 : 1 ≤ (i 1).val ∧ (i 1).val < 1 + 1 := h 1
    have a2 : 1 ≤ (i 2).val ∧ (i 2).val < 1 + 1 := h 2
    show (i 0).val * 12 + (i 1).val * 3 + (i 2).val = 28; omega
  · have h' : (i 0).val * 12 + (i 1).val * 3 + (i 2).val = 28 := h
    match a with
    | ⟨0, _⟩ => show 2 ≤ (i 0).val ∧ (i 0).val < 2 + 1; omega
    | ⟨1, _⟩ => show 1 ≤ (i 1).val ∧ (i 1).val < 1 + 1; omega
    | ⟨2, _⟩ => show 1 ≤ (i 2).val ∧ (i 2).val < 1 + 1; omega
    | ⟨3, _⟩ => show 0 ≤ (i 3).val ∧ (i 3).val < 0 + 256; omega
    | ⟨4, _⟩ => show 0 ≤ (i 4).val ∧ (i 4).val < 0 + 128; omega

theorem slot_set_16 : (slotM 16).view.set = keySet comKey {28} :=
  Finset.ext fun i => (mem_slot_16 i).trans (mem_keySet.trans Finset.mem_singleton).symm

theorem mem_slot_17 (i : S3x4x3x256x128.Idx) : i ∈ (slotM 17).view.set ↔ comKey i = 29 := by
  have h0 : (i 0).val < 3 := (i 0).isLt
  have h1 : (i 1).val < 4 := (i 1).isLt
  have h2 : (i 2).val < 3 := (i 2).isLt
  have h3 : (i 3).val < 256 := (i 3).isLt
  have h4 : (i 4).val < 128 := (i 4).isLt
  refine (mem_com_slice ![2, 1, 2, 0, 0] _ i).trans ⟨fun h => ?_, fun h a => ?_⟩
  · have a0 : 2 ≤ (i 0).val ∧ (i 0).val < 2 + 1 := h 0
    have a1 : 1 ≤ (i 1).val ∧ (i 1).val < 1 + 1 := h 1
    have a2 : 2 ≤ (i 2).val ∧ (i 2).val < 2 + 1 := h 2
    show (i 0).val * 12 + (i 1).val * 3 + (i 2).val = 29; omega
  · have h' : (i 0).val * 12 + (i 1).val * 3 + (i 2).val = 29 := h
    match a with
    | ⟨0, _⟩ => show 2 ≤ (i 0).val ∧ (i 0).val < 2 + 1; omega
    | ⟨1, _⟩ => show 1 ≤ (i 1).val ∧ (i 1).val < 1 + 1; omega
    | ⟨2, _⟩ => show 2 ≤ (i 2).val ∧ (i 2).val < 2 + 1; omega
    | ⟨3, _⟩ => show 0 ≤ (i 3).val ∧ (i 3).val < 0 + 256; omega
    | ⟨4, _⟩ => show 0 ≤ (i 4).val ∧ (i 4).val < 0 + 128; omega

theorem slot_set_17 : (slotM 17).view.set = keySet comKey {29} :=
  Finset.ext fun i => (mem_slot_17 i).trans (mem_keySet.trans Finset.mem_singleton).symm

theorem mem_slot_18 (i : S3x4x3x256x128.Idx) : i ∈ (slotM 18).view.set ↔ comKey i = 30 := by
  have h0 : (i 0).val < 3 := (i 0).isLt
  have h1 : (i 1).val < 4 := (i 1).isLt
  have h2 : (i 2).val < 3 := (i 2).isLt
  have h3 : (i 3).val < 256 := (i 3).isLt
  have h4 : (i 4).val < 128 := (i 4).isLt
  refine (mem_com_slice ![2, 2, 0, 0, 0] _ i).trans ⟨fun h => ?_, fun h a => ?_⟩
  · have a0 : 2 ≤ (i 0).val ∧ (i 0).val < 2 + 1 := h 0
    have a1 : 2 ≤ (i 1).val ∧ (i 1).val < 2 + 1 := h 1
    have a2 : 0 ≤ (i 2).val ∧ (i 2).val < 0 + 1 := h 2
    show (i 0).val * 12 + (i 1).val * 3 + (i 2).val = 30; omega
  · have h' : (i 0).val * 12 + (i 1).val * 3 + (i 2).val = 30 := h
    match a with
    | ⟨0, _⟩ => show 2 ≤ (i 0).val ∧ (i 0).val < 2 + 1; omega
    | ⟨1, _⟩ => show 2 ≤ (i 1).val ∧ (i 1).val < 2 + 1; omega
    | ⟨2, _⟩ => show 0 ≤ (i 2).val ∧ (i 2).val < 0 + 1; omega
    | ⟨3, _⟩ => show 0 ≤ (i 3).val ∧ (i 3).val < 0 + 256; omega
    | ⟨4, _⟩ => show 0 ≤ (i 4).val ∧ (i 4).val < 0 + 128; omega

theorem slot_set_18 : (slotM 18).view.set = keySet comKey {30} :=
  Finset.ext fun i => (mem_slot_18 i).trans (mem_keySet.trans Finset.mem_singleton).symm

theorem mem_slot_19 (i : S3x4x3x256x128.Idx) : i ∈ (slotM 19).view.set ↔ comKey i = 33 := by
  have h0 : (i 0).val < 3 := (i 0).isLt
  have h1 : (i 1).val < 4 := (i 1).isLt
  have h2 : (i 2).val < 3 := (i 2).isLt
  have h3 : (i 3).val < 256 := (i 3).isLt
  have h4 : (i 4).val < 128 := (i 4).isLt
  refine (mem_com_slice ![2, 3, 0, 0, 0] _ i).trans ⟨fun h => ?_, fun h a => ?_⟩
  · have a0 : 2 ≤ (i 0).val ∧ (i 0).val < 2 + 1 := h 0
    have a1 : 3 ≤ (i 1).val ∧ (i 1).val < 3 + 1 := h 1
    have a2 : 0 ≤ (i 2).val ∧ (i 2).val < 0 + 1 := h 2
    show (i 0).val * 12 + (i 1).val * 3 + (i 2).val = 33; omega
  · have h' : (i 0).val * 12 + (i 1).val * 3 + (i 2).val = 33 := h
    match a with
    | ⟨0, _⟩ => show 2 ≤ (i 0).val ∧ (i 0).val < 2 + 1; omega
    | ⟨1, _⟩ => show 3 ≤ (i 1).val ∧ (i 1).val < 3 + 1; omega
    | ⟨2, _⟩ => show 0 ≤ (i 2).val ∧ (i 2).val < 0 + 1; omega
    | ⟨3, _⟩ => show 0 ≤ (i 3).val ∧ (i 3).val < 0 + 256; omega
    | ⟨4, _⟩ => show 0 ≤ (i 4).val ∧ (i 4).val < 0 + 128; omega

theorem slot_set_19 : (slotM 19).view.set = keySet comKey {33} :=
  Finset.ext fun i => (mem_slot_19 i).trans (mem_keySet.trans Finset.mem_singleton).symm

/-- The keys of the sixteen slots no copy uses. -/
def restKeys : Finset ℕ := [0, 1, 2, 3, 6, 9, 10, 11, 12, 15, 18, 19, 20, 21, 24, 27, 28, 29, 30, 33].foldl Finset.erase (Finset.range 36)

/-- The part of the receive buffer outside the twenty used slots. -/
def comRest : Finset S3x4x3x256x128.Idx := keySet comKey restKeys

theorem mem_comRest (i : S3x4x3x256x128.Idx) : i ∈ comRest ↔ comKey i ∈ restKeys := mem_keySet

/-- THE RECEIVE BUFFER, held whole, is its twenty used slots and the rest held together. -/
theorem split_com (c : Dev nD) (f : Buf (Elt F) ((c : Thread nD τ).loc cc0_scratch2)) :
    ((((c : Thread nD τ).loc cc0_scratch2) ↦{fullShare} f) : sProp 𝕄)
      ⊣⊢ iprop(slotPts c 0 f ∗ slotPts c 1 f ∗ slotPts c 2 f ∗ slotPts c 3 f ∗ slotPts c 4 f ∗ slotPts c 5 f ∗ slotPts c 6 f ∗ slotPts c 7 f ∗ slotPts c 8 f ∗ slotPts c 9 f ∗ slotPts c 10 f ∗ slotPts c 11 f ∗ slotPts c 12 f ∗ slotPts c 13 f ∗ slotPts c 14 f ∗ slotPts c 15 f ∗ slotPts c 16 f ∗ slotPts c 17 f ∗ slotPts c 18 f ∗ slotPts c 19 f
          ∗ (((c : Thread nD τ).loc cc0_scratch2) ↦[comRest]{fullShare} f)) := by
  have e : (Finset.univ : Finset (Idx ((c : Thread nD τ).loc cc0_scratch2))) = keySet comKey (Finset.range 36) :=
    (keySet_range comKey 36 comKey_lt).symm
  have chain :
      ((((c : Thread nD τ).loc cc0_scratch2) ↦[keySet comKey (Finset.range 36)]{fullShare} f) : sProp 𝕄)
        ⊣⊢ iprop((((c : Thread nD τ).loc cc0_scratch2) ↦[(slotM 0).view.set]{fullShare} f)
            ∗ (((c : Thread nD τ).loc cc0_scratch2) ↦[(slotM 1).view.set]{fullShare} f)
            ∗ (((c : Thread nD τ).loc cc0_scratch2) ↦[(slotM 2).view.set]{fullShare} f)
            ∗ (((c : Thread nD τ).loc cc0_scratch2) ↦[(slotM 3).view.set]{fullShare} f)
            ∗ (((c : Thread nD τ).loc cc0_scratch2) ↦[(slotM 4).view.set]{fullShare} f)
            ∗ (((c : Thread nD τ).loc cc0_scratch2) ↦[(slotM 5).view.set]{fullShare} f)
            ∗ (((c : Thread nD τ).loc cc0_scratch2) ↦[(slotM 6).view.set]{fullShare} f)
            ∗ (((c : Thread nD τ).loc cc0_scratch2) ↦[(slotM 7).view.set]{fullShare} f)
            ∗ (((c : Thread nD τ).loc cc0_scratch2) ↦[(slotM 8).view.set]{fullShare} f)
            ∗ (((c : Thread nD τ).loc cc0_scratch2) ↦[(slotM 9).view.set]{fullShare} f)
            ∗ (((c : Thread nD τ).loc cc0_scratch2) ↦[(slotM 10).view.set]{fullShare} f)
            ∗ (((c : Thread nD τ).loc cc0_scratch2) ↦[(slotM 11).view.set]{fullShare} f)
            ∗ (((c : Thread nD τ).loc cc0_scratch2) ↦[(slotM 12).view.set]{fullShare} f)
            ∗ (((c : Thread nD τ).loc cc0_scratch2) ↦[(slotM 13).view.set]{fullShare} f)
            ∗ (((c : Thread nD τ).loc cc0_scratch2) ↦[(slotM 14).view.set]{fullShare} f)
            ∗ (((c : Thread nD τ).loc cc0_scratch2) ↦[(slotM 15).view.set]{fullShare} f)
            ∗ (((c : Thread nD τ).loc cc0_scratch2) ↦[(slotM 16).view.set]{fullShare} f)
            ∗ (((c : Thread nD τ).loc cc0_scratch2) ↦[(slotM 17).view.set]{fullShare} f)
            ∗ (((c : Thread nD τ).loc cc0_scratch2) ↦[(slotM 18).view.set]{fullShare} f)
            ∗ (((c : Thread nD τ).loc cc0_scratch2) ↦[(slotM 19).view.set]{fullShare} f)
            ∗ (((c : Thread nD τ).loc cc0_scratch2) ↦[comRest]{fullShare} f)) :=
    key_step (ℓ := (c : Thread nD τ).loc cc0_scratch2) comKey fullShare f _ 0 _ slot_set_0 (by decide)
      (key_step (ℓ := (c : Thread nD τ).loc cc0_scratch2) comKey fullShare f _ 1 _ slot_set_1 (by decide)
      (key_step (ℓ := (c : Thread nD τ).loc cc0_scratch2) comKey fullShare f _ 2 _ slot_set_2 (by decide)
      (key_step (ℓ := (c : Thread nD τ).loc cc0_scratch2) comKey fullShare f _ 3 _ slot_set_3 (by decide)
      (key_step (ℓ := (c : Thread nD τ).loc cc0_scratch2) comKey fullShare f _ 6 _ slot_set_4 (by decide)
      (key_step (ℓ := (c : Thread nD τ).loc cc0_scratch2) comKey fullShare f _ 9 _ slot_set_5 (by decide)
      (key_step (ℓ := (c : Thread nD τ).loc cc0_scratch2) comKey fullShare f _ 10 _ slot_set_6 (by decide)
      (key_step (ℓ := (c : Thread nD τ).loc cc0_scratch2) comKey fullShare f _ 11 _ slot_set_7 (by decide)
      (key_step (ℓ := (c : Thread nD τ).loc cc0_scratch2) comKey fullShare f _ 12 _ slot_set_8 (by decide)
      (key_step (ℓ := (c : Thread nD τ).loc cc0_scratch2) comKey fullShare f _ 15 _ slot_set_9 (by decide)
      (key_step (ℓ := (c : Thread nD τ).loc cc0_scratch2) comKey fullShare f _ 18 _ slot_set_10 (by decide)
      (key_step (ℓ := (c : Thread nD τ).loc cc0_scratch2) comKey fullShare f _ 19 _ slot_set_11 (by decide)
      (key_step (ℓ := (c : Thread nD τ).loc cc0_scratch2) comKey fullShare f _ 20 _ slot_set_12 (by decide)
      (key_step (ℓ := (c : Thread nD τ).loc cc0_scratch2) comKey fullShare f _ 21 _ slot_set_13 (by decide)
      (key_step (ℓ := (c : Thread nD τ).loc cc0_scratch2) comKey fullShare f _ 24 _ slot_set_14 (by decide)
      (key_step (ℓ := (c : Thread nD τ).loc cc0_scratch2) comKey fullShare f _ 27 _ slot_set_15 (by decide)
      (key_step (ℓ := (c : Thread nD τ).loc cc0_scratch2) comKey fullShare f _ 28 _ slot_set_16 (by decide)
      (key_step (ℓ := (c : Thread nD τ).loc cc0_scratch2) comKey fullShare f _ 29 _ slot_set_17 (by decide)
      (key_step (ℓ := (c : Thread nD τ).loc cc0_scratch2) comKey fullShare f _ 30 _ slot_set_18 (by decide)
      (key_step (ℓ := (c : Thread nD τ).loc cc0_scratch2) comKey fullShare f _ 33 _ slot_set_19 (by decide)
      ((BiEntails.rfl)))))))))))))))))))))
  rw [e]
  exact chain

/-! ## A slice along its share: three third parts -/

/-- A chunk slice held whole is its three third parts held together. -/
theorem third_split (c : Dev nD) (ch : Fin 4) (f : Buf (Elt F) ((srcM ch).view.loc (c : Thread nD τ))) :
    (srcPts c ch fullShare f : sProp 𝕄)
      ⊣⊢ iprop(srcPts c ch fullShare.left f ∗ srcPts c ch fullShare.right.left f ∗ srcPts c ch fullShare.right.right f) := by
  unfold srcPts
  exact (Region.is_share (PosShare.mem_left_op_right fullShare)).trans
    (sep_congr_right (Region.is_share (PosShare.mem_left_op_right fullShare.right)))

/-- Two holders of complementary shares of a slice agree on it, and together hold the composite share. -/
theorem src_join (c : Dev nD) (ch : Fin 4) {q q₁ q₂ : PosShare TreeShare} (hq : q ∈ q₁ ·? q₂)
    (f g : Buf (Elt F) ((srcM ch).view.loc (c : Thread nD τ))) :
    iprop(srcPts c ch q₁ f ∗ srcPts c ch q₂ g) ⊢ (srcPts c ch q f : sProp 𝕄) := by
  unfold srcPts
  refine Laws.pure_elim _ Region.is_agree fun h => ?_
  have e : (((srcM ch).view.loc (c : Thread nD τ) ↦[(srcM ch).view.set]{q₂} g) : sProp 𝕄)
      = ((srcM ch).view.loc (c : Thread nD τ) ↦[(srcM ch).view.set]{q₂} f) :=
    Region.is_congr fun i hi => ((h i (Finset.mem_inter.2 ⟨hi, hi⟩)).1).symm
  rw [e]
  exact (Region.is_share hq).2

/-- Three holders of the third parts, each at contents of its own, hold the slice whole at one contents. -/
theorem third_join_ex (c : Dev nD) (ch : Fin 4) :
    iprop((∃ f, srcPts (F := F) c ch fullShare.left f) ∗ (∃ f, srcPts (F := F) c ch fullShare.right.left f)
        ∗ (∃ f, srcPts (F := F) c ch fullShare.right.right f))
      ⊢ (iprop(∃ f, srcPts (F := F) c ch fullShare f) : sProp 𝕄) := by
  iintro ⟨⟨%f1, H1⟩, ⟨%f2, H2⟩, ⟨%f3, H3⟩⟩
  iexists f1
  ihave H23 := (src_join c ch (PosShare.mem_left_op_right fullShare.right) f2 f3) $$ [H2 H3]
  · isplitl [H2]; · iexact H2
    iexact H3
  iapply (src_join c ch (PosShare.mem_left_op_right fullShare) f1 f2)
  isplitl [H1]; · iexact H1
  iexact H23

/-! ## Contents that agree on a slice -/

theorem srcPts_congr (c : Dev nD) (ch : Fin 4) (q : PosShare TreeShare) (f g : Buf (Elt F) ((srcM ch).view.loc (c : Thread nD τ)))
    (h : ∀ i ∈ (srcM ch).view.set, f i = g i) : (srcPts c ch q f : sProp 𝕄) = srcPts c ch q g := by
  unfold srcPts; exact Region.is_congr h

theorem srcPts_equiv (c : Dev nD) (ch : Fin 4) (q : PosShare TreeShare) (f g : Buf (Elt F) ((srcM ch).view.loc (c : Thread nD τ)))
    (h : ∀ i ∈ (srcM ch).view.set, f i = g i) : (srcPts c ch q f : sProp 𝕄) ⊣⊢ srcPts c ch q g :=
  BiEntails.of_eq (srcPts_congr c ch q f g h)

theorem slotPts_congr (p : Dev nD) (s : Fin 20) (f g : Buf (Elt F) ((slotM s).view.loc (p : Thread nD τ)))
    (h : ∀ i ∈ (slotM s).view.set, f i = g i) : (slotPts p s f : sProp 𝕄) = slotPts p s g := by
  unfold slotPts; exact Region.is_congr h

theorem slotPts_equiv (p : Dev nD) (s : Fin 20) (f g : Buf (Elt F) ((slotM s).view.loc (p : Thread nD τ)))
    (h : ∀ i ∈ (slotM s).view.set, f i = g i) : (slotPts p s f : sProp 𝕄) ⊣⊢ slotPts p s g :=
  BiEntails.of_eq (slotPts_congr p s f g h)

end Cert.Kernel.Regions

end

/-- info: 'Cert.Kernel.Regions.split_snd' depends on axioms: [propext, Classical.choice, Quot.sound] -/
#guard_msgs in #print axioms Cert.Kernel.Regions.split_snd

/-- info: 'Cert.Kernel.Regions.split_com' depends on axioms: [propext, Classical.choice, Quot.sound] -/
#guard_msgs in #print axioms Cert.Kernel.Regions.split_com

/-- info: 'Cert.Kernel.Regions.third_split' depends on axioms: [propext, Classical.choice, Quot.sound] -/
#guard_msgs in #print axioms Cert.Kernel.Regions.third_split

/-- info: 'Cert.Kernel.Regions.third_join_ex' depends on axioms: [propext, Classical.choice, Quot.sound] -/
#guard_msgs in #print axioms Cert.Kernel.Regions.third_join_ex
-- ==== Proof.KernelSteps.lean ====
/-
  The exchange protocol's steps, one lemma each: an entry signal to a partner's barrier, the wait on one's own barrier,
  the start of a copy to a partner, and the two waits of a copy (the source given back; the landing received). Each is
  the rounds rule for that kind of step, read at this kernel's schedule, with the schedule's tables for the cell in
  question already consulted: which duty is paid, what it carries, how much credit it is worth.
-/
import proofs.«900514_g7700000000000515_dist_attn_self_mha_htp_b2_sq128_skv128_d512_hq8_dh64_v7x_i16_bf16_1_alg».proof.Proof.KernelProto
import proofs.«900514_g7700000000000515_dist_attn_self_mha_htp_b2_sq128_skv128_d512_hq8_dh64_v7x_i16_bf16_1_alg».proof.Proof.KernelRegions
import Idealize.ShloMosaic.Lib.Rounds
import Idealize.ShloMosaic.Lib.Pipeline.Value

noncomputable section

namespace Cert.Kernel.Steps

open Cert.Kernel Cert.Kernel.Gen Cert.Kernel.Terms Cert.Kernel.Proto Cert.Kernel.Regions

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Two buffers written whole through one view agree under the view -/

/-- Whatever two buffers held, after the same payload is written through a view on every index they agree on the
    elements under the view. -/
theorem write_congr_set {σ : RefSig} {κ : Kind} {sp : Space} {S : Shape} {e : EltTy} {Val : EltTy → Type}
    (v : View σ κ sp S e) (f g : v.ty.Contents Val) (w : S.Idx → Val e) :
    ∀ i ∈ v.set, v.write Val f w Finset.univ i = v.write Val g w Finset.univ i := by
  intro i hi
  obtain ⟨y, rfl⟩ := View.exists_emb_of_mem_set v hi
  rw [View.write_emb_of_mem f w (Finset.mem_univ y), View.write_emb_of_mem g w (Finset.mem_univ y)]

/-! ## The entry signal -/

/-- Device `c` signals partner `i`'s barrier once: duty `i` of that barrier's round, paid with `c`'s own four receive
    slots that this partner will write, and struck off what `c` owes. -/
theorem signal_step {α : Type} {Q : α → sProp 𝕄} {k : PUnit → Prog (TpuEff nD τ sig (Elt F) Λ₀ .tc) α}
    (c : Dev nD) (i : Fin 5) (κ : ℕ) (O : CellTallies nD τ sig Unit) (W : Waits sig Unit) (n : ℕ) (hn : n = 1) :
    iprop(cellInv ER (sched m) κ (barCell (px i c)) ∗ owes (c : Thread nD τ) (O + sigDue c i) W
        ∗ dutyTok ER (barCell (px i c)) 0 i ∗ barPay (F := F) i c ∗ reached ER (barCell (px i c)) 0)
      ⊢ iprop((owes (c : Thread nD τ) O W -∗ wp frame (wpE (defs₀ (F := F)) Variants.none (c : Thread nD τ) none) Set.univ (k ⟨⟩) Q)
          -∗ wp frame (wpE (defs₀ (F := F)) Variants.none (c : Thread nD τ) none) Set.univ (.op (.semSignal (px i c : Thread nD τ) barS n) k) Q) := by
  subst hn
  rw [← payload_bar_peer m c i]
  exact Rounds.wp_signal Variants.none ER (sched m) (c : Thread nD τ) none (defs := defs₀ (F := F))
    (dst := (px i c : Thread nD τ)) (sem := barS) (r := 0) (d := i) (k' := 1) (κ := κ)
    (by rw [duties_bar]; exact Finset.mem_univ _) (amount_bar m (px i c) i) () O rfl

/-! ## The wait on one's own barrier -/

/-- Device `c` waits for its five partners' signals: it comes back with what each handed over, the four of that
    partner's receive slots that `c` writes. -/
theorem bar_wait_step {α : Type} {Q : α → sProp 𝕄} {k : PUnit → Prog (TpuEff nD τ sig (Elt F) Λ₀ .tc) α}
    (c : Dev nD) (κ : ℕ) (O : CellTallies nD τ sig Unit) (W : Waits sig Unit) (n : ℕ) (hn : n = 5)
    (hmw : (levAts L lv : sProp 𝕄) ⊢ MayWait (c : Thread nD τ) (.reg barS) () O) :
    iprop(cellInv ER (sched m) κ (barCell c) ∗ cred (tallyAt (barCell c) () 5) ∗ owes (c : Thread nD τ) O W
        ∗ levAts L lv ∗ atPos ER (barCell c) 0 ∅ 0)
      ⊢ iprop(((owes (c : Thread nD τ) O (insert (SemLoc.reg barS, ()) W) ∗ atPos ER (barCell c) 1 ∅ 0 ∗ reached ER (barCell c) 1
              ∗ barPay (F := F) 0 (px 0 c) ∗ barPay (F := F) 1 (px 1 c) ∗ barPay (F := F) 2 (px 2 c) ∗ barPay (F := F) 3 (px 3 c) ∗ barPay (F := F) 4 (px 4 c))
            -∗ wp frame (wpE (defs₀ (F := F)) Variants.none (c : Thread nD τ) none) Set.univ (k ⟨⟩) Q)
          -∗ wp frame (wpE (defs₀ (F := F)) Variants.none (c : Thread nD τ) none) Set.univ (.op (.semWait barS n) k) Q) := by
  subst hn
  iintro ⟨Hg, Hc, HO, Hlev, Hat⟩ Hk
  iapply (Rounds.wp_wait_rest_token Variants.none ER (sched m) (c : Thread nD τ) none (defs := defs₀ (F := F)) (κ := κ)
      (wpE_semWait_eq Variants.none (c : Thread nD τ) none Set.univ (sem := barS) (k := 5)) (Set.mem_univ _) ()
      (O := O) (W := W) (R := 0) (m := 0) (T := ∅) (by rw [expect_bar])) $$ [Hg Hc HO Hlev Hat]
  · isplitl [Hg]; · iexact Hg
    isplitl [Hc]; · iexact Hc
    isplitl [HO]; · iexact HO
    isplitl [Hlev]; · iapply hmw; iexact Hlev
    iexact Hat
  iintro ⟨HO, Hat, Hr, Hpay⟩
  ihave Hp := (Entails.of_eq (rest_bar m c)) $$ Hpay
  iapply Hk
  isplitl [HO]; · iexact HO
  isplitl [Hat]; · iexact Hat
  isplitl [Hr]; · iexact Hr
  iexact Hp

/-! ## The start of a copy -/

/-- Device `c` starts copy `s`: from its outgoing slice of the copy's chunk, holding what the copy carries, into the
    partner's receive slot, which `c` owns. The borrowed share of the source comes back on `c`'s send cell; the slot,
    rewritten to hold exactly what the copy carries, goes to the partner on its receive cell; the landing is struck off what `c` owes. -/
theorem send_step {α : Type} {Q : α → sProp 𝕄} {k : PUnit → Prog (TpuEff nD τ sig (Elt F) Λ₀ .tc) α}
    (c : Dev nD) (s : Fin 20) (κs κr : ℕ)
    (fs : Buf (Elt F) ((srcM (slotCh s)).view.loc (c : Thread nD τ)))
    (fd : Buf (Elt F) ((slotM s).view.loc (px (slotX s) c : Thread nD τ)))
    (O : CellTallies nD τ sig Unit) (W : Waits sig Unit)
    (hfs : (srcM (slotCh s)).view.read (Elt F) fs = sent m s c)
    {hsc : (slotM s : Memref sig (Dev.tc (px (slotX s) c) : Thread nD τ).2.kind .vmem S256x128 .bf16).view.ref.isScScratch = false}
    {hsrc : (srcM (slotCh s)).view.WordExact} {hdst : (slotM s).view.WordExact}
    {hsem : DmaTarget.Typed .vmem (.dma (recvSem s)) (.remote (Dev.tc (px (slotX s) c) : Thread nD τ) (slotM s) (.dma (sendSem s)) hsc)} :
    iprop(cellInv ER (sched m) κs (sendCell c s) ∗ cellInv ER (sched m) κr (recvCell (px (slotX s) c) s)
        ∗ srcPts c (slotCh s) (slotShare s) fs ∗ slotPts (px (slotX s) c) s fd
        ∗ owes (c : Thread nD τ) (O + copyDue c s) W
        ∗ dutyTok ER (sendCell c s) 0 0 ∗ reached ER (sendCell c s) 0
        ∗ dutyTok ER (recvCell (px (slotX s) c) s) 0 0 ∗ reached ER (recvCell (px (slotX s) c) s) 0)
      ⊢ iprop(((cred (tallyAt (sendCell c s) () N) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ (.op (.enqueueDma (srcM (slotCh s)) (.remote (Dev.tc (px (slotX s) c) : Thread nD τ) (slotM s) (.dma (sendSem s)) hsc) (.dma (recvSem s)) hsrc hdst hsem) k) Q) := by
  unfold srcPts slotPts
  exact Rounds.wp_send_pointsTo Variants.none ER (sched m) (c : Thread nD τ) none (defs := defs₀ (F := F))
    (c' := (Dev.tc (px (slotX s) c) : Thread nD τ)) (src := srcM (slotCh s)) (dst := slotM s)
    (sS := .dma (sendSem s)) (sem := .dma (recvSem s)) (q := slotShare s) (fs := fs) (fd := fd)
    (κ₁ := κs) (κ₂ := κr) (r₁ := 0) (r₂ := 0) (d₁ := 0) (d₂ := 0)
    (by rw [duties_send]; exact Finset.mem_singleton_self _) (by rw [duties_recv]; exact Finset.mem_singleton_self _)
    () () N (amount_slot s _) (amount_send m c s 0) (amount_recv m (px (slotX s) c) s 0) O rfl (W := W)
    (by rw [payload_send]; unfold sendPay srcPts; iintro H; iexists fs; iexact H)
    (by
      rw [payload_recv]; unfold recvPay
      exact Entails.of_eq (slotPts_congr (px (slotX s) c) s _ _ (by
        intro i hi
        unfold landed
        rw [px_px, ← hfs]
        exact write_congr_set (slotM s).view fd (junk (px (slotX s) c) s) _ i hi)))

/-! ## The two waits of a copy -/

/-- Device `c` waits for copy `s` to have left: the borrowed share of its outgoing slice is back. The wait names any
    destination view whose credit is the copy's. -/
theorem wait_send_step {α : Type} {Q : α → sProp 𝕄} {k : PUnit → Prog (TpuEff nD τ sig (Elt F) Λ₀ .tc) α}
    (c : Dev nD) (s : Fin 20) (κ : ℕ) (O : CellTallies nD τ sig Unit) (W : Waits sig Unit)
    {sp sp' : Space} {sh sh' : Shape} {e e' : EltTy} {src : Memref sig (c : Thread nD τ).2.kind sp' sh' e'} {κ' : Kind}
    {dst : Memref sig κ' sp sh e} {hsrc : src.view.WordExact} {hdst : dst.view.WordExact} (hN : dst.view.dmaCredit = N) :
    iprop(cellInv ER (sched m) κ (sendCell c s) ∗ cred (tallyAt (sendCell c s) () N) ∗ owes (c : Thread nD τ) O W
        ∗ MayWait (c : Thread nD τ) (.dma (sendSem s)) () O ∗ atPos ER (sendCell c s) 0 ∅ 0)
      ⊢ iprop(((owes (c : Thread nD τ) O (insert (SemLoc.dma (sendSem s), ()) W) ∗ atPos ER (sendCell c s) 1 ∅ 0 ∗ reached ER (sendCell c s) 1
              ∗ sendPay (F := F) c s)
            -∗ wp frame (wpE (defs₀ (F := F)) Variants.none (c : Thread nD τ) none) Set.univ (k ⟨⟩) Q)
          -∗ wp frame (wpE (defs₀ (F := F)) Variants.none (c : Thread nD τ) none) Set.univ (.op (.waitDma2 (sendSem s) src dst hsrc hdst) k) Q) := by
  have h := Rounds.wp_wait_rest_token Variants.none ER (sched m) (c : Thread nD τ) none (defs := defs₀ (F := F)) (κ := κ) (α := α) (Q := Q) (k := k)
    (wpE_waitDma2_eq Variants.none (c : Thread nD τ) none Set.univ (sem := sendSem s) (src := src) (dst := dst) (hsrc := hsrc) (hdst := hdst))
    (Set.mem_univ _) () (O := O) (W := W) (R := 0) (m := 0) (T := ∅) (by rw [Nat.zero_add, expect_send, hN])
  rw [rest_send, hN] at h
  exact h

/-- Device `c` waits for the partner's copy `s` to have landed: it receives its slot holding what the partner's copy
    carried. -/
theorem wait_recv_step {α : Type} {Q : α → sProp 𝕄} {k : PUnit → Prog (TpuEff nD τ sig (Elt F) Λ₀ .tc) α}
    (c : Dev nD) (s : Fin 20) (κ : ℕ) (O : CellTallies nD τ sig Unit) (W : Waits sig Unit)
    {sp sp' : Space} {sh sh' : Shape} {e e' : EltTy} {src : Memref sig (c : Thread nD τ).2.kind sp' sh' e'} {κ' : Kind}
    {dst : Memref sig κ' sp sh e} {hsrc : src.view.WordExact} {hdst : dst.view.WordExact} (hN : dst.view.dmaCredit = N) :
    iprop(cellInv ER (sched m) κ (recvCell c s) ∗ cred (tallyAt (recvCell c s) () N) ∗ owes (c : Thread nD τ) O W
        ∗ MayWait (c : Thread nD τ) (.dma (recvSem s)) () O ∗ atPos ER (recvCell c s) 0 ∅ 0)
      ⊢ iprop(((owes (c : Thread nD τ) O (insert (SemLoc.dma (recvSem s), ()) W) ∗ atPos ER (recvCell c s) 1 ∅ 0 ∗ reached ER (recvCell c s) 1
              ∗ recvPay m c s)
            -∗ wp frame (wpE (defs₀ (F := F)) Variants.none (c : Thread nD τ) none) Set.univ (k ⟨⟩) Q)
          -∗ wp frame (wpE (defs₀ (F := F)) Variants.none (c : Thread nD τ) none) Set.univ (.op (.waitDma2 (recvSem s) src dst hsrc hdst) k) Q) := by
  have h := Rounds.wp_wait_rest_token Variants.none ER (sched m) (c : Thread nD τ) none (defs := defs₀ (F := F)) (κ := κ) (α := α) (Q := Q) (k := k)
    (wpE_waitDma2_eq Variants.none (c : Thread nD τ) none Set.univ (sem := recvSem s) (src := src) (dst := dst) (hsrc := hsrc) (hdst := hdst))
    (Set.mem_univ _) () (O := O) (W := W) (R := 0) (m := 0) (T := ∅) (by rw [Nat.zero_add, expect_recv, hN])
  rw [rest_recv, hN] at h
  exact h

/-- info: 'Cert.Kernel.Steps.signal_step' depends on axioms: [propext, Classical.choice, Quot.sound] -/
#guard_msgs in #print axioms signal_step

/-- info: 'Cert.Kernel.Steps.bar_wait_step' depends on axioms: [propext, Classical.choice, Quot.sound] -/
#guard_msgs in #print axioms bar_wait_step

/-- info: 'Cert.Kernel.Steps.send_step' depends on axioms: [propext, Classical.choice, Quot.sound] -/
#guard_msgs in #print axioms send_step

/-- info: 'Cert.Kernel.Steps.wait_send_step' depends on axioms: [propext, Classical.choice, Quot.sound] -/
#guard_msgs in #print axioms wait_send_step

/-- info: 'Cert.Kernel.Steps.wait_recv_step' depends on axioms: [propext, Classical.choice, Quot.sound] -/
#guard_msgs in #print axioms wait_recv_step

end Cert.Kernel.Steps

end
-- ==== Proof.KernelWaits.lean ====
/-
  Deadlock freedom, as levels. A device waits on a cell only while everything it still owes lies strictly above that
  cell: its barrier cell (level 1) and its send cells (level 2) lie below every receive cell (level 10 and up), and the
  receive wait of a step and chunk comes when only copies of later steps, or of the same step and later chunks, are still
  to be started. What the device owes is the chain of the landings of the copies it has not yet started.
-/
import proofs.«900514_g7700000000000515_dist_attn_self_mha_htp_b2_sq128_skv128_d512_hq8_dh64_v7x_i16_bf16_1_alg».proof.Proof.KernelProto
import Idealize.ShloMosaic.Lib.Pipeline.Launch

noncomputable section

namespace Cert.Kernel.Waits

open Cert.Kernel Cert.Kernel.Gen Cert.Kernel.Terms Cert.Kernel.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The copies from number `n` on are numbered at least `n`. -/
theorem le_of_mem_drop_finRange {n : ℕ} {s : Fin 20} (h : s ∈ (List.finRange 20).drop n) : n ≤ s.val := by
  obtain ⟨i, hi, rfl⟩ := List.mem_iff_getElem.mp h
  rw [List.getElem_drop, List.getElem_finRange]
  exact Nat.le_add_right n i

/-- A positive entry of what is owed from copy `n` on is the landing of one of those copies. -/
theorem copyDues_pos {c : Dev nD} {n : ℕ} {g : GSem nD τ sig} {u : Unit} (h : 0 < owedL (copyDues c n) g u) :
    ∃ s : Fin 20, n ≤ s.val ∧ g = recvCell (px (slotX s) c) s := by
  obtain ⟨p, hp, hpos⟩ := owedL_pos h
  unfold copyDues at hp
  obtain ⟨s, hs, rfl⟩ := List.mem_map.mp hp
  unfold copyDue at hpos
  exact ⟨s, le_of_mem_drop_finRange hs, (Pipeline.tallyAt_pos hpos).1⟩

/-- THE GENERAL WAIT: a device may wait on a cell of its own that lies strictly below the landing of every copy it has
    still to start. -/
theorem mayWait_dues (c : Dev nD) (sm : SemLoc sig) (n : ℕ)
    (h : ∀ s : Fin 20, n ≤ s.val → lv ((c : Thread nD τ), sm) () < lv (recvCell (px (slotX s) c) s) ()) :
    (levAts L lv : sProp 𝕄) ⊢ MayWait (c : Thread nD τ) sm () (owedL (copyDues c n)) :=
  Pipeline.mayWait_of_levAts (by rw [L_tc]; exact Finset.mem_singleton_self _) (fun g u hg => by
    obtain ⟨s, hs, rfl⟩ := copyDues_pos hg
    exact ⟨by rw [L_tc]; exact Finset.mem_singleton_self _, h s hs⟩)

/-! ## The chain of dues, written out -/

theorem dues_0 (c : Dev nD) :
    (0 + tallyAt (recvCell (px 3 c) 19) () N + tallyAt (recvCell (px 3 c) 18) () N + tallyAt (recvCell (px 2 c) 17) () N + tallyAt (recvCell (px 1 c) 16) () N + tallyAt (recvCell (px 0 c) 15) () N + tallyAt (recvCell (px 4 c) 14) () N + tallyAt (recvCell (px 4 c) 13) () N + tallyAt (recvCell (px 2 c) 12) () N + tallyAt (recvCell (px 1 c) 11) () N + tallyAt (recvCell (px 0 c) 10) () N + tallyAt (recvCell (px 4 c) 9) () N + tallyAt (recvCell (px 3 c) 8) () N + tallyAt (recvCell (px 2 c) 7) () N + tallyAt (recvCell (px 1 c) 6) () N + tallyAt (recvCell (px 0 c) 5) () N + tallyAt (recvCell (px 4 c) 4) () N + tallyAt (recvCell (px 3 c) 3) () N + tallyAt (recvCell (px 2 c) 2) () N + tallyAt (recvCell (px 1 c) 1) () N + tallyAt (recvCell (px 0 c) 0) () N : CellTallies nD τ sig Unit)
      = owedL (copyDues c 0) := rfl
theorem dues_8 (c : Dev nD) :
    (0 + tallyAt (recvCell (px 3 c) 19) () N + tallyAt (recvCell (px 3 c) 18) () N + tallyAt (recvCell (px 2 c) 17) () N + tallyAt (recvCell (px 1 c) 16) () N + tallyAt (recvCell (px 0 c) 15) () N + tallyAt (recvCell (px 4 c) 14) () N + tallyAt (recvCell (px 4 c) 13) () N + tallyAt (recvCell (px 2 c) 12) () N + tallyAt (recvCell (px 1 c) 11) () N + tallyAt (recvCell (px 0 c) 10) () N + tallyAt (recvCell (px 4 c) 9) () N + tallyAt (recvCell (px 3 c) 8) () N : CellTallies nD τ sig Unit)
      = owedL (copyDues c 8) := rfl
theorem dues_9 (c : Dev nD) :
    (0 + tallyAt (recvCell (px 3 c) 19) () N + tallyAt (recvCell (px 3 c) 18) () N + tallyAt (recvCell (px 2 c) 17) () N + tallyAt (recvCell (px 1 c) 16) () N + tallyAt (recvCell (px 0 c) 15) () N + tallyAt (recvCell (px 4 c) 14) () N + tallyAt (recvCell (px 4 c) 13) () N + tallyAt (recvCell (px 2 c) 12) () N + tallyAt (recvCell (px 1 c) 11) () N + tallyAt (recvCell (px 0 c) 10) () N + tallyAt (recvCell (px 4 c) 9) () N : CellTallies nD τ sig Unit)
      = owedL (copyDues c 9) := rfl
theorem dues_10 (c : Dev nD) :
    (0 + tallyAt (recvCell (px 3 c) 19) () N + tallyAt (recvCell (px 3 c) 18) () N + tallyAt (recvCell (px 2 c) 17) () N + tallyAt (recvCell (px 1 c) 16) () N + tallyAt (recvCell (px 0 c) 15) () N + tallyAt (recvCell (px 4 c) 14) () N + tallyAt (recvCell (px 4 c) 13) () N + tallyAt (recvCell (px 2 c) 12) () N + tallyAt (recvCell (px 1 c) 11) () N + tallyAt (recvCell (px 0 c) 10) () N : CellTallies nD τ sig Unit)
      = owedL (copyDues c 10) := rfl
theorem dues_13 (c : Dev nD) :
    (0 + tallyAt (recvCell (px 3 c) 19) () N + tallyAt (recvCell (px 3 c) 18) () N + tallyAt (recvCell (px 2 c) 17) () N + tallyAt (recvCell (px 1 c) 16) () N + tallyAt (recvCell (px 0 c) 15) () N + tallyAt (recvCell (px 4 c) 14) () N + tallyAt (recvCell (px 4 c) 13) () N : CellTallies nD τ sig Unit)
      = owedL (copyDues c 13) := rfl
theorem dues_14 (c : Dev nD) :
    (0 + tallyAt (recvCell (px 3 c) 19) () N + tallyAt (recvCell (px 3 c) 18) () N + tallyAt (recvCell (px 2 c) 17) () N + tallyAt (recvCell (px 1 c) 16) () N + tallyAt (recvCell (px 0 c) 15) () N + tallyAt (recvCell (px 4 c) 14) () N : CellTallies nD τ sig Unit)
      = owedL (copyDues c 14) := rfl
theorem dues_15 (c : Dev nD) :
    (0 + tallyAt (recvCell (px 3 c) 19) () N + tallyAt (recvCell (px 3 c) 18) () N + tallyAt (recvCell (px 2 c) 17) () N + tallyAt (recvCell (px 1 c) 16) () N + tallyAt (recvCell (px 0 c) 15) () N : CellTallies nD τ sig Unit)
      = owedL (copyDues c 15) := rfl
theorem dues_18 (c : Dev nD) :
    (0 + tallyAt (recvCell (px 3 c) 19) () N + tallyAt (recvCell (px 3 c) 18) () N : CellTallies nD τ sig Unit)
      = owedL (copyDues c 18) := rfl
theorem dues_19 (c : Dev nD) :
    (0 + tallyAt (recvCell (px 3 c) 19) () N : CellTallies nD τ sig Unit)
      = owedL (copyDues c 19) := rfl

/-! ## The side conditions: levels -/

theorem lt_recv_of_bar (c : Dev nD) (n : ℕ) :
    ∀ s : Fin 20, n ≤ s.val → lv ((c : Thread nD τ), .reg barS) () < lv (recvCell (px (slotX s) c) s) () := by
  intro s _
  rw [show ((c : Thread nD τ), SemLoc.reg barS) = barCell c from rfl, lv_bar, lv_recv]
  omega

theorem lt_recv_of_send (c : Dev nD) (t : Fin 20) (n : ℕ) :
    ∀ s : Fin 20, n ≤ s.val → lv ((c : Thread nD τ), .dma (sendSem t)) () < lv (recvCell (px (slotX s) c) s) () := by
  intro s _
  rw [show ((c : Thread nD τ), SemLoc.dma (sendSem t)) = sendCell c t from rfl, lv_send, lv_recv]
  omega

theorem lt_recv_of_recv (c : Dev nD) (t : Fin 20) (n : ℕ)
    (h : ∀ s : Fin 20, n ≤ s.val → (slotK t).val * 4 + (slotCh t).val < (slotK s).val * 4 + (slotCh s).val) :
    ∀ s : Fin 20, n ≤ s.val → lv ((c : Thread nD τ), .dma (recvSem t)) () < lv (recvCell (px (slotX s) c) s) () := by
  intro s hs
  rw [show ((c : Thread nD τ), SemLoc.dma (recvSem t)) = recvCell c t from rfl, lv_recv, lv_recv]
  have := h s hs
  omega

/-! ## The body's waits -/

/-- The entry barrier: all twenty copies owed. -/
theorem mayWait_bar (c : Dev nD) :
    (levAts L lv : sProp 𝕄) ⊢ MayWait (c : Thread nD τ) (.reg barS) ()
      (0 + tallyAt (recvCell (px 3 c) 19) () N + tallyAt (recvCell (px 3 c) 18) () N + tallyAt (recvCell (px 2 c) 17) () N + tallyAt (recvCell (px 1 c) 16) () N + tallyAt (recvCell (px 0 c) 15) () N + tallyAt (recvCell (px 4 c) 14) () N + tallyAt (recvCell (px 4 c) 13) () N + tallyAt (recvCell (px 2 c) 12) () N + tallyAt (recvCell (px 1 c) 11) () N + tallyAt (recvCell (px 0 c) 10) () N + tallyAt (recvCell (px 4 c) 9) () N + tallyAt (recvCell (px 3 c) 8) () N + tallyAt (recvCell (px 2 c) 7) () N + tallyAt (recvCell (px 1 c) 6) () N + tallyAt (recvCell (px 0 c) 5) () N + tallyAt (recvCell (px 4 c) 4) () N + tallyAt (recvCell (px 3 c) 3) () N + tallyAt (recvCell (px 2 c) 2) () N + tallyAt (recvCell (px 1 c) 1) () N + tallyAt (recvCell (px 0 c) 0) () N) := by
  rw [dues_0]
  exact mayWait_dues c _ 0 (lt_recv_of_bar c 0)

theorem mayWait_recv_0 (c : Dev nD) :
    (levAts L lv : sProp 𝕄) ⊢ MayWait (c : Thread nD τ) (.dma (recvSem 0)) ()
      (0 + tallyAt (recvCell (px 3 c) 19) () N + tallyAt (recvCell (px 3 c) 18) () N + tallyAt (recvCell (px 2 c) 17) () N + tallyAt (recvCell (px 1 c) 16) () N + tallyAt (recvCell (px 0 c) 15) () N + tallyAt (recvCell (px 4 c) 14) () N + tallyAt (recvCell (px 4 c) 13) () N + tallyAt (recvCell (px 2 c) 12) () N + tallyAt (recvCell (px 1 c) 11) () N + tallyAt (recvCell (px 0 c) 10) () N + tallyAt (recvCell (px 4 c) 9) () N + tallyAt (recvCell (px 3 c) 8) () N) := by
  rw [dues_8]
  exact mayWait_dues c _ 8 (lt_recv_of_recv c 0 8 (by decide))

theorem mayWait_send_0 (c : Dev nD) :
    (levAts L lv : sProp 𝕄) ⊢ MayWait (c : Thread nD τ) (.dma (sendSem 0)) ()
      (0 + tallyAt (recvCell (px 3 c) 19) () N + tallyAt (recvCell (px 3 c) 18) () N + tallyAt (recvCell (px 2 c) 17) () N + tallyAt (recvCell (px 1 c) 16) () N + tallyAt (recvCell (px 0 c) 15) () N + tallyAt (recvCell (px 4 c) 14) () N + tallyAt (recvCell (px 4 c) 13) () N + tallyAt (recvCell (px 2 c) 12) () N + tallyAt (recvCell (px 1 c) 11) () N + tallyAt (recvCell (px 0 c) 10) () N + tallyAt (recvCell (px 4 c) 9) () N + tallyAt (recvCell (px 3 c) 8) () N) := by
  rw [dues_8]
  exact mayWait_dues c _ 8 (lt_recv_of_send c 0 8)

theorem mayWait_recv_1 (c : Dev nD) :
    (levAts L lv : sProp 𝕄) ⊢ MayWait (c : Thread nD τ) (.dma (recvSem 1)) ()
      (0 + tallyAt (recvCell (px 3 c) 19) () N + tallyAt (recvCell (px 3 c) 18) () N + tallyAt (recvCell (px 2 c) 17) () N + tallyAt (recvCell (px 1 c) 16) () N + tallyAt (recvCell (px 0 c) 15) () N + tallyAt (recvCell (px 4 c) 14) () N + tallyAt (recvCell (px 4 c) 13) () N + tallyAt (recvCell (px 2 c) 12) () N + tallyAt (recvCell (px 1 c) 11) () N + tallyAt (recvCell (px 0 c) 10) () N + tallyAt (recvCell (px 4 c) 9) () N + tallyAt (recvCell (px 3 c) 8) () N) := by
  rw [dues_8]
  exact mayWait_dues c _ 8 (lt_recv_of_recv c 1 8 (by decide))

theorem mayWait_send_1 (c : Dev nD) :
    (levAts L lv : sProp 𝕄) ⊢ MayWait (c : Thread nD τ) (.dma (sendSem 1)) ()
      (0 + tallyAt (recvCell (px 3 c) 19) () N + tallyAt (recvCell (px 3 c) 18) () N + tallyAt (recvCell (px 2 c) 17) () N + tallyAt (recvCell (px 1 c) 16) () N + tallyAt (recvCell (px 0 c) 15) () N + tallyAt (recvCell (px 4 c) 14) () N + tallyAt (recvCell (px 4 c) 13) () N + tallyAt (recvCell (px 2 c) 12) () N + tallyAt (recvCell (px 1 c) 11) () N + tallyAt (recvCell (px 0 c) 10) () N + tallyAt (recvCell (px 4 c) 9) () N + tallyAt (recvCell (px 3 c) 8) () N) := by
  rw [dues_8]
  exact mayWait_dues c _ 8 (lt_recv_of_send c 1 8)

theorem mayWait_recv_2 (c : Dev nD) :
    (levAts L lv : sProp 𝕄) ⊢ MayWait (c : Thread nD τ) (.dma (recvSem 2)) ()
      (0 + tallyAt (recvCell (px 3 c) 19) () N + tallyAt (recvCell (px 3 c) 18) () N + tallyAt (recvCell (px 2 c) 17) () N + tallyAt (recvCell (px 1 c) 16) () N + tallyAt (recvCell (px 0 c) 15) () N + tallyAt (recvCell (px 4 c) 14) () N + tallyAt (recvCell (px 4 c) 13) () N + tallyAt (recvCell (px 2 c) 12) () N + tallyAt (recvCell (px 1 c) 11) () N + tallyAt (recvCell (px 0 c) 10) () N + tallyAt (recvCell (px 4 c) 9) () N + tallyAt (recvCell (px 3 c) 8) () N) := by
  rw [dues_8]
  exact mayWait_dues c _ 8 (lt_recv_of_recv c 2 8 (by decide))

theorem mayWait_send_2 (c : Dev nD) :
    (levAts L lv : sProp 𝕄) ⊢ MayWait (c : Thread nD τ) (.dma (sendSem 2)) ()
      (0 + tallyAt (recvCell (px 3 c) 19) () N + tallyAt (recvCell (px 3 c) 18) () N + tallyAt (recvCell (px 2 c) 17) () N + tallyAt (recvCell (px 1 c) 16) () N + tallyAt (recvCell (px 0 c) 15) () N + tallyAt (recvCell (px 4 c) 14) () N + tallyAt (recvCell (px 4 c) 13) () N + tallyAt (recvCell (px 2 c) 12) () N + tallyAt (recvCell (px 1 c) 11) () N + tallyAt (recvCell (px 0 c) 10) () N + tallyAt (recvCell (px 4 c) 9) () N + tallyAt (recvCell (px 3 c) 8) () N) := by
  rw [dues_8]
  exact mayWait_dues c _ 8 (lt_recv_of_send c 2 8)

theorem mayWait_recv_3 (c : Dev nD) :
    (levAts L lv : sProp 𝕄) ⊢ MayWait (c : Thread nD τ) (.dma (recvSem 3)) ()
      (0 + tallyAt (recvCell (px 3 c) 19) () N + tallyAt (recvCell (px 3 c) 18) () N + tallyAt (recvCell (px 2 c) 17) () N + tallyAt (recvCell (px 1 c) 16) () N + tallyAt (recvCell (px 0 c) 15) () N + tallyAt (recvCell (px 4 c) 14) () N + tallyAt (recvCell (px 4 c) 13) () N + tallyAt (recvCell (px 2 c) 12) () N + tallyAt (recvCell (px 1 c) 11) () N + tallyAt (recvCell (px 0 c) 10) () N + tallyAt (recvCell (px 4 c) 9) () N) := by
  rw [dues_9]
  exact mayWait_dues c _ 9 (lt_recv_of_recv c 3 9 (by decide))

theorem mayWait_send_3 (c : Dev nD) :
    (levAts L lv : sProp 𝕄) ⊢ MayWait (c : Thread nD τ) (.dma (sendSem 3)) ()
      (0 + tallyAt (recvCell (px 3 c) 19) () N + tallyAt (recvCell (px 3 c) 18) () N + tallyAt (recvCell (px 2 c) 17) () N + tallyAt (recvCell (px 1 c) 16) () N + tallyAt (recvCell (px 0 c) 15) () N + tallyAt (recvCell (px 4 c) 14) () N + tallyAt (recvCell (px 4 c) 13) () N + tallyAt (recvCell (px 2 c) 12) () N + tallyAt (recvCell (px 1 c) 11) () N + tallyAt (recvCell (px 0 c) 10) () N + tallyAt (recvCell (px 4 c) 9) () N) := by
  rw [dues_9]
  exact mayWait_dues c _ 9 (lt_recv_of_send c 3 9)

theorem mayWait_recv_4 (c : Dev nD) :
    (levAts L lv : sProp 𝕄) ⊢ MayWait (c : Thread nD τ) (.dma (recvSem 4)) ()
      (0 + tallyAt (recvCell (px 3 c) 19) () N + tallyAt (recvCell (px 3 c) 18) () N + tallyAt (recvCell (px 2 c) 17) () N + tallyAt (recvCell (px 1 c) 16) () N + tallyAt (recvCell (px 0 c) 15) () N + tallyAt (recvCell (px 4 c) 14) () N + tallyAt (recvCell (px 4 c) 13) () N + tallyAt (recvCell (px 2 c) 12) () N + tallyAt (recvCell (px 1 c) 11) () N + tallyAt (recvCell (px 0 c) 10) () N) := by
  rw [dues_10]
  exact mayWait_dues c _ 10 (lt_recv_of_recv c 4 10 (by decide))

theorem mayWait_send_4 (c : Dev nD) :
    (levAts L lv : sProp 𝕄) ⊢ MayWait (c : Thread nD τ) (.dma (sendSem 4)) ()
      (0 + tallyAt (recvCell (px 3 c) 19) () N + tallyAt (recvCell (px 3 c) 18) () N + tallyAt (recvCell (px 2 c) 17) () N + tallyAt (recvCell (px 1 c) 16) () N + tallyAt (recvCell (px 0 c) 15) () N + tallyAt (recvCell (px 4 c) 14) () N + tallyAt (recvCell (px 4 c) 13) () N + tallyAt (recvCell (px 2 c) 12) () N + tallyAt (recvCell (px 1 c) 11) () N + tallyAt (recvCell (px 0 c) 10) () N) := by
  rw [dues_10]
  exact mayWait_dues c _ 10 (lt_recv_of_send c 4 10)

theorem mayWait_recv_5 (c : Dev nD) :
    (levAts L lv : sProp 𝕄) ⊢ MayWait (c : Thread nD τ) (.dma (recvSem 5)) ()
      (0 + tallyAt (recvCell (px 3 c) 19) () N + tallyAt (recvCell (px 3 c) 18) () N + tallyAt (recvCell (px 2 c) 17) () N + tallyAt (recvCell (px 1 c) 16) () N + tallyAt (recvCell (px 0 c) 15) () N + tallyAt (recvCell (px 4 c) 14) () N + tallyAt (recvCell (px 4 c) 13) () N) := by
  rw [dues_13]
  exact mayWait_dues c _ 13 (lt_recv_of_recv c 5 13 (by decide))

theorem mayWait_send_5 (c : Dev nD) :
    (levAts L lv : sProp 𝕄) ⊢ MayWait (c : Thread nD τ) (.dma (sendSem 5)) ()
      (0 + tallyAt (recvCell (px 3 c) 19) () N + tallyAt (recvCell (px 3 c) 18) () N + tallyAt (recvCell (px 2 c) 17) () N + tallyAt (recvCell (px 1 c) 16) () N + tallyAt (recvCell (px 0 c) 15) () N + tallyAt (recvCell (px 4 c) 14) () N + tallyAt (recvCell (px 4 c) 13) () N) := by
  rw [dues_13]
  exact mayWait_dues c _ 13 (lt_recv_of_send c 5 13)

theorem mayWait_recv_6 (c : Dev nD) :
    (levAts L lv : sProp 𝕄) ⊢ MayWait (c : Thread nD τ) (.dma (recvSem 6)) ()
      (0 + tallyAt (recvCell (px 3 c) 19) () N + tallyAt (recvCell (px 3 c) 18) () N + tallyAt (recvCell (px 2 c) 17) () N + tallyAt (recvCell (px 1 c) 16) () N + tallyAt (recvCell (px 0 c) 15) () N + tallyAt (recvCell (px 4 c) 14) () N + tallyAt (recvCell (px 4 c) 13) () N) := by
  rw [dues_13]
  exact mayWait_dues c _ 13 (lt_recv_of_recv c 6 13 (by decide))

theorem mayWait_send_6 (c : Dev nD) :
    (levAts L lv : sProp 𝕄) ⊢ MayWait (c : Thread nD τ) (.dma (sendSem 6)) ()
      (0 + tallyAt (recvCell (px 3 c) 19) () N + tallyAt (recvCell (px 3 c) 18) () N + tallyAt (recvCell (px 2 c) 17) () N + tallyAt (recvCell (px 1 c) 16) () N + tallyAt (recvCell (px 0 c) 15) () N + tallyAt (recvCell (px 4 c) 14) () N + tallyAt (recvCell (px 4 c) 13) () N) := by
  rw [dues_13]
  exact mayWait_dues c _ 13 (lt_recv_of_send c 6 13)

theorem mayWait_recv_7 (c : Dev nD) :
    (levAts L lv : sProp 𝕄) ⊢ MayWait (c : Thread nD τ) (.dma (recvSem 7)) ()
      (0 + tallyAt (recvCell (px 3 c) 19) () N + tallyAt (recvCell (px 3 c) 18) () N + tallyAt (recvCell (px 2 c) 17) () N + tallyAt (recvCell (px 1 c) 16) () N + tallyAt (recvCell (px 0 c) 15) () N + tallyAt (recvCell (px 4 c) 14) () N + tallyAt (recvCell (px 4 c) 13) () N) := by
  rw [dues_13]
  exact mayWait_dues c _ 13 (lt_recv_of_recv c 7 13 (by decide))

theorem mayWait_send_7 (c : Dev nD) :
    (levAts L lv : sProp 𝕄) ⊢ MayWait (c : Thread nD τ) (.dma (sendSem 7)) ()
      (0 + tallyAt (recvCell (px 3 c) 19) () N + tallyAt (recvCell (px 3 c) 18) () N + tallyAt (recvCell (px 2 c) 17) () N + tallyAt (recvCell (px 1 c) 16) () N + tallyAt (recvCell (px 0 c) 15) () N + tallyAt (recvCell (px 4 c) 14) () N + tallyAt (recvCell (px 4 c) 13) () N) := by
  rw [dues_13]
  exact mayWait_dues c _ 13 (lt_recv_of_send c 7 13)

theorem mayWait_recv_8 (c : Dev nD) :
    (levAts L lv : sProp 𝕄) ⊢ MayWait (c : Thread nD τ) (.dma (recvSem 8)) ()
      (0 + tallyAt (recvCell (px 3 c) 19) () N + tallyAt (recvCell (px 3 c) 18) () N + tallyAt (recvCell (px 2 c) 17) () N + tallyAt (recvCell (px 1 c) 16) () N + tallyAt (recvCell (px 0 c) 15) () N + tallyAt (recvCell (px 4 c) 14) () N) := by
  rw [dues_14]
  exact mayWait_dues c _ 14 (lt_recv_of_recv c 8 14 (by decide))

theorem mayWait_send_8 (c : Dev nD) :
    (levAts L lv : sProp 𝕄) ⊢ MayWait (c : Thread nD τ) (.dma (sendSem 8)) ()
      (0 + tallyAt (recvCell (px 3 c) 19) () N + tallyAt (recvCell (px 3 c) 18) () N + tallyAt (recvCell (px 2 c) 17) () N + tallyAt (recvCell (px 1 c) 16) () N + tallyAt (recvCell (px 0 c) 15) () N + tallyAt (recvCell (px 4 c) 14) () N) := by
  rw [dues_14]
  exact mayWait_dues c _ 14 (lt_recv_of_send c 8 14)

theorem mayWait_recv_9 (c : Dev nD) :
    (levAts L lv : sProp 𝕄) ⊢ MayWait (c : Thread nD τ) (.dma (recvSem 9)) ()
      (0 + tallyAt (recvCell (px 3 c) 19) () N + tallyAt (recvCell (px 3 c) 18) () N + tallyAt (recvCell (px 2 c) 17) () N + tallyAt (recvCell (px 1 c) 16) () N + tallyAt (recvCell (px 0 c) 15) () N) := by
  rw [dues_15]
  exact mayWait_dues c _ 15 (lt_recv_of_recv c 9 15 (by decide))

theorem mayWait_send_9 (c : Dev nD) :
    (levAts L lv : sProp 𝕄) ⊢ MayWait (c : Thread nD τ) (.dma (sendSem 9)) ()
      (0 + tallyAt (recvCell (px 3 c) 19) () N + tallyAt (recvCell (px 3 c) 18) () N + tallyAt (recvCell (px 2 c) 17) () N + tallyAt (recvCell (px 1 c) 16) () N + tallyAt (recvCell (px 0 c) 15) () N) := by
  rw [dues_15]
  exact mayWait_dues c _ 15 (lt_recv_of_send c 9 15)

theorem mayWait_recv_10 (c : Dev nD) :
    (levAts L lv : sProp 𝕄) ⊢ MayWait (c : Thread nD τ) (.dma (recvSem 10)) ()
      (0 + tallyAt (recvCell (px 3 c) 19) () N + tallyAt (recvCell (px 3 c) 18) () N) := by
  rw [dues_18]
  exact mayWait_dues c _ 18 (lt_recv_of_recv c 10 18 (by decide))

theorem mayWait_send_10 (c : Dev nD) :
    (levAts L lv : sProp 𝕄) ⊢ MayWait (c : Thread nD τ) (.dma (sendSem 10)) ()
      (0 + tallyAt (recvCell (px 3 c) 19) () N + tallyAt (recvCell (px 3 c) 18) () N) := by
  rw [dues_18]
  exact mayWait_dues c _ 18 (lt_recv_of_send c 10 18)

theorem mayWait_recv_11 (c : Dev nD) :
    (levAts L lv : sProp 𝕄) ⊢ MayWait (c : Thread nD τ) (.dma (recvSem 11)) ()
      (0 + tallyAt (recvCell (px 3 c) 19) () N + tallyAt (recvCell (px 3 c) 18) () N) := by
  rw [dues_18]
  exact mayWait_dues c _ 18 (lt_recv_of_recv c 11 18 (by decide))

theorem mayWait_send_11 (c : Dev nD) :
    (levAts L lv : sProp 𝕄) ⊢ MayWait (c : Thread nD τ) (.dma (sendSem 11)) ()
      (0 + tallyAt (recvCell (px 3 c) 19) () N + tallyAt (recvCell (px 3 c) 18) () N) := by
  rw [dues_18]
  exact mayWait_dues c _ 18 (lt_recv_of_send c 11 18)

theorem mayWait_recv_12 (c : Dev nD) :
    (levAts L lv : sProp 𝕄) ⊢ MayWait (c : Thread nD τ) (.dma (recvSem 12)) ()
      (0 + tallyAt (recvCell (px 3 c) 19) () N + tallyAt (recvCell (px 3 c) 18) () N) := by
  rw [dues_18]
  exact mayWait_dues c _ 18 (lt_recv_of_recv c 12 18 (by decide))

theorem mayWait_send_12 (c : Dev nD) :
    (levAts L lv : sProp 𝕄) ⊢ MayWait (c : Thread nD τ) (.dma (sendSem 12)) ()
      (0 + tallyAt (recvCell (px 3 c) 19) () N + tallyAt (recvCell (px 3 c) 18) () N) := by
  rw [dues_18]
  exact mayWait_dues c _ 18 (lt_recv_of_send c 12 18)

theorem mayWait_recv_13 (c : Dev nD) :
    (levAts L lv : sProp 𝕄) ⊢ MayWait (c : Thread nD τ) (.dma (recvSem 13)) ()
      (0 + tallyAt (recvCell (px 3 c) 19) () N) := by
  rw [dues_19]
  exact mayWait_dues c _ 19 (lt_recv_of_recv c 13 19 (by decide))

theorem mayWait_send_13 (c : Dev nD) :
    (levAts L lv : sProp 𝕄) ⊢ MayWait (c : Thread nD τ) (.dma (sendSem 13)) ()
      (0 + tallyAt (recvCell (px 3 c) 19) () N) := by
  rw [dues_19]
  exact mayWait_dues c _ 19 (lt_recv_of_send c 13 19)

end Cert.Kernel.Waits

end

/-- info: 'Cert.Kernel.Waits.mayWait_dues' depends on axioms: [propext, Classical.choice, Quot.sound] -/
#guard_msgs in #print axioms Cert.Kernel.Waits.mayWait_dues
/-- info: 'Cert.Kernel.Waits.mayWait_bar' depends on axioms: [propext, Classical.choice, Quot.sound] -/
#guard_msgs in #print axioms Cert.Kernel.Waits.mayWait_bar
/-- info: 'Cert.Kernel.Waits.mayWait_recv_13' depends on axioms: [propext, Classical.choice, Quot.sound] -/
#guard_msgs in #print axioms Cert.Kernel.Waits.mayWait_recv_13
-- ==== Proof.KernelBodyTables.lean ====
/-
  The tables of one device's body: the printed semaphore words are the copies' semaphores, the schedule's payloads spelt over
  the printed memrefs, and what the body's run starts from and what it leaves, piece by piece.
-/
import proofs.«900514_g7700000000000515_dist_attn_self_mha_htp_b2_sq128_skv128_d512_hq8_dh64_v7x_i16_bf16_1_alg».proof.Proof.KernelGhost
import proofs.«900514_g7700000000000515_dist_attn_self_mha_htp_b2_sq128_skv128_d512_hq8_dh64_v7x_i16_bf16_1_alg».proof.Proof.KernelData
import proofs.«900514_g7700000000000515_dist_attn_self_mha_htp_b2_sq128_skv128_d512_hq8_dh64_v7x_i16_bf16_1_alg».proof.Proof.KernelCtx
import proofs.«900514_g7700000000000515_dist_attn_self_mha_htp_b2_sq128_skv128_d512_hq8_dh64_v7x_i16_bf16_1_alg».proof.Proof.KernelViews
import proofs.«900514_g7700000000000515_dist_attn_self_mha_htp_b2_sq128_skv128_d512_hq8_dh64_v7x_i16_bf16_1_alg».proof.Proof.KernelSteps
import proofs.«900514_g7700000000000515_dist_attn_self_mha_htp_b2_sq128_skv128_d512_hq8_dh64_v7x_i16_bf16_1_alg».proof.Proof.KernelRegions
import proofs.«900514_g7700000000000515_dist_attn_self_mha_htp_b2_sq128_skv128_d512_hq8_dh64_v7x_i16_bf16_1_alg».proof.Proof.KernelWaits

set_option maxRecDepth 16384

noncomputable section

namespace Cert.Kernel.Body

open Cert.Kernel Cert.Kernel.Gen Cert.Kernel.Terms Cert.Kernel.Proto
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## The printed semaphore words are the copies' semaphores -/

theorem sendSem_canon0 : ((cc0_scratch3.slice (Rect.unit (s := S3x4x3) ![0, 0, 0] S1x1x1.size inb_S3x4x3_S1x1x1_0_0_0)).squeeze S_ squeezes_S1x1x1_S_).sem = sendSem 0 := rfl
theorem recvSem_canon0 : ((cc0_scratch4.slice (Rect.unit (s := S3x4x3) ![0, 0, 0] S1x1x1.size inb_S3x4x3_S1x1x1_0_0_0)).squeeze S_ squeezes_S1x1x1_S_).sem = recvSem 0 := rfl
theorem sendSem_canon1 : ((cc0_scratch3.slice (Rect.unit (s := S3x4x3) ![0, 0, 1] S1x1x1.size inb_S3x4x3_S1x1x1_0_0_1)).squeeze S_ squeezes_S1x1x1_S_).sem = sendSem 1 := rfl
theorem recvSem_canon1 : ((cc0_scratch4.slice (Rect.unit (s := S3x4x3) ![0, 0, 1] S1x1x1.size inb_S3x4x3_S1x1x1_0_0_1)).squeeze S_ squeezes_S1x1x1_S_).sem = recvSem 1 := rfl
theorem sendSem_canon2 : ((cc0_scratch3.slice (Rect.unit (s := S3x4x3) ![0, 0, 2] S1x1x1.size inb_S3x4x3_S1x1x1_0_0_2)).squeeze S_ squeezes_S1x1x1_S_).sem = sendSem 2 := rfl
theorem recvSem_canon2 : ((cc0_scratch4.slice (Rect.unit (s := S3x4x3) ![0, 0, 2] S1x1x1.size inb_S3x4x3_S1x1x1_0_0_2)).squeeze S_ squeezes_S1x1x1_S_).sem = recvSem 2 := rfl
theorem sendSem_canon3 : ((cc0_scratch3.slice (Rect.unit (s := S3x4x3) ![0, 1, 0] S1x1x1.size inb_S3x4x3_S1x1x1_0_1_0)).squeeze S_ squeezes_S1x1x1_S_).sem = sendSem 3 := rfl
theorem recvSem_canon3 : ((cc0_scratch4.slice (Rect.unit (s := S3x4x3) ![0, 1, 0] S1x1x1.size inb_S3x4x3_S1x1x1_0_1_0)).squeeze S_ squeezes_S1x1x1_S_).sem = recvSem 3 := rfl
theorem sendSem_canon4 : ((cc0_scratch3.slice (Rect.unit (s := S3x4x3) ![0, 2, 0] S1x1x1.size inb_S3x4x3_S1x1x1_0_2_0)).squeeze S_ squeezes_S1x1x1_S_).sem = sendSem 4 := rfl
theorem recvSem_canon4 : ((cc0_scratch4.slice (Rect.unit (s := S3x4x3) ![0, 2, 0] S1x1x1.size inb_S3x4x3_S1x1x1_0_2_0)).squeeze S_ squeezes_S1x1x1_S_).sem = recvSem 4 := rfl
theorem sendSem_canon5 : ((cc0_scratch3.slice (Rect.unit (s := S3x4x3) ![0, 3, 0] S1x1x1.size inb_S3x4x3_S1x1x1_0_3_0)).squeeze S_ squeezes_S1x1x1_S_).sem = sendSem 5 := rfl
theorem recvSem_canon5 : ((cc0_scratch4.slice (Rect.unit (s := S3x4x3) ![0, 3, 0] S1x1x1.size inb_S3x4x3_S1x1x1_0_3_0)).squeeze S_ squeezes_S1x1x1_S_).sem = recvSem 5 := rfl
theorem sendSem_canon6 : ((cc0_scratch3.slice (Rect.unit (s := S3x4x3) ![0, 3, 1] S1x1x1.size inb_S3x4x3_S1x1x1_0_3_1)).squeeze S_ squeezes_S1x1x1_S_).sem = sendSem 6 := rfl
theorem recvSem_canon6 : ((cc0_scratch4.slice (Rect.unit (s := S3x4x3) ![0, 3, 1] S1x1x1.size inb_S3x4x3_S1x1x1_0_3_1)).squeeze S_ squeezes_S1x1x1_S_).sem = recvSem 6 := rfl
theorem sendSem_canon7 : ((cc0_scratch3.slice (Rect.unit (s := S3x4x3) ![0, 3, 2] S1x1x1.size inb_S3x4x3_S1x1x1_0_3_2)).squeeze S_ squeezes_S1x1x1_S_).sem = sendSem 7 := rfl
theorem recvSem_canon7 : ((cc0_scratch4.slice (Rect.unit (s := S3x4x3) ![0, 3, 2] S1x1x1.size inb_S3x4x3_S1x1x1_0_3_2)).squeeze S_ squeezes_S1x1x1_S_).sem = recvSem 7 := rfl
theorem sendSem_canon8 : ((cc0_scratch3.slice (Rect.unit (s := S3x4x3) ![1, 0, 0] S1x1x1.size inb_S3x4x3_S1x1x1_1_0_0)).squeeze S_ squeezes_S1x1x1_S_).sem = sendSem 8 := rfl
theorem recvSem_canon8 : ((cc0_scratch4.slice (Rect.unit (s := S3x4x3) ![1, 0, 0] S1x1x1.size inb_S3x4x3_S1x1x1_1_0_0)).squeeze S_ squeezes_S1x1x1_S_).sem = recvSem 8 := rfl
theorem sendSem_canon9 : ((cc0_scratch3.slice (Rect.unit (s := S3x4x3) ![1, 1, 0] S1x1x1.size inb_S3x4x3_S1x1x1_1_1_0)).squeeze S_ squeezes_S1x1x1_S_).sem = sendSem 9 := rfl
theorem recvSem_canon9 : ((cc0_scratch4.slice (Rect.unit (s := S3x4x3) ![1, 1, 0] S1x1x1.size inb_S3x4x3_S1x1x1_1_1_0)).squeeze S_ squeezes_S1x1x1_S_).sem = recvSem 9 := rfl
theorem sendSem_canon10 : ((cc0_scratch3.slice (Rect.unit (s := S3x4x3) ![1, 2, 0] S1x1x1.size inb_S3x4x3_S1x1x1_1_2_0)).squeeze S_ squeezes_S1x1x1_S_).sem = sendSem 10 := rfl
theorem recvSem_canon10 : ((cc0_scratch4.slice (Rect.unit (s := S3x4x3) ![1, 2, 0] S1x1x1.size inb_S3x4x3_S1x1x1_1_2_0)).squeeze S_ squeezes_S1x1x1_S_).sem = recvSem 10 := rfl
theorem sendSem_canon11 : ((cc0_scratch3.slice (Rect.unit (s := S3x4x3) ![1, 2, 1] S1x1x1.size inb_S3x4x3_S1x1x1_1_2_1)).squeeze S_ squeezes_S1x1x1_S_).sem = sendSem 11 := rfl
theorem recvSem_canon11 : ((cc0_scratch4.slice (Rect.unit (s := S3x4x3) ![1, 2, 1] S1x1x1.size inb_S3x4x3_S1x1x1_1_2_1)).squeeze S_ squeezes_S1x1x1_S_).sem = recvSem 11 := rfl
theorem sendSem_canon12 : ((cc0_scratch3.slice (Rect.unit (s := S3x4x3) ![1, 2, 2] S1x1x1.size inb_S3x4x3_S1x1x1_1_2_2)).squeeze S_ squeezes_S1x1x1_S_).sem = sendSem 12 := rfl
theorem recvSem_canon12 : ((cc0_scratch4.slice (Rect.unit (s := S3x4x3) ![1, 2, 2] S1x1x1.size inb_S3x4x3_S1x1x1_1_2_2)).squeeze S_ squeezes_S1x1x1_S_).sem = recvSem 12 := rfl
theorem sendSem_canon13 : ((cc0_scratch3.slice (Rect.unit (s := S3x4x3) ![1, 3, 0] S1x1x1.size inb_S3x4x3_S1x1x1_1_3_0)).squeeze S_ squeezes_S1x1x1_S_).sem = sendSem 13 := rfl
theorem recvSem_canon13 : ((cc0_scratch4.slice (Rect.unit (s := S3x4x3) ![1, 3, 0] S1x1x1.size inb_S3x4x3_S1x1x1_1_3_0)).squeeze S_ squeezes_S1x1x1_S_).sem = recvSem 13 := rfl
theorem sendSem_canon14 : ((cc0_scratch3.slice (Rect.unit (s := S3x4x3) ![2, 0, 0] S1x1x1.size inb_S3x4x3_S1x1x1_2_0_0)).squeeze S_ squeezes_S1x1x1_S_).sem = sendSem 14 := rfl
theorem recvSem_canon14 : ((cc0_scratch4.slice (Rect.unit (s := S3x4x3) ![2, 0, 0] S1x1x1.size inb_S3x4x3_S1x1x1_2_0_0)).squeeze S_ squeezes_S1x1x1_S_).sem = recvSem 14 := rfl
theorem sendSem_canon15 : ((cc0_scratch3.slice (Rect.unit (s := S3x4x3) ![2, 1, 0] S1x1x1.size inb_S3x4x3_S1x1x1_2_1_0)).squeeze S_ squeezes_S1x1x1_S_).sem = sendSem 15 := rfl
theorem recvSem_canon15 : ((cc0_scratch4.slice (Rect.unit (s := S3x4x3) ![2, 1, 0] S1x1x1.size inb_S3x4x3_S1x1x1_2_1_0)).squeeze S_ squeezes_S1x1x1_S_).sem = recvSem 15 := rfl
theorem sendSem_canon16 : ((cc0_scratch3.slice (Rect.unit (s := S3x4x3) ![2, 1, 1] S1x1x1.size inb_S3x4x3_S1x1x1_2_1_1)).squeeze S_ squeezes_S1x1x1_S_).sem = sendSem 16 := rfl
theorem recvSem_canon16 : ((cc0_scratch4.slice (Rect.unit (s := S3x4x3) ![2, 1, 1] S1x1x1.size inb_S3x4x3_S1x1x1_2_1_1)).squeeze S_ squeezes_S1x1x1_S_).sem = recvSem 16 := rfl
theorem sendSem_canon17 : ((cc0_scratch3.slice (Rect.unit (s := S3x4x3) ![2, 1, 2] S1x1x1.size inb_S3x4x3_S1x1x1_2_1_2)).squeeze S_ squeezes_S1x1x1_S_).sem = sendSem 17 := rfl
theorem recvSem_canon17 : ((cc0_scratch4.slice (Rect.unit (s := S3x4x3) ![2, 1, 2] S1x1x1.size inb_S3x4x3_S1x1x1_2_1_2)).squeeze S_ squeezes_S1x1x1_S_).sem = recvSem 17 := rfl
theorem sendSem_canon18 : ((cc0_scratch3.slice (Rect.unit (s := S3x4x3) ![2, 2, 0] S1x1x1.size inb_S3x4x3_S1x1x1_2_2_0)).squeeze S_ squeezes_S1x1x1_S_).sem = sendSem 18 := rfl
theorem recvSem_canon18 : ((cc0_scratch4.slice (Rect.unit (s := S3x4x3) ![2, 2, 0] S1x1x1.size inb_S3x4x3_S1x1x1_2_2_0)).squeeze S_ squeezes_S1x1x1_S_).sem = recvSem 18 := rfl
theorem sendSem_canon19 : ((cc0_scratch3.slice (Rect.unit (s := S3x4x3) ![2, 3, 0] S1x1x1.size inb_S3x4x3_S1x1x1_2_3_0)).squeeze S_ squeezes_S1x1x1_S_).sem = sendSem 19 := rfl
theorem recvSem_canon19 : ((cc0_scratch4.slice (Rect.unit (s := S3x4x3) ![2, 3, 0] S1x1x1.size inb_S3x4x3_S1x1x1_2_3_0)).squeeze S_ squeezes_S1x1x1_S_).sem = recvSem 19 := rfl

/-! ## The schedule's payloads, spelt over the printed memrefs -/

theorem pay_send_0 (c : Dev nD) : (sched m).payload (sendCell c 0) 0 0
    = iprop(∃ f, ((((Memref.whole cc0_scratch1 : Memref sig .tc .vmem S4x256x128 .bf16).slice (Rect.unit (s := S4x256x128) ![0, 0, 0] S1x256x128.size inb_S4x256x128_S1x256x128_0_0_0) (fun _ => rfl)).squeeze S256x128 squeezes_S1x256x128_S256x128).view.loc (c : Thread nD τ) ↦[(((Memref.whole cc0_scratch1 : Memref sig .tc .vmem S4x256x128 .bf16).slice (Rect.unit (s := S4x256x128) ![0, 0, 0] S1x256x128.size inb_S4x256x128_S1x256x128_0_0_0) (fun _ => rfl)).squeeze S256x128 squeezes_S1x256x128_S256x128).view.set]{fullShare.left} f)) := by
  rw [payload_send]; rfl
theorem pay_recv_0 (c : Dev nD) : (sched m).payload (recvCell c 0) 0 0
    = ((((Memref.whole cc0_scratch2 : Memref sig .tc .vmem S3x4x3x256x128 .bf16).slice (Rect.unit (s := S3x4x3x256x128) ![0, 0, 0, 0, 0] S1x1x1x256x128.size inb_S3x4x3x256x128_S1x1x1x256x128_0_0_0_0_0) (fun _ => rfl)).squeeze S256x128 squeezes_S1x1x1x256x128_S256x128).view.loc (c : Thread nD τ) ↦[(((Memref.whole cc0_scratch2 : Memref sig .tc .vmem S3x4x3x256x128 .bf16).slice (Rect.unit (s := S3x4x3x256x128) ![0, 0, 0, 0, 0] S1x1x1x256x128.size inb_S3x4x3x256x128_S1x1x1x256x128_0_0_0_0_0) (fun _ => rfl)).squeeze S256x128 squeezes_S1x1x1x256x128_S256x128).view.set]{fullShare} landed m c 0) := by
  rw [payload_recv]; rfl
theorem pay_send_1 (c : Dev nD) : (sched m).payload (sendCell c 1) 0 0
    = iprop(∃ f, ((((Memref.whole cc0_scratch1 : Memref sig .tc .vmem S4x256x128 .bf16).slice (Rect.unit (s := S4x256x128) ![0, 0, 0] S1x256x128.size inb_S4x256x128_S1x256x128_0_0_0) (fun _ => rfl)).squeeze S256x128 squeezes_S1x256x128_S256x128).view.loc (c : Thread nD τ) ↦[(((Memref.whole cc0_scratch1 : Memref sig .tc .vmem S4x256x128 .bf16).slice (Rect.unit (s := S4x256x128) ![0, 0, 0] S1x256x128.size inb_S4x256x128_S1x256x128_0_0_0) (fun _ => rfl)).squeeze S256x128 squeezes_S1x256x128_S256x128).view.set]{fullShare.right.left} f)) := by
  rw [payload_send]; rfl
theorem pay_recv_1 (c : Dev nD) : (sched m).payload (recvCell c 1) 0 0
    = ((((Memref.whole cc0_scratch2 : Memref sig .tc .vmem S3x4x3x256x128 .bf16).slice (Rect.unit (s := S3x4x3x256x128) ![0, 0, 1, 0, 0] S1x1x1x256x128.size inb_S3x4x3x256x128_S1x1x1x256x128_0_0_1_0_0) (fun _ => rfl)).squeeze S256x128 squeezes_S1x1x1x256x128_S256x128).view.loc (c : Thread nD τ) ↦[(((Memref.whole cc0_scratch2 : Memref sig .tc .vmem S3x4x3x256x128 .bf16).slice (Rect.unit (s := S3x4x3x256x128) ![0, 0, 1, 0, 0] S1x1x1x256x128.size inb_S3x4x3x256x128_S1x1x1x256x128_0_0_1_0_0) (fun _ => rfl)).squeeze S256x128 squeezes_S1x1x1x256x128_S256x128).view.set]{fullShare} landed m c 1) := by
  rw [payload_recv]; rfl
theorem pay_send_2 (c : Dev nD) : (sched m).payload (sendCell c 2) 0 0
    = iprop(∃ f, ((((Memref.whole cc0_scratch1 : Memref sig .tc .vmem S4x256x128 .bf16).slice (Rect.unit (s := S4x256x128) ![0, 0, 0] S1x256x128.size inb_S4x256x128_S1x256x128_0_0_0) (fun _ => rfl)).squeeze S256x128 squeezes_S1x256x128_S256x128).view.loc (c : Thread nD τ) ↦[(((Memref.whole cc0_scratch1 : Memref sig .tc .vmem S4x256x128 .bf16).slice (Rect.unit (s := S4x256x128) ![0, 0, 0] S1x256x128.size inb_S4x256x128_S1x256x128_0_0_0) (fun _ => rfl)).squeeze S256x128 squeezes_S1x256x128_S256x128).view.set]{fullShare.right.right} f)) := by
  rw [payload_send]; rfl
theorem pay_recv_2 (c : Dev nD) : (sched m).payload (recvCell c 2) 0 0
    = ((((Memref.whole cc0_scratch2 : Memref sig .tc .vmem S3x4x3x256x128 .bf16).slice (Rect.unit (s := S3x4x3x256x128) ![0, 0, 2, 0, 0] S1x1x1x256x128.size inb_S3x4x3x256x128_S1x1x1x256x128_0_0_2_0_0) (fun _ => rfl)).squeeze S256x128 squeezes_S1x1x1x256x128_S256x128).view.loc (c : Thread nD τ) ↦[(((Memref.whole cc0_scratch2 : Memref sig .tc .vmem S3x4x3x256x128 .bf16).slice (Rect.unit (s := S3x4x3x256x128) ![0, 0, 2, 0, 0] S1x1x1x256x128.size inb_S3x4x3x256x128_S1x1x1x256x128_0_0_2_0_0) (fun _ => rfl)).squeeze S256x128 squeezes_S1x1x1x256x128_S256x128).view.set]{fullShare} landed m c 2) := by
  rw [payload_recv]; rfl
theorem pay_send_3 (c : Dev nD) : (sched m).payload (sendCell c 3) 0 0
    = iprop(∃ f, ((((Memref.whole cc0_scratch1 : Memref sig .tc .vmem S4x256x128 .bf16).slice (Rect.unit (s := S4x256x128) ![1, 0, 0] S1x256x128.size inb_S4x256x128_S1x256x128_1_0_0) (fun _ => rfl)).squeeze S256x128 squeezes_S1x256x128_S256x128).view.loc (c : Thread nD τ) ↦[(((Memref.whole cc0_scratch1 : Memref sig .tc .vmem S4x256x128 .bf16).slice (Rect.unit (s := S4x256x128) ![1, 0, 0] S1x256x128.size inb_S4x256x128_S1x256x128_1_0_0) (fun _ => rfl)).squeeze S256x128 squeezes_S1x256x128_S256x128).view.set]{fullShare} f)) := by
  rw [payload_send]; rfl
theorem pay_recv_3 (c : Dev nD) : (sched m).payload (recvCell c 3) 0 0
    = ((((Memref.whole cc0_scratch2 : Memref sig .tc .vmem S3x4x3x256x128 .bf16).slice (Rect.unit (s := S3x4x3x256x128) ![0, 1, 0, 0, 0] S1x1x1x256x128.size inb_S3x4x3x256x128_S1x1x1x256x128_0_1_0_0_0) (fun _ => rfl)).squeeze S256x128 squeezes_S1x1x1x256x128_S256x128).view.loc (c : Thread nD τ) ↦[(((Memref.whole cc0_scratch2 : Memref sig .tc .vmem S3x4x3x256x128 .bf16).slice (Rect.unit (s := S3x4x3x256x128) ![0, 1, 0, 0, 0] S1x1x1x256x128.size inb_S3x4x3x256x128_S1x1x1x256x128_0_1_0_0_0) (fun _ => rfl)).squeeze S256x128 squeezes_S1x1x1x256x128_S256x128).view.set]{fullShare} landed m c 3) := by
  rw [payload_recv]; rfl
theorem pay_send_4 (c : Dev nD) : (sched m).payload (sendCell c 4) 0 0
    = iprop(∃ f, ((((Memref.whole cc0_scratch1 : Memref sig .tc .vmem S4x256x128 .bf16).slice (Rect.unit (s := S4x256x128) ![2, 0, 0] S1x256x128.size inb_S4x256x128_S1x256x128_2_0_0) (fun _ => rfl)).squeeze S256x128 squeezes_S1x256x128_S256x128).view.loc (c : Thread nD τ) ↦[(((Memref.whole cc0_scratch1 : Memref sig .tc .vmem S4x256x128 .bf16).slice (Rect.unit (s := S4x256x128) ![2, 0, 0] S1x256x128.size inb_S4x256x128_S1x256x128_2_0_0) (fun _ => rfl)).squeeze S256x128 squeezes_S1x256x128_S256x128).view.set]{fullShare} f)) := by
  rw [payload_send]; rfl
theorem pay_recv_4 (c : Dev nD) : (sched m).payload (recvCell c 4) 0 0
    = ((((Memref.whole cc0_scratch2 : Memref sig .tc .vmem S3x4x3x256x128 .bf16).slice (Rect.unit (s := S3x4x3x256x128) ![0, 2, 0, 0, 0] S1x1x1x256x128.size inb_S3x4x3x256x128_S1x1x1x256x128_0_2_0_0_0) (fun _ => rfl)).squeeze S256x128 squeezes_S1x1x1x256x128_S256x128).view.loc (c : Thread nD τ) ↦[(((Memref.whole cc0_scratch2 : Memref sig .tc .vmem S3x4x3x256x128 .bf16).slice (Rect.unit (s := S3x4x3x256x128) ![0, 2, 0, 0, 0] S1x1x1x256x128.size inb_S3x4x3x256x128_S1x1x1x256x128_0_2_0_0_0) (fun _ => rfl)).squeeze S256x128 squeezes_S1x1x1x256x128_S256x128).view.set]{fullShare} landed m c 4) := by
  rw [payload_recv]; rfl
theorem pay_send_5 (c : Dev nD) : (sched m).payload (sendCell c 5) 0 0
    = iprop(∃ f, ((((Memref.whole cc0_scratch1 : Memref sig .tc .vmem S4x256x128 .bf16).slice (Rect.unit (s := S4x256x128) ![3, 0, 0] S1x256x128.size inb_S4x256x128_S1x256x128_3_0_0) (fun _ => rfl)).squeeze S256x128 squeezes_S1x256x128_S256x128).view.loc (c : Thread nD τ) ↦[(((Memref.whole cc0_scratch1 : Memref sig .tc .vmem S4x256x128 .bf16).slice (Rect.unit (s := S4x256x128) ![3, 0, 0] S1x256x128.size inb_S4x256x128_S1x256x128_3_0_0) (fun _ => rfl)).squeeze S256x128 squeezes_S1x256x128_S256x128).view.set]{fullShare.left} f)) := by
  rw [payload_send]; rfl
theorem pay_recv_5 (c : Dev nD) : (sched m).payload (recvCell c 5) 0 0
    = ((((Memref.whole cc0_scratch2 : Memref sig .tc .vmem S3x4x3x256x128 .bf16).slice (Rect.unit (s := S3x4x3x256x128) ![0, 3, 0, 0, 0] S1x1x1x256x128.size inb_S3x4x3x256x128_S1x1x1x256x128_0_3_0_0_0) (fun _ => rfl)).squeeze S256x128 squeezes_S1x1x1x256x128_S256x128).view.loc (c : Thread nD τ) ↦[(((Memref.whole cc0_scratch2 : Memref sig .tc .vmem S3x4x3x256x128 .bf16).slice (Rect.unit (s := S3x4x3x256x128) ![0, 3, 0, 0, 0] S1x1x1x256x128.size inb_S3x4x3x256x128_S1x1x1x256x128_0_3_0_0_0) (fun _ => rfl)).squeeze S256x128 squeezes_S1x1x1x256x128_S256x128).view.set]{fullShare} landed m c 5) := by
  rw [payload_recv]; rfl
theorem pay_send_6 (c : Dev nD) : (sched m).payload (sendCell c 6) 0 0
    = iprop(∃ f, ((((Memref.whole cc0_scratch1 : Memref sig .tc .vmem S4x256x128 .bf16).slice (Rect.unit (s := S4x256x128) ![3, 0, 0] S1x256x128.size inb_S4x256x128_S1x256x128_3_0_0) (fun _ => rfl)).squeeze S256x128 squeezes_S1x256x128_S256x128).view.loc (c : Thread nD τ) ↦[(((Memref.whole cc0_scratch1 : Memref sig .tc .vmem S4x256x128 .bf16).slice (Rect.unit (s := S4x256x128) ![3, 0, 0] S1x256x128.size inb_S4x256x128_S1x256x128_3_0_0) (fun _ => rfl)).squeeze S256x128 squeezes_S1x256x128_S256x128).view.set]{fullShare.right.left} f)) := by
  rw [payload_send]; rfl
theorem pay_recv_6 (c : Dev nD) : (sched m).payload (recvCell c 6) 0 0
    = ((((Memref.whole cc0_scratch2 : Memref sig .tc .vmem S3x4x3x256x128 .bf16).slice (Rect.unit (s := S3x4x3x256x128) ![0, 3, 1, 0, 0] S1x1x1x256x128.size inb_S3x4x3x256x128_S1x1x1x256x128_0_3_1_0_0) (fun _ => rfl)).squeeze S256x128 squeezes_S1x1x1x256x128_S256x128).view.loc (c : Thread nD τ) ↦[(((Memref.whole cc0_scratch2 : Memref sig .tc .vmem S3x4x3x256x128 .bf16).slice (Rect.unit (s := S3x4x3x256x128) ![0, 3, 1, 0, 0] S1x1x1x256x128.size inb_S3x4x3x256x128_S1x1x1x256x128_0_3_1_0_0) (fun _ => rfl)).squeeze S256x128 squeezes_S1x1x1x256x128_S256x128).view.set]{fullShare} landed m c 6) := by
  rw [payload_recv]; rfl
theorem pay_send_7 (c : Dev nD) : (sched m).payload (sendCell c 7) 0 0
    = iprop(∃ f, ((((Memref.whole cc0_scratch1 : Memref sig .tc .vmem S4x256x128 .bf16).slice (Rect.unit (s := S4x256x128) ![3, 0, 0] S1x256x128.size inb_S4x256x128_S1x256x128_3_0_0) (fun _ => rfl)).squeeze S256x128 squeezes_S1x256x128_S256x128).view.loc (c : Thread nD τ) ↦[(((Memref.whole cc0_scratch1 : Memref sig .tc .vmem S4x256x128 .bf16).slice (Rect.unit (s := S4x256x128) ![3, 0, 0] S1x256x128.size inb_S4x256x128_S1x256x128_3_0_0) (fun _ => rfl)).squeeze S256x128 squeezes_S1x256x128_S256x128).view.set]{fullShare.right.right} f)) := by
  rw [payload_send]; rfl
theorem pay_recv_7 (c : Dev nD) : (sched m).payload (recvCell c 7) 0 0
    = ((((Memref.whole cc0_scratch2 : Memref sig .tc .vmem S3x4x3x256x128 .bf16).slice (Rect.unit (s := S3x4x3x256x128) ![0, 3, 2, 0, 0] S1x1x1x256x128.size inb_S3x4x3x256x128_S1x1x1x256x128_0_3_2_0_0) (fun _ => rfl)).squeeze S256x128 squeezes_S1x1x1x256x128_S256x128).view.loc (c : Thread nD τ) ↦[(((Memref.whole cc0_scratch2 : Memref sig .tc .vmem S3x4x3x256x128 .bf16).slice (Rect.unit (s := S3x4x3x256x128) ![0, 3, 2, 0, 0] S1x1x1x256x128.size inb_S3x4x3x256x128_S1x1x1x256x128_0_3_2_0_0) (fun _ => rfl)).squeeze S256x128 squeezes_S1x1x1x256x128_S256x128).view.set]{fullShare} landed m c 7) := by
  rw [payload_recv]; rfl
theorem pay_send_8 (c : Dev nD) : (sched m).payload (sendCell c 8) 0 0
    = iprop(∃ f, ((((Memref.whole cc0_scratch1 : Memref sig .tc .vmem S4x256x128 .bf16).slice (Rect.unit (s := S4x256x128) ![0, 0, 0] S1x256x128.size inb_S4x256x128_S1x256x128_0_0_0) (fun _ => rfl)).squeeze S256x128 squeezes_S1x256x128_S256x128).view.loc (c : Thread nD τ) ↦[(((Memref.whole cc0_scratch1 : Memref sig .tc .vmem S4x256x128 .bf16).slice (Rect.unit (s := S4x256x128) ![0, 0, 0] S1x256x128.size inb_S4x256x128_S1x256x128_0_0_0) (fun _ => rfl)).squeeze S256x128 squeezes_S1x256x128_S256x128).view.set]{fullShare} f)) := by
  rw [payload_send]; rfl
theorem pay_recv_8 (c : Dev nD) : (sched m).payload (recvCell c 8) 0 0
    = ((((Memref.whole cc0_scratch2 : Memref sig .tc .vmem S3x4x3x256x128 .bf16).slice (Rect.unit (s := S3x4x3x256x128) ![1, 0, 0, 0, 0] S1x1x1x256x128.size inb_S3x4x3x256x128_S1x1x1x256x128_1_0_0_0_0) (fun _ => rfl)).squeeze S256x128 squeezes_S1x1x1x256x128_S256x128).view.loc (c : Thread nD τ) ↦[(((Memref.whole cc0_scratch2 : Memref sig .tc .vmem S3x4x3x256x128 .bf16).slice (Rect.unit (s := S3x4x3x256x128) ![1, 0, 0, 0, 0] S1x1x1x256x128.size inb_S3x4x3x256x128_S1x1x1x256x128_1_0_0_0_0) (fun _ => rfl)).squeeze S256x128 squeezes_S1x1x1x256x128_S256x128).view.set]{fullShare} landed m c 8) := by
  rw [payload_recv]; rfl
theorem pay_send_9 (c : Dev nD) : (sched m).payload (sendCell c 9) 0 0
    = iprop(∃ f, ((((Memref.whole cc0_scratch1 : Memref sig .tc .vmem S4x256x128 .bf16).slice (Rect.unit (s := S4x256x128) ![1, 0, 0] S1x256x128.size inb_S4x256x128_S1x256x128_1_0_0) (fun _ => rfl)).squeeze S256x128 squeezes_S1x256x128_S256x128).view.loc (c : Thread nD τ) ↦[(((Memref.whole cc0_scratch1 : Memref sig .tc .vmem S4x256x128 .bf16).slice (Rect.unit (s := S4x256x128) ![1, 0, 0] S1x256x128.size inb_S4x256x128_S1x256x128_1_0_0) (fun _ => rfl)).squeeze S256x128 squeezes_S1x256x128_S256x128).view.set]{fullShare} f)) := by
  rw [payload_send]; rfl
theorem pay_recv_9 (c : Dev nD) : (sched m).payload (recvCell c 9) 0 0
    = ((((Memref.whole cc0_scratch2 : Memref sig .tc .vmem S3x4x3x256x128 .bf16).slice (Rect.unit (s := S3x4x3x256x128) ![1, 1, 0, 0, 0] S1x1x1x256x128.size inb_S3x4x3x256x128_S1x1x1x256x128_1_1_0_0_0) (fun _ => rfl)).squeeze S256x128 squeezes_S1x1x1x256x128_S256x128).view.loc (c : Thread nD τ) ↦[(((Memref.whole cc0_scratch2 : Memref sig .tc .vmem S3x4x3x256x128 .bf16).slice (Rect.unit (s := S3x4x3x256x128) ![1, 1, 0, 0, 0] S1x1x1x256x128.size inb_S3x4x3x256x128_S1x1x1x256x128_1_1_0_0_0) (fun _ => rfl)).squeeze S256x128 squeezes_S1x1x1x256x128_S256x128).view.set]{fullShare} landed m c 9) := by
  rw [payload_recv]; rfl
theorem pay_send_10 (c : Dev nD) : (sched m).payload (sendCell c 10) 0 0
    = iprop(∃ f, ((((Memref.whole cc0_scratch1 : Memref sig .tc .vmem S4x256x128 .bf16).slice (Rect.unit (s := S4x256x128) ![2, 0, 0] S1x256x128.size inb_S4x256x128_S1x256x128_2_0_0) (fun _ => rfl)).squeeze S256x128 squeezes_S1x256x128_S256x128).view.loc (c : Thread nD τ) ↦[(((Memref.whole cc0_scratch1 : Memref sig .tc .vmem S4x256x128 .bf16).slice (Rect.unit (s := S4x256x128) ![2, 0, 0] S1x256x128.size inb_S4x256x128_S1x256x128_2_0_0) (fun _ => rfl)).squeeze S256x128 squeezes_S1x256x128_S256x128).view.set]{fullShare.left} f)) := by
  rw [payload_send]; rfl
theorem pay_recv_10 (c : Dev nD) : (sched m).payload (recvCell c 10) 0 0
    = ((((Memref.whole cc0_scratch2 : Memref sig .tc .vmem S3x4x3x256x128 .bf16).slice (Rect.unit (s := S3x4x3x256x128) ![1, 2, 0, 0, 0] S1x1x1x256x128.size inb_S3x4x3x256x128_S1x1x1x256x128_1_2_0_0_0) (fun _ => rfl)).squeeze S256x128 squeezes_S1x1x1x256x128_S256x128).view.loc (c : Thread nD τ) ↦[(((Memref.whole cc0_scratch2 : Memref sig .tc .vmem S3x4x3x256x128 .bf16).slice (Rect.unit (s := S3x4x3x256x128) ![1, 2, 0, 0, 0] S1x1x1x256x128.size inb_S3x4x3x256x128_S1x1x1x256x128_1_2_0_0_0) (fun _ => rfl)).squeeze S256x128 squeezes_S1x1x1x256x128_S256x128).view.set]{fullShare} landed m c 10) := by
  rw [payload_recv]; rfl
theorem pay_send_11 (c : Dev nD) : (sched m).payload (sendCell c 11) 0 0
    = iprop(∃ f, ((((Memref.whole cc0_scratch1 : Memref sig .tc .vmem S4x256x128 .bf16).slice (Rect.unit (s := S4x256x128) ![2, 0, 0] S1x256x128.size inb_S4x256x128_S1x256x128_2_0_0) (fun _ => rfl)).squeeze S256x128 squeezes_S1x256x128_S256x128).view.loc (c : Thread nD τ) ↦[(((Memref.whole cc0_scratch1 : Memref sig .tc .vmem S4x256x128 .bf16).slice (Rect.unit (s := S4x256x128) ![2, 0, 0] S1x256x128.size inb_S4x256x128_S1x256x128_2_0_0) (fun _ => rfl)).squeeze S256x128 squeezes_S1x256x128_S256x128).view.set]{fullShare.right.left} f)) := by
  rw [payload_send]; rfl
theorem pay_recv_11 (c : Dev nD) : (sched m).payload (recvCell c 11) 0 0
    = ((((Memref.whole cc0_scratch2 : Memref sig .tc .vmem S3x4x3x256x128 .bf16).slice (Rect.unit (s := S3x4x3x256x128) ![1, 2, 1, 0, 0] S1x1x1x256x128.size inb_S3x4x3x256x128_S1x1x1x256x128_1_2_1_0_0) (fun _ => rfl)).squeeze S256x128 squeezes_S1x1x1x256x128_S256x128).view.loc (c : Thread nD τ) ↦[(((Memref.whole cc0_scratch2 : Memref sig .tc .vmem S3x4x3x256x128 .bf16).slice (Rect.unit (s := S3x4x3x256x128) ![1, 2, 1, 0, 0] S1x1x1x256x128.size inb_S3x4x3x256x128_S1x1x1x256x128_1_2_1_0_0) (fun _ => rfl)).squeeze S256x128 squeezes_S1x1x1x256x128_S256x128).view.set]{fullShare} landed m c 11) := by
  rw [payload_recv]; rfl
theorem pay_send_12 (c : Dev nD) : (sched m).payload (sendCell c 12) 0 0
    = iprop(∃ f, ((((Memref.whole cc0_scratch1 : Memref sig .tc .vmem S4x256x128 .bf16).slice (Rect.unit (s := S4x256x128) ![2, 0, 0] S1x256x128.size inb_S4x256x128_S1x256x128_2_0_0) (fun _ => rfl)).squeeze S256x128 squeezes_S1x256x128_S256x128).view.loc (c : Thread nD τ) ↦[(((Memref.whole cc0_scratch1 : Memref sig .tc .vmem S4x256x128 .bf16).slice (Rect.unit (s := S4x256x128) ![2, 0, 0] S1x256x128.size inb_S4x256x128_S1x256x128_2_0_0) (fun _ => rfl)).squeeze S256x128 squeezes_S1x256x128_S256x128).view.set]{fullShare.right.right} f)) := by
  rw [payload_send]; rfl
theorem pay_recv_12 (c : Dev nD) : (sched m).payload (recvCell c 12) 0 0
    = ((((Memref.whole cc0_scratch2 : Memref sig .tc .vmem S3x4x3x256x128 .bf16).slice (Rect.unit (s := S3x4x3x256x128) ![1, 2, 2, 0, 0] S1x1x1x256x128.size inb_S3x4x3x256x128_S1x1x1x256x128_1_2_2_0_0) (fun _ => rfl)).squeeze S256x128 squeezes_S1x1x1x256x128_S256x128).view.loc (c : Thread nD τ) ↦[(((Memref.whole cc0_scratch2 : Memref sig .tc .vmem S3x4x3x256x128 .bf16).slice (Rect.unit (s := S3x4x3x256x128) ![1, 2, 2, 0, 0] S1x1x1x256x128.size inb_S3x4x3x256x128_S1x1x1x256x128_1_2_2_0_0) (fun _ => rfl)).squeeze S256x128 squeezes_S1x1x1x256x128_S256x128).view.set]{fullShare} landed m c 12) := by
  rw [payload_recv]; rfl
theorem pay_send_13 (c : Dev nD) : (sched m).payload (sendCell c 13) 0 0
    = iprop(∃ f, ((((Memref.whole cc0_scratch1 : Memref sig .tc .vmem S4x256x128 .bf16).slice (Rect.unit (s := S4x256x128) ![3, 0, 0] S1x256x128.size inb_S4x256x128_S1x256x128_3_0_0) (fun _ => rfl)).squeeze S256x128 squeezes_S1x256x128_S256x128).view.loc (c : Thread nD τ) ↦[(((Memref.whole cc0_scratch1 : Memref sig .tc .vmem S4x256x128 .bf16).slice (Rect.unit (s := S4x256x128) ![3, 0, 0] S1x256x128.size inb_S4x256x128_S1x256x128_3_0_0) (fun _ => rfl)).squeeze S256x128 squeezes_S1x256x128_S256x128).view.set]{fullShare} f)) := by
  rw [payload_send]; rfl
theorem pay_recv_13 (c : Dev nD) : (sched m).payload (recvCell c 13) 0 0
    = ((((Memref.whole cc0_scratch2 : Memref sig .tc .vmem S3x4x3x256x128 .bf16).slice (Rect.unit (s := S3x4x3x256x128) ![1, 3, 0, 0, 0] S1x1x1x256x128.size inb_S3x4x3x256x128_S1x1x1x256x128_1_3_0_0_0) (fun _ => rfl)).squeeze S256x128 squeezes_S1x1x1x256x128_S256x128).view.loc (c : Thread nD τ) ↦[(((Memref.whole cc0_scratch2 : Memref sig .tc .vmem S3x4x3x256x128 .bf16).slice (Rect.unit (s := S3x4x3x256x128) ![1, 3, 0, 0, 0] S1x1x1x256x128.size inb_S3x4x3x256x128_S1x1x1x256x128_1_3_0_0_0) (fun _ => rfl)).squeeze S256x128 squeezes_S1x1x1x256x128_S256x128).view.set]{fullShare} landed m c 13) := by
  rw [payload_recv]; rfl
theorem pay_send_14 (c : Dev nD) : (sched m).payload (sendCell c 14) 0 0
    = iprop(∃ f, ((((Memref.whole cc0_scratch1 : Memref sig .tc .vmem S4x256x128 .bf16).slice (Rect.unit (s := S4x256x128) ![0, 0, 0] S1x256x128.size inb_S4x256x128_S1x256x128_0_0_0) (fun _ => rfl)).squeeze S256x128 squeezes_S1x256x128_S256x128).view.loc (c : Thread nD τ) ↦[(((Memref.whole cc0_scratch1 : Memref sig .tc .vmem S4x256x128 .bf16).slice (Rect.unit (s := S4x256x128) ![0, 0, 0] S1x256x128.size inb_S4x256x128_S1x256x128_0_0_0) (fun _ => rfl)).squeeze S256x128 squeezes_S1x256x128_S256x128).view.set]{fullShare} f)) := by
  rw [payload_send]; rfl
theorem pay_recv_14 (c : Dev nD) : (sched m).payload (recvCell c 14) 0 0
    = ((((Memref.whole cc0_scratch2 : Memref sig .tc .vmem S3x4x3x256x128 .bf16).slice (Rect.unit (s := S3x4x3x256x128) ![2, 0, 0, 0, 0] S1x1x1x256x128.size inb_S3x4x3x256x128_S1x1x1x256x128_2_0_0_0_0) (fun _ => rfl)).squeeze S256x128 squeezes_S1x1x1x256x128_S256x128).view.loc (c : Thread nD τ) ↦[(((Memref.whole cc0_scratch2 : Memref sig .tc .vmem S3x4x3x256x128 .bf16).slice (Rect.unit (s := S3x4x3x256x128) ![2, 0, 0, 0, 0] S1x1x1x256x128.size inb_S3x4x3x256x128_S1x1x1x256x128_2_0_0_0_0) (fun _ => rfl)).squeeze S256x128 squeezes_S1x1x1x256x128_S256x128).view.set]{fullShare} landed m c 14) := by
  rw [payload_recv]; rfl
theorem pay_send_15 (c : Dev nD) : (sched m).payload (sendCell c 15) 0 0
    = iprop(∃ f, ((((Memref.whole cc0_scratch1 : Memref sig .tc .vmem S4x256x128 .bf16).slice (Rect.unit (s := S4x256x128) ![1, 0, 0] S1x256x128.size inb_S4x256x128_S1x256x128_1_0_0) (fun _ => rfl)).squeeze S256x128 squeezes_S1x256x128_S256x128).view.loc (c : Thread nD τ) ↦[(((Memref.whole cc0_scratch1 : Memref sig .tc .vmem S4x256x128 .bf16).slice (Rect.unit (s := S4x256x128) ![1, 0, 0] S1x256x128.size inb_S4x256x128_S1x256x128_1_0_0) (fun _ => rfl)).squeeze S256x128 squeezes_S1x256x128_S256x128).view.set]{fullShare.left} f)) := by
  rw [payload_send]; rfl
theorem pay_recv_15 (c : Dev nD) : (sched m).payload (recvCell c 15) 0 0
    = ((((Memref.whole cc0_scratch2 : Memref sig .tc .vmem S3x4x3x256x128 .bf16).slice (Rect.unit (s := S3x4x3x256x128) ![2, 1, 0, 0, 0] S1x1x1x256x128.size inb_S3x4x3x256x128_S1x1x1x256x128_2_1_0_0_0) (fun _ => rfl)).squeeze S256x128 squeezes_S1x1x1x256x128_S256x128).view.loc (c : Thread nD τ) ↦[(((Memref.whole cc0_scratch2 : Memref sig .tc .vmem S3x4x3x256x128 .bf16).slice (Rect.unit (s := S3x4x3x256x128) ![2, 1, 0, 0, 0] S1x1x1x256x128.size inb_S3x4x3x256x128_S1x1x1x256x128_2_1_0_0_0) (fun _ => rfl)).squeeze S256x128 squeezes_S1x1x1x256x128_S256x128).view.set]{fullShare} landed m c 15) := by
  rw [payload_recv]; rfl
theorem pay_send_16 (c : Dev nD) : (sched m).payload (sendCell c 16) 0 0
    = iprop(∃ f, ((((Memref.whole cc0_scratch1 : Memref sig .tc .vmem S4x256x128 .bf16).slice (Rect.unit (s := S4x256x128) ![1, 0, 0] S1x256x128.size inb_S4x256x128_S1x256x128_1_0_0) (fun _ => rfl)).squeeze S256x128 squeezes_S1x256x128_S256x128).view.loc (c : Thread nD τ) ↦[(((Memref.whole cc0_scratch1 : Memref sig .tc .vmem S4x256x128 .bf16).slice (Rect.unit (s := S4x256x128) ![1, 0, 0] S1x256x128.size inb_S4x256x128_S1x256x128_1_0_0) (fun _ => rfl)).squeeze S256x128 squeezes_S1x256x128_S256x128).view.set]{fullShare.right.left} f)) := by
  rw [payload_send]; rfl
theorem pay_recv_16 (c : Dev nD) : (sched m).payload (recvCell c 16) 0 0
    = ((((Memref.whole cc0_scratch2 : Memref sig .tc .vmem S3x4x3x256x128 .bf16).slice (Rect.unit (s := S3x4x3x256x128) ![2, 1, 1, 0, 0] S1x1x1x256x128.size inb_S3x4x3x256x128_S1x1x1x256x128_2_1_1_0_0) (fun _ => rfl)).squeeze S256x128 squeezes_S1x1x1x256x128_S256x128).view.loc (c : Thread nD τ) ↦[(((Memref.whole cc0_scratch2 : Memref sig .tc .vmem S3x4x3x256x128 .bf16).slice (Rect.unit (s := S3x4x3x256x128) ![2, 1, 1, 0, 0] S1x1x1x256x128.size inb_S3x4x3x256x128_S1x1x1x256x128_2_1_1_0_0) (fun _ => rfl)).squeeze S256x128 squeezes_S1x1x1x256x128_S256x128).view.set]{fullShare} landed m c 16) := by
  rw [payload_recv]; rfl
theorem pay_send_17 (c : Dev nD) : (sched m).payload (sendCell c 17) 0 0
    = iprop(∃ f, ((((Memref.whole cc0_scratch1 : Memref sig .tc .vmem S4x256x128 .bf16).slice (Rect.unit (s := S4x256x128) ![1, 0, 0] S1x256x128.size inb_S4x256x128_S1x256x128_1_0_0) (fun _ => rfl)).squeeze S256x128 squeezes_S1x256x128_S256x128).view.loc (c : Thread nD τ) ↦[(((Memref.whole cc0_scratch1 : Memref sig .tc .vmem S4x256x128 .bf16).slice (Rect.unit (s := S4x256x128) ![1, 0, 0] S1x256x128.size inb_S4x256x128_S1x256x128_1_0_0) (fun _ => rfl)).squeeze S256x128 squeezes_S1x256x128_S256x128).view.set]{fullShare.right.right} f)) := by
  rw [payload_send]; rfl
theorem pay_recv_17 (c : Dev nD) : (sched m).payload (recvCell c 17) 0 0
    = ((((Memref.whole cc0_scratch2 : Memref sig .tc .vmem S3x4x3x256x128 .bf16).slice (Rect.unit (s := S3x4x3x256x128) ![2, 1, 2, 0, 0] S1x1x1x256x128.size inb_S3x4x3x256x128_S1x1x1x256x128_2_1_2_0_0) (fun _ => rfl)).squeeze S256x128 squeezes_S1x1x1x256x128_S256x128).view.loc (c : Thread nD τ) ↦[(((Memref.whole cc0_scratch2 : Memref sig .tc .vmem S3x4x3x256x128 .bf16).slice (Rect.unit (s := S3x4x3x256x128) ![2, 1, 2, 0, 0] S1x1x1x256x128.size inb_S3x4x3x256x128_S1x1x1x256x128_2_1_2_0_0) (fun _ => rfl)).squeeze S256x128 squeezes_S1x1x1x256x128_S256x128).view.set]{fullShare} landed m c 17) := by
  rw [payload_recv]; rfl
theorem pay_send_18 (c : Dev nD) : (sched m).payload (sendCell c 18) 0 0
    = iprop(∃ f, ((((Memref.whole cc0_scratch1 : Memref sig .tc .vmem S4x256x128 .bf16).slice (Rect.unit (s := S4x256x128) ![2, 0, 0] S1x256x128.size inb_S4x256x128_S1x256x128_2_0_0) (fun _ => rfl)).squeeze S256x128 squeezes_S1x256x128_S256x128).view.loc (c : Thread nD τ) ↦[(((Memref.whole cc0_scratch1 : Memref sig .tc .vmem S4x256x128 .bf16).slice (Rect.unit (s := S4x256x128) ![2, 0, 0] S1x256x128.size inb_S4x256x128_S1x256x128_2_0_0) (fun _ => rfl)).squeeze S256x128 squeezes_S1x256x128_S256x128).view.set]{fullShare} f)) := by
  rw [payload_send]; rfl
theorem pay_recv_18 (c : Dev nD) : (sched m).payload (recvCell c 18) 0 0
    = ((((Memref.whole cc0_scratch2 : Memref sig .tc .vmem S3x4x3x256x128 .bf16).slice (Rect.unit (s := S3x4x3x256x128) ![2, 2, 0, 0, 0] S1x1x1x256x128.size inb_S3x4x3x256x128_S1x1x1x256x128_2_2_0_0_0) (fun _ => rfl)).squeeze S256x128 squeezes_S1x1x1x256x128_S256x128).view.loc (c : Thread nD τ) ↦[(((Memref.whole cc0_scratch2 : Memref sig .tc .vmem S3x4x3x256x128 .bf16).slice (Rect.unit (s := S3x4x3x256x128) ![2, 2, 0, 0, 0] S1x1x1x256x128.size inb_S3x4x3x256x128_S1x1x1x256x128_2_2_0_0_0) (fun _ => rfl)).squeeze S256x128 squeezes_S1x1x1x256x128_S256x128).view.set]{fullShare} landed m c 18) := by
  rw [payload_recv]; rfl
theorem pay_send_19 (c : Dev nD) : (sched m).payload (sendCell c 19) 0 0
    = iprop(∃ f, ((((Memref.whole cc0_scratch1 : Memref sig .tc .vmem S4x256x128 .bf16).slice (Rect.unit (s := S4x256x128) ![3, 0, 0] S1x256x128.size inb_S4x256x128_S1x256x128_3_0_0) (fun _ => rfl)).squeeze S256x128 squeezes_S1x256x128_S256x128).view.loc (c : Thread nD τ) ↦[(((Memref.whole cc0_scratch1 : Memref sig .tc .vmem S4x256x128 .bf16).slice (Rect.unit (s := S4x256x128) ![3, 0, 0] S1x256x128.size inb_S4x256x128_S1x256x128_3_0_0) (fun _ => rfl)).squeeze S256x128 squeezes_S1x256x128_S256x128).view.set]{fullShare} f)) := by
  rw [payload_send]; rfl
theorem pay_recv_19 (c : Dev nD) : (sched m).payload (recvCell c 19) 0 0
    = ((((Memref.whole cc0_scratch2 : Memref sig .tc .vmem S3x4x3x256x128 .bf16).slice (Rect.unit (s := S3x4x3x256x128) ![2, 3, 0, 0, 0] S1x1x1x256x128.size inb_S3x4x3x256x128_S1x1x1x256x128_2_3_0_0_0) (fun _ => rfl)).squeeze S256x128 squeezes_S1x1x1x256x128_S256x128).view.loc (c : Thread nD τ) ↦[(((Memref.whole cc0_scratch2 : Memref sig .tc .vmem S3x4x3x256x128 .bf16).slice (Rect.unit (s := S3x4x3x256x128) ![2, 3, 0, 0, 0] S1x1x1x256x128.size inb_S3x4x3x256x128_S1x1x1x256x128_2_3_0_0_0) (fun _ => rfl)).squeeze S256x128 squeezes_S1x1x1x256x128_S256x128).view.set]{fullShare} landed m c 19) := by
  rw [payload_recv]; rfl

/-! ## What the body's run starts from and what it leaves -/

/-- What the body's run starts from, piece by piece. -/
def bodyCtx (K : Dev nD × Cell → ℕ) (c : Dev nD) (W : Waits sig Unit) (X5 : (cc0_stg5_0 : Ref sig .tc).ty.Contents (Elt F))
    (A0 : (cc0_scratch0 : Ref sig .tc).ty.Contents (Elt F)) (S0 : (cc0_scratch1 : Ref sig .tc).ty.Contents (Elt F))
    (C0 : (cc0_scratch2 : Ref sig .tc).ty.Contents (Elt F)) : sProp 𝕄 :=
  iprop(ctxGhost m K c
    ∗ levAts L lv
    ∗ cred (tallyAt (barCell c) () 5)
    ∗ cred (tallyAt (recvCell c 0) () N)
    ∗ cred (tallyAt (recvCell c 1) () N)
    ∗ cred (tallyAt (recvCell c 2) () N)
    ∗ cred (tallyAt (recvCell c 3) () N)
    ∗ cred (tallyAt (recvCell c 4) () N)
    ∗ cred (tallyAt (recvCell c 5) () N)
    ∗ cred (tallyAt (recvCell c 6) () N)
    ∗ cred (tallyAt (recvCell c 7) () N)
    ∗ cred (tallyAt (recvCell c 8) () N)
    ∗ cred (tallyAt (recvCell c 9) () N)
    ∗ cred (tallyAt (recvCell c 10) () N)
    ∗ cred (tallyAt (recvCell c 11) () N)
    ∗ cred (tallyAt (recvCell c 12) () N)
    ∗ cred (tallyAt (recvCell c 13) () N)
    ∗ cred (tallyAt (recvCell c 14) () N)
    ∗ cred (tallyAt (recvCell c 15) () N)
    ∗ cred (tallyAt (recvCell c 16) () N)
    ∗ cred (tallyAt (recvCell c 17) () N)
    ∗ cred (tallyAt (recvCell c 18) () N)
    ∗ cred (tallyAt (recvCell c 19) () N)
    ∗ barPay 0 c
    ∗ barPay 1 c
    ∗ barPay 2 c
    ∗ barPay 3 c
    ∗ barPay 4 c
    ∗ owes (c : Thread nD τ) (0 + tallyAt (recvCell (px 3 c) 19) () N + tallyAt (recvCell (px 3 c) 18) () N + tallyAt (recvCell (px 2 c) 17) () N + tallyAt (recvCell (px 1 c) 16) () N + tallyAt (recvCell (px 0 c) 15) () N + tallyAt (recvCell (px 4 c) 14) () N + tallyAt (recvCell (px 4 c) 13) () N + tallyAt (recvCell (px 2 c) 12) () N + tallyAt (recvCell (px 1 c) 11) () N + tallyAt (recvCell (px 0 c) 10) () N + tallyAt (recvCell (px 4 c) 9) () N + tallyAt (recvCell (px 3 c) 8) () N + tallyAt (recvCell (px 2 c) 7) () N + tallyAt (recvCell (px 1 c) 6) () N + tallyAt (recvCell (px 0 c) 5) () N + tallyAt (recvCell (px 4 c) 4) () N + tallyAt (recvCell (px 3 c) 3) () N + tallyAt (recvCell (px 2 c) 2) () N + tallyAt (recvCell (px 1 c) 1) () N + tallyAt (recvCell (px 0 c) 0) () N + tallyAt (barCell (px 4 c)) () 1 + tallyAt (barCell (px 3 c)) () 1 + tallyAt (barCell (px 2 c)) () 1 + tallyAt (barCell (px 1 c)) () 1 + tallyAt (barCell (px 0 c)) () 1) W
    ∗ ((Memref.whole cc0_stg0_0 : Memref sig .tc .vmem _ _).view.loc (c : Thread nD τ) ↦[(Memref.whole cc0_stg0_0 : Memref sig .tc .vmem _ _).view.set]{fullShare} xs0 m c)
    ∗ ((Memref.whole cc0_stg1_0 : Memref sig .tc .vmem _ _).view.loc (c : Thread nD τ) ↦[(Memref.whole cc0_stg1_0 : Memref sig .tc .vmem _ _).view.set]{fullShare} xs1 m c)
    ∗ ((Memref.whole cc0_stg2_0 : Memref sig .tc .vmem _ _).view.loc (c : Thread nD τ) ↦[(Memref.whole cc0_stg2_0 : Memref sig .tc .vmem _ _).view.set]{fullShare} xs2 m c)
    ∗ ((Memref.whole cc0_stg3_0 : Memref sig .tc .vmem _ _).view.loc (c : Thread nD τ) ↦[(Memref.whole cc0_stg3_0 : Memref sig .tc .vmem _ _).view.set]{fullShare} xs3 m c)
    ∗ ((Memref.whole cc0_stg4_0 : Memref sig .tc .vmem _ _).view.loc (c : Thread nD τ) ↦[(Memref.whole cc0_stg4_0 : Memref sig .tc .vmem _ _).view.set]{fullShare} xs4 m c)
    ∗ ((Memref.whole cc0_stg5_0 : Memref sig .tc .vmem _ _).view.loc (c : Thread nD τ) ↦[(Memref.whole cc0_stg5_0 : Memref sig .tc .vmem _ _).view.set]{fullShare} X5)
    ∗ ((Memref.whole cc0_scratch0 : Memref sig .tc .vmem _ _).view.loc (c : Thread nD τ) ↦[(Memref.whole cc0_scratch0 : Memref sig .tc .vmem _ _).view.set]{fullShare} A0)
    ∗ ((((Memref.whole cc0_scratch1 : Memref sig .tc .vmem S4x256x128 .bf16).slice (Rect.unit (s := S4x256x128) ![0, 0, 0] S1x256x128.size inb_S4x256x128_S1x256x128_0_0_0) (fun _ => rfl)).squeeze S256x128 squeezes_S1x256x128_S256x128).view.loc (c : Thread nD τ) ↦[(((Memref.whole cc0_scratch1 : Memref sig .tc .vmem S4x256x128 .bf16).slice (Rect.unit (s := S4x256x128) ![0, 0, 0] S1x256x128.size inb_S4x256x128_S1x256x128_0_0_0) (fun _ => rfl)).squeeze S256x128 squeezes_S1x256x128_S256x128).view.set]{fullShare} S0)
    ∗ ((((Memref.whole cc0_scratch1 : Memref sig .tc .vmem S4x256x128 .bf16).slice (Rect.unit (s := S4x256x128) ![1, 0, 0] S1x256x128.size inb_S4x256x128_S1x256x128_1_0_0) (fun _ => rfl)).squeeze S256x128 squeezes_S1x256x128_S256x128).view.loc (c : Thread nD τ) ↦[(((Memref.whole cc0_scratch1 : Memref sig .tc .vmem S4x256x128 .bf16).slice (Rect.unit (s := S4x256x128) ![1, 0, 0] S1x256x128.size inb_S4x256x128_S1x256x128_1_0_0) (fun _ => rfl)).squeeze S256x128 squeezes_S1x256x128_S256x128).view.set]{fullShare} S0)
    ∗ ((((Memref.whole cc0_scratch1 : Memref sig .tc .vmem S4x256x128 .bf16).slice (Rect.unit (s := S4x256x128) ![2, 0, 0] S1x256x128.size inb_S4x256x128_S1x256x128_2_0_0) (fun _ => rfl)).squeeze S256x128 squeezes_S1x256x128_S256x128).view.loc (c : Thread nD τ) ↦[(((Memref.whole cc0_scratch1 : Memref sig .tc .vmem S4x256x128 .bf16).slice (Rect.unit (s := S4x256x128) ![2, 0, 0] S1x256x128.size inb_S4x256x128_S1x256x128_2_0_0) (fun _ => rfl)).squeeze S256x128 squeezes_S1x256x128_S256x128).view.set]{fullShare} S0)
    ∗ ((((Memref.whole cc0_scratch1 : Memref sig .tc .vmem S4x256x128 .bf16).slice (Rect.unit (s := S4x256x128) ![3, 0, 0] S1x256x128.size inb_S4x256x128_S1x256x128_3_0_0) (fun _ => rfl)).squeeze S256x128 squeezes_S1x256x128_S256x128).view.loc (c : Thread nD τ) ↦[(((Memref.whole cc0_scratch1 : Memref sig .tc .vmem S4x256x128 .bf16).slice (Rect.unit (s := S4x256x128) ![3, 0, 0] S1x256x128.size inb_S4x256x128_S1x256x128_3_0_0) (fun _ => rfl)).squeeze S256x128 squeezes_S1x256x128_S256x128).view.set]{fullShare} S0)
    ∗ (((c : Thread nD τ).loc cc0_scratch2) ↦[Regions.comRest]{fullShare} C0))

/-- What the body's run leaves: nothing owed; the inputs' staging buffers as they were and the result's holding the four
    chunks' sums over all devices; the scratch buffers at whatever they hold, the outgoing buffer by its four slices and the
    receive buffer by its twenty slots and the rest; and every copy's send and receive cell with its one round consumed. -/
def bodyEnd (c : Dev nD) : sProp 𝕄 :=
  iprop((∃ W', owes (c : Thread nD τ) 0 W')
    ∗ ((Memref.whole cc0_stg0_0 : Memref sig .tc .vmem _ _).view.loc (c : Thread nD τ) ↦[(Memref.whole cc0_stg0_0 : Memref sig .tc .vmem _ _).view.set]{fullShare} xs0 m c)
    ∗ ((Memref.whole cc0_stg1_0 : Memref sig .tc .vmem _ _).view.loc (c : Thread nD τ) ↦[(Memref.whole cc0_stg1_0 : Memref sig .tc .vmem _ _).view.set]{fullShare} xs1 m c)
    ∗ ((Memref.whole cc0_stg2_0 : Memref sig .tc .vmem _ _).view.loc (c : Thread nD τ) ↦[(Memref.whole cc0_stg2_0 : Memref sig .tc .vmem _ _).view.set]{fullShare} xs2 m c)
    ∗ ((Memref.whole cc0_stg3_0 : Memref sig .tc .vmem _ _).view.loc (c : Thread nD τ) ↦[(Memref.whole cc0_stg3_0 : Memref sig .tc .vmem _ _).view.set]{fullShare} xs3 m c)
    ∗ ((Memref.whole cc0_stg4_0 : Memref sig .tc .vmem _ _).view.loc (c : Thread nD τ) ↦[(Memref.whole cc0_stg4_0 : Memref sig .tc .vmem _ _).view.set]{fullShare} xs4 m c)
    ∗ ((Memref.whole cc0_stg5_0 : Memref sig .tc .vmem _ _).view.loc (c : Thread nD τ) ↦[(Memref.whole cc0_stg5_0 : Memref sig .tc .vmem _ _).view.set]{fullShare} outAt m c)
    ∗ (∃ f, ((Memref.whole cc0_scratch0 : Memref sig .tc .vmem _ _).view.loc (c : Thread nD τ) ↦[(Memref.whole cc0_scratch0 : Memref sig .tc .vmem _ _).view.set]{fullShare} f))
    ∗ (∃ f, srcPts c 0 fullShare f) ∗ (∃ f, srcPts c 1 fullShare f) ∗ (∃ f, srcPts c 2 fullShare f) ∗ (∃ f, srcPts c 3 fullShare f)
    ∗ (∃ f, slotPts c 0 f) ∗ (∃ f, slotPts c 1 f) ∗ (∃ f, slotPts c 2 f) ∗ (∃ f, slotPts c 3 f) ∗ (∃ f, slotPts c 4 f) ∗ (∃ f, slotPts c 5 f) ∗ (∃ f, slotPts c 6 f) ∗ (∃ f, slotPts c 7 f) ∗ (∃ f, slotPts c 8 f) ∗ (∃ f, slotPts c 9 f) ∗ (∃ f, slotPts c 10 f) ∗ (∃ f, slotPts c 11 f) ∗ (∃ f, slotPts c 12 f) ∗ (∃ f, slotPts c 13 f) ∗ (∃ f, slotPts c 14 f) ∗ (∃ f, slotPts c 15 f) ∗ (∃ f, slotPts c 16 f) ∗ (∃ f, slotPts c 17 f) ∗ (∃ f, slotPts c 18 f) ∗ (∃ f, slotPts c 19 f)
    ∗ (∃ f, (((c : Thread nD τ).loc cc0_scratch2) ↦[Regions.comRest]{fullShare} f))
    ∗ (bigSep Finset.univ fun s : Fin 20 => atPos ER (sendCell c s) 1 ∅ 0)
    ∗ (bigSep Finset.univ fun s : Fin 20 => atPos ER (recvCell c s) 1 ∅ 0))

end Cert.Kernel.Body

end
-- ==== Proof.KernelBodyDefs.lean ====
/-
  The interface of one device's body: the printed semaphore words and memrefs named, the schedule's payloads spelt over the
  printed memrefs, what the body's run starts from and what it leaves.
-/
import proofs.«900514_g7700000000000515_dist_attn_self_mha_htp_b2_sq128_skv128_d512_hq8_dh64_v7x_i16_bf16_1_alg».proof.Proof.KernelGhost
import proofs.«900514_g7700000000000515_dist_attn_self_mha_htp_b2_sq128_skv128_d512_hq8_dh64_v7x_i16_bf16_1_alg».proof.Proof.KernelData
import proofs.«900514_g7700000000000515_dist_attn_self_mha_htp_b2_sq128_skv128_d512_hq8_dh64_v7x_i16_bf16_1_alg».proof.Proof.KernelCtx
import proofs.«900514_g7700000000000515_dist_attn_self_mha_htp_b2_sq128_skv128_d512_hq8_dh64_v7x_i16_bf16_1_alg».proof.Proof.KernelViews
import proofs.«900514_g7700000000000515_dist_attn_self_mha_htp_b2_sq128_skv128_d512_hq8_dh64_v7x_i16_bf16_1_alg».proof.Proof.KernelSteps
import proofs.«900514_g7700000000000515_dist_attn_self_mha_htp_b2_sq128_skv128_d512_hq8_dh64_v7x_i16_bf16_1_alg».proof.Proof.KernelRegions
import proofs.«900514_g7700000000000515_dist_attn_self_mha_htp_b2_sq128_skv128_d512_hq8_dh64_v7x_i16_bf16_1_alg».proof.Proof.KernelWaits
import proofs.«900514_g7700000000000515_dist_attn_self_mha_htp_b2_sq128_skv128_d512_hq8_dh64_v7x_i16_bf16_1_alg».proof.Proof.KernelBodyTables

set_option maxRecDepth 16384

noncomputable section

namespace Cert.Kernel.Body

open Cert.Kernel Cert.Kernel.Gen Cert.Kernel.Terms Cert.Kernel.Proto
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## Small facts the run uses -/

omit [FloatOps F] in
theorem hz3 : (![0, 0, 0] : Fin 3 → Nat) = fun _ => 0 := funext fun a => by fin_cases a <;> rfl
omit [FloatOps F] in
theorem hz2 : (![0, 0] : Fin 2 → Nat) = fun _ => 0 := funext fun a => by fin_cases a <;> rfl

omit [FloatOps F] in
/-- A load of a whole staging buffer reads its contents. -/
theorem rd0 (f : (cc0_stg0_0 : Ref sig .tc).ty.Contents (Elt F)) :
    (Memref.whole cc0_stg0_0 : Memref sig .tc .vmem S2x128x512 .f32).view.readAt (Elt F) (Rect.unit (s := S2x128x512) ![0, 0, 0] S2x128x512.size inb_S2x128x512_S2x128x512_0_0_0).toLoadRect f = f :=
  Memref.readAt_unit_zero (Elt F) cc0_stg0_0 hz3 _ f
omit [FloatOps F] in
theorem rd1 (f : (cc0_stg1_0 : Ref sig .tc).ty.Contents (Elt F)) :
    (Memref.whole cc0_stg1_0 : Memref sig .tc .vmem S512x512 .f32).view.readAt (Elt F) (Rect.unit (s := S512x512) ![0, 0] S512x512.size inb_S512x512_S512x512_0_0).toLoadRect f = f :=
  Memref.readAt_unit_zero (Elt F) cc0_stg1_0 hz2 _ f
omit [FloatOps F] in
theorem rd2 (f : (cc0_stg2_0 : Ref sig .tc).ty.Contents (Elt F)) :
    (Memref.whole cc0_stg2_0 : Memref sig .tc .vmem S512x512 .f32).view.readAt (Elt F) (Rect.unit (s := S512x512) ![0, 0] S512x512.size inb_S512x512_S512x512_0_0).toLoadRect f = f :=
  Memref.readAt_unit_zero (Elt F) cc0_stg2_0 hz2 _ f
omit [FloatOps F] in
theorem rd3 (f : (cc0_stg3_0 : Ref sig .tc).ty.Contents (Elt F)) :
    (Memref.whole cc0_stg3_0 : Memref sig .tc .vmem S512x512 .f32).view.readAt (Elt F) (Rect.unit (s := S512x512) ![0, 0] S512x512.size inb_S512x512_S512x512_0_0).toLoadRect f = f :=
  Memref.readAt_unit_zero (Elt F) cc0_stg3_0 hz2 _ f
omit [FloatOps F] in
theorem rd4 (f : (cc0_stg4_0 : Ref sig .tc).ty.Contents (Elt F)) :
    (Memref.whole cc0_stg4_0 : Memref sig .tc .vmem S512x512 .f32).view.readAt (Elt F) (Rect.unit (s := S512x512) ![0, 0] S512x512.size inb_S512x512_S512x512_0_0).toLoadRect f = f :=
  Memref.readAt_unit_zero (Elt F) cc0_stg4_0 hz2 _ f

/-- What the entry wait hands a device: each partner's four slots. -/
theorem bar_payloads (c : Dev nD) : bigSep Finset.univ (fun d : Fin 5 => (sched m).payload (barCell c) 0 d)
    = iprop(barPay 0 (px 0 c) ∗ barPay 1 (px 1 c) ∗ barPay 2 (px 2 c) ∗ barPay 3 (px 3 c) ∗ barPay 4 (px 4 c)) := by
  rw [bigSep_univ_eq_bigSepL [0, 1, 2, 3, 4] (by decide) (by decide)]
  rfl

end Cert.Kernel.Body

end
-- ==== Proof.KernelBridge.lean ====
/-
  Opening the exchange's ghost state for the body's run, and closing it after.

  The ghost state of a device is a pair of big separating conjunctions; the body's run names its pieces one by one. A
  persistent fact yields any number of its consequences, in any order; a separating conjunction over a finite type is
  the chain of its members; chains nest. So the ghost state entails the flat chain of its pieces. Conversely the pieces
  of the receive buffer and of the outgoing buffer, each at contents of its own, join into the whole buffer at some
  contents, and each of a device's forty copy cells, its one round consumed, closes and gives its counter back at zero.
-/
import proofs.«900514_g7700000000000515_dist_attn_self_mha_htp_b2_sq128_skv128_d512_hq8_dh64_v7x_i16_bf16_1_alg».proof.Proof.KernelRegions
import proofs.«900514_g7700000000000515_dist_attn_self_mha_htp_b2_sq128_skv128_d512_hq8_dh64_v7x_i16_bf16_1_alg».proof.Proof.KernelGhost
import proofs.«900514_g7700000000000515_dist_attn_self_mha_htp_b2_sq128_skv128_d512_hq8_dh64_v7x_i16_bf16_1_alg».proof.Proof.KernelCtx
import proofs.«900514_g7700000000000515_dist_attn_self_mha_htp_b2_sq128_skv128_d512_hq8_dh64_v7x_i16_bf16_1_alg».proof.Proof.KernelData

set_option maxRecDepth 8192

noncomputable section

namespace Cert.Kernel.Bridge

open Cert.Kernel Cert.Kernel.Gen Cert.Kernel.Terms Cert.Kernel.Proto Cert.Kernel.Regions

open Idealize.ShloMosaic
open Idealize.ShloMosaic.TcCoe
open Idealize.SL Idealize.SL.RA Idealize.SL.BI
open PCS
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Chains -/

/-- The members of a list, one by one, before a tail. -/
def chainL {I : Type} (l : List I) (Φ : I → sProp 𝕄) (Z : sProp 𝕄) : sProp 𝕄 := l.foldr (fun i acc => iprop(Φ i ∗ acc)) Z

theorem chainL_nil {I : Type} (Φ : I → sProp 𝕄) (Z : sProp 𝕄) : chainL [] Φ Z = Z := rfl
theorem chainL_cons {I : Type} (i : I) (l : List I) (Φ : I → sProp 𝕄) (Z : sProp 𝕄) :
    chainL (i :: l) Φ Z = iprop(Φ i ∗ chainL l Φ Z) := rfl

/-- A chain is monotone in its tail. -/
theorem chainL_mono {I : Type} (l : List I) (Φ : I → sProp 𝕄) {Z Z' : sProp 𝕄} (h : Z ⊢ Z') : chainL l Φ Z ⊢ chainL l Φ Z' := by
  induction l with
  | nil => exact h
  | cons i l ih => rw [chainL_cons, chainL_cons]; exact sep_mono_right ih

/-- A nonempty list's separating conjunction beside a tail is the chain before the tail. -/
theorem bigSepL_sep_chain {I : Type} (l : List I) (hl : l ≠ []) (Φ : I → sProp 𝕄) (Z : sProp 𝕄) :
    iprop(bigSepL l Φ ∗ Z) ⊣⊢ chainL l Φ Z := by
  induction l with
  | nil => exact absurd rfl hl
  | cons i l ih =>
    cases l with
    | nil => exact BiEntails.rfl
    | cons j l =>
      rw [bigSepL_cons_cons, chainL_cons]
      exact sep_assoc.trans (sep_congr_right (ih (List.cons_ne_nil j l)))

/-- A persistent fact and something beside it: a consequence of the fact may be put in front of what the two entail. -/
theorem pers_cons {R A X Y : sProp 𝕄} [BI.Persistent R] (hA : R ⊢ A) (h : iprop(R ∗ X) ⊢ Y) : iprop(R ∗ X) ⊢ iprop(A ∗ Y) := by
  iintro ⟨#HR, HX⟩
  isplitr
  · iapply hA; iexact HR
  · iapply h; isplitr; · iexact HR
    iexact HX

/-- The same for a list of consequences. -/
theorem pers_chain {I : Type} {R X Y : sProp 𝕄} [BI.Persistent R] (l : List I) (Φ : I → sProp 𝕄) (hΦ : ∀ i, R ⊢ Φ i)
    (h : iprop(R ∗ X) ⊢ Y) : iprop(R ∗ X) ⊢ chainL l Φ Y := by
  induction l with
  | nil => exact h
  | cons i l ih => rw [chainL_cons]; exact pers_cons (hΦ i) ih

/-- A persistent fact beside a family serves every member's passage. -/
theorem bigSep_pers_mono {I : Type} (s : Finset I) (P : sProp 𝕄) [BI.Persistent P] (Φ Ψ : I → sProp 𝕄)
    (h : ∀ i, iprop(P ∗ Φ i) ⊢ Ψ i) : iprop(P ∗ bigSep s Φ) ⊢ bigSep s Ψ := by
  classical
  induction s using Finset.induction_on with
  | empty => rw [BI.bigSep_empty, BI.bigSep_empty]; iintro ⟨-, -⟩; iempintro
  | insert i s hi ih =>
    have e1 : bigSep (insert i s) Φ = iprop(Φ i ∗ bigSep s Φ) := BI.bigSep_insert hi
    have e2 : bigSep (insert i s) Ψ = iprop(Ψ i ∗ bigSep s Ψ) := BI.bigSep_insert hi
    rw [e1, e2]
    iintro ⟨#HP, HΦ, Hs⟩
    isplitl [HΦ]
    · iapply (h i); isplitr; · iexact HP
      iexact HΦ
    · iapply ih; isplitr; · iexact HP
      iexact Hs

/-- The five partners and the twenty copies, listed. -/
abbrev l5 : List (Fin 5) := [(0 : Fin 5), (1 : Fin 5), (2 : Fin 5), (3 : Fin 5), (4 : Fin 5)]
abbrev l20 : List (Fin 20) := [(0 : Fin 20), (1 : Fin 20), (2 : Fin 20), (3 : Fin 20), (4 : Fin 20), (5 : Fin 20), (6 : Fin 20), (7 : Fin 20), (8 : Fin 20), (9 : Fin 20), (10 : Fin 20), (11 : Fin 20), (12 : Fin 20), (13 : Fin 20), (14 : Fin 20), (15 : Fin 20), (16 : Fin 20), (17 : Fin 20), (18 : Fin 20), (19 : Fin 20)]

theorem bigSep_fin5 (Φ : Fin 5 → sProp 𝕄) : bigSep Finset.univ Φ = bigSepL l5 Φ :=
  bigSep_univ_eq_bigSepL l5 (by decide) (by decide) Φ
theorem bigSep_fin20 (Φ : Fin 20 → sProp 𝕄) : bigSep Finset.univ Φ = bigSepL l20 Φ :=
  bigSep_univ_eq_bigSepL l20 (by decide) (by decide) Φ

theorem fin5_chain (Φ : Fin 5 → sProp 𝕄) (Z : sProp 𝕄) : iprop(bigSep Finset.univ Φ ∗ Z) ⊣⊢ chainL l5 Φ Z := by
  rw [bigSep_fin5]; exact bigSepL_sep_chain l5 (List.cons_ne_nil _ _) Φ Z
theorem fin20_chain (Φ : Fin 20 → sProp 𝕄) (Z : sProp 𝕄) : iprop(bigSep Finset.univ Φ ∗ Z) ⊣⊢ chainL l20 Φ Z := by
  rw [bigSep_fin20]; exact bigSepL_sep_chain l20 (List.cons_ne_nil _ _) Φ Z

/-! ## Opening the ghost state -/

/-- What is a device's alone, piece by piece: the tokens of its entry signals, of its copies' departures, of their
    landings; its positions in its barrier cell, its send cells, its receive cells. -/
theorem open_linear (c : Dev nD) :
    (linear (F := F) c : sProp 𝕄) ⊢
      chainL l5 (fun i => dutyTok ER (barCell (px i c)) 0 i)
        (chainL l20 (fun s => dutyTok ER (sendCell c s) 0 0)
          (chainL l20 (fun s => dutyTok ER (recvCell (px (slotX s) c) s) 0 0)
            iprop(atPos ER (barCell c) 0 ∅ 0
              ∗ chainL l20 (fun s => atPos ER (sendCell c s) 0 ∅ 0)
                  (bigSepL l20 fun s => atPos ER (recvCell c s) 0 ∅ 0)))) := by
  have step1 : (linear (F := F) c : sProp 𝕄) ⊢
      iprop((bigSep Finset.univ fun i : Fin 5 => dutyTok ER (barCell (px i c)) 0 i)
        ∗ (bigSep Finset.univ fun s : Fin 20 => dutyTok ER (sendCell c s) 0 0)
        ∗ (bigSep Finset.univ fun s : Fin 20 => dutyTok ER (recvCell (px (slotX s) c) s) 0 0)
        ∗ atPos ER (barCell c) 0 ∅ 0
        ∗ (bigSep Finset.univ fun s : Fin 20 => atPos ER (sendCell c s) 0 ∅ 0)
        ∗ (bigSep Finset.univ fun s : Fin 20 => atPos ER (recvCell c s) 0 ∅ 0)) := by
    unfold linear payToks
    rw [bigSep_cell]
    iintro ⟨⟨Hpb, Hps, Hpr⟩, Hb, Hr, Hs⟩
    isplitl [Hb]; · iexact Hb
    isplitl [Hs]; · iexact Hs
    isplitl [Hr]; · iexact Hr
    isplitl [Hpb]; · iexact Hpb
    isplitl [Hps]; · iexact Hps
    iexact Hpr
  refine step1.trans ?_
  refine (fin5_chain _ _).1.trans (chainL_mono _ _ ?_)
  refine (fin20_chain _ _).1.trans (chainL_mono _ _ ?_)
  refine (fin20_chain _ _).1.trans (chainL_mono _ _ ?_)
  refine sep_mono_right ?_
  refine (fin20_chain _ _).1.trans (chainL_mono _ _ ?_)
  exact Entails.of_eq (bigSep_fin20 _)

/-- THE GHOST STATE, OPENED: every piece the body's run names, in its order. -/
theorem open_ghost (K : Dev nD × Cell → ℕ) (c : Dev nD) : ghost m K c ⊢ ctxGhost m K c := by
  have h : ghost m K c ⊢
      iprop(cellInv ER (sched m) (K (c, .inl ())) (barCell c)
        ∗ chainL l5 (fun i => cellInv ER (sched m) (K (px i c, .inl ())) (barCell (px i c)))
          (chainL l20 (fun s => cellInv ER (sched m) (K (c, .inr (.inl s))) (sendCell c s))
            (chainL l20 (fun s => cellInv ER (sched m) (K (c, .inr (.inr s))) (recvCell c s))
              (chainL l20 (fun s => cellInv ER (sched m) (K (px (slotX s) c, .inr (.inr s))) (recvCell (px (slotX s) c) s))
                (chainL l5 (fun i => reached ER (barCell (px i c)) 0)
                  (chainL l20 (fun s => reached ER (sendCell c s) 0)
                    (chainL l20 (fun s => reached ER (recvCell (px (slotX s) c) s) 0)
                      (chainL l20 (fun s => reached ER (recvCell c s) 0)
                        (chainL l5 (fun i => dutyTok ER (barCell (px i c)) 0 i)
                          (chainL l20 (fun s => dutyTok ER (sendCell c s) 0 0)
                            (chainL l20 (fun s => dutyTok ER (recvCell (px (slotX s) c) s) 0 0)
                              iprop(atPos ER (barCell c) 0 ∅ 0
                                ∗ chainL l20 (fun s => atPos ER (sendCell c s) 0 ∅ 0)
                                    (bigSepL l20 fun s => atPos ER (recvCell c s) 0 ∅ 0))))))))))))) := by
    unfold ghost
    refine pers_cons (inv_at m K (c, .inl ())) ?_
    refine pers_chain l5 _ (fun i => inv_at m K (px i c, .inl ())) ?_
    refine pers_chain l20 _ (fun s => inv_at m K (c, .inr (.inl s))) ?_
    refine pers_chain l20 _ (fun s => inv_at m K (c, .inr (.inr s))) ?_
    refine pers_chain l20 _ (fun s => inv_at m K (px (slotX s) c, .inr (.inr s))) ?_
    refine pers_chain l5 _ (fun i => reached_at m K (px i c, .inl ())) ?_
    refine pers_chain l20 _ (fun s => reached_at m K (c, .inr (.inl s))) ?_
    refine pers_chain l20 _ (fun s => reached_at m K (px (slotX s) c, .inr (.inr s))) ?_
    refine pers_chain l20 _ (fun s => reached_at m K (c, .inr (.inr s))) ?_
    iintro ⟨-, HL⟩
    iapply (open_linear c); iexact HL
  exact h

/-! ## Closing the copy cells -/

/-- After round 0 no cell has a duty. -/
theorem duties_later (g : GSem nD τ sig) : ∀ r, 1 ≤ r → (sched (F := F) m).duties g r = ∅ :=
  fun r hr => by dsimp only [sched]; exact if_neg fun h => absurd h.1 (by omega)

theorem close_send (K : Dev nD × Cell → ℕ) (c : Dev nD) (s : Fin 20) :
    iprop(records m K ∗ atPos ER (sendCell c s) 1 ∅ 0) ⊢ iprop(|={Set.univ}=> semVal (sendCell c s) 0) := by
  iintro ⟨#HR, Hat⟩
  iapply (Rounds.cell_close ER (sched m) (Set.mem_univ (K (c, .inr (.inl s)))) (fun h => h) (R := 1) (duties_later m (sendCell c s)))
  isplitr
  · iapply (inv_at m K (c, .inr (.inl s))); iexact HR
  · iexact Hat

theorem close_recv (K : Dev nD × Cell → ℕ) (c : Dev nD) (s : Fin 20) :
    iprop(records m K ∗ atPos ER (recvCell c s) 1 ∅ 0) ⊢ iprop(|={Set.univ}=> semVal (recvCell c s) 0) := by
  iintro ⟨#HR, Hat⟩
  iapply (Rounds.cell_close ER (sched m) (Set.mem_univ (K (c, .inr (.inr s)))) (fun h => h) (R := 1) (duties_later m (recvCell c s)))
  isplitr
  · iapply (inv_at m K (c, .inr (.inr s))); iexact HR
  · iexact Hat

/-- THE FORTY COPY CELLS, each with its one round consumed, close: their counters come back at zero. -/
theorem close_cells (K : Dev nD × Cell → ℕ) (c : Dev nD) :
    iprop(records m K ∗ (bigSep Finset.univ fun s : Fin 20 => atPos ER (sendCell c s) 1 ∅ 0)
        ∗ (bigSep Finset.univ fun s : Fin 20 => atPos ER (recvCell c s) 1 ∅ 0))
      ⊢ iprop(|={Set.univ}=> ((bigSep Finset.univ fun s : Fin 20 => semVal (sendCell c s) 0)
          ∗ (bigSep Finset.univ fun s : Fin 20 => semVal (recvCell c s) 0))) := by
  have hs := (bigSep_pers_mono Finset.univ (records m K) _ _ (fun s => close_send m K c s)).trans (bigSep_fupd Finset.univ _)
  have hr := (bigSep_pers_mono Finset.univ (records m K) _ _ (fun s => close_recv m K c s)).trans (bigSep_fupd Finset.univ _)
  iintro ⟨#HR, Hs, Hr⟩
  iapply fupd_sep
  isplitl [Hs]
  · iapply hs; isplitr; · iexact HR
    iexact Hs
  · iapply hr; isplitr; · iexact HR
    iexact Hr

/-! ## Handing over the receive slots -/

theorem barPay_0 (p : Dev nD) : barPay (F := F) 0 p = iprop(give p 0 ∗ give p 5 ∗ give p 10 ∗ give p 15) := rfl
theorem barPay_1 (p : Dev nD) : barPay (F := F) 1 p = iprop(give p 1 ∗ give p 6 ∗ give p 11 ∗ give p 16) := rfl
theorem barPay_2 (p : Dev nD) : barPay (F := F) 2 p = iprop(give p 2 ∗ give p 7 ∗ give p 12 ∗ give p 17) := rfl
theorem barPay_3 (p : Dev nD) : barPay (F := F) 3 p = iprop(give p 3 ∗ give p 8 ∗ give p 18 ∗ give p 19) := rfl
theorem barPay_4 (p : Dev nD) : barPay (F := F) 4 p = iprop(give p 4 ∗ give p 9 ∗ give p 13 ∗ give p 14) := rfl

/-- One slot, handed over: the slot at some contents, and that its cell is open. -/
theorem give_one (K : Dev nD × Cell → ℕ) (c : Dev nD) (s : Fin 20) (f : Buf (Elt F) ((slotM s).view.loc (c : Thread nD τ))) :
    iprop(records m K ∗ slotPts c s f) ⊢ give c s := by
  unfold give
  iintro ⟨#HR, Hs⟩
  isplitl [Hs]
  · iexists f; iexact Hs
  · iapply (reached_at m K (c, .inr (.inr s))); iexact HR

/-- THE RECEIVE BUFFER, HANDED OVER: to each partner the four slots it will write; the unused rest stays. -/
theorem give_slots (K : Dev nD × Cell → ℕ) (c : Dev nD) (f : Buf (Elt F) ((c : Thread nD τ).loc cc0_scratch2)) :
    iprop(records m K ∗ (((c : Thread nD τ).loc cc0_scratch2) ↦{fullShare} f))
      ⊢ iprop(barPay 0 c ∗ barPay 1 c ∗ barPay 2 c ∗ barPay 3 c ∗ barPay 4 c ∗ (((c : Thread nD τ).loc cc0_scratch2) ↦[comRest]{fullShare} f)) := by
  rw [barPay_0, barPay_1, barPay_2, barPay_3, barPay_4]
  iintro ⟨#HR, Hf⟩
  ihave H := ((split_com c f).1) $$ [Hf]
  · iexact Hf
  icases H with ⟨H0, H1, H2, H3, H4, H5, H6, H7, H8, H9, H10, H11, H12, H13, H14, H15, H16, H17, H18, H19, Hrest⟩
  isplitl [H0 H5 H10 H15]
  · isplitl [H0]
    · iapply (give_one m K c 0 f); isplitr; · iexact HR
      iexact H0
    isplitl [H5]
    · iapply (give_one m K c 5 f); isplitr; · iexact HR
      iexact H5
    isplitl [H10]
    · iapply (give_one m K c 10 f); isplitr; · iexact HR
      iexact H10
    iapply (give_one m K c 15 f); isplitr; · iexact HR
    iexact H15
  isplitl [H1 H6 H11 H16]
  · isplitl [H1]
    · iapply (give_one m K c 1 f); isplitr; · iexact HR
      iexact H1
    isplitl [H6]
    · iapply (give_one m K c 6 f); isplitr; · iexact HR
      iexact H6
    isplitl [H11]
    · iapply (give_one m K c 11 f); isplitr; · iexact HR
      iexact H11
    iapply (give_one m K c 16 f); isplitr; · iexact HR
    iexact H16
  isplitl [H2 H7 H12 H17]
  · isplitl [H2]
    · iapply (give_one m K c 2 f); isplitr; · iexact HR
      iexact H2
    isplitl [H7]
    · iapply (give_one m K c 7 f); isplitr; · iexact HR
      iexact H7
    isplitl [H12]
    · iapply (give_one m K c 12 f); isplitr; · iexact HR
      iexact H12
    iapply (give_one m K c 17 f); isplitr; · iexact HR
    iexact H17
  isplitl [H3 H8 H18 H19]
  · isplitl [H3]
    · iapply (give_one m K c 3 f); isplitr; · iexact HR
      iexact H3
    isplitl [H8]
    · iapply (give_one m K c 8 f); isplitr; · iexact HR
      iexact H8
    isplitl [H18]
    · iapply (give_one m K c 18 f); isplitr; · iexact HR
      iexact H18
    iapply (give_one m K c 19 f); isplitr; · iexact HR
    iexact H19
  isplitl [H4 H9 H13 H14]
  · isplitl [H4]
    · iapply (give_one m K c 4 f); isplitr; · iexact HR
      iexact H4
    isplitl [H9]
    · iapply (give_one m K c 9 f); isplitr; · iexact HR
      iexact H9
    isplitl [H13]
    · iapply (give_one m K c 13 f); isplitr; · iexact HR
      iexact H13
    iapply (give_one m K c 14 f); isplitr; · iexact HR
    iexact H14
  iexact Hrest

/-! ## Joining pieces at contents of their own -/

/-- One step of a join by keys: the elements of key `n` at some contents, and the rest at some contents, are the whole
    at some contents. -/
theorem key_join_then {ℓ : Loc nD τ sig} (key : Idx ℓ → ℕ) (q : PosShare TreeShare) (K : Finset ℕ) (n : ℕ)
    (I : Finset (Idx ℓ)) (hI : I = keySet key {n}) (h : n ∈ K) {R : sProp 𝕄}
    (hR : R ⊢ iprop(∃ f : Buf (Elt F) ℓ, ℓ ↦[keySet key (K.erase n)]{q} f)) :
    iprop((∃ f : Buf (Elt F) ℓ, ℓ ↦[I]{q} f) ∗ R) ⊢ iprop(∃ f : Buf (Elt F) ℓ, ℓ ↦[keySet key K]{q} f) := by
  subst hI
  have hd : Disjoint (keySet key {n}) (keySet key (K.erase n)) := Finset.disjoint_left.2 fun i hi hj =>
    (Finset.mem_erase.1 (mem_keySet.1 hj)).1 (Finset.mem_singleton.1 (mem_keySet.1 hi))
  have hu : keySet key {n} ∪ keySet key (K.erase n) = keySet key K := by
    ext i
    simp only [Finset.mem_union, mem_keySet, Finset.mem_singleton, Finset.mem_erase]
    constructor
    · rintro (h1 | h2)
      · rw [h1]; exact h
      · exact h2.2
    · intro hk
      by_cases e : key i = n
      · exact .inl e
      · exact .inr ⟨e, hk⟩
  have hj : ∀ f g : Buf (Elt F) ℓ, iprop((ℓ ↦[keySet key {n}]{q} f) ∗ (ℓ ↦[keySet key (K.erase n)]{q} g))
      ⊢ (iprop(∃ h : Buf (Elt F) ℓ, ℓ ↦[keySet key K]{q} h) : sProp 𝕄) := fun f g => by
    refine (Region.is_join hd).trans ?_
    rw [hu]
    iintro H; iexists _; iexact H
  iintro ⟨⟨%f, Hf⟩, HR⟩
  ihave HR' := (hR) $$ [HR]
  · iexact HR
  icases HR' with ⟨%g, Hg⟩
  iapply (hj f g)
  isplitl [Hf]; · iexact Hf
  iexact Hg

/-- THE RECEIVE BUFFER, JOINED: its twenty slots and the rest, each at contents of its own, are the buffer at some contents. -/
theorem join_com_ex (c : Dev nD) :
    iprop((∃ f, slotPts (F := F) c 0 f) ∗ (∃ f, slotPts (F := F) c 1 f) ∗ (∃ f, slotPts (F := F) c 2 f) ∗ (∃ f, slotPts (F := F) c 3 f) ∗ (∃ f, slotPts (F := F) c 4 f) ∗ (∃ f, slotPts (F := F) c 5 f) ∗ (∃ f, slotPts (F := F) c 6 f) ∗ (∃ f, slotPts (F := F) c 7 f) ∗ (∃ f, slotPts (F := F) c 8 f) ∗ (∃ f, slotPts (F := F) c 9 f) ∗ (∃ f, slotPts (F := F) c 10 f) ∗ (∃ f, slotPts (F := F) c 11 f) ∗ (∃ f, slotPts (F := F) c 12 f) ∗ (∃ f, slotPts (F := F) c 13 f) ∗ (∃ f, slotPts (F := F) c 14 f) ∗ (∃ f, slotPts (F := F) c 15 f) ∗ (∃ f, slotPts (F := F) c 16 f) ∗ (∃ f, slotPts (F := F) c 17 f) ∗ (∃ f, slotPts (F := F) c 18 f) ∗ (∃ f, slotPts (F := F) c 19 f)
        ∗ (∃ f : Buf (Elt F) ((c : Thread nD τ).loc cc0_scratch2), ((c : Thread nD τ).loc cc0_scratch2) ↦[comRest]{fullShare} f))
      ⊢ (iprop(∃ f : Buf (Elt F) ((c : Thread nD τ).loc cc0_scratch2), ((c : Thread nD τ).loc cc0_scratch2) ↦{fullShare} f) : sProp 𝕄) := by
  have e : (Finset.univ : Finset (Idx ((c : Thread nD τ).loc cc0_scratch2))) = keySet comKey (Finset.range 36) :=
    (keySet_range comKey 36 comKey_lt).symm
  have chain :
      iprop((∃ f : Buf (Elt F) ((c : Thread nD τ).loc cc0_scratch2), ((c : Thread nD τ).loc cc0_scratch2) ↦[(slotM 0).view.set]{fullShare} f)
          ∗ (∃ f : Buf (Elt F) ((c : Thread nD τ).loc cc0_scratch2), ((c : Thread nD τ).loc cc0_scratch2) ↦[(slotM 1).view.set]{fullShare} f)
          ∗ (∃ f : Buf (Elt F) ((c : Thread nD τ).loc cc0_scratch2), ((c : Thread nD τ).loc cc0_scratch2) ↦[(slotM 2).view.set]{fullShare} f)
          ∗ (∃ f : Buf (Elt F) ((c : Thread nD τ).loc cc0_scratch2), ((c : Thread nD τ).loc cc0_scratch2) ↦[(slotM 3).view.set]{fullShare} f)
          ∗ (∃ f : Buf (Elt F) ((c : Thread nD τ).loc cc0_scratch2), ((c : Thread nD τ).loc cc0_scratch2) ↦[(slotM 4).view.set]{fullShare} f)
          ∗ (∃ f : Buf (Elt F) ((c : Thread nD τ).loc cc0_scratch2), ((c : Thread nD τ).loc cc0_scratch2) ↦[(slotM 5).view.set]{fullShare} f)
          ∗ (∃ f : Buf (Elt F) ((c : Thread nD τ).loc cc0_scratch2), ((c : Thread nD τ).loc cc0_scratch2) ↦[(slotM 6).view.set]{fullShare} f)
          ∗ (∃ f : Buf (Elt F) ((c : Thread nD τ).loc cc0_scratch2), ((c : Thread nD τ).loc cc0_scratch2) ↦[(slotM 7).view.set]{fullShare} f)
          ∗ (∃ f : Buf (Elt F) ((c : Thread nD τ).loc cc0_scratch2), ((c : Thread nD τ).loc cc0_scratch2) ↦[(slotM 8).view.set]{fullShare} f)
          ∗ (∃ f : Buf (Elt F) ((c : Thread nD τ).loc cc0_scratch2), ((c : Thread nD τ).loc cc0_scratch2) ↦[(slotM 9).view.set]{fullShare} f)
          ∗ (∃ f : Buf (Elt F) ((c : Thread nD τ).loc cc0_scratch2), ((c : Thread nD τ).loc cc0_scratch2) ↦[(slotM 10).view.set]{fullShare} f)
          ∗ (∃ f : Buf (Elt F) ((c : Thread nD τ).loc cc0_scratch2), ((c : Thread nD τ).loc cc0_scratch2) ↦[(slotM 11).view.set]{fullShare} f)
          ∗ (∃ f : Buf (Elt F) ((c : Thread nD τ).loc cc0_scratch2), ((c : Thread nD τ).loc cc0_scratch2) ↦[(slotM 12).view.set]{fullShare} f)
          ∗ (∃ f : Buf (Elt F) ((c : Thread nD τ).loc cc0_scratch2), ((c : Thread nD τ).loc cc0_scratch2) ↦[(slotM 13).view.set]{fullShare} f)
          ∗ (∃ f : Buf (Elt F) ((c : Thread nD τ).loc cc0_scratch2), ((c : Thread nD τ).loc cc0_scratch2) ↦[(slotM 14).view.set]{fullShare} f)
          ∗ (∃ f : Buf (Elt F) ((c : Thread nD τ).loc cc0_scratch2), ((c : Thread nD τ).loc cc0_scratch2) ↦[(slotM 15).view.set]{fullShare} f)
          ∗ (∃ f : Buf (Elt F) ((c : Thread nD τ).loc cc0_scratch2), ((c : Thread nD τ).loc cc0_scratch2) ↦[(slotM 16).view.set]{fullShare} f)
          ∗ (∃ f : Buf (Elt F) ((c : Thread nD τ).loc cc0_scratch2), ((c : Thread nD τ).loc cc0_scratch2) ↦[(slotM 17).view.set]{fullShare} f)
          ∗ (∃ f : Buf (Elt F) ((c : Thread nD τ).loc cc0_scratch2), ((c : Thread nD τ).loc cc0_scratch2) ↦[(slotM 18).view.set]{fullShare} f)
          ∗ (∃ f : Buf (Elt F) ((c : Thread nD τ).loc cc0_scratch2), ((c : Thread nD τ).loc cc0_scratch2) ↦[(slotM 19).view.set]{fullShare} f)
          ∗ (∃ f : Buf (Elt F) ((c : Thread nD τ).loc cc0_scratch2), ((c : Thread nD τ).loc cc0_scratch2) ↦[comRest]{fullShare} f))
        ⊢ (iprop(∃ f : Buf (Elt F) ((c : Thread nD τ).loc cc0_scratch2), ((c : Thread nD τ).loc cc0_scratch2) ↦[keySet comKey (Finset.range 36)]{fullShare} f) : sProp 𝕄) :=
    key_join_then (ℓ := ((c : Thread nD τ).loc cc0_scratch2)) comKey fullShare _ 0 _ slot_set_0 (by decide)
      (key_join_then (ℓ := ((c : Thread nD τ).loc cc0_scratch2)) comKey fullShare _ 1 _ slot_set_1 (by decide)
      (key_join_then (ℓ := ((c : Thread nD τ).loc cc0_scratch2)) comKey fullShare _ 2 _ slot_set_2 (by decide)
      (key_join_then (ℓ := ((c : Thread nD τ).loc cc0_scratch2)) comKey fullShare _ 3 _ slot_set_3 (by decide)
      (key_join_then (ℓ := ((c : Thread nD τ).loc cc0_scratch2)) comKey fullShare _ 6 _ slot_set_4 (by decide)
      (key_join_then (ℓ := ((c : Thread nD τ).loc cc0_scratch2)) comKey fullShare _ 9 _ slot_set_5 (by decide)
      (key_join_then (ℓ := ((c : Thread nD τ).loc cc0_scratch2)) comKey fullShare _ 10 _ slot_set_6 (by decide)
      (key_join_then (ℓ := ((c : Thread nD τ).loc cc0_scratch2)) comKey fullShare _ 11 _ slot_set_7 (by decide)
      (key_join_then (ℓ := ((c : Thread nD τ).loc cc0_scratch2)) comKey fullShare _ 12 _ slot_set_8 (by decide)
      (key_join_then (ℓ := ((c : Thread nD τ).loc cc0_scratch2)) comKey fullShare _ 15 _ slot_set_9 (by decide)
      (key_join_then (ℓ := ((c : Thread nD τ).loc cc0_scratch2)) comKey fullShare _ 18 _ slot_set_10 (by decide)
      (key_join_then (ℓ := ((c : Thread nD τ).loc cc0_scratch2)) comKey fullShare _ 19 _ slot_set_11 (by decide)
      (key_join_then (ℓ := ((c : Thread nD τ).loc cc0_scratch2)) comKey fullShare _ 20 _ slot_set_12 (by decide)
      (key_join_then (ℓ := ((c : Thread nD τ).loc cc0_scratch2)) comKey fullShare _ 21 _ slot_set_13 (by decide)
      (key_join_then (ℓ := ((c : Thread nD τ).loc cc0_scratch2)) comKey fullShare _ 24 _ slot_set_14 (by decide)
      (key_join_then (ℓ := ((c : Thread nD τ).loc cc0_scratch2)) comKey fullShare _ 27 _ slot_set_15 (by decide)
      (key_join_then (ℓ := ((c : Thread nD τ).loc cc0_scratch2)) comKey fullShare _ 28 _ slot_set_16 (by decide)
      (key_join_then (ℓ := ((c : Thread nD τ).loc cc0_scratch2)) comKey fullShare _ 29 _ slot_set_17 (by decide)
      (key_join_then (ℓ := ((c : Thread nD τ).loc cc0_scratch2)) comKey fullShare _ 30 _ slot_set_18 (by decide)
      (key_join_then (ℓ := ((c : Thread nD τ).loc cc0_scratch2)) comKey fullShare _ 33 _ slot_set_19 (by decide)
      ((Entails.rfl)))))))))))))))))))))
  rw [e]
  exact chain

/-- THE OUTGOING BUFFER, JOINED: its four chunk slices, each at contents of its own, are the buffer at some contents. -/
theorem join_snd_ex (c : Dev nD) :
    iprop((∃ f, srcPts (F := F) c 0 fullShare f) ∗ (∃ f, srcPts (F := F) c 1 fullShare f) ∗ (∃ f, srcPts (F := F) c 2 fullShare f)
        ∗ (∃ f, srcPts (F := F) c 3 fullShare f))
      ⊢ (iprop(∃ f : Buf (Elt F) ((c : Thread nD τ).loc cc0_scratch1), ((c : Thread nD τ).loc cc0_scratch1) ↦{fullShare} f) : sProp 𝕄) := by
  have e : (Finset.univ : Finset (Idx ((c : Thread nD τ).loc cc0_scratch1))) = keySet sndKey (Finset.range 4) :=
    (keySet_range sndKey 4 sndKey_lt).symm
  have e3 : keySet sndKey ((((Finset.range 4).erase 0).erase 1).erase 2) = (srcM 3).view.set := by
    rw [src_set_3]; exact congrArg (keySet sndKey) (by decide)
  have chain :
      iprop((∃ f : Buf (Elt F) ((c : Thread nD τ).loc cc0_scratch1), ((c : Thread nD τ).loc cc0_scratch1) ↦[(srcM 0).view.set]{fullShare} f)
          ∗ (∃ f : Buf (Elt F) ((c : Thread nD τ).loc cc0_scratch1), ((c : Thread nD τ).loc cc0_scratch1) ↦[(srcM 1).view.set]{fullShare} f)
          ∗ (∃ f : Buf (Elt F) ((c : Thread nD τ).loc cc0_scratch1), ((c : Thread nD τ).loc cc0_scratch1) ↦[(srcM 2).view.set]{fullShare} f)
          ∗ (∃ f : Buf (Elt F) ((c : Thread nD τ).loc cc0_scratch1), ((c : Thread nD τ).loc cc0_scratch1) ↦[(srcM 3).view.set]{fullShare} f))
        ⊢ (iprop(∃ f : Buf (Elt F) ((c : Thread nD τ).loc cc0_scratch1), ((c : Thread nD τ).loc cc0_scratch1) ↦[keySet sndKey (Finset.range 4)]{fullShare} f) : sProp 𝕄) :=
    key_join_then (ℓ := ((c : Thread nD τ).loc cc0_scratch1)) sndKey fullShare _ 0 _ src_set_0 (by decide)
      (key_join_then (ℓ := ((c : Thread nD τ).loc cc0_scratch1)) sndKey fullShare _ 1 _ src_set_1 (by decide)
        (key_join_then (ℓ := ((c : Thread nD τ).loc cc0_scratch1)) sndKey fullShare _ 2 _ src_set_2 (by decide) (Entails.of_eq (by rw [e3]))))
  rw [e]
  exact chain

/-! ## Twenty hypotheses as one separating conjunction -/

/-- Twenty members, one by one, are the conjunction over the twenty. -/
theorem chain20_intro (Φ : Fin 20 → sProp 𝕄) :
    iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19) ⊢ bigSep Finset.univ Φ :=
  Entails.of_eq (bigSep_fin20 Φ).symm

/-- And back. -/
theorem chain20_elim (Φ : Fin 20 → sProp 𝕄) :
    bigSep Finset.univ Φ ⊢ iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19) :=
  Entails.of_eq (bigSep_fin20 Φ)

end Cert.Kernel.Bridge

end

/-- info: 'Cert.Kernel.Bridge.open_ghost' depends on axioms: [propext, Classical.choice, Quot.sound] -/
#guard_msgs in #print axioms Cert.Kernel.Bridge.open_ghost

/-- info: 'Cert.Kernel.Bridge.close_cells' depends on axioms: [propext, Classical.choice, Quot.sound] -/
#guard_msgs in #print axioms Cert.Kernel.Bridge.close_cells

/-- info: 'Cert.Kernel.Bridge.give_slots' depends on axioms: [propext, Classical.choice, Quot.sound] -/
#guard_msgs in #print axioms Cert.Kernel.Bridge.give_slots

/-- info: 'Cert.Kernel.Bridge.join_com_ex' depends on axioms: [propext, Classical.choice, Quot.sound] -/
#guard_msgs in #print axioms Cert.Kernel.Bridge.join_com_ex

/-- info: 'Cert.Kernel.Bridge.join_snd_ex' depends on axioms: [propext, Classical.choice, Quot.sound] -/
#guard_msgs in #print axioms Cert.Kernel.Bridge.join_snd_ex

/-- info: 'Cert.Kernel.Bridge.chain20_intro' depends on axioms: [propext, Classical.choice, Quot.sound] -/
#guard_msgs in #print axioms Cert.Kernel.Bridge.chain20_intro
-- ==== Proof.KernelValues.lean ====
/-
  The payloads of the exchange, named. After its own partial result a device's every further value is one of a few
  shapes: a running sum with a landed slot added (`rcv`), a running sum stored to or loaded from the accumulator (a
  reshape there and back), a running sum narrowed and stored for sending, and a finished chunk reshaped into the result
  block. Here each printed payload is identified with that shape, each load of the accumulator after a store with the
  running sum stored, and each group of receive slots of one exchange step, once they hold what the partners sent, with
  the next running sum.
-/
import proofs.«900514_g7700000000000515_dist_attn_self_mha_htp_b2_sq128_skv128_d512_hq8_dh64_v7x_i16_bf16_1_alg».proof.Proof.KernelViews
import proofs.«900514_g7700000000000515_dist_attn_self_mha_htp_b2_sq128_skv128_d512_hq8_dh64_v7x_i16_bf16_1_alg».proof.Proof.KernelTerms

noncomputable section

namespace Cert.Kernel.Values

open Cert.Kernel Cert.Kernel.Gen Cert.Kernel.Terms Cert.Kernel.Proto Cert.Kernel.Views
open Idealize.ShloMosaic
open Idealize.ShloMosaic.TcCoe

variable {F : FTy → Type} [FloatOps F]

/-! ## A landed slot added to the running sum -/

theorem pay23_eq (a : FVec F S256x128 .f32) (v : Vec F S1x1x1x256x128 .bf16) : k0_pay23 a v = rcv a v := rfl
theorem pay28_eq (a : FVec F S256x128 .f32) (v : Vec F S1x1x1x256x128 .bf16) : k0_pay28 a v = rcv a v := rfl
theorem pay32_eq (a : FVec F S256x128 .f32) (v : Vec F S1x1x1x256x128 .bf16) : k0_pay32 a v = rcv a v := rfl
theorem pay36_eq (a : FVec F S256x128 .f32) (v : Vec F S1x1x1x256x128 .bf16) : k0_pay36 a v = rcv a v := rfl
theorem pay37_eq (a : FVec F S256x128 .f32) (v : Vec F S1x1x1x256x128 .bf16) : k0_pay37 a v = rcv a v := rfl
theorem pay38_eq (a : FVec F S256x128 .f32) (v : Vec F S1x1x1x256x128 .bf16) : k0_pay38 a v = rcv a v := rfl
theorem pay42_eq (a : FVec F S256x128 .f32) (v : Vec F S1x1x1x256x128 .bf16) : k0_pay42 a v = rcv a v := rfl
theorem pay47_eq (a : FVec F S256x128 .f32) (v : Vec F S1x1x1x256x128 .bf16) : k0_pay47 a v = rcv a v := rfl
theorem pay51_eq (a : FVec F S256x128 .f32) (v : Vec F S1x1x1x256x128 .bf16) : k0_pay51 a v = rcv a v := rfl
theorem pay52_eq (a : FVec F S256x128 .f32) (v : Vec F S1x1x1x256x128 .bf16) : k0_pay52 a v = rcv a v := rfl
theorem pay53_eq (a : FVec F S256x128 .f32) (v : Vec F S1x1x1x256x128 .bf16) : k0_pay53 a v = rcv a v := rfl
theorem pay57_eq (a : FVec F S256x128 .f32) (v : Vec F S1x1x1x256x128 .bf16) : k0_pay57 a v = rcv a v := rfl
theorem pay63_eq (a : FVec F S256x128 .f32) (v : Vec F S1x1x1x256x128 .bf16) : k0_pay63 a v = rcv a v := rfl
theorem pay64_eq (a : FVec F S256x128 .f32) (v : Vec F S1x1x1x256x128 .bf16) : k0_pay64 a v = rcv a v := rfl
/-- Two slots in one payload. -/
theorem pay24_eq (a : FVec F S256x128 .f32) (v w : Vec F S1x1x1x256x128 .bf16) : k0_pay24 a v w = rcv (rcv a v) w := rfl

/-! ## A finished chunk, as its block of the result -/

theorem pay61_eq (a : FVec F S256x128 .f32) (v : Vec F S1x1x1x256x128 .bf16) :
    k0_pay61 a v = shapeCast S2x128x128 (rcv a v) shapeCasts_S256x128_S2x128x128 := rfl
theorem pay65_eq (a : FVec F S256x128 .f32) (v : Vec F S1x1x1x256x128 .bf16) :
    k0_pay65 a v = shapeCast S2x128x128 (rcv a v) shapeCasts_S256x128_S2x128x128 := rfl
theorem pay67_eq (a : FVec F S256x128 .f32) (v : Vec F S1x1x1x256x128 .bf16) :
    k0_pay67 a v = shapeCast S2x128x128 (rcv a v) shapeCasts_S256x128_S2x128x128 := rfl
theorem pay1_eq (a : FVec F S256x128 .f32) (v : Vec F S1x1x1x256x128 .bf16) :
    k0_pay1 a v = shapeCast S2x128x128 (rcv a v) shapeCasts_S256x128_S2x128x128 := rfl

/-! ## Stores to the accumulator: the running sum as a `[1, 256, 128]` block -/

theorem pay10_eq (v : FVec F S256x512 .bf16) (w : Vec F S512x512 .f32) :
    k0_pay10 v w = shapeCast S1x256x128 (k0_pay9 v w) shapeCasts_S256x128_S1x256x128 := rfl
theorem pay13_eq (v : FVec F S256x512 .bf16) (w : FVec F S512x512 .bf16) :
    k0_pay13 v w = shapeCast S1x256x128 (k0_pay12 v w) shapeCasts_S256x128_S1x256x128 := rfl
theorem pay17_eq (v : FVec F S256x512 .bf16) (w : FVec F S512x512 .bf16) :
    k0_pay17 v w = shapeCast S1x256x128 (k0_pay16 v w) shapeCasts_S256x128_S1x256x128 := rfl
theorem pay20_eq (v : FVec F S256x512 .bf16) (w : FVec F S512x512 .bf16) :
    k0_pay20 v w = shapeCast S1x256x128 (k0_pay19 v w) shapeCasts_S256x128_S1x256x128 := rfl
theorem pay29_eq (a : FVec F S256x128 .f32) (v : Vec F S1x1x1x256x128 .bf16) :
    k0_pay29 a v = shapeCast S1x256x128 (k0_pay28 a v) shapeCasts_S256x128_S1x256x128 := rfl
theorem pay33_eq (a : FVec F S256x128 .f32) (v : Vec F S1x1x1x256x128 .bf16) :
    k0_pay33 a v = shapeCast S1x256x128 (k0_pay32 a v) shapeCasts_S256x128_S1x256x128 := rfl
theorem pay39_eq (a : FVec F S256x128 .f32) (v : Vec F S1x1x1x256x128 .bf16) :
    k0_pay39 a v = shapeCast S1x256x128 (k0_pay38 a v) shapeCasts_S256x128_S1x256x128 := rfl
theorem pay43_eq (a : FVec F S256x128 .f32) (v : Vec F S1x1x1x256x128 .bf16) :
    k0_pay43 a v = shapeCast S1x256x128 (k0_pay42 a v) shapeCasts_S256x128_S1x256x128 := rfl
theorem pay48_eq (a : FVec F S256x128 .f32) (v : Vec F S1x1x1x256x128 .bf16) :
    k0_pay48 a v = shapeCast S1x256x128 (k0_pay47 a v) shapeCasts_S256x128_S1x256x128 := rfl
theorem pay54_eq (a : FVec F S256x128 .f32) (v : Vec F S1x1x1x256x128 .bf16) :
    k0_pay54 a v = shapeCast S1x256x128 (k0_pay53 a v) shapeCasts_S256x128_S1x256x128 := rfl
theorem pay58_eq (a : FVec F S256x128 .f32) (v : Vec F S1x1x1x256x128 .bf16) :
    k0_pay58 a v = shapeCast S1x256x128 (k0_pay57 a v) shapeCasts_S256x128_S1x256x128 := rfl

/-! ## Loads from the accumulator: the block as a `[256, 128]` matrix -/

theorem pay22_eq (x : Vec F S1x256x128 .f32) : k0_pay22 x = shapeCast S256x128 x shapeCasts_S1x256x128_S256x128 := rfl
theorem pay27_eq (x : Vec F S1x256x128 .f32) : k0_pay27 x = shapeCast S256x128 x shapeCasts_S1x256x128_S256x128 := rfl
theorem pay31_eq (x : Vec F S1x256x128 .f32) : k0_pay31 x = shapeCast S256x128 x shapeCasts_S1x256x128_S256x128 := rfl
theorem pay35_eq (x : Vec F S1x256x128 .f32) : k0_pay35 x = shapeCast S256x128 x shapeCasts_S1x256x128_S256x128 := rfl
theorem pay41_eq (x : Vec F S1x256x128 .f32) : k0_pay41 x = shapeCast S256x128 x shapeCasts_S1x256x128_S256x128 := rfl
theorem pay46_eq (x : Vec F S1x256x128 .f32) : k0_pay46 x = shapeCast S256x128 x shapeCasts_S1x256x128_S256x128 := rfl
theorem pay50_eq (x : Vec F S1x256x128 .f32) : k0_pay50 x = shapeCast S256x128 x shapeCasts_S1x256x128_S256x128 := rfl
theorem pay56_eq (x : Vec F S1x256x128 .f32) : k0_pay56 x = shapeCast S256x128 x shapeCasts_S1x256x128_S256x128 := rfl
theorem pay60_eq (x : Vec F S1x256x128 .f32) : k0_pay60 x = shapeCast S256x128 x shapeCasts_S1x256x128_S256x128 := rfl
theorem pay62_eq (x : Vec F S1x256x128 .f32) : k0_pay62 x = shapeCast S256x128 x shapeCasts_S1x256x128_S256x128 := rfl
theorem pay66_eq (x : Vec F S1x256x128 .f32) : k0_pay66 x = shapeCast S256x128 x shapeCasts_S1x256x128_S256x128 := rfl
theorem pay68_eq (x : Vec F S1x256x128 .f32) : k0_pay68 x = shapeCast S256x128 x shapeCasts_S1x256x128_S256x128 := rfl

/-! ## A load after a store gives back the running sum -/

theorem pay22_pay10 (v : FVec F S256x512 .bf16) (w : Vec F S512x512 .f32) : k0_pay22 (k0_pay10 v w) = k0_pay9 v w := by
  rw [pay10_eq, pay22_eq]; generalize k0_pay9 v w = a; exact sq_unsq a
theorem pay27_pay13 (v : FVec F S256x512 .bf16) (w : FVec F S512x512 .bf16) : k0_pay27 (k0_pay13 v w) = k0_pay12 v w := by
  rw [pay13_eq, pay27_eq]; generalize k0_pay12 v w = a; exact sq_unsq a
theorem pay31_pay17 (v : FVec F S256x512 .bf16) (w : FVec F S512x512 .bf16) : k0_pay31 (k0_pay17 v w) = k0_pay16 v w := by
  rw [pay17_eq, pay31_eq]; generalize k0_pay16 v w = a; exact sq_unsq a
theorem pay35_pay20 (v : FVec F S256x512 .bf16) (w : FVec F S512x512 .bf16) : k0_pay35 (k0_pay20 v w) = k0_pay19 v w := by
  rw [pay20_eq, pay35_eq]; generalize k0_pay19 v w = a; exact sq_unsq a
theorem pay41_pay25 (a : FVec F S256x128 .f32) : k0_pay41 (k0_pay25 a) = a := sq_unsq a
theorem pay46_pay29 (a : FVec F S256x128 .f32) (v : Vec F S1x1x1x256x128 .bf16) : k0_pay46 (k0_pay29 a v) = k0_pay28 a v := by
  rw [pay29_eq, pay46_eq]; generalize k0_pay28 a v = b; exact sq_unsq b
theorem pay50_pay33 (a : FVec F S256x128 .f32) (v : Vec F S1x1x1x256x128 .bf16) : k0_pay50 (k0_pay33 a v) = k0_pay32 a v := by
  rw [pay33_eq, pay50_eq]; generalize k0_pay32 a v = b; exact sq_unsq b
theorem pay56_pay39 (a : FVec F S256x128 .f32) (v : Vec F S1x1x1x256x128 .bf16) : k0_pay56 (k0_pay39 a v) = k0_pay38 a v := by
  rw [pay39_eq, pay56_eq]; generalize k0_pay38 a v = b; exact sq_unsq b
theorem pay60_pay43 (a : FVec F S256x128 .f32) (v : Vec F S1x1x1x256x128 .bf16) : k0_pay60 (k0_pay43 a v) = k0_pay42 a v := by
  rw [pay43_eq, pay60_eq]; generalize k0_pay42 a v = b; exact sq_unsq b
theorem pay62_pay48 (a : FVec F S256x128 .f32) (v : Vec F S1x1x1x256x128 .bf16) : k0_pay62 (k0_pay48 a v) = k0_pay47 a v := by
  rw [pay48_eq, pay62_eq]; generalize k0_pay47 a v = b; exact sq_unsq b
theorem pay66_pay54 (a : FVec F S256x128 .f32) (v : Vec F S1x1x1x256x128 .bf16) : k0_pay66 (k0_pay54 a v) = k0_pay53 a v := by
  rw [pay54_eq, pay66_eq]; generalize k0_pay53 a v = b; exact sq_unsq b
theorem pay68_pay58 (a : FVec F S256x128 .f32) (v : Vec F S1x1x1x256x128 .bf16) : k0_pay68 (k0_pay58 a v) = k0_pay57 a v := by
  rw [pay58_eq, pay68_eq]; generalize k0_pay57 a v = b; exact sq_unsq b

/-! ## Stores to the outgoing buffer: the running sum narrowed, as a `[1, 256, 128]` block -/

theorem pay11_eq (v : FVec F S256x512 .bf16) (w : Vec F S512x512 .f32) :
    k0_pay11 v w = shapeCast S1x256x128 (truncf .bf16 (k0_pay9 v w) bitsLt_bf16_f32) shapeCasts_S256x128_S1x256x128 := rfl
theorem pay14_eq (v : FVec F S256x512 .bf16) (w : FVec F S512x512 .bf16) :
    k0_pay14 v w = truncf .bf16 (k0_pay12 v w) bitsLt_bf16_f32 := rfl
theorem pay15_eq (b : FVec F S256x128 .bf16) : k0_pay15 b = shapeCast S1x256x128 b shapeCasts_S256x128_S1x256x128 := rfl
theorem pay18_eq (v : FVec F S256x512 .bf16) (w : FVec F S512x512 .bf16) :
    k0_pay18 v w = shapeCast S1x256x128 (truncf .bf16 (k0_pay16 v w) bitsLt_bf16_f32) shapeCasts_S256x128_S1x256x128 := rfl
theorem pay21_eq (v : FVec F S256x512 .bf16) (w : FVec F S512x512 .bf16) :
    k0_pay21 v w = shapeCast S1x256x128 (truncf .bf16 (k0_pay19 v w) bitsLt_bf16_f32) shapeCasts_S256x128_S1x256x128 := rfl
theorem pay30_eq (a : FVec F S256x128 .f32) (v : Vec F S1x1x1x256x128 .bf16) :
    k0_pay30 a v = shapeCast S1x256x128 (truncf .bf16 (k0_pay28 a v) bitsLt_bf16_f32) shapeCasts_S256x128_S1x256x128 := rfl
theorem pay34_eq (a : FVec F S256x128 .f32) (v : Vec F S1x1x1x256x128 .bf16) :
    k0_pay34 a v = shapeCast S1x256x128 (truncf .bf16 (k0_pay32 a v) bitsLt_bf16_f32) shapeCasts_S256x128_S1x256x128 := rfl
theorem pay40_eq (a : FVec F S256x128 .f32) (v : Vec F S1x1x1x256x128 .bf16) :
    k0_pay40 a v = shapeCast S1x256x128 (truncf .bf16 (k0_pay38 a v) bitsLt_bf16_f32) shapeCasts_S256x128_S1x256x128 := rfl
theorem pay44_eq (a : FVec F S256x128 .f32) (v : Vec F S1x1x1x256x128 .bf16) :
    k0_pay44 a v = truncf .bf16 (k0_pay42 a v) bitsLt_bf16_f32 := rfl
theorem pay45_eq (b : FVec F S256x128 .bf16) : k0_pay45 b = shapeCast S1x256x128 b shapeCasts_S256x128_S1x256x128 := rfl
theorem pay49_eq (a : FVec F S256x128 .f32) (v : Vec F S1x1x1x256x128 .bf16) :
    k0_pay49 a v = shapeCast S1x256x128 (truncf .bf16 (k0_pay47 a v) bitsLt_bf16_f32) shapeCasts_S256x128_S1x256x128 := rfl
theorem pay55_eq (a : FVec F S256x128 .f32) (v : Vec F S1x1x1x256x128 .bf16) :
    k0_pay55 a v = shapeCast S1x256x128 (truncf .bf16 (k0_pay53 a v) bitsLt_bf16_f32) shapeCasts_S256x128_S1x256x128 := rfl
theorem pay59_eq (a : FVec F S256x128 .f32) :
    k0_pay59 a = shapeCast S1x256x128 (truncf .bf16 a bitsLt_bf16_f32) shapeCasts_S256x128_S1x256x128 := rfl

/-! ## The receive slots of one exchange step make the next running sum

A slot that holds what the partner's copy carried is loaded as what the partner's running sum puts on the wire; the
slots of one step and chunk, added in the order of the slots, make the step. -/

variable (m : (ℓ : Loc nD τ sig) → Buf (Elt F) ℓ)

theorem load_wire_0 (c : Dev nD) :
    comM.view.readAt (Elt F) (Rect.unit (s := S3x4x3x256x128) ![0, 0, 0, 0, 0] S1x1x1x256x128.size inb_S3x4x3x256x128_S1x1x1x256x128_0_0_0_0_0).toLoadRect (landed m c 0) = wire (run m 0 0 (px 0 c)) :=
  load_slot_wire_at ![0, 0, 0, 0, 0] inb_S3x4x3x256x128_S1x1x1x256x128_0_0_0_0_0 (landed m c 0) (run m 0 0 (px 0 c))
    (read_slot_write 0 (junk c 0) (sent m 0 (px (slotX 0) c)))
theorem load_wire_1 (c : Dev nD) :
    comM.view.readAt (Elt F) (Rect.unit (s := S3x4x3x256x128) ![0, 0, 1, 0, 0] S1x1x1x256x128.size inb_S3x4x3x256x128_S1x1x1x256x128_0_0_1_0_0).toLoadRect (landed m c 1) = wire (run m 0 0 (px 1 c)) :=
  load_slot_wire_at ![0, 0, 1, 0, 0] inb_S3x4x3x256x128_S1x1x1x256x128_0_0_1_0_0 (landed m c 1) (run m 0 0 (px 1 c))
    (read_slot_write 1 (junk c 1) (sent m 1 (px (slotX 1) c)))
theorem load_wire_2 (c : Dev nD) :
    comM.view.readAt (Elt F) (Rect.unit (s := S3x4x3x256x128) ![0, 0, 2, 0, 0] S1x1x1x256x128.size inb_S3x4x3x256x128_S1x1x1x256x128_0_0_2_0_0).toLoadRect (landed m c 2) = wire (run m 0 0 (px 2 c)) :=
  load_slot_wire_at ![0, 0, 2, 0, 0] inb_S3x4x3x256x128_S1x1x1x256x128_0_0_2_0_0 (landed m c 2) (run m 0 0 (px 2 c))
    (read_slot_write 2 (junk c 2) (sent m 2 (px (slotX 2) c)))
theorem load_wire_3 (c : Dev nD) :
    comM.view.readAt (Elt F) (Rect.unit (s := S3x4x3x256x128) ![0, 1, 0, 0, 0] S1x1x1x256x128.size inb_S3x4x3x256x128_S1x1x1x256x128_0_1_0_0_0).toLoadRect (landed m c 3) = wire (run m 1 0 (px 3 c)) :=
  load_slot_wire_at ![0, 1, 0, 0, 0] inb_S3x4x3x256x128_S1x1x1x256x128_0_1_0_0_0 (landed m c 3) (run m 1 0 (px 3 c))
    (read_slot_write 3 (junk c 3) (sent m 3 (px (slotX 3) c)))
theorem load_wire_4 (c : Dev nD) :
    comM.view.readAt (Elt F) (Rect.unit (s := S3x4x3x256x128) ![0, 2, 0, 0, 0] S1x1x1x256x128.size inb_S3x4x3x256x128_S1x1x1x256x128_0_2_0_0_0).toLoadRect (landed m c 4) = wire (run m 2 0 (px 4 c)) :=
  load_slot_wire_at ![0, 2, 0, 0, 0] inb_S3x4x3x256x128_S1x1x1x256x128_0_2_0_0_0 (landed m c 4) (run m 2 0 (px 4 c))
    (read_slot_write 4 (junk c 4) (sent m 4 (px (slotX 4) c)))
theorem load_wire_5 (c : Dev nD) :
    comM.view.readAt (Elt F) (Rect.unit (s := S3x4x3x256x128) ![0, 3, 0, 0, 0] S1x1x1x256x128.size inb_S3x4x3x256x128_S1x1x1x256x128_0_3_0_0_0).toLoadRect (landed m c 5) = wire (run m 3 0 (px 0 c)) :=
  load_slot_wire_at ![0, 3, 0, 0, 0] inb_S3x4x3x256x128_S1x1x1x256x128_0_3_0_0_0 (landed m c 5) (run m 3 0 (px 0 c))
    (read_slot_write 5 (junk c 5) (sent m 5 (px (slotX 5) c)))
theorem load_wire_6 (c : Dev nD) :
    comM.view.readAt (Elt F) (Rect.unit (s := S3x4x3x256x128) ![0, 3, 1, 0, 0] S1x1x1x256x128.size inb_S3x4x3x256x128_S1x1x1x256x128_0_3_1_0_0).toLoadRect (landed m c 6) = wire (run m 3 0 (px 1 c)) :=
  load_slot_wire_at ![0, 3, 1, 0, 0] inb_S3x4x3x256x128_S1x1x1x256x128_0_3_1_0_0 (landed m c 6) (run m 3 0 (px 1 c))
    (read_slot_write 6 (junk c 6) (sent m 6 (px (slotX 6) c)))
theorem load_wire_7 (c : Dev nD) :
    comM.view.readAt (Elt F) (Rect.unit (s := S3x4x3x256x128) ![0, 3, 2, 0, 0] S1x1x1x256x128.size inb_S3x4x3x256x128_S1x1x1x256x128_0_3_2_0_0).toLoadRect (landed m c 7) = wire (run m 3 0 (px 2 c)) :=
  load_slot_wire_at ![0, 3, 2, 0, 0] inb_S3x4x3x256x128_S1x1x1x256x128_0_3_2_0_0 (landed m c 7) (run m 3 0 (px 2 c))
    (read_slot_write 7 (junk c 7) (sent m 7 (px (slotX 7) c)))
theorem load_wire_8 (c : Dev nD) :
    comM.view.readAt (Elt F) (Rect.unit (s := S3x4x3x256x128) ![1, 0, 0, 0, 0] S1x1x1x256x128.size inb_S3x4x3x256x128_S1x1x1x256x128_1_0_0_0_0).toLoadRect (landed m c 8) = wire (run m 0 1 (px 3 c)) :=
  load_slot_wire_at ![1, 0, 0, 0, 0] inb_S3x4x3x256x128_S1x1x1x256x128_1_0_0_0_0 (landed m c 8) (run m 0 1 (px 3 c))
    (read_slot_write 8 (junk c 8) (sent m 8 (px (slotX 8) c)))
theorem load_wire_9 (c : Dev nD) :
    comM.view.readAt (Elt F) (Rect.unit (s := S3x4x3x256x128) ![1, 1, 0, 0, 0] S1x1x1x256x128.size inb_S3x4x3x256x128_S1x1x1x256x128_1_1_0_0_0).toLoadRect (landed m c 9) = wire (run m 1 1 (px 4 c)) :=
  load_slot_wire_at ![1, 1, 0, 0, 0] inb_S3x4x3x256x128_S1x1x1x256x128_1_1_0_0_0 (landed m c 9) (run m 1 1 (px 4 c))
    (read_slot_write 9 (junk c 9) (sent m 9 (px (slotX 9) c)))
theorem load_wire_10 (c : Dev nD) :
    comM.view.readAt (Elt F) (Rect.unit (s := S3x4x3x256x128) ![1, 2, 0, 0, 0] S1x1x1x256x128.size inb_S3x4x3x256x128_S1x1x1x256x128_1_2_0_0_0).toLoadRect (landed m c 10) = wire (run m 2 1 (px 0 c)) :=
  load_slot_wire_at ![1, 2, 0, 0, 0] inb_S3x4x3x256x128_S1x1x1x256x128_1_2_0_0_0 (landed m c 10) (run m 2 1 (px 0 c))
    (read_slot_write 10 (junk c 10) (sent m 10 (px (slotX 10) c)))
theorem load_wire_11 (c : Dev nD) :
    comM.view.readAt (Elt F) (Rect.unit (s := S3x4x3x256x128) ![1, 2, 1, 0, 0] S1x1x1x256x128.size inb_S3x4x3x256x128_S1x1x1x256x128_1_2_1_0_0).toLoadRect (landed m c 11) = wire (run m 2 1 (px 1 c)) :=
  load_slot_wire_at ![1, 2, 1, 0, 0] inb_S3x4x3x256x128_S1x1x1x256x128_1_2_1_0_0 (landed m c 11) (run m 2 1 (px 1 c))
    (read_slot_write 11 (junk c 11) (sent m 11 (px (slotX 11) c)))
theorem load_wire_12 (c : Dev nD) :
    comM.view.readAt (Elt F) (Rect.unit (s := S3x4x3x256x128) ![1, 2, 2, 0, 0] S1x1x1x256x128.size inb_S3x4x3x256x128_S1x1x1x256x128_1_2_2_0_0).toLoadRect (landed m c 12) = wire (run m 2 1 (px 2 c)) :=
  load_slot_wire_at ![1, 2, 2, 0, 0] inb_S3x4x3x256x128_S1x1x1x256x128_1_2_2_0_0 (landed m c 12) (run m 2 1 (px 2 c))
    (read_slot_write 12 (junk c 12) (sent m 12 (px (slotX 12) c)))
theorem load_wire_13 (c : Dev nD) :
    comM.view.readAt (Elt F) (Rect.unit (s := S3x4x3x256x128) ![1, 3, 0, 0, 0] S1x1x1x256x128.size inb_S3x4x3x256x128_S1x1x1x256x128_1_3_0_0_0).toLoadRect (landed m c 13) = wire (run m 3 1 (px 4 c)) :=
  load_slot_wire_at ![1, 3, 0, 0, 0] inb_S3x4x3x256x128_S1x1x1x256x128_1_3_0_0_0 (landed m c 13) (run m 3 1 (px 4 c))
    (read_slot_write 13 (junk c 13) (sent m 13 (px (slotX 13) c)))
theorem load_wire_14 (c : Dev nD) :
    comM.view.readAt (Elt F) (Rect.unit (s := S3x4x3x256x128) ![2, 0, 0, 0, 0] S1x1x1x256x128.size inb_S3x4x3x256x128_S1x1x1x256x128_2_0_0_0_0).toLoadRect (landed m c 14) = wire (run m 0 2 (px 4 c)) :=
  load_slot_wire_at ![2, 0, 0, 0, 0] inb_S3x4x3x256x128_S1x1x1x256x128_2_0_0_0_0 (landed m c 14) (run m 0 2 (px 4 c))
    (read_slot_write 14 (junk c 14) (sent m 14 (px (slotX 14) c)))
theorem load_wire_15 (c : Dev nD) :
    comM.view.readAt (Elt F) (Rect.unit (s := S3x4x3x256x128) ![2, 1, 0, 0, 0] S1x1x1x256x128.size inb_S3x4x3x256x128_S1x1x1x256x128_2_1_0_0_0).toLoadRect (landed m c 15) = wire (run m 1 2 (px 0 c)) :=
  load_slot_wire_at ![2, 1, 0, 0, 0] inb_S3x4x3x256x128_S1x1x1x256x128_2_1_0_0_0 (landed m c 15) (run m 1 2 (px 0 c))
    (read_slot_write 15 (junk c 15) (sent m 15 (px (slotX 15) c)))
theorem load_wire_16 (c : Dev nD) :
    comM.view.readAt (Elt F) (Rect.unit (s := S3x4x3x256x128) ![2, 1, 1, 0, 0] S1x1x1x256x128.size inb_S3x4x3x256x128_S1x1x1x256x128_2_1_1_0_0).toLoadRect (landed m c 16) = wire (run m 1 2 (px 1 c)) :=
  load_slot_wire_at ![2, 1, 1, 0, 0] inb_S3x4x3x256x128_S1x1x1x256x128_2_1_1_0_0 (landed m c 16) (run m 1 2 (px 1 c))
    (read_slot_write 16 (junk c 16) (sent m 16 (px (slotX 16) c)))
theorem load_wire_17 (c : Dev nD) :
    comM.view.readAt (Elt F) (Rect.unit (s := S3x4x3x256x128) ![2, 1, 2, 0, 0] S1x1x1x256x128.size inb_S3x4x3x256x128_S1x1x1x256x128_2_1_2_0_0).toLoadRect (landed m c 17) = wire (run m 1 2 (px 2 c)) :=
  load_slot_wire_at ![2, 1, 2, 0, 0] inb_S3x4x3x256x128_S1x1x1x256x128_2_1_2_0_0 (landed m c 17) (run m 1 2 (px 2 c))
    (read_slot_write 17 (junk c 17) (sent m 17 (px (slotX 17) c)))
theorem load_wire_18 (c : Dev nD) :
    comM.view.readAt (Elt F) (Rect.unit (s := S3x4x3x256x128) ![2, 2, 0, 0, 0] S1x1x1x256x128.size inb_S3x4x3x256x128_S1x1x1x256x128_2_2_0_0_0).toLoadRect (landed m c 18) = wire (run m 2 2 (px 3 c)) :=
  load_slot_wire_at ![2, 2, 0, 0, 0] inb_S3x4x3x256x128_S1x1x1x256x128_2_2_0_0_0 (landed m c 18) (run m 2 2 (px 3 c))
    (read_slot_write 18 (junk c 18) (sent m 18 (px (slotX 18) c)))
theorem load_wire_19 (c : Dev nD) :
    comM.view.readAt (Elt F) (Rect.unit (s := S3x4x3x256x128) ![2, 3, 0, 0, 0] S1x1x1x256x128.size inb_S3x4x3x256x128_S1x1x1x256x128_2_3_0_0_0).toLoadRect (landed m c 19) = wire (run m 3 2 (px 3 c)) :=
  load_slot_wire_at ![2, 3, 0, 0, 0] inb_S3x4x3x256x128_S1x1x1x256x128_2_3_0_0_0 (landed m c 19) (run m 3 2 (px 3 c))
    (read_slot_write 19 (junk c 19) (sent m 19 (px (slotX 19) c)))

/-- Step 0 of chunk 0: its three slots. -/
theorem step_0_0 (c : Dev nD) :
    rcv (rcv (rcv (run m 0 0 c)
        (comM.view.readAt (Elt F) (Rect.unit (s := S3x4x3x256x128) ![0, 0, 0, 0, 0] S1x1x1x256x128.size inb_S3x4x3x256x128_S1x1x1x256x128_0_0_0_0_0).toLoadRect (landed m c 0)))
        (comM.view.readAt (Elt F) (Rect.unit (s := S3x4x3x256x128) ![0, 0, 1, 0, 0] S1x1x1x256x128.size inb_S3x4x3x256x128_S1x1x1x256x128_0_0_1_0_0).toLoadRect (landed m c 1)))
        (comM.view.readAt (Elt F) (Rect.unit (s := S3x4x3x256x128) ![0, 0, 2, 0, 0] S1x1x1x256x128.size inb_S3x4x3x256x128_S1x1x1x256x128_0_0_2_0_0).toLoadRect (landed m c 2))
      = run m 0 1 c := by
  rw [load_wire_0 m c, load_wire_1 m c, load_wire_2 m c]
  rfl
/-- Step 0 of chunk 1: its one slot. -/
theorem step_0_1 (c : Dev nD) :
    rcv (run m 1 0 c)
        (comM.view.readAt (Elt F) (Rect.unit (s := S3x4x3x256x128) ![0, 1, 0, 0, 0] S1x1x1x256x128.size inb_S3x4x3x256x128_S1x1x1x256x128_0_1_0_0_0).toLoadRect (landed m c 3))
      = run m 1 1 c := by
  rw [load_wire_3 m c]
  rfl
/-- Step 0 of chunk 2: its one slot. -/
theorem step_0_2 (c : Dev nD) :
    rcv (run m 2 0 c)
        (comM.view.readAt (Elt F) (Rect.unit (s := S3x4x3x256x128) ![0, 2, 0, 0, 0] S1x1x1x256x128.size inb_S3x4x3x256x128_S1x1x1x256x128_0_2_0_0_0).toLoadRect (landed m c 4))
      = run m 2 1 c := by
  rw [load_wire_4 m c]
  rfl
/-- Step 0 of chunk 3: its three slots. -/
theorem step_0_3 (c : Dev nD) :
    rcv (rcv (rcv (run m 3 0 c)
        (comM.view.readAt (Elt F) (Rect.unit (s := S3x4x3x256x128) ![0, 3, 0, 0, 0] S1x1x1x256x128.size inb_S3x4x3x256x128_S1x1x1x256x128_0_3_0_0_0).toLoadRect (landed m c 5)))
        (comM.view.readAt (Elt F) (Rect.unit (s := S3x4x3x256x128) ![0, 3, 1, 0, 0] S1x1x1x256x128.size inb_S3x4x3x256x128_S1x1x1x256x128_0_3_1_0_0).toLoadRect (landed m c 6)))
        (comM.view.readAt (Elt F) (Rect.unit (s := S3x4x3x256x128) ![0, 3, 2, 0, 0] S1x1x1x256x128.size inb_S3x4x3x256x128_S1x1x1x256x128_0_3_2_0_0).toLoadRect (landed m c 7))
      = run m 3 1 c := by
  rw [load_wire_5 m c, load_wire_6 m c, load_wire_7 m c]
  rfl
/-- Step 1 of chunk 0: its one slot. -/
theorem step_1_0 (c : Dev nD) :
    rcv (run m 0 1 c)
        (comM.view.readAt (Elt F) (Rect.unit (s := S3x4x3x256x128) ![1, 0, 0, 0, 0] S1x1x1x256x128.size inb_S3x4x3x256x128_S1x1x1x256x128_1_0_0_0_0).toLoadRect (landed m c 8))
      = run m 0 2 c := by
  rw [load_wire_8 m c]
  rfl
/-- Step 1 of chunk 1: its one slot. -/
theorem step_1_1 (c : Dev nD) :
    rcv (run m 1 1 c)
        (comM.view.readAt (Elt F) (Rect.unit (s := S3x4x3x256x128) ![1, 1, 0, 0, 0] S1x1x1x256x128.size inb_S3x4x3x256x128_S1x1x1x256x128_1_1_0_0_0).toLoadRect (landed m c 9))
      = run m 1 2 c := by
  rw [load_wire_9 m c]
  rfl
/-- Step 1 of chunk 2: its three slots. -/
theorem step_1_2 (c : Dev nD) :
    rcv (rcv (rcv (run m 2 1 c)
        (comM.view.readAt (Elt F) (Rect.unit (s := S3x4x3x256x128) ![1, 2, 0, 0, 0] S1x1x1x256x128.size inb_S3x4x3x256x128_S1x1x1x256x128_1_2_0_0_0).toLoadRect (landed m c 10)))
        (comM.view.readAt (Elt F) (Rect.unit (s := S3x4x3x256x128) ![1, 2, 1, 0, 0] S1x1x1x256x128.size inb_S3x4x3x256x128_S1x1x1x256x128_1_2_1_0_0).toLoadRect (landed m c 11)))
        (comM.view.readAt (Elt F) (Rect.unit (s := S3x4x3x256x128) ![1, 2, 2, 0, 0] S1x1x1x256x128.size inb_S3x4x3x256x128_S1x1x1x256x128_1_2_2_0_0).toLoadRect (landed m c 12))
      = run m 2 2 c := by
  rw [load_wire_10 m c, load_wire_11 m c, load_wire_12 m c]
  rfl
/-- Step 1 of chunk 3: its one slot. -/
theorem step_1_3 (c : Dev nD) :
    rcv (run m 3 1 c)
        (comM.view.readAt (Elt F) (Rect.unit (s := S3x4x3x256x128) ![1, 3, 0, 0, 0] S1x1x1x256x128.size inb_S3x4x3x256x128_S1x1x1x256x128_1_3_0_0_0).toLoadRect (landed m c 13))
      = run m 3 2 c := by
  rw [load_wire_13 m c]
  rfl
/-- Step 2 of chunk 0: its one slot. -/
theorem step_2_0 (c : Dev nD) :
    rcv (run m 0 2 c)
        (comM.view.readAt (Elt F) (Rect.unit (s := S3x4x3x256x128) ![2, 0, 0, 0, 0] S1x1x1x256x128.size inb_S3x4x3x256x128_S1x1x1x256x128_2_0_0_0_0).toLoadRect (landed m c 14))
      = run m 0 3 c := by
  rw [load_wire_14 m c]
  rfl
/-- Step 2 of chunk 1: its three slots. -/
theorem step_2_1 (c : Dev nD) :
    rcv (rcv (rcv (run m 1 2 c)
        (comM.view.readAt (Elt F) (Rect.unit (s := S3x4x3x256x128) ![2, 1, 0, 0, 0] S1x1x1x256x128.size inb_S3x4x3x256x128_S1x1x1x256x128_2_1_0_0_0).toLoadRect (landed m c 15)))
        (comM.view.readAt (Elt F) (Rect.unit (s := S3x4x3x256x128) ![2, 1, 1, 0, 0] S1x1x1x256x128.size inb_S3x4x3x256x128_S1x1x1x256x128_2_1_1_0_0).toLoadRect (landed m c 16)))
        (comM.view.readAt (Elt F) (Rect.unit (s := S3x4x3x256x128) ![2, 1, 2, 0, 0] S1x1x1x256x128.size inb_S3x4x3x256x128_S1x1x1x256x128_2_1_2_0_0).toLoadRect (landed m c 17))
      = run m 1 3 c := by
  rw [load_wire_15 m c, load_wire_16 m c, load_wire_17 m c]
  rfl
/-- Step 2 of chunk 2: its one slot. -/
theorem step_2_2 (c : Dev nD) :
    rcv (run m 2 2 c)
        (comM.view.readAt (Elt F) (Rect.unit (s := S3x4x3x256x128) ![2, 2, 0, 0, 0] S1x1x1x256x128.size inb_S3x4x3x256x128_S1x1x1x256x128_2_2_0_0_0).toLoadRect (landed m c 18))
      = run m 2 3 c := by
  rw [load_wire_18 m c]
  rfl
/-- Step 2 of chunk 3: its one slot. -/
theorem step_2_3 (c : Dev nD) :
    rcv (run m 3 2 c)
        (comM.view.readAt (Elt F) (Rect.unit (s := S3x4x3x256x128) ![2, 3, 0, 0, 0] S1x1x1x256x128.size inb_S3x4x3x256x128_S1x1x1x256x128_2_3_0_0_0).toLoadRect (landed m c 19))
      = run m 3 3 c := by
  rw [load_wire_19 m c]
  rfl

end Cert.Kernel.Values

end

/-- info: 'Cert.Kernel.Values.pay22_pay10' depends on axioms: [propext, Classical.choice, Quot.sound] -/
#guard_msgs in #print axioms Cert.Kernel.Values.pay22_pay10
/-- info: 'Cert.Kernel.Values.step_0_0' depends on axioms: [propext, Classical.choice, Quot.sound] -/
#guard_msgs in #print axioms Cert.Kernel.Values.step_0_0
/-- info: 'Cert.Kernel.Values.step_2_3' depends on axioms: [propext, Classical.choice, Quot.sound] -/
#guard_msgs in #print axioms Cert.Kernel.Values.step_2_3
-- ==== Proof.KernelAcc.lean ====
/-
  Loads of the running-sum buffer after stores of its chunk slices.

  The running-sum buffer holds four chunk slices, one per value of its first coordinate. A load of one slice after a
  list of stores whose last store went to ANOTHER slice reads what the earlier stores left: the two slices differ in their
  first coordinate, so they share no element. A load of the slice the last store went to reads that store's payload.
-/
import proofs.«900514_g7700000000000515_dist_attn_self_mha_htp_b2_sq128_skv128_d512_hq8_dh64_v7x_i16_bf16_1_alg».proof.Proof.KernelProto
import Idealize.ShloMosaic.Lib.Pipeline.FrameBody

noncomputable section

namespace Cert.Kernel.Acc

open Cert.Kernel Cert.Kernel.Gen Cert.Kernel.Terms Cert.Kernel.Proto

open Idealize.ShloMosaic
open Idealize.ShloMosaic.TcCoe

variable {F : FTy → Type} [FloatOps F]

/-- The chunk slices at first coordinates `a ≠ b` share no element. -/
theorem chunk_disjoint (a b : ℕ) (hab : a ≠ b)
    (inba : ∀ x, (![a, 0, 0] : Fin 3 → ℕ) x + S1x256x128.size x ≤ S4x256x128.size x)
    (inbb : ∀ x, (![b, 0, 0] : Fin 3 → ℕ) x + S1x256x128.size x ≤ S4x256x128.size x) :
    Disjoint (Rect.unit (s := S4x256x128) ![a, 0, 0] S1x256x128.size inba).set
      (Rect.unit (s := S4x256x128) ![b, 0, 0] S1x256x128.size inbb).toLoadRect.set :=
  Rect.unit_disjoint (s := S4x256x128) (0 : Fin 3) (by show a + 1 ≤ b ∨ b + 1 ≤ a; omega)

/-- A load of chunk `b`'s slice skips a last store to chunk `a ≠ b`'s slice. -/
theorem acc_skip (a b : ℕ) (hab : a ≠ b)
    (inba : ∀ x, (![a, 0, 0] : Fin 3 → ℕ) x + S1x256x128.size x ≤ S4x256x128.size x)
    (inbb : ∀ x, (![b, 0, 0] : Fin 3 → ℕ) x + S1x256x128.size x ≤ S4x256x128.size x)
    (w : (Rect.unit (s := S4x256x128) ![a, 0, 0] S1x256x128.size inba).shape.Idx → Elt F .f32)
    (L : List (View.Piece (Elt F) S4x256x128 .f32)) :
    (Memref.whole cc0_scratch0 : Memref sig .tc .vmem S4x256x128 .f32).view.readCov
        (⟨Rect.unit (s := S4x256x128) ![a, 0, 0] S1x256x128.size inba, w⟩ :: L)
        (Rect.unit (s := S4x256x128) ![b, 0, 0] S1x256x128.size inbb).toLoadRect
      = (Memref.whole cc0_scratch0 : Memref sig .tc .vmem S4x256x128 .f32).view.readCov L
          (Rect.unit (s := S4x256x128) ![b, 0, 0] S1x256x128.size inbb).toLoadRect :=
  View.readCov_cons_of_disjoint _ _ L _ (chunk_disjoint a b hab inba inbb)

/-- A load of the slice the last store went to reads that store's payload. -/
theorem acc_hit (a : ℕ)
    (inba : ∀ x, (![a, 0, 0] : Fin 3 → ℕ) x + S1x256x128.size x ≤ S4x256x128.size x)
    (w : (Rect.unit (s := S4x256x128) ![a, 0, 0] S1x256x128.size inba).shape.Idx → Elt F .f32)
    (L : List (View.Piece (Elt F) S4x256x128 .f32)) :
    (Memref.whole cc0_scratch0 : Memref sig .tc .vmem S4x256x128 .f32).view.readCov
        (⟨Rect.unit (s := S4x256x128) ![a, 0, 0] S1x256x128.size inba, w⟩ :: L)
        (Rect.unit (s := S4x256x128) ![a, 0, 0] S1x256x128.size inba).toLoadRect
      = w :=
  View.readCov_cons_toLoadRect _ _ w L

end Cert.Kernel.Acc

end

/-- info: 'Cert.Kernel.Acc.acc_skip' depends on axioms: [propext, Classical.choice, Quot.sound] -/
#guard_msgs in #print axioms Cert.Kernel.Acc.acc_skip

/-- info: 'Cert.Kernel.Acc.acc_hit' depends on axioms: [propext, Classical.choice, Quot.sound] -/
#guard_msgs in #print axioms Cert.Kernel.Acc.acc_hit
-- ==== Proof.KernelBody.lean ====
/-
  One device's body, run from its ghost state: the entry handshake, the attention block, the four partial products, and
  the three exchange steps per chunk, each copy started once the chunk's running sum is stored and narrowed, each landing
  waited for before it is read. What the run leaves in the result buffer is the four chunks' sums over all devices.
-/
import proofs.«900514_g7700000000000515_dist_attn_self_mha_htp_b2_sq128_skv128_d512_hq8_dh64_v7x_i16_bf16_1_alg».proof.Proof.KernelBodyDefs
import proofs.«900514_g7700000000000515_dist_attn_self_mha_htp_b2_sq128_skv128_d512_hq8_dh64_v7x_i16_bf16_1_alg».proof.Proof.KernelRegions
import proofs.«900514_g7700000000000515_dist_attn_self_mha_htp_b2_sq128_skv128_d512_hq8_dh64_v7x_i16_bf16_1_alg».proof.Proof.KernelWaits
import proofs.«900514_g7700000000000515_dist_attn_self_mha_htp_b2_sq128_skv128_d512_hq8_dh64_v7x_i16_bf16_1_alg».proof.Proof.KernelBridge
import proofs.«900514_g7700000000000515_dist_attn_self_mha_htp_b2_sq128_skv128_d512_hq8_dh64_v7x_i16_bf16_1_alg».proof.Proof.KernelValues
import proofs.«900514_g7700000000000515_dist_attn_self_mha_htp_b2_sq128_skv128_d512_hq8_dh64_v7x_i16_bf16_1_alg».proof.Proof.KernelAcc

set_option maxRecDepth 16384

noncomputable section

namespace Cert.Kernel.Body

open Cert.Kernel Cert.Kernel.Gen Cert.Kernel.Terms Cert.Kernel.Proto
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## The running sums, as the run presents them -/

theorem base0 (c : Dev nD) : k0_pay9 (k0_pay7 (k0_pay3 (k0_pay2 (xs0 m c)) (xs4 m c)) (k0_pay4 (k0_pay2 (xs0 m c)) (xs1 m c) (xs3 m c)) k0_pay5 k0_pay6) (xs2 m c) = run m 0 0 c := rfl
theorem base1 (c : Dev nD) : k0_pay12 (k0_pay7 (k0_pay3 (k0_pay2 (xs0 m c)) (xs4 m c)) (k0_pay4 (k0_pay2 (xs0 m c)) (xs1 m c) (xs3 m c)) k0_pay5 k0_pay6) (k0_pay8 (xs2 m c)) = run m 1 0 c := rfl
theorem base2 (c : Dev nD) : k0_pay16 (k0_pay7 (k0_pay3 (k0_pay2 (xs0 m c)) (xs4 m c)) (k0_pay4 (k0_pay2 (xs0 m c)) (xs1 m c) (xs3 m c)) k0_pay5 k0_pay6) (k0_pay8 (xs2 m c)) = run m 2 0 c := rfl
theorem base3 (c : Dev nD) : k0_pay19 (k0_pay7 (k0_pay3 (k0_pay2 (xs0 m c)) (xs4 m c)) (k0_pay4 (k0_pay2 (xs0 m c)) (xs1 m c) (xs3 m c)) k0_pay5 k0_pay6) (k0_pay8 (xs2 m c)) = run m 3 0 c := rfl

theorem st00 (c : Dev nD) : rcv (rcv (rcv (run m 0 0 c) (wire (run m 0 0 (px 0 c)))) (wire (run m 0 0 (px 1 c)))) (wire (run m 0 0 (px 2 c))) = run m 0 1 c := rfl
theorem st01 (c : Dev nD) : rcv (run m 1 0 c) (wire (run m 1 0 (px 3 c))) = run m 1 1 c := rfl
theorem st02 (c : Dev nD) : rcv (run m 2 0 c) (wire (run m 2 0 (px 4 c))) = run m 2 1 c := rfl
theorem st03 (c : Dev nD) : rcv (rcv (rcv (run m 3 0 c) (wire (run m 3 0 (px 0 c)))) (wire (run m 3 0 (px 1 c)))) (wire (run m 3 0 (px 2 c))) = run m 3 1 c := rfl
theorem st10 (c : Dev nD) : rcv (run m 0 1 c) (wire (run m 0 1 (px 3 c))) = run m 0 2 c := rfl
theorem st11 (c : Dev nD) : rcv (run m 1 1 c) (wire (run m 1 1 (px 4 c))) = run m 1 2 c := rfl
theorem st12 (c : Dev nD) : rcv (rcv (rcv (run m 2 1 c) (wire (run m 2 1 (px 0 c)))) (wire (run m 2 1 (px 1 c)))) (wire (run m 2 1 (px 2 c))) = run m 2 2 c := rfl
theorem st13 (c : Dev nD) : rcv (run m 3 1 c) (wire (run m 3 1 (px 4 c))) = run m 3 2 c := rfl
theorem st20 (c : Dev nD) : rcv (run m 0 2 c) (wire (run m 0 2 (px 4 c))) = run m 0 3 c := rfl
theorem st21 (c : Dev nD) : rcv (rcv (rcv (run m 1 2 c) (wire (run m 1 2 (px 0 c)))) (wire (run m 1 2 (px 1 c)))) (wire (run m 1 2 (px 2 c))) = run m 1 3 c := rfl
theorem st22 (c : Dev nD) : rcv (run m 2 2 c) (wire (run m 2 2 (px 3 c))) = run m 2 3 c := rfl
theorem st23 (c : Dev nD) : rcv (run m 3 2 c) (wire (run m 3 2 (px 3 c))) = run m 3 3 c := rfl

omit [FloatOps F] in
theorem rd0' (f : (cc0_stg0_0 : Ref sig .tc).ty.Contents (Elt F)) :
    View.readAt (Elt F) (View.whole cc0_stg0_0) (Rect.unit (s := S2x128x512) ![0, 0, 0] ![2, 128, 512] inb_S2x128x512_S2x128x512_0_0_0).toLoadRect f = f := rd0 f
omit [FloatOps F] in
theorem rd1' (f : (cc0_stg1_0 : Ref sig .tc).ty.Contents (Elt F)) :
    View.readAt (Elt F) (View.whole cc0_stg1_0) (Rect.unit (s := S512x512) ![0, 0] ![512, 512] inb_S512x512_S512x512_0_0).toLoadRect f = f := rd1 f
omit [FloatOps F] in
theorem rd2' (f : (cc0_stg2_0 : Ref sig .tc).ty.Contents (Elt F)) :
    View.readAt (Elt F) (View.whole cc0_stg2_0) (Rect.unit (s := S512x512) ![0, 0] ![512, 512] inb_S512x512_S512x512_0_0).toLoadRect f = f := rd2 f
omit [FloatOps F] in
theorem rd3' (f : (cc0_stg3_0 : Ref sig .tc).ty.Contents (Elt F)) :
    View.readAt (Elt F) (View.whole cc0_stg3_0) (Rect.unit (s := S512x512) ![0, 0] ![512, 512] inb_S512x512_S512x512_0_0).toLoadRect f = f := rd3 f
omit [FloatOps F] in
theorem rd4' (f : (cc0_stg4_0 : Ref sig .tc).ty.Contents (Elt F)) :
    View.readAt (Elt F) (View.whole cc0_stg4_0) (Rect.unit (s := S512x512) ![0, 0] ![512, 512] inb_S512x512_S512x512_0_0).toLoadRect f = f := rd4 f

theorem acc_hit' (a : ℕ) (inba : ∀ x, (![a, 0, 0] : Fin 3 → ℕ) x + S1x256x128.size x ≤ S4x256x128.size x)
    (w : (Rect.unit (s := S4x256x128) ![a, 0, 0] S1x256x128.size inba).shape.Idx → Elt F .f32) (L : List (View.Piece (Elt F) S4x256x128 .f32)) :
    (View.whole cc0_scratch0).readCov (⟨Rect.unit (s := S4x256x128) ![a, 0, 0] ![1, 256, 128] inba, w⟩ :: L) (Rect.unit (s := S4x256x128) ![a, 0, 0] ![1, 256, 128] inba).toLoadRect = w :=
  Acc.acc_hit a inba w L
theorem acc_skip' (a b : ℕ) (hab : a ≠ b) (inba : ∀ x, (![a, 0, 0] : Fin 3 → ℕ) x + S1x256x128.size x ≤ S4x256x128.size x)
    (inbb : ∀ x, (![b, 0, 0] : Fin 3 → ℕ) x + S1x256x128.size x ≤ S4x256x128.size x)
    (w : (Rect.unit (s := S4x256x128) ![a, 0, 0] S1x256x128.size inba).shape.Idx → Elt F .f32) (L : List (View.Piece (Elt F) S4x256x128 .f32)) :
    (View.whole cc0_scratch0).readCov (⟨Rect.unit (s := S4x256x128) ![a, 0, 0] ![1, 256, 128] inba, w⟩ :: L) (Rect.unit (s := S4x256x128) ![b, 0, 0] ![1, 256, 128] inbb).toLoadRect
      = (View.whole cc0_scratch0).readCov L (Rect.unit (s := S4x256x128) ![b, 0, 0] ![1, 256, 128] inbb).toLoadRect :=
  Acc.acc_skip a b hab inba inbb w L

set_option allowUnsafeReducibility true in
attribute [local reducible] srcPts slotPts srcM slotM sendPay recvPay

attribute [local sl_canon] dev1_eq dev2_eq dev3_eq dev4_eq dev5_eq dev6_eq dev7_eq dev8_eq dev9_eq dev10_eq dev11_eq dev12_eq dev13_eq dev14_eq dev15_eq dev16_eq dev17_eq dev18_eq dev19_eq dev20_eq dev21_eq dev22_eq dev23_eq dev24_eq dev25_eq sendSem_canon0 recvSem_canon0 sendSem_canon1 recvSem_canon1 sendSem_canon2 recvSem_canon2 sendSem_canon3 recvSem_canon3 sendSem_canon4 recvSem_canon4 sendSem_canon5 recvSem_canon5 sendSem_canon6 recvSem_canon6 sendSem_canon7 recvSem_canon7 sendSem_canon8 recvSem_canon8 sendSem_canon9 recvSem_canon9 sendSem_canon10 recvSem_canon10 sendSem_canon11 recvSem_canon11 sendSem_canon12 recvSem_canon12 sendSem_canon13 recvSem_canon13 sendSem_canon14 recvSem_canon14 sendSem_canon15 recvSem_canon15 sendSem_canon16 recvSem_canon16 sendSem_canon17 recvSem_canon17 sendSem_canon18 recvSem_canon18 sendSem_canon19 recvSem_canon19
attribute [local sl_rounds] duties_bar duties_send duties_recv amount_bar amount_send amount_recv expect_bar expect_send expect_recv
  payload_bar_peer pay_send_0 pay_recv_0 pay_send_1 pay_recv_1 pay_send_2 pay_recv_2 pay_send_3 pay_recv_3 pay_send_4 pay_recv_4 pay_send_5 pay_recv_5 pay_send_6 pay_recv_6 pay_send_7 pay_recv_7 pay_send_8 pay_recv_8 pay_send_9 pay_recv_9 pay_send_10 pay_recv_10 pay_send_11 pay_recv_11 pay_send_12 pay_recv_12 pay_send_13 pay_recv_13 pay_send_14 pay_recv_14 pay_send_15 pay_recv_15 pay_send_16 pay_recv_16 pay_send_17 pay_recv_17 pay_send_18 pay_recv_18 pay_send_19 pay_recv_19

set_option maxHeartbeats 8000000 in
theorem sound_body (K : Dev nD × Cell → ℕ) (c : Dev nD) (W : Waits sig Unit) (X5 : (cc0_stg5_0 : Ref sig .tc).ty.Contents (Elt F))
    (A0 : (cc0_scratch0 : Ref sig .tc).ty.Contents (Elt F)) (S0 : (cc0_scratch1 : Ref sig .tc).ty.Contents (Elt F))
    (C0 : (cc0_scratch2 : Ref sig .tc).ty.Contents (Elt F)) (Kt : PUnit → sProp 𝕄) :
    iprop(bodyCtx m K c W X5 A0 S0 C0 ∗ (bodyEnd m c -∗ Kt ⟨⟩))
      ⊢ wp frame (wpE (defs₀ (F := F)) 𝒱₀ c none) Set.univ (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4) Kt := by
  unfold bodyCtx ctxGhost
  iintro ⟨⟨⟨#HIb, #HIp0, #HIp1, #HIp2, #HIp3, #HIp4, #HIs0, #HIs1, #HIs2, #HIs3, #HIs4, #HIs5, #HIs6, #HIs7, #HIs8, #HIs9, #HIs10, #HIs11, #HIs12, #HIs13, #HIs14, #HIs15, #HIs16, #HIs17, #HIs18, #HIs19, #HIr0, #HIr1, #HIr2, #HIr3, #HIr4, #HIr5, #HIr6, #HIr7, #HIr8, #HIr9, #HIr10, #HIr11, #HIr12, #HIr13, #HIr14, #HIr15, #HIr16, #HIr17, #HIr18, #HIr19, #HIq0, #HIq1, #HIq2, #HIq3, #HIq4, #HIq5, #HIq6, #HIq7, #HIq8, #HIq9, #HIq10, #HIq11, #HIq12, #HIq13, #HIq14, #HIq15, #HIq16, #HIq17, #HIq18, #HIq19, #Hrp0, #Hrp1, #Hrp2, #Hrp3, #Hrp4, #Hrs0, #Hrs1, #Hrs2, #Hrs3, #Hrs4, #Hrs5, #Hrs6, #Hrs7, #Hrs8, #Hrs9, #Hrs10, #Hrs11, #Hrs12, #Hrs13, #Hrs14, #Hrs15, #Hrs16, #Hrs17, #Hrs18, #Hrs19, #Hrq0, #Hrq1, #Hrq2, #Hrq3, #Hrq4, #Hrq5, #Hrq6, #Hrq7, #Hrq8, #Hrq9, #Hrq10, #Hrq11, #Hrq12, #Hrq13, #Hrq14, #Hrq15, #Hrq16, #Hrq17, #Hrq18, #Hrq19, #Hrr0, #Hrr1, #Hrr2, #Hrr3, #Hrr4, #Hrr5, #Hrr6, #Hrr7, #Hrr8, #Hrr9, #Hrr10, #Hrr11, #Hrr12, #Hrr13, #Hrr14, #Hrr15, #Hrr16, #Hrr17, #Hrr18, #Hrr19, Htp0, Htp1, Htp2, Htp3, Htp4, Hts0, Hts1, Hts2, Hts3, Hts4, Hts5, Hts6, Hts7, Hts8, Hts9, Hts10, Hts11, Hts12, Hts13, Hts14, Hts15, Hts16, Hts17, Hts18, Hts19, Htq0, Htq1, Htq2, Htq3, Htq4, Htq5, Htq6, Htq7, Htq8, Htq9, Htq10, Htq11, Htq12, Htq13, Htq14, Htq15, Htq16, Htq17, Htq18, Htq19, Hab, Has0, Has1, Has2, Has3, Has4, Has5, Has6, Has7, Has8, Has9, Has10, Has11, Has12, Has13, Has14, Has15, Has16, Has17, Has18, Has19, Har0, Har1, Har2, Har3, Har4, Har5, Har6, Har7, Har8, Har9, Har10, Har11, Har12, Har13, Har14, Har15, Har16, Har17, Har18, Har19⟩, #Hlev, Hcb, Hcr0, Hcr1, Hcr2, Hcr3, Hcr4, Hcr5, Hcr6, Hcr7, Hcr8, Hcr9, Hcr10, Hcr11, Hcr12, Hcr13, Hcr14, Hcr15, Hcr16, Hcr17, Hcr18, Hcr19, Hgv0, Hgv1, Hgv2, Hgv3, Hgv4, HO, Hx0, Hx1, Hx2, Hx3, Hx4, Hx5, Hacc, Hsn0, Hsn1, Hsn2, Hsn3, Hrest⟩, Hk⟩
  have hmw0 := Waits.mayWait_bar (F := F) c
  have hmw1 := Waits.mayWait_recv_0 (F := F) c
  have hmw2 := Waits.mayWait_send_0 (F := F) c
  have hmw3 := Waits.mayWait_recv_1 (F := F) c
  have hmw4 := Waits.mayWait_send_1 (F := F) c
  have hmw5 := Waits.mayWait_recv_2 (F := F) c
  have hmw6 := Waits.mayWait_send_2 (F := F) c
  have hmw7 := Waits.mayWait_recv_3 (F := F) c
  have hmw8 := Waits.mayWait_send_3 (F := F) c
  have hmw9 := Waits.mayWait_recv_4 (F := F) c
  have hmw10 := Waits.mayWait_send_4 (F := F) c
  have hmw11 := Waits.mayWait_recv_5 (F := F) c
  have hmw12 := Waits.mayWait_send_5 (F := F) c
  have hmw13 := Waits.mayWait_recv_6 (F := F) c
  have hmw14 := Waits.mayWait_send_6 (F := F) c
  have hmw15 := Waits.mayWait_recv_7 (F := F) c
  have hmw16 := Waits.mayWait_send_7 (F := F) c
  have hmw17 := Waits.mayWait_recv_8 (F := F) c
  have hmw18 := Waits.mayWait_send_8 (F := F) c
  have hmw19 := Waits.mayWait_recv_9 (F := F) c
  have hmw20 := Waits.mayWait_send_9 (F := F) c
  have hmw21 := Waits.mayWait_recv_10 (F := F) c
  have hmw22 := Waits.mayWait_send_10 (F := F) c
  have hmw23 := Waits.mayWait_recv_11 (F := F) c
  have hmw24 := Waits.mayWait_send_11 (F := F) c
  have hmw25 := Waits.mayWait_recv_12 (F := F) c
  have hmw26 := Waits.mayWait_send_12 (F := F) c
  have hmw27 := Waits.mayWait_recv_13 (F := F) c
  have hmw28 := Waits.mayWait_send_13 (F := F) c
  sl_unfold [cc0_body]
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq])

  -- the partners' receive slots, handed over with their entry signals
  ihave Hp := (Entails.of_eq (bar_payloads m c)) $$ Hab_pay1
  unfold barPay give
  icases Hp with ⟨⟨⟨⟨%g0, Hq0⟩, -⟩, ⟨⟨%g5, Hq5⟩, -⟩, ⟨⟨%g10, Hq10⟩, -⟩, ⟨⟨%g15, Hq15⟩, -⟩⟩, ⟨⟨⟨%g1, Hq1⟩, -⟩, ⟨⟨%g6, Hq6⟩, -⟩, ⟨⟨%g11, Hq11⟩, -⟩, ⟨⟨%g16, Hq16⟩, -⟩⟩, ⟨⟨⟨%g2, Hq2⟩, -⟩, ⟨⟨%g7, Hq7⟩, -⟩, ⟨⟨%g12, Hq12⟩, -⟩, ⟨⟨%g17, Hq17⟩, -⟩⟩, ⟨⟨⟨%g3, Hq3⟩, -⟩, ⟨⟨%g8, Hq8⟩, -⟩, ⟨⟨%g18, Hq18⟩, -⟩, ⟨⟨%g19, Hq19⟩, -⟩⟩, ⟨⟨⟨%g4, Hq4⟩, -⟩, ⟨⟨%g9, Hq9⟩, -⟩, ⟨⟨%g13, Hq13⟩, -⟩, ⟨⟨%g14, Hq14⟩, -⟩⟩⟩
  -- ── first step of every chunk ────────────────────────────────────────────────────────────────────────────────────
  -- chunk 0 goes to the three plane partners at once: each copy borrows a third of the outgoing slice
  ihave Hs := (Regions.third_split c 0 _).1 $$ Hsn0
  icases Hs with ⟨Hs0a, Hs0b, Hs0c⟩
  iapply (Steps.send_step m c 0 (K (c, .inr (.inl 0))) (K (px 0 c, .inr (.inr 0))) _ g0 _ _ ?hfs0) $$ [Hs0a Hq0 HO Hts0 Htq0]
  rotate_left
  · isplitr; · iexact HIs0
    isplitr; · iexact HIq0
    isplitl [Hs0a]; · iexact Hs0a
    isplitl [Hq0]; · iexact Hq0
    isplitl [HO]; · iexact HO
    isplitl [Hts0]; · iexact Hts0
    isplitr; · iexact Hrs0
    isplitl [Htq0]; · iexact Htq0
    iexact Hrq0
  case hfs0 =>
    unfold sound_body.sl.Hsn0_w1
    unfold sound_body.sl.r_4 sound_body.sl.r_5 sound_body.sl.r_2 sound_body.sl.r_3 sound_body.sl.r sound_body.sl.r_1
    simp only [rd0, rd1, rd2, rd3, rd4, rd0', rd1', rd2', rd3', rd4', Values.pay23_eq, Values.pay28_eq, Values.pay32_eq, Values.pay36_eq, Values.pay37_eq, Values.pay38_eq, Values.pay42_eq, Values.pay47_eq, Values.pay51_eq, Values.pay52_eq, Values.pay53_eq, Values.pay57_eq, Values.pay63_eq, Values.pay64_eq, Values.pay24_eq, Values.pay61_eq, Values.pay65_eq, Values.pay67_eq, Values.pay1_eq, Values.pay10_eq, Values.pay13_eq, Values.pay17_eq, Values.pay20_eq, Values.pay29_eq, Values.pay33_eq, Values.pay39_eq, Values.pay43_eq, Values.pay48_eq, Values.pay54_eq, Values.pay58_eq, Values.pay22_eq, Values.pay27_eq, Values.pay31_eq, Values.pay35_eq, Values.pay41_eq, Values.pay46_eq, Values.pay50_eq, Values.pay56_eq, Values.pay60_eq, Values.pay62_eq, Values.pay66_eq, Values.pay68_eq, Values.pay11_eq, Values.pay14_eq, Values.pay15_eq, Values.pay18_eq, Values.pay21_eq, Values.pay30_eq, Values.pay34_eq, Values.pay40_eq, Values.pay44_eq, Values.pay45_eq, Values.pay49_eq, Values.pay55_eq, Values.pay59_eq, Views.pay25_eq, Views.pay26_eq, Views.sq_unsq, Values.load_wire_0 m c, Values.load_wire_1 m c, Values.load_wire_2 m c, Values.load_wire_3 m c, Values.load_wire_4 m c, Values.load_wire_5 m c, Values.load_wire_6 m c, Values.load_wire_7 m c, Values.load_wire_8 m c, Values.load_wire_9 m c, Values.load_wire_10 m c, Values.load_wire_11 m c, Values.load_wire_12 m c, Values.load_wire_13 m c, Values.load_wire_14 m c, Values.load_wire_15 m c, Values.load_wire_16 m c, Values.load_wire_17 m c, Values.load_wire_18 m c, Values.load_wire_19 m c, base0 m c, base1 m c, base2 m c, base3 m c, st00 m c, st01 m c, st02 m c, st03 m c, st10 m c, st11 m c, st12 m c, st13 m c, st20 m c, st21 m c, st22 m c, st23 m c]
    exact (Views.read_src_store_cast_at _ _ _ _).trans (by rfl)
  iintro ⟨Hcs0, HO⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq])
  iapply (Steps.send_step m c 1 (K (c, .inr (.inl 1))) (K (px 1 c, .inr (.inr 1))) _ g1 _ _ ?hfs1) $$ [Hs0b Hq1 HO Hts1 Htq1]
  rotate_left
  · isplitr; · iexact HIs1
    isplitr; · iexact HIq1
    isplitl [Hs0b]; · iexact Hs0b
    isplitl [Hq1]; · iexact Hq1
    isplitl [HO]; · iexact HO
    isplitl [Hts1]; · iexact Hts1
    isplitr; · iexact Hrs1
    isplitl [Htq1]; · iexact Htq1
    iexact Hrq1
  case hfs1 =>
    unfold sound_body.sl.Hsn0_w1
    unfold sound_body.sl.r_4 sound_body.sl.r_5 sound_body.sl.r_2 sound_body.sl.r_3 sound_body.sl.r sound_body.sl.r_1
    simp only [rd0, rd1, rd2, rd3, rd4, rd0', rd1', rd2', rd3', rd4', Values.pay23_eq, Values.pay28_eq, Values.pay32_eq, Values.pay36_eq, Values.pay37_eq, Values.pay38_eq, Values.pay42_eq, Values.pay47_eq, Values.pay51_eq, Values.pay52_eq, Values.pay53_eq, Values.pay57_eq, Values.pay63_eq, Values.pay64_eq, Values.pay24_eq, Values.pay61_eq, Values.pay65_eq, Values.pay67_eq, Values.pay1_eq, Values.pay10_eq, Values.pay13_eq, Values.pay17_eq, Values.pay20_eq, Values.pay29_eq, Values.pay33_eq, Values.pay39_eq, Values.pay43_eq, Values.pay48_eq, Values.pay54_eq, Values.pay58_eq, Values.pay22_eq, Values.pay27_eq, Values.pay31_eq, Values.pay35_eq, Values.pay41_eq, Values.pay46_eq, Values.pay50_eq, Values.pay56_eq, Values.pay60_eq, Values.pay62_eq, Values.pay66_eq, Values.pay68_eq, Values.pay11_eq, Values.pay14_eq, Values.pay15_eq, Values.pay18_eq, Values.pay21_eq, Values.pay30_eq, Values.pay34_eq, Values.pay40_eq, Values.pay44_eq, Values.pay45_eq, Values.pay49_eq, Values.pay55_eq, Values.pay59_eq, Views.pay25_eq, Views.pay26_eq, Views.sq_unsq, Values.load_wire_0 m c, Values.load_wire_1 m c, Values.load_wire_2 m c, Values.load_wire_3 m c, Values.load_wire_4 m c, Values.load_wire_5 m c, Values.load_wire_6 m c, Values.load_wire_7 m c, Values.load_wire_8 m c, Values.load_wire_9 m c, Values.load_wire_10 m c, Values.load_wire_11 m c, Values.load_wire_12 m c, Values.load_wire_13 m c, Values.load_wire_14 m c, Values.load_wire_15 m c, Values.load_wire_16 m c, Values.load_wire_17 m c, Values.load_wire_18 m c, Values.load_wire_19 m c, base0 m c, base1 m c, base2 m c, base3 m c, st00 m c, st01 m c, st02 m c, st03 m c, st10 m c, st11 m c, st12 m c, st13 m c, st20 m c, st21 m c, st22 m c, st23 m c]
    exact (Views.read_src_store_cast_at _ _ _ _).trans (by rfl)
  iintro ⟨Hcs1, HO⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq])
  iapply (Steps.send_step m c 2 (K (c, .inr (.inl 2))) (K (px 2 c, .inr (.inr 2))) _ g2 _ _ ?hfs2) $$ [Hs0c Hq2 HO Hts2 Htq2]
  rotate_left
  · isplitr; · iexact HIs2
    isplitr; · iexact HIq2
    isplitl [Hs0c]; · iexact Hs0c
    isplitl [Hq2]; · iexact Hq2
    isplitl [HO]; · iexact HO
    isplitl [Hts2]; · iexact Hts2
    isplitr; · iexact Hrs2
    isplitl [Htq2]; · iexact Htq2
    iexact Hrq2
  case hfs2 =>
    unfold sound_body.sl.Hsn0_w1
    unfold sound_body.sl.r_4 sound_body.sl.r_5 sound_body.sl.r_2 sound_body.sl.r_3 sound_body.sl.r sound_body.sl.r_1
    simp only [rd0, rd1, rd2, rd3, rd4, rd0', rd1', rd2', rd3', rd4', Values.pay23_eq, Values.pay28_eq, Values.pay32_eq, Values.pay36_eq, Values.pay37_eq, Values.pay38_eq, Values.pay42_eq, Values.pay47_eq, Values.pay51_eq, Values.pay52_eq, Values.pay53_eq, Values.pay57_eq, Values.pay63_eq, Values.pay64_eq, Values.pay24_eq, Values.pay61_eq, Values.pay65_eq, Values.pay67_eq, Values.pay1_eq, Values.pay10_eq, Values.pay13_eq, Values.pay17_eq, Values.pay20_eq, Values.pay29_eq, Values.pay33_eq, Values.pay39_eq, Values.pay43_eq, Values.pay48_eq, Values.pay54_eq, Values.pay58_eq, Values.pay22_eq, Values.pay27_eq, Values.pay31_eq, Values.pay35_eq, Values.pay41_eq, Values.pay46_eq, Values.pay50_eq, Values.pay56_eq, Values.pay60_eq, Values.pay62_eq, Values.pay66_eq, Values.pay68_eq, Values.pay11_eq, Values.pay14_eq, Values.pay15_eq, Values.pay18_eq, Values.pay21_eq, Values.pay30_eq, Values.pay34_eq, Values.pay40_eq, Values.pay44_eq, Values.pay45_eq, Values.pay49_eq, Values.pay55_eq, Values.pay59_eq, Views.pay25_eq, Views.pay26_eq, Views.sq_unsq, Values.load_wire_0 m c, Values.load_wire_1 m c, Values.load_wire_2 m c, Values.load_wire_3 m c, Values.load_wire_4 m c, Values.load_wire_5 m c, Values.load_wire_6 m c, Values.load_wire_7 m c, Values.load_wire_8 m c, Values.load_wire_9 m c, Values.load_wire_10 m c, Values.load_wire_11 m c, Values.load_wire_12 m c, Values.load_wire_13 m c, Values.load_wire_14 m c, Values.load_wire_15 m c, Values.load_wire_16 m c, Values.load_wire_17 m c, Values.load_wire_18 m c, Values.load_wire_19 m c, base0 m c, base1 m c, base2 m c, base3 m c, st00 m c, st01 m c, st02 m c, st03 m c, st10 m c, st11 m c, st12 m c, st13 m c, st20 m c, st21 m c, st22 m c, st23 m c]
    exact (Views.read_src_store_cast_at _ _ _ _).trans (by rfl)
  iintro ⟨Hcs2, HO⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq])
  -- chunk 1: one partner across planes, the whole slice lent
  iapply (Steps.send_step m c 3 (K (c, .inr (.inl 3))) (K (px 3 c, .inr (.inr 3))) _ g3 _ _ ?hfs3) $$ [Hsn1 Hq3 HO Hts3 Htq3]
  rotate_left
  · isplitr; · iexact HIs3
    isplitr; · iexact HIq3
    isplitl [Hsn1]; · iexact Hsn1
    isplitl [Hq3]; · iexact Hq3
    isplitl [HO]; · iexact HO
    isplitl [Hts3]; · iexact Hts3
    isplitr; · iexact Hrs3
    isplitl [Htq3]; · iexact Htq3
    iexact Hrq3
  case hfs3 =>
    unfold sound_body.sl.Hsn1_w1
    unfold sound_body.sl.r_7 sound_body.sl.r_4 sound_body.sl.r_6 sound_body.sl.r_5 sound_body.sl.r_2 sound_body.sl.r_3 sound_body.sl.r sound_body.sl.r_1
    simp only [rd0, rd1, rd2, rd3, rd4, rd0', rd1', rd2', rd3', rd4', Values.pay23_eq, Values.pay28_eq, Values.pay32_eq, Values.pay36_eq, Values.pay37_eq, Values.pay38_eq, Values.pay42_eq, Values.pay47_eq, Values.pay51_eq, Values.pay52_eq, Values.pay53_eq, Values.pay57_eq, Values.pay63_eq, Values.pay64_eq, Values.pay24_eq, Values.pay61_eq, Values.pay65_eq, Values.pay67_eq, Values.pay1_eq, Values.pay10_eq, Values.pay13_eq, Values.pay17_eq, Values.pay20_eq, Values.pay29_eq, Values.pay33_eq, Values.pay39_eq, Values.pay43_eq, Values.pay48_eq, Values.pay54_eq, Values.pay58_eq, Values.pay22_eq, Values.pay27_eq, Values.pay31_eq, Values.pay35_eq, Values.pay41_eq, Values.pay46_eq, Values.pay50_eq, Values.pay56_eq, Values.pay60_eq, Values.pay62_eq, Values.pay66_eq, Values.pay68_eq, Values.pay11_eq, Values.pay14_eq, Values.pay15_eq, Values.pay18_eq, Values.pay21_eq, Values.pay30_eq, Values.pay34_eq, Values.pay40_eq, Values.pay44_eq, Values.pay45_eq, Values.pay49_eq, Values.pay55_eq, Values.pay59_eq, Views.pay25_eq, Views.pay26_eq, Views.sq_unsq, Values.load_wire_0 m c, Values.load_wire_1 m c, Values.load_wire_2 m c, Values.load_wire_3 m c, Values.load_wire_4 m c, Values.load_wire_5 m c, Values.load_wire_6 m c, Values.load_wire_7 m c, Values.load_wire_8 m c, Values.load_wire_9 m c, Values.load_wire_10 m c, Values.load_wire_11 m c, Values.load_wire_12 m c, Values.load_wire_13 m c, Values.load_wire_14 m c, Values.load_wire_15 m c, Values.load_wire_16 m c, Values.load_wire_17 m c, Values.load_wire_18 m c, Values.load_wire_19 m c, base0 m c, base1 m c, base2 m c, base3 m c, st00 m c, st01 m c, st02 m c, st03 m c, st10 m c, st11 m c, st12 m c, st13 m c, st20 m c, st21 m c, st22 m c, st23 m c]
    exact (Views.read_src_store_cast_at _ _ _ _).trans (by rfl)
  iintro ⟨Hcs3, HO⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq])
  -- chunk 2
  iapply (Steps.send_step m c 4 (K (c, .inr (.inl 4))) (K (px 4 c, .inr (.inr 4))) _ g4 _ _ ?hfs4) $$ [Hsn2 Hq4 HO Hts4 Htq4]
  rotate_left
  · isplitr; · iexact HIs4
    isplitr; · iexact HIq4
    isplitl [Hsn2]; · iexact Hsn2
    isplitl [Hq4]; · iexact Hq4
    isplitl [HO]; · iexact HO
    isplitl [Hts4]; · iexact Hts4
    isplitr; · iexact Hrs4
    isplitl [Htq4]; · iexact Htq4
    iexact Hrq4
  case hfs4 =>
    unfold sound_body.sl.Hsn2_w1
    unfold sound_body.sl.r_4 sound_body.sl.r_6 sound_body.sl.r_5 sound_body.sl.r_2 sound_body.sl.r_3 sound_body.sl.r sound_body.sl.r_1
    simp only [rd0, rd1, rd2, rd3, rd4, rd0', rd1', rd2', rd3', rd4', Values.pay23_eq, Values.pay28_eq, Values.pay32_eq, Values.pay36_eq, Values.pay37_eq, Values.pay38_eq, Values.pay42_eq, Values.pay47_eq, Values.pay51_eq, Values.pay52_eq, Values.pay53_eq, Values.pay57_eq, Values.pay63_eq, Values.pay64_eq, Values.pay24_eq, Values.pay61_eq, Values.pay65_eq, Values.pay67_eq, Values.pay1_eq, Values.pay10_eq, Values.pay13_eq, Values.pay17_eq, Values.pay20_eq, Values.pay29_eq, Values.pay33_eq, Values.pay39_eq, Values.pay43_eq, Values.pay48_eq, Values.pay54_eq, Values.pay58_eq, Values.pay22_eq, Values.pay27_eq, Values.pay31_eq, Values.pay35_eq, Values.pay41_eq, Values.pay46_eq, Values.pay50_eq, Values.pay56_eq, Values.pay60_eq, Values.pay62_eq, Values.pay66_eq, Values.pay68_eq, Values.pay11_eq, Values.pay14_eq, Values.pay15_eq, Values.pay18_eq, Values.pay21_eq, Values.pay30_eq, Values.pay34_eq, Values.pay40_eq, Values.pay44_eq, Values.pay45_eq, Values.pay49_eq, Values.pay55_eq, Values.pay59_eq, Views.pay25_eq, Views.pay26_eq, Views.sq_unsq, Values.load_wire_0 m c, Values.load_wire_1 m c, Values.load_wire_2 m c, Values.load_wire_3 m c, Values.load_wire_4 m c, Values.load_wire_5 m c, Values.load_wire_6 m c, Values.load_wire_7 m c, Values.load_wire_8 m c, Values.load_wire_9 m c, Values.load_wire_10 m c, Values.load_wire_11 m c, Values.load_wire_12 m c, Values.load_wire_13 m c, Values.load_wire_14 m c, Values.load_wire_15 m c, Values.load_wire_16 m c, Values.load_wire_17 m c, Values.load_wire_18 m c, Values.load_wire_19 m c, base0 m c, base1 m c, base2 m c, base3 m c, st00 m c, st01 m c, st02 m c, st03 m c, st10 m c, st11 m c, st12 m c, st13 m c, st20 m c, st21 m c, st22 m c, st23 m c]
    exact (Views.read_src_store_cast_at _ _ _ _).trans (by rfl)
  iintro ⟨Hcs4, HO⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq])
  -- chunk 3: the plane again
  ihave Hs := (Regions.third_split c 3 _).1 $$ Hsn3
  icases Hs with ⟨Hs3a, Hs3b, Hs3c⟩
  iapply (Steps.send_step m c 5 (K (c, .inr (.inl 5))) (K (px 0 c, .inr (.inr 5))) _ g5 _ _ ?hfs5) $$ [Hs3a Hq5 HO Hts5 Htq5]
  rotate_left
  · isplitr; · iexact HIs5
    isplitr; · iexact HIq5
    isplitl [Hs3a]; · iexact Hs3a
    isplitl [Hq5]; · iexact Hq5
    isplitl [HO]; · iexact HO
    isplitl [Hts5]; · iexact Hts5
    isplitr; · iexact Hrs5
    isplitl [Htq5]; · iexact Htq5
    iexact Hrq5
  case hfs5 =>
    unfold sound_body.sl.Hsn3_w1
    unfold sound_body.sl.r_4 sound_body.sl.r_6 sound_body.sl.r_5 sound_body.sl.r_2 sound_body.sl.r_3 sound_body.sl.r sound_body.sl.r_1
    simp only [rd0, rd1, rd2, rd3, rd4, rd0', rd1', rd2', rd3', rd4', Values.pay23_eq, Values.pay28_eq, Values.pay32_eq, Values.pay36_eq, Values.pay37_eq, Values.pay38_eq, Values.pay42_eq, Values.pay47_eq, Values.pay51_eq, Values.pay52_eq, Values.pay53_eq, Values.pay57_eq, Values.pay63_eq, Values.pay64_eq, Values.pay24_eq, Values.pay61_eq, Values.pay65_eq, Values.pay67_eq, Values.pay1_eq, Values.pay10_eq, Values.pay13_eq, Values.pay17_eq, Values.pay20_eq, Values.pay29_eq, Values.pay33_eq, Values.pay39_eq, Values.pay43_eq, Values.pay48_eq, Values.pay54_eq, Values.pay58_eq, Values.pay22_eq, Values.pay27_eq, Values.pay31_eq, Values.pay35_eq, Values.pay41_eq, Values.pay46_eq, Values.pay50_eq, Values.pay56_eq, Values.pay60_eq, Values.pay62_eq, Values.pay66_eq, Values.pay68_eq, Values.pay11_eq, Values.pay14_eq, Values.pay15_eq, Values.pay18_eq, Values.pay21_eq, Values.pay30_eq, Values.pay34_eq, Values.pay40_eq, Values.pay44_eq, Values.pay45_eq, Values.pay49_eq, Values.pay55_eq, Values.pay59_eq, Views.pay25_eq, Views.pay26_eq, Views.sq_unsq, Values.load_wire_0 m c, Values.load_wire_1 m c, Values.load_wire_2 m c, Values.load_wire_3 m c, Values.load_wire_4 m c, Values.load_wire_5 m c, Values.load_wire_6 m c, Values.load_wire_7 m c, Values.load_wire_8 m c, Values.load_wire_9 m c, Values.load_wire_10 m c, Values.load_wire_11 m c, Values.load_wire_12 m c, Values.load_wire_13 m c, Values.load_wire_14 m c, Values.load_wire_15 m c, Values.load_wire_16 m c, Values.load_wire_17 m c, Values.load_wire_18 m c, Values.load_wire_19 m c, base0 m c, base1 m c, base2 m c, base3 m c, st00 m c, st01 m c, st02 m c, st03 m c, st10 m c, st11 m c, st12 m c, st13 m c, st20 m c, st21 m c, st22 m c, st23 m c]
    exact (Views.read_src_store_cast_at _ _ _ _).trans (by rfl)
  iintro ⟨Hcs5, HO⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq])
  iapply (Steps.send_step m c 6 (K (c, .inr (.inl 6))) (K (px 1 c, .inr (.inr 6))) _ g6 _ _ ?hfs6) $$ [Hs3b Hq6 HO Hts6 Htq6]
  rotate_left
  · isplitr; · iexact HIs6
    isplitr; · iexact HIq6
    isplitl [Hs3b]; · iexact Hs3b
    isplitl [Hq6]; · iexact Hq6
    isplitl [HO]; · iexact HO
    isplitl [Hts6]; · iexact Hts6
    isplitr; · iexact Hrs6
    isplitl [Htq6]; · iexact Htq6
    iexact Hrq6
  case hfs6 =>
    unfold sound_body.sl.Hsn3_w1
    unfold sound_body.sl.r_4 sound_body.sl.r_6 sound_body.sl.r_5 sound_body.sl.r_2 sound_body.sl.r_3 sound_body.sl.r sound_body.sl.r_1
    simp only [rd0, rd1, rd2, rd3, rd4, rd0', rd1', rd2', rd3', rd4', Values.pay23_eq, Values.pay28_eq, Values.pay32_eq, Values.pay36_eq, Values.pay37_eq, Values.pay38_eq, Values.pay42_eq, Values.pay47_eq, Values.pay51_eq, Values.pay52_eq, Values.pay53_eq, Values.pay57_eq, Values.pay63_eq, Values.pay64_eq, Values.pay24_eq, Values.pay61_eq, Values.pay65_eq, Values.pay67_eq, Values.pay1_eq, Values.pay10_eq, Values.pay13_eq, Values.pay17_eq, Values.pay20_eq, Values.pay29_eq, Values.pay33_eq, Values.pay39_eq, Values.pay43_eq, Values.pay48_eq, Values.pay54_eq, Values.pay58_eq, Values.pay22_eq, Values.pay27_eq, Values.pay31_eq, Values.pay35_eq, Values.pay41_eq, Values.pay46_eq, Values.pay50_eq, Values.pay56_eq, Values.pay60_eq, Values.pay62_eq, Values.pay66_eq, Values.pay68_eq, Values.pay11_eq, Values.pay14_eq, Values.pay15_eq, Values.pay18_eq, Values.pay21_eq, Values.pay30_eq, Values.pay34_eq, Values.pay40_eq, Values.pay44_eq, Values.pay45_eq, Values.pay49_eq, Values.pay55_eq, Values.pay59_eq, Views.pay25_eq, Views.pay26_eq, Views.sq_unsq, Values.load_wire_0 m c, Values.load_wire_1 m c, Values.load_wire_2 m c, Values.load_wire_3 m c, Values.load_wire_4 m c, Values.load_wire_5 m c, Values.load_wire_6 m c, Values.load_wire_7 m c, Values.load_wire_8 m c, Values.load_wire_9 m c, Values.load_wire_10 m c, Values.load_wire_11 m c, Values.load_wire_12 m c, Values.load_wire_13 m c, Values.load_wire_14 m c, Values.load_wire_15 m c, Values.load_wire_16 m c, Values.load_wire_17 m c, Values.load_wire_18 m c, Values.load_wire_19 m c, base0 m c, base1 m c, base2 m c, base3 m c, st00 m c, st01 m c, st02 m c, st03 m c, st10 m c, st11 m c, st12 m c, st13 m c, st20 m c, st21 m c, st22 m c, st23 m c]
    exact (Views.read_src_store_cast_at _ _ _ _).trans (by rfl)
  iintro ⟨Hcs6, HO⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq])
  iapply (Steps.send_step m c 7 (K (c, .inr (.inl 7))) (K (px 2 c, .inr (.inr 7))) _ g7 _ _ ?hfs7) $$ [Hs3c Hq7 HO Hts7 Htq7]
  rotate_left
  · isplitr; · iexact HIs7
    isplitr; · iexact HIq7
    isplitl [Hs3c]; · iexact Hs3c
    isplitl [Hq7]; · iexact Hq7
    isplitl [HO]; · iexact HO
    isplitl [Hts7]; · iexact Hts7
    isplitr; · iexact Hrs7
    isplitl [Htq7]; · iexact Htq7
    iexact Hrq7
  case hfs7 =>
    unfold sound_body.sl.Hsn3_w1
    unfold sound_body.sl.r_4 sound_body.sl.r_6 sound_body.sl.r_5 sound_body.sl.r_2 sound_body.sl.r_3 sound_body.sl.r sound_body.sl.r_1
    simp only [rd0, rd1, rd2, rd3, rd4, rd0', rd1', rd2', rd3', rd4', Values.pay23_eq, Values.pay28_eq, Values.pay32_eq, Values.pay36_eq, Values.pay37_eq, Values.pay38_eq, Values.pay42_eq, Values.pay47_eq, Values.pay51_eq, Values.pay52_eq, Values.pay53_eq, Values.pay57_eq, Values.pay63_eq, Values.pay64_eq, Values.pay24_eq, Values.pay61_eq, Values.pay65_eq, Values.pay67_eq, Values.pay1_eq, Values.pay10_eq, Values.pay13_eq, Values.pay17_eq, Values.pay20_eq, Values.pay29_eq, Values.pay33_eq, Values.pay39_eq, Values.pay43_eq, Values.pay48_eq, Values.pay54_eq, Values.pay58_eq, Values.pay22_eq, Values.pay27_eq, Values.pay31_eq, Values.pay35_eq, Values.pay41_eq, Values.pay46_eq, Values.pay50_eq, Values.pay56_eq, Values.pay60_eq, Values.pay62_eq, Values.pay66_eq, Values.pay68_eq, Values.pay11_eq, Values.pay14_eq, Values.pay15_eq, Values.pay18_eq, Values.pay21_eq, Values.pay30_eq, Values.pay34_eq, Values.pay40_eq, Values.pay44_eq, Values.pay45_eq, Values.pay49_eq, Values.pay55_eq, Values.pay59_eq, Views.pay25_eq, Views.pay26_eq, Views.sq_unsq, Values.load_wire_0 m c, Values.load_wire_1 m c, Values.load_wire_2 m c, Values.load_wire_3 m c, Values.load_wire_4 m c, Values.load_wire_5 m c, Values.load_wire_6 m c, Values.load_wire_7 m c, Values.load_wire_8 m c, Values.load_wire_9 m c, Values.load_wire_10 m c, Values.load_wire_11 m c, Values.load_wire_12 m c, Values.load_wire_13 m c, Values.load_wire_14 m c, Values.load_wire_15 m c, Values.load_wire_16 m c, Values.load_wire_17 m c, Values.load_wire_18 m c, Values.load_wire_19 m c, base0 m c, base1 m c, base2 m c, base3 m c, st00 m c, st01 m c, st02 m c, st03 m c, st10 m c, st11 m c, st12 m c, st13 m c, st20 m c, st21 m c, st22 m c, st23 m c]
    exact (Views.read_src_store_cast_at _ _ _ _).trans (by rfl)
  iintro ⟨Hcs7, HO⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq])
  -- ── the first step's landings, chunk by chunk; each chunk's second step started as soon as its sum is stored ─────
  -- chunk 0: three landings
  -- the three thirds of the outgoing slice are back: one slice again, to be overwritten
  ihave Hj := (Regions.third_join_ex c 0) $$ [Has0_pay1 Has1_pay1 Has2_pay1]
  · isplitl [Has0_pay1]; · iexists _; iexact Has0_pay1
    isplitl [Has1_pay1]; · iexists _; iexact Has1_pay1
    iexists _; iexact Has2_pay1
  icases Hj with ⟨%sj0, Hsn0⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq])
  iapply (Steps.send_step m c 8 (K (c, .inr (.inl 8))) (K (px 3 c, .inr (.inr 8))) _ g8 _ _ ?hfs8) $$ [Hsn0 Hq8 HO Hts8 Htq8]
  rotate_left
  · isplitr; · iexact HIs8
    isplitr; · iexact HIq8
    isplitl [Hsn0]; · iexact Hsn0
    isplitl [Hq8]; · iexact Hq8
    isplitl [HO]; · iexact HO
    isplitl [Hts8]; · iexact Hts8
    isplitr; · iexact Hrs8
    isplitl [Htq8]; · iexact Htq8
    iexact Hrq8
  case hfs8 =>
    unfold sound_body.sl.Hsn0_w1_1
    unfold sound_body.sl.r_10 sound_body.sl.r_8 sound_body.sl.r_9 sound_body.sl.v242 sound_body.sl.v241
    simp (disch := decide) only [Acc.acc_hit, Acc.acc_skip, acc_hit', acc_skip']
    unfold sound_body.sl.r_4 sound_body.sl.r_5 sound_body.sl.r_2 sound_body.sl.r_3 sound_body.sl.r sound_body.sl.r_1
    simp only [rd0, rd1, rd2, rd3, rd4, rd0', rd1', rd2', rd3', rd4', Values.pay23_eq, Values.pay28_eq, Values.pay32_eq, Values.pay36_eq, Values.pay37_eq, Values.pay38_eq, Values.pay42_eq, Values.pay47_eq, Values.pay51_eq, Values.pay52_eq, Values.pay53_eq, Values.pay57_eq, Values.pay63_eq, Values.pay64_eq, Values.pay24_eq, Values.pay61_eq, Values.pay65_eq, Values.pay67_eq, Values.pay1_eq, Values.pay10_eq, Values.pay13_eq, Values.pay17_eq, Values.pay20_eq, Values.pay29_eq, Values.pay33_eq, Values.pay39_eq, Values.pay43_eq, Values.pay48_eq, Values.pay54_eq, Values.pay58_eq, Values.pay22_eq, Values.pay27_eq, Values.pay31_eq, Values.pay35_eq, Values.pay41_eq, Values.pay46_eq, Values.pay50_eq, Values.pay56_eq, Values.pay60_eq, Values.pay62_eq, Values.pay66_eq, Values.pay68_eq, Values.pay11_eq, Values.pay14_eq, Values.pay15_eq, Values.pay18_eq, Values.pay21_eq, Values.pay30_eq, Values.pay34_eq, Values.pay40_eq, Values.pay44_eq, Values.pay45_eq, Values.pay49_eq, Values.pay55_eq, Values.pay59_eq, Views.pay25_eq, Views.pay26_eq, Views.sq_unsq, Values.load_wire_0 m c, Values.load_wire_1 m c, Values.load_wire_2 m c, Values.load_wire_3 m c, Values.load_wire_4 m c, Values.load_wire_5 m c, Values.load_wire_6 m c, Values.load_wire_7 m c, Values.load_wire_8 m c, Values.load_wire_9 m c, Values.load_wire_10 m c, Values.load_wire_11 m c, Values.load_wire_12 m c, Values.load_wire_13 m c, Values.load_wire_14 m c, Values.load_wire_15 m c, Values.load_wire_16 m c, Values.load_wire_17 m c, Values.load_wire_18 m c, Values.load_wire_19 m c, base0 m c, base1 m c, base2 m c, base3 m c, st00 m c, st01 m c, st02 m c, st03 m c, st10 m c, st11 m c, st12 m c, st13 m c, st20 m c, st21 m c, st22 m c, st23 m c]
    exact (Views.read_src_store_cast_at _ _ _ _).trans (by rfl)
  iintro ⟨Hcs8, HO⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq])
  -- chunk 1: one landing
  iapply (Steps.send_step m c 9 (K (c, .inr (.inl 9))) (K (px 4 c, .inr (.inr 9))) _ g9 _ _ ?hfs9) $$ [Has3_pay1 Hq9 HO Hts9 Htq9]
  rotate_left
  · isplitr; · iexact HIs9
    isplitr; · iexact HIq9
    isplitl [Has3_pay1]; · iexact Has3_pay1
    isplitl [Hq9]; · iexact Hq9
    isplitl [HO]; · iexact HO
    isplitl [Hts9]; · iexact Hts9
    isplitr; · iexact Hrs9
    isplitl [Htq9]; · iexact Htq9
    iexact Hrq9
  case hfs9 =>
    unfold sound_body.sl.Has3_pay1_w1
    unfold sound_body.sl.r_11 sound_body.sl.v315
    simp (disch := decide) only [Acc.acc_hit, Acc.acc_skip, acc_hit', acc_skip']
    unfold sound_body.sl.r_4 sound_body.sl.r_6 sound_body.sl.r_5 sound_body.sl.r_2 sound_body.sl.r_3 sound_body.sl.r sound_body.sl.r_1
    simp only [rd0, rd1, rd2, rd3, rd4, rd0', rd1', rd2', rd3', rd4', Values.pay23_eq, Values.pay28_eq, Values.pay32_eq, Values.pay36_eq, Values.pay37_eq, Values.pay38_eq, Values.pay42_eq, Values.pay47_eq, Values.pay51_eq, Values.pay52_eq, Values.pay53_eq, Values.pay57_eq, Values.pay63_eq, Values.pay64_eq, Values.pay24_eq, Values.pay61_eq, Values.pay65_eq, Values.pay67_eq, Values.pay1_eq, Values.pay10_eq, Values.pay13_eq, Values.pay17_eq, Values.pay20_eq, Values.pay29_eq, Values.pay33_eq, Values.pay39_eq, Values.pay43_eq, Values.pay48_eq, Values.pay54_eq, Values.pay58_eq, Values.pay22_eq, Values.pay27_eq, Values.pay31_eq, Values.pay35_eq, Values.pay41_eq, Values.pay46_eq, Values.pay50_eq, Values.pay56_eq, Values.pay60_eq, Values.pay62_eq, Values.pay66_eq, Values.pay68_eq, Values.pay11_eq, Values.pay14_eq, Values.pay15_eq, Values.pay18_eq, Values.pay21_eq, Values.pay30_eq, Values.pay34_eq, Values.pay40_eq, Values.pay44_eq, Values.pay45_eq, Values.pay49_eq, Values.pay55_eq, Values.pay59_eq, Views.pay25_eq, Views.pay26_eq, Views.sq_unsq, Values.load_wire_0 m c, Values.load_wire_1 m c, Values.load_wire_2 m c, Values.load_wire_3 m c, Values.load_wire_4 m c, Values.load_wire_5 m c, Values.load_wire_6 m c, Values.load_wire_7 m c, Values.load_wire_8 m c, Values.load_wire_9 m c, Values.load_wire_10 m c, Values.load_wire_11 m c, Values.load_wire_12 m c, Values.load_wire_13 m c, Values.load_wire_14 m c, Values.load_wire_15 m c, Values.load_wire_16 m c, Values.load_wire_17 m c, Values.load_wire_18 m c, Values.load_wire_19 m c, base0 m c, base1 m c, base2 m c, base3 m c, st00 m c, st01 m c, st02 m c, st03 m c, st10 m c, st11 m c, st12 m c, st13 m c, st20 m c, st21 m c, st22 m c, st23 m c]
    exact (Views.read_src_store_cast_at _ _ _ _).trans (by rfl)
  iintro ⟨Hcs9, HO⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq])
  -- chunk 2: one landing, then the plane step
  ihave Hs := (Regions.third_split c 2 _).1 $$ Has4_pay1
  icases Hs with ⟨Hs2a, Hs2b, Hs2c⟩
  iapply (Steps.send_step m c 10 (K (c, .inr (.inl 10))) (K (px 0 c, .inr (.inr 10))) _ g10 _ _ ?hfs10) $$ [Hs2a Hq10 HO Hts10 Htq10]
  rotate_left
  · isplitr; · iexact HIs10
    isplitr; · iexact HIq10
    isplitl [Hs2a]; · iexact Hs2a
    isplitl [Hq10]; · iexact Hq10
    isplitl [HO]; · iexact HO
    isplitl [Hts10]; · iexact Hts10
    isplitr; · iexact Hrs10
    isplitl [Htq10]; · iexact Htq10
    iexact Hrq10
  case hfs10 =>
    unfold sound_body.sl.Has4_pay1_w1
    unfold sound_body.sl.v354 sound_body.sl.v353
    simp (disch := decide) only [Acc.acc_hit, Acc.acc_skip, acc_hit', acc_skip']
    unfold sound_body.sl.r_4 sound_body.sl.r_6 sound_body.sl.r_5 sound_body.sl.r_2 sound_body.sl.r_3 sound_body.sl.r sound_body.sl.r_1
    simp only [rd0, rd1, rd2, rd3, rd4, rd0', rd1', rd2', rd3', rd4', Values.pay23_eq, Values.pay28_eq, Values.pay32_eq, Values.pay36_eq, Values.pay37_eq, Values.pay38_eq, Values.pay42_eq, Values.pay47_eq, Values.pay51_eq, Values.pay52_eq, Values.pay53_eq, Values.pay57_eq, Values.pay63_eq, Values.pay64_eq, Values.pay24_eq, Values.pay61_eq, Values.pay65_eq, Values.pay67_eq, Values.pay1_eq, Values.pay10_eq, Values.pay13_eq, Values.pay17_eq, Values.pay20_eq, Values.pay29_eq, Values.pay33_eq, Values.pay39_eq, Values.pay43_eq, Values.pay48_eq, Values.pay54_eq, Values.pay58_eq, Values.pay22_eq, Values.pay27_eq, Values.pay31_eq, Values.pay35_eq, Values.pay41_eq, Values.pay46_eq, Values.pay50_eq, Values.pay56_eq, Values.pay60_eq, Values.pay62_eq, Values.pay66_eq, Values.pay68_eq, Values.pay11_eq, Values.pay14_eq, Values.pay15_eq, Values.pay18_eq, Values.pay21_eq, Values.pay30_eq, Values.pay34_eq, Values.pay40_eq, Values.pay44_eq, Values.pay45_eq, Values.pay49_eq, Values.pay55_eq, Values.pay59_eq, Views.pay25_eq, Views.pay26_eq, Views.sq_unsq, Values.load_wire_0 m c, Values.load_wire_1 m c, Values.load_wire_2 m c, Values.load_wire_3 m c, Values.load_wire_4 m c, Values.load_wire_5 m c, Values.load_wire_6 m c, Values.load_wire_7 m c, Values.load_wire_8 m c, Values.load_wire_9 m c, Values.load_wire_10 m c, Values.load_wire_11 m c, Values.load_wire_12 m c, Values.load_wire_13 m c, Values.load_wire_14 m c, Values.load_wire_15 m c, Values.load_wire_16 m c, Values.load_wire_17 m c, Values.load_wire_18 m c, Values.load_wire_19 m c, base0 m c, base1 m c, base2 m c, base3 m c, st00 m c, st01 m c, st02 m c, st03 m c, st10 m c, st11 m c, st12 m c, st13 m c, st20 m c, st21 m c, st22 m c, st23 m c]
    exact (Views.read_src_store_cast_at _ _ _ _).trans (by rfl)
  iintro ⟨Hcs10, HO⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq])
  iapply (Steps.send_step m c 11 (K (c, .inr (.inl 11))) (K (px 1 c, .inr (.inr 11))) _ g11 _ _ ?hfs11) $$ [Hs2b Hq11 HO Hts11 Htq11]
  rotate_left
  · isplitr; · iexact HIs11
    isplitr; · iexact HIq11
    isplitl [Hs2b]; · iexact Hs2b
    isplitl [Hq11]; · iexact Hq11
    isplitl [HO]; · iexact HO
    isplitl [Hts11]; · iexact Hts11
    isplitr; · iexact Hrs11
    isplitl [Htq11]; · iexact Htq11
    iexact Hrq11
  case hfs11 =>
    unfold sound_body.sl.Has4_pay1_w1
    unfold sound_body.sl.v354 sound_body.sl.v353
    simp (disch := decide) only [Acc.acc_hit, Acc.acc_skip, acc_hit', acc_skip']
    unfold sound_body.sl.r_4 sound_body.sl.r_6 sound_body.sl.r_5 sound_body.sl.r_2 sound_body.sl.r_3 sound_body.sl.r sound_body.sl.r_1
    simp only [rd0, rd1, rd2, rd3, rd4, rd0', rd1', rd2', rd3', rd4', Values.pay23_eq, Values.pay28_eq, Values.pay32_eq, Values.pay36_eq, Values.pay37_eq, Values.pay38_eq, Values.pay42_eq, Values.pay47_eq, Values.pay51_eq, Values.pay52_eq, Values.pay53_eq, Values.pay57_eq, Values.pay63_eq, Values.pay64_eq, Values.pay24_eq, Values.pay61_eq, Values.pay65_eq, Values.pay67_eq, Values.pay1_eq, Values.pay10_eq, Values.pay13_eq, Values.pay17_eq, Values.pay20_eq, Values.pay29_eq, Values.pay33_eq, Values.pay39_eq, Values.pay43_eq, Values.pay48_eq, Values.pay54_eq, Values.pay58_eq, Values.pay22_eq, Values.pay27_eq, Values.pay31_eq, Values.pay35_eq, Values.pay41_eq, Values.pay46_eq, Values.pay50_eq, Values.pay56_eq, Values.pay60_eq, Values.pay62_eq, Values.pay66_eq, Values.pay68_eq, Values.pay11_eq, Values.pay14_eq, Values.pay15_eq, Values.pay18_eq, Values.pay21_eq, Values.pay30_eq, Values.pay34_eq, Values.pay40_eq, Values.pay44_eq, Values.pay45_eq, Values.pay49_eq, Values.pay55_eq, Values.pay59_eq, Views.pay25_eq, Views.pay26_eq, Views.sq_unsq, Values.load_wire_0 m c, Values.load_wire_1 m c, Values.load_wire_2 m c, Values.load_wire_3 m c, Values.load_wire_4 m c, Values.load_wire_5 m c, Values.load_wire_6 m c, Values.load_wire_7 m c, Values.load_wire_8 m c, Values.load_wire_9 m c, Values.load_wire_10 m c, Values.load_wire_11 m c, Values.load_wire_12 m c, Values.load_wire_13 m c, Values.load_wire_14 m c, Values.load_wire_15 m c, Values.load_wire_16 m c, Values.load_wire_17 m c, Values.load_wire_18 m c, Values.load_wire_19 m c, base0 m c, base1 m c, base2 m c, base3 m c, st00 m c, st01 m c, st02 m c, st03 m c, st10 m c, st11 m c, st12 m c, st13 m c, st20 m c, st21 m c, st22 m c, st23 m c]
    exact (Views.read_src_store_cast_at _ _ _ _).trans (by rfl)
  iintro ⟨Hcs11, HO⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq])
  iapply (Steps.send_step m c 12 (K (c, .inr (.inl 12))) (K (px 2 c, .inr (.inr 12))) _ g12 _ _ ?hfs12) $$ [Hs2c Hq12 HO Hts12 Htq12]
  rotate_left
  · isplitr; · iexact HIs12
    isplitr; · iexact HIq12
    isplitl [Hs2c]; · iexact Hs2c
    isplitl [Hq12]; · iexact Hq12
    isplitl [HO]; · iexact HO
    isplitl [Hts12]; · iexact Hts12
    isplitr; · iexact Hrs12
    isplitl [Htq12]; · iexact Htq12
    iexact Hrq12
  case hfs12 =>
    unfold sound_body.sl.Has4_pay1_w1
    unfold sound_body.sl.v354 sound_body.sl.v353
    simp (disch := decide) only [Acc.acc_hit, Acc.acc_skip, acc_hit', acc_skip']
    unfold sound_body.sl.r_4 sound_body.sl.r_6 sound_body.sl.r_5 sound_body.sl.r_2 sound_body.sl.r_3 sound_body.sl.r sound_body.sl.r_1
    simp only [rd0, rd1, rd2, rd3, rd4, rd0', rd1', rd2', rd3', rd4', Values.pay23_eq, Values.pay28_eq, Values.pay32_eq, Values.pay36_eq, Values.pay37_eq, Values.pay38_eq, Values.pay42_eq, Values.pay47_eq, Values.pay51_eq, Values.pay52_eq, Values.pay53_eq, Values.pay57_eq, Values.pay63_eq, Values.pay64_eq, Values.pay24_eq, Values.pay61_eq, Values.pay65_eq, Values.pay67_eq, Values.pay1_eq, Values.pay10_eq, Values.pay13_eq, Values.pay17_eq, Values.pay20_eq, Values.pay29_eq, Values.pay33_eq, Values.pay39_eq, Values.pay43_eq, Values.pay48_eq, Values.pay54_eq, Values.pay58_eq, Values.pay22_eq, Values.pay27_eq, Values.pay31_eq, Values.pay35_eq, Values.pay41_eq, Values.pay46_eq, Values.pay50_eq, Values.pay56_eq, Values.pay60_eq, Values.pay62_eq, Values.pay66_eq, Values.pay68_eq, Values.pay11_eq, Values.pay14_eq, Values.pay15_eq, Values.pay18_eq, Values.pay21_eq, Values.pay30_eq, Values.pay34_eq, Values.pay40_eq, Values.pay44_eq, Values.pay45_eq, Values.pay49_eq, Values.pay55_eq, Values.pay59_eq, Views.pay25_eq, Views.pay26_eq, Views.sq_unsq, Values.load_wire_0 m c, Values.load_wire_1 m c, Values.load_wire_2 m c, Values.load_wire_3 m c, Values.load_wire_4 m c, Values.load_wire_5 m c, Values.load_wire_6 m c, Values.load_wire_7 m c, Values.load_wire_8 m c, Values.load_wire_9 m c, Values.load_wire_10 m c, Values.load_wire_11 m c, Values.load_wire_12 m c, Values.load_wire_13 m c, Values.load_wire_14 m c, Values.load_wire_15 m c, Values.load_wire_16 m c, Values.load_wire_17 m c, Values.load_wire_18 m c, Values.load_wire_19 m c, base0 m c, base1 m c, base2 m c, base3 m c, st00 m c, st01 m c, st02 m c, st03 m c, st10 m c, st11 m c, st12 m c, st13 m c, st20 m c, st21 m c, st22 m c, st23 m c]
    exact (Views.read_src_store_cast_at _ _ _ _).trans (by rfl)
  iintro ⟨Hcs12, HO⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq])
  -- chunk 3: three landings
  ihave Hj := (Regions.third_join_ex c 3) $$ [Has5_pay1 Has6_pay1 Has7_pay1]
  · isplitl [Has5_pay1]; · iexists _; iexact Has5_pay1
    isplitl [Has6_pay1]; · iexists _; iexact Has6_pay1
    iexists _; iexact Has7_pay1
  icases Hj with ⟨%sj3, Hsn3⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq])
  iapply (Steps.send_step m c 13 (K (c, .inr (.inl 13))) (K (px 4 c, .inr (.inr 13))) _ g13 _ _ ?hfs13) $$ [Hsn3 Hq13 HO Hts13 Htq13]
  rotate_left
  · isplitr; · iexact HIs13
    isplitr; · iexact HIq13
    isplitl [Hsn3]; · iexact Hsn3
    isplitl [Hq13]; · iexact Hq13
    isplitl [HO]; · iexact HO
    isplitl [Hts13]; · iexact Hts13
    isplitr; · iexact Hrs13
    isplitl [Htq13]; · iexact Htq13
    iexact Hrq13
  case hfs13 =>
    unfold sound_body.sl.Hsn3_w1_1
    unfold sound_body.sl.r_13 sound_body.sl.r_12 sound_body.sl.v414 sound_body.sl.v413
    simp (disch := decide) only [Acc.acc_hit, Acc.acc_skip, acc_hit', acc_skip']
    unfold sound_body.sl.r_4 sound_body.sl.r_6 sound_body.sl.r_5 sound_body.sl.r_2 sound_body.sl.r_3 sound_body.sl.r sound_body.sl.r_1
    simp only [rd0, rd1, rd2, rd3, rd4, rd0', rd1', rd2', rd3', rd4', Values.pay23_eq, Values.pay28_eq, Values.pay32_eq, Values.pay36_eq, Values.pay37_eq, Values.pay38_eq, Values.pay42_eq, Values.pay47_eq, Values.pay51_eq, Values.pay52_eq, Values.pay53_eq, Values.pay57_eq, Values.pay63_eq, Values.pay64_eq, Values.pay24_eq, Values.pay61_eq, Values.pay65_eq, Values.pay67_eq, Values.pay1_eq, Values.pay10_eq, Values.pay13_eq, Values.pay17_eq, Values.pay20_eq, Values.pay29_eq, Values.pay33_eq, Values.pay39_eq, Values.pay43_eq, Values.pay48_eq, Values.pay54_eq, Values.pay58_eq, Values.pay22_eq, Values.pay27_eq, Values.pay31_eq, Values.pay35_eq, Values.pay41_eq, Values.pay46_eq, Values.pay50_eq, Values.pay56_eq, Values.pay60_eq, Values.pay62_eq, Values.pay66_eq, Values.pay68_eq, Values.pay11_eq, Values.pay14_eq, Values.pay15_eq, Values.pay18_eq, Values.pay21_eq, Values.pay30_eq, Values.pay34_eq, Values.pay40_eq, Values.pay44_eq, Values.pay45_eq, Values.pay49_eq, Values.pay55_eq, Values.pay59_eq, Views.pay25_eq, Views.pay26_eq, Views.sq_unsq, Values.load_wire_0 m c, Values.load_wire_1 m c, Values.load_wire_2 m c, Values.load_wire_3 m c, Values.load_wire_4 m c, Values.load_wire_5 m c, Values.load_wire_6 m c, Values.load_wire_7 m c, Values.load_wire_8 m c, Values.load_wire_9 m c, Values.load_wire_10 m c, Values.load_wire_11 m c, Values.load_wire_12 m c, Values.load_wire_13 m c, Values.load_wire_14 m c, Values.load_wire_15 m c, Values.load_wire_16 m c, Values.load_wire_17 m c, Values.load_wire_18 m c, Values.load_wire_19 m c, base0 m c, base1 m c, base2 m c, base3 m c, st00 m c, st01 m c, st02 m c, st03 m c, st10 m c, st11 m c, st12 m c, st13 m c, st20 m c, st21 m c, st22 m c, st23 m c]
    exact (Views.read_src_store_cast_at _ _ _ _).trans (by rfl)
  iintro ⟨Hcs13, HO⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq])
  -- ── the second step's landings ────────────────────────────────────────────────────────────────────────────────────
  -- chunk 0
  iapply (Steps.send_step m c 14 (K (c, .inr (.inl 14))) (K (px 4 c, .inr (.inr 14))) _ g14 _ _ ?hfs14) $$ [Has8_pay1 Hq14 HO Hts14 Htq14]
  rotate_left
  · isplitr; · iexact HIs14
    isplitr; · iexact HIq14
    isplitl [Has8_pay1]; · iexact Has8_pay1
    isplitl [Hq14]; · iexact Hq14
    isplitl [HO]; · iexact HO
    isplitl [Hts14]; · iexact Hts14
    isplitr; · iexact Hrs14
    isplitl [Htq14]; · iexact Htq14
    iexact Hrq14
  case hfs14 =>
    unfold sound_body.sl.Has8_pay1_w1
    unfold sound_body.sl.v513 sound_body.sl.r_15 sound_body.sl.r_14 sound_body.sl.v487
    simp (disch := decide) only [Acc.acc_hit, Acc.acc_skip, acc_hit', acc_skip']
    unfold sound_body.sl.r_10 sound_body.sl.r_8 sound_body.sl.r_9 sound_body.sl.v242 sound_body.sl.v241
    simp (disch := decide) only [Acc.acc_hit, Acc.acc_skip, acc_hit', acc_skip']
    unfold sound_body.sl.r_4 sound_body.sl.r_5 sound_body.sl.r_2 sound_body.sl.r_3 sound_body.sl.r sound_body.sl.r_1
    simp only [rd0, rd1, rd2, rd3, rd4, rd0', rd1', rd2', rd3', rd4', Values.pay23_eq, Values.pay28_eq, Values.pay32_eq, Values.pay36_eq, Values.pay37_eq, Values.pay38_eq, Values.pay42_eq, Values.pay47_eq, Values.pay51_eq, Values.pay52_eq, Values.pay53_eq, Values.pay57_eq, Values.pay63_eq, Values.pay64_eq, Values.pay24_eq, Values.pay61_eq, Values.pay65_eq, Values.pay67_eq, Values.pay1_eq, Values.pay10_eq, Values.pay13_eq, Values.pay17_eq, Values.pay20_eq, Values.pay29_eq, Values.pay33_eq, Values.pay39_eq, Values.pay43_eq, Values.pay48_eq, Values.pay54_eq, Values.pay58_eq, Values.pay22_eq, Values.pay27_eq, Values.pay31_eq, Values.pay35_eq, Values.pay41_eq, Values.pay46_eq, Values.pay50_eq, Values.pay56_eq, Values.pay60_eq, Values.pay62_eq, Values.pay66_eq, Values.pay68_eq, Values.pay11_eq, Values.pay14_eq, Values.pay15_eq, Values.pay18_eq, Values.pay21_eq, Values.pay30_eq, Values.pay34_eq, Values.pay40_eq, Values.pay44_eq, Values.pay45_eq, Values.pay49_eq, Values.pay55_eq, Values.pay59_eq, Views.pay25_eq, Views.pay26_eq, Views.sq_unsq, Values.load_wire_0 m c, Values.load_wire_1 m c, Values.load_wire_2 m c, Values.load_wire_3 m c, Values.load_wire_4 m c, Values.load_wire_5 m c, Values.load_wire_6 m c, Values.load_wire_7 m c, Values.load_wire_8 m c, Values.load_wire_9 m c, Values.load_wire_10 m c, Values.load_wire_11 m c, Values.load_wire_12 m c, Values.load_wire_13 m c, Values.load_wire_14 m c, Values.load_wire_15 m c, Values.load_wire_16 m c, Values.load_wire_17 m c, Values.load_wire_18 m c, Values.load_wire_19 m c, base0 m c, base1 m c, base2 m c, base3 m c, st00 m c, st01 m c, st02 m c, st03 m c, st10 m c, st11 m c, st12 m c, st13 m c, st20 m c, st21 m c, st22 m c, st23 m c]
    exact (Views.read_src_store_cast_at _ _ _ _).trans (by rfl)
  iintro ⟨Hcs14, HO⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq])
  -- chunk 1: one landing, then the plane step
  ihave Hs := (Regions.third_split c 1 _).1 $$ Has9_pay1
  icases Hs with ⟨Hs1a, Hs1b, Hs1c⟩
  iapply (Steps.send_step m c 15 (K (c, .inr (.inl 15))) (K (px 0 c, .inr (.inr 15))) _ g15 _ _ ?hfs15) $$ [Hs1a Hq15 HO Hts15 Htq15]
  rotate_left
  · isplitr; · iexact HIs15
    isplitr; · iexact HIq15
    isplitl [Hs1a]; · iexact Hs1a
    isplitl [Hq15]; · iexact Hq15
    isplitl [HO]; · iexact HO
    isplitl [Hts15]; · iexact Hts15
    isplitr; · iexact Hrs15
    isplitl [Htq15]; · iexact Htq15
    iexact Hrq15
  case hfs15 =>
    unfold sound_body.sl.Has9_pay1_w1
    unfold sound_body.sl.v526 sound_body.sl.v525
    simp (disch := decide) only [Acc.acc_hit, Acc.acc_skip, acc_hit', acc_skip']
    unfold sound_body.sl.r_11 sound_body.sl.v315
    simp (disch := decide) only [Acc.acc_hit, Acc.acc_skip, acc_hit', acc_skip']
    unfold sound_body.sl.r_4 sound_body.sl.r_6 sound_body.sl.r_5 sound_body.sl.r_2 sound_body.sl.r_3 sound_body.sl.r sound_body.sl.r_1
    simp only [rd0, rd1, rd2, rd3, rd4, rd0', rd1', rd2', rd3', rd4', Values.pay23_eq, Values.pay28_eq, Values.pay32_eq, Values.pay36_eq, Values.pay37_eq, Values.pay38_eq, Values.pay42_eq, Values.pay47_eq, Values.pay51_eq, Values.pay52_eq, Values.pay53_eq, Values.pay57_eq, Values.pay63_eq, Values.pay64_eq, Values.pay24_eq, Values.pay61_eq, Values.pay65_eq, Values.pay67_eq, Values.pay1_eq, Values.pay10_eq, Values.pay13_eq, Values.pay17_eq, Values.pay20_eq, Values.pay29_eq, Values.pay33_eq, Values.pay39_eq, Values.pay43_eq, Values.pay48_eq, Values.pay54_eq, Values.pay58_eq, Values.pay22_eq, Values.pay27_eq, Values.pay31_eq, Values.pay35_eq, Values.pay41_eq, Values.pay46_eq, Values.pay50_eq, Values.pay56_eq, Values.pay60_eq, Values.pay62_eq, Values.pay66_eq, Values.pay68_eq, Values.pay11_eq, Values.pay14_eq, Values.pay15_eq, Values.pay18_eq, Values.pay21_eq, Values.pay30_eq, Values.pay34_eq, Values.pay40_eq, Values.pay44_eq, Values.pay45_eq, Values.pay49_eq, Values.pay55_eq, Values.pay59_eq, Views.pay25_eq, Views.pay26_eq, Views.sq_unsq, Values.load_wire_0 m c, Values.load_wire_1 m c, Values.load_wire_2 m c, Values.load_wire_3 m c, Values.load_wire_4 m c, Values.load_wire_5 m c, Values.load_wire_6 m c, Values.load_wire_7 m c, Values.load_wire_8 m c, Values.load_wire_9 m c, Values.load_wire_10 m c, Values.load_wire_11 m c, Values.load_wire_12 m c, Values.load_wire_13 m c, Values.load_wire_14 m c, Values.load_wire_15 m c, Values.load_wire_16 m c, Values.load_wire_17 m c, Values.load_wire_18 m c, Values.load_wire_19 m c, base0 m c, base1 m c, base2 m c, base3 m c, st00 m c, st01 m c, st02 m c, st03 m c, st10 m c, st11 m c, st12 m c, st13 m c, st20 m c, st21 m c, st22 m c, st23 m c]
    exact (Views.read_src_store_cast_at _ _ _ _).trans (by rfl)
  iintro ⟨Hcs15, HO⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq])
  iapply (Steps.send_step m c 16 (K (c, .inr (.inl 16))) (K (px 1 c, .inr (.inr 16))) _ g16 _ _ ?hfs16) $$ [Hs1b Hq16 HO Hts16 Htq16]
  rotate_left
  · isplitr; · iexact HIs16
    isplitr; · iexact HIq16
    isplitl [Hs1b]; · iexact Hs1b
    isplitl [Hq16]; · iexact Hq16
    isplitl [HO]; · iexact HO
    isplitl [Hts16]; · iexact Hts16
    isplitr; · iexact Hrs16
    isplitl [Htq16]; · iexact Htq16
    iexact Hrq16
  case hfs16 =>
    unfold sound_body.sl.Has9_pay1_w1
    unfold sound_body.sl.v526 sound_body.sl.v525
    simp (disch := decide) only [Acc.acc_hit, Acc.acc_skip, acc_hit', acc_skip']
    unfold sound_body.sl.r_11 sound_body.sl.v315
    simp (disch := decide) only [Acc.acc_hit, Acc.acc_skip, acc_hit', acc_skip']
    unfold sound_body.sl.r_4 sound_body.sl.r_6 sound_body.sl.r_5 sound_body.sl.r_2 sound_body.sl.r_3 sound_body.sl.r sound_body.sl.r_1
    simp only [rd0, rd1, rd2, rd3, rd4, rd0', rd1', rd2', rd3', rd4', Values.pay23_eq, Values.pay28_eq, Values.pay32_eq, Values.pay36_eq, Values.pay37_eq, Values.pay38_eq, Values.pay42_eq, Values.pay47_eq, Values.pay51_eq, Values.pay52_eq, Values.pay53_eq, Values.pay57_eq, Values.pay63_eq, Values.pay64_eq, Values.pay24_eq, Values.pay61_eq, Values.pay65_eq, Values.pay67_eq, Values.pay1_eq, Values.pay10_eq, Values.pay13_eq, Values.pay17_eq, Values.pay20_eq, Values.pay29_eq, Values.pay33_eq, Values.pay39_eq, Values.pay43_eq, Values.pay48_eq, Values.pay54_eq, Values.pay58_eq, Values.pay22_eq, Values.pay27_eq, Values.pay31_eq, Values.pay35_eq, Values.pay41_eq, Values.pay46_eq, Values.pay50_eq, Values.pay56_eq, Values.pay60_eq, Values.pay62_eq, Values.pay66_eq, Values.pay68_eq, Values.pay11_eq, Values.pay14_eq, Values.pay15_eq, Values.pay18_eq, Values.pay21_eq, Values.pay30_eq, Values.pay34_eq, Values.pay40_eq, Values.pay44_eq, Values.pay45_eq, Values.pay49_eq, Values.pay55_eq, Values.pay59_eq, Views.pay25_eq, Views.pay26_eq, Views.sq_unsq, Values.load_wire_0 m c, Values.load_wire_1 m c, Values.load_wire_2 m c, Values.load_wire_3 m c, Values.load_wire_4 m c, Values.load_wire_5 m c, Values.load_wire_6 m c, Values.load_wire_7 m c, Values.load_wire_8 m c, Values.load_wire_9 m c, Values.load_wire_10 m c, Values.load_wire_11 m c, Values.load_wire_12 m c, Values.load_wire_13 m c, Values.load_wire_14 m c, Values.load_wire_15 m c, Values.load_wire_16 m c, Values.load_wire_17 m c, Values.load_wire_18 m c, Values.load_wire_19 m c, base0 m c, base1 m c, base2 m c, base3 m c, st00 m c, st01 m c, st02 m c, st03 m c, st10 m c, st11 m c, st12 m c, st13 m c, st20 m c, st21 m c, st22 m c, st23 m c]
    exact (Views.read_src_store_cast_at _ _ _ _).trans (by rfl)
  iintro ⟨Hcs16, HO⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq])
  iapply (Steps.send_step m c 17 (K (c, .inr (.inl 17))) (K (px 2 c, .inr (.inr 17))) _ g17 _ _ ?hfs17) $$ [Hs1c Hq17 HO Hts17 Htq17]
  rotate_left
  · isplitr; · iexact HIs17
    isplitr; · iexact HIq17
    isplitl [Hs1c]; · iexact Hs1c
    isplitl [Hq17]; · iexact Hq17
    isplitl [HO]; · iexact HO
    isplitl [Hts17]; · iexact Hts17
    isplitr; · iexact Hrs17
    isplitl [Htq17]; · iexact Htq17
    iexact Hrq17
  case hfs17 =>
    unfold sound_body.sl.Has9_pay1_w1
    unfold sound_body.sl.v526 sound_body.sl.v525
    simp (disch := decide) only [Acc.acc_hit, Acc.acc_skip, acc_hit', acc_skip']
    unfold sound_body.sl.r_11 sound_body.sl.v315
    simp (disch := decide) only [Acc.acc_hit, Acc.acc_skip, acc_hit', acc_skip']
    unfold sound_body.sl.r_4 sound_body.sl.r_6 sound_body.sl.r_5 sound_body.sl.r_2 sound_body.sl.r_3 sound_body.sl.r sound_body.sl.r_1
    simp only [rd0, rd1, rd2, rd3, rd4, rd0', rd1', rd2', rd3', rd4', Values.pay23_eq, Values.pay28_eq, Values.pay32_eq, Values.pay36_eq, Values.pay37_eq, Values.pay38_eq, Values.pay42_eq, Values.pay47_eq, Values.pay51_eq, Values.pay52_eq, Values.pay53_eq, Values.pay57_eq, Values.pay63_eq, Values.pay64_eq, Values.pay24_eq, Values.pay61_eq, Values.pay65_eq, Values.pay67_eq, Values.pay1_eq, Values.pay10_eq, Values.pay13_eq, Values.pay17_eq, Values.pay20_eq, Values.pay29_eq, Values.pay33_eq, Values.pay39_eq, Values.pay43_eq, Values.pay48_eq, Values.pay54_eq, Values.pay58_eq, Values.pay22_eq, Values.pay27_eq, Values.pay31_eq, Values.pay35_eq, Values.pay41_eq, Values.pay46_eq, Values.pay50_eq, Values.pay56_eq, Values.pay60_eq, Values.pay62_eq, Values.pay66_eq, Values.pay68_eq, Values.pay11_eq, Values.pay14_eq, Values.pay15_eq, Values.pay18_eq, Values.pay21_eq, Values.pay30_eq, Values.pay34_eq, Values.pay40_eq, Values.pay44_eq, Values.pay45_eq, Values.pay49_eq, Values.pay55_eq, Values.pay59_eq, Views.pay25_eq, Views.pay26_eq, Views.sq_unsq, Values.load_wire_0 m c, Values.load_wire_1 m c, Values.load_wire_2 m c, Values.load_wire_3 m c, Values.load_wire_4 m c, Values.load_wire_5 m c, Values.load_wire_6 m c, Values.load_wire_7 m c, Values.load_wire_8 m c, Values.load_wire_9 m c, Values.load_wire_10 m c, Values.load_wire_11 m c, Values.load_wire_12 m c, Values.load_wire_13 m c, Values.load_wire_14 m c, Values.load_wire_15 m c, Values.load_wire_16 m c, Values.load_wire_17 m c, Values.load_wire_18 m c, Values.load_wire_19 m c, base0 m c, base1 m c, base2 m c, base3 m c, st00 m c, st01 m c, st02 m c, st03 m c, st10 m c, st11 m c, st12 m c, st13 m c, st20 m c, st21 m c, st22 m c, st23 m c]
    exact (Views.read_src_store_cast_at _ _ _ _).trans (by rfl)
  iintro ⟨Hcs17, HO⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq])
  -- chunk 2: three landings
  ihave Hj := (Regions.third_join_ex c 2) $$ [Has10_pay1 Has11_pay1 Has12_pay1]
  · isplitl [Has10_pay1]; · iexists _; iexact Has10_pay1
    isplitl [Has11_pay1]; · iexists _; iexact Has11_pay1
    iexists _; iexact Has12_pay1
  icases Hj with ⟨%sj2, Hsn2⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq])
  iapply (Steps.send_step m c 18 (K (c, .inr (.inl 18))) (K (px 3 c, .inr (.inr 18))) _ g18 _ _ ?hfs18) $$ [Hsn2 Hq18 HO Hts18 Htq18]
  rotate_left
  · isplitr; · iexact HIs18
    isplitr; · iexact HIq18
    isplitl [Hsn2]; · iexact Hsn2
    isplitl [Hq18]; · iexact Hq18
    isplitl [HO]; · iexact HO
    isplitl [Hts18]; · iexact Hts18
    isplitr; · iexact Hrs18
    isplitl [Htq18]; · iexact Htq18
    iexact Hrq18
  case hfs18 =>
    unfold sound_body.sl.Hsn2_w1_1
    unfold sound_body.sl.r_17 sound_body.sl.r_16 sound_body.sl.v586 sound_body.sl.v585
    simp (disch := decide) only [Acc.acc_hit, Acc.acc_skip, acc_hit', acc_skip']
    unfold sound_body.sl.v354 sound_body.sl.v353
    simp (disch := decide) only [Acc.acc_hit, Acc.acc_skip, acc_hit', acc_skip']
    unfold sound_body.sl.r_4 sound_body.sl.r_6 sound_body.sl.r_5 sound_body.sl.r_2 sound_body.sl.r_3 sound_body.sl.r sound_body.sl.r_1
    simp only [rd0, rd1, rd2, rd3, rd4, rd0', rd1', rd2', rd3', rd4', Values.pay23_eq, Values.pay28_eq, Values.pay32_eq, Values.pay36_eq, Values.pay37_eq, Values.pay38_eq, Values.pay42_eq, Values.pay47_eq, Values.pay51_eq, Values.pay52_eq, Values.pay53_eq, Values.pay57_eq, Values.pay63_eq, Values.pay64_eq, Values.pay24_eq, Values.pay61_eq, Values.pay65_eq, Values.pay67_eq, Values.pay1_eq, Values.pay10_eq, Values.pay13_eq, Values.pay17_eq, Values.pay20_eq, Values.pay29_eq, Values.pay33_eq, Values.pay39_eq, Values.pay43_eq, Values.pay48_eq, Values.pay54_eq, Values.pay58_eq, Values.pay22_eq, Values.pay27_eq, Values.pay31_eq, Values.pay35_eq, Values.pay41_eq, Values.pay46_eq, Values.pay50_eq, Values.pay56_eq, Values.pay60_eq, Values.pay62_eq, Values.pay66_eq, Values.pay68_eq, Values.pay11_eq, Values.pay14_eq, Values.pay15_eq, Values.pay18_eq, Values.pay21_eq, Values.pay30_eq, Values.pay34_eq, Values.pay40_eq, Values.pay44_eq, Values.pay45_eq, Values.pay49_eq, Values.pay55_eq, Values.pay59_eq, Views.pay25_eq, Views.pay26_eq, Views.sq_unsq, Values.load_wire_0 m c, Values.load_wire_1 m c, Values.load_wire_2 m c, Values.load_wire_3 m c, Values.load_wire_4 m c, Values.load_wire_5 m c, Values.load_wire_6 m c, Values.load_wire_7 m c, Values.load_wire_8 m c, Values.load_wire_9 m c, Values.load_wire_10 m c, Values.load_wire_11 m c, Values.load_wire_12 m c, Values.load_wire_13 m c, Values.load_wire_14 m c, Values.load_wire_15 m c, Values.load_wire_16 m c, Values.load_wire_17 m c, Values.load_wire_18 m c, Values.load_wire_19 m c, base0 m c, base1 m c, base2 m c, base3 m c, st00 m c, st01 m c, st02 m c, st03 m c, st10 m c, st11 m c, st12 m c, st13 m c, st20 m c, st21 m c, st22 m c, st23 m c]
    exact (Views.read_src_store_cast_at _ _ _ _).trans (by rfl)
  iintro ⟨Hcs18, HO⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq])
  -- chunk 3
  iapply (Steps.send_step m c 19 (K (c, .inr (.inl 19))) (K (px 3 c, .inr (.inr 19))) _ g19 _ _ ?hfs19) $$ [Has13_pay1 Hq19 HO Hts19 Htq19]
  rotate_left
  · isplitr; · iexact HIs19
    isplitr; · iexact HIq19
    isplitl [Has13_pay1]; · iexact Has13_pay1
    isplitl [Hq19]; · iexact Hq19
    isplitl [HO]; · iexact HO
    isplitl [Hts19]; · iexact Hts19
    isplitr; · iexact Hrs19
    isplitl [Htq19]; · iexact Htq19
    iexact Hrq19
  case hfs19 =>
    unfold sound_body.sl.Has13_pay1_w1
    unfold sound_body.sl.r_19 sound_body.sl.r_18 sound_body.sl.v659
    simp (disch := decide) only [Acc.acc_hit, Acc.acc_skip, acc_hit', acc_skip']
    unfold sound_body.sl.r_13 sound_body.sl.r_12 sound_body.sl.v414 sound_body.sl.v413
    simp (disch := decide) only [Acc.acc_hit, Acc.acc_skip, acc_hit', acc_skip']
    unfold sound_body.sl.r_4 sound_body.sl.r_6 sound_body.sl.r_5 sound_body.sl.r_2 sound_body.sl.r_3 sound_body.sl.r sound_body.sl.r_1
    simp only [rd0, rd1, rd2, rd3, rd4, rd0', rd1', rd2', rd3', rd4', Values.pay23_eq, Values.pay28_eq, Values.pay32_eq, Values.pay36_eq, Values.pay37_eq, Values.pay38_eq, Values.pay42_eq, Values.pay47_eq, Values.pay51_eq, Values.pay52_eq, Values.pay53_eq, Values.pay57_eq, Values.pay63_eq, Values.pay64_eq, Values.pay24_eq, Values.pay61_eq, Values.pay65_eq, Values.pay67_eq, Values.pay1_eq, Values.pay10_eq, Values.pay13_eq, Values.pay17_eq, Values.pay20_eq, Values.pay29_eq, Values.pay33_eq, Values.pay39_eq, Values.pay43_eq, Values.pay48_eq, Values.pay54_eq, Values.pay58_eq, Values.pay22_eq, Values.pay27_eq, Values.pay31_eq, Values.pay35_eq, Values.pay41_eq, Values.pay46_eq, Values.pay50_eq, Values.pay56_eq, Values.pay60_eq, Values.pay62_eq, Values.pay66_eq, Values.pay68_eq, Values.pay11_eq, Values.pay14_eq, Values.pay15_eq, Values.pay18_eq, Values.pay21_eq, Values.pay30_eq, Values.pay34_eq, Values.pay40_eq, Values.pay44_eq, Values.pay45_eq, Values.pay49_eq, Values.pay55_eq, Values.pay59_eq, Views.pay25_eq, Views.pay26_eq, Views.sq_unsq, Values.load_wire_0 m c, Values.load_wire_1 m c, Values.load_wire_2 m c, Values.load_wire_3 m c, Values.load_wire_4 m c, Values.load_wire_5 m c, Values.load_wire_6 m c, Values.load_wire_7 m c, Values.load_wire_8 m c, Values.load_wire_9 m c, Values.load_wire_10 m c, Values.load_wire_11 m c, Values.load_wire_12 m c, Values.load_wire_13 m c, Values.load_wire_14 m c, Values.load_wire_15 m c, Values.load_wire_16 m c, Values.load_wire_17 m c, Values.load_wire_18 m c, Values.load_wire_19 m c, base0 m c, base1 m c, base2 m c, base3 m c, st00 m c, st01 m c, st02 m c, st03 m c, st10 m c, st11 m c, st12 m c, st13 m c, st20 m c, st21 m c, st22 m c, st23 m c]
    exact (Views.read_src_store_cast_at _ _ _ _).trans (by rfl)
  iintro ⟨Hcs19, HO⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq])
  -- ── the third step's landings: each chunk's sum over all sixteen devices goes to its block of the result ────────

  -- ── the return: everything the body was lent goes back ───────────────────────────────────────────────────────────
  sl_step
  -- the plane step of chunk 1 was the last: its three thirds make the slice again
  ihave Hj := (Regions.third_join_ex c 1) $$ [Has15_pay1 Has16_pay1 Has17_pay1]
  · isplitl [Has15_pay1]; · iexists _; iexact Has15_pay1
    isplitl [Has16_pay1]; · iexists _; iexact Has16_pay1
    iexists _; iexact Has17_pay1
  iapply Hk
  unfold bodyEnd
  isplitl [HO]; · iexists _; iexact HO
  isplitl [Hx0]; · iexact Hx0
  isplitl [Hx1]; · iexact Hx1
  isplitl [Hx2]; · iexact Hx2
  isplitl [Hx3]; · iexact Hx3
  isplitl [Hx4]; · iexact Hx4
  isplitl [Hx5]
  · have hv0 : k0_pay61 (sound_body.sl.r_21 m c) (View.readAt (Elt F) (Memref.whole cc0_scratch2 : Memref sig .tc .vmem S3x4x3x256x128 .bf16).view (Rect.unit (s := S3x4x3x256x128) ![2, 0, 0, 0, 0] S1x1x1x256x128.size inb_S3x4x3x256x128_S1x1x1x256x128_2_0_0_0_0).toLoadRect (landed m c 14)) = shapeCast S2x128x128 (run m 0 3 c) shapeCasts_S256x128_S2x128x128 := by
      unfold sound_body.sl.r_21 sound_body.sl.v697
      simp (disch := decide) only [Acc.acc_hit, Acc.acc_skip, acc_hit', acc_skip']
      unfold sound_body.sl.r_14 sound_body.sl.v487
      simp (disch := decide) only [Acc.acc_hit, Acc.acc_skip, acc_hit', acc_skip']
      unfold sound_body.sl.r_10 sound_body.sl.r_8 sound_body.sl.r_9 sound_body.sl.v242 sound_body.sl.v241
      simp (disch := decide) only [Acc.acc_hit, Acc.acc_skip, acc_hit', acc_skip']
      unfold sound_body.sl.r_4 sound_body.sl.r_5 sound_body.sl.r_2 sound_body.sl.r_3 sound_body.sl.r sound_body.sl.r_1
      simp only [rd0, rd1, rd2, rd3, rd4, rd0', rd1', rd2', rd3', rd4', Values.pay23_eq, Values.pay28_eq, Values.pay32_eq, Values.pay36_eq, Values.pay37_eq, Values.pay38_eq, Values.pay42_eq, Values.pay47_eq, Values.pay51_eq, Values.pay52_eq, Values.pay53_eq, Values.pay57_eq, Values.pay63_eq, Values.pay64_eq, Values.pay24_eq, Values.pay61_eq, Values.pay65_eq, Values.pay67_eq, Values.pay1_eq, Values.pay10_eq, Values.pay13_eq, Values.pay17_eq, Values.pay20_eq, Values.pay29_eq, Values.pay33_eq, Values.pay39_eq, Values.pay43_eq, Values.pay48_eq, Values.pay54_eq, Values.pay58_eq, Values.pay22_eq, Values.pay27_eq, Values.pay31_eq, Values.pay35_eq, Values.pay41_eq, Values.pay46_eq, Values.pay50_eq, Values.pay56_eq, Values.pay60_eq, Values.pay62_eq, Values.pay66_eq, Values.pay68_eq, Values.pay11_eq, Values.pay14_eq, Values.pay15_eq, Values.pay18_eq, Values.pay21_eq, Values.pay30_eq, Values.pay34_eq, Values.pay40_eq, Values.pay44_eq, Values.pay45_eq, Values.pay49_eq, Values.pay55_eq, Values.pay59_eq, Views.pay25_eq, Views.pay26_eq, Views.sq_unsq, Values.load_wire_0 m c, Values.load_wire_1 m c, Values.load_wire_2 m c, Values.load_wire_3 m c, Values.load_wire_4 m c, Values.load_wire_5 m c, Values.load_wire_6 m c, Values.load_wire_7 m c, Values.load_wire_8 m c, Values.load_wire_9 m c, Values.load_wire_10 m c, Values.load_wire_11 m c, Values.load_wire_12 m c, Values.load_wire_13 m c, Values.load_wire_14 m c, Values.load_wire_15 m c, Values.load_wire_16 m c, Values.load_wire_17 m c, Values.load_wire_18 m c, Values.load_wire_19 m c, base0 m c, base1 m c, base2 m c, base3 m c, st00 m c, st01 m c, st02 m c, st03 m c, st10 m c, st11 m c, st12 m c, st13 m c, st20 m c, st21 m c, st22 m c, st23 m c]

    have hv1 : k0_pay65 (sound_body.sl.r_24 m c) (View.readAt (Elt F) (Memref.whole cc0_scratch2 : Memref sig .tc .vmem S3x4x3x256x128 .bf16).view (Rect.unit (s := S3x4x3x256x128) ![2, 1, 2, 0, 0] S1x1x1x256x128.size inb_S3x4x3x256x128_S1x1x1x256x128_2_1_2_0_0).toLoadRect (landed m c 17)) = shapeCast S2x128x128 (run m 1 3 c) shapeCasts_S256x128_S2x128x128 := by
      unfold sound_body.sl.r_24 sound_body.sl.r_23 sound_body.sl.r_22 sound_body.sl.v719
      simp (disch := decide) only [Acc.acc_hit, Acc.acc_skip, acc_hit', acc_skip']
      unfold sound_body.sl.v526 sound_body.sl.v525
      simp (disch := decide) only [Acc.acc_hit, Acc.acc_skip, acc_hit', acc_skip']
      unfold sound_body.sl.r_11 sound_body.sl.v315
      simp (disch := decide) only [Acc.acc_hit, Acc.acc_skip, acc_hit', acc_skip']
      unfold sound_body.sl.r_4 sound_body.sl.r_6 sound_body.sl.r_5 sound_body.sl.r_2 sound_body.sl.r_3 sound_body.sl.r sound_body.sl.r_1
      simp only [rd0, rd1, rd2, rd3, rd4, rd0', rd1', rd2', rd3', rd4', Values.pay23_eq, Values.pay28_eq, Values.pay32_eq, Values.pay36_eq, Values.pay37_eq, Values.pay38_eq, Values.pay42_eq, Values.pay47_eq, Values.pay51_eq, Values.pay52_eq, Values.pay53_eq, Values.pay57_eq, Values.pay63_eq, Values.pay64_eq, Values.pay24_eq, Values.pay61_eq, Values.pay65_eq, Values.pay67_eq, Values.pay1_eq, Values.pay10_eq, Values.pay13_eq, Values.pay17_eq, Values.pay20_eq, Values.pay29_eq, Values.pay33_eq, Values.pay39_eq, Values.pay43_eq, Values.pay48_eq, Values.pay54_eq, Values.pay58_eq, Values.pay22_eq, Values.pay27_eq, Values.pay31_eq, Values.pay35_eq, Values.pay41_eq, Values.pay46_eq, Values.pay50_eq, Values.pay56_eq, Values.pay60_eq, Values.pay62_eq, Values.pay66_eq, Values.pay68_eq, Values.pay11_eq, Values.pay14_eq, Values.pay15_eq, Values.pay18_eq, Values.pay21_eq, Values.pay30_eq, Values.pay34_eq, Values.pay40_eq, Values.pay44_eq, Values.pay45_eq, Values.pay49_eq, Values.pay55_eq, Values.pay59_eq, Views.pay25_eq, Views.pay26_eq, Views.sq_unsq, Values.load_wire_0 m c, Values.load_wire_1 m c, Values.load_wire_2 m c, Values.load_wire_3 m c, Values.load_wire_4 m c, Values.load_wire_5 m c, Values.load_wire_6 m c, Values.load_wire_7 m c, Values.load_wire_8 m c, Values.load_wire_9 m c, Values.load_wire_10 m c, Values.load_wire_11 m c, Values.load_wire_12 m c, Values.load_wire_13 m c, Values.load_wire_14 m c, Values.load_wire_15 m c, Values.load_wire_16 m c, Values.load_wire_17 m c, Values.load_wire_18 m c, Values.load_wire_19 m c, base0 m c, base1 m c, base2 m c, base3 m c, st00 m c, st01 m c, st02 m c, st03 m c, st10 m c, st11 m c, st12 m c, st13 m c, st20 m c, st21 m c, st22 m c, st23 m c]

    have hv2 : k0_pay67 (sound_body.sl.r_25 m c) (View.readAt (Elt F) (Memref.whole cc0_scratch2 : Memref sig .tc .vmem S3x4x3x256x128 .bf16).view (Rect.unit (s := S3x4x3x256x128) ![2, 2, 0, 0, 0] S1x1x1x256x128.size inb_S3x4x3x256x128_S1x1x1x256x128_2_2_0_0_0).toLoadRect (landed m c 18)) = shapeCast S2x128x128 (run m 2 3 c) shapeCasts_S256x128_S2x128x128 := by
      unfold sound_body.sl.r_25 sound_body.sl.v777
      simp (disch := decide) only [Acc.acc_hit, Acc.acc_skip, acc_hit', acc_skip']
      unfold sound_body.sl.r_17 sound_body.sl.r_16 sound_body.sl.v586 sound_body.sl.v585
      simp (disch := decide) only [Acc.acc_hit, Acc.acc_skip, acc_hit', acc_skip']
      unfold sound_body.sl.v354 sound_body.sl.v353
      simp (disch := decide) only [Acc.acc_hit, Acc.acc_skip, acc_hit', acc_skip']
      unfold sound_body.sl.r_4 sound_body.sl.r_6 sound_body.sl.r_5 sound_body.sl.r_2 sound_body.sl.r_3 sound_body.sl.r sound_body.sl.r_1
      simp only [rd0, rd1, rd2, rd3, rd4, rd0', rd1', rd2', rd3', rd4', Values.pay23_eq, Values.pay28_eq, Values.pay32_eq, Values.pay36_eq, Values.pay37_eq, Values.pay38_eq, Values.pay42_eq, Values.pay47_eq, Values.pay51_eq, Values.pay52_eq, Values.pay53_eq, Values.pay57_eq, Values.pay63_eq, Values.pay64_eq, Values.pay24_eq, Values.pay61_eq, Values.pay65_eq, Values.pay67_eq, Values.pay1_eq, Values.pay10_eq, Values.pay13_eq, Values.pay17_eq, Values.pay20_eq, Values.pay29_eq, Values.pay33_eq, Values.pay39_eq, Values.pay43_eq, Values.pay48_eq, Values.pay54_eq, Values.pay58_eq, Values.pay22_eq, Values.pay27_eq, Values.pay31_eq, Values.pay35_eq, Values.pay41_eq, Values.pay46_eq, Values.pay50_eq, Values.pay56_eq, Values.pay60_eq, Values.pay62_eq, Values.pay66_eq, Values.pay68_eq, Values.pay11_eq, Values.pay14_eq, Values.pay15_eq, Values.pay18_eq, Values.pay21_eq, Values.pay30_eq, Values.pay34_eq, Values.pay40_eq, Values.pay44_eq, Values.pay45_eq, Values.pay49_eq, Values.pay55_eq, Values.pay59_eq, Views.pay25_eq, Views.pay26_eq, Views.sq_unsq, Values.load_wire_0 m c, Values.load_wire_1 m c, Values.load_wire_2 m c, Values.load_wire_3 m c, Values.load_wire_4 m c, Values.load_wire_5 m c, Values.load_wire_6 m c, Values.load_wire_7 m c, Values.load_wire_8 m c, Values.load_wire_9 m c, Values.load_wire_10 m c, Values.load_wire_11 m c, Values.load_wire_12 m c, Values.load_wire_13 m c, Values.load_wire_14 m c, Values.load_wire_15 m c, Values.load_wire_16 m c, Values.load_wire_17 m c, Values.load_wire_18 m c, Values.load_wire_19 m c, base0 m c, base1 m c, base2 m c, base3 m c, st00 m c, st01 m c, st02 m c, st03 m c, st10 m c, st11 m c, st12 m c, st13 m c, st20 m c, st21 m c, st22 m c, st23 m c]

    have hv3 : k0_pay1 (sound_body.sl.r_26 m c) (View.readAt (Elt F) (Memref.whole cc0_scratch2 : Memref sig .tc .vmem S3x4x3x256x128 .bf16).view (Rect.unit (s := S3x4x3x256x128) ![2, 3, 0, 0, 0] S1x1x1x256x128.size inb_S3x4x3x256x128_S1x1x1x256x128_2_3_0_0_0).toLoadRect (landed m c 19)) = shapeCast S2x128x128 (run m 3 3 c) shapeCasts_S256x128_S2x128x128 := by
      unfold sound_body.sl.r_26 sound_body.sl.v799
      simp (disch := decide) only [Acc.acc_hit, Acc.acc_skip, acc_hit', acc_skip']
      unfold sound_body.sl.r_20 sound_body.sl.r_18 sound_body.sl.v659
      simp (disch := decide) only [Acc.acc_hit, Acc.acc_skip, acc_hit', acc_skip']
      unfold sound_body.sl.r_13 sound_body.sl.r_12 sound_body.sl.v414 sound_body.sl.v413
      simp (disch := decide) only [Acc.acc_hit, Acc.acc_skip, acc_hit', acc_skip']
      unfold sound_body.sl.r_4 sound_body.sl.r_6 sound_body.sl.r_5 sound_body.sl.r_2 sound_body.sl.r_3 sound_body.sl.r sound_body.sl.r_1
      simp only [rd0, rd1, rd2, rd3, rd4, rd0', rd1', rd2', rd3', rd4', Values.pay23_eq, Values.pay28_eq, Values.pay32_eq, Values.pay36_eq, Values.pay37_eq, Values.pay38_eq, Values.pay42_eq, Values.pay47_eq, Values.pay51_eq, Values.pay52_eq, Values.pay53_eq, Values.pay57_eq, Values.pay63_eq, Values.pay64_eq, Values.pay24_eq, Values.pay61_eq, Values.pay65_eq, Values.pay67_eq, Values.pay1_eq, Values.pay10_eq, Values.pay13_eq, Values.pay17_eq, Values.pay20_eq, Values.pay29_eq, Values.pay33_eq, Values.pay39_eq, Values.pay43_eq, Values.pay48_eq, Values.pay54_eq, Values.pay58_eq, Values.pay22_eq, Values.pay27_eq, Values.pay31_eq, Values.pay35_eq, Values.pay41_eq, Values.pay46_eq, Values.pay50_eq, Values.pay56_eq, Values.pay60_eq, Values.pay62_eq, Values.pay66_eq, Values.pay68_eq, Values.pay11_eq, Values.pay14_eq, Values.pay15_eq, Values.pay18_eq, Values.pay21_eq, Values.pay30_eq, Values.pay34_eq, Values.pay40_eq, Values.pay44_eq, Values.pay45_eq, Values.pay49_eq, Values.pay55_eq, Values.pay59_eq, Views.pay25_eq, Views.pay26_eq, Views.sq_unsq, Values.load_wire_0 m c, Values.load_wire_1 m c, Values.load_wire_2 m c, Values.load_wire_3 m c, Values.load_wire_4 m c, Values.load_wire_5 m c, Values.load_wire_6 m c, Values.load_wire_7 m c, Values.load_wire_8 m c, Values.load_wire_9 m c, Values.load_wire_10 m c, Values.load_wire_11 m c, Values.load_wire_12 m c, Values.load_wire_13 m c, Values.load_wire_14 m c, Values.load_wire_15 m c, Values.load_wire_16 m c, Values.load_wire_17 m c, Values.load_wire_18 m c, Values.load_wire_19 m c, base0 m c, base1 m c, base2 m c, base3 m c, st00 m c, st01 m c, st02 m c, st03 m c, st10 m c, st11 m c, st12 m c, st13 m c, st20 m c, st21 m c, st22 m c, st23 m c]

    rw [hv0, hv1, hv2, hv3]
    have hout : (Memref.whole cc0_stg5_0 : Memref sig .tc .vmem S2x128x512 .f32).view.writes (Elt F) X5
        [⟨Rect.unit (s := S2x128x512) ![0, 0, 384] S2x128x128.size inb_S2x128x512_S2x128x128_0_0_384, shapeCast S2x128x128 (run m 3 3 c) shapeCasts_S256x128_S2x128x128⟩,
         ⟨Rect.unit (s := S2x128x512) ![0, 0, 256] S2x128x128.size inb_S2x128x512_S2x128x128_0_0_256, shapeCast S2x128x128 (run m 2 3 c) shapeCasts_S256x128_S2x128x128⟩,
         ⟨Rect.unit (s := S2x128x512) ![0, 0, 128] S2x128x128.size inb_S2x128x512_S2x128x128_0_0_128, shapeCast S2x128x128 (run m 1 3 c) shapeCasts_S256x128_S2x128x128⟩,
         ⟨Rect.unit (s := S2x128x512) ![0, 0, 0] S2x128x128.size inb_S2x128x512_S2x128x128_0_0_0, shapeCast S2x128x128 (run m 0 3 c) shapeCasts_S256x128_S2x128x128⟩] = outAt m c := by
      unfold outAt
      exact Out.stored_indep (Elt F) _ _ _ _ X5 _ _ _ _ _
    rw [hout]
    iexact Hx5
  isplitl [Hacc]; · iexists _; iexact Hacc
  isplitl [Has14_pay1]; · iexists _; iexact Has14_pay1
  isplitl [Hj]; · iexact Hj
  isplitl [Has18_pay1]; · iexists _; iexact Has18_pay1
  isplitl [Has19_pay1]; · iexists _; iexact Has19_pay1
  isplitl [Har0_pay1]; · iexists _; iexact Har0_pay1
  isplitl [Har1_pay1]; · iexists _; iexact Har1_pay1
  isplitl [Har2_pay1]; · iexists _; iexact Har2_pay1
  isplitl [Har3_pay1]; · iexists _; iexact Har3_pay1
  isplitl [Har4_pay1]; · iexists _; iexact Har4_pay1
  isplitl [Har5_pay1]; · iexists _; iexact Har5_pay1
  isplitl [Har6_pay1]; · iexists _; iexact Har6_pay1
  isplitl [Har7_pay1]; · iexists _; iexact Har7_pay1
  isplitl [Har8_pay1]; · iexists _; iexact Har8_pay1
  isplitl [Har9_pay1]; · iexists _; iexact Har9_pay1
  isplitl [Har10_pay1]; · iexists _; iexact Har10_pay1
  isplitl [Har11_pay1]; · iexists _; iexact Har11_pay1
  isplitl [Har12_pay1]; · iexists _; iexact Har12_pay1
  isplitl [Har13_pay1]; · iexists _; iexact Har13_pay1
  isplitl [Har14_pay1]; · iexists _; iexact Har14_pay1
  isplitl [Har15_pay1]; · iexists _; iexact Har15_pay1
  isplitl [Har16_pay1]; · iexists _; iexact Har16_pay1
  isplitl [Har17_pay1]; · iexists _; iexact Har17_pay1
  isplitl [Har18_pay1]; · iexists _; iexact Har18_pay1
  isplitl [Har19_pay1]; · iexists _; iexact Har19_pay1
  isplitl [Hrest]; · iexists _; iexact Hrest
  isplitl [Has0 Has1 Has2 Has3 Has4 Has5 Has6 Has7 Has8 Has9 Has10 Has11 Has12 Has13 Has14 Has15 Has16 Has17 Has18 Has19]
  · iapply (Bridge.chain20_intro _)
    sl_close
  iapply (Bridge.chain20_intro _)
  sl_close

/-- info: 'Cert.Kernel.Body.sound_body' depends on axioms: [propext, Classical.choice, Quot.sound] -/
#guard_msgs in #print axioms sound_body

end Cert.Kernel.Body

end
-- ==== Proof.KernelObligation.lean ====
/-
  The body obligation of one device, from the body's run: the pipeline hands the body its invariant before the point (the
  ghost state at some names, the launch's credit, the levels, the three scratch buffers), what the device owes, and the six
  staging buffers; the run wants them piece by piece — the ghost state laid out, the receive buffer cut into the slots its
  partners will write (handed over with the entry signals) and the rest, the outgoing buffer cut into its four slices — and
  leaves pieces from which the invariant after the point is put back together: the buffers rejoined, every copy's cells
  closed at zero.
-/
import proofs.«900514_g7700000000000515_dist_attn_self_mha_htp_b2_sq128_skv128_d512_hq8_dh64_v7x_i16_bf16_1_alg».proof.Proof.KernelBodyDefs
import proofs.«900514_g7700000000000515_dist_attn_self_mha_htp_b2_sq128_skv128_d512_hq8_dh64_v7x_i16_bf16_1_alg».proof.Proof.KernelBridge

noncomputable section

namespace Cert.Kernel.Body

open Cert.Kernel Cert.Kernel.Gen Cert.Kernel.Terms Cert.Kernel.Proto
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The staging buffers at the one point -/

/-- The five inputs are fetched at the point: their staging buffers hold the device's blocks. -/
theorem before_0 (c : Dev nD) (d) : (dats m ρ 0 c).before (0 : Fin 6) t0_0 d = xs0 m c := ((dats m ρ 0 c).before_fetched 0 t0_0 (fetch0_0 _) d).trans rfl
theorem before_1 (c : Dev nD) (d) : (dats m ρ 0 c).before (1 : Fin 6) t0_0 d = xs1 m c := ((dats m ρ 0 c).before_fetched 1 t0_0 (fetch0_1 _) d).trans rfl
theorem before_2 (c : Dev nD) (d) : (dats m ρ 0 c).before (2 : Fin 6) t0_0 d = xs2 m c := ((dats m ρ 0 c).before_fetched 2 t0_0 (fetch0_2 _) d).trans rfl
theorem before_3 (c : Dev nD) (d) : (dats m ρ 0 c).before (3 : Fin 6) t0_0 d = xs3 m c := ((dats m ρ 0 c).before_fetched 3 t0_0 (fetch0_3 _) d).trans rfl
theorem before_4 (c : Dev nD) (d) : (dats m ρ 0 c).before (4 : Fin 6) t0_0 d = xs4 m c := ((dats m ρ 0 c).before_fetched 4 t0_0 (fetch0_4 _) d).trans rfl

/-- A whole staging or scratch buffer at contents `X`, as the pipeline holds it. -/
abbrev stg (c : Dev nD) (b : Ref sig .tc) (X : b.ty.Contents (Elt F)) : sProp 𝕄 := (((c : Thread nD τ).loc b) ↦{fullShare} X)

theorem whole_eq (c : Dev nD) (b : Ref sig .tc) (X : b.ty.Contents (Elt F)) :
    ((Memref.whole b : Memref sig .tc _ _ _).view.loc (c : Thread nD τ) ↦[(Memref.whole b : Memref sig .tc _ _ _).view.set]{fullShare} X : sProp 𝕄) = stg c b X := by
  simp only [Memref.view_whole, View.set_whole]

/-- The same buffer as the run names it, through the whole-buffer view: both ways. -/
theorem of_stg (c : Dev nD) (b : Ref sig .tc) (X : b.ty.Contents (Elt F)) :
    stg c b X ⊢ ((Memref.whole b : Memref sig .tc _ _ _).view.loc (c : Thread nD τ) ↦[(Memref.whole b : Memref sig .tc _ _ _).view.set]{fullShare} X : sProp 𝕄) := by
  rw [whole_eq]
theorem to_stg (c : Dev nD) (b : Ref sig .tc) (X : b.ty.Contents (Elt F)) :
    ((Memref.whole b : Memref sig .tc _ _ _).view.loc (c : Thread nD τ) ↦[(Memref.whole b : Memref sig .tc _ _ _).view.set]{fullShare} X : sProp 𝕄) ⊢ stg c b X := by
  rw [whole_eq]

/-- An outgoing slice as the run's first copy of it names it. -/
theorem src_out0 (c : Dev nD) (S0 : (cc0_scratch1 : Ref sig .tc).ty.Contents (Elt F)) : (srcPts c 0 fullShare S0 : sProp 𝕄) ⊢ ((((Memref.whole cc0_scratch1 : Memref sig .tc .vmem S4x256x128 .bf16).slice (Rect.unit (s := S4x256x128) ![0, 0, 0] S1x256x128.size inb_S4x256x128_S1x256x128_0_0_0) (fun _ => rfl)).squeeze S256x128 squeezes_S1x256x128_S256x128).view.loc (c : Thread nD τ) ↦[(((Memref.whole cc0_scratch1 : Memref sig .tc .vmem S4x256x128 .bf16).slice (Rect.unit (s := S4x256x128) ![0, 0, 0] S1x256x128.size inb_S4x256x128_S1x256x128_0_0_0) (fun _ => rfl)).squeeze S256x128 squeezes_S1x256x128_S256x128).view.set]{fullShare} S0) :=
  (show (srcPts c 0 fullShare S0 : sProp 𝕄) = ((((Memref.whole cc0_scratch1 : Memref sig .tc .vmem S4x256x128 .bf16).slice (Rect.unit (s := S4x256x128) ![0, 0, 0] S1x256x128.size inb_S4x256x128_S1x256x128_0_0_0) (fun _ => rfl)).squeeze S256x128 squeezes_S1x256x128_S256x128).view.loc (c : Thread nD τ) ↦[(((Memref.whole cc0_scratch1 : Memref sig .tc .vmem S4x256x128 .bf16).slice (Rect.unit (s := S4x256x128) ![0, 0, 0] S1x256x128.size inb_S4x256x128_S1x256x128_0_0_0) (fun _ => rfl)).squeeze S256x128 squeezes_S1x256x128_S256x128).view.set]{fullShare} S0) from rfl) ▸ BI.Entails.refl _
theorem src_out1 (c : Dev nD) (S0 : (cc0_scratch1 : Ref sig .tc).ty.Contents (Elt F)) : (srcPts c 1 fullShare S0 : sProp 𝕄) ⊢ ((((Memref.whole cc0_scratch1 : Memref sig .tc .vmem S4x256x128 .bf16).slice (Rect.unit (s := S4x256x128) ![1, 0, 0] S1x256x128.size inb_S4x256x128_S1x256x128_1_0_0) (fun _ => rfl)).squeeze S256x128 squeezes_S1x256x128_S256x128).view.loc (c : Thread nD τ) ↦[(((Memref.whole cc0_scratch1 : Memref sig .tc .vmem S4x256x128 .bf16).slice (Rect.unit (s := S4x256x128) ![1, 0, 0] S1x256x128.size inb_S4x256x128_S1x256x128_1_0_0) (fun _ => rfl)).squeeze S256x128 squeezes_S1x256x128_S256x128).view.set]{fullShare} S0) :=
  (show (srcPts c 1 fullShare S0 : sProp 𝕄) = ((((Memref.whole cc0_scratch1 : Memref sig .tc .vmem S4x256x128 .bf16).slice (Rect.unit (s := S4x256x128) ![1, 0, 0] S1x256x128.size inb_S4x256x128_S1x256x128_1_0_0) (fun _ => rfl)).squeeze S256x128 squeezes_S1x256x128_S256x128).view.loc (c : Thread nD τ) ↦[(((Memref.whole cc0_scratch1 : Memref sig .tc .vmem S4x256x128 .bf16).slice (Rect.unit (s := S4x256x128) ![1, 0, 0] S1x256x128.size inb_S4x256x128_S1x256x128_1_0_0) (fun _ => rfl)).squeeze S256x128 squeezes_S1x256x128_S256x128).view.set]{fullShare} S0) from rfl) ▸ BI.Entails.refl _
theorem src_out2 (c : Dev nD) (S0 : (cc0_scratch1 : Ref sig .tc).ty.Contents (Elt F)) : (srcPts c 2 fullShare S0 : sProp 𝕄) ⊢ ((((Memref.whole cc0_scratch1 : Memref sig .tc .vmem S4x256x128 .bf16).slice (Rect.unit (s := S4x256x128) ![2, 0, 0] S1x256x128.size inb_S4x256x128_S1x256x128_2_0_0) (fun _ => rfl)).squeeze S256x128 squeezes_S1x256x128_S256x128).view.loc (c : Thread nD τ) ↦[(((Memref.whole cc0_scratch1 : Memref sig .tc .vmem S4x256x128 .bf16).slice (Rect.unit (s := S4x256x128) ![2, 0, 0] S1x256x128.size inb_S4x256x128_S1x256x128_2_0_0) (fun _ => rfl)).squeeze S256x128 squeezes_S1x256x128_S256x128).view.set]{fullShare} S0) :=
  (show (srcPts c 2 fullShare S0 : sProp 𝕄) = ((((Memref.whole cc0_scratch1 : Memref sig .tc .vmem S4x256x128 .bf16).slice (Rect.unit (s := S4x256x128) ![2, 0, 0] S1x256x128.size inb_S4x256x128_S1x256x128_2_0_0) (fun _ => rfl)).squeeze S256x128 squeezes_S1x256x128_S256x128).view.loc (c : Thread nD τ) ↦[(((Memref.whole cc0_scratch1 : Memref sig .tc .vmem S4x256x128 .bf16).slice (Rect.unit (s := S4x256x128) ![2, 0, 0] S1x256x128.size inb_S4x256x128_S1x256x128_2_0_0) (fun _ => rfl)).squeeze S256x128 squeezes_S1x256x128_S256x128).view.set]{fullShare} S0) from rfl) ▸ BI.Entails.refl _
theorem src_out3 (c : Dev nD) (S0 : (cc0_scratch1 : Ref sig .tc).ty.Contents (Elt F)) : (srcPts c 3 fullShare S0 : sProp 𝕄) ⊢ ((((Memref.whole cc0_scratch1 : Memref sig .tc .vmem S4x256x128 .bf16).slice (Rect.unit (s := S4x256x128) ![3, 0, 0] S1x256x128.size inb_S4x256x128_S1x256x128_3_0_0) (fun _ => rfl)).squeeze S256x128 squeezes_S1x256x128_S256x128).view.loc (c : Thread nD τ) ↦[(((Memref.whole cc0_scratch1 : Memref sig .tc .vmem S4x256x128 .bf16).slice (Rect.unit (s := S4x256x128) ![3, 0, 0] S1x256x128.size inb_S4x256x128_S1x256x128_3_0_0) (fun _ => rfl)).squeeze S256x128 squeezes_S1x256x128_S256x128).view.set]{fullShare} S0) :=
  (show (srcPts c 3 fullShare S0 : sProp 𝕄) = ((((Memref.whole cc0_scratch1 : Memref sig .tc .vmem S4x256x128 .bf16).slice (Rect.unit (s := S4x256x128) ![3, 0, 0] S1x256x128.size inb_S4x256x128_S1x256x128_3_0_0) (fun _ => rfl)).squeeze S256x128 squeezes_S1x256x128_S256x128).view.loc (c : Thread nD τ) ↦[(((Memref.whole cc0_scratch1 : Memref sig .tc .vmem S4x256x128 .bf16).slice (Rect.unit (s := S4x256x128) ![3, 0, 0] S1x256x128.size inb_S4x256x128_S1x256x128_3_0_0) (fun _ => rfl)).squeeze S256x128 squeezes_S1x256x128_S256x128).view.set]{fullShare} S0) from rfl) ▸ BI.Entails.refl _

/-- The twenty receive credits, one by one. -/
theorem creds20 (c : Dev nD) : (bigSep Finset.univ fun s : Fin 20 => (cred (tallyAt (recvCell c s) () N) : sProp 𝕄))
    = iprop(cred (tallyAt (recvCell c 0) () N) ∗ cred (tallyAt (recvCell c 1) () N) ∗ cred (tallyAt (recvCell c 2) () N) ∗ cred (tallyAt (recvCell c 3) () N) ∗ cred (tallyAt (recvCell c 4) () N) ∗ cred (tallyAt (recvCell c 5) () N) ∗ cred (tallyAt (recvCell c 6) () N) ∗ cred (tallyAt (recvCell c 7) () N) ∗ cred (tallyAt (recvCell c 8) () N) ∗ cred (tallyAt (recvCell c 9) () N) ∗ cred (tallyAt (recvCell c 10) () N) ∗ cred (tallyAt (recvCell c 11) () N) ∗ cred (tallyAt (recvCell c 12) () N) ∗ cred (tallyAt (recvCell c 13) () N) ∗ cred (tallyAt (recvCell c 14) () N) ∗ cred (tallyAt (recvCell c 15) () N) ∗ cred (tallyAt (recvCell c 16) () N) ∗ cred (tallyAt (recvCell c 17) () N) ∗ cred (tallyAt (recvCell c 18) () N) ∗ cred (tallyAt (recvCell c 19) () N)) := by
  rw [Bridge.bigSep_fin20]; rfl

/-- What the device owes at the point, as the chain the run peels. -/
theorem owed_chain (c : Dev nD) : (dats m ρ 0 c).owed t0_0.castSucc
    = (0 + tallyAt (recvCell (px 3 c) 19) () N + tallyAt (recvCell (px 3 c) 18) () N + tallyAt (recvCell (px 2 c) 17) () N + tallyAt (recvCell (px 1 c) 16) () N + tallyAt (recvCell (px 0 c) 15) () N + tallyAt (recvCell (px 4 c) 14) () N + tallyAt (recvCell (px 4 c) 13) () N + tallyAt (recvCell (px 2 c) 12) () N + tallyAt (recvCell (px 1 c) 11) () N + tallyAt (recvCell (px 0 c) 10) () N + tallyAt (recvCell (px 4 c) 9) () N + tallyAt (recvCell (px 3 c) 8) () N + tallyAt (recvCell (px 2 c) 7) () N + tallyAt (recvCell (px 1 c) 6) () N + tallyAt (recvCell (px 0 c) 5) () N + tallyAt (recvCell (px 4 c) 4) () N + tallyAt (recvCell (px 3 c) 3) () N + tallyAt (recvCell (px 2 c) 2) () N + tallyAt (recvCell (px 1 c) 1) () N + tallyAt (recvCell (px 0 c) 0) () N + tallyAt (barCell (px 4 c)) () 1 + tallyAt (barCell (px 3 c)) () 1 + tallyAt (barCell (px 2 c)) () 1 + tallyAt (barCell (px 1 c)) () 1 + tallyAt (barCell (px 0 c)) () 1) := rfl

/-- The obligation's precondition, the staging buffers named. -/
def bodyPre' (c : Dev nD) : sProp 𝕄 :=
  iprop(Φ₀ m c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

/-- The obligation's postcondition. -/
def bodyPost' (c : Dev nD) : sProp 𝕄 :=
  iprop(Φ₁ (F := F) c ∗ (dats m ρ 0 c).owesAt () t0_0.succ
    ∗ stg c cc0_stg0_0 (xs0 m c) ∗ stg c cc0_stg1_0 (xs1 m c) ∗ stg c cc0_stg2_0 (xs2 m c) ∗ stg c cc0_stg3_0 (xs3 m c) ∗ stg c cc0_stg4_0 (xs4 m c)
    ∗ stg c cc0_stg5_0 (outAt m c))

/-! ## The wrapper -/

set_option maxHeartbeats 1000000 in
set_option maxRecDepth 8000 in
/-- The pieces the run starts from, out of what the pipeline and the launch hand over. -/
theorem ctx_intro (K : Dev nD × Cell → ℕ) (c : Dev nD) (W : Waits sig Unit) (X5 : (cc0_stg5_0 : Ref sig .tc).ty.Contents (Elt F))
    (A0 : (cc0_scratch0 : Ref sig .tc).ty.Contents (Elt F)) (S0 : (cc0_scratch1 : Ref sig .tc).ty.Contents (Elt F))
    (C0 : (cc0_scratch2 : Ref sig .tc).ty.Contents (Elt F)) :
    iprop(records m K ∗ linear c ∗ levAts L lv ∗ cred (tallyAt (barCell c) () 5) ∗ (cred (tallyAt (recvCell c 0) () N) ∗ cred (tallyAt (recvCell c 1) () N) ∗ cred (tallyAt (recvCell c 2) () N) ∗ cred (tallyAt (recvCell c 3) () N) ∗ cred (tallyAt (recvCell c 4) () N) ∗ cred (tallyAt (recvCell c 5) () N) ∗ cred (tallyAt (recvCell c 6) () N) ∗ cred (tallyAt (recvCell c 7) () N) ∗ cred (tallyAt (recvCell c 8) () N) ∗ cred (tallyAt (recvCell c 9) () N) ∗ cred (tallyAt (recvCell c 10) () N) ∗ cred (tallyAt (recvCell c 11) () N) ∗ cred (tallyAt (recvCell c 12) () N) ∗ cred (tallyAt (recvCell c 13) () N) ∗ cred (tallyAt (recvCell c 14) () N) ∗ cred (tallyAt (recvCell c 15) () N) ∗ cred (tallyAt (recvCell c 16) () N) ∗ cred (tallyAt (recvCell c 17) () N) ∗ cred (tallyAt (recvCell c 18) () N) ∗ cred (tallyAt (recvCell c 19) () N))
        ∗ stg c cc0_scratch0 A0 ∗ stg c cc0_scratch1 S0 ∗ stg c cc0_scratch2 C0
        ∗ owes (c : Thread nD τ) ((dats m ρ 0 c).owed t0_0.castSucc) W
        ∗ stg c cc0_stg0_0 (xs0 m c) ∗ stg c cc0_stg1_0 (xs1 m c) ∗ stg c cc0_stg2_0 (xs2 m c) ∗ stg c cc0_stg3_0 (xs3 m c) ∗ stg c cc0_stg4_0 (xs4 m c)
        ∗ stg c cc0_stg5_0 X5)
      ⊢ bodyCtx m K c W X5 A0 S0 C0 := by
  rw [owed_chain]
  unfold bodyCtx
  iintro ⟨#Hrec, Hlin, #Hlev, Hc5, ⟨Hr0, Hr1, Hr2, Hr3, Hr4, Hr5, Hr6, Hr7, Hr8, Hr9, Hr10, Hr11, Hr12, Hr13, Hr14, Hr15, Hr16, Hr17, Hr18, Hr19⟩, Hs0, Hs1, Hs2, Ho, Hx0, Hx1, Hx2, Hx3, Hx4, Hx5⟩
  ihave Hctx := (Bridge.open_ghost m K c) $$ [Hlin]
  · unfold ghost; isplitr; · iexact Hrec
    iexact Hlin
  ihave Hgive := (Bridge.give_slots m K c C0) $$ [Hs2]
  · isplitr; · iexact Hrec
    iexact Hs2
  icases Hgive with ⟨Hb0, Hb1, Hb2, Hb3, Hb4, Hrest⟩
  ihave Hsnd := ((Regions.split_snd c S0).1) $$ Hs1
  icases Hsnd with ⟨Hq0, Hq1, Hq2, Hq3⟩
  isplitl [Hctx]; · iexact Hctx
  isplitr; · iexact Hlev
  isplitl [Hc5]; · iexact Hc5
  isplitl [Hr0]; · iexact Hr0
  isplitl [Hr1]; · iexact Hr1
  isplitl [Hr2]; · iexact Hr2
  isplitl [Hr3]; · iexact Hr3
  isplitl [Hr4]; · iexact Hr4
  isplitl [Hr5]; · iexact Hr5
  isplitl [Hr6]; · iexact Hr6
  isplitl [Hr7]; · iexact Hr7
  isplitl [Hr8]; · iexact Hr8
  isplitl [Hr9]; · iexact Hr9
  isplitl [Hr10]; · iexact Hr10
  isplitl [Hr11]; · iexact Hr11
  isplitl [Hr12]; · iexact Hr12
  isplitl [Hr13]; · iexact Hr13
  isplitl [Hr14]; · iexact Hr14
  isplitl [Hr15]; · iexact Hr15
  isplitl [Hr16]; · iexact Hr16
  isplitl [Hr17]; · iexact Hr17
  isplitl [Hr18]; · iexact Hr18
  isplitl [Hr19]; · iexact Hr19
  isplitl [Hb0]; · iexact Hb0
  isplitl [Hb1]; · iexact Hb1
  isplitl [Hb2]; · iexact Hb2
  isplitl [Hb3]; · iexact Hb3
  isplitl [Hb4]; · iexact Hb4
  isplitl [Ho]; · iexact Ho
  isplitl [Hx0]; · iapply (of_stg c cc0_stg0_0 (xs0 m c)); iexact Hx0
  isplitl [Hx1]; · iapply (of_stg c cc0_stg1_0 (xs1 m c)); iexact Hx1
  isplitl [Hx2]; · iapply (of_stg c cc0_stg2_0 (xs2 m c)); iexact Hx2
  isplitl [Hx3]; · iapply (of_stg c cc0_stg3_0 (xs3 m c)); iexact Hx3
  isplitl [Hx4]; · iapply (of_stg c cc0_stg4_0 (xs4 m c)); iexact Hx4
  isplitl [Hx5]; · iapply (of_stg c cc0_stg5_0 X5); iexact Hx5
  isplitl [Hs0]; · iapply (of_stg c cc0_scratch0 A0); iexact Hs0
  isplitl [Hq0]; · iapply (src_out0 c S0); iexact Hq0
  isplitl [Hq1]; · iapply (src_out1 c S0); iexact Hq1
  isplitl [Hq2]; · iapply (src_out2 c S0); iexact Hq2
  isplitl [Hq3]; · iapply (src_out3 c S0); iexact Hq3
  iexact Hrest

set_option maxHeartbeats 1000000 in
set_option maxRecDepth 8000 in
/-- What the run leaves, put back together: the buffers rejoined, the copies' cells closed at zero. -/
theorem end_elim (K : Dev nD × Cell → ℕ) (c : Dev nD) :
    iprop(records m K ∗ bodyEnd m c) ⊢ |={Set.univ}=> bodyPost' m ρ c := by
  unfold bodyEnd
  iintro ⟨#Hrec, ⟨%W', Ho'⟩, Hy0, Hy1, Hy2, Hy3, Hy4, Hy5, ⟨%a, Ha⟩, Hu0, Hu1, Hu2, Hu3, Hv0, Hv1, Hv2, Hv3, Hv4, Hv5, Hv6, Hv7, Hv8, Hv9, Hv10, Hv11, Hv12, Hv13, Hv14, Hv15, Hv16, Hv17, Hv18, Hv19, Hrest', HpS, HpR⟩
  ihave Hs1' := (Bridge.join_snd_ex (F := F) c) $$ [Hu0 Hu1 Hu2 Hu3]
  · isplitl [Hu0]; · iexact Hu0
    isplitl [Hu1]; · iexact Hu1
    isplitl [Hu2] <;> iassumption
  ihave Hs2' := (Bridge.join_com_ex (F := F) c) $$ [Hv0 Hv1 Hv2 Hv3 Hv4 Hv5 Hv6 Hv7 Hv8 Hv9 Hv10 Hv11 Hv12 Hv13 Hv14 Hv15 Hv16 Hv17 Hv18 Hv19 Hrest']
  · isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    isplitl [Hv6]; · iexact Hv6
    isplitl [Hv7]; · iexact Hv7
    isplitl [Hv8]; · iexact Hv8
    isplitl [Hv9]; · iexact Hv9
    isplitl [Hv10]; · iexact Hv10
    isplitl [Hv11]; · iexact Hv11
    isplitl [Hv12]; · iexact Hv12
    isplitl [Hv13]; · iexact Hv13
    isplitl [Hv14]; · iexact Hv14
    isplitl [Hv15]; · iexact Hv15
    isplitl [Hv16]; · iexact Hv16
    isplitl [Hv17]; · iexact Hv17
    isplitl [Hv18]; · iexact Hv18
    isplitl [Hv19]; · iexact Hv19
    iexact Hrest'
  imod (Bridge.close_cells m K c) $$ [HpS HpR] with ⟨HzS, HzR⟩
  · isplitr; · iexact Hrec
    isplitl [HpS] <;> iassumption
  imodintro
  unfold bodyPost' Φ₁
  isplitl [Ha Hs1' Hs2' HzS HzR]
  · isplitl [Ha]
    · iexists a; iapply (to_stg c cc0_scratch0 a); iexact Ha
    isplitl [Hs1']; · iexact Hs1'
    isplitl [Hs2']; · iexact Hs2'
    isplitl [HzS] <;> iassumption
  isplitl [Ho']
  · iexists W'; isplitr; · ipureintro; exact fun _ _ => Or.inl trivial
    iexact Ho'
  isplitl [Hy0]; · iapply (to_stg c cc0_stg0_0 (xs0 m c)); iexact Hy0
  isplitl [Hy1]; · iapply (to_stg c cc0_stg1_0 (xs1 m c)); iexact Hy1
  isplitl [Hy2]; · iapply (to_stg c cc0_stg2_0 (xs2 m c)); iexact Hy2
  isplitl [Hy3]; · iapply (to_stg c cc0_stg3_0 (xs3 m c)); iexact Hy3
  isplitl [Hy4]; · iapply (to_stg c cc0_stg4_0 (xs4 m c)); iexact Hy4
  iapply (to_stg c cc0_stg5_0 (outAt m c)); iexact Hy5

set_option maxHeartbeats 1000000 in
set_option maxRecDepth 8000 in
/-- The obligation's precondition, at some names, waits and contents, is what the run starts from (and every cell's
    invariant and round-0 mark, kept for the end). -/
theorem pre_split (c : Dev nD) :
    bodyPre' m ρ c ⊢ iprop(∃ K : Dev nD × Cell → ℕ, ∃ W : Waits sig Unit, ∃ X5 : (cc0_stg5_0 : Ref sig .tc).ty.Contents (Elt F),
      ∃ A0 : (cc0_scratch0 : Ref sig .tc).ty.Contents (Elt F), ∃ S0 : (cc0_scratch1 : Ref sig .tc).ty.Contents (Elt F),
      ∃ C0 : (cc0_scratch2 : Ref sig .tc).ty.Contents (Elt F), bodyCtx m K c W X5 A0 S0 C0 ∗ records m K) := by
  unfold bodyPre' Φ₀ start ghost
  rw [creds20]
  simp only [before_0, before_1, before_2, before_3, before_4]
  iintro ⟨⟨⟨⟨%K, #Hrec, Hlin⟩, Hc5, HcN, #Hlev⟩, ⟨%A0, Hs0⟩, ⟨%S0, Hs1⟩, ⟨%C0, Hs2⟩⟩, ⟨%W, %hW, Ho⟩, ⟨%d0, Hx0⟩, ⟨%d1, Hx1⟩, ⟨%d2, Hx2⟩, ⟨%d3, Hx3⟩, ⟨%d4, Hx4⟩, ⟨%d5, Hx5⟩⟩
  iexists K, W, ((dats m ρ 0 c).before (5 : Fin 6) t0_0 d5), A0, S0, C0
  isplitl
  · iapply (ctx_intro m ρ K c W ((dats m ρ 0 c).before (5 : Fin 6) t0_0 d5) A0 S0 C0)
    isplitr; · iexact Hrec
    isplitl [Hlin]; · iexact Hlin
    isplitr; · iexact Hlev
    isplitl [Hc5]; · iexact Hc5
    isplitl [HcN]; · iexact HcN
    isplitl [Hs0]; · iexact Hs0
    isplitl [Hs1]; · iexact Hs1
    isplitl [Hs2]; · iexact Hs2
    isplitl [Ho]; · iexact Ho
    isplitl [Hx0]; · iexact Hx0
    isplitl [Hx1]; · iexact Hx1
    isplitl [Hx2]; · iexact Hx2
    isplitl [Hx3]; · iexact Hx3
    isplitl [Hx4]; · iexact Hx4
    iexact Hx5
  · iexact Hrec

/-- The body's run, as the statement the wrapper takes it by. -/
def SoundBody : Prop :=
  ∀ (K : Dev nD × Cell → ℕ) (c : Dev nD) (W : Waits sig Unit) (X5 : (cc0_stg5_0 : Ref sig .tc).ty.Contents (Elt F))
    (A0 : (cc0_scratch0 : Ref sig .tc).ty.Contents (Elt F)) (S0 : (cc0_scratch1 : Ref sig .tc).ty.Contents (Elt F))
    (C0 : (cc0_scratch2 : Ref sig .tc).ty.Contents (Elt F)) (Kt : PUnit → sProp 𝕄),
    iprop(bodyCtx m K c W X5 A0 S0 C0 ∗ (bodyEnd m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _) (Memref.whole cc0_stg2_0) (Memref.isWhole_whole _)
        (Memref.whole cc0_stg3_0) (Memref.isWhole_whole _) (Memref.whole cc0_stg4_0) (Memref.isWhole_whole _) (Memref.whole cc0_stg5_0) (Memref.isWhole_whole _)
        (Memref.whole cc0_scratch0) (Memref.isWhole_whole _) (Memref.whole cc0_scratch1) (Memref.isWhole_whole _) (Memref.whole cc0_scratch2) (Memref.isWhole_whole _) cc0_scratch3 cc0_scratch4) Kt

/-- The body from the obligation's precondition to its postcondition: the pieces, the run, the pieces put back (under an
    update, which the run's end absorbs). -/
theorem body_pre_post (hsb : SoundBody m) (c : Dev nD) :
    bodyPre' m ρ c ⊢ wp frame (wpE (defs₀ (F := F)) 𝒱₀ c none) Set.univ
      (cc0_body (Memref.whole cc0_stg0_0) (Memref.isWhole_whole _) (Memref.whole cc0_stg1_0) (Memref.isWhole_whole _) (Memref.whole cc0_stg2_0) (Memref.isWhole_whole _)
        (Memref.whole cc0_stg3_0) (Memref.isWhole_whole _) (Memref.whole cc0_stg4_0) (Memref.isWhole_whole _) (Memref.whole cc0_stg5_0) (Memref.isWhole_whole _)
        (Memref.whole cc0_scratch0) (Memref.isWhole_whole _) (Memref.whole cc0_scratch1) (Memref.isWhole_whole _) (Memref.whole cc0_scratch2) (Memref.isWhole_whole _) cc0_scratch3 cc0_scratch4) (fun _ => bodyPost' m ρ c) :=
  ((pre_split m ρ c).trans (exists_elim fun K => exists_elim fun W => exists_elim fun X5 => exists_elim fun A0 => exists_elim fun S0 => exists_elim fun C0 =>
    (sep_mono_right (wand_intro (end_elim m ρ K c))).trans
      (hsb K c W X5 A0 S0 C0 (fun _ => iprop(|={Set.univ}=> bodyPost' m ρ c))))).trans
    (wp_fupd frame (wpE (defs₀ (F := F)) 𝒱₀ c none) Set.univ _ (fun _ => bodyPost' m ρ c))

set_option maxHeartbeats 1000000 in
set_option maxRecDepth 8000 in
/-- The library's body obligation on device `c`. -/
theorem body_obligation (hsb : SoundBody m) (c : Dev nD) : BodyObligation (dats (F := F) m ρ 0 c) (defs₀ (F := F)) 𝒱₀ () Set.univ := fun t => by
  rw [fin_N0 t]
  rw [bigSep_W0, bigSep_W0]
  simp only [owns_whole]
  exact body_pre_post m ρ hsb c

/-- info: 'Cert.Kernel.Body.body_obligation' depends on axioms: [propext, Classical.choice, Quot.sound] -/
#guard_msgs in #print axioms body_obligation

end Cert.Kernel.Body

end
-- ==== Proof.RealModel.lean ====
/-
  The mathematics of the equivalence, over the real numbers and free of any program text.

  One device holds the activations `x` (256 rows: batch `b`, position `i` at row `b·128 + i`) and a block of 512 columns
  of each projection matrix (8 heads of width 64) with the matching 512 rows of the output matrix. It computes, per head,
  unnormalised attention weights `exp(score) · [same batch]`, divides the weighted values by the row's weight sum, and
  multiplies by its rows of the output matrix: `paReal`. The reference computes, over all 128 heads, attention weights
  shifted by the row maximum (`exp(score − max)`), normalises, and multiplies by the whole output matrix: `refReal`.
  A softmax is unchanged by a shift of its scores, the mask restricts a sum over 256 rows to the 128 of the batch, and a sum
  over 8192 columns is the sum over 16 blocks of 512: so the reference is the sum of the sixteen devices' partial results.
-/
import Mathlib.Analysis.SpecialFunctions.Exp
import Mathlib.Algebra.BigOperators.Fin
import Mathlib.Algebra.BigOperators.Field
import Mathlib.Order.Fin.Basic
import Mathlib.Data.Fintype.BigOperators
import Mathlib.Tactic.FinCases
import Mathlib.Tactic.Ring
import Mathlib.Tactic.Abel

noncomputable section

namespace Cert.Proof.RealModel

open Finset BigOperators

/-! ## Indices -/

/-- Row `b·128 + i` of the flattened activations. -/
def row (b : Fin 2) (i : Fin 128) : Fin 256 := ⟨b.val * 128 + i.val, by omega⟩
/-- Column `h·64 + d` of a whole projection (128 heads). -/
def hcol (h : Fin 128) (d : Fin 64) : Fin 8192 := ⟨h.val * 64 + d.val, by omega⟩
/-- Column `h·64 + d` of one device's block (8 heads). -/
def lcol (h : Fin 8) (d : Fin 64) : Fin 512 := ⟨h.val * 64 + d.val, by omega⟩
/-- Column `dev·512 + c` of a whole projection: column `c` of device `dev`'s block. -/
def gcol (dev : Fin 16) (c : Fin 512) : Fin 8192 := ⟨dev.val * 512 + c.val, by omega⟩
/-- The head of a block column, and the position inside the head. -/
def lhead (c : Fin 512) : Fin 8 := ⟨c.val / 64, by omega⟩
def lpos (c : Fin 512) : Fin 64 := ⟨c.val % 64, Nat.mod_lt _ (by decide)⟩
def ghead (c : Fin 8192) : Fin 128 := ⟨c.val / 64, by omega⟩
def gpos (c : Fin 8192) : Fin 64 := ⟨c.val % 64, Nat.mod_lt _ (by decide)⟩

/-! ## One device's partial result (the kernel's form) -/

section Kernel
variable (x : Fin 256 → Fin 512 → ℝ) (wq wk wv wo : Fin 512 → Fin 512 → ℝ)

/-- A projection of the activations by one block. -/
def projK (w : Fin 512 → Fin 512 → ℝ) (r : Fin 256) (c : Fin 512) : ℝ := ∑ e : Fin 512, x r e * w e c
/-- The scaled score of rows `r`, `r'` in local head `h`. -/
def sK (h : Fin 8) (r r' : Fin 256) : ℝ := (∑ d : Fin 64, projK x wq r (lcol h d) * projK x wk r' (lcol h d)) * 0.125
/-- 1 when the two rows belong to one batch, else 0. -/
def maskK (r r' : Fin 256) : ℝ := if r.val / 128 = r'.val / 128 then 1 else 0
/-- The unnormalised attention weight. -/
def pK (h : Fin 8) (r r' : Fin 256) : ℝ := Real.exp (sK x wq wk h r r') * maskK r r'
/-- The normalised attention output of local head `h`. -/
def oK (h : Fin 8) (r : Fin 256) (d : Fin 64) : ℝ :=
  (∑ r' : Fin 256, pK x wq wk h r r' * projK x wv r' (lcol h d)) / (∑ r' : Fin 256, pK x wq wk h r r')
/-- The device's partial output: its attention output times its rows of the output matrix. -/
def paReal (r : Fin 256) (n : Fin 512) : ℝ := ∑ c : Fin 512, oK x wq wk wv (lhead c) r (lpos c) * wo c n
end Kernel

/-! ## The reference (its form: scores shifted by the row maximum) -/

section Reference
variable (x : Fin 2 → Fin 128 → Fin 512 → ℝ) (wq wk wv : Fin 512 → Fin 8192 → ℝ) (wo : Fin 8192 → Fin 512 → ℝ)

def projR (w : Fin 512 → Fin 8192 → ℝ) (b : Fin 2) (i : Fin 128) (c : Fin 8192) : ℝ := ∑ e : Fin 512, x b i e * w e c
def sR (b : Fin 2) (h : Fin 128) (i j : Fin 128) : ℝ :=
  (∑ d : Fin 64, projR x wq b i (hcol h d) * projR x wk b j (hcol h d)) * 0.125
/-- The row maximum of the scores. -/
def mR (b : Fin 2) (h : Fin 128) (i : Fin 128) : ℝ := Finset.univ.sup' ⟨(0 : Fin 128), Finset.mem_univ _⟩ (fun j => sR x wq wk b h i j)
def lR (b : Fin 2) (h : Fin 128) (i : Fin 128) : ℝ := ∑ j : Fin 128, Real.exp (sR x wq wk b h i j - mR x wq wk b h i)
def oR (b : Fin 2) (i : Fin 128) (h : Fin 128) (d : Fin 64) : ℝ :=
  (∑ j : Fin 128, Real.exp (sR x wq wk b h i j - mR x wq wk b h i) * projR x wv b j (hcol h d)) / lR x wq wk b h i
def refReal (b : Fin 2) (i : Fin 128) (n : Fin 512) : ℝ := ∑ c : Fin 8192, oR x wq wk wv b i (ghead c) (gpos c) * wo c n

/-- The flattened activations, a device's block of columns of a projection, and its block of rows of the output matrix. -/
def flat (r : Fin 256) (e : Fin 512) : ℝ := x ⟨r.val / 128, by omega⟩ ⟨r.val % 128, Nat.mod_lt _ (by decide)⟩ e
def blkC (dev : Fin 16) (w : Fin 512 → Fin 8192 → ℝ) (e c : Fin 512) : ℝ := w e (gcol dev c)
def blkR (dev : Fin 16) (w : Fin 8192 → Fin 512 → ℝ) (c n : Fin 512) : ℝ := w (gcol dev c) n

/-! ## Index facts -/

/-- Global head `dev·8 + h`: local head `h` of device `dev`. -/
def gh (dev : Fin 16) (h : Fin 8) : Fin 128 := ⟨dev.val * 8 + h.val, by omega⟩

theorem hcol_gh (dev : Fin 16) (h : Fin 8) (d : Fin 64) : hcol (gh dev h) d = gcol dev (lcol h d) := by
  refine Fin.ext ?_
  show (dev.val * 8 + h.val) * 64 + d.val = dev.val * 512 + (h.val * 64 + d.val)
  omega

theorem ghead_gcol (dev : Fin 16) (c : Fin 512) : ghead (gcol dev c) = gh dev (lhead c) := by
  refine Fin.ext ?_
  show (dev.val * 512 + c.val) / 64 = dev.val * 8 + c.val / 64
  omega

theorem gpos_gcol (dev : Fin 16) (c : Fin 512) : gpos (gcol dev c) = lpos c := by
  refine Fin.ext ?_
  show (dev.val * 512 + c.val) % 64 = c.val % 64
  omega

/-- Rows as batch × position. -/
def rowEquiv : Fin 2 × Fin 128 ≃ Fin 256 where
  toFun p := row p.1 p.2
  invFun r := (⟨r.val / 128, by omega⟩, ⟨r.val % 128, Nat.mod_lt _ (by decide)⟩)
  left_inv := by
    rintro ⟨b, i⟩
    refine Prod.ext (Fin.ext ?_) (Fin.ext ?_)
    · show (b.val * 128 + i.val) / 128 = b.val
      omega
    · show (b.val * 128 + i.val) % 128 = i.val
      omega
  right_inv := by
    intro r
    refine Fin.ext ?_
    show r.val / 128 * 128 + r.val % 128 = r.val
    omega

/-- Columns of a whole projection as device × block column. -/
def colEquiv : Fin 16 × Fin 512 ≃ Fin 8192 where
  toFun p := gcol p.1 p.2
  invFun c := (⟨c.val / 512, by omega⟩, ⟨c.val % 512, Nat.mod_lt _ (by decide)⟩)
  left_inv := by
    rintro ⟨dev, c⟩
    refine Prod.ext (Fin.ext ?_) (Fin.ext ?_)
    · show (dev.val * 512 + c.val) / 512 = dev.val
      omega
    · show (dev.val * 512 + c.val) % 512 = c.val
      omega
  right_inv := by
    intro c
    refine Fin.ext ?_
    show c.val / 512 * 512 + c.val % 512 = c.val
    omega

theorem sum_rows (g : Fin 256 → ℝ) : ∑ r : Fin 256, g r = ∑ b' : Fin 2, ∑ j : Fin 128, g (row b' j) := by
  rw [← rowEquiv.sum_comp g, Fintype.sum_prod_type]
  rfl

theorem sum_cols (g : Fin 8192 → ℝ) : ∑ c : Fin 8192, g c = ∑ dev : Fin 16, ∑ c' : Fin 512, g (gcol dev c') := by
  rw [← colEquiv.sum_comp g, Fintype.sum_prod_type]
  rfl

theorem maskK_row (b b' : Fin 2) (i j : Fin 128) :
    maskK (row b i) (row b' j) = if b = b' then 1 else 0 := by
  have h1 : (row b i).val / 128 = b.val := by
    show (b.val * 128 + i.val) / 128 = b.val
    omega
  have h2 : (row b' j).val / 128 = b'.val := by
    show (b'.val * 128 + j.val) / 128 = b'.val
    omega
  unfold maskK
  rw [h1, h2]
  by_cases hb : b = b'
  · rw [if_pos hb, if_pos (congrArg Fin.val hb)]
  · rw [if_neg hb, if_neg (fun h => hb (Fin.ext h))]

/-- The mask restricts a sum over the 256 rows to the 128 rows of the batch. -/
theorem sum_mask (f : Fin 256 → ℝ) (b : Fin 2) (i : Fin 128) :
    ∑ r' : Fin 256, f r' * maskK (row b i) r' = ∑ j : Fin 128, f (row b j) := by
  rw [sum_rows]
  have hb : ∀ b' : Fin 2, ∑ j : Fin 128, f (row b' j) * maskK (row b i) (row b' j)
      = if b = b' then ∑ j : Fin 128, f (row b' j) else 0 := by
    intro b'
    by_cases hb : b = b'
    · rw [if_pos hb]
      refine Finset.sum_congr rfl fun j _ => ?_
      rw [maskK_row, if_pos hb, mul_one]
    · rw [if_neg hb]
      refine Finset.sum_eq_zero fun j _ => ?_
      rw [maskK_row, if_neg hb, mul_zero]
  rw [Finset.sum_congr rfl fun b' _ => hb b', Fintype.sum_ite_eq]

/-- A softmax quotient is unchanged by a shift of its scores. -/
theorem softmax_shift {ι : Type*} [Fintype ι] (s v : ι → ℝ) (M : ℝ) :
    (∑ j, Real.exp (s j - M) * v j) / (∑ j, Real.exp (s j - M))
      = (∑ j, Real.exp (s j) * v j) / (∑ j, Real.exp (s j)) := by
  have hM : Real.exp (-M) ≠ 0 := Real.exp_ne_zero _
  have h1 : ∀ j, Real.exp (s j - M) = Real.exp (s j) * Real.exp (-M) := fun j => by
    rw [sub_eq_add_neg, Real.exp_add]
  have hn : (∑ j, Real.exp (s j - M) * v j) = (∑ j, Real.exp (s j) * v j) * Real.exp (-M) := by
    rw [Finset.sum_mul]
    refine Finset.sum_congr rfl fun j _ => ?_
    rw [h1]
    ring
  have hd : (∑ j, Real.exp (s j - M)) = (∑ j, Real.exp (s j)) * Real.exp (-M) := by
    rw [Finset.sum_mul]
    exact Finset.sum_congr rfl fun j _ => h1 j
  rw [hn, hd, mul_div_mul_right _ _ hM]

/-! ## The device's quantities are the reference's -/

theorem flat_row (b : Fin 2) (i : Fin 128) (e : Fin 512) : flat x (row b i) e = x b i e := by
  have hb : (⟨(row b i).val / 128, by omega⟩ : Fin 2) = b := by
    refine Fin.ext ?_
    show (b.val * 128 + i.val) / 128 = b.val
    omega
  have hi : (⟨(row b i).val % 128, Nat.mod_lt _ (by decide)⟩ : Fin 128) = i := by
    refine Fin.ext ?_
    show (b.val * 128 + i.val) % 128 = i.val
    omega
  unfold flat
  rw [hb, hi]

theorem projK_eq_projR (w : Fin 512 → Fin 8192 → ℝ) (dev : Fin 16) (b : Fin 2) (i : Fin 128) (c : Fin 512) :
    projK (flat x) (blkC dev w) (row b i) c = projR x w b i (gcol dev c) := by
  unfold projK projR blkC
  exact Finset.sum_congr rfl fun e _ => by rw [flat_row]

theorem sK_eq_sR (dev : Fin 16) (h : Fin 8) (b : Fin 2) (i j : Fin 128) :
    sK (flat x) (blkC dev wq) (blkC dev wk) h (row b i) (row b j) = sR x wq wk b (gh dev h) i j := by
  unfold sK sR
  congr 1
  exact Finset.sum_congr rfl fun d _ => by rw [projK_eq_projR, projK_eq_projR, hcol_gh]

theorem oK_eq_oR (dev : Fin 16) (h : Fin 8) (b : Fin 2) (i : Fin 128) (d : Fin 64) :
    oK (flat x) (blkC dev wq) (blkC dev wk) (blkC dev wv) h (row b i) d = oR x wq wk wv b i (gh dev h) d := by
  have hnum : (∑ r' : Fin 256, pK (flat x) (blkC dev wq) (blkC dev wk) h (row b i) r'
        * projK (flat x) (blkC dev wv) r' (lcol h d))
      = ∑ j : Fin 128, Real.exp (sR x wq wk b (gh dev h) i j) * projR x wv b j (hcol (gh dev h) d) := by
    have e1 : ∀ r' : Fin 256, pK (flat x) (blkC dev wq) (blkC dev wk) h (row b i) r'
          * projK (flat x) (blkC dev wv) r' (lcol h d)
        = (Real.exp (sK (flat x) (blkC dev wq) (blkC dev wk) h (row b i) r')
            * projK (flat x) (blkC dev wv) r' (lcol h d)) * maskK (row b i) r' := by
      intro r'
      unfold pK
      ring
    rw [Finset.sum_congr rfl fun r' _ => e1 r',
      sum_mask (fun r' => Real.exp (sK (flat x) (blkC dev wq) (blkC dev wk) h (row b i) r')
            * projK (flat x) (blkC dev wv) r' (lcol h d)) b i]
    exact Finset.sum_congr rfl fun j _ => by rw [sK_eq_sR, projK_eq_projR, hcol_gh]
  have hden : (∑ r' : Fin 256, pK (flat x) (blkC dev wq) (blkC dev wk) h (row b i) r')
      = ∑ j : Fin 128, Real.exp (sR x wq wk b (gh dev h) i j) := by
    unfold pK
    rw [sum_mask (fun r' => Real.exp (sK (flat x) (blkC dev wq) (blkC dev wk) h (row b i) r')) b i]
    exact Finset.sum_congr rfl fun j _ => by rw [sK_eq_sR]
  unfold oK oR lR
  rw [hnum, hden]
  exact (softmax_shift (fun j => sR x wq wk b (gh dev h) i j)
    (fun j => projR x wv b j (hcol (gh dev h) d)) (mR x wq wk b (gh dev h) i)).symm

/-- THE JOIN: the reference is the sum over the sixteen devices of their partial results. -/
theorem refReal_eq_sum_paReal (b : Fin 2) (i : Fin 128) (n : Fin 512) :
    refReal x wq wk wv wo b i n
      = ∑ dev : Fin 16, paReal (flat x) (blkC dev wq) (blkC dev wk) (blkC dev wv) (blkR dev wo) (row b i) n := by
  unfold refReal
  rw [sum_cols]
  refine Finset.sum_congr rfl fun dev _ => ?_
  unfold paReal
  refine Finset.sum_congr rfl fun c _ => ?_
  rw [ghead_gcol, gpos_gcol, oK_eq_oR]
  rfl

end Reference

/-! ## The hypercube all-reduce -/

section AllReduce
variable {M : Type*} [AddCommMonoid M]

/-- The neighbour maps `d ↦ d xor k` on sixteen devices. -/
def xr1 (d : Fin 16) : Fin 16 := ⟨d.val ^^^ 1, by revert d; decide⟩
def xr2 (d : Fin 16) : Fin 16 := ⟨d.val ^^^ 2, by revert d; decide⟩
def xr3 (d : Fin 16) : Fin 16 := ⟨d.val ^^^ 3, by revert d; decide⟩
def xr4 (d : Fin 16) : Fin 16 := ⟨d.val ^^^ 4, by revert d; decide⟩
def xr8 (d : Fin 16) : Fin 16 := ⟨d.val ^^^ 8, by revert d; decide⟩

/-- One exchange inside a group of four (neighbours xor 1, 2, 3), and the two pairwise exchanges (xor 4, xor 8). -/
def stepP (a : Fin 16 → M) (d : Fin 16) : M := ((a d + a (xr1 d)) + a (xr2 d)) + a (xr3 d)
def stepZ1 (a : Fin 16 → M) (d : Fin 16) : M := a d + a (xr4 d)
def stepZ2 (a : Fin 16 → M) (d : Fin 16) : M := a d + a (xr8 d)

theorem sum16 (a : Fin 16 → M) : ∑ e : Fin 16, a e
    = a 0 + a 1 + a 2 + a 3 + a 4 + a 5 + a 6 + a 7 + a 8 + a 9 + a 10 + a 11 + a 12 + a 13 + a 14 + a 15 := by
  simp only [Fin.sum_univ_succ, Fin.sum_univ_zero, add_zero]
  simp only [← add_assoc]
  rfl

/-- First the group of four, then xor 4, then xor 8. -/
theorem allreduce_P_Z1_Z2 (a : Fin 16 → M) (d : Fin 16) : stepZ2 (stepZ1 (stepP a)) d = ∑ e : Fin 16, a e := by
  rw [sum16]
  fin_cases d <;> (simp [stepP, stepZ1, stepZ2, xr1, xr2, xr3, xr4, xr8]; abel)

/-- First xor 4, then xor 8, then the group of four. -/
theorem allreduce_Z1_Z2_P (a : Fin 16 → M) (d : Fin 16) : stepP (stepZ2 (stepZ1 a)) d = ∑ e : Fin 16, a e := by
  rw [sum16]
  fin_cases d <;> (simp [stepP, stepZ1, stepZ2, xr1, xr2, xr3, xr4, xr8]; abel)

/-- First xor 8, then the group of four, then xor 4. -/
theorem allreduce_Z2_P_Z1 (a : Fin 16 → M) (d : Fin 16) : stepZ1 (stepP (stepZ2 a)) d = ∑ e : Fin 16, a e := by
  rw [sum16]
  fin_cases d <;> (simp [stepP, stepZ1, stepZ2, xr1, xr2, xr3, xr4, xr8]; abel)

/-- First the group of four, then xor 8, then xor 4. -/
theorem allreduce_P_Z2_Z1 (a : Fin 16 → M) (d : Fin 16) : stepZ1 (stepZ2 (stepP a)) d = ∑ e : Fin 16, a e := by
  rw [sum16]
  fin_cases d <;> (simp [stepP, stepZ1, stepZ2, xr1, xr2, xr3, xr4, xr8]; abel)

end AllReduce

end Cert.Proof.RealModel

end

/-- info: 'Cert.Proof.RealModel.allreduce_P_Z1_Z2' depends on axioms: [propext, Classical.choice, Quot.sound] -/
#guard_msgs in #print axioms Cert.Proof.RealModel.allreduce_P_Z1_Z2
/-- info: 'Cert.Proof.RealModel.allreduce_Z1_Z2_P' depends on axioms: [propext, Classical.choice, Quot.sound] -/
#guard_msgs in #print axioms Cert.Proof.RealModel.allreduce_Z1_Z2_P
/-- info: 'Cert.Proof.RealModel.allreduce_Z2_P_Z1' depends on axioms: [propext, Classical.choice, Quot.sound] -/
#guard_msgs in #print axioms Cert.Proof.RealModel.allreduce_Z2_P_Z1
/-- info: 'Cert.Proof.RealModel.allreduce_P_Z2_Z1' depends on axioms: [propext, Classical.choice, Quot.sound] -/
#guard_msgs in #print axioms Cert.Proof.RealModel.allreduce_P_Z2_Z1
/-- info: 'Cert.Proof.RealModel.refReal_eq_sum_paReal' depends on axioms: [propext, Classical.choice, Quot.sound] -/
#guard_msgs in #print axioms Cert.Proof.RealModel.refReal_eq_sum_paReal
-- ==== Proof.Inputs.lean ====
/-
  What the precondition and the block layout say about the inputs.

  The precondition states, for each of the sixteen devices, that every entry of its five argument buffers has absolute
  value below +∞: over the extended reals, that every entry is a real. Device `c` holds the activations whole and block `c`
  of 16 of each weight matrix (512 columns of the three projections, 512 rows of the output matrix); every entry of a
  whole matrix lies in exactly one block, so every entry of the reference's five arrays is a real. Hence there are real
  arrays `x, wq, wk, wv, wo` whose casts are the reference's arrays, and each device's buffers are the casts of `x` and of its
  blocks of the four matrices.
-/
import proofs.«900514_g7700000000000515_dist_attn_self_mha_htp_b2_sq128_skv128_d512_hq8_dh64_v7x_i16_bf16_1_alg».proof.Defs
import proofs.«900514_g7700000000000515_dist_attn_self_mha_htp_b2_sq128_skv128_d512_hq8_dh64_v7x_i16_bf16_1_alg».proof.Proof.Gen.Pre_finite_inputs_Kernel
import Idealize.ShloMosaic.Lib.Layout
import Idealize.ShloMosaic.Lib.ReduceAll
import Idealize.ShloMosaic.Lib.ValueIdx
import proofs.«900514_g7700000000000515_dist_attn_self_mha_htp_b2_sq128_skv128_d512_hq8_dh64_v7x_i16_bf16_1_alg».proof.Proof.RealModel

noncomputable section

namespace Cert.Proof.Inputs

open Idealize.ShloMosaic Idealize.SL.Sem Idealize.ShloMosaic.ValueIdx

/-- The scalar shape has one index. -/
instance : Subsingleton Cert.Pre_finite_inputs_Kernel.S_.Idx := ⟨fun a b => funext fun d => d.elim0⟩

/-- The pattern 0x7F800000 denotes +∞. -/
theorem inf_eq_top : (FloatOps.ofBits (F := Ideal) .f32 0x7F800000#32 : Ideal .f32) = (⊤ : EReal) := by
  show Ideal.ofBits .f32 0x7F800000#32 = ⊤
  simp [Ideal.ofBits, Ideal.ieee]

/-- An extended real whose absolute value is below +∞ is a real. -/
theorem real_of_abs_lt_inf (a : EReal)
    (h : FloatOps.cmpf (F := Ideal) (φ := .f32) .olt (FloatOps.hostAbsf (F := Ideal) (φ := .f32) a)
          (FloatOps.ofBits (F := Ideal) .f32 0x7F800000#32) = 1#1) :
    ∃ r : ℝ, a = (r : EReal) := by
  rw [inf_eq_top] at h
  induction a using EReal.rec with
  | bot => exfalso; revert h; show Ideal.cmp .olt (max (⊥ : EReal) (-⊥)) ⊤ = 1#1 → False; simp [Ideal.cmp]
  | coe r => exact ⟨r, rfl⟩
  | top => exfalso; revert h; show Ideal.cmp .olt (max (⊤ : EReal) (-⊤)) ⊤ = 1#1 → False; simp [Ideal.cmp]

open Cert.Pre_finite_inputs_Kernel in
/-- The printed predicate, all ones: every entry of each of the five buffers is a real. -/
theorem real_of_fn [Cert.Pre_finite_inputs_Kernel.Facts]
    (a0 : FVec Ideal S2x128x512 .f32) (a1 a2 a3 a4 : FVec Ideal S512x512 .f32)
    (h : Cert.Pre_finite_inputs_Kernel.fn (F := Ideal) a0 a1 a2 a3 a4 = (fun _ => 1#1)) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ValueIdx.ix0
  dsimp only [Cert.Pre_finite_inputs_Kernel.fn, Cert.Pre_finite_inputs_Kernel.fn_part1] at h0
  obtain ⟨h0123, h4⟩ := IntOp.andi_eq_one.1 (show IntOp.andi _ _ = 1#1 from h0)
  obtain ⟨h012, h3⟩ := IntOp.andi_eq_one.1 (show IntOp.andi _ _ = 1#1 from h0123)
  obtain ⟨h01, h2⟩ := IntOp.andi_eq_one.1 (show IntOp.andi _ _ = 1#1 from h012)
  obtain ⟨h0', h1⟩ := IntOp.andi_eq_one.1 (show IntOp.andi _ _ = 1#1 from h01)
  exact ⟨fun i => real_of_abs_lt_inf _ (Host.reduce_andi_all _ _ _ _ _ h0' i),
    fun i => real_of_abs_lt_inf _ (Host.reduce_andi_all _ _ _ _ _ h1 i),
    fun i => real_of_abs_lt_inf _ (Host.reduce_andi_all _ _ _ _ _ h2 i),
    fun i => real_of_abs_lt_inf _ (Host.reduce_andi_all _ _ _ _ _ h3 i),
    fun i => real_of_abs_lt_inf _ (Host.reduce_andi_all _ _ _ _ _ h4 i)⟩

/-! ## A block read at an index -/

/-- Column `c` of device `dev`'s block of 512 columns is column `dev·512 + c` of the whole array. -/
theorem block_cols_apply {α : Type} (v : (⟨2, ![512, 8192]⟩ : Shape).Idx → α)
    (hT : Layout.Tiles ⟨2, ![512, 512]⟩ ⟨2, ![512, 8192]⟩ 1 16) (dev : Fin 16) (e c : Fin 512) :
    Layout.block ⟨2, ![512, 512]⟩ ⟨2, ![512, 8192]⟩ 1 16 dev v hT (ix2 e c) = v (ix2 e (RealModel.gcol dev c)) := by
  rw [Layout.block_apply]
  congr 1
  funext a
  match a with
  | ⟨0, _⟩ => rfl
  | ⟨1, _⟩ => rfl

/-- Row `c` of device `dev`'s block of 512 rows is row `dev·512 + c` of the whole array. -/
theorem block_rows_apply {α : Type} (v : (⟨2, ![8192, 512]⟩ : Shape).Idx → α)
    (hT : Layout.Tiles ⟨2, ![512, 512]⟩ ⟨2, ![8192, 512]⟩ 0 16) (dev : Fin 16) (c n : Fin 512) :
    Layout.block ⟨2, ![512, 512]⟩ ⟨2, ![8192, 512]⟩ 0 16 dev v hT (ix2 c n) = v (ix2 (RealModel.gcol dev c) n) := by
  rw [Layout.block_apply]
  congr 1
  funext a
  match a with
  | ⟨0, _⟩ => rfl
  | ⟨1, _⟩ => rfl

/-- Every column of the whole array is a column of one block. -/
theorem gcol_div_mod (g : Fin 8192) :
    RealModel.gcol ⟨g.val / 512, by omega⟩ ⟨g.val % 512, Nat.mod_lt _ (by decide)⟩ = g := by
  apply Fin.ext
  show g.val / 512 * 512 + g.val % 512 = g.val
  omega

/-- A real read back from the extended reals. -/
theorem coe_toReal_of_real {a : EReal} (h : ∃ r : ℝ, a = (r : EReal)) : a = ((a.toReal : ℝ) : EReal) := by
  obtain ⟨r, rfl⟩ := h
  rfl

/-! ## The inputs, over plain vectors -/

open Cert.Pre_finite_inputs_Kernel in
theorem core [Cert.Pre_finite_inputs_Kernel.Facts]
    (X : FVec Ideal ⟨3, ![2, 128, 512]⟩ .f32)
    (Wq Wk Wv : FVec Ideal ⟨2, ![512, 8192]⟩ .f32) (Wo : FVec Ideal ⟨2, ![8192, 512]⟩ .f32)
    (a0 : Fin 16 → FVec Ideal ⟨3, ![2, 128, 512]⟩ .f32) (a1 a2 a3 a4 : Fin 16 → FVec Ideal ⟨2, ![512, 512]⟩ .f32)
    (hpre : ∀ c : Fin 16, Cert.Pre_finite_inputs_Kernel.fn (F := Ideal) (a0 c) (a1 c) (a2 c) (a3 c) (a4 c) = (fun _ => 1#1))
    (hT1 : Layout.Tiles ⟨2, ![512, 512]⟩ ⟨2, ![512, 8192]⟩ 1 16)
    (hT0 : Layout.Tiles ⟨2, ![512, 512]⟩ ⟨2, ![8192, 512]⟩ 0 16)
    (hag : ∀ c : Fin 16, a0 c = X
      ∧ a1 c = Layout.block ⟨2, ![512, 512]⟩ ⟨2, ![512, 8192]⟩ 1 16 c Wq hT1
      ∧ a2 c = Layout.block ⟨2, ![512, 512]⟩ ⟨2, ![8192, 512]⟩ 0 16 c Wo hT0
      ∧ a3 c = Layout.block ⟨2, ![512, 512]⟩ ⟨2, ![512, 8192]⟩ 1 16 c Wk hT1
      ∧ a4 c = Layout.block ⟨2, ![512, 512]⟩ ⟨2, ![512, 8192]⟩ 1 16 c Wv hT1) :
    ∃ (x : Fin 2 → Fin 128 → Fin 512 → ℝ) (wq wk wv : Fin 512 → Fin 8192 → ℝ) (wo : Fin 8192 → Fin 512 → ℝ),
      (∀ (b : Fin 2) (i : Fin 128) (e : Fin 512), X (ix3 b i e) = ((x b i e : ℝ) : EReal))
      ∧ (∀ (e : Fin 512) (c : Fin 8192), Wq (ix2 e c) = ((wq e c : ℝ) : EReal))
      ∧ (∀ (c : Fin 8192) (n : Fin 512), Wo (ix2 c n) = ((wo c n : ℝ) : EReal))
      ∧ (∀ (e : Fin 512) (c : Fin 8192), Wk (ix2 e c) = ((wk e c : ℝ) : EReal))
      ∧ (∀ (e : Fin 512) (c : Fin 8192), Wv (ix2 e c) = ((wv e c : ℝ) : EReal))
      ∧ ∀ dev : Fin 16,
        (∀ (b : Fin 2) (i : Fin 128) (e : Fin 512), a0 dev (ix3 b i e) = ((x b i e : ℝ) : EReal))
        ∧ (∀ (e c : Fin 512), a1 dev (ix2 e c) = ((wq e (RealModel.gcol dev c) : ℝ) : EReal))
        ∧ (∀ (c n : Fin 512), a2 dev (ix2 c n) = ((wo (RealModel.gcol dev c) n : ℝ) : EReal))
        ∧ (∀ (e c : Fin 512), a3 dev (ix2 e c) = ((wk e (RealModel.gcol dev c) : ℝ) : EReal))
        ∧ (∀ (e c : Fin 512), a4 dev (ix2 e c) = ((wv e (RealModel.gcol dev c) : ℝ) : EReal)) := by
  have hfin := fun c : Fin 16 => real_of_fn (a0 c) (a1 c) (a2 c) (a3 c) (a4 c) (hpre c)
  -- the blocks read at an index
  have hb0 : ∀ (dev : Fin 16) (j : (⟨3, ![2, 128, 512]⟩ : Shape).Idx), a0 dev j = X j := fun dev j => congrFun (hag dev).1 j
  have hb1 : ∀ (dev : Fin 16) (e c : Fin 512), a1 dev (ix2 e c) = Wq (ix2 e (RealModel.gcol dev c)) := fun dev e c =>
    (congrFun (hag dev).2.1 (ix2 e c)).trans (block_cols_apply Wq hT1 dev e c)
  have hb2 : ∀ (dev : Fin 16) (c n : Fin 512), a2 dev (ix2 c n) = Wo (ix2 (RealModel.gcol dev c) n) := fun dev c n =>
    (congrFun (hag dev).2.2.1 (ix2 c n)).trans (block_rows_apply Wo hT0 dev c n)
  have hb3 : ∀ (dev : Fin 16) (e c : Fin 512), a3 dev (ix2 e c) = Wk (ix2 e (RealModel.gcol dev c)) := fun dev e c =>
    (congrFun (hag dev).2.2.2.1 (ix2 e c)).trans (block_cols_apply Wk hT1 dev e c)
  have hb4 : ∀ (dev : Fin 16) (e c : Fin 512), a4 dev (ix2 e c) = Wv (ix2 e (RealModel.gcol dev c)) := fun dev e c =>
    (congrFun (hag dev).2.2.2.2 (ix2 e c)).trans (block_cols_apply Wv hT1 dev e c)
  -- every entry of every whole array is a real
  have hX : ∀ j, ∃ r : ℝ, X j = (r : EReal) := fun j => by
    have := (hfin 0).1 j; rwa [hb0] at this
  have hWq : ∀ (e : Fin 512) (g : Fin 8192), ∃ r : ℝ, Wq (ix2 e g) = (r : EReal) := fun e g => by
    have := (hfin ⟨g.val / 512, by omega⟩).2.1 (ix2 e ⟨g.val % 512, Nat.mod_lt _ (by decide)⟩)
    rwa [hb1, gcol_div_mod] at this
  have hWo : ∀ (g : Fin 8192) (n : Fin 512), ∃ r : ℝ, Wo (ix2 g n) = (r : EReal) := fun g n => by
    have := (hfin ⟨g.val / 512, by omega⟩).2.2.1 (ix2 ⟨g.val % 512, Nat.mod_lt _ (by decide)⟩ n)
    rwa [hb2, gcol_div_mod] at this
  have hWk : ∀ (e : Fin 512) (g : Fin 8192), ∃ r : ℝ, Wk (ix2 e g) = (r : EReal) := fun e g => by
    have := (hfin ⟨g.val / 512, by omega⟩).2.2.2.1 (ix2 e ⟨g.val % 512, Nat.mod_lt _ (by decide)⟩)
    rwa [hb3, gcol_div_mod] at this
  have hWv : ∀ (e : Fin 512) (g : Fin 8192), ∃ r : ℝ, Wv (ix2 e g) = (r : EReal) := fun e g => by
    have := (hfin ⟨g.val / 512, by omega⟩).2.2.2.2 (ix2 e ⟨g.val % 512, Nat.mod_lt _ (by decide)⟩)
    rwa [hb4, gcol_div_mod] at this
  refine ⟨fun b i e => (X (ix3 b i e)).toReal, fun e c => (Wq (ix2 e c)).toReal, fun e c => (Wk (ix2 e c)).toReal,
    fun e c => (Wv (ix2 e c)).toReal, fun c n => (Wo (ix2 c n)).toReal,
    fun b i e => coe_toReal_of_real (hX _), fun e c => coe_toReal_of_real (hWq e c), fun c n => coe_toReal_of_real (hWo c n),
    fun e c => coe_toReal_of_real (hWk e c), fun e c => coe_toReal_of_real (hWv e c), fun dev => ⟨?_, ?_, ?_, ?_, ?_⟩⟩
  · intro b i e; rw [hb0]; exact coe_toReal_of_real (hX _)
  · intro e c; rw [hb1]; exact coe_toReal_of_real (hWq _ _)
  · intro c n; rw [hb2]; exact coe_toReal_of_real (hWo _ _)
  · intro e c; rw [hb3]; exact coe_toReal_of_real (hWk _ _)
  · intro e c; rw [hb4]; exact coe_toReal_of_real (hWv _ _)

/-! ## The inputs of the two programs -/

/-- Under the precondition and the block layout: the reference's five arrays are real arrays, and every device's
    buffers hold the activations and its blocks of those arrays. -/
theorem inputs_real [hPre_finite_inputs_Kernel : Cert.Pre_finite_inputs_Kernel.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 512]⟩ ⟨2, ![512, 8192]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 512]⟩ ⟨2, ![8192, 512]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 512]⟩ ⟨2, ![512, 8192]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 512]⟩ ⟨2, ![512, 8192]⟩ 1 16 c (m' (((0 : Dev Cert.ReferenceIdeal.nD).tc : Thread Cert.ReferenceIdeal.nD Cert.ReferenceIdeal.τ).loc Cert.ReferenceIdeal.main_arg4))) :
    ∃ (x : Fin 2 → Fin 128 → Fin 512 → ℝ) (wq wk wv : Fin 512 → Fin 8192 → ℝ) (wo : Fin 8192 → Fin 512 → ℝ),
      (∀ (b : Fin 2) (i : Fin 128) (e : Fin 512), m' (((0 : Dev Cert.ReferenceIdeal.nD).tc : Thread Cert.ReferenceIdeal.nD Cert.ReferenceIdeal.τ).loc Cert.ReferenceIdeal.main_arg0) (ix3 b i e) = ((x b i e : ℝ) : EReal))
      ∧ (∀ (e : Fin 512) (c : Fin 8192), m' (((0 : Dev Cert.ReferenceIdeal.nD).tc : Thread Cert.ReferenceIdeal.nD Cert.ReferenceIdeal.τ).loc Cert.ReferenceIdeal.main_arg1) (ix2 e c) = ((wq e c : ℝ) : EReal))
      ∧ (∀ (c : Fin 8192) (n : Fin 512), m' (((0 : Dev Cert.ReferenceIdeal.nD).tc : Thread Cert.ReferenceIdeal.nD Cert.ReferenceIdeal.τ).loc Cert.ReferenceIdeal.main_arg2) (ix2 c n) = ((wo c n : ℝ) : EReal))
      ∧ (∀ (e : Fin 512) (c : Fin 8192), m' (((0 : Dev Cert.ReferenceIdeal.nD).tc : Thread Cert.ReferenceIdeal.nD Cert.ReferenceIdeal.τ).loc Cert.ReferenceIdeal.main_arg3) (ix2 e c) = ((wk e c : ℝ) : EReal))
      ∧ (∀ (e : Fin 512) (c : Fin 8192), m' (((0 : Dev Cert.ReferenceIdeal.nD).tc : Thread Cert.ReferenceIdeal.nD Cert.ReferenceIdeal.τ).loc Cert.ReferenceIdeal.main_arg4) (ix2 e c) = ((wv e c : ℝ) : EReal))
      ∧ ∀ dev : Dev Cert.KernelIdeal.nD,
        (∀ (b : Fin 2) (i : Fin 128) (e : Fin 512), m ((dev.tc : Thread Cert.KernelIdeal.nD Cert.KernelIdeal.τ).loc Cert.KernelIdeal.main_arg0) (ix3 b i e) = ((x b i e : ℝ) : EReal))
        ∧ (∀ (e c : Fin 512), m ((dev.tc : Thread Cert.KernelIdeal.nD Cert.KernelIdeal.τ).loc Cert.KernelIdeal.main_arg1) (ix2 e c) = ((wq e (RealModel.gcol dev c) : ℝ) : EReal))
        ∧ (∀ (c n : Fin 512), m ((dev.tc : Thread Cert.KernelIdeal.nD Cert.KernelIdeal.τ).loc Cert.KernelIdeal.main_arg2) (ix2 c n) = ((wo (RealModel.gcol dev c) n : ℝ) : EReal))
        ∧ (∀ (e c : Fin 512), m ((dev.tc : Thread Cert.KernelIdeal.nD Cert.KernelIdeal.τ).loc Cert.KernelIdeal.main_arg3) (ix2 e c) = ((wk e (RealModel.gcol dev c) : ℝ) : EReal))
        ∧ (∀ (e c : Fin 512), m ((dev.tc : Thread Cert.KernelIdeal.nD Cert.KernelIdeal.τ).loc Cert.KernelIdeal.main_arg4) (ix2 e c) = ((wv e (RealModel.gcol dev c) : ℝ) : EReal)) :=
  core (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg3)) (m' (((0 : Dev Cert.ReferenceIdeal.nD).tc : Thread Cert.ReferenceIdeal.nD Cert.ReferenceIdeal.τ).loc Cert.ReferenceIdeal.main_arg4)) (m' (((0 : Dev Cert.ReferenceIdeal.nD).tc : Thread Cert.ReferenceIdeal.nD Cert.ReferenceIdeal.τ).loc Cert.ReferenceIdeal.main_arg2))
    (fun c : Dev Cert.KernelIdeal.nD => m ((c.tc : Thread Cert.KernelIdeal.nD Cert.KernelIdeal.τ).loc Cert.KernelIdeal.main_arg0)) (fun c : Dev Cert.KernelIdeal.nD => m ((c.tc : Thread Cert.KernelIdeal.nD Cert.KernelIdeal.τ).loc Cert.KernelIdeal.main_arg1)) (fun c : Dev Cert.KernelIdeal.nD => m ((c.tc : Thread Cert.KernelIdeal.nD Cert.KernelIdeal.τ).loc Cert.KernelIdeal.main_arg2))
    (fun c : Dev Cert.KernelIdeal.nD => m ((c.tc : Thread Cert.KernelIdeal.nD Cert.KernelIdeal.τ).loc Cert.KernelIdeal.main_arg3)) (fun c : Dev Cert.KernelIdeal.nD => m ((c.tc : Thread Cert.KernelIdeal.nD Cert.KernelIdeal.τ).loc Cert.KernelIdeal.main_arg4))
    hpre (by decide) (by decide) hagree

/-- info: 'Cert.Proof.Inputs.inputs_real' depends on axioms: [propext, Classical.choice, Quot.sound] -/
#guard_msgs in #print axioms inputs_real

end Cert.Proof.Inputs

end
-- ==== Proof.AccValue.lean ====
/-
  The all-reduce read at the extended reals. A format change is the identity there and a reshape to the five-axis
  receive slot and back is the identity on the values, so receiving a partner's running sum adds it entry by entry;
  the five exchange partners of a device are the devices that differ from it by 1, 2, 3, 4, 8 in binary; hence each of
  the four orders of the three exchange steps leaves, at every device, the sum of the sixteen devices' partial results.
-/
import proofs.«900514_g7700000000000515_dist_attn_self_mha_htp_b2_sq128_skv128_d512_hq8_dh64_v7x_i16_bf16_1_alg».proof.Proof.KernelIdealTerms
import proofs.«900514_g7700000000000515_dist_attn_self_mha_htp_b2_sq128_skv128_d512_hq8_dh64_v7x_i16_bf16_1_alg».proof.Proof.RealModel
import Idealize.ShloMosaic.Lib.Pipeline.Value
import Idealize.ShloMosaic.PureOps.Ideal

noncomputable section

namespace Cert.Proof.AccValue

open Cert.KernelIdeal Cert.KernelIdeal.Gen Cert.KernelIdeal.Terms Idealize.ShloMosaic
open Finset BigOperators

/-- Receiving what a partner sent adds the partner's running sum, entry by entry. -/
theorem rcv_wire (a b : FVec Ideal S256x128 .f32) :
    rcv (F := Ideal) a (wire b) = fun i => a i + b i := by
  funext i
  unfold rcv wire
  rw [shapeCast_shapeCast]
  rfl

/-- The same, as a sum of vectors. -/
theorem rcv_wire_add (a b : FVec Ideal S256x128 .f32) :
    rcv (F := Ideal) a (wire b) = (a + b : S256x128.Idx → EReal) := rcv_wire a b

/-! The five partners are the devices at binary distance 1, 2, 3, 4, 8. -/
theorem px0_eq (d : Dev nD) : px 0 d = Cert.Proof.RealModel.xr1 d := Fin.ext rfl
theorem px1_eq (d : Dev nD) : px 1 d = Cert.Proof.RealModel.xr2 d := Fin.ext rfl
theorem px2_eq (d : Dev nD) : px 2 d = Cert.Proof.RealModel.xr3 d := Fin.ext rfl
theorem px3_eq (d : Dev nD) : px 3 d = Cert.Proof.RealModel.xr4 d := Fin.ext rfl
theorem px4_eq (d : Dev nD) : px 4 d = Cert.Proof.RealModel.xr8 d := Fin.ext rfl

/-! The three exchange steps are the abstract ones, on vectors of extended reals under entrywise addition. -/
theorem stepP_eq (p : Dev nD → FVec Ideal S256x128 .f32) :
    Terms.stepP (F := Ideal) p = Cert.Proof.RealModel.stepP (M := S256x128.Idx → EReal) p := by
  funext d
  unfold Terms.stepP Cert.Proof.RealModel.stepP
  rw [rcv_wire_add, rcv_wire_add, rcv_wire_add, px0_eq, px1_eq, px2_eq]

theorem stepZ1_eq (p : Dev nD → FVec Ideal S256x128 .f32) :
    Terms.stepZ1 (F := Ideal) p = Cert.Proof.RealModel.stepZ1 (M := S256x128.Idx → EReal) p := by
  funext d
  unfold Terms.stepZ1 Cert.Proof.RealModel.stepZ1
  rw [rcv_wire_add, px3_eq]

theorem stepZ2_eq (p : Dev nD → FVec Ideal S256x128 .f32) :
    Terms.stepZ2 (F := Ideal) p = Cert.Proof.RealModel.stepZ2 (M := S256x128.Idx → EReal) p := by
  funext d
  unfold Terms.stepZ2 Cert.Proof.RealModel.stepZ2
  rw [rcv_wire_add, px4_eq]

/-- Each chunk's three exchange steps leave, at every device, the sum over the sixteen devices. -/
theorem red0_value (p : Dev nD → FVec Ideal S256x128 .f32) (d : Dev nD) (i : S256x128.Idx) :
    red0 (F := Ideal) p d i = ∑ e : Fin 16, p e i := by
  unfold red0
  rw [stepP_eq, stepZ1_eq, stepZ2_eq, Cert.Proof.RealModel.allreduce_P_Z1_Z2, Finset.sum_apply]

theorem red1_value (p : Dev nD → FVec Ideal S256x128 .f32) (d : Dev nD) (i : S256x128.Idx) :
    red1 (F := Ideal) p d i = ∑ e : Fin 16, p e i := by
  unfold red1
  rw [stepZ1_eq, stepZ2_eq, stepP_eq, Cert.Proof.RealModel.allreduce_Z1_Z2_P, Finset.sum_apply]

theorem red2_value (p : Dev nD → FVec Ideal S256x128 .f32) (d : Dev nD) (i : S256x128.Idx) :
    red2 (F := Ideal) p d i = ∑ e : Fin 16, p e i := by
  unfold red2
  rw [stepZ2_eq, stepP_eq, stepZ1_eq, Cert.Proof.RealModel.allreduce_Z2_P_Z1, Finset.sum_apply]

theorem red3_value (p : Dev nD → FVec Ideal S256x128 .f32) (d : Dev nD) (i : S256x128.Idx) :
    red3 (F := Ideal) p d i = ∑ e : Fin 16, p e i := by
  unfold red3
  rw [stepP_eq, stepZ2_eq, stepZ1_eq, Cert.Proof.RealModel.allreduce_P_Z2_Z1, Finset.sum_apply]

end Cert.Proof.AccValue

end

/-- info: 'Cert.Proof.AccValue.rcv_wire' depends on axioms: [propext, Classical.choice, Quot.sound] -/
#guard_msgs in #print axioms Cert.Proof.AccValue.rcv_wire
/-- info: 'Cert.Proof.AccValue.red0_value' depends on axioms: [propext, Classical.choice, Quot.sound] -/
#guard_msgs in #print axioms Cert.Proof.AccValue.red0_value
/-- info: 'Cert.Proof.AccValue.red1_value' depends on axioms: [propext, Classical.choice, Quot.sound] -/
#guard_msgs in #print axioms Cert.Proof.AccValue.red1_value
/-- info: 'Cert.Proof.AccValue.red2_value' depends on axioms: [propext, Classical.choice, Quot.sound] -/
#guard_msgs in #print axioms Cert.Proof.AccValue.red2_value
/-- info: 'Cert.Proof.AccValue.red3_value' depends on axioms: [propext, Classical.choice, Quot.sound] -/
#guard_msgs in #print axioms Cert.Proof.AccValue.red3_value
-- ==== Proof.RefValue.lean ====
/-
  The reference's value, over the real numbers.

  The reference is a straight-line program of forty-one array operations. Read one operation at a time at the
  extended reals, where every operation is exact, it computes from real arguments: the three projections, the scaled
  scores, their row maximum (a maximum from −∞ over a row of reals is the row's real maximum), the exponentials of
  the scores shifted by that maximum, their row sum (a positive real), the weighted values, the quotient, and the
  product with the output matrix. The one online-softmax step starts from maximum −∞, sum 0 and output 0, so the
  rescaling factor exp(−∞ − m) multiplies zeros and drops out. Each stage below says: the stage at an index is the
  coercion of the real quantity of that name; the last one is the reference's result, the coercion of `refReal`.
-/
import proofs.«900514_g7700000000000515_dist_attn_self_mha_htp_b2_sq128_skv128_d512_hq8_dh64_v7x_i16_bf16_1_alg».proof.Proof.RealModel
import proofs.«900514_g7700000000000515_dist_attn_self_mha_htp_b2_sq128_skv128_d512_hq8_dh64_v7x_i16_bf16_1_alg».proof.Proof.Gen.ReferenceIdeal.Read
import Mathlib.Data.EReal.Basic
import Mathlib.Data.EReal.Operations
import Mathlib.Data.EReal.Inv
import Mathlib.Analysis.SpecialFunctions.Exp
import Mathlib.Algebra.BigOperators.Fin
import Mathlib.Algebra.BigOperators.Field
import Mathlib.Algebra.Order.BigOperators.Group.Finset
import Mathlib.Order.Fin.Basic

noncomputable section

namespace Cert.Proof.RefValue

open Idealize.ShloMosaic Idealize.ShloMosaic.ValueIdx
open Cert.ReferenceIdeal Cert.ReferenceIdeal.Gen Cert.ReferenceIdeal.Read
open Cert.Proof.RealModel

/-! ## The extended reals: coercion of a sum, the three constants -/

/-- The coercion of a finite sum of reals is the sum of the coercions. -/
theorem coe_sum {ι : Type} (s : Finset ι) (f : ι → ℝ) :
    ((∑ i ∈ s, f i : ℝ) : EReal) = ∑ i ∈ s, ((f i : ℝ) : EReal) :=
  map_sum (⟨⟨Real.toEReal, EReal.coe_zero⟩, EReal.coe_add⟩ : ℝ →+ EReal) f s

/-- The pattern of −∞ is the bottom of the extended reals. -/
theorem ofBits_neg_inf : Ideal.ofBits .f32 0xFF800000#32 = (⊥ : EReal) := by
  simp [Ideal.ofBits, Ideal.ieee]

/-- The pattern of 0.125 is the real 0.125. -/
theorem ofBits_eighth : Ideal.ofBits .f32 0x3E000000#32 = ((0.125 : ℝ) : EReal) := by
  simp [Ideal.ofBits, Ideal.ieee]
  norm_num
  rw [← EReal.coe_mul]
  norm_num

/-- The maximum from −∞ over a finite nonempty family of reals is the coercion of the family's maximum. -/
theorem fold_max_coe (g : Fin 128 → ℝ) :
    (Finset.univ : Finset (Fin 128)).fold max (⊥ : EReal) (fun k => ((g k : ℝ) : EReal))
      = ((Finset.univ.sup' ⟨(0 : Fin 128), Finset.mem_univ _⟩ g : ℝ) : EReal) := by
  have e : (Finset.univ : Finset (Fin 128)).fold max (⊥ : EReal) (fun k => ((g k : ℝ) : EReal))
      = Finset.univ.sup (fun k => ((g k : ℝ) : EReal)) := rfl
  rw [e]
  apply le_antisymm
  · exact Finset.sup_le fun k _ => EReal.coe_le_coe_iff.2 (Finset.le_sup' g (Finset.mem_univ k))
  · obtain ⟨k, _, hk⟩ := Finset.exists_mem_eq_sup' ⟨(0 : Fin 128), Finset.mem_univ _⟩ g
    rw [hk]
    exact Finset.le_sup (f := fun k => ((g k : ℝ) : EReal)) (Finset.mem_univ k)

section Stages

variable (x : Fin 2 → Fin 128 → Fin 512 → ℝ) (wq wk wv : Fin 512 → Fin 8192 → ℝ) (wo : Fin 8192 → Fin 512 → ℝ)
variable (X0 : (⟨S2x128x512, .f32⟩ : BufTy).Contents (Elt Ideal)) (X1 : (⟨S512x8192, .f32⟩ : BufTy).Contents (Elt Ideal))
variable (X2 : (⟨S8192x512, .f32⟩ : BufTy).Contents (Elt Ideal)) (X3 X4 : (⟨S512x8192, .f32⟩ : BufTy).Contents (Elt Ideal))

/-! ## The projections -/

/-- A projection of the activations by a matrix of reals, at (b, i, c). -/
theorem proj_value (w : Fin 512 → Fin 8192 → ℝ) (W : (⟨S512x8192, .f32⟩ : BufTy).Contents (Elt Ideal))
    (h0 : ∀ b i e, X0 (ix3 b i e) = ((x b i e : ℝ) : EReal)) (hw : ∀ e c, W (ix2 e c) = ((w e c : ℝ) : EReal))
    (b : Fin 2) (i : Fin 128) (c : Fin 8192) :
    val_main_v0 (F := Ideal) X0 W (ix3 b i c) = ((projR x w b i c : ℝ) : EReal) := by
  rw [val_main_v0_apply]
  unfold projR
  rw [coe_sum]
  refine Finset.sum_congr rfl fun k _ => ?_
  have el : lidx_main_v0 (ix3 b i c) k = ix3 b i k := funext fun a => Fin.ext (by
    match a with | ⟨0, _⟩ => rfl | ⟨1, _⟩ => rfl | ⟨2, _⟩ => rfl)
  have er : ridx_main_v0 (ix3 b i c) k = ix2 k c := funext fun a => Fin.ext (by
    match a with | ⟨0, _⟩ => rfl | ⟨1, _⟩ => rfl)
  rw [el, er, h0, hw, EReal.coe_mul]

/-- The projection split into heads: element (b, i, h, d) is column h·64 + d. -/
theorem head_value (w : Fin 512 → Fin 8192 → ℝ) (W : (⟨S512x8192, .f32⟩ : BufTy).Contents (Elt Ideal))
    (h0 : ∀ b i e, X0 (ix3 b i e) = ((x b i e : ℝ) : EReal)) (hw : ∀ e c, W (ix2 e c) = ((w e c : ℝ) : EReal))
    (b : Fin 2) (i : Fin 128) (h : Fin 128) (d : Fin 64) :
    val_main_v1 (F := Ideal) X0 W (ix4 b i h d) = ((projR x w b i (hcol h d) : ℝ) : EReal) := by
  rw [val_main_v1_apply]
  have e : idx_main_v1 (ix4 b i h d) = ix3 b i (hcol h d) := funext fun a => Fin.ext (by
    have hb := b.isLt; have hi := i.isLt; have hh := h.isLt; have hd := d.isLt
    match a with
    | ⟨0, _⟩ => show (((b.val * 128 + i.val) * 128 + h.val) * 64 + d.val) / 1048576 = b.val; omega
    | ⟨1, _⟩ => show (((b.val * 128 + i.val) * 128 + h.val) * 64 + d.val) / 8192 % 128 = i.val; omega
    | ⟨2, _⟩ => show (((b.val * 128 + i.val) * 128 + h.val) * 64 + d.val) % 8192 = h.val * 64 + d.val; omega)
  rw [e]
  exact proj_value x X0 w W h0 hw b i (hcol h d)

/-! ## The scores and their row maximum -/

/-- The scaled score of query i and key j in head h of batch b. -/
theorem score_value
    (h0 : ∀ b i e, X0 (ix3 b i e) = ((x b i e : ℝ) : EReal)) (h1 : ∀ e c, X1 (ix2 e c) = ((wq e c : ℝ) : EReal))
    (h3 : ∀ e c, X3 (ix2 e c) = ((wk e c : ℝ) : EReal)) (b : Fin 2) (h i j : Fin 128) :
    val_main_v11 (F := Ideal) X0 X1 X3 (ix4 b h i j) = ((sR x wq wk b h i j : ℝ) : EReal) := by
  rw [val_main_v11_apply, val_main_v9_apply, val_main_v10_apply, val_main_cst_2_apply, Ideal.mulf_def, Ideal.ofBits_def,
    ofBits_eighth]
  unfold sR
  rw [EReal.coe_mul, coe_sum]
  congr 1
  refine Finset.sum_congr rfl fun k _ => ?_
  have el : lidx_main_v9 (ix4 b h i j) k = ix4 b i h k := funext fun a => Fin.ext (by
    match a with | ⟨0, _⟩ => rfl | ⟨1, _⟩ => rfl | ⟨2, _⟩ => rfl | ⟨3, _⟩ => rfl)
  have er : ridx_main_v9 (ix4 b h i j) k = ix4 b j h k := funext fun a => Fin.ext (by
    match a with | ⟨0, _⟩ => rfl | ⟨1, _⟩ => rfl | ⟨2, _⟩ => rfl | ⟨3, _⟩ => rfl)
  have e3 : val_main_v3 (F := Ideal) X0 X3 = val_main_v1 (F := Ideal) X0 X3 := rfl
  rw [el, er, e3, head_value x X0 wq X1 h0 h1, head_value x X0 wk X3 h0 h3, EReal.coe_mul]

/-- The row maximum of the scores: a maximum from −∞ over the 128 keys. -/
theorem max_value
    (h0 : ∀ b i e, X0 (ix3 b i e) = ((x b i e : ℝ) : EReal)) (h1 : ∀ e c, X1 (ix2 e c) = ((wq e c : ℝ) : EReal))
    (h3 : ∀ e c, X3 (ix2 e c) = ((wk e c : ℝ) : EReal)) (b : Fin 2) (h i : Fin 128) :
    val_main_v12 (F := Ideal) X0 X1 X3 (ix3 b h i) = ((mR x wq wk b h i : ℝ) : EReal) := by
  unfold val_main_v12
  have hr : S2x128x128x128.Reduces [3] S2x128x128 := by decide
  rw [Host.reduce_eq_fold_single FloatOps.maximumf _ _ reducesTo_S2x128x128x128_S2x128x128_d3 hr h_S_]
  have hf : (val_main_v11 (F := Ideal) X0 X1 X3 ∘ hr.lift (ix3 b h i))
      = fun k : Fin 128 => ((sR x wq wk b h i k : ℝ) : EReal) := funext fun k => by
    have e : hr.lift (ix3 b h i) k = ix4 b h i k := funext fun a => Fin.ext (by
      match a with | ⟨0, _⟩ => rfl | ⟨1, _⟩ => rfl | ⟨2, _⟩ => rfl | ⟨3, _⟩ => rfl)
    show val_main_v11 (F := Ideal) X0 X1 X3 (hr.lift (ix3 b h i) k) = _
    rw [e]
    exact score_value x wq wk X0 X1 X3 h0 h1 h3 b h i k
  rw [val_main_cst_3_apply, Ideal.ofBits_def, ofBits_neg_inf]
  show (Finset.univ : Finset (Fin 128)).fold max (⊥ : EReal) (val_main_v11 (F := Ideal) X0 X1 X3 ∘ hr.lift (ix3 b h i)) = _
  rw [hf]
  exact fold_max_coe fun k => sR x wq wk b h i k

/-- The running maximum after the one step: the maximum of −∞ and the row maximum. -/
theorem newmax_value
    (h0 : ∀ b i e, X0 (ix3 b i e) = ((x b i e : ℝ) : EReal)) (h1 : ∀ e c, X1 (ix2 e c) = ((wq e c : ℝ) : EReal))
    (h3 : ∀ e c, X3 (ix2 e c) = ((wk e c : ℝ) : EReal)) (b : Fin 2) (h i : Fin 128) (z : Fin 1) :
    val_main_v14 (F := Ideal) X0 X1 X3 (ix4 b h i z) = ((mR x wq wk b h i : ℝ) : EReal) := by
  rw [val_main_v14_apply, val_main_v7_apply, val_main_cst_0_apply, val_main_v13_apply, Ideal.maximumf_def, Ideal.ofBits_def,
    ofBits_neg_inf]
  have e : idx_main_v13 (ix4 b h i z) = ix3 b h i := funext fun a => Fin.ext (by
    match a with | ⟨0, _⟩ => rfl | ⟨1, _⟩ => rfl | ⟨2, _⟩ => rfl)
  rw [e, max_value x wq wk X0 X1 X3 h0 h1 h3]
  exact max_eq_right bot_le

/-! ## The shifted exponentials and their row sum -/

/-- The weight of key j: the exponential of the score less the row maximum. -/
theorem weight_value
    (h0 : ∀ b i e, X0 (ix3 b i e) = ((x b i e : ℝ) : EReal)) (h1 : ∀ e c, X1 (ix2 e c) = ((wq e c : ℝ) : EReal))
    (h3 : ∀ e c, X3 (ix2 e c) = ((wk e c : ℝ) : EReal)) (b : Fin 2) (h i j : Fin 128) :
    val_main_v19 (F := Ideal) X0 X1 X3 (ix4 b h i j)
      = ((Real.exp (sR x wq wk b h i j - mR x wq wk b h i) : ℝ) : EReal) := by
  rw [val_main_v19_apply, val_main_v18_apply, val_main_v17_apply, Ideal.hostUnary_exp_def, Ideal.subf_def]
  have e : idx_main_v17 (ix4 b h i j) = ix4 b h i (0 : Fin 1) := funext fun a => Fin.ext (by
    match a with | ⟨0, _⟩ => rfl | ⟨1, _⟩ => rfl | ⟨2, _⟩ => rfl | ⟨3, _⟩ => rfl)
  rw [e, newmax_value x wq wk X0 X1 X3 h0 h1 h3, score_value x wq wk X0 X1 X3 h0 h1 h3, ← EReal.coe_sub, Ideal.exp_coe]

/-- The row sum of the weights. -/
theorem rowsum_value
    (h0 : ∀ b i e, X0 (ix3 b i e) = ((x b i e : ℝ) : EReal)) (h1 : ∀ e c, X1 (ix2 e c) = ((wq e c : ℝ) : EReal))
    (h3 : ∀ e c, X3 (ix2 e c) = ((wk e c : ℝ) : EReal)) (b : Fin 2) (h i : Fin 128) :
    val_main_v21 (F := Ideal) X0 X1 X3 (ix3 b h i) = ((lR x wq wk b h i : ℝ) : EReal) := by
  rw [val_main_v21_apply, val_main_cst_4_apply, Ideal.ofBits_def, Ideal.ofBits_zero_f32, zero_add]
  unfold lR
  rw [coe_sum]
  refine Finset.sum_congr rfl fun k _ => ?_
  have e : idx_main_v21 (ix3 b h i) k = ix4 b h i k := funext fun a => Fin.ext (by
    match a with | ⟨0, _⟩ => rfl | ⟨1, _⟩ => rfl | ⟨2, _⟩ => rfl | ⟨3, _⟩ => rfl)
  rw [e, weight_value x wq wk X0 X1 X3 h0 h1 h3]

/-- The running sum after the one step, 0 · exp(−∞ − m) + the row sum, laid along the head axis of the output. -/
theorem denom_value
    (h0 : ∀ b i e, X0 (ix3 b i e) = ((x b i e : ℝ) : EReal)) (h1 : ∀ e c, X1 (ix2 e c) = ((wq e c : ℝ) : EReal))
    (h3 : ∀ e c, X3 (ix2 e c) = ((wk e c : ℝ) : EReal)) (b : Fin 2) (i h : Fin 128) (d : Fin 64) :
    val_main_v31 (F := Ideal) X0 X1 X3 (ix4 b i h d) = ((lR x wq wk b h i : ℝ) : EReal) := by
  rw [val_main_v31_apply, val_main_v30_apply, val_main_v23_apply, val_main_v20_apply, val_main_v8_apply, val_main_cst_1_apply,
    val_main_v22_apply, Ideal.addf_def, Ideal.mulf_def, Ideal.ofBits_def, Ideal.ofBits_zero_f32, zero_mul, zero_add]
  have e : idx_main_v22 (idx_main_v30 (idx_main_v31 (ix4 b i h d))) = ix3 b h i := funext fun a => Fin.ext (by
    match a with | ⟨0, _⟩ => rfl | ⟨1, _⟩ => rfl | ⟨2, _⟩ => rfl)
  rw [e]
  exact rowsum_value x wq wk X0 X1 X3 h0 h1 h3 b h i

/-- The row sum is positive: a sum of exponentials over a nonempty range. -/
theorem lR_pos (b : Fin 2) (h i : Fin 128) : 0 < lR x wq wk b h i :=
  Finset.sum_pos (fun _ _ => Real.exp_pos _) ⟨(0 : Fin 128), Finset.mem_univ _⟩

/-! ## The weighted values, the quotient, the output product -/

/-- The weighted values: 0 · exp(−∞ − m) + the sum over the keys of value times weight. -/
theorem numer_value
    (h0 : ∀ b i e, X0 (ix3 b i e) = ((x b i e : ℝ) : EReal)) (h1 : ∀ e c, X1 (ix2 e c) = ((wq e c : ℝ) : EReal))
    (h3 : ∀ e c, X3 (ix2 e c) = ((wk e c : ℝ) : EReal)) (h4 : ∀ e c, X4 (ix2 e c) = ((wv e c : ℝ) : EReal))
    (b : Fin 2) (i h : Fin 128) (d : Fin 64) :
    val_main_v29 (F := Ideal) X0 X1 X3 X4 (ix4 b i h d)
      = ((∑ j : Fin 128, Real.exp (sR x wq wk b h i j - mR x wq wk b h i) * projR x wv b j (hcol h d) : ℝ) : EReal) := by
  rw [val_main_v29_apply, val_main_v26_apply, val_main_v6_apply, val_main_cst_apply, val_main_v28_apply, val_main_v27_apply,
    Ideal.addf_def, Ideal.mulf_def, Ideal.ofBits_def, Ideal.ofBits_zero_f32, zero_mul, zero_add, coe_sum]
  refine Finset.sum_congr rfl fun k _ => ?_
  have el : lidx_main_v27 (idx_main_v28 (ix4 b i h d)) k = ix4 b k h d := funext fun a => Fin.ext (by
    match a with | ⟨0, _⟩ => rfl | ⟨1, _⟩ => rfl | ⟨2, _⟩ => rfl | ⟨3, _⟩ => rfl)
  have er : ridx_main_v27 (idx_main_v28 (ix4 b i h d)) k = ix4 b h i k := funext fun a => Fin.ext (by
    match a with | ⟨0, _⟩ => rfl | ⟨1, _⟩ => rfl | ⟨2, _⟩ => rfl | ⟨3, _⟩ => rfl)
  have e5 : val_main_v5 (F := Ideal) X0 X4 = val_main_v1 (F := Ideal) X0 X4 := rfl
  rw [el, er, e5, head_value x X0 wv X4 h0 h4, weight_value x wq wk X0 X1 X3 h0 h1 h3, EReal.coe_mul, mul_comm]

/-- The normalised attention output of head h at (b, i, d). -/
theorem attn_value
    (h0 : ∀ b i e, X0 (ix3 b i e) = ((x b i e : ℝ) : EReal)) (h1 : ∀ e c, X1 (ix2 e c) = ((wq e c : ℝ) : EReal))
    (h3 : ∀ e c, X3 (ix2 e c) = ((wk e c : ℝ) : EReal)) (h4 : ∀ e c, X4 (ix2 e c) = ((wv e c : ℝ) : EReal))
    (b : Fin 2) (i h : Fin 128) (d : Fin 64) :
    val_main_v32 (F := Ideal) X0 X1 X3 X4 (ix4 b i h d) = ((oR x wq wk wv b i h d : ℝ) : EReal) := by
  rw [val_main_v32_apply, Ideal.hostDivf_def, numer_value x wq wk wv X0 X1 X3 X4 h0 h1 h3 h4,
    denom_value x wq wk X0 X1 X3 h0 h1 h3, Ideal.div_coe (lR_pos x wq wk b h i).ne', ← EReal.coe_mul]
  unfold oR
  rw [mul_one_div]

/-- The heads merged back: column c of (b, i) is position c mod 64 of head c / 64. -/
theorem merged_value
    (h0 : ∀ b i e, X0 (ix3 b i e) = ((x b i e : ℝ) : EReal)) (h1 : ∀ e c, X1 (ix2 e c) = ((wq e c : ℝ) : EReal))
    (h3 : ∀ e c, X3 (ix2 e c) = ((wk e c : ℝ) : EReal)) (h4 : ∀ e c, X4 (ix2 e c) = ((wv e c : ℝ) : EReal))
    (b : Fin 2) (i : Fin 128) (c : Fin 8192) :
    val_main_v33 (F := Ideal) X0 X1 X3 X4 (ix3 b i c) = ((oR x wq wk wv b i (ghead c) (gpos c) : ℝ) : EReal) := by
  rw [val_main_v33_apply]
  have e : idx_main_v33 (ix3 b i c) = ix4 b i (ghead c) (gpos c) := funext fun a => Fin.ext (by
    have hb := b.isLt; have hi := i.isLt; have hc := c.isLt
    match a with
    | ⟨0, _⟩ => show ((b.val * 128 + i.val) * 8192 + c.val) / 1048576 = b.val; omega
    | ⟨1, _⟩ => show ((b.val * 128 + i.val) * 8192 + c.val) / 8192 % 128 = i.val; omega
    | ⟨2, _⟩ => show ((b.val * 128 + i.val) * 8192 + c.val) / 64 % 128 = c.val / 64; omega
    | ⟨3, _⟩ => show ((b.val * 128 + i.val) * 8192 + c.val) % 64 = c.val % 64; omega)
  rw [e]
  exact attn_value x wq wk wv X0 X1 X3 X4 h0 h1 h3 h4 b i (ghead c) (gpos c)

/-- THE REFERENCE'S VALUE: from real arguments the reference's result is the coercion of `refReal`. -/
theorem ref_value
    (h0 : ∀ b i e, X0 (ix3 b i e) = ((x b i e : ℝ) : EReal)) (h1 : ∀ e c, X1 (ix2 e c) = ((wq e c : ℝ) : EReal))
    (h2 : ∀ c n, X2 (ix2 c n) = ((wo c n : ℝ) : EReal))
    (h3 : ∀ e c, X3 (ix2 e c) = ((wk e c : ℝ) : EReal)) (h4 : ∀ e c, X4 (ix2 e c) = ((wv e c : ℝ) : EReal))
    (b : Fin 2) (i : Fin 128) (n : Fin 512) :
    val_main_v34 (F := Ideal) X0 X1 X2 X3 X4 (ix3 b i n) = ((refReal x wq wk wv wo b i n : ℝ) : EReal) := by
  rw [val_main_v34_apply]
  unfold refReal
  rw [coe_sum]
  refine Finset.sum_congr rfl fun k _ => ?_
  have el : lidx_main_v34 (ix3 b i n) k = ix3 b i k := funext fun a => Fin.ext (by
    match a with | ⟨0, _⟩ => rfl | ⟨1, _⟩ => rfl | ⟨2, _⟩ => rfl)
  have er : ridx_main_v34 (ix3 b i n) k = ix2 k n := funext fun a => Fin.ext (by
    match a with | ⟨0, _⟩ => rfl | ⟨1, _⟩ => rfl)
  rw [el, er, merged_value x wq wk wv X0 X1 X3 X4 h0 h1 h3 h4, h2, EReal.coe_mul]

end Stages

end Cert.Proof.RefValue

end

/-- info: 'Cert.Proof.RefValue.ref_value' depends on axioms: [propext, Classical.choice, Quot.sound] -/
#guard_msgs in #print axioms Cert.Proof.RefValue.ref_value
-- ==== Proof.KerValue.lean ====
/-
  The kernel's side of the value proof, term by term and free of the machine.

  From its five staged blocks one device computes its attention output and, per chunk of 128 columns, the product of that
  output with its rows of the output matrix. Here each stage of that arithmetic, read at the ideal values (format changes
  the identity, a product into a zero accumulator a plain sum), is shown to be at every index the coercion of the matching
  real number of the real model, provided the five blocks are themselves coercions of real arrays: the projections, the
  scaled scores, the batch mask (from the integer batch indices of row and column), the exponentials times the mask, the
  row sums (positive, the row lying in its own batch, so the quotient is the real quotient), the weighted values, the
  quotient, the heads side by side (`attn_value`), and the four chunk products (`pa0_value` … `pa3_value`).
-/
import proofs.«900514_g7700000000000515_dist_attn_self_mha_htp_b2_sq128_skv128_d512_hq8_dh64_v7x_i16_bf16_1_alg».proof.Proof.KernelIdealTerms
import proofs.«900514_g7700000000000515_dist_attn_self_mha_htp_b2_sq128_skv128_d512_hq8_dh64_v7x_i16_bf16_1_alg».proof.Proof.RealModel
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Decide
import Mathlib.Analysis.SpecialFunctions.Exp
import Mathlib.Tactic.IntervalCases
import Mathlib.Tactic.NormNum

noncomputable section

open Idealize.ShloMosaic Idealize.ShloMosaic.ValueIdx Cert.KernelIdeal Cert.KernelIdeal.Gen
open scoped BigOperators

namespace Cert.Proof.KerValue

/-! ## The four contractions read at an index

Each product of the kernel, into a zero accumulator, is at an index the plain sum over its one contracted axis of the
products of the operands' elements; the operands' indices are read off the contraction's dimension numbers axis by axis. -/

/-! ### Rows by columns, 256 × 512 by 512 × 512 -/

theorem lhsA_0 (i : S256x512.Idx) (q : dot_S256x512_S512x512_S256x512_1_0_0_1_n_n.contr.Idx) :
    (dot_S256x512_S512x512_S256x512_1_0_0_1_n_n.lhsIdx i q 0).val = (i 0).val := by
  unfold DotDims.lhsIdx
  rw [dif_neg (show ¬(0 : Fin S256x512.rank) ∈ dot_S256x512_S512x512_S256x512_1_0_0_1_n_n.lhsBatch by decide), dif_pos (show (0 : Fin S256x512.rank) ∈ dot_S256x512_S512x512_S256x512_1_0_0_1_n_n.lhsNonContracting by decide)]
  rfl
theorem lhsA_1 (i : S256x512.Idx) (q : dot_S256x512_S512x512_S256x512_1_0_0_1_n_n.contr.Idx) :
    (dot_S256x512_S512x512_S256x512_1_0_0_1_n_n.lhsIdx i q 1).val = (q ⟨0, by decide⟩).val :=
  dot_S256x512_S512x512_S256x512_1_0_0_1_n_n.lhsIdx_val_of_single rfl i q
theorem rhsA_0 (i : S256x512.Idx) (q : dot_S256x512_S512x512_S256x512_1_0_0_1_n_n.contr.Idx) :
    (dot_S256x512_S512x512_S256x512_1_0_0_1_n_n.rhsIdx i q 0).val = (q ⟨0, by decide⟩).val :=
  dot_S256x512_S512x512_S256x512_1_0_0_1_n_n.rhsIdx_val_of_single rfl i q
theorem rhsA_1 (i : S256x512.Idx) (q : dot_S256x512_S512x512_S256x512_1_0_0_1_n_n.contr.Idx) :
    (dot_S256x512_S512x512_S256x512_1_0_0_1_n_n.rhsIdx i q 1).val = (i 1).val := by
  unfold DotDims.rhsIdx
  rw [dif_neg (show ¬(1 : Fin S512x512.rank) ∈ dot_S256x512_S512x512_S256x512_1_0_0_1_n_n.rhsBatch by decide), dif_pos (show (1 : Fin S512x512.rank) ∈ dot_S256x512_S512x512_S256x512_1_0_0_1_n_n.rhsNonContracting by decide)]
  rfl

/-- A projection: the activations' row times the block's column. -/
theorem matmulA_apply (L : FVec Ideal S256x512 .bf16) (R : FVec Ideal S512x512 .bf16) (r : Fin 256) (c : Fin 512) :
    matmul dot_S256x512_S512x512_S256x512_1_0_0_1_n_n none L R (constant S256x512 .f32 0x00000000#32) (ix2 r c)
      = ∑ e : Fin 512, L (ix2 r e) * R (ix2 e c) := by
  simp only [matmul]
  rw [Ideal.matmul_constant_zero_apply, ← Equiv.sum_comp (contrEquiv1 dot_S256x512_S512x512_S256x512_1_0_0_1_n_n 512 rfl rfl).symm]
  refine Finset.sum_congr rfl fun k _ => ?_
  have hk := contrEquiv1_symm_val dot_S256x512_S512x512_S256x512_1_0_0_1_n_n 512 rfl rfl k
  have el : dot_S256x512_S512x512_S256x512_1_0_0_1_n_n.lhsIdx (ix2 r c) ((contrEquiv1 dot_S256x512_S512x512_S256x512_1_0_0_1_n_n 512 rfl rfl).symm k) = ix2 r k := funext fun a => Fin.ext (by
    match a with
    | ⟨0, _⟩ => exact lhsA_0 _ _
    | ⟨1, _⟩ => exact (lhsA_1 _ _).trans hk)
  have er : dot_S256x512_S512x512_S256x512_1_0_0_1_n_n.rhsIdx (ix2 r c) ((contrEquiv1 dot_S256x512_S512x512_S256x512_1_0_0_1_n_n 512 rfl rfl).symm k) = ix2 k c := funext fun a => Fin.ext (by
    match a with
    | ⟨0, _⟩ => exact (rhsA_0 _ _).trans hk
    | ⟨1, _⟩ => exact rhsA_1 _ _)
  rw [el, er]

/-! ### Rows by columns, 256 × 512 by 512 × 128 -/

theorem lhsD_0 (i : S256x128.Idx) (q : dot_S256x512_S512x128_S256x128_1_0_0_1_n_n.contr.Idx) :
    (dot_S256x512_S512x128_S256x128_1_0_0_1_n_n.lhsIdx i q 0).val = (i 0).val := by
  unfold DotDims.lhsIdx
  rw [dif_neg (show ¬(0 : Fin S256x512.rank) ∈ dot_S256x512_S512x128_S256x128_1_0_0_1_n_n.lhsBatch by decide), dif_pos (show (0 : Fin S256x512.rank) ∈ dot_S256x512_S512x128_S256x128_1_0_0_1_n_n.lhsNonContracting by decide)]
  rfl
theorem lhsD_1 (i : S256x128.Idx) (q : dot_S256x512_S512x128_S256x128_1_0_0_1_n_n.contr.Idx) :
    (dot_S256x512_S512x128_S256x128_1_0_0_1_n_n.lhsIdx i q 1).val = (q ⟨0, by decide⟩).val :=
  dot_S256x512_S512x128_S256x128_1_0_0_1_n_n.lhsIdx_val_of_single rfl i q
theorem rhsD_0 (i : S256x128.Idx) (q : dot_S256x512_S512x128_S256x128_1_0_0_1_n_n.contr.Idx) :
    (dot_S256x512_S512x128_S256x128_1_0_0_1_n_n.rhsIdx i q 0).val = (q ⟨0, by decide⟩).val :=
  dot_S256x512_S512x128_S256x128_1_0_0_1_n_n.rhsIdx_val_of_single rfl i q
theorem rhsD_1 (i : S256x128.Idx) (q : dot_S256x512_S512x128_S256x128_1_0_0_1_n_n.contr.Idx) :
    (dot_S256x512_S512x128_S256x128_1_0_0_1_n_n.rhsIdx i q 1).val = (i 1).val := by
  unfold DotDims.rhsIdx
  rw [dif_neg (show ¬(1 : Fin S512x128.rank) ∈ dot_S256x512_S512x128_S256x128_1_0_0_1_n_n.rhsBatch by decide), dif_pos (show (1 : Fin S512x128.rank) ∈ dot_S256x512_S512x128_S256x128_1_0_0_1_n_n.rhsNonContracting by decide)]
  rfl

/-- A chunk of the output product: the attention output's row times a column of the chunk. -/
theorem matmulD_apply (L : FVec Ideal S256x512 .bf16) (R : FVec Ideal S512x128 .bf16) (r : Fin 256) (n : Fin 128) :
    matmul dot_S256x512_S512x128_S256x128_1_0_0_1_n_n none L R (constant S256x128 .f32 0x00000000#32) (ix2 r n)
      = ∑ c : Fin 512, L (ix2 r c) * R (ix2 c n) := by
  simp only [matmul]
  rw [Ideal.matmul_constant_zero_apply, ← Equiv.sum_comp (contrEquiv1 dot_S256x512_S512x128_S256x128_1_0_0_1_n_n 512 rfl rfl).symm]
  refine Finset.sum_congr rfl fun k _ => ?_
  have hk := contrEquiv1_symm_val dot_S256x512_S512x128_S256x128_1_0_0_1_n_n 512 rfl rfl k
  have el : dot_S256x512_S512x128_S256x128_1_0_0_1_n_n.lhsIdx (ix2 r n) ((contrEquiv1 dot_S256x512_S512x128_S256x128_1_0_0_1_n_n 512 rfl rfl).symm k) = ix2 r k := funext fun a => Fin.ext (by
    match a with
    | ⟨0, _⟩ => exact lhsD_0 _ _
    | ⟨1, _⟩ => exact (lhsD_1 _ _).trans hk)
  have er : dot_S256x512_S512x128_S256x128_1_0_0_1_n_n.rhsIdx (ix2 r n) ((contrEquiv1 dot_S256x512_S512x128_S256x128_1_0_0_1_n_n 512 rfl rfl).symm k) = ix2 k n := funext fun a => Fin.ext (by
    match a with
    | ⟨0, _⟩ => exact (rhsD_0 _ _).trans hk
    | ⟨1, _⟩ => exact rhsD_1 _ _)
  rw [el, er]

/-! ### Per head, queries by keys: 8 × 256 × 64 by 8 × 256 × 64 over the last axis -/

theorem lhsB_0 (i : S8x256x256.Idx) (q : dot_S8x256x64_S8x256x64_S8x256x256_2_2_1_1_0_0.contr.Idx) :
    (dot_S8x256x64_S8x256x64_S8x256x256_2_2_1_1_0_0.lhsIdx i q 0).val = (i 0).val := by
  unfold DotDims.lhsIdx
  rw [dif_pos (show (0 : Fin S8x256x64.rank) ∈ dot_S8x256x64_S8x256x64_S8x256x256_2_2_1_1_0_0.lhsBatch by decide)]
  rfl
theorem lhsB_1 (i : S8x256x256.Idx) (q : dot_S8x256x64_S8x256x64_S8x256x256_2_2_1_1_0_0.contr.Idx) :
    (dot_S8x256x64_S8x256x64_S8x256x256_2_2_1_1_0_0.lhsIdx i q 1).val = (i 1).val := by
  unfold DotDims.lhsIdx
  rw [dif_neg (show ¬(1 : Fin S8x256x64.rank) ∈ dot_S8x256x64_S8x256x64_S8x256x256_2_2_1_1_0_0.lhsBatch by decide), dif_pos (show (1 : Fin S8x256x64.rank) ∈ dot_S8x256x64_S8x256x64_S8x256x256_2_2_1_1_0_0.lhsNonContracting by decide)]
  rfl
theorem lhsB_2 (i : S8x256x256.Idx) (q : dot_S8x256x64_S8x256x64_S8x256x256_2_2_1_1_0_0.contr.Idx) :
    (dot_S8x256x64_S8x256x64_S8x256x256_2_2_1_1_0_0.lhsIdx i q 2).val = (q ⟨0, by decide⟩).val :=
  dot_S8x256x64_S8x256x64_S8x256x256_2_2_1_1_0_0.lhsIdx_val_of_single rfl i q
theorem rhsB_0 (i : S8x256x256.Idx) (q : dot_S8x256x64_S8x256x64_S8x256x256_2_2_1_1_0_0.contr.Idx) :
    (dot_S8x256x64_S8x256x64_S8x256x256_2_2_1_1_0_0.rhsIdx i q 0).val = (i 0).val := by
  unfold DotDims.rhsIdx
  rw [dif_pos (show (0 : Fin S8x256x64.rank) ∈ dot_S8x256x64_S8x256x64_S8x256x256_2_2_1_1_0_0.rhsBatch by decide)]
  rfl
theorem rhsB_1 (i : S8x256x256.Idx) (q : dot_S8x256x64_S8x256x64_S8x256x256_2_2_1_1_0_0.contr.Idx) :
    (dot_S8x256x64_S8x256x64_S8x256x256_2_2_1_1_0_0.rhsIdx i q 1).val = (i 2).val := by
  unfold DotDims.rhsIdx
  rw [dif_neg (show ¬(1 : Fin S8x256x64.rank) ∈ dot_S8x256x64_S8x256x64_S8x256x256_2_2_1_1_0_0.rhsBatch by decide), dif_pos (show (1 : Fin S8x256x64.rank) ∈ dot_S8x256x64_S8x256x64_S8x256x256_2_2_1_1_0_0.rhsNonContracting by decide)]
  rfl
theorem rhsB_2 (i : S8x256x256.Idx) (q : dot_S8x256x64_S8x256x64_S8x256x256_2_2_1_1_0_0.contr.Idx) :
    (dot_S8x256x64_S8x256x64_S8x256x256_2_2_1_1_0_0.rhsIdx i q 2).val = (q ⟨0, by decide⟩).val :=
  dot_S8x256x64_S8x256x64_S8x256x256_2_2_1_1_0_0.rhsIdx_val_of_single rfl i q

/-- The raw scores: in each head, the query row against the key row over the head's 64 positions. -/
theorem matmulB_apply (L R : FVec Ideal S8x256x64 .bf16) (h : Fin 8) (r r' : Fin 256) :
    matmul dot_S8x256x64_S8x256x64_S8x256x256_2_2_1_1_0_0 none L R (constant S8x256x256 .f32 0x00000000#32) (ix3 h r r')
      = ∑ d : Fin 64, L (ix3 h r d) * R (ix3 h r' d) := by
  simp only [matmul]
  rw [Ideal.matmul_constant_zero_apply, ← Equiv.sum_comp (contrEquiv1 dot_S8x256x64_S8x256x64_S8x256x256_2_2_1_1_0_0 64 rfl rfl).symm]
  refine Finset.sum_congr rfl fun k _ => ?_
  have hk := contrEquiv1_symm_val dot_S8x256x64_S8x256x64_S8x256x256_2_2_1_1_0_0 64 rfl rfl k
  have el : dot_S8x256x64_S8x256x64_S8x256x256_2_2_1_1_0_0.lhsIdx (ix3 h r r') ((contrEquiv1 dot_S8x256x64_S8x256x64_S8x256x256_2_2_1_1_0_0 64 rfl rfl).symm k) = ix3 h r k := funext fun a => Fin.ext (by
    match a with
    | ⟨0, _⟩ => exact lhsB_0 _ _
    | ⟨1, _⟩ => exact lhsB_1 _ _
    | ⟨2, _⟩ => exact (lhsB_2 _ _).trans hk)
  have er : dot_S8x256x64_S8x256x64_S8x256x256_2_2_1_1_0_0.rhsIdx (ix3 h r r') ((contrEquiv1 dot_S8x256x64_S8x256x64_S8x256x256_2_2_1_1_0_0 64 rfl rfl).symm k) = ix3 h r' k := funext fun a => Fin.ext (by
    match a with
    | ⟨0, _⟩ => exact rhsB_0 _ _
    | ⟨1, _⟩ => exact rhsB_1 _ _
    | ⟨2, _⟩ => exact (rhsB_2 _ _).trans hk)
  rw [el, er]

/-! ### Per head, weights by values: 8 × 256 × 256 by 8 × 256 × 64 over the key rows -/

theorem lhsC_0 (i : S8x256x64.Idx) (q : dot_S8x256x256_S8x256x64_S8x256x64_2_1_1_2_0_0.contr.Idx) :
    (dot_S8x256x256_S8x256x64_S8x256x64_2_1_1_2_0_0.lhsIdx i q 0).val = (i 0).val := by
  unfold DotDims.lhsIdx
  rw [dif_pos (show (0 : Fin S8x256x256.rank) ∈ dot_S8x256x256_S8x256x64_S8x256x64_2_1_1_2_0_0.lhsBatch by decide)]
  rfl
theorem lhsC_1 (i : S8x256x64.Idx) (q : dot_S8x256x256_S8x256x64_S8x256x64_2_1_1_2_0_0.contr.Idx) :
    (dot_S8x256x256_S8x256x64_S8x256x64_2_1_1_2_0_0.lhsIdx i q 1).val = (i 1).val := by
  unfold DotDims.lhsIdx
  rw [dif_neg (show ¬(1 : Fin S8x256x256.rank) ∈ dot_S8x256x256_S8x256x64_S8x256x64_2_1_1_2_0_0.lhsBatch by decide), dif_pos (show (1 : Fin S8x256x256.rank) ∈ dot_S8x256x256_S8x256x64_S8x256x64_2_1_1_2_0_0.lhsNonContracting by decide)]
  rfl
theorem lhsC_2 (i : S8x256x64.Idx) (q : dot_S8x256x256_S8x256x64_S8x256x64_2_1_1_2_0_0.contr.Idx) :
    (dot_S8x256x256_S8x256x64_S8x256x64_2_1_1_2_0_0.lhsIdx i q 2).val = (q ⟨0, by decide⟩).val :=
  dot_S8x256x256_S8x256x64_S8x256x64_2_1_1_2_0_0.lhsIdx_val_of_single rfl i q
theorem rhsC_0 (i : S8x256x64.Idx) (q : dot_S8x256x256_S8x256x64_S8x256x64_2_1_1_2_0_0.contr.Idx) :
    (dot_S8x256x256_S8x256x64_S8x256x64_2_1_1_2_0_0.rhsIdx i q 0).val = (i 0).val := by
  unfold DotDims.rhsIdx
  rw [dif_pos (show (0 : Fin S8x256x64.rank) ∈ dot_S8x256x256_S8x256x64_S8x256x64_2_1_1_2_0_0.rhsBatch by decide)]
  rfl
theorem rhsC_1 (i : S8x256x64.Idx) (q : dot_S8x256x256_S8x256x64_S8x256x64_2_1_1_2_0_0.contr.Idx) :
    (dot_S8x256x256_S8x256x64_S8x256x64_2_1_1_2_0_0.rhsIdx i q 1).val = (q ⟨0, by decide⟩).val :=
  dot_S8x256x256_S8x256x64_S8x256x64_2_1_1_2_0_0.rhsIdx_val_of_single rfl i q
theorem rhsC_2 (i : S8x256x64.Idx) (q : dot_S8x256x256_S8x256x64_S8x256x64_2_1_1_2_0_0.contr.Idx) :
    (dot_S8x256x256_S8x256x64_S8x256x64_2_1_1_2_0_0.rhsIdx i q 2).val = (i 2).val := by
  unfold DotDims.rhsIdx
  rw [dif_neg (show ¬(2 : Fin S8x256x64.rank) ∈ dot_S8x256x256_S8x256x64_S8x256x64_2_1_1_2_0_0.rhsBatch by decide), dif_pos (show (2 : Fin S8x256x64.rank) ∈ dot_S8x256x256_S8x256x64_S8x256x64_2_1_1_2_0_0.rhsNonContracting by decide)]
  rfl

/-- The weighted values: in each head, the weights' row against the values' column over the 256 key rows. -/
theorem matmulC_apply (L : FVec Ideal S8x256x256 .bf16) (R : FVec Ideal S8x256x64 .bf16) (h : Fin 8) (r : Fin 256) (d : Fin 64) :
    matmul dot_S8x256x256_S8x256x64_S8x256x64_2_1_1_2_0_0 none L R (constant S8x256x64 .f32 0x00000000#32) (ix3 h r d)
      = ∑ k : Fin 256, L (ix3 h r k) * R (ix3 h k d) := by
  simp only [matmul]
  rw [Ideal.matmul_constant_zero_apply, ← Equiv.sum_comp (contrEquiv1 dot_S8x256x256_S8x256x64_S8x256x64_2_1_1_2_0_0 256 rfl rfl).symm]
  refine Finset.sum_congr rfl fun k _ => ?_
  have hk := contrEquiv1_symm_val dot_S8x256x256_S8x256x64_S8x256x64_2_1_1_2_0_0 256 rfl rfl k
  have el : dot_S8x256x256_S8x256x64_S8x256x64_2_1_1_2_0_0.lhsIdx (ix3 h r d) ((contrEquiv1 dot_S8x256x256_S8x256x64_S8x256x64_2_1_1_2_0_0 256 rfl rfl).symm k) = ix3 h r k := funext fun a => Fin.ext (by
    match a with
    | ⟨0, _⟩ => exact lhsC_0 _ _
    | ⟨1, _⟩ => exact lhsC_1 _ _
    | ⟨2, _⟩ => exact (lhsC_2 _ _).trans hk)
  have er : dot_S8x256x256_S8x256x64_S8x256x64_2_1_1_2_0_0.rhsIdx (ix3 h r d) ((contrEquiv1 dot_S8x256x256_S8x256x64_S8x256x64_2_1_1_2_0_0 256 rfl rfl).symm k) = ix3 h k d := funext fun a => Fin.ext (by
    match a with
    | ⟨0, _⟩ => exact rhsC_0 _ _
    | ⟨1, _⟩ => exact (rhsC_1 _ _).trans hk
    | ⟨2, _⟩ => exact rhsC_2 _ _)
  rw [el, er]

/-! ## Reals inside the extended reals -/

/-- A finite sum of coerced reals is the coerced sum. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum of products of coerced reals is the coerced sum of products. -/
theorem sum_coe_mul_coe {n : Nat} (f g : Fin n → ℝ) :
    ∑ i : Fin n, ((f i : ℝ) : EReal) * ((g i : ℝ) : EReal) = ((∑ i : Fin n, f i * g i : ℝ) : EReal) := by
  rw [← coe_sum]
  exact Finset.sum_congr rfl fun i _ => (EReal.coe_mul _ _).symm

/-- The scale of the scores, one eighth. -/
theorem ofBits_eighth : Ideal.ofBits .f32 0x3E000000#32 = ((0.125 : ℝ) : EReal) := by
  simp [Ideal.ofBits, Ideal.ieee, -EReal.coe_mul]; norm_num

/-- The mask's one. -/
theorem ofBits_one : Ideal.ofBits .f32 0x3F800000#32 = ((1 : ℝ) : EReal) := by
  simp [Ideal.ofBits, Ideal.ieee, -EReal.coe_mul]; norm_num

/-! ## The batch of a row, in the kernel's integer arithmetic

The kernel computes `row // 128` as the signed quotient, corrected by one where the signs differ and the remainder is not
zero. On a row below 256 the correction never applies and the result is the natural quotient. -/

/-- The floor quotient by 128 of a word, as the kernel's operations compute it. -/
def floorWordW (x : BitVec 32) : BitVec 32 :=
  Scalar.select
    (IntOp.andi
      (IntOp.cmpi .ne
        (IntOp.subi ((IntOp.cmpi .sgt x 0#32).setWidth 32) ((IntOp.cmpi .slt x 0#32).setWidth 32))
        (Scalar.subi (Scalar.extui (Scalar.cmpi .sgt 128#32 0#32)) (Scalar.extui (Scalar.cmpi .slt 128#32 0#32))))
      (IntOp.cmpi .ne (IntOp.remsi .vector x 128#32) 0#32))
    (IntOp.subi (IntOp.divsi .vector x 128#32) 1#32)
    (IntOp.divsi .vector x 128#32)

/-- On the word of a row below 256 it is the word of the natural quotient. -/
theorem floorWordW_eq : ∀ n : Fin 256, floorWordW (BitVec.ofNat 32 n.val) = BitVec.ofNat 32 (n.val / 128) := by
  decide +kernel

/-- Two batch words, each 0 or 1, compare equal exactly when the batches are equal. -/
theorem select_batch {α : Type} (a b : Nat) (ha : a < 2) (hb : b < 2) (A B : α) :
    Scalar.select (IntOp.cmpi .eq (BitVec.ofNat 32 a) (BitVec.ofNat 32 b)) A B = if a = b then A else B := by
  interval_cases a <;> interval_cases b <;> rfl

/-! ## The layout operations read at an index -/

section Layout
variable {α : Type}

/-- The activations flattened: row `r` of the 256 is batch `r / 128`, position `r % 128`. -/
theorem flat_apply (X : S2x128x512.Idx → α) (h : S2x128x512.ShapeCasts S256x512) (r : Fin 256) (e : Fin 512) :
    shapeCast S256x512 X h (ix2 r e)
      = X (ix3 (⟨r.val / 128, by have := r.isLt; omega⟩ : Fin 2) (⟨r.val % 128, Nat.mod_lt _ (by decide)⟩ : Fin 128) e) :=
  shapeCast_apply X h _ _ (by
    rw [Shape.rowMajor_val_three, Shape.rowMajor_val_two]
    show (r.val / 128 * 128 + r.val % 128) * 512 + e.val = r.val * 512 + e.val
    have := Nat.div_add_mod r.val 128; omega)

/-- A projection split into heads: head `h`, row `r`, position `d` is column `h·64 + d` of row `r`. -/
theorem heads_apply (v : S256x512.Idx → α) (hc : S256x512.ShapeCasts S256x8x64) (ht : S256x8x64.Transposes [1, 0, 2] S8x256x64)
    (h : Fin 8) (r : Fin 256) (d : Fin 64) :
    transpose S8x256x64 [1, 0, 2] (shapeCast S256x8x64 v hc) ht (ix3 h r d) = v (ix2 r (RealModel.lcol h d)) := by
  refine (transpose_apply _ _ ht (ix3 h r d) (ix3 r h d) (fun b => match b with | ⟨0, _⟩ => rfl | ⟨1, _⟩ => rfl | ⟨2, _⟩ => rfl)).trans ?_
  exact shapeCast_apply v hc _ _ (by
    rw [Shape.rowMajor_val_two, Shape.rowMajor_val_three]
    show r.val * 512 + (h.val * 64 + d.val) = (r.val * 8 + h.val) * 64 + d.val
    omega)

/-- The heads laid side by side again: column `c` of row `r` is head `c / 64`, position `c % 64`. -/
theorem unheads_apply (v : S8x256x64.Idx → α) (ht : S8x256x64.Transposes [1, 0, 2] S256x8x64) (hc : S256x8x64.ShapeCasts S256x512)
    (r : Fin 256) (c : Fin 512) :
    shapeCast S256x512 (transpose S256x8x64 [1, 0, 2] v ht) hc (ix2 r c) = v (ix3 (RealModel.lhead c) r (RealModel.lpos c)) := by
  refine (shapeCast_apply _ hc (ix2 r c) (ix3 r (RealModel.lhead c) (RealModel.lpos c)) (by
    rw [Shape.rowMajor_val_three, Shape.rowMajor_val_two]
    show (r.val * 8 + c.val / 64) * 64 + c.val % 64 = r.val * 512 + c.val
    have := Nat.div_add_mod c.val 64; omega)).trans ?_
  exact transpose_apply _ v ht (ix3 r (RealModel.lhead c) (RealModel.lpos c)) (ix3 (RealModel.lhead c) r (RealModel.lpos c))
    (fun b => match b with | ⟨0, _⟩ => rfl | ⟨1, _⟩ => rfl | ⟨2, _⟩ => rfl)

/-- The mask, one 256 × 256 matrix, shared by the eight heads. -/
theorem maskBcast_apply (v : S256x256.Idx → α) (hc : S256x256.ShapeCasts S1x256x256) (hb : S1x256x256.Broadcasts S8x256x256)
    (h : Fin 8) (r r' : Fin 256) :
    broadcastTo S8x256x256 (shapeCast S1x256x256 v hc) hb (ix3 h r r') = v (ix2 r r') := by
  refine (broadcastTo_apply _ hb (ix3 h r r') (ix3 (0 : Fin 1) r r')
    (fun a => match a with | ⟨0, _⟩ => rfl | ⟨1, _⟩ => rfl | ⟨2, _⟩ => rfl)).trans ?_
  exact shapeCast_ab_1ab_apply v hc 0 r r'

/-- A row's sum, kept as a column and spread over the 64 positions of the head. -/
theorem rowsumBcast_apply (v : S8x256.Idx → α) (hc : S8x256.ShapeCasts S8x256x1) (hb : S8x256x1.Broadcasts S8x256x64)
    (h : Fin 8) (r : Fin 256) (d : Fin 64) :
    broadcastTo S8x256x64 (shapeCast S8x256x1 v hc) hb (ix3 h r d) = v (ix2 h r) := by
  refine (broadcastTo_apply _ hb (ix3 h r d) (ix3 h r (0 : Fin 1))
    (fun a => match a with | ⟨0, _⟩ => rfl | ⟨1, _⟩ => rfl | ⟨2, _⟩ => rfl)).trans ?_
  exact shapeCast_apply v hc _ _ (by
    rw [Shape.rowMajor_val_two, Shape.rowMajor_val_three]
    show h.val * 256 + r.val = (h.val * 256 + r.val) * 1 + 0
    omega)

end Layout

/-- The sum over the key rows of a head's row. -/
theorem rowsum_apply (v : FVec Ideal S8x256x256 .f32) (hr : S8x256x256.Reduces [2] S8x256) (hφ : FKind.Formats .f32)
    (hacc : (0x00000000#32 : BitVec 32) = 0x00000000#32) (h : Fin 8) (r : Fin 256) :
    multiReduction .add [2] S8x256 v 0x00000000#32 hr hφ hacc (ix2 h r) = ∑ k : Fin 256, v (ix3 h r k) := by
  refine (Ideal.multiReduction_add_single v 0x00000000#32 hr hφ hacc (ix2 h r)).trans ?_
  refine Finset.sum_congr rfl fun k _ => congrArg v ?_
  funext a
  match a with
  | ⟨0, _⟩ => rfl
  | ⟨1, _⟩ => rfl
  | ⟨2, _⟩ => rfl

/-! ## The kernel's stages at an index, as coerced reals -/

open Cert.Proof.RealModel

section Stages
variable (x : Fin 256 → Fin 512 → ℝ)

/-- The activations, flattened and narrowed: row `r`, feature `e`. -/
theorem pay2_apply (X0 : Vec Ideal S2x128x512 .f32)
    (h0 : ∀ (b : Fin 2) (i : Fin 128) (e : Fin 512), X0 (ix3 b i e) = ((x (row b i) e : ℝ) : EReal)) (r : Fin 256) (e : Fin 512) :
    k0_pay2 X0 (ix2 r e) = ((x r e : ℝ) : EReal) := by
  simp only [k0_pay2]
  rw [truncf_apply, shapeCast_self, flat_apply, h0]
  have hr : row (⟨r.val / 128, by have := r.isLt; omega⟩ : Fin 2) (⟨r.val % 128, Nat.mod_lt _ (by decide)⟩ : Fin 128) = r :=
    Fin.ext (by show r.val / 128 * 128 + r.val % 128 = r.val; have := Nat.div_add_mod r.val 128; omega)
  rw [hr]

/-- A projection of the activations by a weight block. -/
theorem proj_apply (xb : FVec Ideal S256x512 .bf16) (W : Vec Ideal S512x512 .f32) (w : Fin 512 → Fin 512 → ℝ)
    (hx : ∀ r e, xb (ix2 r e) = ((x r e : ℝ) : EReal)) (hw : ∀ e c, W (ix2 e c) = ((w e c : ℝ) : EReal))
    (hc : S512x512.ShapeCasts S512x512) (hlt : FTy.bits .bf16 < FTy.bits .f32) (r : Fin 256) (c : Fin 512) :
    matmul dot_S256x512_S512x512_S256x512_1_0_0_1_n_n none xb (truncf .bf16 (shapeCast S512x512 W hc) hlt)
        (constant S256x512 .f32 0x00000000#32) (ix2 r c)
      = ((projK x w r c : ℝ) : EReal) := by
  rw [matmulA_apply]
  unfold projK
  rw [← sum_coe_mul_coe]
  refine Finset.sum_congr rfl fun e _ => ?_
  rw [hx, truncf_apply, shapeCast_self, hw]

/-- The values, split into heads. -/
theorem pay3_apply (xb : FVec Ideal S256x512 .bf16) (X4 : Vec Ideal S512x512 .f32) (wv : Fin 512 → Fin 512 → ℝ)
    (hx : ∀ r e, xb (ix2 r e) = ((x r e : ℝ) : EReal)) (h4 : ∀ e c, X4 (ix2 e c) = ((wv e c : ℝ) : EReal))
    (h : Fin 8) (r : Fin 256) (d : Fin 64) :
    k0_pay3 xb X4 (ix3 h r d) = ((projK x wv r (lcol h d) : ℝ) : EReal) := by
  simp only [k0_pay3]
  rw [truncf_apply, heads_apply, proj_apply x xb X4 wv hx h4]

/-- The scaled scores. -/
theorem pay4_apply (xb : FVec Ideal S256x512 .bf16) (X1 X3 : Vec Ideal S512x512 .f32) (wq wk : Fin 512 → Fin 512 → ℝ)
    (hx : ∀ r e, xb (ix2 r e) = ((x r e : ℝ) : EReal)) (h1 : ∀ e c, X1 (ix2 e c) = ((wq e c : ℝ) : EReal))
    (h3 : ∀ e c, X3 (ix2 e c) = ((wk e c : ℝ) : EReal)) (h : Fin 8) (r r' : Fin 256) :
    k0_pay4 xb X1 X3 (ix3 h r r') = ((sK x wq wk h r r' : ℝ) : EReal) := by
  simp only [k0_pay4]
  rw [mulf_apply, broadcast_apply, matmulB_apply]
  unfold sK
  rw [EReal.coe_mul, ← sum_coe_mul_coe]
  congr 1
  · refine Finset.sum_congr rfl fun d _ => ?_
    rw [truncf_apply, heads_apply, proj_apply x xb X1 wq hx h1, truncf_apply, heads_apply, proj_apply x xb X3 wk hx h3]
  · exact ofBits_eighth

end Stages

/-! ## The masked weights and the normalised output

The last payload of the attention part is read through two named pieces: the mask (one where the two rows lie in one
batch, else zero, from the integer batch indices of the row and of the column) and the unnormalised weights (the
exponential of the score times the mask). -/

/-- The 0/1 mask as the kernel computes it from the row-batch index `v49` and its floor-correction flag `v68`. -/
def maskVec (v49 : IVec S256x256 32) (v68 : IVec S256x256 1) : FVec Ideal S256x256 .f32 :=
  have v69 : IVec S256x256 32 := broadcast S256x256 1#32
  have v70 : IVec S256x256 32 := subi v49 v69
  have v71 : IVec S256x256 32 := select v68 v70 v49
  have v72 : IVec S256x256 32 := iota .tc S256x256 32 [1] iota_S256x256_d1_w32
  have v73 : IVec S256x256 32 := broadcast S256x256 128#32
  have v74 : IVec S256x256 32 := divsi v72 v73
  have v75 : IVec S256x256 32 := broadcast S256x256 0#32
  have v76 : IVec S256x256 1 := cmpi .sgt v72 v75
  have v77 : IVec S256x256 32 := extui 32 v76 natLt_1_32
  have v78 : IVec S256x256 32 := broadcast S256x256 0#32
  have v79 : IVec S256x256 1 := cmpi .slt v72 v78
  have v80 : IVec S256x256 32 := extui 32 v79 natLt_1_32
  have v81 : IVec S256x256 32 := subi v77 v80
  let v82 : BitVec 1 := Scalar.cmpi .sgt 128#32 0#32
  let v83 : BitVec 32 := Scalar.extui v82
  let v84 : BitVec 1 := Scalar.cmpi .slt 128#32 0#32
  let v85 : BitVec 32 := Scalar.extui v84
  let v86 : BitVec 32 := Scalar.subi v83 v85
  have v87 : IVec S256x256 32 := broadcast S256x256 v86
  have v88 : IVec S256x256 1 := cmpi .ne v81 v87
  have v89 : IVec S256x256 32 := broadcast S256x256 128#32
  have v90 : IVec S256x256 32 := remsi v72 v89
  have v91 : IVec S256x256 32 := broadcast S256x256 0#32
  have v92 : IVec S256x256 1 := cmpi .ne v90 v91
  have v93 : IVec S256x256 1 := andi v88 v92
  have v94 : IVec S256x256 32 := broadcast S256x256 1#32
  have v95 : IVec S256x256 32 := subi v74 v94
  have v96 : IVec S256x256 32 := select v93 v95 v74
  have v97 : IVec S256x256 1 := cmpi .eq v71 v96
  have cst_40 : Ideal .f32 := Scalar.ofBits .f32 0x3F800000#32
  have cst_41 : Ideal .f32 := Scalar.ofBits .f32 0x00000000#32
  have v98 : FVec Ideal S256x256 .f32 := broadcast S256x256 cst_40
  have v99 : FVec Ideal S256x256 .f32 := broadcast S256x256 cst_41
  select v97 v98 v99

/-- The unnormalised weights: the exponential of the scores times the mask, the mask shared by the heads. -/
def wVec (v46 : FVec Ideal S8x256x256 .f32) (v49 : IVec S256x256 32) (v68 : IVec S256x256 1) : FVec Ideal S8x256x256 .f32 :=
  mulf (exp v46) (broadcastTo S8x256x256 (shapeCast S1x256x256 (maskVec v49 v68) shapeCasts_S256x256_S1x256x256) broadcasts_S1x256x256_S8x256x256)

/-- The payload through the two pieces: the weighted values over the row sums, heads side by side. -/
theorem pay7_eq (v43 : FVec Ideal S8x256x64 .bf16) (v46 : FVec Ideal S8x256x256 .f32) (v49 : IVec S256x256 32) (v68 : IVec S256x256 1) :
    k0_pay7 v43 v46 v49 v68
      = truncf .bf16 (shapeCast S256x512 (transpose S256x8x64 [1, 0, 2]
          (divf
            (matmul dot_S8x256x256_S8x256x64_S8x256x64_2_1_1_2_0_0 none (truncf .bf16 (wVec v46 v49 v68) bitsLt_bf16_f32) v43
              (constant S8x256x64 .f32 0x00000000#32))
            (broadcastTo S8x256x64 (shapeCast S8x256x1
              (multiReduction .add [2] S8x256 (wVec v46 v49 v68) 0x00000000#32 reduces_S8x256x256_S8x256 (.inl rfl) rfl)
              shapeCasts_S8x256_S8x256x1) broadcasts_S8x256x1_S8x256x64))
          transposes_S8x256x64_p1_0_2_S256x8x64) shapeCasts_S256x8x64_S256x512) bitsLt_bf16_f32 := rfl

/-- The row's batch word at an index: the natural quotient of the row by 128. -/
theorem rowBatch_apply (r r' : Fin 256) :
    Scalar.select (k0_pay6 (ix2 r r')) (IntOp.subi (k0_pay5 (ix2 r r')) 1#32) (k0_pay5 (ix2 r r')) = BitVec.ofNat 32 (r.val / 128) := by
  have hi : iota .tc S256x256 32 [0] iota_S256x256_d0_w32 (ix2 r r') = BitVec.ofNat 32 r.val :=
    iota_single_apply .tc S256x256 32 0 iota_S256x256_d0_w32 (ix2 r r')
  show floorWordW (iota .tc S256x256 32 [0] iota_S256x256_d0_w32 (ix2 r r')) = _
  rw [hi]
  exact floorWordW_eq r

/-- The mask at a pair of rows: one exactly when they lie in one batch. -/
theorem mask_apply (r r' : Fin 256) : maskVec k0_pay5 k0_pay6 (ix2 r r') = ((maskK r r' : ℝ) : EReal) := by
  have hi : iota .tc S256x256 32 [1] iota_S256x256_d1_w32 (ix2 r r') = BitVec.ofNat 32 r'.val :=
    iota_single_apply .tc S256x256 32 1 iota_S256x256_d1_w32 (ix2 r r')
  show Scalar.select
      (IntOp.cmpi .eq
        (Scalar.select (k0_pay6 (ix2 r r')) (IntOp.subi (k0_pay5 (ix2 r r')) 1#32) (k0_pay5 (ix2 r r')))
        (floorWordW (iota .tc S256x256 32 [1] iota_S256x256_d1_w32 (ix2 r r'))))
      (Ideal.ofBits .f32 0x3F800000#32) (Ideal.ofBits .f32 0x00000000#32) = _
  rw [rowBatch_apply, hi, floorWordW_eq r',
    select_batch _ _ (by have := r.isLt; omega) (by have := r'.isLt; omega), ofBits_one, Ideal.ofBits_zero_f32]
  unfold maskK
  by_cases hb : r.val / 128 = r'.val / 128
  · rw [if_pos hb, if_pos hb]
  · rw [if_neg hb, if_neg hb, EReal.coe_zero]

/-- The mask is not negative, and is one on the diagonal. -/
theorem maskK_nonneg (r r' : Fin 256) : 0 ≤ maskK r r' := by
  unfold maskK; split_ifs <;> norm_num
theorem maskK_self (r : Fin 256) : maskK r r = 1 := by
  unfold maskK; rw [if_pos rfl]

section Weights
variable (S : Fin 8 → Fin 256 → Fin 256 → ℝ)

/-- An unnormalised weight. -/
theorem wVec_apply (v46 : FVec Ideal S8x256x256 .f32) (hs : ∀ h r r', v46 (ix3 h r r') = ((S h r r' : ℝ) : EReal))
    (h : Fin 8) (r r' : Fin 256) :
    wVec v46 k0_pay5 k0_pay6 (ix3 h r r') = ((Real.exp (S h r r') * maskK r r' : ℝ) : EReal) := by
  unfold wVec
  rw [mulf_apply, maskBcast_apply, mask_apply]
  show Ideal.exp (v46 (ix3 h r r')) * _ = _
  rw [hs, Ideal.exp_coe, ← EReal.coe_mul]

/-- A row's weights sum to a positive real: the row itself lies in its own batch. -/
theorem den_pos (h : Fin 8) (r : Fin 256) : 0 < ∑ r' : Fin 256, Real.exp (S h r r') * maskK r r' := by
  refine Finset.sum_pos' (fun i _ => mul_nonneg (Real.exp_pos _).le (maskK_nonneg r i)) ⟨r, Finset.mem_univ _, ?_⟩
  rw [maskK_self, mul_one]
  exact Real.exp_pos _

/-- The attention payload at an index, from values and scores that are coerced reals. -/
theorem pay7_apply (V : Fin 8 → Fin 256 → Fin 64 → ℝ) (v43 : FVec Ideal S8x256x64 .bf16) (v46 : FVec Ideal S8x256x256 .f32)
    (hv : ∀ h r d, v43 (ix3 h r d) = ((V h r d : ℝ) : EReal)) (hs : ∀ h r r', v46 (ix3 h r r') = ((S h r r' : ℝ) : EReal))
    (r : Fin 256) (c : Fin 512) :
    k0_pay7 v43 v46 k0_pay5 k0_pay6 (ix2 r c)
      = (((∑ r' : Fin 256, (Real.exp (S (lhead c) r r') * maskK r r') * V (lhead c) r' (lpos c))
          / (∑ r' : Fin 256, Real.exp (S (lhead c) r r') * maskK r r') : ℝ) : EReal) := by
  rw [pay7_eq, truncf_apply, unheads_apply, divf_apply, matmulC_apply, rowsumBcast_apply, rowsum_apply]
  have hnum : ∑ k : Fin 256, truncf .bf16 (wVec v46 k0_pay5 k0_pay6) bitsLt_bf16_f32 (ix3 (lhead c) r k) * v43 (ix3 (lhead c) k (lpos c))
      = ((∑ r' : Fin 256, (Real.exp (S (lhead c) r r') * maskK r r') * V (lhead c) r' (lpos c) : ℝ) : EReal) := by
    rw [← sum_coe_mul_coe]
    refine Finset.sum_congr rfl fun k _ => ?_
    rw [truncf_apply, wVec_apply S v46 hs, hv]
  have hden : ∑ k : Fin 256, wVec v46 k0_pay5 k0_pay6 (ix3 (lhead c) r k)
      = ((∑ r' : Fin 256, Real.exp (S (lhead c) r r') * maskK r r' : ℝ) : EReal) := by
    rw [← coe_sum]
    exact Finset.sum_congr rfl fun k _ => wVec_apply S v46 hs _ _ _
  rw [hnum, hden, Ideal.div_coe (den_pos S (lhead c) r).ne', ← EReal.coe_mul, mul_one_div]

end Weights

/-! ## The attention output and the four chunks of the partial result -/

theorem attn_value (x : Fin 256 → Fin 512 → ℝ) (wq wk wv : Fin 512 → Fin 512 → ℝ)
    (X0 : Vec Ideal S2x128x512 .f32) (X1 X3 X4 : Vec Ideal S512x512 .f32)
    (h0 : ∀ (b : Fin 2) (i : Fin 128) (e : Fin 512), X0 (ix3 b i e) = ((x (row b i) e : ℝ) : EReal))
    (h1 : ∀ e c, X1 (ix2 e c) = ((wq e c : ℝ) : EReal)) (h3 : ∀ e c, X3 (ix2 e c) = ((wk e c : ℝ) : EReal))
    (h4 : ∀ e c, X4 (ix2 e c) = ((wv e c : ℝ) : EReal)) (r : Fin 256) (c : Fin 512) :
    Terms.attn X0 X1 X3 X4 (ix2 r c) = ((oK x wq wk wv (lhead c) r (lpos c) : ℝ) : EReal) := by
  unfold Terms.attn
  have hx := pay2_apply x X0 h0
  rw [pay7_apply (sK x wq wk) (fun h r d => projK x wv r (lcol h d)) (k0_pay3 (k0_pay2 X0) X4) (k0_pay4 (k0_pay2 X0) X1 X3)
    (pay3_apply x (k0_pay2 X0) X4 wv hx h4) (pay4_apply x (k0_pay2 X0) X1 X3 wq wk hx h1 h3)]
  rfl

/-! ## A chunk of the output product -/

/-- A column of a chunk of the output block: column `o + n` of the block. -/
theorem wo_slice_apply (X2 : Vec Ideal S512x512 .f32) (wo : Fin 512 → Fin 512 → ℝ) (h2 : ∀ c n, X2 (ix2 c n) = ((wo c n : ℝ) : EReal))
    (o : Nat) (hs : S512x512.Slices ![0, o] S512x128) (c : Fin 512) (n : Fin 128) (k : Fin 512) (hk : k.val = o + n.val) :
    extractStridedSlice S512x128 ![0, o] (k0_pay8 X2) hs (ix2 c n) = ((wo c k : ℝ) : EReal) := by
  rw [slice2_axis1_apply o _ hs c n k hk]
  simp only [k0_pay8]
  rw [truncf_apply, shapeCast_self, h2]

/-- The attention output times a chunk's columns of the output block. -/
theorem chunk_value (x : Fin 256 → Fin 512 → ℝ) (wq wk wv wo : Fin 512 → Fin 512 → ℝ)
    (X0 : Vec Ideal S2x128x512 .f32) (X1 X2 X3 X4 : Vec Ideal S512x512 .f32)
    (h0 : ∀ (b : Fin 2) (i : Fin 128) (e : Fin 512), X0 (ix3 b i e) = ((x (row b i) e : ℝ) : EReal))
    (h1 : ∀ e c, X1 (ix2 e c) = ((wq e c : ℝ) : EReal)) (h2 : ∀ c n, X2 (ix2 c n) = ((wo c n : ℝ) : EReal))
    (h3 : ∀ e c, X3 (ix2 e c) = ((wk e c : ℝ) : EReal)) (h4 : ∀ e c, X4 (ix2 e c) = ((wv e c : ℝ) : EReal))
    (o : Nat) (hs : S512x512.Slices ![0, o] S512x128) (r : Fin 256) (n : Fin 128) (k : Fin 512) (hk : k.val = o + n.val) :
    matmul dot_S256x512_S512x128_S256x128_1_0_0_1_n_n none (Terms.attn X0 X1 X3 X4)
        (extractStridedSlice S512x128 ![0, o] (k0_pay8 X2) hs) (constant S256x128 .f32 0x00000000#32) (ix2 r n)
      = ((paReal x wq wk wv wo r k : ℝ) : EReal) := by
  rw [matmulD_apply]
  unfold paReal
  rw [← sum_coe_mul_coe]
  refine Finset.sum_congr rfl fun c _ => ?_
  rw [attn_value x wq wk wv X0 X1 X3 X4 h0 h1 h3 h4, wo_slice_apply X2 wo h2 o hs c n k hk]

theorem pa0_value (x : Fin 256 → Fin 512 → ℝ) (wq wk wv wo : Fin 512 → Fin 512 → ℝ)
    (X0 : Vec Ideal S2x128x512 .f32) (X1 X2 X3 X4 : Vec Ideal S512x512 .f32)
    (h0 : ∀ (b : Fin 2) (i : Fin 128) (e : Fin 512), X0 (ix3 b i e) = ((x (row b i) e : ℝ) : EReal))
    (h1 : ∀ e c, X1 (ix2 e c) = ((wq e c : ℝ) : EReal)) (h2 : ∀ c n, X2 (ix2 c n) = ((wo c n : ℝ) : EReal))
    (h3 : ∀ e c, X3 (ix2 e c) = ((wk e c : ℝ) : EReal)) (h4 : ∀ e c, X4 (ix2 e c) = ((wv e c : ℝ) : EReal))
    (r : Fin 256) (n : Fin 128) :
    Terms.pa0 X0 X1 X2 X3 X4 (ix2 r n) = ((paReal x wq wk wv wo r ⟨n.val, by omega⟩ : ℝ) : EReal) := by
  simp only [Terms.pa0, k0_pay9]
  exact chunk_value x wq wk wv wo X0 X1 X2 X3 X4 h0 h1 h2 h3 h4 0 slices_S512x512_o0_0_S512x128 r n ⟨n.val, by omega⟩ (Nat.zero_add _).symm

theorem pa1_value (x : Fin 256 → Fin 512 → ℝ) (wq wk wv wo : Fin 512 → Fin 512 → ℝ)
    (X0 : Vec Ideal S2x128x512 .f32) (X1 X2 X3 X4 : Vec Ideal S512x512 .f32)
    (h0 : ∀ (b : Fin 2) (i : Fin 128) (e : Fin 512), X0 (ix3 b i e) = ((x (row b i) e : ℝ) : EReal))
    (h1 : ∀ e c, X1 (ix2 e c) = ((wq e c : ℝ) : EReal)) (h2 : ∀ c n, X2 (ix2 c n) = ((wo c n : ℝ) : EReal))
    (h3 : ∀ e c, X3 (ix2 e c) = ((wk e c : ℝ) : EReal)) (h4 : ∀ e c, X4 (ix2 e c) = ((wv e c : ℝ) : EReal))
    (r : Fin 256) (n : Fin 128) :
    Terms.pa1 X0 X1 X2 X3 X4 (ix2 r n) = ((paReal x wq wk wv wo r ⟨128 + n.val, by omega⟩ : ℝ) : EReal) := by
  simp only [Terms.pa1, k0_pay12]
  exact chunk_value x wq wk wv wo X0 X1 X2 X3 X4 h0 h1 h2 h3 h4 128 slices_S512x512_o0_128_S512x128 r n ⟨128 + n.val, by omega⟩ rfl

theorem pa2_value (x : Fin 256 → Fin 512 → ℝ) (wq wk wv wo : Fin 512 → Fin 512 → ℝ)
    (X0 : Vec Ideal S2x128x512 .f32) (X1 X2 X3 X4 : Vec Ideal S512x512 .f32)
    (h0 : ∀ (b : Fin 2) (i : Fin 128) (e : Fin 512), X0 (ix3 b i e) = ((x (row b i) e : ℝ) : EReal))
    (h1 : ∀ e c, X1 (ix2 e c) = ((wq e c : ℝ) : EReal)) (h2 : ∀ c n, X2 (ix2 c n) = ((wo c n : ℝ) : EReal))
    (h3 : ∀ e c, X3 (ix2 e c) = ((wk e c : ℝ) : EReal)) (h4 : ∀ e c, X4 (ix2 e c) = ((wv e c : ℝ) : EReal))
    (r : Fin 256) (n : Fin 128) :
    Terms.pa2 X0 X1 X2 X3 X4 (ix2 r n) = ((paReal x wq wk wv wo r ⟨256 + n.val, by omega⟩ : ℝ) : EReal) := by
  simp only [Terms.pa2, k0_pay16]
  exact chunk_value x wq wk wv wo X0 X1 X2 X3 X4 h0 h1 h2 h3 h4 256 slices_S512x512_o0_256_S512x128 r n ⟨256 + n.val, by omega⟩ rfl

theorem pa3_value (x : Fin 256 → Fin 512 → ℝ) (wq wk wv wo : Fin 512 → Fin 512 → ℝ)
    (X0 : Vec Ideal S2x128x512 .f32) (X1 X2 X3 X4 : Vec Ideal S512x512 .f32)
    (h0 : ∀ (b : Fin 2) (i : Fin 128) (e : Fin 512), X0 (ix3 b i e) = ((x (row b i) e : ℝ) : EReal))
    (h1 : ∀ e c, X1 (ix2 e c) = ((wq e c : ℝ) : EReal)) (h2 : ∀ c n, X2 (ix2 c n) = ((wo c n : ℝ) : EReal))
    (h3 : ∀ e c, X3 (ix2 e c) = ((wk e c : ℝ) : EReal)) (h4 : ∀ e c, X4 (ix2 e c) = ((wv e c : ℝ) : EReal))
    (r : Fin 256) (n : Fin 128) :
    Terms.pa3 X0 X1 X2 X3 X4 (ix2 r n) = ((paReal x wq wk wv wo r ⟨384 + n.val, by omega⟩ : ℝ) : EReal) := by
  simp only [Terms.pa3, k0_pay19]
  exact chunk_value x wq wk wv wo X0 X1 X2 X3 X4 h0 h1 h2 h3 h4 384 slices_S512x512_o0_384_S512x128 r n ⟨384 + n.val, by omega⟩ rfl

/-- info: 'Cert.Proof.KerValue.attn_value' depends on axioms: [propext, Classical.choice, Quot.sound] -/
#guard_msgs in #print axioms attn_value

/-- info: 'Cert.Proof.KerValue.pa0_value' depends on axioms: [propext, Classical.choice, Quot.sound] -/
#guard_msgs in #print axioms pa0_value

/-- info: 'Cert.Proof.KerValue.pa1_value' depends on axioms: [propext, Classical.choice, Quot.sound] -/
#guard_msgs in #print axioms pa1_value

/-- info: 'Cert.Proof.KerValue.pa2_value' depends on axioms: [propext, Classical.choice, Quot.sound] -/
#guard_msgs in #print axioms pa2_value

/-- info: 'Cert.Proof.KerValue.pa3_value' depends on axioms: [propext, Classical.choice, Quot.sound] -/
#guard_msgs in #print axioms pa3_value

end Cert.Proof.KerValue

end
-- ==== Proof.OutValue.lean ====
/-
  The value the kernel leaves, assembled.

  Each device's partial result for a chunk of 128 output columns is, entry by entry, the cast of the real partial result
  `paReal` of its blocks; the all-reduce leaves at every device the sum over the sixteen devices, and the sum of the sixteen
  partial results is the reference's `refReal` (a softmax is unchanged by a shift of its scores, the mask restricts the keys to
  the batch, and 8192 columns are sixteen blocks of 512). The four chunks, reshaped from `[256, 128]` to `[2, 128, 128]`, are
  stored side by side into the `[2, 128, 512]` result buffer, which therefore holds the reference's result.
-/
import proofs.«900514_g7700000000000515_dist_attn_self_mha_htp_b2_sq128_skv128_d512_hq8_dh64_v7x_i16_bf16_1_alg».proof.Proof.KernelIdealTerms
import proofs.«900514_g7700000000000515_dist_attn_self_mha_htp_b2_sq128_skv128_d512_hq8_dh64_v7x_i16_bf16_1_alg».proof.Proof.RealModel
import proofs.«900514_g7700000000000515_dist_attn_self_mha_htp_b2_sq128_skv128_d512_hq8_dh64_v7x_i16_bf16_1_alg».proof.Proof.AccValue
import proofs.«900514_g7700000000000515_dist_attn_self_mha_htp_b2_sq128_skv128_d512_hq8_dh64_v7x_i16_bf16_1_alg».proof.Proof.RefValue
import proofs.«900514_g7700000000000515_dist_attn_self_mha_htp_b2_sq128_skv128_d512_hq8_dh64_v7x_i16_bf16_1_alg».proof.Proof.KerValue
import proofs.«900514_g7700000000000515_dist_attn_self_mha_htp_b2_sq128_skv128_d512_hq8_dh64_v7x_i16_bf16_1_alg».proof.Proof.KernelIdealOut
import Idealize.ShloMosaic.Lib.ValueIdx
import Idealize.ShloMosaic.Lib.Pipeline.Value

noncomputable section

namespace Cert.Proof.OutValue

open Cert.KernelIdeal Cert.KernelIdeal.Gen Idealize.ShloMosaic Idealize.ShloMosaic.ValueIdx
open Cert.Proof.RealModel

/-! ## The result buffer after the four chunk stores, at the extended reals -/

/-- The buffer after the four chunk stores, in the kernel's order (columns 0, 128, 256, 384), each with a full mask. -/
abbrev stored (inb0 : ∀ a, (![0, 0, 0] : Fin 3 → Nat) a + S2x128x128.size a ≤ S2x128x512.size a)
    (inb1 : ∀ a, (![0, 0, 128] : Fin 3 → Nat) a + S2x128x128.size a ≤ S2x128x512.size a)
    (inb2 : ∀ a, (![0, 0, 256] : Fin 3 → Nat) a + S2x128x128.size a ≤ S2x128x512.size a)
    (inb3 : ∀ a, (![0, 0, 384] : Fin 3 → Nat) a + S2x128x128.size a ≤ S2x128x512.size a)
    (f0 : Vec Ideal S2x128x512 .f32) (v0 v1 v2 v3 : Vec Ideal S2x128x128 .f32) : Vec Ideal S2x128x512 .f32 :=
  Cert.KernelIdeal.Out.stored (Elt Ideal) inb0 inb1 inb2 inb3 f0 v0 v1 v2 v3

section Stored
variable (inb0 : ∀ a, (![0, 0, 0] : Fin 3 → Nat) a + S2x128x128.size a ≤ S2x128x512.size a)
    (inb1 : ∀ a, (![0, 0, 128] : Fin 3 → Nat) a + S2x128x128.size a ≤ S2x128x512.size a)
    (inb2 : ∀ a, (![0, 0, 256] : Fin 3 → Nat) a + S2x128x128.size a ≤ S2x128x512.size a)
    (inb3 : ∀ a, (![0, 0, 384] : Fin 3 → Nat) a + S2x128x128.size a ≤ S2x128x512.size a)
    (f0 : Vec Ideal S2x128x512 .f32) (v0 v1 v2 v3 : Vec Ideal S2x128x128 .f32)
    (b : Fin 2) (i : Fin 128) (n : Fin 128)

/-- Columns 0–127 of the buffer hold the first payload, -/
theorem stored_chunk0 : stored inb0 inb1 inb2 inb3 f0 v0 v1 v2 v3 (ix3 b i (⟨n.val, by omega⟩ : Fin 512)) = v0 (ix3 b i n) :=
  Cert.KernelIdeal.Out.stored_chunk0 (Elt Ideal) inb0 inb1 inb2 inb3 f0 v0 v1 v2 v3 b i n
/-- columns 128–255 the second, -/
theorem stored_chunk1 : stored inb0 inb1 inb2 inb3 f0 v0 v1 v2 v3 (ix3 b i (⟨128 + n.val, by omega⟩ : Fin 512)) = v1 (ix3 b i n) :=
  Cert.KernelIdeal.Out.stored_chunk1 (Elt Ideal) inb0 inb1 inb2 inb3 f0 v0 v1 v2 v3 b i n
/-- columns 256–383 the third, -/
theorem stored_chunk2 : stored inb0 inb1 inb2 inb3 f0 v0 v1 v2 v3 (ix3 b i (⟨256 + n.val, by omega⟩ : Fin 512)) = v2 (ix3 b i n) :=
  Cert.KernelIdeal.Out.stored_chunk2 (Elt Ideal) inb0 inb1 inb2 inb3 f0 v0 v1 v2 v3 b i n
/-- columns 384–511 the fourth. -/
theorem stored_chunk3 : stored inb0 inb1 inb2 inb3 f0 v0 v1 v2 v3 (ix3 b i (⟨384 + n.val, by omega⟩ : Fin 512)) = v3 (ix3 b i n) :=
  Cert.KernelIdeal.Out.stored_chunk3 (Elt Ideal) inb0 inb1 inb2 inb3 f0 v0 v1 v2 v3 b i n

end Stored

/-- A `[256, 128]` matrix read as `[2, 128, 128]`: entry `(b, i, n)` is row `b·128 + i`, column `n`. -/
theorem shapeCast_rows {α : Type} (v : S256x128.Idx → α) (h : S256x128.ShapeCasts S2x128x128) (b : Fin 2) (i : Fin 128) (n : Fin 128) :
    shapeCast S2x128x128 v h (ix3 b i n) = v (ix2 (Cert.Proof.RealModel.row b i) n) := by
  refine shapeCast_apply v h (ix3 b i n) (ix2 (Cert.Proof.RealModel.row b i) n) ?_
  rw [Shape.rowMajor_val_two, Shape.rowMajor_val_three]
  rfl

/-! ## The all-reduced chunks are the reference's columns -/

section Sum
variable (x : Fin 2 → Fin 128 → Fin 512 → ℝ) (wq wk wv : Fin 512 → Fin 8192 → ℝ) (wo : Fin 8192 → Fin 512 → ℝ)
variable (X0 : Dev nD → Vec Ideal S2x128x512 .f32) (X1 X2 X3 X4 : Dev nD → Vec Ideal S512x512 .f32)
open Cert.Proof.KerValue

/-- Chunk 0: the sum over the devices of their partial results is the reference's columns 0–127. -/
theorem sum_pa0 (hdev : ∀ dev : Dev nD,
        (∀ (b : Fin 2) (i : Fin 128) (e : Fin 512), X0 dev (ix3 b i e) = ((x b i e : ℝ) : EReal))
        ∧ (∀ (e c : Fin 512), X1 dev (ix2 e c) = ((wq e (gcol dev c) : ℝ) : EReal))
        ∧ (∀ (c n : Fin 512), X2 dev (ix2 c n) = ((wo (gcol dev c) n : ℝ) : EReal))
        ∧ (∀ (e c : Fin 512), X3 dev (ix2 e c) = ((wk e (gcol dev c) : ℝ) : EReal))
        ∧ (∀ (e c : Fin 512), X4 dev (ix2 e c) = ((wv e (gcol dev c) : ℝ) : EReal)))
    (b : Fin 2) (i : Fin 128) (n : Fin 128) :
    ∑ e : Fin 16, Terms.pa0 (F := Ideal) (X0 e) (X1 e) (X2 e) (X3 e) (X4 e) (ix2 (row b i) n)
      = ((refReal x wq wk wv wo b i ⟨n.val, by omega⟩ : ℝ) : EReal) := by
  rw [refReal_eq_sum_paReal, Cert.Proof.RefValue.coe_sum]
  refine Finset.sum_congr rfl fun e _ => ?_
  exact pa0_value (flat x) (blkC e wq) (blkC e wk) (blkC e wv) (blkR e wo) (X0 e) (X1 e) (X2 e) (X3 e) (X4 e)
    (fun b' i' e' => by rw [flat_row]; exact (hdev e).1 b' i' e')
    (hdev e).2.1 (hdev e).2.2.1 (hdev e).2.2.2.1 (hdev e).2.2.2.2 (row b i) n

/-- and so is what the all-reduce leaves at every device. -/
theorem red0_pa (hdev : ∀ dev : Dev nD,
        (∀ (b : Fin 2) (i : Fin 128) (e : Fin 512), X0 dev (ix3 b i e) = ((x b i e : ℝ) : EReal))
        ∧ (∀ (e c : Fin 512), X1 dev (ix2 e c) = ((wq e (gcol dev c) : ℝ) : EReal))
        ∧ (∀ (c n : Fin 512), X2 dev (ix2 c n) = ((wo (gcol dev c) n : ℝ) : EReal))
        ∧ (∀ (e c : Fin 512), X3 dev (ix2 e c) = ((wk e (gcol dev c) : ℝ) : EReal))
        ∧ (∀ (e c : Fin 512), X4 dev (ix2 e c) = ((wv e (gcol dev c) : ℝ) : EReal)))
    (c : Dev nD) (b : Fin 2) (i : Fin 128) (n : Fin 128) :
    Terms.red0 (F := Ideal) (fun d => Terms.pa0 (F := Ideal) (X0 d) (X1 d) (X2 d) (X3 d) (X4 d)) c (ix2 (row b i) n)
      = ((refReal x wq wk wv wo b i ⟨n.val, by omega⟩ : ℝ) : EReal) := by
  rw [Cert.Proof.AccValue.red0_value]
  exact sum_pa0 x wq wk wv wo X0 X1 X2 X3 X4 hdev b i n

/-- Chunk 1: the sum over the devices of their partial results is the reference's columns 128–255. -/
theorem sum_pa1 (hdev : ∀ dev : Dev nD,
        (∀ (b : Fin 2) (i : Fin 128) (e : Fin 512), X0 dev (ix3 b i e) = ((x b i e : ℝ) : EReal))
        ∧ (∀ (e c : Fin 512), X1 dev (ix2 e c) = ((wq e (gcol dev c) : ℝ) : EReal))
        ∧ (∀ (c n : Fin 512), X2 dev (ix2 c n) = ((wo (gcol dev c) n : ℝ) : EReal))
        ∧ (∀ (e c : Fin 512), X3 dev (ix2 e c) = ((wk e (gcol dev c) : ℝ) : EReal))
        ∧ (∀ (e c : Fin 512), X4 dev (ix2 e c) = ((wv e (gcol dev c) : ℝ) : EReal)))
    (b : Fin 2) (i : Fin 128) (n : Fin 128) :
    ∑ e : Fin 16, Terms.pa1 (F := Ideal) (X0 e) (X1 e) (X2 e) (X3 e) (X4 e) (ix2 (row b i) n)
      = ((refReal x wq wk wv wo b i ⟨128 + n.val, by omega⟩ : ℝ) : EReal) := by
  rw [refReal_eq_sum_paReal, Cert.Proof.RefValue.coe_sum]
  refine Finset.sum_congr rfl fun e _ => ?_
  exact pa1_value (flat x) (blkC e wq) (blkC e wk) (blkC e wv) (blkR e wo) (X0 e) (X1 e) (X2 e) (X3 e) (X4 e)
    (fun b' i' e' => by rw [flat_row]; exact (hdev e).1 b' i' e')
    (hdev e).2.1 (hdev e).2.2.1 (hdev e).2.2.2.1 (hdev e).2.2.2.2 (row b i) n

/-- and so is what the all-reduce leaves at every device. -/
theorem red1_pa (hdev : ∀ dev : Dev nD,
        (∀ (b : Fin 2) (i : Fin 128) (e : Fin 512), X0 dev (ix3 b i e) = ((x b i e : ℝ) : EReal))
        ∧ (∀ (e c : Fin 512), X1 dev (ix2 e c) = ((wq e (gcol dev c) : ℝ) : EReal))
        ∧ (∀ (c n : Fin 512), X2 dev (ix2 c n) = ((wo (gcol dev c) n : ℝ) : EReal))
        ∧ (∀ (e c : Fin 512), X3 dev (ix2 e c) = ((wk e (gcol dev c) : ℝ) : EReal))
        ∧ (∀ (e c : Fin 512), X4 dev (ix2 e c) = ((wv e (gcol dev c) : ℝ) : EReal)))
    (c : Dev nD) (b : Fin 2) (i : Fin 128) (n : Fin 128) :
    Terms.red1 (F := Ideal) (fun d => Terms.pa1 (F := Ideal) (X0 d) (X1 d) (X2 d) (X3 d) (X4 d)) c (ix2 (row b i) n)
      = ((refReal x wq wk wv wo b i ⟨128 + n.val, by omega⟩ : ℝ) : EReal) := by
  rw [Cert.Proof.AccValue.red1_value]
  exact sum_pa1 x wq wk wv wo X0 X1 X2 X3 X4 hdev b i n

/-- Chunk 2: the sum over the devices of their partial results is the reference's columns 256–383. -/
theorem sum_pa2 (hdev : ∀ dev : Dev nD,
        (∀ (b : Fin 2) (i : Fin 128) (e : Fin 512), X0 dev (ix3 b i e) = ((x b i e : ℝ) : EReal))
        ∧ (∀ (e c : Fin 512), X1 dev (ix2 e c) = ((wq e (gcol dev c) : ℝ) : EReal))
        ∧ (∀ (c n : Fin 512), X2 dev (ix2 c n) = ((wo (gcol dev c) n : ℝ) : EReal))
        ∧ (∀ (e c : Fin 512), X3 dev (ix2 e c) = ((wk e (gcol dev c) : ℝ) : EReal))
        ∧ (∀ (e c : Fin 512), X4 dev (ix2 e c) = ((wv e (gcol dev c) : ℝ) : EReal)))
    (b : Fin 2) (i : Fin 128) (n : Fin 128) :
    ∑ e : Fin 16, Terms.pa2 (F := Ideal) (X0 e) (X1 e) (X2 e) (X3 e) (X4 e) (ix2 (row b i) n)
      = ((refReal x wq wk wv wo b i ⟨256 + n.val, by omega⟩ : ℝ) : EReal) := by
  rw [refReal_eq_sum_paReal, Cert.Proof.RefValue.coe_sum]
  refine Finset.sum_congr rfl fun e _ => ?_
  exact pa2_value (flat x) (blkC e wq) (blkC e wk) (blkC e wv) (blkR e wo) (X0 e) (X1 e) (X2 e) (X3 e) (X4 e)
    (fun b' i' e' => by rw [flat_row]; exact (hdev e).1 b' i' e')
    (hdev e).2.1 (hdev e).2.2.1 (hdev e).2.2.2.1 (hdev e).2.2.2.2 (row b i) n

/-- and so is what the all-reduce leaves at every device. -/
theorem red2_pa (hdev : ∀ dev : Dev nD,
        (∀ (b : Fin 2) (i : Fin 128) (e : Fin 512), X0 dev (ix3 b i e) = ((x b i e : ℝ) : EReal))
        ∧ (∀ (e c : Fin 512), X1 dev (ix2 e c) = ((wq e (gcol dev c) : ℝ) : EReal))
        ∧ (∀ (c n : Fin 512), X2 dev (ix2 c n) = ((wo (gcol dev c) n : ℝ) : EReal))
        ∧ (∀ (e c : Fin 512), X3 dev (ix2 e c) = ((wk e (gcol dev c) : ℝ) : EReal))
        ∧ (∀ (e c : Fin 512), X4 dev (ix2 e c) = ((wv e (gcol dev c) : ℝ) : EReal)))
    (c : Dev nD) (b : Fin 2) (i : Fin 128) (n : Fin 128) :
    Terms.red2 (F := Ideal) (fun d => Terms.pa2 (F := Ideal) (X0 d) (X1 d) (X2 d) (X3 d) (X4 d)) c (ix2 (row b i) n)
      = ((refReal x wq wk wv wo b i ⟨256 + n.val, by omega⟩ : ℝ) : EReal) := by
  rw [Cert.Proof.AccValue.red2_value]
  exact sum_pa2 x wq wk wv wo X0 X1 X2 X3 X4 hdev b i n

/-- Chunk 3: the sum over the devices of their partial results is the reference's columns 384–511. -/
theorem sum_pa3 (hdev : ∀ dev : Dev nD,
        (∀ (b : Fin 2) (i : Fin 128) (e : Fin 512), X0 dev (ix3 b i e) = ((x b i e : ℝ) : EReal))
        ∧ (∀ (e c : Fin 512), X1 dev (ix2 e c) = ((wq e (gcol dev c) : ℝ) : EReal))
        ∧ (∀ (c n : Fin 512), X2 dev (ix2 c n) = ((wo (gcol dev c) n : ℝ) : EReal))
        ∧ (∀ (e c : Fin 512), X3 dev (ix2 e c) = ((wk e (gcol dev c) : ℝ) : EReal))
        ∧ (∀ (e c : Fin 512), X4 dev (ix2 e c) = ((wv e (gcol dev c) : ℝ) : EReal)))
    (b : Fin 2) (i : Fin 128) (n : Fin 128) :
    ∑ e : Fin 16, Terms.pa3 (F := Ideal) (X0 e) (X1 e) (X2 e) (X3 e) (X4 e) (ix2 (row b i) n)
      = ((refReal x wq wk wv wo b i ⟨384 + n.val, by omega⟩ : ℝ) : EReal) := by
  rw [refReal_eq_sum_paReal, Cert.Proof.RefValue.coe_sum]
  refine Finset.sum_congr rfl fun e _ => ?_
  exact pa3_value (flat x) (blkC e wq) (blkC e wk) (blkC e wv) (blkR e wo) (X0 e) (X1 e) (X2 e) (X3 e) (X4 e)
    (fun b' i' e' => by rw [flat_row]; exact (hdev e).1 b' i' e')
    (hdev e).2.1 (hdev e).2.2.1 (hdev e).2.2.2.1 (hdev e).2.2.2.2 (row b i) n

/-- and so is what the all-reduce leaves at every device. -/
theorem red3_pa (hdev : ∀ dev : Dev nD,
        (∀ (b : Fin 2) (i : Fin 128) (e : Fin 512), X0 dev (ix3 b i e) = ((x b i e : ℝ) : EReal))
        ∧ (∀ (e c : Fin 512), X1 dev (ix2 e c) = ((wq e (gcol dev c) : ℝ) : EReal))
        ∧ (∀ (c n : Fin 512), X2 dev (ix2 c n) = ((wo (gcol dev c) n : ℝ) : EReal))
        ∧ (∀ (e c : Fin 512), X3 dev (ix2 e c) = ((wk e (gcol dev c) : ℝ) : EReal))
        ∧ (∀ (e c : Fin 512), X4 dev (ix2 e c) = ((wv e (gcol dev c) : ℝ) : EReal)))
    (c : Dev nD) (b : Fin 2) (i : Fin 128) (n : Fin 128) :
    Terms.red3 (F := Ideal) (fun d => Terms.pa3 (F := Ideal) (X0 d) (X1 d) (X2 d) (X3 d) (X4 d)) c (ix2 (row b i) n)
      = ((refReal x wq wk wv wo b i ⟨384 + n.val, by omega⟩ : ℝ) : EReal) := by
  rw [Cert.Proof.AccValue.red3_value]
  exact sum_pa3 x wq wk wv wo X0 X1 X2 X3 X4 hdev b i n

/-! ## The result buffer is the reference's result -/

/-- The buffer after the four stores of the reshaped all-reduced chunks is the reference's result of the whole arrays. -/
theorem stored_eq_ref (hdev : ∀ dev : Dev nD,
        (∀ (b : Fin 2) (i : Fin 128) (e : Fin 512), X0 dev (ix3 b i e) = ((x b i e : ℝ) : EReal))
        ∧ (∀ (e c : Fin 512), X1 dev (ix2 e c) = ((wq e (gcol dev c) : ℝ) : EReal))
        ∧ (∀ (c n : Fin 512), X2 dev (ix2 c n) = ((wo (gcol dev c) n : ℝ) : EReal))
        ∧ (∀ (e c : Fin 512), X3 dev (ix2 e c) = ((wk e (gcol dev c) : ℝ) : EReal))
        ∧ (∀ (e c : Fin 512), X4 dev (ix2 e c) = ((wv e (gcol dev c) : ℝ) : EReal)))
    (R0 : (⟨Cert.ReferenceIdeal.S2x128x512, .f32⟩ : BufTy).Contents (Elt Ideal))
    (R1 : (⟨Cert.ReferenceIdeal.S512x8192, .f32⟩ : BufTy).Contents (Elt Ideal))
    (R2 : (⟨Cert.ReferenceIdeal.S8192x512, .f32⟩ : BufTy).Contents (Elt Ideal))
    (R3 R4 : (⟨Cert.ReferenceIdeal.S512x8192, .f32⟩ : BufTy).Contents (Elt Ideal))
    (hR0 : ∀ (b : Fin 2) (i : Fin 128) (e : Fin 512), R0 (ix3 b i e) = ((x b i e : ℝ) : EReal))
    (hR1 : ∀ (e : Fin 512) (c : Fin 8192), R1 (ix2 e c) = ((wq e c : ℝ) : EReal))
    (hR2 : ∀ (c : Fin 8192) (n : Fin 512), R2 (ix2 c n) = ((wo c n : ℝ) : EReal))
    (hR3 : ∀ (e : Fin 512) (c : Fin 8192), R3 (ix2 e c) = ((wk e c : ℝ) : EReal))
    (hR4 : ∀ (e : Fin 512) (c : Fin 8192), R4 (ix2 e c) = ((wv e c : ℝ) : EReal))
    (inb0 : ∀ a, (![0, 0, 0] : Fin 3 → Nat) a + S2x128x128.size a ≤ S2x128x512.size a)
    (inb1 : ∀ a, (![0, 0, 128] : Fin 3 → Nat) a + S2x128x128.size a ≤ S2x128x512.size a)
    (inb2 : ∀ a, (![0, 0, 256] : Fin 3 → Nat) a + S2x128x128.size a ≤ S2x128x512.size a)
    (inb3 : ∀ a, (![0, 0, 384] : Fin 3 → Nat) a + S2x128x128.size a ≤ S2x128x512.size a)
    (hsc : S256x128.ShapeCasts S2x128x128)
    (f0 : Vec Ideal S2x128x512 .f32) (c : Dev nD) :
    stored inb0 inb1 inb2 inb3 f0
        (shapeCast S2x128x128 (Terms.red0 (F := Ideal) (fun d => Terms.pa0 (F := Ideal) (X0 d) (X1 d) (X2 d) (X3 d) (X4 d)) c) hsc)
        (shapeCast S2x128x128 (Terms.red1 (F := Ideal) (fun d => Terms.pa1 (F := Ideal) (X0 d) (X1 d) (X2 d) (X3 d) (X4 d)) c) hsc)
        (shapeCast S2x128x128 (Terms.red2 (F := Ideal) (fun d => Terms.pa2 (F := Ideal) (X0 d) (X1 d) (X2 d) (X3 d) (X4 d)) c) hsc)
        (shapeCast S2x128x128 (Terms.red3 (F := Ideal) (fun d => Terms.pa3 (F := Ideal) (X0 d) (X1 d) (X2 d) (X3 d) (X4 d)) c) hsc)
      = Cert.ReferenceIdeal.Read.val_main_v34 (F := Ideal) R0 R1 R2 R3 R4 := by
  funext j
  obtain ⟨b, i, q, rfl⟩ : ∃ (b : Fin 2) (i : Fin 128) (q : Fin 512), j = ix3 b i q := ⟨j 0, j 1, j 2, eq_ix3 j⟩
  rw [Cert.Proof.RefValue.ref_value x wq wk wv wo R0 R1 R2 R3 R4 hR0 hR1 hR2 hR3 hR4 b i q]
  rcases Cert.KernelIdeal.Out.col_cases q with ⟨n, rfl⟩ | ⟨n, rfl⟩ | ⟨n, rfl⟩ | ⟨n, rfl⟩
  · rw [stored_chunk0, shapeCast_rows, red0_pa x wq wk wv wo X0 X1 X2 X3 X4 hdev c b i n]
  · rw [stored_chunk1, shapeCast_rows, red1_pa x wq wk wv wo X0 X1 X2 X3 X4 hdev c b i n]
  · rw [stored_chunk2, shapeCast_rows, red2_pa x wq wk wv wo X0 X1 X2 X3 X4 hdev c b i n]
  · rw [stored_chunk3, shapeCast_rows, red3_pa x wq wk wv wo X0 X1 X2 X3 X4 hdev c b i n]

end Sum

/-- info: 'Cert.Proof.OutValue.stored_eq_ref' depends on axioms: [propext, Classical.choice, Quot.sound] -/
#guard_msgs in #print axioms stored_eq_ref

end Cert.Proof.OutValue

end
-- ==== Proof.AlgValue.lean ====
/-
  The kernel's result buffer is the reference's result, stated over the two memories alone.

  Under the precondition and the block layout the inputs are real arrays; each device's partial results are then casts of
  reals, the all-reduce sums them over the devices, the sum is the reference's value, and the four stored chunks fill the
  result buffer with it.
-/
import proofs.«900514_g7700000000000515_dist_attn_self_mha_htp_b2_sq128_skv128_d512_hq8_dh64_v7x_i16_bf16_1_alg».proof.Proof.Inputs
import proofs.«900514_g7700000000000515_dist_attn_self_mha_htp_b2_sq128_skv128_d512_hq8_dh64_v7x_i16_bf16_1_alg».proof.Proof.OutValue

noncomputable section

namespace Cert.Proof.AlgValue

open Cert.KernelIdeal Cert.KernelIdeal.Gen Idealize.ShloMosaic Idealize.SL.Sem Idealize.ShloMosaic.ValueIdx

/-- For every device: the buffer after the four stores of the reshaped all-reduced chunks, computed from the devices'
    argument buffers, is the reference's result computed from the whole arrays. -/
theorem stored_eq_res [hPre_finite_inputs_Kernel : Cert.Pre_finite_inputs_Kernel.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 512]⟩ ⟨2, ![512, 8192]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 512]⟩ ⟨2, ![8192, 512]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 512]⟩ ⟨2, ![512, 8192]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 512]⟩ ⟨2, ![512, 8192]⟩ 1 16 c (m' (((0 : Dev Cert.ReferenceIdeal.nD).tc : Thread Cert.ReferenceIdeal.nD Cert.ReferenceIdeal.τ).loc Cert.ReferenceIdeal.main_arg4)))
    (inb0 : ∀ a, (![0, 0, 0] : Fin 3 → Nat) a + S2x128x128.size a ≤ S2x128x512.size a)
    (inb1 : ∀ a, (![0, 0, 128] : Fin 3 → Nat) a + S2x128x128.size a ≤ S2x128x512.size a)
    (inb2 : ∀ a, (![0, 0, 256] : Fin 3 → Nat) a + S2x128x128.size a ≤ S2x128x512.size a)
    (inb3 : ∀ a, (![0, 0, 384] : Fin 3 → Nat) a + S2x128x128.size a ≤ S2x128x512.size a)
    (hsc : S256x128.ShapeCasts S2x128x128)
    (f0 : Vec Ideal S2x128x512 .f32) (c : Dev Cert.KernelIdeal.nD) :
    Cert.Proof.OutValue.stored inb0 inb1 inb2 inb3 f0
        (shapeCast S2x128x128 (Terms.red0 (F := Ideal) (fun d : Dev Cert.KernelIdeal.nD => Terms.pa0 (F := Ideal) (m ((d.tc : Thread Cert.KernelIdeal.nD Cert.KernelIdeal.τ).loc Cert.KernelIdeal.main_arg0)) (m ((d.tc : Thread Cert.KernelIdeal.nD Cert.KernelIdeal.τ).loc Cert.KernelIdeal.main_arg1)) (m ((d.tc : Thread Cert.KernelIdeal.nD Cert.KernelIdeal.τ).loc Cert.KernelIdeal.main_arg2)) (m ((d.tc : Thread Cert.KernelIdeal.nD Cert.KernelIdeal.τ).loc Cert.KernelIdeal.main_arg3)) (m ((d.tc : Thread Cert.KernelIdeal.nD Cert.KernelIdeal.τ).loc Cert.KernelIdeal.main_arg4))) c) hsc)
        (shapeCast S2x128x128 (Terms.red1 (F := Ideal) (fun d : Dev Cert.KernelIdeal.nD => Terms.pa1 (F := Ideal) (m ((d.tc : Thread Cert.KernelIdeal.nD Cert.KernelIdeal.τ).loc Cert.KernelIdeal.main_arg0)) (m ((d.tc : Thread Cert.KernelIdeal.nD Cert.KernelIdeal.τ).loc Cert.KernelIdeal.main_arg1)) (m ((d.tc : Thread Cert.KernelIdeal.nD Cert.KernelIdeal.τ).loc Cert.KernelIdeal.main_arg2)) (m ((d.tc : Thread Cert.KernelIdeal.nD Cert.KernelIdeal.τ).loc Cert.KernelIdeal.main_arg3)) (m ((d.tc : Thread Cert.KernelIdeal.nD Cert.KernelIdeal.τ).loc Cert.KernelIdeal.main_arg4))) c) hsc)
        (shapeCast S2x128x128 (Terms.red2 (F := Ideal) (fun d : Dev Cert.KernelIdeal.nD => Terms.pa2 (F := Ideal) (m ((d.tc : Thread Cert.KernelIdeal.nD Cert.KernelIdeal.τ).loc Cert.KernelIdeal.main_arg0)) (m ((d.tc : Thread Cert.KernelIdeal.nD Cert.KernelIdeal.τ).loc Cert.KernelIdeal.main_arg1)) (m ((d.tc : Thread Cert.KernelIdeal.nD Cert.KernelIdeal.τ).loc Cert.KernelIdeal.main_arg2)) (m ((d.tc : Thread Cert.KernelIdeal.nD Cert.KernelIdeal.τ).loc Cert.KernelIdeal.main_arg3)) (m ((d.tc : Thread Cert.KernelIdeal.nD Cert.KernelIdeal.τ).loc Cert.KernelIdeal.main_arg4))) c) hsc)
        (shapeCast S2x128x128 (Terms.red3 (F := Ideal) (fun d : Dev Cert.KernelIdeal.nD => Terms.pa3 (F := Ideal) (m ((d.tc : Thread Cert.KernelIdeal.nD Cert.KernelIdeal.τ).loc Cert.KernelIdeal.main_arg0)) (m ((d.tc : Thread Cert.KernelIdeal.nD Cert.KernelIdeal.τ).loc Cert.KernelIdeal.main_arg1)) (m ((d.tc : Thread Cert.KernelIdeal.nD Cert.KernelIdeal.τ).loc Cert.KernelIdeal.main_arg2)) (m ((d.tc : Thread Cert.KernelIdeal.nD Cert.KernelIdeal.τ).loc Cert.KernelIdeal.main_arg3)) (m ((d.tc : Thread Cert.KernelIdeal.nD Cert.KernelIdeal.τ).loc Cert.KernelIdeal.main_arg4))) c) hsc)
      = Cert.ReferenceIdeal.Value.res_main_v34 (F := Ideal) m' (0 : Dev Cert.ReferenceIdeal.nD) := by
  obtain ⟨x, wq, wk, wv, wo, hR0, hR1, hR2, hR3, hR4, hdev⟩ := Cert.Proof.Inputs.inputs_real m m' hpre hagree
  rw [Cert.ReferenceIdeal.Read.val_main_v34_eq]
  exact Cert.Proof.OutValue.stored_eq_ref x wq wk wv wo
    (fun d : Dev Cert.KernelIdeal.nD => (m ((d.tc : Thread Cert.KernelIdeal.nD Cert.KernelIdeal.τ).loc Cert.KernelIdeal.main_arg0))) (fun d : Dev Cert.KernelIdeal.nD => (m ((d.tc : Thread Cert.KernelIdeal.nD Cert.KernelIdeal.τ).loc Cert.KernelIdeal.main_arg1)))
    (fun d : Dev Cert.KernelIdeal.nD => (m ((d.tc : Thread Cert.KernelIdeal.nD Cert.KernelIdeal.τ).loc Cert.KernelIdeal.main_arg2))) (fun d : Dev Cert.KernelIdeal.nD => (m ((d.tc : Thread Cert.KernelIdeal.nD Cert.KernelIdeal.τ).loc Cert.KernelIdeal.main_arg3)))
    (fun d : Dev Cert.KernelIdeal.nD => (m ((d.tc : Thread Cert.KernelIdeal.nD Cert.KernelIdeal.τ).loc Cert.KernelIdeal.main_arg4))) hdev
    (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)) (m' (((0 : Dev Cert.ReferenceIdeal.nD).tc : Thread Cert.ReferenceIdeal.nD Cert.ReferenceIdeal.τ).loc Cert.ReferenceIdeal.main_arg4))
    hR0 hR1 hR2 hR3 hR4 inb0 inb1 inb2 inb3 hsc f0 c

/-- info: 'Cert.Proof.AlgValue.stored_eq_res' depends on axioms: [propext, Classical.choice, Quot.sound] -/
#guard_msgs in #print axioms stored_eq_res

end Cert.Proof.AlgValue

end
-- ==== Proof.AlgOut.lean ====
/-
  The result contents the proof's data names are the reference's result.

  Each staging window is the whole array, so the blocks a device computes from are its argument buffers; the data's result
  contents are then the four stored all-reduced chunks of the partial results of those buffers, which under the
  precondition and the block layout are the reference's result.
-/
import proofs.«900514_g7700000000000515_dist_attn_self_mha_htp_b2_sq128_skv128_d512_hq8_dh64_v7x_i16_bf16_1_alg».proof.Proof.AlgValue
import proofs.«900514_g7700000000000515_dist_attn_self_mha_htp_b2_sq128_skv128_d512_hq8_dh64_v7x_i16_bf16_1_alg».proof.Proof.KernelIdealData

noncomputable section

namespace Cert.Proof.AlgOut

open Cert.KernelIdeal Cert.KernelIdeal.Gen Cert.KernelIdeal.Terms Cert.KernelIdeal.Proto
open Idealize.ShloMosaic Idealize.SL.Sem

section Generic
variable {F : FTy → Type} [FloatOps F] (m : (ℓ : Loc nD τ sig) → Buf (Elt F) ℓ)

omit [FloatOps F] in
/-- The staging window of argument 0 is the whole array: what it reads is the array. -/
theorem xs0_eq (d : Dev nD) : xs0 m d = m ((d.tc : Thread nD τ).loc main_arg0) := by
  unfold xs0
  exact Memref.read_access_unit_zero (Elt F) main_arg0 (funext fun a => Nat.zero_mul _) _ _

omit [FloatOps F] in
/-- The staging window of argument 1 is the whole array: what it reads is the array. -/
theorem xs1_eq (d : Dev nD) : xs1 m d = m ((d.tc : Thread nD τ).loc main_arg1) := by
  unfold xs1
  exact Memref.read_access_unit_zero (Elt F) main_arg1 (funext fun a => Nat.zero_mul _) _ _

omit [FloatOps F] in
/-- The staging window of argument 2 is the whole array: what it reads is the array. -/
theorem xs2_eq (d : Dev nD) : xs2 m d = m ((d.tc : Thread nD τ).loc main_arg2) := by
  unfold xs2
  exact Memref.read_access_unit_zero (Elt F) main_arg2 (funext fun a => Nat.zero_mul _) _ _

omit [FloatOps F] in
/-- The staging window of argument 3 is the whole array: what it reads is the array. -/
theorem xs3_eq (d : Dev nD) : xs3 m d = m ((d.tc : Thread nD τ).loc main_arg3) := by
  unfold xs3
  exact Memref.read_access_unit_zero (Elt F) main_arg3 (funext fun a => Nat.zero_mul _) _ _

omit [FloatOps F] in
/-- The staging window of argument 4 is the whole array: what it reads is the array. -/
theorem xs4_eq (d : Dev nD) : xs4 m d = m ((d.tc : Thread nD τ).loc main_arg4) := by
  unfold xs4
  exact Memref.read_access_unit_zero (Elt F) main_arg4 (funext fun a => Nat.zero_mul _) _ _

/-- Chunk 0 of a device's partial result, from its argument buffers. -/
theorem part0_0_eq : part0 m 0 = fun d : Dev nD => pa0 (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) := by
  funext d
  show pa0 (xs0 m d) (xs1 m d) (xs2 m d) (xs3 m d) (xs4 m d) = _
  rw [xs0_eq, xs1_eq, xs2_eq, xs3_eq, xs4_eq]

/-- and what the three exchange steps leave of it. -/
theorem run_0_eq : run m 0 3 = red0 (fun d : Dev nD => pa0 (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4))) :=
  (show run m 0 3 = red0 (part0 m 0) from rfl).trans (congrArg red0 (part0_0_eq m))

/-- Chunk 1 of a device's partial result, from its argument buffers. -/
theorem part0_1_eq : part0 m 1 = fun d : Dev nD => pa1 (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) := by
  funext d
  show pa1 (xs0 m d) (xs1 m d) (xs2 m d) (xs3 m d) (xs4 m d) = _
  rw [xs0_eq, xs1_eq, xs2_eq, xs3_eq, xs4_eq]

/-- and what the three exchange steps leave of it. -/
theorem run_1_eq : run m 1 3 = red1 (fun d : Dev nD => pa1 (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4))) :=
  (show run m 1 3 = red1 (part0 m 1) from rfl).trans (congrArg red1 (part0_1_eq m))

/-- Chunk 2 of a device's partial result, from its argument buffers. -/
theorem part0_2_eq : part0 m 2 = fun d : Dev nD => pa2 (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) := by
  funext d
  show pa2 (xs0 m d) (xs1 m d) (xs2 m d) (xs3 m d) (xs4 m d) = _
  rw [xs0_eq, xs1_eq, xs2_eq, xs3_eq, xs4_eq]

/-- and what the three exchange steps leave of it. -/
theorem run_2_eq : run m 2 3 = red2 (fun d : Dev nD => pa2 (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4))) :=
  (show run m 2 3 = red2 (part0 m 2) from rfl).trans (congrArg red2 (part0_2_eq m))

/-- Chunk 3 of a device's partial result, from its argument buffers. -/
theorem part0_3_eq : part0 m 3 = fun d : Dev nD => pa3 (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) := by
  funext d
  show pa3 (xs0 m d) (xs1 m d) (xs2 m d) (xs3 m d) (xs4 m d) = _
  rw [xs0_eq, xs1_eq, xs2_eq, xs3_eq, xs4_eq]

/-- and what the three exchange steps leave of it. -/
theorem run_3_eq : run m 3 3 = red3 (fun d : Dev nD => pa3 (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4))) :=
  (show run m 3 3 = red3 (part0 m 3) from rfl).trans (congrArg red3 (part0_3_eq m))

end Generic

/-- The data's result contents at every device are the reference's result. -/
theorem outAt_eq_res [hPre_finite_inputs_Kernel : Cert.Pre_finite_inputs_Kernel.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 512]⟩ ⟨2, ![512, 8192]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 512]⟩ ⟨2, ![8192, 512]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 512]⟩ ⟨2, ![512, 8192]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 512]⟩ ⟨2, ![512, 8192]⟩ 1 16 c (m' (((0 : Dev Cert.ReferenceIdeal.nD).tc : Thread Cert.ReferenceIdeal.nD Cert.ReferenceIdeal.τ).loc Cert.ReferenceIdeal.main_arg4)))
    (c : Dev Cert.KernelIdeal.nD) :
    Cert.KernelIdeal.Proto.outAt (F := Ideal) m c
      = Cert.ReferenceIdeal.Value.res_main_v34 (F := Ideal) m' (0 : Dev Cert.ReferenceIdeal.nD) := by
  unfold Cert.KernelIdeal.Proto.outAt
  rw [run_0_eq, run_1_eq, run_2_eq, run_3_eq]
  exact Cert.Proof.AlgValue.stored_eq_res m m' hpre hagree _ _ _ _ _ _ c

/-- info: 'Cert.Proof.AlgOut.outAt_eq_res' depends on axioms: [propext, Classical.choice, Quot.sound] -/
#guard_msgs in #print axioms outAt_eq_res

end Cert.Proof.AlgOut

end
-- ==== Proof.lean ====
/-
  The certificate's claim, assembled. Each of the three programs runs to the end without a fault and leaves its argument
  arrays as they were; the idealised kernel is the kernel's own text read over the extended reals; and there the sixteen
  devices' result buffers all end holding the one-device reference's result: a device's buffer holds the four column
  chunks of the sum, over the sixteen devices, of their partial attention outputs, which is the reference's attention
  output because a softmax does not change when its scores are shifted by the row maximum and a product with the whole
  output matrix is the sum of the products with its sixteen row blocks.
-/
import proofs.«900514_g7700000000000515_dist_attn_self_mha_htp_b2_sq128_skv128_d512_hq8_dh64_v7x_i16_bf16_1_alg».proof.Defs
import proofs.«900514_g7700000000000515_dist_attn_self_mha_htp_b2_sq128_skv128_d512_hq8_dh64_v7x_i16_bf16_1_alg».proof.Proof.Gen.Kernel
import proofs.«900514_g7700000000000515_dist_attn_self_mha_htp_b2_sq128_skv128_d512_hq8_dh64_v7x_i16_bf16_1_alg».proof.Proof.Gen.Kernel.Skeleton
import proofs.«900514_g7700000000000515_dist_attn_self_mha_htp_b2_sq128_skv128_d512_hq8_dh64_v7x_i16_bf16_1_alg».proof.Proof.Gen.Kernel.Launch
import proofs.«900514_g7700000000000515_dist_attn_self_mha_htp_b2_sq128_skv128_d512_hq8_dh64_v7x_i16_bf16_1_alg».proof.Proof.Gen.Kernel.Points
import proofs.«900514_g7700000000000515_dist_attn_self_mha_htp_b2_sq128_skv128_d512_hq8_dh64_v7x_i16_bf16_1_alg».proof.Proof.Gen.Kernel.Frame
import proofs.«900514_g7700000000000515_dist_attn_self_mha_htp_b2_sq128_skv128_d512_hq8_dh64_v7x_i16_bf16_1_alg».proof.Proof.Gen.KernelIdeal
import proofs.«900514_g7700000000000515_dist_attn_self_mha_htp_b2_sq128_skv128_d512_hq8_dh64_v7x_i16_bf16_1_alg».proof.Proof.Gen.KernelIdeal.Skeleton
import proofs.«900514_g7700000000000515_dist_attn_self_mha_htp_b2_sq128_skv128_d512_hq8_dh64_v7x_i16_bf16_1_alg».proof.Proof.Gen.KernelIdeal.Launch
import proofs.«900514_g7700000000000515_dist_attn_self_mha_htp_b2_sq128_skv128_d512_hq8_dh64_v7x_i16_bf16_1_alg».proof.Proof.Gen.KernelIdeal.Points
import proofs.«900514_g7700000000000515_dist_attn_self_mha_htp_b2_sq128_skv128_d512_hq8_dh64_v7x_i16_bf16_1_alg».proof.Proof.Gen.KernelIdeal.Frame
import proofs.«900514_g7700000000000515_dist_attn_self_mha_htp_b2_sq128_skv128_d512_hq8_dh64_v7x_i16_bf16_1_alg».proof.Proof.Gen.ReferenceIdeal
import proofs.«900514_g7700000000000515_dist_attn_self_mha_htp_b2_sq128_skv128_d512_hq8_dh64_v7x_i16_bf16_1_alg».proof.Proof.Gen.Pre_finite_inputs_Kernel
import proofs.«900514_g7700000000000515_dist_attn_self_mha_htp_b2_sq128_skv128_d512_hq8_dh64_v7x_i16_bf16_1_alg».proof.Proof.Gen.Pre_finite_inputs_ReferenceIdeal
import proofs.«900514_g7700000000000515_dist_attn_self_mha_htp_b2_sq128_skv128_d512_hq8_dh64_v7x_i16_bf16_1_alg».proof.Proof.RefFrame
import proofs.«900514_g7700000000000515_dist_attn_self_mha_htp_b2_sq128_skv128_d512_hq8_dh64_v7x_i16_bf16_1_alg».proof.Proof.KernelIdealLaunch
import proofs.«900514_g7700000000000515_dist_attn_self_mha_htp_b2_sq128_skv128_d512_hq8_dh64_v7x_i16_bf16_1_alg».proof.Proof.KernelIdealClaims
import proofs.«900514_g7700000000000515_dist_attn_self_mha_htp_b2_sq128_skv128_d512_hq8_dh64_v7x_i16_bf16_1_alg».proof.Proof.KernelIdealBody
import proofs.«900514_g7700000000000515_dist_attn_self_mha_htp_b2_sq128_skv128_d512_hq8_dh64_v7x_i16_bf16_1_alg».proof.Proof.KernelIdealObligation
import proofs.«900514_g7700000000000515_dist_attn_self_mha_htp_b2_sq128_skv128_d512_hq8_dh64_v7x_i16_bf16_1_alg».proof.Proof.KernelLaunch
import proofs.«900514_g7700000000000515_dist_attn_self_mha_htp_b2_sq128_skv128_d512_hq8_dh64_v7x_i16_bf16_1_alg».proof.Proof.KernelClaims
import proofs.«900514_g7700000000000515_dist_attn_self_mha_htp_b2_sq128_skv128_d512_hq8_dh64_v7x_i16_bf16_1_alg».proof.Proof.KernelBody
import proofs.«900514_g7700000000000515_dist_attn_self_mha_htp_b2_sq128_skv128_d512_hq8_dh64_v7x_i16_bf16_1_alg».proof.Proof.KernelObligation
import proofs.«900514_g7700000000000515_dist_attn_self_mha_htp_b2_sq128_skv128_d512_hq8_dh64_v7x_i16_bf16_1_alg».proof.Proof.AlgOut
import Idealize.ShloMosaic.Adequacy
import Idealize.ShloMosaic.Init

noncomputable section

namespace Cert.Proof

open Idealize.ShloMosaic Idealize.SL.Sem

/-- One device's body, at every device: the kernel as printed, at the word level. -/
theorem body_k (m : (ℓ : Loc Cert.Kernel.nD Cert.Kernel.τ Cert.Kernel.sig) → Buf (Elt Bits) ℓ)
    (ρ : Dev Cert.Kernel.nD → PrngReg) (c : Dev Cert.Kernel.nD) :
    Pipeline.BodyObligation (Cert.Kernel.Proto.dats m ρ 0 c) (Cert.Kernel.defs₀ (F := Bits)) Cert.Kernel.Proto.𝒱₀ () Set.univ :=
  Cert.Kernel.Body.body_obligation m ρ
    (fun K c W X5 A0 S0 C0 Kt => Cert.Kernel.Body.sound_body m K c W X5 A0 S0 C0 Kt) c

/-- One device's body, at every device: the idealised kernel, over the extended reals. -/
theorem body_i (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Pipeline.BodyObligation (Cert.KernelIdeal.Proto.dats m ρ 0 c) (Cert.KernelIdeal.defs₀ (F := Ideal)) Cert.KernelIdeal.Proto.𝒱₀ () Set.univ :=
  Cert.KernelIdeal.Body.body_obligation m ρ
    (fun K c W X5 A0 S0 C0 Kt => Cert.KernelIdeal.Body.sound_body m K c W X5 A0 S0 C0 Kt) c

/-- The kernel's frame, at the word level: its run, the result's value dropped. -/
theorem frame_p : Cert.frame_Kernel := fun m ρ _ =>
  Cert.Kernel.Claims.frame_post m ρ (Cert.Kernel.Launch.run_main m ρ (body_k m ρ))

/-- The idealised kernel's frame: its run, the result's value dropped. -/
theorem frame_pi : Cert.frame_KernelIdeal := fun m ρ _ =>
  Cert.KernelIdeal.Claims.frame_post m ρ (Cert.KernelIdeal.Launch.run_main m ρ (body_i m ρ))

/-- The idealised kernel against the reference: both run, every device's result buffer ends at the reference's result. -/
theorem algebraic : Cert.algebraic_KernelIdeal_ReferenceIdeal := fun m ρ m' ρ' hpre hagree =>
  ⟨Cert.ReferenceIdeal.Value.res_main_v34 (F := Ideal) m' 0,
    (θ_run (Cert.KernelIdeal.defs (F := Ideal)) _ _).mono
      (fun _ h c => ⟨(h c).1.trans (Cert.Proof.AlgOut.outAt_eq_res m m' hpre hagree c), (h c).2⟩)
      (Cert.KernelIdeal.Claims.value_post m ρ (Cert.KernelIdeal.Launch.run_main m ρ (body_i m ρ))),
    (θ_run (Cert.ReferenceIdeal.defs (F := Ideal)) _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_p, frame_pi, Cert.Proof.RefSide.frame_ri, trivial, algebraic⟩

end Cert.Proof

end

/-- info: 'Cert.Proof.claim' depends on axioms: [propext, Classical.choice, Quot.sound] -/
#guard_msgs in #print axioms Cert.Proof.claim
